-- ==== Defs.lean ====
def Pre_Kernel [hPre_finite_inputs : Cert.Pre_finite_inputs.Facts] (m : (ℓ : Loc Cert.Kernel.nD Cert.Kernel.τ Cert.Kernel.sig) → Buf (Elt Bits) ℓ) : Prop :=
  ∀ c : Dev Cert.Kernel.nD,
    (Cert.Pre_finite_inputs.fn (F := Bits) (m ((c.tc : Thread Cert.Kernel.nD Cert.Kernel.τ).loc Cert.Kernel.main_arg0)) (m ((c.tc : Thread Cert.Kernel.nD Cert.Kernel.τ).loc Cert.Kernel.main_arg1)) (m ((c.tc : Thread Cert.Kernel.nD Cert.Kernel.τ).loc Cert.Kernel.main_arg2)) (m ((c.tc : Thread Cert.Kernel.nD Cert.Kernel.τ).loc Cert.Kernel.main_arg3)) (m ((c.tc : Thread Cert.Kernel.nD Cert.Kernel.τ).loc Cert.Kernel.main_arg4)) (m ((c.tc : Thread Cert.Kernel.nD Cert.Kernel.τ).loc Cert.Kernel.main_arg5))) = (fun _ => 1#1)

def Pre_KernelIdeal [hPre_finite_inputs : Cert.Pre_finite_inputs.Facts] (m : (ℓ : Loc Cert.KernelIdeal.nD Cert.KernelIdeal.τ Cert.KernelIdeal.sig) → Buf (Elt Ideal) ℓ) : Prop :=
  ∀ c : Dev Cert.KernelIdeal.nD,
    (Cert.Pre_finite_inputs.fn (F := Ideal) (m ((c.tc : Thread Cert.KernelIdeal.nD Cert.KernelIdeal.τ).loc Cert.KernelIdeal.main_arg0)) (m ((c.tc : Thread Cert.KernelIdeal.nD Cert.KernelIdeal.τ).loc Cert.KernelIdeal.main_arg1)) (m ((c.tc : Thread Cert.KernelIdeal.nD Cert.KernelIdeal.τ).loc Cert.KernelIdeal.main_arg2)) (m ((c.tc : Thread Cert.KernelIdeal.nD Cert.KernelIdeal.τ).loc Cert.KernelIdeal.main_arg3)) (m ((c.tc : Thread Cert.KernelIdeal.nD Cert.KernelIdeal.τ).loc Cert.KernelIdeal.main_arg4)) (m ((c.tc : Thread Cert.KernelIdeal.nD Cert.KernelIdeal.τ).loc Cert.KernelIdeal.main_arg5))) = (fun _ => 1#1)

def Pre_ReferenceIdeal [hPre_finite_inputs : Cert.Pre_finite_inputs.Facts] (m : (ℓ : Loc Cert.ReferenceIdeal.nD Cert.ReferenceIdeal.τ Cert.ReferenceIdeal.sig) → Buf (Elt Ideal) ℓ) : Prop :=
  ∀ c : Dev Cert.ReferenceIdeal.nD,
    (Cert.Pre_finite_inputs.fn (F := Ideal) (m ((c.tc : Thread Cert.ReferenceIdeal.nD Cert.ReferenceIdeal.τ).loc Cert.ReferenceIdeal.main_arg0)) (m ((c.tc : Thread Cert.ReferenceIdeal.nD Cert.ReferenceIdeal.τ).loc Cert.ReferenceIdeal.main_arg1)) (m ((c.tc : Thread Cert.ReferenceIdeal.nD Cert.ReferenceIdeal.τ).loc Cert.ReferenceIdeal.main_arg2)) (m ((c.tc : Thread Cert.ReferenceIdeal.nD Cert.ReferenceIdeal.τ).loc Cert.ReferenceIdeal.main_arg3)) (m ((c.tc : Thread Cert.ReferenceIdeal.nD Cert.ReferenceIdeal.τ).loc Cert.ReferenceIdeal.main_arg4)) (m ((c.tc : Thread Cert.ReferenceIdeal.nD Cert.ReferenceIdeal.τ).loc Cert.ReferenceIdeal.main_arg5))) = (fun _ => 1#1)

def frame_Kernel [hKernel : Cert.Kernel.Facts] [hPre_finite_inputs : Cert.Pre_finite_inputs.Facts] : Prop :=
  ∀ (m : (ℓ : Loc Cert.Kernel.nD Cert.Kernel.τ Cert.Kernel.sig) → Buf (Elt Bits) ℓ) (g : Dev Cert.Kernel.nD → PrngReg), Pre_Kernel m →
    θ_run (Cert.Kernel.defs (F := Bits)) (onTc (τ := Cert.Kernel.τ) (Cert.Kernel.main (F := Bits))) ⟨m, fun _ => 0, g⟩ (fun r => ∀ c : Dev Cert.Kernel.nD,
      r.2.mem ((c.tc : Thread Cert.Kernel.nD Cert.Kernel.τ).loc Cert.Kernel.main_arg0) = m ((c.tc : Thread Cert.Kernel.nD Cert.Kernel.τ).loc Cert.Kernel.main_arg0)
      ∧ r.2.mem ((c.tc : Thread Cert.Kernel.nD Cert.Kernel.τ).loc Cert.Kernel.main_arg1) = m ((c.tc : Thread Cert.Kernel.nD Cert.Kernel.τ).loc Cert.Kernel.main_arg1)
      ∧ r.2.mem ((c.tc : Thread Cert.Kernel.nD Cert.Kernel.τ).loc Cert.Kernel.main_arg2) = m ((c.tc : Thread Cert.Kernel.nD Cert.Kernel.τ).loc Cert.Kernel.main_arg2)
      ∧ r.2.mem ((c.tc : Thread Cert.Kernel.nD Cert.Kernel.τ).loc Cert.Kernel.main_arg3) = m ((c.tc : Thread Cert.Kernel.nD Cert.Kernel.τ).loc Cert.Kernel.main_arg3)
      ∧ r.2.mem ((c.tc : Thread Cert.Kernel.nD Cert.Kernel.τ).loc Cert.Kernel.main_arg4) = m ((c.tc : Thread Cert.Kernel.nD Cert.Kernel.τ).loc Cert.Kernel.main_arg4)
      ∧ r.2.mem ((c.tc : Thread Cert.Kernel.nD Cert.Kernel.τ).loc Cert.Kernel.main_arg5) = m ((c.tc : Thread Cert.Kernel.nD Cert.Kernel.τ).loc Cert.Kernel.main_arg5))

def frame_KernelIdeal [hKernelIdeal : Cert.KernelIdeal.Facts] [hPre_finite_inputs : Cert.Pre_finite_inputs.Facts] : Prop :=
  ∀ (m : (ℓ : Loc Cert.KernelIdeal.nD Cert.KernelIdeal.τ Cert.KernelIdeal.sig) → Buf (Elt Ideal) ℓ) (g : Dev Cert.KernelIdeal.nD → PrngReg), Pre_KernelIdeal m →
    θ_run (Cert.KernelIdeal.defs (F := Ideal)) (onTc (τ := Cert.KernelIdeal.τ) (Cert.KernelIdeal.main (F := Ideal))) ⟨m, fun _ => 0, g⟩ (fun r => ∀ c : Dev Cert.KernelIdeal.nD,
      r.2.mem ((c.tc : Thread Cert.KernelIdeal.nD Cert.KernelIdeal.τ).loc Cert.KernelIdeal.main_arg0) = m ((c.tc : Thread Cert.KernelIdeal.nD Cert.KernelIdeal.τ).loc Cert.KernelIdeal.main_arg0)
      ∧ r.2.mem ((c.tc : Thread Cert.KernelIdeal.nD Cert.KernelIdeal.τ).loc Cert.KernelIdeal.main_arg1) = m ((c.tc : Thread Cert.KernelIdeal.nD Cert.KernelIdeal.τ).loc Cert.KernelIdeal.main_arg1)
      ∧ r.2.mem ((c.tc : Thread Cert.KernelIdeal.nD Cert.KernelIdeal.τ).loc Cert.KernelIdeal.main_arg2) = m ((c.tc : Thread Cert.KernelIdeal.nD Cert.KernelIdeal.τ).loc Cert.KernelIdeal.main_arg2)
      ∧ r.2.mem ((c.tc : Thread Cert.KernelIdeal.nD Cert.KernelIdeal.τ).loc Cert.KernelIdeal.main_arg3) = m ((c.tc : Thread Cert.KernelIdeal.nD Cert.KernelIdeal.τ).loc Cert.KernelIdeal.main_arg3)
      ∧ r.2.mem ((c.tc : Thread Cert.KernelIdeal.nD Cert.KernelIdeal.τ).loc Cert.KernelIdeal.main_arg4) = m ((c.tc : Thread Cert.KernelIdeal.nD Cert.KernelIdeal.τ).loc Cert.KernelIdeal.main_arg4)
      ∧ r.2.mem ((c.tc : Thread Cert.KernelIdeal.nD Cert.KernelIdeal.τ).loc Cert.KernelIdeal.main_arg5) = m ((c.tc : Thread Cert.KernelIdeal.nD Cert.KernelIdeal.τ).loc Cert.KernelIdeal.main_arg5))

def frame_ReferenceIdeal [hReferenceIdeal : Cert.ReferenceIdeal.Facts] [hPre_finite_inputs : Cert.Pre_finite_inputs.Facts] : Prop :=
  ∀ (m : (ℓ : Loc Cert.ReferenceIdeal.nD Cert.ReferenceIdeal.τ Cert.ReferenceIdeal.sig) → Buf (Elt Ideal) ℓ) (g : Dev Cert.ReferenceIdeal.nD → PrngReg), Pre_ReferenceIdeal m →
    θ_run (Cert.ReferenceIdeal.defs (F := Ideal)) (onTc (τ := Cert.ReferenceIdeal.τ) (Cert.ReferenceIdeal.main (F := Ideal))) ⟨m, fun _ => 0, g⟩ (fun r => ∀ c : Dev Cert.ReferenceIdeal.nD,
      r.2.mem ((c.tc : Thread Cert.ReferenceIdeal.nD Cert.ReferenceIdeal.τ).loc Cert.ReferenceIdeal.main_arg0) = m ((c.tc : Thread Cert.ReferenceIdeal.nD Cert.ReferenceIdeal.τ).loc Cert.ReferenceIdeal.main_arg0)
      ∧ r.2.mem ((c.tc : Thread Cert.ReferenceIdeal.nD Cert.ReferenceIdeal.τ).loc Cert.ReferenceIdeal.main_arg1) = m ((c.tc : Thread Cert.ReferenceIdeal.nD Cert.ReferenceIdeal.τ).loc Cert.ReferenceIdeal.main_arg1)
      ∧ r.2.mem ((c.tc : Thread Cert.ReferenceIdeal.nD Cert.ReferenceIdeal.τ).loc Cert.ReferenceIdeal.main_arg2) = m ((c.tc : Thread Cert.ReferenceIdeal.nD Cert.ReferenceIdeal.τ).loc Cert.ReferenceIdeal.main_arg2)
      ∧ r.2.mem ((c.tc : Thread Cert.ReferenceIdeal.nD Cert.ReferenceIdeal.τ).loc Cert.ReferenceIdeal.main_arg3) = m ((c.tc : Thread Cert.ReferenceIdeal.nD Cert.ReferenceIdeal.τ).loc Cert.ReferenceIdeal.main_arg3)
      ∧ r.2.mem ((c.tc : Thread Cert.ReferenceIdeal.nD Cert.ReferenceIdeal.τ).loc Cert.ReferenceIdeal.main_arg4) = m ((c.tc : Thread Cert.ReferenceIdeal.nD Cert.ReferenceIdeal.τ).loc Cert.ReferenceIdeal.main_arg4)
      ∧ r.2.mem ((c.tc : Thread Cert.ReferenceIdeal.nD Cert.ReferenceIdeal.τ).loc Cert.ReferenceIdeal.main_arg5) = m ((c.tc : Thread Cert.ReferenceIdeal.nD Cert.ReferenceIdeal.τ).loc Cert.ReferenceIdeal.main_arg5))

def preserves_Kernel_KernelIdeal : Prop :=
  True

def algebraic_KernelIdeal_ReferenceIdeal [hKernelIdeal : Cert.KernelIdeal.Facts] [hReferenceIdeal : Cert.ReferenceIdeal.Facts] [hPre_finite_inputs : Cert.Pre_finite_inputs.Facts] : Prop :=
  ∀ (m : (ℓ : Loc Cert.KernelIdeal.nD Cert.KernelIdeal.τ Cert.KernelIdeal.sig) → Buf (Elt Ideal) ℓ) (g : Dev Cert.KernelIdeal.nD → PrngReg)
    (m' : (ℓ : Loc Cert.ReferenceIdeal.nD Cert.ReferenceIdeal.τ Cert.ReferenceIdeal.sig) → Buf (Elt Ideal) ℓ) (g' : Dev Cert.ReferenceIdeal.nD → PrngReg), Pre_KernelIdeal m →
    (∀ c : Dev Cert.KernelIdeal.nD,
      m' ((c.tc : Thread Cert.ReferenceIdeal.nD Cert.ReferenceIdeal.τ).loc Cert.ReferenceIdeal.main_arg0) = m ((c.tc : Thread Cert.KernelIdeal.nD Cert.KernelIdeal.τ).loc Cert.KernelIdeal.main_arg0)
      ∧ m' ((c.tc : Thread Cert.ReferenceIdeal.nD Cert.ReferenceIdeal.τ).loc Cert.ReferenceIdeal.main_arg1) = m ((c.tc : Thread Cert.KernelIdeal.nD Cert.KernelIdeal.τ).loc Cert.KernelIdeal.main_arg1)
      ∧ m' ((c.tc : Thread Cert.ReferenceIdeal.nD Cert.ReferenceIdeal.τ).loc Cert.ReferenceIdeal.main_arg2) = m ((c.tc : Thread Cert.KernelIdeal.nD Cert.KernelIdeal.τ).loc Cert.KernelIdeal.main_arg2)
      ∧ m' ((c.tc : Thread Cert.ReferenceIdeal.nD Cert.ReferenceIdeal.τ).loc Cert.ReferenceIdeal.main_arg3) = m ((c.tc : Thread Cert.KernelIdeal.nD Cert.KernelIdeal.τ).loc Cert.KernelIdeal.main_arg3)
      ∧ m' ((c.tc : Thread Cert.ReferenceIdeal.nD Cert.ReferenceIdeal.τ).loc Cert.ReferenceIdeal.main_arg4) = m ((c.tc : Thread Cert.KernelIdeal.nD Cert.KernelIdeal.τ).loc Cert.KernelIdeal.main_arg4)
      ∧ m' ((c.tc : Thread Cert.ReferenceIdeal.nD Cert.ReferenceIdeal.τ).loc Cert.ReferenceIdeal.main_arg5) = m ((c.tc : Thread Cert.KernelIdeal.nD Cert.KernelIdeal.τ).loc Cert.KernelIdeal.main_arg5)) →
    ∃ (v0 : (c : Dev Cert.KernelIdeal.nD) → Buf (Elt Ideal) ((c.tc : Thread Cert.KernelIdeal.nD Cert.KernelIdeal.τ).loc Cert.KernelIdeal.main_v94)) (v1 : (c : Dev Cert.KernelIdeal.nD) → Buf (Elt Ideal) ((c.tc : Thread Cert.KernelIdeal.nD Cert.KernelIdeal.τ).loc Cert.KernelIdeal.main_v185)) (v2 : (c : Dev Cert.KernelIdeal.nD) → Buf (Elt Ideal) ((c.tc : Thread Cert.KernelIdeal.nD Cert.KernelIdeal.τ).loc Cert.KernelIdeal.main_v209)),
      θ_run (Cert.KernelIdeal.defs (F := Ideal)) (onTc (τ := Cert.KernelIdeal.τ) (Cert.KernelIdeal.main (F := Ideal))) ⟨m, fun _ => 0, g⟩ (fun r => ∀ c : Dev Cert.KernelIdeal.nD,
          r.2.mem ((c.tc : Thread Cert.KernelIdeal.nD Cert.KernelIdeal.τ).loc Cert.KernelIdeal.main_v94) = v0 c
          ∧ r.2.mem ((c.tc : Thread Cert.KernelIdeal.nD Cert.KernelIdeal.τ).loc Cert.KernelIdeal.main_v185) = v1 c
          ∧ r.2.mem ((c.tc : Thread Cert.KernelIdeal.nD Cert.KernelIdeal.τ).loc Cert.KernelIdeal.main_v209) = v2 c
          ∧ r.2.mem ((c.tc : Thread Cert.KernelIdeal.nD Cert.KernelIdeal.τ).loc Cert.KernelIdeal.main_arg0) = m ((c.tc : Thread Cert.KernelIdeal.nD Cert.KernelIdeal.τ).loc Cert.KernelIdeal.main_arg0)
          ∧ r.2.mem ((c.tc : Thread Cert.KernelIdeal.nD Cert.KernelIdeal.τ).loc Cert.KernelIdeal.main_arg1) = m ((c.tc : Thread Cert.KernelIdeal.nD Cert.KernelIdeal.τ).loc Cert.KernelIdeal.main_arg1)
          ∧ r.2.mem ((c.tc : Thread Cert.KernelIdeal.nD Cert.KernelIdeal.τ).loc Cert.KernelIdeal.main_arg2) = m ((c.tc : Thread Cert.KernelIdeal.nD Cert.KernelIdeal.τ).loc Cert.KernelIdeal.main_arg2)
          ∧ r.2.mem ((c.tc : Thread Cert.KernelIdeal.nD Cert.KernelIdeal.τ).loc Cert.KernelIdeal.main_arg3) = m ((c.tc : Thread Cert.KernelIdeal.nD Cert.KernelIdeal.τ).loc Cert.KernelIdeal.main_arg3)
          ∧ r.2.mem ((c.tc : Thread Cert.KernelIdeal.nD Cert.KernelIdeal.τ).loc Cert.KernelIdeal.main_arg4) = m ((c.tc : Thread Cert.KernelIdeal.nD Cert.KernelIdeal.τ).loc Cert.KernelIdeal.main_arg4)
          ∧ r.2.mem ((c.tc : Thread Cert.KernelIdeal.nD Cert.KernelIdeal.τ).loc Cert.KernelIdeal.main_arg5) = m ((c.tc : Thread Cert.KernelIdeal.nD Cert.KernelIdeal.τ).loc Cert.KernelIdeal.main_arg5))
      ∧ θ_run (Cert.ReferenceIdeal.defs (F := Ideal)) (onTc (τ := Cert.ReferenceIdeal.τ) (Cert.ReferenceIdeal.main (F := Ideal))) ⟨m', fun _ => 0, g'⟩ (fun r => ∀ c : Dev Cert.ReferenceIdeal.nD,
          r.2.mem ((c.tc : Thread Cert.ReferenceIdeal.nD Cert.ReferenceIdeal.τ).loc Cert.ReferenceIdeal.main_v46) = v0 c
          ∧ r.2.mem ((c.tc : Thread Cert.ReferenceIdeal.nD Cert.ReferenceIdeal.τ).loc Cert.ReferenceIdeal.main_v143) = v1 c
          ∧ r.2.mem ((c.tc : Thread Cert.ReferenceIdeal.nD Cert.ReferenceIdeal.τ).loc Cert.ReferenceIdeal.main_v167) = v2 c
          ∧ r.2.mem ((c.tc : Thread Cert.ReferenceIdeal.nD Cert.ReferenceIdeal.τ).loc Cert.ReferenceIdeal.main_arg0) = m' ((c.tc : Thread Cert.ReferenceIdeal.nD Cert.ReferenceIdeal.τ).loc Cert.ReferenceIdeal.main_arg0)
          ∧ r.2.mem ((c.tc : Thread Cert.ReferenceIdeal.nD Cert.ReferenceIdeal.τ).loc Cert.ReferenceIdeal.main_arg1) = m' ((c.tc : Thread Cert.ReferenceIdeal.nD Cert.ReferenceIdeal.τ).loc Cert.ReferenceIdeal.main_arg1)
          ∧ r.2.mem ((c.tc : Thread Cert.ReferenceIdeal.nD Cert.ReferenceIdeal.τ).loc Cert.ReferenceIdeal.main_arg2) = m' ((c.tc : Thread Cert.ReferenceIdeal.nD Cert.ReferenceIdeal.τ).loc Cert.ReferenceIdeal.main_arg2)
          ∧ r.2.mem ((c.tc : Thread Cert.ReferenceIdeal.nD Cert.ReferenceIdeal.τ).loc Cert.ReferenceIdeal.main_arg3) = m' ((c.tc : Thread Cert.ReferenceIdeal.nD Cert.ReferenceIdeal.τ).loc Cert.ReferenceIdeal.main_arg3)
          ∧ r.2.mem ((c.tc : Thread Cert.ReferenceIdeal.nD Cert.ReferenceIdeal.τ).loc Cert.ReferenceIdeal.main_arg4) = m' ((c.tc : Thread Cert.ReferenceIdeal.nD Cert.ReferenceIdeal.τ).loc Cert.ReferenceIdeal.main_arg4)
          ∧ r.2.mem ((c.tc : Thread Cert.ReferenceIdeal.nD Cert.ReferenceIdeal.τ).loc Cert.ReferenceIdeal.main_arg5) = m' ((c.tc : Thread Cert.ReferenceIdeal.nD Cert.ReferenceIdeal.τ).loc Cert.ReferenceIdeal.main_arg5))

def Claim : Prop :=
  ∃ (hKernel : Cert.Kernel.Facts) (hKernelIdeal : Cert.KernelIdeal.Facts) (hReferenceIdeal : Cert.ReferenceIdeal.Facts) (hPre_finite_inputs : Cert.Pre_finite_inputs.Facts),
    frame_Kernel (hKernel := hKernel) (hPre_finite_inputs := hPre_finite_inputs)
    ∧ frame_KernelIdeal (hKernelIdeal := hKernelIdeal) (hPre_finite_inputs := hPre_finite_inputs)
    ∧ frame_ReferenceIdeal (hReferenceIdeal := hReferenceIdeal) (hPre_finite_inputs := hPre_finite_inputs)
    ∧ preserves_Kernel_KernelIdeal
    ∧ algebraic_KernelIdeal_ReferenceIdeal (hKernelIdeal := hKernelIdeal) (hReferenceIdeal := hReferenceIdeal) (hPre_finite_inputs := hPre_finite_inputs)
-- ==== Pre_finite_inputs.lean ====
abbrev S1024x128 : Shape := ⟨2, ![1024, 128]⟩
abbrev S128x65536 : Shape := ⟨2, ![128, 65536]⟩
abbrev S1024 : Shape := ⟨1, ![1024]⟩
abbrev S65536 : Shape := ⟨1, ![65536]⟩
abbrev S_ : Shape := ⟨0, ![]⟩

class Facts : Prop where
  bcast_S_S1024x128 : S_.BroadcastsInDim S1024x128 (![] : Fin 0 → Fin S1024x128.rank)
  reducesTo_S1024x128_S_d0_1 : S1024x128.ReducesTo [0, 1] S_
  h_S_ : 0 < S_.numel
  bcast_S_S128x65536 : S_.BroadcastsInDim S128x65536 (![] : Fin 0 → Fin S128x65536.rank)
  reducesTo_S128x65536_S_d0_1 : S128x65536.ReducesTo [0, 1] S_
  bcast_S_S1024 : S_.BroadcastsInDim S1024 (![] : Fin 0 → Fin S1024.rank)
  reducesTo_S1024_S_d0 : S1024.ReducesTo [0] S_

variable [Facts]

def fn_part1 {F : FTy → Type} [FloatOps F] (main_arg4 : IVec S1024 32) (main_v13 : IVec S_ 1) (main_v16 : IVec S128x65536 1) : IVec S_ 1 :=
  let main_c_5 : IVec S_ 1 := constantI S_ 1 1#1
  let main_v17 : IVec S_ 1 := (fun x v => Host.reduce IntOp.andi x v reducesTo_S128x65536_S_d0_1 h_S_) main_v16 main_c_5
  let main_v18 : IVec S_ 1 := andi main_v13 main_v17
  let main_c_6 : IVec S_ 32 := constantI S_ 32 0#32
  let main_v19 : IVec S1024 32 := broadcastInDim S1024 ![] bcast_S_S1024 main_c_6
  let main_v20 : IVec S1024 1 := cmpi .sge main_arg4 main_v19
  let main_c_7 : IVec S_ 1 := constantI S_ 1 1#1
  let main_v21 : IVec S_ 1 := (fun x v => Host.reduce IntOp.andi x v reducesTo_S1024_S_d0 h_S_) main_v20 main_c_7
  let main_v22 : IVec S_ 1 := andi main_v18 main_v21
  let main_c_8 : IVec S_ 32 := constantI S_ 32 2048#32
  let main_v23 : IVec S1024 32 := broadcastInDim S1024 ![] bcast_S_S1024 main_c_8
  let main_v24 : IVec S1024 1 := cmpi .slt main_arg4 main_v23
  let main_c_9 : IVec S_ 1 := constantI S_ 1 1#1
  let main_v25 : IVec S_ 1 := (fun x v => Host.reduce IntOp.andi x v reducesTo_S1024_S_d0 h_S_) main_v24 main_c_9
  let main_v26 : IVec S_ 1 := andi main_v22 main_v25
  main_v26

def fn {F : FTy → Type} [FloatOps F] (main_arg0 : FVec F S1024x128 .f32) (main_arg1 : FVec F S1024x128 .f32) (main_arg2 : FVec F S1024x128 .f32) (main_arg3 : FVec F S128x65536 .f32) (main_arg4 : IVec S1024 32) (main_arg5 : IVec S65536 32) : IVec S_ 1 :=
  let main_v0 : FVec F S1024x128 .f32 := Host.absf main_arg0
  let main_cst : FVec F S_ .f32 := constant S_ .f32 0x7F800000#32
  let main_v1 : FVec F S1024x128 .f32 := broadcastInDim S1024x128 ![] bcast_S_S1024x128 main_cst
  let main_v2 : IVec S1024x128 1 := cmpf .olt main_v0 main_v1
  let main_c : IVec S_ 1 := constantI S_ 1 1#1
  let main_v3 : IVec S_ 1 := (fun x v => Host.reduce IntOp.andi x v reducesTo_S1024x128_S_d0_1 h_S_) main_v2 main_c
  let main_v4 : FVec F S1024x128 .f32 := Host.absf main_arg1
  let main_cst_0 : FVec F S_ .f32 := constant S_ .f32 0x7F800000#32
  let main_v5 : FVec F S1024x128 .f32 := broadcastInDim S1024x128 ![] bcast_S_S1024x128 main_cst_0
  let main_v6 : IVec S1024x128 1 := cmpf .olt main_v4 main_v5
  let main_c_1 : IVec S_ 1 := constantI S_ 1 1#1
  let main_v7 : IVec S_ 1 := (fun x v => Host.reduce IntOp.andi x v reducesTo_S1024x128_S_d0_1 h_S_) main_v6 main_c_1
  let main_v8 : IVec S_ 1 := andi main_v3 main_v7
  let main_v9 : FVec F S1024x128 .f32 := Host.absf main_arg2
  let main_cst_2 : FVec F S_ .f32 := constant S_ .f32 0x7F800000#32
  let main_v10 : FVec F S1024x128 .f32 := broadcastInDim S1024x128 ![] bcast_S_S1024x128 main_cst_2
  let main_v11 : IVec S1024x128 1 := cmpf .olt main_v9 main_v10
  let main_c_3 : IVec S_ 1 := constantI S_ 1 1#1
  let main_v12 : IVec S_ 1 := (fun x v => Host.reduce IntOp.andi x v reducesTo_S1024x128_S_d0_1 h_S_) main_v11 main_c_3
  let main_v13 : IVec S_ 1 := andi main_v8 main_v12
  let main_v14 : FVec F S128x65536 .f32 := Host.absf main_arg3
  let main_cst_4 : FVec F S_ .f32 := constant S_ .f32 0x7F800000#32
  let main_v15 : FVec F S128x65536 .f32 := broadcastInDim S128x65536 ![] bcast_S_S128x65536 main_cst_4
  let main_v16 : IVec S128x65536 1 := cmpf .olt main_v14 main_v15
  fn_part1 (F := F) main_arg4 main_v13 main_v16
-- ==== Kernel.lean ====
abbrev S1024x128 : Shape := ⟨2, ![1024, 128]⟩
abbrev S128x65536 : Shape := ⟨2, ![128, 65536]⟩
abbrev S1024 : Shape := ⟨1, ![1024]⟩
abbrev S65536 : Shape := ⟨1, ![65536]⟩
abbrev S_ : Shape := ⟨0, ![]⟩
abbrev S1024x1 : Shape := ⟨2, ![1024, 1]⟩
abbrev S128x1024 : Shape := ⟨2, ![128, 1024]⟩
abbrev S1024x1024 : Shape := ⟨2, ![1024, 1024]⟩
abbrev S1x1024 : Shape := ⟨2, ![1, 1024]⟩
abbrev S65536x1 : Shape := ⟨2, ![65536, 1]⟩
abbrev S1x65536 : Shape := ⟨2, ![1, 65536]⟩
abbrev S2x128x2048 : Shape := ⟨3, ![2, 128, 2048]⟩
abbrev S2x1024x1 : Shape := ⟨3, ![2, 1024, 1]⟩
abbrev S128x512 : Shape := ⟨2, ![128, 512]⟩
abbrev S512x1 : Shape := ⟨2, ![512, 1]⟩
abbrev S1x512 : Shape := ⟨2, ![1, 512]⟩
abbrev S1x128x2048 : Shape := ⟨3, ![1, 128, 2048]⟩
abbrev S1x1024x1 : Shape := ⟨3, ![1, 1024, 1]⟩
abbrev S128x2048 : Shape := ⟨2, ![128, 2048]⟩
abbrev S512x2048 : Shape := ⟨2, ![512, 2048]⟩
abbrev S512 : Shape := ⟨1, ![512]⟩
abbrev S1024x512 : Shape := ⟨2, ![1024, 512]⟩
abbrev S2048 : Shape := ⟨1, ![2048]⟩
abbrev S2048x128 : Shape := ⟨2, ![2048, 128]⟩
abbrev S128 : Shape := ⟨1, ![128]⟩
abbrev S1x128 : Shape := ⟨2, ![1, 128]⟩
abbrev S2048x1 : Shape := ⟨2, ![2048, 1]⟩
abbrev S1024x2048 : Shape := ⟨2, ![1024, 2048]⟩
abbrev S4096 : Shape := ⟨1, ![4096]⟩
abbrev S1024x4096 : Shape := ⟨2, ![1024, 4096]⟩
abbrev S1x4096 : Shape := ⟨2, ![1, 4096]⟩
abbrev S3072 : Shape := ⟨1, ![3072]⟩
abbrev S1024x3072 : Shape := ⟨2, ![1024, 3072]⟩
abbrev S1x3072 : Shape := ⟨2, ![1, 3072]⟩

abbrev nBuf : Space → Nat
  | .hbm => 289
  | .vmem => 20
  | .smem => 0
  | _ => 0

abbrev hbmTy0_0 (i : Nat) : BufTy := match i % 128 with
  | 0 => ⟨S1024x128, .f32⟩
  | 1 => ⟨S1024x128, .f32⟩
  | 2 => ⟨S1024x128, .f32⟩
  | 3 => ⟨S128x65536, .f32⟩
  | 4 => ⟨S1024, .i32⟩
  | 5 => ⟨S65536, .i32⟩
  | 6 => ⟨S1024x128, .f32⟩
  | 7 => ⟨S_, .f32⟩
  | 8 => ⟨S1024, .f32⟩
  | 9 => ⟨S1024x1, .f32⟩
  | 10 => ⟨S1024x1, .f32⟩
  | 11 => ⟨S_, .f32⟩
  | 12 => ⟨S1024x1, .f32⟩
  | 13 => ⟨S1024x1, .f32⟩
  | 14 => ⟨S1024x128, .f32⟩
  | 15 => ⟨S1024x128, .f32⟩
  | 16 => ⟨S1024x128, .f32⟩
  | 17 => ⟨S_, .f32⟩
  | 18 => ⟨S1024, .f32⟩
  | 19 => ⟨S1024x1, .f32⟩
  | 20 => ⟨S1024x1, .f32⟩
  | 21 => ⟨S_, .f32⟩
  | 22 => ⟨S1024x1, .f32⟩
  | 23 => ⟨S1024x1, .f32⟩
  | 24 => ⟨S1024x128, .f32⟩
  | 25 => ⟨S1024x128, .f32⟩
  | 26 => ⟨S128x1024, .f32⟩
  | 27 => ⟨S1024x1024, .f32⟩
  | 28 => ⟨S_, .f32⟩
  | 29 => ⟨S1024x1024, .f32⟩
  | 30 => ⟨S1024x1024, .f32⟩
  | 31 => ⟨S_, .f32⟩
  | 32 => ⟨S1024, .f32⟩
  | 33 => ⟨S1024x1, .f32⟩
  | 34 => ⟨S1024x1024, .f32⟩
  | 35 => ⟨S1024x1024, .f32⟩
  | 36 => ⟨S1024x1024, .f32⟩
  | 37 => ⟨S_, .f32⟩
  | 38 => ⟨S1024, .f32⟩
  | 39 => ⟨S1024x1, .f32⟩
  | 40 => ⟨S1024x1, .i32⟩
  | 41 => ⟨S1x1024, .i32⟩
  | 42 => ⟨S1024x1024, .i32⟩
  | 43 => ⟨S1024x1024, .i32⟩
  | 44 => ⟨S1024x1024, .i1⟩
  | 45 => ⟨S1024x1024, .f32⟩
  | 46 => ⟨S1024x1024, .f32⟩
  | 47 => ⟨S_, .f32⟩
  | 48 => ⟨S1024, .f32⟩
  | 49 => ⟨S1024x1, .f32⟩
  | 50 => ⟨S_, .f32⟩
  | 51 => ⟨S1024, .f32⟩
  | 52 => ⟨S1024x1, .f32⟩
  | 53 => ⟨S_, .f32⟩
  | 54 => ⟨S1024x128, .f32⟩
  | 55 => ⟨S1024x128, .f32⟩
  | 56 => ⟨S1024x128, .bf16⟩
  | 57 => ⟨S1024x1, .i32⟩
  | 58 => ⟨S65536x1, .i32⟩
  | 59 => ⟨S1x65536, .i32⟩
  | 60 => ⟨S2x128x2048, .f32⟩
  | 61 => ⟨S2x1024x1, .f32⟩
  | 62 => ⟨S2x1024x1, .f32⟩
  | 63 => ⟨S2x1024x1, .f32⟩
  | 64 => ⟨S1x1024x1, .f32⟩
  | 65 => ⟨S1024x1, .f32⟩
  | 66 => ⟨S1x1024x1, .f32⟩
  | 67 => ⟨S1024x1, .f32⟩
  | 68 => ⟨S1x1024x1, .f32⟩
  | 69 => ⟨S1024x1, .f32⟩
  | 70 => ⟨S1x1024x1, .f32⟩
  | 71 => ⟨S1024x1, .f32⟩
  | 72 => ⟨S1024x1, .f32⟩
  | 73 => ⟨S1024x1, .f32⟩
  | 74 => ⟨S1024x1, .f32⟩
  | 75 => ⟨S1024x1, .f32⟩
  | 76 => ⟨S1024x1, .f32⟩
  | 77 => ⟨S1024x1, .f32⟩
  | 78 => ⟨S1024x1, .f32⟩
  | 79 => ⟨S1024x1, .f32⟩
  | 80 => ⟨S1024x1, .f32⟩
  | 81 => ⟨S1024x1, .f32⟩
  | 82 => ⟨S1024x1, .f32⟩
  | 83 => ⟨S1024x1, .f32⟩
  | 84 => ⟨S1024x1, .f32⟩
  | 85 => ⟨S1024x1, .f32⟩
  | 86 => ⟨S1024x1, .f32⟩
  | 87 => ⟨S1024x1, .f32⟩
  | 88 => ⟨S1x1024x1, .f32⟩
  | 89 => ⟨S1024x1, .f32⟩
  | 90 => ⟨S1024x1, .f32⟩
  | 91 => ⟨S1x1024x1, .f32⟩
  | 92 => ⟨S1024x1, .f32⟩
  | 93 => ⟨S1024x1, .f32⟩
  | 94 => ⟨S1024x1, .f32⟩
  | 95 => ⟨S1024x1, .f32⟩
  | 96 => ⟨S_, .f32⟩
  | 97 => ⟨S65536, .f32⟩
  | 98 => ⟨S_, .f32⟩
  | 99 => ⟨S2048, .f32⟩
  | 100 => ⟨S65536x1, .i32⟩
  | 101 => ⟨S2048, .f32⟩
  | 102 => ⟨S_, .i32⟩
  | 103 => ⟨S1024, .i32⟩
  | 104 => ⟨S1024, .i1⟩
  | 105 => ⟨S_, .i32⟩
  | 106 => ⟨S1024, .i32⟩
  | 107 => ⟨S1024, .i32⟩
  | 108 => ⟨S1024, .i32⟩
  | 109 => ⟨S1024x1, .i32⟩
  | 110 => ⟨S1024, .f32⟩
  | 111 => ⟨S1024x1, .f32⟩
  | 112 => ⟨S1024x1, .f32⟩
  | 113 => ⟨S1024x1, .f32⟩
  | 114 => ⟨S1024x1, .f32⟩
  | 115 => ⟨S_, .f32⟩
  | 116 => ⟨S_, .f32⟩
  | 117 => ⟨S_, .f32⟩
  | 118 => ⟨S_, .f32⟩
  | 119 => ⟨S_, .f32⟩
  | 120 => ⟨S_, .f32⟩
  | 121 => ⟨S128x2048, .f32⟩
  | 122 => ⟨S2048x128, .f32⟩
  | 123 => ⟨S_, .f32⟩
  | 124 => ⟨S128, .f32⟩
  | 125 => ⟨S_, .f32⟩
  | 126 => ⟨S128, .f32⟩
  | 127 => ⟨S_, .i32⟩
  | _ => ⟨S1024x128, .f32⟩

abbrev hbmTy0_1 (i : Nat) : BufTy := match i % 128 with
  | 0 => ⟨S1024, .i32⟩
  | 1 => ⟨S1024, .i1⟩
  | 2 => ⟨S_, .i32⟩
  | 3 => ⟨S1024, .i32⟩
  | 4 => ⟨S1024, .i32⟩
  | 5 => ⟨S1024, .i32⟩
  | 6 => ⟨S1024x1, .i32⟩
  | 7 => ⟨S1024, .f32⟩
  | 8 => ⟨S_, .f32⟩
  | 9 => ⟨S1024, .f32⟩
  | 10 => ⟨S1024, .f32⟩
  | 11 => ⟨S1024x1, .f32⟩
  | 12 => ⟨S1x128, .f32⟩
  | 13 => ⟨S_, .i32⟩
  | 14 => ⟨S1024, .i32⟩
  | 15 => ⟨S1024, .i1⟩
  | 16 => ⟨S_, .i32⟩
  | 17 => ⟨S1024, .i32⟩
  | 18 => ⟨S1024, .i32⟩
  | 19 => ⟨S1024, .i32⟩
  | 20 => ⟨S1024x1, .i32⟩
  | 21 => ⟨S1024x128, .f32⟩
  | 22 => ⟨S1024x128, .f32⟩
  | 23 => ⟨S1024x128, .f32⟩
  | 24 => ⟨S1024x128, .f32⟩
  | 25 => ⟨S1024x128, .f32⟩
  | 26 => ⟨S1024x128, .f32⟩
  | 27 => ⟨S_, .f32⟩
  | 28 => ⟨S1024, .f32⟩
  | 29 => ⟨S1024x1, .f32⟩
  | 30 => ⟨S1024x1, .f32⟩
  | 31 => ⟨S_, .f32⟩
  | 32 => ⟨S1024x1, .f32⟩
  | 33 => ⟨S1024x1, .f32⟩
  | 34 => ⟨S1024x128, .f32⟩
  | 35 => ⟨S1024x128, .f32⟩
  | 36 => ⟨S1x128, .f32⟩
  | 37 => ⟨S_, .i32⟩
  | 38 => ⟨S1024, .i32⟩
  | 39 => ⟨S1024, .i1⟩
  | 40 => ⟨S_, .i32⟩
  | 41 => ⟨S1024, .i32⟩
  | 42 => ⟨S1024, .i32⟩
  | 43 => ⟨S1024, .i32⟩
  | 44 => ⟨S1024x1, .i32⟩
  | 45 => ⟨S1024x128, .f32⟩
  | 46 => ⟨S1024x128, .f32⟩
  | 47 => ⟨S1024x128, .f32⟩
  | 48 => ⟨S1024x128, .f32⟩
  | 49 => ⟨S1024x128, .f32⟩
  | 50 => ⟨S1024x128, .f32⟩
  | 51 => ⟨S_, .f32⟩
  | 52 => ⟨S1024, .f32⟩
  | 53 => ⟨S1024x1, .f32⟩
  | 54 => ⟨S1024x1, .f32⟩
  | 55 => ⟨S_, .f32⟩
  | 56 => ⟨S1024x1, .f32⟩
  | 57 => ⟨S1024x1, .f32⟩
  | 58 => ⟨S1024x128, .f32⟩
  | 59 => ⟨S1024x128, .f32⟩
  | 60 => ⟨S2048x1, .f32⟩
  | 61 => ⟨S2048x128, .f32⟩
  | 62 => ⟨S2048x128, .f32⟩
  | 63 => ⟨S2048x128, .f32⟩
  | 64 => ⟨S_, .f32⟩
  | 65 => ⟨S2048, .f32⟩
  | 66 => ⟨S2048x1, .f32⟩
  | 67 => ⟨S2048x1, .f32⟩
  | 68 => ⟨S_, .f32⟩
  | 69 => ⟨S2048x1, .f32⟩
  | 70 => ⟨S2048x1, .f32⟩
  | 71 => ⟨S2048x128, .f32⟩
  | 72 => ⟨S2048x128, .f32⟩
  | 73 => ⟨S2048, .i32⟩
  | 74 => ⟨S2048x128, .f32⟩
  | 75 => ⟨S128x2048, .f32⟩
  | 76 => ⟨S1024x2048, .f32⟩
  | 77 => ⟨S128x2048, .f32⟩
  | 78 => ⟨S1024x2048, .f32⟩
  | 79 => ⟨S4096, .i32⟩
  | 80 => ⟨S1024x4096, .f32⟩
  | 81 => ⟨S1024x1, .i32⟩
  | 82 => ⟨S1x4096, .i32⟩
  | 83 => ⟨S1024x4096, .i32⟩
  | 84 => ⟨S1024x4096, .i32⟩
  | 85 => ⟨S1024x4096, .i1⟩
  | 86 => ⟨S1024x4096, .f32⟩
  | 87 => ⟨S_, .f32⟩
  | 88 => ⟨S1024, .f32⟩
  | 89 => ⟨S1024x1, .f32⟩
  | 90 => ⟨S1024x4096, .f32⟩
  | 91 => ⟨S1024x4096, .f32⟩
  | 92 => ⟨S_, .f32⟩
  | 93 => ⟨S1024x4096, .f32⟩
  | 94 => ⟨S1024x4096, .f32⟩
  | 95 => ⟨S_, .f32⟩
  | 96 => ⟨S1024, .f32⟩
  | 97 => ⟨S_, .f32⟩
  | 98 => ⟨S1024, .f32⟩
  | 99 => ⟨S1024, .f32⟩
  | 100 => ⟨S1024x1, .f32⟩
  | 101 => ⟨S1024x4096, .f32⟩
  | 102 => ⟨S1024x4096, .f32⟩
  | 103 => ⟨S1024x4096, .f32⟩
  | 104 => ⟨S_, .f32⟩
  | 105 => ⟨S1024, .f32⟩
  | 106 => ⟨S1024x1, .f32⟩
  | 107 => ⟨S1024x1, .f32⟩
  | 108 => ⟨S1024x4096, .f32⟩
  | 109 => ⟨S1024x4096, .f32⟩
  | 110 => ⟨S1024x4096, .f32⟩
  | 111 => ⟨S_, .f32⟩
  | 112 => ⟨S1024, .f32⟩
  | 113 => ⟨S_, .f32⟩
  | 114 => ⟨S_, .f32⟩
  | 115 => ⟨S_, .f32⟩
  | 116 => ⟨S_, .f32⟩
  | 117 => ⟨S_, .f32⟩
  | 118 => ⟨S128x1024, .f32⟩
  | 119 => ⟨S1024x1024, .f32⟩
  | 120 => ⟨S128x2048, .f32⟩
  | 121 => ⟨S1024x2048, .f32⟩
  | 122 => ⟨S3072, .i32⟩
  | 123 => ⟨S1024x3072, .f32⟩
  | 124 => ⟨S1024x1, .i32⟩
  | 125 => ⟨S1x3072, .i32⟩
  | 126 => ⟨S1024x3072, .i32⟩
  | 127 => ⟨S1024x3072, .i32⟩
  | _ => ⟨S1024x128, .f32⟩

abbrev hbmTy0_2 (i : Nat) : BufTy := match i % 128 with
  | 0 => ⟨S1024x3072, .i1⟩
  | 1 => ⟨S1024x3072, .f32⟩
  | 2 => ⟨S_, .f32⟩
  | 3 => ⟨S1024, .f32⟩
  | 4 => ⟨S1024x1, .f32⟩
  | 5 => ⟨S1024x3072, .f32⟩
  | 6 => ⟨S1024x3072, .f32⟩
  | 7 => ⟨S_, .f32⟩
  | 8 => ⟨S1024x3072, .f32⟩
  | 9 => ⟨S1024x3072, .f32⟩
  | 10 => ⟨S_, .f32⟩
  | 11 => ⟨S1024, .f32⟩
  | 12 => ⟨S_, .f32⟩
  | 13 => ⟨S1024, .f32⟩
  | 14 => ⟨S1024, .f32⟩
  | 15 => ⟨S1024x1, .f32⟩
  | 16 => ⟨S1024x3072, .f32⟩
  | 17 => ⟨S1024x3072, .f32⟩
  | 18 => ⟨S1024x3072, .f32⟩
  | 19 => ⟨S_, .f32⟩
  | 20 => ⟨S1024, .f32⟩
  | 21 => ⟨S1024x1, .f32⟩
  | 22 => ⟨S1024x1, .f32⟩
  | 23 => ⟨S1024x3072, .f32⟩
  | 24 => ⟨S1024x3072, .f32⟩
  | 25 => ⟨S1024x3072, .f32⟩
  | 26 => ⟨S_, .f32⟩
  | 27 => ⟨S1024, .f32⟩
  | 28 => ⟨S_, .f32⟩
  | 29 => ⟨S_, .f32⟩
  | 30 => ⟨S_, .f32⟩
  | 31 => ⟨S_, .f32⟩
  | 32 => ⟨S_, .f32⟩
  | _ => ⟨S1024x128, .f32⟩

abbrev hbmTy (i : Nat) : BufTy := match i / 128 with
  | 0 => hbmTy0_0 i
  | 1 => hbmTy0_1 i
  | 2 => hbmTy0_2 i
  | _ => ⟨S1024x128, .f32⟩

abbrev bufTy : (tb : Table) → Fin (tcTables nBuf tb) → BufTy
  | .hbm, ⟨i, _⟩ => hbmTy i
  | .local _ .vmem, ⟨0, _⟩ => ⟨S128x512, .f32⟩
  | .local _ .vmem, ⟨1, _⟩ => ⟨S128x512, .f32⟩
  | .local _ .vmem, ⟨2, _⟩ => ⟨S512x1, .i32⟩
  | .local _ .vmem, ⟨3, _⟩ => ⟨S512x1, .i32⟩
  | .local _ .vmem, ⟨4, _⟩ => ⟨S1x512, .i32⟩
  | .local _ .vmem, ⟨5, _⟩ => ⟨S1x512, .i32⟩
  | .local _ .vmem, ⟨6, _⟩ => ⟨S1024x128, .bf16⟩
  | .local _ .vmem, ⟨7, _⟩ => ⟨S1024x1, .i32⟩
  | .local _ .vmem, ⟨8, _⟩ => ⟨S1x128x2048, .f32⟩
  | .local _ .vmem, ⟨9, _⟩ => ⟨S1x128x2048, .f32⟩
  | .local _ .vmem, ⟨10, _⟩ => ⟨S1x1024x1, .f32⟩
  | .local _ .vmem, ⟨11, _⟩ => ⟨S1x1024x1, .f32⟩
  | .local _ .vmem, ⟨12, _⟩ => ⟨S1x1024x1, .f32⟩
  | .local _ .vmem, ⟨13, _⟩ => ⟨S1x1024x1, .f32⟩
  | .local _ .vmem, ⟨14, _⟩ => ⟨S1x1024x1, .f32⟩
  | .local _ .vmem, ⟨15, _⟩ => ⟨S1x1024x1, .f32⟩
  | .local _ .vmem, ⟨16, _⟩ => ⟨S128x2048, .f32⟩
  | .local _ .vmem, ⟨17, _⟩ => ⟨S1024x1, .f32⟩
  | .local _ .vmem, ⟨18, _⟩ => ⟨S1024x1, .f32⟩
  | .local _ .vmem, ⟨19, _⟩ => ⟨S1024x1, .f32⟩
  | _, _ => ⟨S1024x128, .f32⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | .vmem, ⟨6, _⟩ => true
  | .vmem, ⟨7, _⟩ => true
  | .vmem, ⟨8, _⟩ => true
  | .vmem, ⟨9, _⟩ => true
  | .vmem, ⟨10, _⟩ => true
  | .vmem, ⟨11, _⟩ => true
  | .vmem, ⟨12, _⟩ => true
  | .vmem, ⟨13, _⟩ => true
  | .vmem, ⟨14, _⟩ => true
  | .vmem, ⟨15, _⟩ => true
  | .vmem, ⟨16, _⟩ => true
  | .vmem, ⟨17, _⟩ => true
  | .vmem, ⟨18, _⟩ => true
  | .vmem, ⟨19, _⟩ => true
  | _, _ => false

abbrev semScoped : Fin 0 → Bool
  | ⟨_, h⟩ => absurd h (Nat.not_lt_zero _)

abbrev dmaSemScoped : Fin 16 → Bool
  | ⟨0, _⟩ => true
  | ⟨1, _⟩ => true
  | ⟨2, _⟩ => true
  | ⟨3, _⟩ => true
  | ⟨4, _⟩ => true
  | ⟨5, _⟩ => true
  | ⟨6, _⟩ => true
  | ⟨7, _⟩ => true
  | ⟨8, _⟩ => true
  | ⟨9, _⟩ => true
  | ⟨10, _⟩ => true
  | ⟨11, _⟩ => true
  | ⟨12, _⟩ => true
  | ⟨13, _⟩ => true
  | ⟨14, _⟩ => true
  | ⟨15, _⟩ => true
  | _ => false

abbrev sig : RefSig :=
  ofTc nBuf bufTy 0 16 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_arg4 : Ref sig .tc := ⟨.hbm, 4, rfl⟩
abbrev main_arg5 : Ref sig .tc := ⟨.hbm, 5, rfl⟩
abbrev main_v0 : Ref sig .tc := ⟨.hbm, 6, rfl⟩
abbrev main_cst : Ref sig .tc := ⟨.hbm, 7, rfl⟩
abbrev main_v1 : Ref sig .tc := ⟨.hbm, 8, rfl⟩
abbrev main_v2 : Ref sig .tc := ⟨.hbm, 9, rfl⟩
abbrev main_v3 : Ref sig .tc := ⟨.hbm, 10, rfl⟩
abbrev main_cst_0 : Ref sig .tc := ⟨.hbm, 11, rfl⟩
abbrev main_v4 : Ref sig .tc := ⟨.hbm, 12, rfl⟩
abbrev main_v5 : Ref sig .tc := ⟨.hbm, 13, rfl⟩
abbrev main_v6 : Ref sig .tc := ⟨.hbm, 14, rfl⟩
abbrev main_v7 : Ref sig .tc := ⟨.hbm, 15, rfl⟩
abbrev main_v8 : Ref sig .tc := ⟨.hbm, 16, rfl⟩
abbrev main_cst_1 : Ref sig .tc := ⟨.hbm, 17, rfl⟩
abbrev main_v9 : Ref sig .tc := ⟨.hbm, 18, rfl⟩
abbrev main_v10 : Ref sig .tc := ⟨.hbm, 19, rfl⟩
abbrev main_v11 : Ref sig .tc := ⟨.hbm, 20, rfl⟩
abbrev main_cst_2 : Ref sig .tc := ⟨.hbm, 21, rfl⟩
abbrev main_v12 : Ref sig .tc := ⟨.hbm, 22, rfl⟩
abbrev main_v13 : Ref sig .tc := ⟨.hbm, 23, rfl⟩
abbrev main_v14 : Ref sig .tc := ⟨.hbm, 24, rfl⟩
abbrev main_v15 : Ref sig .tc := ⟨.hbm, 25, rfl⟩
abbrev main_v16 : Ref sig .tc := ⟨.hbm, 26, rfl⟩
abbrev main_v17 : Ref sig .tc := ⟨.hbm, 27, rfl⟩
abbrev main_cst_3 : Ref sig .tc := ⟨.hbm, 28, rfl⟩
abbrev main_v18 : Ref sig .tc := ⟨.hbm, 29, rfl⟩
abbrev main_v19 : Ref sig .tc := ⟨.hbm, 30, rfl⟩
abbrev main_cst_4 : Ref sig .tc := ⟨.hbm, 31, rfl⟩
abbrev main_v20 : Ref sig .tc := ⟨.hbm, 32, rfl⟩
abbrev main_v21 : Ref sig .tc := ⟨.hbm, 33, rfl⟩
abbrev main_v22 : Ref sig .tc := ⟨.hbm, 34, rfl⟩
abbrev main_v23 : Ref sig .tc := ⟨.hbm, 35, rfl⟩
abbrev main_v24 : Ref sig .tc := ⟨.hbm, 36, rfl⟩
abbrev main_cst_5 : Ref sig .tc := ⟨.hbm, 37, rfl⟩
abbrev main_v25 : Ref sig .tc := ⟨.hbm, 38, rfl⟩
abbrev main_v26 : Ref sig .tc := ⟨.hbm, 39, rfl⟩
abbrev main_v27 : Ref sig .tc := ⟨.hbm, 40, rfl⟩
abbrev main_v28 : Ref sig .tc := ⟨.hbm, 41, rfl⟩
abbrev main_v29 : Ref sig .tc := ⟨.hbm, 42, rfl⟩
abbrev main_v30 : Ref sig .tc := ⟨.hbm, 43, rfl⟩
abbrev main_v31 : Ref sig .tc := ⟨.hbm, 44, rfl⟩
abbrev main_v32 : Ref sig .tc := ⟨.hbm, 45, rfl⟩
abbrev main_v33 : Ref sig .tc := ⟨.hbm, 46, rfl⟩
abbrev main_cst_6 : Ref sig .tc := ⟨.hbm, 47, rfl⟩
abbrev main_v34 : Ref sig .tc := ⟨.hbm, 48, rfl⟩
abbrev main_v35 : Ref sig .tc := ⟨.hbm, 49, rfl⟩
abbrev main_cst_7 : Ref sig .tc := ⟨.hbm, 50, rfl⟩
abbrev main_v36 : Ref sig .tc := ⟨.hbm, 51, rfl⟩
abbrev main_v37 : Ref sig .tc := ⟨.hbm, 52, rfl⟩
abbrev main_cst_8 : Ref sig .tc := ⟨.hbm, 53, rfl⟩
abbrev main_v38 : Ref sig .tc := ⟨.hbm, 54, rfl⟩
abbrev main_v39 : Ref sig .tc := ⟨.hbm, 55, rfl⟩
abbrev main_v40 : Ref sig .tc := ⟨.hbm, 56, rfl⟩
abbrev main_v41 : Ref sig .tc := ⟨.hbm, 57, rfl⟩
abbrev main_v42 : Ref sig .tc := ⟨.hbm, 58, rfl⟩
abbrev main_v43 : Ref sig .tc := ⟨.hbm, 59, rfl⟩
abbrev main_v44_0 : Ref sig .tc := ⟨.hbm, 60, rfl⟩
abbrev main_v44_1 : Ref sig .tc := ⟨.hbm, 61, rfl⟩
abbrev main_v44_2 : Ref sig .tc := ⟨.hbm, 62, rfl⟩
abbrev main_v44_3 : Ref sig .tc := ⟨.hbm, 63, rfl⟩
abbrev main_v45 : Ref sig .tc := ⟨.hbm, 64, rfl⟩
abbrev main_v46 : Ref sig .tc := ⟨.hbm, 65, rfl⟩
abbrev main_v47 : Ref sig .tc := ⟨.hbm, 66, rfl⟩
abbrev main_v48 : Ref sig .tc := ⟨.hbm, 67, rfl⟩
abbrev main_v49 : Ref sig .tc := ⟨.hbm, 68, rfl⟩
abbrev main_v50 : Ref sig .tc := ⟨.hbm, 69, rfl⟩
abbrev main_v51 : Ref sig .tc := ⟨.hbm, 70, rfl⟩
abbrev main_v52 : Ref sig .tc := ⟨.hbm, 71, rfl⟩
abbrev main_v53 : Ref sig .tc := ⟨.hbm, 72, rfl⟩
abbrev main_v54 : Ref sig .tc := ⟨.hbm, 73, rfl⟩
abbrev main_v55 : Ref sig .tc := ⟨.hbm, 74, rfl⟩
abbrev main_v56 : Ref sig .tc := ⟨.hbm, 75, rfl⟩
abbrev main_v57 : Ref sig .tc := ⟨.hbm, 76, rfl⟩
abbrev main_v58 : Ref sig .tc := ⟨.hbm, 77, rfl⟩
abbrev main_v59 : Ref sig .tc := ⟨.hbm, 78, rfl⟩
abbrev main_v60 : Ref sig .tc := ⟨.hbm, 79, rfl⟩
abbrev main_v61 : Ref sig .tc := ⟨.hbm, 80, rfl⟩
abbrev main_v62 : Ref sig .tc := ⟨.hbm, 81, rfl⟩
abbrev main_v63 : Ref sig .tc := ⟨.hbm, 82, rfl⟩
abbrev main_v64 : Ref sig .tc := ⟨.hbm, 83, rfl⟩
abbrev main_v65 : Ref sig .tc := ⟨.hbm, 84, rfl⟩
abbrev main_v66 : Ref sig .tc := ⟨.hbm, 85, rfl⟩
abbrev main_v67 : Ref sig .tc := ⟨.hbm, 86, rfl⟩
abbrev main_v68 : Ref sig .tc := ⟨.hbm, 87, rfl⟩
abbrev main_v69 : Ref sig .tc := ⟨.hbm, 88, rfl⟩
abbrev main_v70 : Ref sig .tc := ⟨.hbm, 89, rfl⟩
abbrev main_v71 : Ref sig .tc := ⟨.hbm, 90, rfl⟩
abbrev main_v72 : Ref sig .tc := ⟨.hbm, 91, rfl⟩
abbrev main_v73 : Ref sig .tc := ⟨.hbm, 92, rfl⟩
abbrev main_v74 : Ref sig .tc := ⟨.hbm, 93, rfl⟩
abbrev main_v75 : Ref sig .tc := ⟨.hbm, 94, rfl⟩
abbrev main_v76 : Ref sig .tc := ⟨.hbm, 95, rfl⟩
abbrev main_cst_9 : Ref sig .tc := ⟨.hbm, 96, rfl⟩
abbrev main_v77 : Ref sig .tc := ⟨.hbm, 97, rfl⟩
abbrev main_cst_10 : Ref sig .tc := ⟨.hbm, 98, rfl⟩
abbrev main_v78 : Ref sig .tc := ⟨.hbm, 99, rfl⟩
abbrev main_v79 : Ref sig .tc := ⟨.hbm, 100, rfl⟩
abbrev main_v80 : Ref sig .tc := ⟨.hbm, 101, rfl⟩
abbrev main_c : Ref sig .tc := ⟨.hbm, 102, rfl⟩
abbrev main_v81 : Ref sig .tc := ⟨.hbm, 103, rfl⟩
abbrev main_v82 : Ref sig .tc := ⟨.hbm, 104, rfl⟩
abbrev main_c_11 : Ref sig .tc := ⟨.hbm, 105, rfl⟩
abbrev main_v83 : Ref sig .tc := ⟨.hbm, 106, rfl⟩
abbrev main_v84 : Ref sig .tc := ⟨.hbm, 107, rfl⟩
abbrev main_v85 : Ref sig .tc := ⟨.hbm, 108, rfl⟩
abbrev main_v86 : Ref sig .tc := ⟨.hbm, 109, rfl⟩
abbrev main_v87 : Ref sig .tc := ⟨.hbm, 110, rfl⟩
abbrev main_v88 : Ref sig .tc := ⟨.hbm, 111, rfl⟩
abbrev main_v89 : Ref sig .tc := ⟨.hbm, 112, rfl⟩
abbrev main_v90 : Ref sig .tc := ⟨.hbm, 113, rfl⟩
abbrev main_v91 : Ref sig .tc := ⟨.hbm, 114, rfl⟩
abbrev main_cst_12 : Ref sig .tc := ⟨.hbm, 115, rfl⟩
abbrev main_v92 : Ref sig .tc := ⟨.hbm, 116, rfl⟩
abbrev main_cst_13 : Ref sig .tc := ⟨.hbm, 117, rfl⟩
abbrev main_v93 : Ref sig .tc := ⟨.hbm, 118, rfl⟩
abbrev main_v94 : Ref sig .tc := ⟨.hbm, 119, rfl⟩
abbrev main_cst_14 : Ref sig .tc := ⟨.hbm, 120, rfl⟩
abbrev main_v95 : Ref sig .tc := ⟨.hbm, 121, rfl⟩
abbrev main_v96 : Ref sig .tc := ⟨.hbm, 122, rfl⟩
abbrev main_cst_15 : Ref sig .tc := ⟨.hbm, 123, rfl⟩
abbrev main_v97 : Ref sig .tc := ⟨.hbm, 124, rfl⟩
abbrev main_cst_16 : Ref sig .tc := ⟨.hbm, 125, rfl⟩
abbrev main_v98 : Ref sig .tc := ⟨.hbm, 126, rfl⟩
abbrev main_c_17 : Ref sig .tc := ⟨.hbm, 127, rfl⟩
abbrev main_v99 : Ref sig .tc := ⟨.hbm, 128, rfl⟩
abbrev main_v100 : Ref sig .tc := ⟨.hbm, 129, rfl⟩
abbrev main_c_18 : Ref sig .tc := ⟨.hbm, 130, rfl⟩
abbrev main_v101 : Ref sig .tc := ⟨.hbm, 131, rfl⟩
abbrev main_v102 : Ref sig .tc := ⟨.hbm, 132, rfl⟩
abbrev main_v103 : Ref sig .tc := ⟨.hbm, 133, rfl⟩
abbrev main_v104 : Ref sig .tc := ⟨.hbm, 134, rfl⟩
abbrev main_v105 : Ref sig .tc := ⟨.hbm, 135, rfl⟩
abbrev main_cst_19 : Ref sig .tc := ⟨.hbm, 136, rfl⟩
abbrev main_v106 : Ref sig .tc := ⟨.hbm, 137, rfl⟩
abbrev main_v107 : Ref sig .tc := ⟨.hbm, 138, rfl⟩
abbrev main_v108 : Ref sig .tc := ⟨.hbm, 139, rfl⟩
abbrev main_v109 : Ref sig .tc := ⟨.hbm, 140, rfl⟩
abbrev main_c_20 : Ref sig .tc := ⟨.hbm, 141, rfl⟩
abbrev main_v110 : Ref sig .tc := ⟨.hbm, 142, rfl⟩
abbrev main_v111 : Ref sig .tc := ⟨.hbm, 143, rfl⟩
abbrev main_c_21 : Ref sig .tc := ⟨.hbm, 144, rfl⟩
abbrev main_v112 : Ref sig .tc := ⟨.hbm, 145, rfl⟩
abbrev main_v113 : Ref sig .tc := ⟨.hbm, 146, rfl⟩
abbrev main_v114 : Ref sig .tc := ⟨.hbm, 147, rfl⟩
abbrev main_v115 : Ref sig .tc := ⟨.hbm, 148, rfl⟩
abbrev main_v116 : Ref sig .tc := ⟨.hbm, 149, rfl⟩
abbrev main_v117 : Ref sig .tc := ⟨.hbm, 150, rfl⟩
abbrev main_v118 : Ref sig .tc := ⟨.hbm, 151, rfl⟩
abbrev main_v119 : Ref sig .tc := ⟨.hbm, 152, rfl⟩
abbrev main_v120 : Ref sig .tc := ⟨.hbm, 153, rfl⟩
abbrev main_v121 : Ref sig .tc := ⟨.hbm, 154, rfl⟩
abbrev main_cst_22 : Ref sig .tc := ⟨.hbm, 155, rfl⟩
abbrev main_v122 : Ref sig .tc := ⟨.hbm, 156, rfl⟩
abbrev main_v123 : Ref sig .tc := ⟨.hbm, 157, rfl⟩
abbrev main_v124 : Ref sig .tc := ⟨.hbm, 158, rfl⟩
abbrev main_cst_23 : Ref sig .tc := ⟨.hbm, 159, rfl⟩
abbrev main_v125 : Ref sig .tc := ⟨.hbm, 160, rfl⟩
abbrev main_v126 : Ref sig .tc := ⟨.hbm, 161, rfl⟩
abbrev main_v127 : Ref sig .tc := ⟨.hbm, 162, rfl⟩
abbrev main_v128 : Ref sig .tc := ⟨.hbm, 163, rfl⟩
abbrev main_v129 : Ref sig .tc := ⟨.hbm, 164, rfl⟩
abbrev main_c_24 : Ref sig .tc := ⟨.hbm, 165, rfl⟩
abbrev main_v130 : Ref sig .tc := ⟨.hbm, 166, rfl⟩
abbrev main_v131 : Ref sig .tc := ⟨.hbm, 167, rfl⟩
abbrev main_c_25 : Ref sig .tc := ⟨.hbm, 168, rfl⟩
abbrev main_v132 : Ref sig .tc := ⟨.hbm, 169, rfl⟩
abbrev main_v133 : Ref sig .tc := ⟨.hbm, 170, rfl⟩
abbrev main_v134 : Ref sig .tc := ⟨.hbm, 171, rfl⟩
abbrev main_v135 : Ref sig .tc := ⟨.hbm, 172, rfl⟩
abbrev main_v136 : Ref sig .tc := ⟨.hbm, 173, rfl⟩
abbrev main_v137 : Ref sig .tc := ⟨.hbm, 174, rfl⟩
abbrev main_v138 : Ref sig .tc := ⟨.hbm, 175, rfl⟩
abbrev main_v139 : Ref sig .tc := ⟨.hbm, 176, rfl⟩
abbrev main_v140 : Ref sig .tc := ⟨.hbm, 177, rfl⟩
abbrev main_v141 : Ref sig .tc := ⟨.hbm, 178, rfl⟩
abbrev main_cst_26 : Ref sig .tc := ⟨.hbm, 179, rfl⟩
abbrev main_v142 : Ref sig .tc := ⟨.hbm, 180, rfl⟩
abbrev main_v143 : Ref sig .tc := ⟨.hbm, 181, rfl⟩
abbrev main_v144 : Ref sig .tc := ⟨.hbm, 182, rfl⟩
abbrev main_cst_27 : Ref sig .tc := ⟨.hbm, 183, rfl⟩
abbrev main_v145 : Ref sig .tc := ⟨.hbm, 184, rfl⟩
abbrev main_v146 : Ref sig .tc := ⟨.hbm, 185, rfl⟩
abbrev main_v147 : Ref sig .tc := ⟨.hbm, 186, rfl⟩
abbrev main_v148 : Ref sig .tc := ⟨.hbm, 187, rfl⟩
abbrev main_v149 : Ref sig .tc := ⟨.hbm, 188, rfl⟩
abbrev main_v150 : Ref sig .tc := ⟨.hbm, 189, rfl⟩
abbrev main_v151 : Ref sig .tc := ⟨.hbm, 190, rfl⟩
abbrev main_v152 : Ref sig .tc := ⟨.hbm, 191, rfl⟩
abbrev main_cst_28 : Ref sig .tc := ⟨.hbm, 192, rfl⟩
abbrev main_v153 : Ref sig .tc := ⟨.hbm, 193, rfl⟩
abbrev main_v154 : Ref sig .tc := ⟨.hbm, 194, rfl⟩
abbrev main_v155 : Ref sig .tc := ⟨.hbm, 195, rfl⟩
abbrev main_cst_29 : Ref sig .tc := ⟨.hbm, 196, rfl⟩
abbrev main_v156 : Ref sig .tc := ⟨.hbm, 197, rfl⟩
abbrev main_v157 : Ref sig .tc := ⟨.hbm, 198, rfl⟩
abbrev main_v158 : Ref sig .tc := ⟨.hbm, 199, rfl⟩
abbrev main_v159 : Ref sig .tc := ⟨.hbm, 200, rfl⟩
abbrev main_v160 : Ref sig .tc := ⟨.hbm, 201, rfl⟩
abbrev main_v161 : Ref sig .tc := ⟨.hbm, 202, rfl⟩
abbrev main_v162 : Ref sig .tc := ⟨.hbm, 203, rfl⟩
abbrev main_v163 : Ref sig .tc := ⟨.hbm, 204, rfl⟩
abbrev main_v164 : Ref sig .tc := ⟨.hbm, 205, rfl⟩
abbrev main_v165 : Ref sig .tc := ⟨.hbm, 206, rfl⟩
abbrev main_v166 : Ref sig .tc := ⟨.hbm, 207, rfl⟩
abbrev main_v167 : Ref sig .tc := ⟨.hbm, 208, rfl⟩
abbrev main_v168 : Ref sig .tc := ⟨.hbm, 209, rfl⟩
abbrev main_v169 : Ref sig .tc := ⟨.hbm, 210, rfl⟩
abbrev main_v170 : Ref sig .tc := ⟨.hbm, 211, rfl⟩
abbrev main_v171 : Ref sig .tc := ⟨.hbm, 212, rfl⟩
abbrev main_v172 : Ref sig .tc := ⟨.hbm, 213, rfl⟩
abbrev main_v173 : Ref sig .tc := ⟨.hbm, 214, rfl⟩
abbrev main_cst_30 : Ref sig .tc := ⟨.hbm, 215, rfl⟩
abbrev main_v174 : Ref sig .tc := ⟨.hbm, 216, rfl⟩
abbrev main_v175 : Ref sig .tc := ⟨.hbm, 217, rfl⟩
abbrev main_v176 : Ref sig .tc := ⟨.hbm, 218, rfl⟩
abbrev main_v177 : Ref sig .tc := ⟨.hbm, 219, rfl⟩
abbrev main_cst_31 : Ref sig .tc := ⟨.hbm, 220, rfl⟩
abbrev main_v178 : Ref sig .tc := ⟨.hbm, 221, rfl⟩
abbrev main_v179 : Ref sig .tc := ⟨.hbm, 222, rfl⟩
abbrev main_call0_cst : Ref sig .tc := ⟨.hbm, 223, rfl⟩
abbrev main_call0_v0 : Ref sig .tc := ⟨.hbm, 224, rfl⟩
abbrev main_call0_cst_0 : Ref sig .tc := ⟨.hbm, 225, rfl⟩
abbrev main_call0_v1 : Ref sig .tc := ⟨.hbm, 226, rfl⟩
abbrev main_call0_v2 : Ref sig .tc := ⟨.hbm, 227, rfl⟩
abbrev main_call0_v3 : Ref sig .tc := ⟨.hbm, 228, rfl⟩
abbrev main_call0_v4 : Ref sig .tc := ⟨.hbm, 229, rfl⟩
abbrev main_call0_v5 : Ref sig .tc := ⟨.hbm, 230, rfl⟩
abbrev main_call0_v6 : Ref sig .tc := ⟨.hbm, 231, rfl⟩
abbrev main_call0_cst_1 : Ref sig .tc := ⟨.hbm, 232, rfl⟩
abbrev main_call0_v7 : Ref sig .tc := ⟨.hbm, 233, rfl⟩
abbrev main_call0_v8 : Ref sig .tc := ⟨.hbm, 234, rfl⟩
abbrev main_call0_v9 : Ref sig .tc := ⟨.hbm, 235, rfl⟩
abbrev main_call0_v10 : Ref sig .tc := ⟨.hbm, 236, rfl⟩
abbrev main_v180 : Ref sig .tc := ⟨.hbm, 237, rfl⟩
abbrev main_v181 : Ref sig .tc := ⟨.hbm, 238, rfl⟩
abbrev main_cst_32 : Ref sig .tc := ⟨.hbm, 239, rfl⟩
abbrev main_v182 : Ref sig .tc := ⟨.hbm, 240, rfl⟩
abbrev main_cst_33 : Ref sig .tc := ⟨.hbm, 241, rfl⟩
abbrev main_v183 : Ref sig .tc := ⟨.hbm, 242, rfl⟩
abbrev main_cst_34 : Ref sig .tc := ⟨.hbm, 243, rfl⟩
abbrev main_v184 : Ref sig .tc := ⟨.hbm, 244, rfl⟩
abbrev main_v185 : Ref sig .tc := ⟨.hbm, 245, rfl⟩
abbrev main_v186 : Ref sig .tc := ⟨.hbm, 246, rfl⟩
abbrev main_v187 : Ref sig .tc := ⟨.hbm, 247, rfl⟩
abbrev main_v188 : Ref sig .tc := ⟨.hbm, 248, rfl⟩
abbrev main_v189 : Ref sig .tc := ⟨.hbm, 249, rfl⟩
abbrev main_v190 : Ref sig .tc := ⟨.hbm, 250, rfl⟩
abbrev main_v191 : Ref sig .tc := ⟨.hbm, 251, rfl⟩
abbrev main_v192 : Ref sig .tc := ⟨.hbm, 252, rfl⟩
abbrev main_v193 : Ref sig .tc := ⟨.hbm, 253, rfl⟩
abbrev main_v194 : Ref sig .tc := ⟨.hbm, 254, rfl⟩
abbrev main_v195 : Ref sig .tc := ⟨.hbm, 255, rfl⟩
abbrev main_v196 : Ref sig .tc := ⟨.hbm, 256, rfl⟩
abbrev main_v197 : Ref sig .tc := ⟨.hbm, 257, rfl⟩
abbrev main_cst_35 : Ref sig .tc := ⟨.hbm, 258, rfl⟩
abbrev main_v198 : Ref sig .tc := ⟨.hbm, 259, rfl⟩
abbrev main_v199 : Ref sig .tc := ⟨.hbm, 260, rfl⟩
abbrev main_v200 : Ref sig .tc := ⟨.hbm, 261, rfl⟩
abbrev main_v201 : Ref sig .tc := ⟨.hbm, 262, rfl⟩
abbrev main_cst_36 : Ref sig .tc := ⟨.hbm, 263, rfl⟩
abbrev main_v202 : Ref sig .tc := ⟨.hbm, 264, rfl⟩
abbrev main_v203 : Ref sig .tc := ⟨.hbm, 265, rfl⟩
abbrev main_call1_cst : Ref sig .tc := ⟨.hbm, 266, rfl⟩
abbrev main_call1_v0 : Ref sig .tc := ⟨.hbm, 267, rfl⟩
abbrev main_call1_cst_0 : Ref sig .tc := ⟨.hbm, 268, rfl⟩
abbrev main_call1_v1 : Ref sig .tc := ⟨.hbm, 269, rfl⟩
abbrev main_call1_v2 : Ref sig .tc := ⟨.hbm, 270, rfl⟩
abbrev main_call1_v3 : Ref sig .tc := ⟨.hbm, 271, rfl⟩
abbrev main_call1_v4 : Ref sig .tc := ⟨.hbm, 272, rfl⟩
abbrev main_call1_v5 : Ref sig .tc := ⟨.hbm, 273, rfl⟩
abbrev main_call1_v6 : Ref sig .tc := ⟨.hbm, 274, rfl⟩
abbrev main_call1_cst_1 : Ref sig .tc := ⟨.hbm, 275, rfl⟩
abbrev main_call1_v7 : Ref sig .tc := ⟨.hbm, 276, rfl⟩
abbrev main_call1_v8 : Ref sig .tc := ⟨.hbm, 277, rfl⟩
abbrev main_call1_v9 : Ref sig .tc := ⟨.hbm, 278, rfl⟩
abbrev main_call1_v10 : Ref sig .tc := ⟨.hbm, 279, rfl⟩
abbrev main_v204 : Ref sig .tc := ⟨.hbm, 280, rfl⟩
abbrev main_v205 : Ref sig .tc := ⟨.hbm, 281, rfl⟩
abbrev main_cst_37 : Ref sig .tc := ⟨.hbm, 282, rfl⟩
abbrev main_v206 : Ref sig .tc := ⟨.hbm, 283, rfl⟩
abbrev main_cst_38 : Ref sig .tc := ⟨.hbm, 284, rfl⟩
abbrev main_v207 : Ref sig .tc := ⟨.hbm, 285, rfl⟩
abbrev main_cst_39 : Ref sig .tc := ⟨.hbm, 286, rfl⟩
abbrev main_v208 : Ref sig .tc := ⟨.hbm, 287, rfl⟩
abbrev main_v209 : Ref sig .tc := ⟨.hbm, 288, rfl⟩
abbrev cc0_stg0_0 : Ref sig .tc := ⟨.vmem, 0, rfl⟩
abbrev cc0_stg0_1 : Ref sig .tc := ⟨.vmem, 1, rfl⟩
abbrev cc0_stg1_0 : Ref sig .tc := ⟨.vmem, 2, rfl⟩
abbrev cc0_stg1_1 : Ref sig .tc := ⟨.vmem, 3, rfl⟩
abbrev cc0_stg2_0 : Ref sig .tc := ⟨.vmem, 4, rfl⟩
abbrev cc0_stg2_1 : Ref sig .tc := ⟨.vmem, 5, rfl⟩
abbrev cc0_stg3_0 : Ref sig .tc := ⟨.vmem, 6, rfl⟩
abbrev cc0_stg4_0 : Ref sig .tc := ⟨.vmem, 7, rfl⟩
abbrev cc0_stg5_0 : Ref sig .tc := ⟨.vmem, 8, rfl⟩
abbrev cc0_stg5_1 : Ref sig .tc := ⟨.vmem, 9, rfl⟩
abbrev cc0_stg6_0 : Ref sig .tc := ⟨.vmem, 10, rfl⟩
abbrev cc0_stg6_1 : Ref sig .tc := ⟨.vmem, 11, rfl⟩
abbrev cc0_stg7_0 : Ref sig .tc := ⟨.vmem, 12, rfl⟩
abbrev cc0_stg7_1 : Ref sig .tc := ⟨.vmem, 13, rfl⟩
abbrev cc0_stg8_0 : Ref sig .tc := ⟨.vmem, 14, rfl⟩
abbrev cc0_stg8_1 : Ref sig .tc := ⟨.vmem, 15, rfl⟩
abbrev cc0_scratch0 : Ref sig .tc := ⟨.vmem, 16, rfl⟩
abbrev cc0_scratch1 : Ref sig .tc := ⟨.vmem, 17, rfl⟩
abbrev cc0_scratch2 : Ref sig .tc := ⟨.vmem, 18, rfl⟩
abbrev cc0_scratch3 : Ref sig .tc := ⟨.vmem, 19, rfl⟩
abbrev cc0_sem0_0 : DmaSem sig := 0
abbrev cc0_sem0_1 : DmaSem sig := 1
abbrev cc0_sem1_0 : DmaSem sig := 2
abbrev cc0_sem1_1 : DmaSem sig := 3
abbrev cc0_sem2_0 : DmaSem sig := 4
abbrev cc0_sem2_1 : DmaSem sig := 5
abbrev cc0_sem3_0 : DmaSem sig := 6
abbrev cc0_sem4_0 : DmaSem sig := 7
abbrev cc0_sem5_0 : DmaSem sig := 8
abbrev cc0_sem5_1 : DmaSem sig := 9
abbrev cc0_sem6_0 : DmaSem sig := 10
abbrev cc0_sem6_1 : DmaSem sig := 11
abbrev cc0_sem7_0 : DmaSem sig := 12
abbrev cc0_sem7_1 : DmaSem sig := 13
abbrev cc0_sem8_0 : DmaSem sig := 14
abbrev cc0_sem8_1 : DmaSem sig := 15

abbrev nD : Nat := 1
abbrev τ : Topo := Topo.v7x

variable {F : FTy → Type} [FloatOps F]

abbrev grid0 : Pipeline.Grid := ⟨2, ![2, 64], ![false, false]⟩

def k0_cond2 (i : grid0.Coords) : BitVec 1 :=
  let arg1 : BitVec 32 := BitVec.ofNat 32 (i 1).val
  let c63_i32 : BitVec 32 := 63#32
  let v69 : BitVec 1 := Scalar.cmpi .eq arg1 c63_i32
  let v70 : BitVec 32 := Scalar.extui v69
  let c0_i32_34 : BitVec 32 := 0#32
  let v71 : BitVec 1 := Scalar.cmpi .ne v70 c0_i32_34
  v71

def cc0_transform_0 (i : grid0.Coords) : Fin 2 → Nat :=
  let arg0 : BitVec 32 := BitVec.ofNat 32 (i 0).val
  let arg1 : BitVec 32 := BitVec.ofNat 32 (i 1).val
  let c64_i32 : BitVec 32 := 64#32
  let v0 : BitVec 32 := Scalar.muli arg0 c64_i32
  let v1 : BitVec 32 := Scalar.addi v0 arg1
  let c0_i32 : BitVec 32 := 0#32
  let c0_i32_0 : BitVec 32 := 0#32
  ![c0_i32.toNat, v1.toNat]

def cc0_transform_1 (i : grid0.Coords) : Fin 2 → Nat :=
  let arg0 : BitVec 32 := BitVec.ofNat 32 (i 0).val
  let arg1 : BitVec 32 := BitVec.ofNat 32 (i 1).val
  let c64_i32 : BitVec 32 := 64#32
  let v0 : BitVec 32 := Scalar.muli arg0 c64_i32
  let v1 : BitVec 32 := Scalar.addi v0 arg1
  let c0_i32 : BitVec 32 := 0#32
  let c0_i32_0 : BitVec 32 := 0#32
  ![v1.toNat, c0_i32.toNat]

def cc0_transform_2 (i : grid0.Coords) : Fin 2 → Nat :=
  let arg0 : BitVec 32 := BitVec.ofNat 32 (i 0).val
  let arg1 : BitVec 32 := BitVec.ofNat 32 (i 1).val
  let c64_i32 : BitVec 32 := 64#32
  let v0 : BitVec 32 := Scalar.muli arg0 c64_i32
  let v1 : BitVec 32 := Scalar.addi v0 arg1
  let c0_i32 : BitVec 32 := 0#32
  let c0_i32_0 : BitVec 32 := 0#32
  ![c0_i32.toNat, v1.toNat]

def cc0_transform_3 (i : grid0.Coords) : Fin 2 → Nat :=
  let arg0 : BitVec 32 := BitVec.ofNat 32 (i 0).val
  let arg1 : BitVec 32 := BitVec.ofNat 32 (i 1).val
  let c0_i32 : BitVec 32 := 0#32
  let c0_i32_0 : BitVec 32 := 0#32
  let c0_i32_1 : BitVec 32 := 0#32
  ![c0_i32.toNat, c0_i32_0.toNat]

def cc0_transform_4 (i : grid0.Coords) : Fin 2 → Nat :=
  let arg0 : BitVec 32 := BitVec.ofNat 32 (i 0).val
  let arg1 : BitVec 32 := BitVec.ofNat 32 (i 1).val
  let c0_i32 : BitVec 32 := 0#32
  let c0_i32_0 : BitVec 32 := 0#32
  let c0_i32_1 : BitVec 32 := 0#32
  ![c0_i32.toNat, c0_i32_0.toNat]

def cc0_transform_5 (i : grid0.Coords) : Fin 3 → Nat :=
  let arg0 : BitVec 32 := BitVec.ofNat 32 (i 0).val
  let arg1 : BitVec 32 := BitVec.ofNat 32 (i 1).val
  let c0_i32 : BitVec 32 := 0#32
  let c0_i32_0 : BitVec 32 := 0#32
  let c0_i32_1 : BitVec 32 := 0#32
  ![arg0.toNat, c0_i32.toNat, c0_i32_0.toNat]

def cc0_transform_6 (i : grid0.Coords) : Fin 3 → Nat :=
  let arg0 : BitVec 32 := BitVec.ofNat 32 (i 0).val
  let arg1 : BitVec 32 := BitVec.ofNat 32 (i 1).val
  let c0_i32 : BitVec 32 := 0#32
  let c0_i32_0 : BitVec 32 := 0#32
  let c0_i32_1 : BitVec 32 := 0#32
  ![arg0.toNat, c0_i32.toNat, c0_i32_0.toNat]

def cc0_transform_7 (i : grid0.Coords) : Fin 3 → Nat :=
  let arg0 : BitVec 32 := BitVec.ofNat 32 (i 0).val
  let arg1 : BitVec 32 := BitVec.ofNat 32 (i 1).val
  let c0_i32 : BitVec 32 := 0#32
  let c0_i32_0 : BitVec 32 := 0#32
  let c0_i32_1 : BitVec 32 := 0#32
  ![arg0.toNat, c0_i32.toNat, c0_i32_0.toNat]

def cc0_transform_8 (i : grid0.Coords) : Fin 3 → Nat :=
  let arg0 : BitVec 32 := BitVec.ofNat 32 (i 0).val
  let arg1 : BitVec 32 := BitVec.ofNat 32 (i 1).val
  let c0_i32 : BitVec 32 := 0#32
  let c0_i32_0 : BitVec 32 := 0#32
  let c0_i32_1 : BitVec 32 := 0#32
  ![arg0.toNat, c0_i32.toNat, c0_i32_0.toNat]

abbrev stage0_0 : Fin 2 → Memref sig .tc .vmem S128x512 .f32 := fun | 0 => Memref.whole cc0_stg0_0 | 1 => Memref.whole cc0_stg0_1 | ⟨_ + 2, h⟩ => absurd h (Nat.not_lt.2 (Nat.le_add_left _ _))
abbrev sem0_0 : Fin 2 → DmaSem sig := fun | 0 => cc0_sem0_0 | 1 => cc0_sem0_1 | ⟨_ + 2, h⟩ => absurd h (Nat.not_lt.2 (Nat.le_add_left _ _))
abbrev reads0_0 : Fin grid0.rank → Bool := ![true, true]

abbrev stage0_1 : Fin 2 → Memref sig .tc .vmem S512x1 .i32 := fun | 0 => Memref.whole cc0_stg1_0 | 1 => Memref.whole cc0_stg1_1 | ⟨_ + 2, h⟩ => absurd h (Nat.not_lt.2 (Nat.le_add_left _ _))
abbrev sem0_1 : Fin 2 → DmaSem sig := fun | 0 => cc0_sem1_0 | 1 => cc0_sem1_1 | ⟨_ + 2, h⟩ => absurd h (Nat.not_lt.2 (Nat.le_add_left _ _))
abbrev reads0_1 : Fin grid0.rank → Bool := ![true, true]

abbrev stage0_2 : Fin 2 → Memref sig .tc .vmem S1x512 .i32 := fun | 0 => Memref.whole cc0_stg2_0 | 1 => Memref.whole cc0_stg2_1 | ⟨_ + 2, h⟩ => absurd h (Nat.not_lt.2 (Nat.le_add_left _ _))
abbrev sem0_2 : Fin 2 → DmaSem sig := fun | 0 => cc0_sem2_0 | 1 => cc0_sem2_1 | ⟨_ + 2, h⟩ => absurd h (Nat.not_lt.2 (Nat.le_add_left _ _))
abbrev reads0_2 : Fin grid0.rank → Bool := ![true, true]

abbrev stage0_3 : Fin 1 → Memref sig .tc .vmem S1024x128 .bf16 := fun | 0 => Memref.whole cc0_stg3_0 | ⟨_ + 1, h⟩ => absurd h (Nat.not_lt.2 (Nat.le_add_left _ _))
abbrev sem0_3 : Fin 1 → DmaSem sig := fun | 0 => cc0_sem3_0 | ⟨_ + 1, h⟩ => absurd h (Nat.not_lt.2 (Nat.le_add_left _ _))
abbrev reads0_3 : Fin grid0.rank → Bool := ![false, false]

abbrev stage0_4 : Fin 1 → Memref sig .tc .vmem S1024x1 .i32 := fun | 0 => Memref.whole cc0_stg4_0 | ⟨_ + 1, h⟩ => absurd h (Nat.not_lt.2 (Nat.le_add_left _ _))
abbrev sem0_4 : Fin 1 → DmaSem sig := fun | 0 => cc0_sem4_0 | ⟨_ + 1, h⟩ => absurd h (Nat.not_lt.2 (Nat.le_add_left _ _))
abbrev reads0_4 : Fin grid0.rank → Bool := ![false, false]

abbrev stage0_5 : Fin 2 → Memref sig .tc .vmem S1x128x2048 .f32 := fun | 0 => Memref.whole cc0_stg5_0 | 1 => Memref.whole cc0_stg5_1 | ⟨_ + 2, h⟩ => absurd h (Nat.not_lt.2 (Nat.le_add_left _ _))
abbrev sem0_5 : Fin 2 → DmaSem sig := fun | 0 => cc0_sem5_0 | 1 => cc0_sem5_1 | ⟨_ + 2, h⟩ => absurd h (Nat.not_lt.2 (Nat.le_add_left _ _))
abbrev reads0_5 : Fin grid0.rank → Bool := ![true, false]

abbrev stage0_6 : Fin 2 → Memref sig .tc .vmem S1x1024x1 .f32 := fun | 0 => Memref.whole cc0_stg6_0 | 1 => Memref.whole cc0_stg6_1 | ⟨_ + 2, h⟩ => absurd h (Nat.not_lt.2 (Nat.le_add_left _ _))
abbrev sem0_6 : Fin 2 → DmaSem sig := fun | 0 => cc0_sem6_0 | 1 => cc0_sem6_1 | ⟨_ + 2, h⟩ => absurd h (Nat.not_lt.2 (Nat.le_add_left _ _))
abbrev reads0_6 : Fin grid0.rank → Bool := ![true, false]

abbrev stage0_7 : Fin 2 → Memref sig .tc .vmem S1x1024x1 .f32 := fun | 0 => Memref.whole cc0_stg7_0 | 1 => Memref.whole cc0_stg7_1 | ⟨_ + 2, h⟩ => absurd h (Nat.not_lt.2 (Nat.le_add_left _ _))
abbrev sem0_7 : Fin 2 → DmaSem sig := fun | 0 => cc0_sem7_0 | 1 => cc0_sem7_1 | ⟨_ + 2, h⟩ => absurd h (Nat.not_lt.2 (Nat.le_add_left _ _))
abbrev reads0_7 : Fin grid0.rank → Bool := ![true, false]

abbrev stage0_8 : Fin 2 → Memref sig .tc .vmem S1x1024x1 .f32 := fun | 0 => Memref.whole cc0_stg8_0 | 1 => Memref.whole cc0_stg8_1 | ⟨_ + 2, h⟩ => absurd h (Nat.not_lt.2 (Nat.le_add_left _ _))
abbrev sem0_8 : Fin 2 → DmaSem sig := fun | 0 => cc0_sem8_0 | 1 => cc0_sem8_1 | ⟨_ + 2, h⟩ => absurd h (Nat.not_lt.2 (Nat.le_add_left _ _))
abbrev reads0_8 : Fin grid0.rank → Bool := ![true, false]

class Facts₀ : Prop where
  reducesTo_S1024x128_S1024_d1 : S1024x128.ReducesTo [1] S1024
  h_S_ : 0 < S_.numel
  bcast_S1024_S1024x1_0 : S1024.BroadcastsInDim S1024x1 (![0] : Fin 1 → Fin S1024x1.rank)
  bcast_S_S1024x1 : S_.BroadcastsInDim S1024x1 (![] : Fin 0 → Fin S1024x1.rank)
  bcast_S1024x1_S1024x128_0_1 : S1024x1.BroadcastsInDim S1024x128 (![0, 1] : Fin 2 → Fin S1024x128.rank)
  transposes_S1024x128_S128x1024_1_0 : S1024x128.Transposes [1, 0] S128x1024
  bcast_S_S1024x1024 : S_.BroadcastsInDim S1024x1024 (![] : Fin 0 → Fin S1024x1024.rank)
  reducesTo_S1024x1024_S1024_d1 : S1024x1024.ReducesTo [1] S1024
  bcast_S1024x1_S1024x1024_0_1 : S1024x1.BroadcastsInDim S1024x1024 (![0, 1] : Fin 2 → Fin S1024x1024.rank)
  bcast_S1024_S1x1024_1 : S1024.BroadcastsInDim S1x1024 (![1] : Fin 1 → Fin S1x1024.rank)
  bcast_S1x1024_S1024x1024_0_1 : S1x1024.BroadcastsInDim S1024x1024 (![0, 1] : Fin 2 → Fin S1024x1024.rank)
  bcast_S_S1024x128 : S_.BroadcastsInDim S1024x128 (![] : Fin 0 → Fin S1024x128.rank)
  bitsLt_bf16_f32 : FTy.bits .bf16 < FTy.bits .f32
  shapeCasts_S1024_S1024x1 : S1024.ShapeCasts S1024x1
  shapeCasts_S65536_S65536x1 : S65536.ShapeCasts S65536x1
  shapeCasts_S65536_S1x65536 : S65536.ShapeCasts S1x65536
  inb_S128x2048_S128x2048_0_0 : ∀ a, (![0, 0] : Fin 2 → Nat) a + S128x2048.size a ≤ S128x2048.size a
  h_S128x2048 : 0 < S128x2048.numel
  shapeCasts_S128x2048_S128x2048 : S128x2048.ShapeCasts S128x2048
  inb_S1024x1_S1024x1_0_0 : ∀ a, (![0, 0] : Fin 2 → Nat) a + S1024x1.size a ≤ S1024x1.size a
  h_S1024x1 : 0 < S1024x1.numel
  shapeCasts_S1024x1_S1024x1 : S1024x1.ShapeCasts S1024x1
  inb_S128x512_S128x512_0_0 : ∀ a, (![0, 0] : Fin 2 → Nat) a + S128x512.size a ≤ S128x512.size a
  h_S128x512 : 0 < S128x512.numel
  inb_S512x1_S512x1_0_0 : ∀ a, (![0, 0] : Fin 2 → Nat) a + S512x1.size a ≤ S512x1.size a
  h_S512x1 : 0 < S512x1.numel
  shapeCasts_S512x1_S512x1 : S512x1.ShapeCasts S512x1
  inb_S1x512_S1x512_0_0 : ∀ a, (![0, 0] : Fin 2 → Nat) a + S1x512.size a ≤ S1x512.size a
  h_S1x512 : 0 < S1x512.numel
  shapeCasts_S1x512_S1x512 : S1x512.ShapeCasts S1x512
  iota_S512x2048_d1_w32 : S512x2048.Iotas .tc 32 [1]
  broadcasts_S512x1_S512x2048 : S512x1.Broadcasts S512x2048
  natLt_1_32 : 1 < 32
  reduces_S128x512_S512 : S128x512.Reduces [0] S512
  shapeCasts_S512_S1x512 : S512.ShapeCasts S1x512
  broadcasts_S1x512_S128x512 : S1x512.Broadcasts S128x512
  inb_S1024x128_S1024x128_0_0 : ∀ a, (![0, 0] : Fin 2 → Nat) a + S1024x128.size a ≤ S1024x128.size a
  h_S1024x128 : 0 < S1024x128.numel
  shapeCasts_S1024x128_S1024x128 : S1024x128.ShapeCasts S1024x128
  broadcasts_S1024x1_S1024x512 : S1024x1.Broadcasts S1024x512
  broadcasts_S1x512_S1024x512 : S1x512.Broadcasts S1024x512
  reduces_S1024x512_S1024 : S1024x512.Reduces [1] S1024
  inb_S1x128x2048_S1x128x2048_0_0_0 : ∀ a, (![0, 0, 0] : Fin 3 → Nat) a + S1x128x2048.size a ≤ S1x128x2048.size a
  h_S1x128x2048 : 0 < S1x128x2048.numel
  shapeCasts_S1x128x2048_S128x2048 : S1x128x2048.ShapeCasts S128x2048
  shapeCasts_S128x2048_S1x128x2048 : S128x2048.ShapeCasts S1x128x2048
  inb_S1x1024x1_S1x1024x1_0_0_0 : ∀ a, (![0, 0, 0] : Fin 3 → Nat) a + S1x1024x1.size a ≤ S1x1024x1.size a
  h_S1x1024x1 : 0 < S1x1024x1.numel
  shapeCasts_S1x1024x1_S1024x1 : S1x1024x1.ShapeCasts S1024x1
  shapeCasts_S1024x1_S1x1024x1 : S1024x1.ShapeCasts S1x1024x1
  slices_S2x1024x1_S1x1024x1_0_0_0 : S2x1024x1.Slices ![0, 0, 0] S1x1024x1
  slices_S2x1024x1_S1x1024x1_1_0_0 : S2x1024x1.Slices ![1, 0, 0] S1x1024x1
  bcast_S_S65536 : S_.BroadcastsInDim S65536 (![] : Fin 0 → Fin S65536.rank)
  bcast_S_S2048 : S_.BroadcastsInDim S2048 (![] : Fin 0 → Fin S2048.rank)
  bcast_S65536_S65536x1_0 : S65536.BroadcastsInDim S65536x1 (![0] : Fin 1 → Fin S65536x1.rank)
  bcast_S_S1024 : S_.BroadcastsInDim S1024 (![] : Fin 0 → Fin S1024.rank)
  reducesTo_S1024x1_S_d0_1 : S1024x1.ReducesTo [0, 1] S_
  reducesTo_S2x128x2048_S128x2048_d0 : S2x128x2048.ReducesTo [0] S128x2048
  transposes_S128x2048_S2048x128_1_0 : S128x2048.Transposes [1, 0] S2048x128
  reducesTo_S1024x128_S128_d0 : S1024x128.ReducesTo [0] S128
  bcast_S128_S1x128_1 : S128.BroadcastsInDim S1x128 (![1] : Fin 1 → Fin S1x128.rank)
  bcast_S1x128_S1024x128_0_1 : S1x128.BroadcastsInDim S1024x128 (![0, 1] : Fin 2 → Fin S1024x128.rank)
  bcast_S2048_S2048x1_0 : S2048.BroadcastsInDim S2048x1 (![0] : Fin 1 → Fin S2048x1.rank)
  bcast_S2048x1_S2048x128_0_1 : S2048x1.BroadcastsInDim S2048x128 (![0, 1] : Fin 2 → Fin S2048x128.rank)
  reducesTo_S2048x128_S2048_d1 : S2048x128.ReducesTo [1] S2048
  bcast_S_S2048x1 : S_.BroadcastsInDim S2048x1 (![] : Fin 0 → Fin S2048x1.rank)
  concatenates_S1024x128_S1024x128_S2048x128_d0 : Shape.Concatenates [S1024x128, S1024x128] S2048x128 0
  transposes_S2048x128_S128x2048_1_0 : S2048x128.Transposes [1, 0] S128x2048
  concatenates_S1024_S1024_S2048_S4096_d0 : Shape.Concatenates [S1024, S1024, S2048] S4096 0
  concatenates_S1024x2048_S1024x2048_S1024x4096_d1 : Shape.Concatenates [S1024x2048, S1024x2048] S1024x4096 1
  bcast_S4096_S1x4096_1 : S4096.BroadcastsInDim S1x4096 (![1] : Fin 1 → Fin S1x4096.rank)
  bcast_S1024x1_S1024x4096_0_1 : S1024x1.BroadcastsInDim S1024x4096 (![0, 1] : Fin 2 → Fin S1024x4096.rank)
  bcast_S1x4096_S1024x4096_0_1 : S1x4096.BroadcastsInDim S1024x4096 (![0, 1] : Fin 2 → Fin S1024x4096.rank)
  reducesTo_S1024x4096_S1024_d1 : S1024x4096.ReducesTo [1] S1024
  bcast_S_S1024x4096 : S_.BroadcastsInDim S1024x4096 (![] : Fin 0 → Fin S1024x4096.rank)
  reducesTo_S1024_S_d0 : S1024.ReducesTo [0] S_
  concatenates_S1024_S2048_S3072_d0 : Shape.Concatenates [S1024, S2048] S3072 0
  concatenates_S1024x1024_S1024x2048_S1024x3072_d1 : Shape.Concatenates [S1024x1024, S1024x2048] S1024x3072 1
  bcast_S3072_S1x3072_1 : S3072.BroadcastsInDim S1x3072 (![1] : Fin 1 → Fin S1x3072.rank)
  bcast_S1024x1_S1024x3072_0_1 : S1024x1.BroadcastsInDim S1024x3072 (![0, 1] : Fin 2 → Fin S1024x3072.rank)
  bcast_S1x3072_S1024x3072_0_1 : S1x3072.BroadcastsInDim S1024x3072 (![0, 1] : Fin 2 → Fin S1024x3072.rank)
  reducesTo_S1024x3072_S1024_d1 : S1024x3072.ReducesTo [1] S1024
  bcast_S_S1024x3072 : S_.BroadcastsInDim S1024x3072 (![] : Fin 0 → Fin S1024x3072.rank)
  dot_S1024x128_S128x1024_S1024x1024_1_0_0_1_n_n_wf : DotDims.WF S1024x128 S128x1024 S1024x1024 [1] [0] [0] [1] [] []
  dot_S128x512_S512x2048_S128x2048_1_0_0_1_n_n_wf : DotDims.WF S128x512 S512x2048 S128x2048 [1] [0] [0] [1] [] []
  dot_S1024x128_S128x512_S1024x512_1_0_0_1_n_n_wf : DotDims.WF S1024x128 S128x512 S1024x512 [1] [0] [0] [1] [] []
  scatter_S2048_S65536x1_S65536_n_0_0_1_wf : ScatterDims.WF S2048 S65536x1 S65536 [] [0] [0] 1
  gather_S2048_S1024x1_S1024_n_0_n_n_0_1_1_wf : GatherDims.WF S2048 S1024x1 S1024 [] [0] [] [0] [] 1 ![1]
  gather_S2048x128_S1024x1_S1024x128_1_0_n_n_0_1_1128_wf : GatherDims.WF S2048x128 S1024x1 S1024x128 [1] [0] [] [0] [] 1 ![1, 128]
  dot_S1024x128_S128x2048_S1024x2048_1_0_0_1_n_n_wf : DotDims.WF S1024x128 S128x2048 S1024x2048 [1] [0] [0] [1] [] []
  hrank0 : 0 < grid0.rank
  hstage0_0 : ∀ j, (stage0_0 j).IsWhole
  nbuf0_0 : grid0.bufCount reads0_0 false = 2
  hreads0_0 : ∀ i i' : grid0.Coords, (∀ a, reads0_0 a = true → i a = i' a) → cc0_transform_0 i = cc0_transform_0 i'
  hinb0_0 : ∀ (i : grid0.Coords) a, (cc0_transform_0 i a + 1) * S128x512.size a ≤ S128x65536.size a
  hwx0_0 : ∀ i : grid0.Coords, EltTy.bits .f32 = 32 ∨ (Rect.block (s := S128x65536) S128x512.size (cc0_transform_0 i) (hinb0_0 i)).WholeWords (EltTy.packing .f32)
  hstage0_1 : ∀ j, (stage0_1 j).IsWhole
  nbuf0_1 : grid0.bufCount reads0_1 false = 2
  hreads0_1 : ∀ i i' : grid0.Coords, (∀ a, reads0_1 a = true → i a = i' a) → cc0_transform_1 i = cc0_transform_1 i'
  hinb0_1 : ∀ (i : grid0.Coords) a, (cc0_transform_1 i a + 1) * S512x1.size a ≤ S65536x1.size a
  hwx0_1 : ∀ i : grid0.Coords, EltTy.bits .i32 = 32 ∨ (Rect.block (s := S65536x1) S512x1.size (cc0_transform_1 i) (hinb0_1 i)).WholeWords (EltTy.packing .i32)
  hstage0_2 : ∀ j, (stage0_2 j).IsWhole
  nbuf0_2 : grid0.bufCount reads0_2 false = 2
  hreads0_2 : ∀ i i' : grid0.Coords, (∀ a, reads0_2 a = true → i a = i' a) → cc0_transform_2 i = cc0_transform_2 i'
  hinb0_2 : ∀ (i : grid0.Coords) a, (cc0_transform_2 i a + 1) * S1x512.size a ≤ S1x65536.size a
  hwx0_2 : ∀ i : grid0.Coords, EltTy.bits .i32 = 32 ∨ (Rect.block (s := S1x65536) S1x512.size (cc0_transform_2 i) (hinb0_2 i)).WholeWords (EltTy.packing .i32)
  hstage0_3 : ∀ j, (stage0_3 j).IsWhole
  nbuf0_3 : grid0.bufCount reads0_3 true = 1
  hreads0_3 : ∀ i i' : grid0.Coords, (∀ a, reads0_3 a = true → i a = i' a) → cc0_transform_3 i = cc0_transform_3 i'
  hinb0_3 : ∀ (i : grid0.Coords) a, (cc0_transform_3 i a + 1) * S1024x128.size a ≤ S1024x128.size a
  hwx0_3 : ∀ i : grid0.Coords, EltTy.bits .bf16 = 32 ∨ (Rect.block (s := S1024x128) S1024x128.size (cc0_transform_3 i) (hinb0_3 i)).WholeWords (EltTy.packing .bf16)
  hstage0_4 : ∀ j, (stage0_4 j).IsWhole
  nbuf0_4 : grid0.bufCount reads0_4 true = 1
  hreads0_4 : ∀ i i' : grid0.Coords, (∀ a, reads0_4 a = true → i a = i' a) → cc0_transform_4 i = cc0_transform_4 i'
  hinb0_4 : ∀ (i : grid0.Coords) a, (cc0_transform_4 i a + 1) * S1024x1.size a ≤ S1024x1.size a
  hwx0_4 : ∀ i : grid0.Coords, EltTy.bits .i32 = 32 ∨ (Rect.block (s := S1024x1) S1024x1.size (cc0_transform_4 i) (hinb0_4 i)).WholeWords (EltTy.packing .i32)
  hstage0_5 : ∀ j, (stage0_5 j).IsWhole
  nbuf0_5 : grid0.bufCount reads0_5 false = 2
  hreads0_5 : ∀ i i' : grid0.Coords, (∀ a, reads0_5 a = true → i a = i' a) → cc0_transform_5 i = cc0_transform_5 i'
  hinb0_5 : ∀ (i : grid0.Coords) a, (cc0_transform_5 i a + 1) * S1x128x2048.size a ≤ S2x128x2048.size a
  hwx0_5 : ∀ i : grid0.Coords, EltTy.bits .f32 = 32 ∨ (Rect.block (s := S2x128x2048) S1x128x2048.size (cc0_transform_5 i) (hinb0_5 i)).WholeWords (EltTy.packing .f32)
  hstage0_6 : ∀ j, (stage0_6 j).IsWhole
  nbuf0_6 : grid0.bufCount reads0_6 false = 2
  hreads0_6 : ∀ i i' : grid0.Coords, (∀ a, reads0_6 a = true → i a = i' a) → cc0_transform_6 i = cc0_transform_6 i'
  hinb0_6 : ∀ (i : grid0.Coords) a, (cc0_transform_6 i a + 1) * S1x1024x1.size a ≤ S2x1024x1.size a
  hwx0_6 : ∀ i : grid0.Coords, EltTy.bits .f32 = 32 ∨ (Rect.block (s := S2x1024x1) S1x1024x1.size (cc0_transform_6 i) (hinb0_6 i)).WholeWords (EltTy.packing .f32)
  hstage0_7 : ∀ j, (stage0_7 j).IsWhole
  nbuf0_7 : grid0.bufCount reads0_7 false = 2
  hreads0_7 : ∀ i i' : grid0.Coords, (∀ a, reads0_7 a = true → i a = i' a) → cc0_transform_7 i = cc0_transform_7 i'
  hinb0_7 : ∀ (i : grid0.Coords) a, (cc0_transform_7 i a + 1) * S1x1024x1.size a ≤ S2x1024x1.size a
  hwx0_7 : ∀ i : grid0.Coords, EltTy.bits .f32 = 32 ∨ (Rect.block (s := S2x1024x1) S1x1024x1.size (cc0_transform_7 i) (hinb0_7 i)).WholeWords (EltTy.packing .f32)
  hstage0_8 : ∀ j, (stage0_8 j).IsWhole
  nbuf0_8 : grid0.bufCount reads0_8 false = 2
  hreads0_8 : ∀ i i' : grid0.Coords, (∀ a, reads0_8 a = true → i a = i' a) → cc0_transform_8 i = cc0_transform_8 i'
  hinb0_8 : ∀ (i : grid0.Coords) a, (cc0_transform_8 i a + 1) * S1x1024x1.size a ≤ S2x1024x1.size a
  hwx0_8 : ∀ i : grid0.Coords, EltTy.bits .f32 = 32 ∨ (Rect.block (s := S2x1024x1) S1x1024x1.size (cc0_transform_8 i) (hinb0_8 i)).WholeWords (EltTy.packing .f32)

variable [Facts₀]

def dot_S1024x128_S128x1024_S1024x1024_1_0_0_1_n_n : DotDims S1024x128 S128x1024 S1024x1024 where
  lhsContracting := [1]
  rhsContracting := [0]
  lhsNonContracting := [0]
  rhsNonContracting := [1]
  lhsBatch := []
  rhsBatch := []
  wf := dot_S1024x128_S128x1024_S1024x1024_1_0_0_1_n_n_wf
def dot_S128x512_S512x2048_S128x2048_1_0_0_1_n_n : DotDims S128x512 S512x2048 S128x2048 where
  lhsContracting := [1]
  rhsContracting := [0]
  lhsNonContracting := [0]
  rhsNonContracting := [1]
  lhsBatch := []
  rhsBatch := []
  wf := dot_S128x512_S512x2048_S128x2048_1_0_0_1_n_n_wf
def dot_S1024x128_S128x512_S1024x512_1_0_0_1_n_n : DotDims S1024x128 S128x512 S1024x512 where
  lhsContracting := [1]
  rhsContracting := [0]
  lhsNonContracting := [0]
  rhsNonContracting := [1]
  lhsBatch := []
  rhsBatch := []
  wf := dot_S1024x128_S128x512_S1024x512_1_0_0_1_n_n_wf
def scatter_S2048_S65536x1_S65536_n_0_0_1 : ScatterDims S2048 S65536x1 S65536 where
  updateWindowDims := []
  insertedWindowDims := [0]
  scatterDimsToOperandDims := [0]
  indexVectorDim := 1
  wf := scatter_S2048_S65536x1_S65536_n_0_0_1_wf
def gather_S2048_S1024x1_S1024_n_0_n_n_0_1_1 : GatherDims S2048 S1024x1 S1024 where
  offsetDims := []
  collapsedSliceDims := [0]
  operandBatchingDims := []
  startIndicesBatchingDims := []
  startIndexMap := [0]
  indexVectorDim := 1
  sliceSizes := ![1]
  wf := gather_S2048_S1024x1_S1024_n_0_n_n_0_1_1_wf
def gather_S2048x128_S1024x1_S1024x128_1_0_n_n_0_1_1128 : GatherDims S2048x128 S1024x1 S1024x128 where
  offsetDims := [1]
  collapsedSliceDims := [0]
  operandBatchingDims := []
  startIndicesBatchingDims := []
  startIndexMap := [0]
  indexVectorDim := 1
  sliceSizes := ![1, 128]
  wf := gather_S2048x128_S1024x1_S1024x128_1_0_n_n_0_1_1128_wf
def dot_S1024x128_S128x2048_S1024x2048_1_0_0_1_n_n : DotDims S1024x128 S128x2048 S1024x2048 where
  lhsContracting := [1]
  rhsContracting := [0]
  lhsNonContracting := [0]
  rhsNonContracting := [1]
  lhsBatch := []
  rhsBatch := []
  wf := dot_S1024x128_S128x2048_S1024x2048_1_0_0_1_n_n_wf

abbrev win0_0 : Pipeline.Window sig grid0 :=
  Pipeline.Window.ofSpec (Memref.whole main_arg3) S128x512.size cc0_transform_0 reads0_0 false false 2 stage0_0 sem0_0
    hrank0 hreads0_0 hinb0_0 nbuf0_0 (Memref.isWhole_whole _) hwx0_0 hstage0_0

abbrev win0_1 : Pipeline.Window sig grid0 :=
  Pipeline.Window.ofSpec (Memref.whole main_v42) S512x1.size cc0_transform_1 reads0_1 false false 2 stage0_1 sem0_1
    hrank0 hreads0_1 hinb0_1 nbuf0_1 (Memref.isWhole_whole _) hwx0_1 hstage0_1

abbrev win0_2 : Pipeline.Window sig grid0 :=
  Pipeline.Window.ofSpec (Memref.whole main_v43) S1x512.size cc0_transform_2 reads0_2 false false 2 stage0_2 sem0_2
    hrank0 hreads0_2 hinb0_2 nbuf0_2 (Memref.isWhole_whole _) hwx0_2 hstage0_2

abbrev win0_3 : Pipeline.Window sig grid0 :=
  Pipeline.Window.ofSpec (Memref.whole main_v40) S1024x128.size cc0_transform_3 reads0_3 false true 1 stage0_3 sem0_3
    hrank0 hreads0_3 hinb0_3 nbuf0_3 (Memref.isWhole_whole _) hwx0_3 hstage0_3

abbrev win0_4 : Pipeline.Window sig grid0 :=
  Pipeline.Window.ofSpec (Memref.whole main_v41) S1024x1.size cc0_transform_4 reads0_4 false true 1 stage0_4 sem0_4
    hrank0 hreads0_4 hinb0_4 nbuf0_4 (Memref.isWhole_whole _) hwx0_4 hstage0_4

abbrev win0_5 : Pipeline.Window sig grid0 :=
  Pipeline.Window.ofSpec (Memref.whole main_v44_0) S1x128x2048.size cc0_transform_5 reads0_5 true false 2 stage0_5 sem0_5
    hrank0 hreads0_5 hinb0_5 nbuf0_5 (Memref.isWhole_whole _) hwx0_5 hstage0_5

abbrev win0_6 : Pipeline.Window sig grid0 :=
  Pipeline.Window.ofSpec (Memref.whole main_v44_1) S1x1024x1.size cc0_transform_6 reads0_6 true false 2 stage0_6 sem0_6
    hrank0 hreads0_6 hinb0_6 nbuf0_6 (Memref.isWhole_whole _) hwx0_6 hstage0_6

abbrev win0_7 : Pipeline.Window sig grid0 :=
  Pipeline.Window.ofSpec (Memref.whole main_v44_2) S1x1024x1.size cc0_transform_7 reads0_7 true false 2 stage0_7 sem0_7
    hrank0 hreads0_7 hinb0_7 nbuf0_7 (Memref.isWhole_whole _) hwx0_7 hstage0_7

abbrev win0_8 : Pipeline.Window sig grid0 :=
  Pipeline.Window.ofSpec (Memref.whole main_v44_3) S1x1024x1.size cc0_transform_8 reads0_8 true false 2 stage0_8 sem0_8
    hrank0 hreads0_8 hinb0_8 nbuf0_8 (Memref.isWhole_whole _) hwx0_8 hstage0_8

abbrev win0 : Fin 9 → Pipeline.Window sig grid0 := fun | 0 => win0_0 | 1 => win0_1 | 2 => win0_2 | 3 => win0_3 | 4 => win0_4 | 5 => win0_5 | 6 => win0_6 | 7 => win0_7 | 8 => win0_8 | ⟨_ + 9, h⟩ => absurd h (Nat.not_lt.2 (Nat.le_add_left _ _))
abbrev spec0 : Fin 9 → Pipeline.WinSpec sig grid0.rank := fun w => (win0 w).toWinSpec

abbrev idle0 : Fin 9 → grid0.Coords → Bool := fun | 0 => fun _ => false | 1 => fun _ => false | 2 => fun _ => false | 3 => fun _ => false | 4 => fun _ => false | 5 => fun i => !(k0_cond2 i == 1#1) | 6 => fun i => !(k0_cond2 i == 1#1) | 7 => fun i => !(k0_cond2 i == 1#1) | 8 => fun i => !(k0_cond2 i == 1#1) | ⟨_ + 9, h⟩ => absurd h (Nat.not_lt.2 (Nat.le_add_left _ _))

class Facts : Prop extends Facts₀ where

variable [Facts]
-- ==== ReferenceIdeal.lean ====
abbrev S1024x128 : Shape := ⟨2, ![1024, 128]⟩
abbrev S128x65536 : Shape := ⟨2, ![128, 65536]⟩
abbrev S1024 : Shape := ⟨1, ![1024]⟩
abbrev S65536 : Shape := ⟨1, ![65536]⟩
abbrev S_ : Shape := ⟨0, ![]⟩
abbrev S1024x1 : Shape := ⟨2, ![1024, 1]⟩
abbrev S128x1024 : Shape := ⟨2, ![128, 1024]⟩
abbrev S1024x1024 : Shape := ⟨2, ![1024, 1024]⟩
abbrev S1x65536 : Shape := ⟨2, ![1, 65536]⟩
abbrev S1024x65536 : Shape := ⟨2, ![1024, 65536]⟩
abbrev S66560 : Shape := ⟨1, ![66560]⟩
abbrev S1024x66560 : Shape := ⟨2, ![1024, 66560]⟩
abbrev S1x66560 : Shape := ⟨2, ![1, 66560]⟩
abbrev S65536x128 : Shape := ⟨2, ![65536, 128]⟩
abbrev S2048x128 : Shape := ⟨2, ![2048, 128]⟩
abbrev S65536x1 : Shape := ⟨2, ![65536, 1]⟩
abbrev S2048 : Shape := ⟨1, ![2048]⟩
abbrev S128 : Shape := ⟨1, ![128]⟩
abbrev S1x128 : Shape := ⟨2, ![1, 128]⟩
abbrev S2048x1 : Shape := ⟨2, ![2048, 1]⟩
abbrev S128x2048 : Shape := ⟨2, ![128, 2048]⟩
abbrev S1024x2048 : Shape := ⟨2, ![1024, 2048]⟩
abbrev S4096 : Shape := ⟨1, ![4096]⟩
abbrev S1024x4096 : Shape := ⟨2, ![1024, 4096]⟩
abbrev S1x4096 : Shape := ⟨2, ![1, 4096]⟩
abbrev S3072 : Shape := ⟨1, ![3072]⟩
abbrev S1024x3072 : Shape := ⟨2, ![1024, 3072]⟩
abbrev S1x3072 : Shape := ⟨2, ![1, 3072]⟩

abbrev nBuf : Space → Nat
  | .hbm => 255
  | .vmem => 0
  | .smem => 0
  | _ => 0

abbrev hbmTy0_0 (i : Nat) : BufTy := match i % 128 with
  | 0 => ⟨S1024x128, .f32⟩
  | 1 => ⟨S1024x128, .f32⟩
  | 2 => ⟨S1024x128, .f32⟩
  | 3 => ⟨S128x65536, .f32⟩
  | 4 => ⟨S1024, .i32⟩
  | 5 => ⟨S65536, .i32⟩
  | 6 => ⟨S1024x128, .f32⟩
  | 7 => ⟨S_, .f32⟩
  | 8 => ⟨S1024, .f32⟩
  | 9 => ⟨S1024x1, .f32⟩
  | 10 => ⟨S1024x1, .f32⟩
  | 11 => ⟨S_, .f32⟩
  | 12 => ⟨S1024x1, .f32⟩
  | 13 => ⟨S1024x1, .f32⟩
  | 14 => ⟨S1024x128, .f32⟩
  | 15 => ⟨S1024x128, .f32⟩
  | 16 => ⟨S1024x128, .f32⟩
  | 17 => ⟨S_, .f32⟩
  | 18 => ⟨S1024, .f32⟩
  | 19 => ⟨S1024x1, .f32⟩
  | 20 => ⟨S1024x1, .f32⟩
  | 21 => ⟨S_, .f32⟩
  | 22 => ⟨S1024x1, .f32⟩
  | 23 => ⟨S1024x1, .f32⟩
  | 24 => ⟨S1024x128, .f32⟩
  | 25 => ⟨S1024x128, .f32⟩
  | 26 => ⟨S128x1024, .f32⟩
  | 27 => ⟨S1024x1024, .f32⟩
  | 28 => ⟨S128x65536, .f32⟩
  | 29 => ⟨S_, .f32⟩
  | 30 => ⟨S65536, .f32⟩
  | 31 => ⟨S1x65536, .f32⟩
  | 32 => ⟨S1x65536, .f32⟩
  | 33 => ⟨S_, .f32⟩
  | 34 => ⟨S1x65536, .f32⟩
  | 35 => ⟨S1x65536, .f32⟩
  | 36 => ⟨S128x65536, .f32⟩
  | 37 => ⟨S128x65536, .f32⟩
  | 38 => ⟨S1024x65536, .f32⟩
  | 39 => ⟨S66560, .i32⟩
  | 40 => ⟨S1024x66560, .f32⟩
  | 41 => ⟨S1024x1, .i32⟩
  | 42 => ⟨S1x66560, .i32⟩
  | 43 => ⟨S1024x66560, .i32⟩
  | 44 => ⟨S1024x66560, .i32⟩
  | 45 => ⟨S1024x66560, .i1⟩
  | 46 => ⟨S1024x66560, .f32⟩
  | 47 => ⟨S_, .f32⟩
  | 48 => ⟨S1024, .f32⟩
  | 49 => ⟨S1024x1, .f32⟩
  | 50 => ⟨S1024x66560, .f32⟩
  | 51 => ⟨S1024x66560, .f32⟩
  | 52 => ⟨S_, .f32⟩
  | 53 => ⟨S1024x66560, .f32⟩
  | 54 => ⟨S1024x66560, .f32⟩
  | 55 => ⟨S_, .f32⟩
  | 56 => ⟨S1024, .f32⟩
  | 57 => ⟨S_, .f32⟩
  | 58 => ⟨S1024, .f32⟩
  | 59 => ⟨S1024, .f32⟩
  | 60 => ⟨S1024x1, .f32⟩
  | 61 => ⟨S1024x66560, .f32⟩
  | 62 => ⟨S1024x66560, .f32⟩
  | 63 => ⟨S1024x66560, .f32⟩
  | 64 => ⟨S_, .f32⟩
  | 65 => ⟨S1024, .f32⟩
  | 66 => ⟨S1024x1, .f32⟩
  | 67 => ⟨S1024x1, .f32⟩
  | 68 => ⟨S1024x66560, .f32⟩
  | 69 => ⟨S1024x66560, .f32⟩
  | 70 => ⟨S1024x66560, .f32⟩
  | 71 => ⟨S_, .f32⟩
  | 72 => ⟨S1024, .f32⟩
  | 73 => ⟨S_, .f32⟩
  | 74 => ⟨S_, .f32⟩
  | 75 => ⟨S_, .f32⟩
  | 76 => ⟨S_, .f32⟩
  | 77 => ⟨S_, .f32⟩
  | 78 => ⟨S65536x128, .f32⟩
  | 79 => ⟨S_, .f32⟩
  | 80 => ⟨S2048x128, .f32⟩
  | 81 => ⟨S65536x1, .i32⟩
  | 82 => ⟨S2048x128, .f32⟩
  | 83 => ⟨S_, .f32⟩
  | 84 => ⟨S65536, .f32⟩
  | 85 => ⟨S_, .f32⟩
  | 86 => ⟨S2048, .f32⟩
  | 87 => ⟨S65536x1, .i32⟩
  | 88 => ⟨S2048, .f32⟩
  | 89 => ⟨S_, .f32⟩
  | 90 => ⟨S128, .f32⟩
  | 91 => ⟨S_, .f32⟩
  | 92 => ⟨S128, .f32⟩
  | 93 => ⟨S_, .i32⟩
  | 94 => ⟨S1024, .i32⟩
  | 95 => ⟨S1024, .i1⟩
  | 96 => ⟨S_, .i32⟩
  | 97 => ⟨S1024, .i32⟩
  | 98 => ⟨S1024, .i32⟩
  | 99 => ⟨S1024, .i32⟩
  | 100 => ⟨S1024x1, .i32⟩
  | 101 => ⟨S1024, .f32⟩
  | 102 => ⟨S_, .f32⟩
  | 103 => ⟨S1024, .f32⟩
  | 104 => ⟨S1024, .f32⟩
  | 105 => ⟨S1024x1, .f32⟩
  | 106 => ⟨S1x128, .f32⟩
  | 107 => ⟨S_, .i32⟩
  | 108 => ⟨S1024, .i32⟩
  | 109 => ⟨S1024, .i1⟩
  | 110 => ⟨S_, .i32⟩
  | 111 => ⟨S1024, .i32⟩
  | 112 => ⟨S1024, .i32⟩
  | 113 => ⟨S1024, .i32⟩
  | 114 => ⟨S1024x1, .i32⟩
  | 115 => ⟨S1024x128, .f32⟩
  | 116 => ⟨S1024x128, .f32⟩
  | 117 => ⟨S1024x128, .f32⟩
  | 118 => ⟨S1024x128, .f32⟩
  | 119 => ⟨S1024x128, .f32⟩
  | 120 => ⟨S1024x128, .f32⟩
  | 121 => ⟨S_, .f32⟩
  | 122 => ⟨S1024, .f32⟩
  | 123 => ⟨S1024x1, .f32⟩
  | 124 => ⟨S1024x1, .f32⟩
  | 125 => ⟨S_, .f32⟩
  | 126 => ⟨S1024x1, .f32⟩
  | 127 => ⟨S1024x1, .f32⟩
  | _ => ⟨S1024x128, .f32⟩

abbrev hbmTy0_1 (i : Nat) : BufTy := match i % 128 with
  | 0 => ⟨S1024x128, .f32⟩
  | 1 => ⟨S1024x128, .f32⟩
  | 2 => ⟨S1x128, .f32⟩
  | 3 => ⟨S_, .i32⟩
  | 4 => ⟨S1024, .i32⟩
  | 5 => ⟨S1024, .i1⟩
  | 6 => ⟨S_, .i32⟩
  | 7 => ⟨S1024, .i32⟩
  | 8 => ⟨S1024, .i32⟩
  | 9 => ⟨S1024, .i32⟩
  | 10 => ⟨S1024x1, .i32⟩
  | 11 => ⟨S1024x128, .f32⟩
  | 12 => ⟨S1024x128, .f32⟩
  | 13 => ⟨S1024x128, .f32⟩
  | 14 => ⟨S1024x128, .f32⟩
  | 15 => ⟨S1024x128, .f32⟩
  | 16 => ⟨S1024x128, .f32⟩
  | 17 => ⟨S_, .f32⟩
  | 18 => ⟨S1024, .f32⟩
  | 19 => ⟨S1024x1, .f32⟩
  | 20 => ⟨S1024x1, .f32⟩
  | 21 => ⟨S_, .f32⟩
  | 22 => ⟨S1024x1, .f32⟩
  | 23 => ⟨S1024x1, .f32⟩
  | 24 => ⟨S1024x128, .f32⟩
  | 25 => ⟨S1024x128, .f32⟩
  | 26 => ⟨S2048x1, .f32⟩
  | 27 => ⟨S2048x128, .f32⟩
  | 28 => ⟨S2048x128, .f32⟩
  | 29 => ⟨S2048x128, .f32⟩
  | 30 => ⟨S_, .f32⟩
  | 31 => ⟨S2048, .f32⟩
  | 32 => ⟨S2048x1, .f32⟩
  | 33 => ⟨S2048x1, .f32⟩
  | 34 => ⟨S_, .f32⟩
  | 35 => ⟨S2048x1, .f32⟩
  | 36 => ⟨S2048x1, .f32⟩
  | 37 => ⟨S2048x128, .f32⟩
  | 38 => ⟨S2048x128, .f32⟩
  | 39 => ⟨S2048, .i32⟩
  | 40 => ⟨S2048x128, .f32⟩
  | 41 => ⟨S128x2048, .f32⟩
  | 42 => ⟨S1024x2048, .f32⟩
  | 43 => ⟨S128x2048, .f32⟩
  | 44 => ⟨S1024x2048, .f32⟩
  | 45 => ⟨S4096, .i32⟩
  | 46 => ⟨S1024x4096, .f32⟩
  | 47 => ⟨S1024x1, .i32⟩
  | 48 => ⟨S1x4096, .i32⟩
  | 49 => ⟨S1024x4096, .i32⟩
  | 50 => ⟨S1024x4096, .i32⟩
  | 51 => ⟨S1024x4096, .i1⟩
  | 52 => ⟨S1024x4096, .f32⟩
  | 53 => ⟨S_, .f32⟩
  | 54 => ⟨S1024, .f32⟩
  | 55 => ⟨S1024x1, .f32⟩
  | 56 => ⟨S1024x4096, .f32⟩
  | 57 => ⟨S1024x4096, .f32⟩
  | 58 => ⟨S_, .f32⟩
  | 59 => ⟨S1024x4096, .f32⟩
  | 60 => ⟨S1024x4096, .f32⟩
  | 61 => ⟨S_, .f32⟩
  | 62 => ⟨S1024, .f32⟩
  | 63 => ⟨S_, .f32⟩
  | 64 => ⟨S1024, .f32⟩
  | 65 => ⟨S1024, .f32⟩
  | 66 => ⟨S1024x1, .f32⟩
  | 67 => ⟨S1024x4096, .f32⟩
  | 68 => ⟨S1024x4096, .f32⟩
  | 69 => ⟨S1024x4096, .f32⟩
  | 70 => ⟨S_, .f32⟩
  | 71 => ⟨S1024, .f32⟩
  | 72 => ⟨S1024x1, .f32⟩
  | 73 => ⟨S1024x1, .f32⟩
  | 74 => ⟨S1024x4096, .f32⟩
  | 75 => ⟨S1024x4096, .f32⟩
  | 76 => ⟨S1024x4096, .f32⟩
  | 77 => ⟨S_, .f32⟩
  | 78 => ⟨S1024, .f32⟩
  | 79 => ⟨S_, .f32⟩
  | 80 => ⟨S_, .f32⟩
  | 81 => ⟨S_, .f32⟩
  | 82 => ⟨S_, .f32⟩
  | 83 => ⟨S_, .f32⟩
  | 84 => ⟨S128x1024, .f32⟩
  | 85 => ⟨S1024x1024, .f32⟩
  | 86 => ⟨S128x2048, .f32⟩
  | 87 => ⟨S1024x2048, .f32⟩
  | 88 => ⟨S3072, .i32⟩
  | 89 => ⟨S1024x3072, .f32⟩
  | 90 => ⟨S1024x1, .i32⟩
  | 91 => ⟨S1x3072, .i32⟩
  | 92 => ⟨S1024x3072, .i32⟩
  | 93 => ⟨S1024x3072, .i32⟩
  | 94 => ⟨S1024x3072, .i1⟩
  | 95 => ⟨S1024x3072, .f32⟩
  | 96 => ⟨S_, .f32⟩
  | 97 => ⟨S1024, .f32⟩
  | 98 => ⟨S1024x1, .f32⟩
  | 99 => ⟨S1024x3072, .f32⟩
  | 100 => ⟨S1024x3072, .f32⟩
  | 101 => ⟨S_, .f32⟩
  | 102 => ⟨S1024x3072, .f32⟩
  | 103 => ⟨S1024x3072, .f32⟩
  | 104 => ⟨S_, .f32⟩
  | 105 => ⟨S1024, .f32⟩
  | 106 => ⟨S_, .f32⟩
  | 107 => ⟨S1024, .f32⟩
  | 108 => ⟨S1024, .f32⟩
  | 109 => ⟨S1024x1, .f32⟩
  | 110 => ⟨S1024x3072, .f32⟩
  | 111 => ⟨S1024x3072, .f32⟩
  | 112 => ⟨S1024x3072, .f32⟩
  | 113 => ⟨S_, .f32⟩
  | 114 => ⟨S1024, .f32⟩
  | 115 => ⟨S1024x1, .f32⟩
  | 116 => ⟨S1024x1, .f32⟩
  | 117 => ⟨S1024x3072, .f32⟩
  | 118 => ⟨S1024x3072, .f32⟩
  | 119 => ⟨S1024x3072, .f32⟩
  | 120 => ⟨S_, .f32⟩
  | 121 => ⟨S1024, .f32⟩
  | 122 => ⟨S_, .f32⟩
  | 123 => ⟨S_, .f32⟩
  | 124 => ⟨S_, .f32⟩
  | 125 => ⟨S_, .f32⟩
  | 126 => ⟨S_, .f32⟩
  | _ => ⟨S1024x128, .f32⟩

abbrev hbmTy (i : Nat) : BufTy := match i / 128 with
  | 0 => hbmTy0_0 i
  | 1 => hbmTy0_1 i
  | _ => ⟨S1024x128, .f32⟩

abbrev bufTy : (tb : Table) → Fin (tcTables nBuf tb) → BufTy
  | .hbm, ⟨i, _⟩ => hbmTy i
  | _, _ => ⟨S1024x128, .f32⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_arg4 : Ref sig .tc := ⟨.hbm, 4, rfl⟩
abbrev main_arg5 : Ref sig .tc := ⟨.hbm, 5, rfl⟩
abbrev main_v0 : Ref sig .tc := ⟨.hbm, 6, rfl⟩
abbrev main_cst : Ref sig .tc := ⟨.hbm, 7, rfl⟩
abbrev main_v1 : Ref sig .tc := ⟨.hbm, 8, rfl⟩
abbrev main_v2 : Ref sig .tc := ⟨.hbm, 9, rfl⟩
abbrev main_v3 : Ref sig .tc := ⟨.hbm, 10, rfl⟩
abbrev main_cst_0 : Ref sig .tc := ⟨.hbm, 11, rfl⟩
abbrev main_v4 : Ref sig .tc := ⟨.hbm, 12, rfl⟩
abbrev main_v5 : Ref sig .tc := ⟨.hbm, 13, rfl⟩
abbrev main_v6 : Ref sig .tc := ⟨.hbm, 14, rfl⟩
abbrev main_v7 : Ref sig .tc := ⟨.hbm, 15, rfl⟩
abbrev main_v8 : Ref sig .tc := ⟨.hbm, 16, rfl⟩
abbrev main_cst_1 : Ref sig .tc := ⟨.hbm, 17, rfl⟩
abbrev main_v9 : Ref sig .tc := ⟨.hbm, 18, rfl⟩
abbrev main_v10 : Ref sig .tc := ⟨.hbm, 19, rfl⟩
abbrev main_v11 : Ref sig .tc := ⟨.hbm, 20, rfl⟩
abbrev main_cst_2 : Ref sig .tc := ⟨.hbm, 21, rfl⟩
abbrev main_v12 : Ref sig .tc := ⟨.hbm, 22, rfl⟩
abbrev main_v13 : Ref sig .tc := ⟨.hbm, 23, rfl⟩
abbrev main_v14 : Ref sig .tc := ⟨.hbm, 24, rfl⟩
abbrev main_v15 : Ref sig .tc := ⟨.hbm, 25, rfl⟩
abbrev main_v16 : Ref sig .tc := ⟨.hbm, 26, rfl⟩
abbrev main_v17 : Ref sig .tc := ⟨.hbm, 27, rfl⟩
abbrev main_v18 : Ref sig .tc := ⟨.hbm, 28, rfl⟩
abbrev main_cst_3 : Ref sig .tc := ⟨.hbm, 29, rfl⟩
abbrev main_v19 : Ref sig .tc := ⟨.hbm, 30, rfl⟩
abbrev main_v20 : Ref sig .tc := ⟨.hbm, 31, rfl⟩
abbrev main_v21 : Ref sig .tc := ⟨.hbm, 32, rfl⟩
abbrev main_cst_4 : Ref sig .tc := ⟨.hbm, 33, rfl⟩
abbrev main_v22 : Ref sig .tc := ⟨.hbm, 34, rfl⟩
abbrev main_v23 : Ref sig .tc := ⟨.hbm, 35, rfl⟩
abbrev main_v24 : Ref sig .tc := ⟨.hbm, 36, rfl⟩
abbrev main_v25 : Ref sig .tc := ⟨.hbm, 37, rfl⟩
abbrev main_v26 : Ref sig .tc := ⟨.hbm, 38, rfl⟩
abbrev main_v27 : Ref sig .tc := ⟨.hbm, 39, rfl⟩
abbrev main_v28 : Ref sig .tc := ⟨.hbm, 40, rfl⟩
abbrev main_v29 : Ref sig .tc := ⟨.hbm, 41, rfl⟩
abbrev main_v30 : Ref sig .tc := ⟨.hbm, 42, rfl⟩
abbrev main_v31 : Ref sig .tc := ⟨.hbm, 43, rfl⟩
abbrev main_v32 : Ref sig .tc := ⟨.hbm, 44, rfl⟩
abbrev main_v33 : Ref sig .tc := ⟨.hbm, 45, rfl⟩
abbrev main_v34 : Ref sig .tc := ⟨.hbm, 46, rfl⟩
abbrev main_cst_5 : Ref sig .tc := ⟨.hbm, 47, rfl⟩
abbrev main_v35 : Ref sig .tc := ⟨.hbm, 48, rfl⟩
abbrev main_v36 : Ref sig .tc := ⟨.hbm, 49, rfl⟩
abbrev main_v37 : Ref sig .tc := ⟨.hbm, 50, rfl⟩
abbrev main_v38 : Ref sig .tc := ⟨.hbm, 51, rfl⟩
abbrev main_cst_6 : Ref sig .tc := ⟨.hbm, 52, rfl⟩
abbrev main_v39 : Ref sig .tc := ⟨.hbm, 53, rfl⟩
abbrev main_v40 : Ref sig .tc := ⟨.hbm, 54, rfl⟩
abbrev main_call0_cst : Ref sig .tc := ⟨.hbm, 55, rfl⟩
abbrev main_call0_v0 : Ref sig .tc := ⟨.hbm, 56, rfl⟩
abbrev main_call0_cst_0 : Ref sig .tc := ⟨.hbm, 57, rfl⟩
abbrev main_call0_v1 : Ref sig .tc := ⟨.hbm, 58, rfl⟩
abbrev main_call0_v2 : Ref sig .tc := ⟨.hbm, 59, rfl⟩
abbrev main_call0_v3 : Ref sig .tc := ⟨.hbm, 60, rfl⟩
abbrev main_call0_v4 : Ref sig .tc := ⟨.hbm, 61, rfl⟩
abbrev main_call0_v5 : Ref sig .tc := ⟨.hbm, 62, rfl⟩
abbrev main_call0_v6 : Ref sig .tc := ⟨.hbm, 63, rfl⟩
abbrev main_call0_cst_1 : Ref sig .tc := ⟨.hbm, 64, rfl⟩
abbrev main_call0_v7 : Ref sig .tc := ⟨.hbm, 65, rfl⟩
abbrev main_call0_v8 : Ref sig .tc := ⟨.hbm, 66, rfl⟩
abbrev main_call0_v9 : Ref sig .tc := ⟨.hbm, 67, rfl⟩
abbrev main_call0_v10 : Ref sig .tc := ⟨.hbm, 68, rfl⟩
abbrev main_v41 : Ref sig .tc := ⟨.hbm, 69, rfl⟩
abbrev main_v42 : Ref sig .tc := ⟨.hbm, 70, rfl⟩
abbrev main_cst_7 : Ref sig .tc := ⟨.hbm, 71, rfl⟩
abbrev main_v43 : Ref sig .tc := ⟨.hbm, 72, rfl⟩
abbrev main_cst_8 : Ref sig .tc := ⟨.hbm, 73, rfl⟩
abbrev main_v44 : Ref sig .tc := ⟨.hbm, 74, rfl⟩
abbrev main_cst_9 : Ref sig .tc := ⟨.hbm, 75, rfl⟩
abbrev main_v45 : Ref sig .tc := ⟨.hbm, 76, rfl⟩
abbrev main_v46 : Ref sig .tc := ⟨.hbm, 77, rfl⟩
abbrev main_v47 : Ref sig .tc := ⟨.hbm, 78, rfl⟩
abbrev main_cst_10 : Ref sig .tc := ⟨.hbm, 79, rfl⟩
abbrev main_v48 : Ref sig .tc := ⟨.hbm, 80, rfl⟩
abbrev main_v49 : Ref sig .tc := ⟨.hbm, 81, rfl⟩
abbrev main_v50 : Ref sig .tc := ⟨.hbm, 82, rfl⟩
abbrev main_cst_11 : Ref sig .tc := ⟨.hbm, 83, rfl⟩
abbrev main_v51 : Ref sig .tc := ⟨.hbm, 84, rfl⟩
abbrev main_cst_12 : Ref sig .tc := ⟨.hbm, 85, rfl⟩
abbrev main_v52 : Ref sig .tc := ⟨.hbm, 86, rfl⟩
abbrev main_v53 : Ref sig .tc := ⟨.hbm, 87, rfl⟩
abbrev main_v54 : Ref sig .tc := ⟨.hbm, 88, rfl⟩
abbrev main_cst_13 : Ref sig .tc := ⟨.hbm, 89, rfl⟩
abbrev main_v55 : Ref sig .tc := ⟨.hbm, 90, rfl⟩
abbrev main_cst_14 : Ref sig .tc := ⟨.hbm, 91, rfl⟩
abbrev main_v56 : Ref sig .tc := ⟨.hbm, 92, rfl⟩
abbrev main_c : Ref sig .tc := ⟨.hbm, 93, rfl⟩
abbrev main_v57 : Ref sig .tc := ⟨.hbm, 94, rfl⟩
abbrev main_v58 : Ref sig .tc := ⟨.hbm, 95, rfl⟩
abbrev main_c_15 : Ref sig .tc := ⟨.hbm, 96, rfl⟩
abbrev main_v59 : Ref sig .tc := ⟨.hbm, 97, rfl⟩
abbrev main_v60 : Ref sig .tc := ⟨.hbm, 98, rfl⟩
abbrev main_v61 : Ref sig .tc := ⟨.hbm, 99, rfl⟩
abbrev main_v62 : Ref sig .tc := ⟨.hbm, 100, rfl⟩
abbrev main_v63 : Ref sig .tc := ⟨.hbm, 101, rfl⟩
abbrev main_cst_16 : Ref sig .tc := ⟨.hbm, 102, rfl⟩
abbrev main_v64 : Ref sig .tc := ⟨.hbm, 103, rfl⟩
abbrev main_v65 : Ref sig .tc := ⟨.hbm, 104, rfl⟩
abbrev main_v66 : Ref sig .tc := ⟨.hbm, 105, rfl⟩
abbrev main_v67 : Ref sig .tc := ⟨.hbm, 106, rfl⟩
abbrev main_c_17 : Ref sig .tc := ⟨.hbm, 107, rfl⟩
abbrev main_v68 : Ref sig .tc := ⟨.hbm, 108, rfl⟩
abbrev main_v69 : Ref sig .tc := ⟨.hbm, 109, rfl⟩
abbrev main_c_18 : Ref sig .tc := ⟨.hbm, 110, rfl⟩
abbrev main_v70 : Ref sig .tc := ⟨.hbm, 111, rfl⟩
abbrev main_v71 : Ref sig .tc := ⟨.hbm, 112, rfl⟩
abbrev main_v72 : Ref sig .tc := ⟨.hbm, 113, rfl⟩
abbrev main_v73 : Ref sig .tc := ⟨.hbm, 114, rfl⟩
abbrev main_v74 : Ref sig .tc := ⟨.hbm, 115, rfl⟩
abbrev main_v75 : Ref sig .tc := ⟨.hbm, 116, rfl⟩
abbrev main_v76 : Ref sig .tc := ⟨.hbm, 117, rfl⟩
abbrev main_v77 : Ref sig .tc := ⟨.hbm, 118, rfl⟩
abbrev main_v78 : Ref sig .tc := ⟨.hbm, 119, rfl⟩
abbrev main_v79 : Ref sig .tc := ⟨.hbm, 120, rfl⟩
abbrev main_cst_19 : Ref sig .tc := ⟨.hbm, 121, rfl⟩
abbrev main_v80 : Ref sig .tc := ⟨.hbm, 122, rfl⟩
abbrev main_v81 : Ref sig .tc := ⟨.hbm, 123, rfl⟩
abbrev main_v82 : Ref sig .tc := ⟨.hbm, 124, rfl⟩
abbrev main_cst_20 : Ref sig .tc := ⟨.hbm, 125, rfl⟩
abbrev main_v83 : Ref sig .tc := ⟨.hbm, 126, rfl⟩
abbrev main_v84 : Ref sig .tc := ⟨.hbm, 127, rfl⟩
abbrev main_v85 : Ref sig .tc := ⟨.hbm, 128, rfl⟩
abbrev main_v86 : Ref sig .tc := ⟨.hbm, 129, rfl⟩
abbrev main_v87 : Ref sig .tc := ⟨.hbm, 130, rfl⟩
abbrev main_c_21 : Ref sig .tc := ⟨.hbm, 131, rfl⟩
abbrev main_v88 : Ref sig .tc := ⟨.hbm, 132, rfl⟩
abbrev main_v89 : Ref sig .tc := ⟨.hbm, 133, rfl⟩
abbrev main_c_22 : Ref sig .tc := ⟨.hbm, 134, rfl⟩
abbrev main_v90 : Ref sig .tc := ⟨.hbm, 135, rfl⟩
abbrev main_v91 : Ref sig .tc := ⟨.hbm, 136, rfl⟩
abbrev main_v92 : Ref sig .tc := ⟨.hbm, 137, rfl⟩
abbrev main_v93 : Ref sig .tc := ⟨.hbm, 138, rfl⟩
abbrev main_v94 : Ref sig .tc := ⟨.hbm, 139, rfl⟩
abbrev main_v95 : Ref sig .tc := ⟨.hbm, 140, rfl⟩
abbrev main_v96 : Ref sig .tc := ⟨.hbm, 141, rfl⟩
abbrev main_v97 : Ref sig .tc := ⟨.hbm, 142, rfl⟩
abbrev main_v98 : Ref sig .tc := ⟨.hbm, 143, rfl⟩
abbrev main_v99 : Ref sig .tc := ⟨.hbm, 144, rfl⟩
abbrev main_cst_23 : Ref sig .tc := ⟨.hbm, 145, rfl⟩
abbrev main_v100 : Ref sig .tc := ⟨.hbm, 146, rfl⟩
abbrev main_v101 : Ref sig .tc := ⟨.hbm, 147, rfl⟩
abbrev main_v102 : Ref sig .tc := ⟨.hbm, 148, rfl⟩
abbrev main_cst_24 : Ref sig .tc := ⟨.hbm, 149, rfl⟩
abbrev main_v103 : Ref sig .tc := ⟨.hbm, 150, rfl⟩
abbrev main_v104 : Ref sig .tc := ⟨.hbm, 151, rfl⟩
abbrev main_v105 : Ref sig .tc := ⟨.hbm, 152, rfl⟩
abbrev main_v106 : Ref sig .tc := ⟨.hbm, 153, rfl⟩
abbrev main_v107 : Ref sig .tc := ⟨.hbm, 154, rfl⟩
abbrev main_v108 : Ref sig .tc := ⟨.hbm, 155, rfl⟩
abbrev main_v109 : Ref sig .tc := ⟨.hbm, 156, rfl⟩
abbrev main_v110 : Ref sig .tc := ⟨.hbm, 157, rfl⟩
abbrev main_cst_25 : Ref sig .tc := ⟨.hbm, 158, rfl⟩
abbrev main_v111 : Ref sig .tc := ⟨.hbm, 159, rfl⟩
abbrev main_v112 : Ref sig .tc := ⟨.hbm, 160, rfl⟩
abbrev main_v113 : Ref sig .tc := ⟨.hbm, 161, rfl⟩
abbrev main_cst_26 : Ref sig .tc := ⟨.hbm, 162, rfl⟩
abbrev main_v114 : Ref sig .tc := ⟨.hbm, 163, rfl⟩
abbrev main_v115 : Ref sig .tc := ⟨.hbm, 164, rfl⟩
abbrev main_v116 : Ref sig .tc := ⟨.hbm, 165, rfl⟩
abbrev main_v117 : Ref sig .tc := ⟨.hbm, 166, rfl⟩
abbrev main_v118 : Ref sig .tc := ⟨.hbm, 167, rfl⟩
abbrev main_v119 : Ref sig .tc := ⟨.hbm, 168, rfl⟩
abbrev main_v120 : Ref sig .tc := ⟨.hbm, 169, rfl⟩
abbrev main_v121 : Ref sig .tc := ⟨.hbm, 170, rfl⟩
abbrev main_v122 : Ref sig .tc := ⟨.hbm, 171, rfl⟩
abbrev main_v123 : Ref sig .tc := ⟨.hbm, 172, rfl⟩
abbrev main_v124 : Ref sig .tc := ⟨.hbm, 173, rfl⟩
abbrev main_v125 : Ref sig .tc := ⟨.hbm, 174, rfl⟩
abbrev main_v126 : Ref sig .tc := ⟨.hbm, 175, rfl⟩
abbrev main_v127 : Ref sig .tc := ⟨.hbm, 176, rfl⟩
abbrev main_v128 : Ref sig .tc := ⟨.hbm, 177, rfl⟩
abbrev main_v129 : Ref sig .tc := ⟨.hbm, 178, rfl⟩
abbrev main_v130 : Ref sig .tc := ⟨.hbm, 179, rfl⟩
abbrev main_v131 : Ref sig .tc := ⟨.hbm, 180, rfl⟩
abbrev main_cst_27 : Ref sig .tc := ⟨.hbm, 181, rfl⟩
abbrev main_v132 : Ref sig .tc := ⟨.hbm, 182, rfl⟩
abbrev main_v133 : Ref sig .tc := ⟨.hbm, 183, rfl⟩
abbrev main_v134 : Ref sig .tc := ⟨.hbm, 184, rfl⟩
abbrev main_v135 : Ref sig .tc := ⟨.hbm, 185, rfl⟩
abbrev main_cst_28 : Ref sig .tc := ⟨.hbm, 186, rfl⟩
abbrev main_v136 : Ref sig .tc := ⟨.hbm, 187, rfl⟩
abbrev main_v137 : Ref sig .tc := ⟨.hbm, 188, rfl⟩
abbrev main_call1_cst : Ref sig .tc := ⟨.hbm, 189, rfl⟩
abbrev main_call1_v0 : Ref sig .tc := ⟨.hbm, 190, rfl⟩
abbrev main_call1_cst_0 : Ref sig .tc := ⟨.hbm, 191, rfl⟩
abbrev main_call1_v1 : Ref sig .tc := ⟨.hbm, 192, rfl⟩
abbrev main_call1_v2 : Ref sig .tc := ⟨.hbm, 193, rfl⟩
abbrev main_call1_v3 : Ref sig .tc := ⟨.hbm, 194, rfl⟩
abbrev main_call1_v4 : Ref sig .tc := ⟨.hbm, 195, rfl⟩
abbrev main_call1_v5 : Ref sig .tc := ⟨.hbm, 196, rfl⟩
abbrev main_call1_v6 : Ref sig .tc := ⟨.hbm, 197, rfl⟩
abbrev main_call1_cst_1 : Ref sig .tc := ⟨.hbm, 198, rfl⟩
abbrev main_call1_v7 : Ref sig .tc := ⟨.hbm, 199, rfl⟩
abbrev main_call1_v8 : Ref sig .tc := ⟨.hbm, 200, rfl⟩
abbrev main_call1_v9 : Ref sig .tc := ⟨.hbm, 201, rfl⟩
abbrev main_call1_v10 : Ref sig .tc := ⟨.hbm, 202, rfl⟩
abbrev main_v138 : Ref sig .tc := ⟨.hbm, 203, rfl⟩
abbrev main_v139 : Ref sig .tc := ⟨.hbm, 204, rfl⟩
abbrev main_cst_29 : Ref sig .tc := ⟨.hbm, 205, rfl⟩
abbrev main_v140 : Ref sig .tc := ⟨.hbm, 206, rfl⟩
abbrev main_cst_30 : Ref sig .tc := ⟨.hbm, 207, rfl⟩
abbrev main_v141 : Ref sig .tc := ⟨.hbm, 208, rfl⟩
abbrev main_cst_31 : Ref sig .tc := ⟨.hbm, 209, rfl⟩
abbrev main_v142 : Ref sig .tc := ⟨.hbm, 210, rfl⟩
abbrev main_v143 : Ref sig .tc := ⟨.hbm, 211, rfl⟩
abbrev main_v144 : Ref sig .tc := ⟨.hbm, 212, rfl⟩
abbrev main_v145 : Ref sig .tc := ⟨.hbm, 213, rfl⟩
abbrev main_v146 : Ref sig .tc := ⟨.hbm, 214, rfl⟩
abbrev main_v147 : Ref sig .tc := ⟨.hbm, 215, rfl⟩
abbrev main_v148 : Ref sig .tc := ⟨.hbm, 216, rfl⟩
abbrev main_v149 : Ref sig .tc := ⟨.hbm, 217, rfl⟩
abbrev main_v150 : Ref sig .tc := ⟨.hbm, 218, rfl⟩
abbrev main_v151 : Ref sig .tc := ⟨.hbm, 219, rfl⟩
abbrev main_v152 : Ref sig .tc := ⟨.hbm, 220, rfl⟩
abbrev main_v153 : Ref sig .tc := ⟨.hbm, 221, rfl⟩
abbrev main_v154 : Ref sig .tc := ⟨.hbm, 222, rfl⟩
abbrev main_v155 : Ref sig .tc := ⟨.hbm, 223, rfl⟩
abbrev main_cst_32 : Ref sig .tc := ⟨.hbm, 224, rfl⟩
abbrev main_v156 : Ref sig .tc := ⟨.hbm, 225, rfl⟩
abbrev main_v157 : Ref sig .tc := ⟨.hbm, 226, rfl⟩
abbrev main_v158 : Ref sig .tc := ⟨.hbm, 227, rfl⟩
abbrev main_v159 : Ref sig .tc := ⟨.hbm, 228, rfl⟩
abbrev main_cst_33 : Ref sig .tc := ⟨.hbm, 229, rfl⟩
abbrev main_v160 : Ref sig .tc := ⟨.hbm, 230, rfl⟩
abbrev main_v161 : Ref sig .tc := ⟨.hbm, 231, rfl⟩
abbrev main_call2_cst : Ref sig .tc := ⟨.hbm, 232, rfl⟩
abbrev main_call2_v0 : Ref sig .tc := ⟨.hbm, 233, rfl⟩
abbrev main_call2_cst_0 : Ref sig .tc := ⟨.hbm, 234, rfl⟩
abbrev main_call2_v1 : Ref sig .tc := ⟨.hbm, 235, rfl⟩
abbrev main_call2_v2 : Ref sig .tc := ⟨.hbm, 236, rfl⟩
abbrev main_call2_v3 : Ref sig .tc := ⟨.hbm, 237, rfl⟩
abbrev main_call2_v4 : Ref sig .tc := ⟨.hbm, 238, rfl⟩
abbrev main_call2_v5 : Ref sig .tc := ⟨.hbm, 239, rfl⟩
abbrev main_call2_v6 : Ref sig .tc := ⟨.hbm, 240, rfl⟩
abbrev main_call2_cst_1 : Ref sig .tc := ⟨.hbm, 241, rfl⟩
abbrev main_call2_v7 : Ref sig .tc := ⟨.hbm, 242, rfl⟩
abbrev main_call2_v8 : Ref sig .tc := ⟨.hbm, 243, rfl⟩
abbrev main_call2_v9 : Ref sig .tc := ⟨.hbm, 244, rfl⟩
abbrev main_call2_v10 : Ref sig .tc := ⟨.hbm, 245, rfl⟩
abbrev main_v162 : Ref sig .tc := ⟨.hbm, 246, rfl⟩
abbrev main_v163 : Ref sig .tc := ⟨.hbm, 247, rfl⟩
abbrev main_cst_34 : Ref sig .tc := ⟨.hbm, 248, rfl⟩
abbrev main_v164 : Ref sig .tc := ⟨.hbm, 249, rfl⟩
abbrev main_cst_35 : Ref sig .tc := ⟨.hbm, 250, rfl⟩
abbrev main_v165 : Ref sig .tc := ⟨.hbm, 251, rfl⟩
abbrev main_cst_36 : Ref sig .tc := ⟨.hbm, 252, rfl⟩
abbrev main_v166 : Ref sig .tc := ⟨.hbm, 253, rfl⟩
abbrev main_v167 : Ref sig .tc := ⟨.hbm, 254, rfl⟩

abbrev nD : Nat := 1
abbrev τ : Topo := Topo.v7x

variable {F : FTy → Type} [FloatOps F]

class Facts₀ : Prop where
  reducesTo_S1024x128_S1024_d1 : S1024x128.ReducesTo [1] S1024
  h_S_ : 0 < S_.numel
  bcast_S1024_S1024x1_0 : S1024.BroadcastsInDim S1024x1 (![0] : Fin 1 → Fin S1024x1.rank)
  bcast_S_S1024x1 : S_.BroadcastsInDim S1024x1 (![] : Fin 0 → Fin S1024x1.rank)
  bcast_S1024x1_S1024x128_0_1 : S1024x1.BroadcastsInDim S1024x128 (![0, 1] : Fin 2 → Fin S1024x128.rank)
  transposes_S1024x128_S128x1024_1_0 : S1024x128.Transposes [1, 0] S128x1024
  reducesTo_S128x65536_S65536_d0 : S128x65536.ReducesTo [0] S65536
  bcast_S65536_S1x65536_1 : S65536.BroadcastsInDim S1x65536 (![1] : Fin 1 → Fin S1x65536.rank)
  bcast_S_S1x65536 : S_.BroadcastsInDim S1x65536 (![] : Fin 0 → Fin S1x65536.rank)
  bcast_S1x65536_S128x65536_0_1 : S1x65536.BroadcastsInDim S128x65536 (![0, 1] : Fin 2 → Fin S128x65536.rank)
  concatenates_S1024_S65536_S66560_d0 : Shape.Concatenates [S1024, S65536] S66560 0
  concatenates_S1024x1024_S1024x65536_S1024x66560_d1 : Shape.Concatenates [S1024x1024, S1024x65536] S1024x66560 1
  bcast_S66560_S1x66560_1 : S66560.BroadcastsInDim S1x66560 (![1] : Fin 1 → Fin S1x66560.rank)
  bcast_S1024x1_S1024x66560_0_1 : S1024x1.BroadcastsInDim S1024x66560 (![0, 1] : Fin 2 → Fin S1024x66560.rank)
  bcast_S1x66560_S1024x66560_0_1 : S1x66560.BroadcastsInDim S1024x66560 (![0, 1] : Fin 2 → Fin S1024x66560.rank)
  reducesTo_S1024x66560_S1024_d1 : S1024x66560.ReducesTo [1] S1024
  bcast_S_S1024x66560 : S_.BroadcastsInDim S1024x66560 (![] : Fin 0 → Fin S1024x66560.rank)
  bcast_S_S1024 : S_.BroadcastsInDim S1024 (![] : Fin 0 → Fin S1024.rank)
  reducesTo_S1024_S_d0 : S1024.ReducesTo [0] S_
  transposes_S128x65536_S65536x128_1_0 : S128x65536.Transposes [1, 0] S65536x128
  bcast_S_S2048x128 : S_.BroadcastsInDim S2048x128 (![] : Fin 0 → Fin S2048x128.rank)
  bcast_S65536_S65536x1_0 : S65536.BroadcastsInDim S65536x1 (![0] : Fin 1 → Fin S65536x1.rank)
  bcast_S_S65536 : S_.BroadcastsInDim S65536 (![] : Fin 0 → Fin S65536.rank)
  bcast_S_S2048 : S_.BroadcastsInDim S2048 (![] : Fin 0 → Fin S2048.rank)
  reducesTo_S1024x128_S128_d0 : S1024x128.ReducesTo [0] S128
  bcast_S128_S1x128_1 : S128.BroadcastsInDim S1x128 (![1] : Fin 1 → Fin S1x128.rank)
  bcast_S1x128_S1024x128_0_1 : S1x128.BroadcastsInDim S1024x128 (![0, 1] : Fin 2 → Fin S1024x128.rank)
  bcast_S2048_S2048x1_0 : S2048.BroadcastsInDim S2048x1 (![0] : Fin 1 → Fin S2048x1.rank)
  bcast_S2048x1_S2048x128_0_1 : S2048x1.BroadcastsInDim S2048x128 (![0, 1] : Fin 2 → Fin S2048x128.rank)
  reducesTo_S2048x128_S2048_d1 : S2048x128.ReducesTo [1] S2048
  bcast_S_S2048x1 : S_.BroadcastsInDim S2048x1 (![] : Fin 0 → Fin S2048x1.rank)
  concatenates_S1024x128_S1024x128_S2048x128_d0 : Shape.Concatenates [S1024x128, S1024x128] S2048x128 0
  transposes_S2048x128_S128x2048_1_0 : S2048x128.Transposes [1, 0] S128x2048
  concatenates_S1024_S1024_S2048_S4096_d0 : Shape.Concatenates [S1024, S1024, S2048] S4096 0
  concatenates_S1024x2048_S1024x2048_S1024x4096_d1 : Shape.Concatenates [S1024x2048, S1024x2048] S1024x4096 1
  bcast_S4096_S1x4096_1 : S4096.BroadcastsInDim S1x4096 (![1] : Fin 1 → Fin S1x4096.rank)
  bcast_S1024x1_S1024x4096_0_1 : S1024x1.BroadcastsInDim S1024x4096 (![0, 1] : Fin 2 → Fin S1024x4096.rank)
  bcast_S1x4096_S1024x4096_0_1 : S1x4096.BroadcastsInDim S1024x4096 (![0, 1] : Fin 2 → Fin S1024x4096.rank)
  reducesTo_S1024x4096_S1024_d1 : S1024x4096.ReducesTo [1] S1024
  bcast_S_S1024x4096 : S_.BroadcastsInDim S1024x4096 (![] : Fin 0 → Fin S1024x4096.rank)
  concatenates_S1024_S2048_S3072_d0 : Shape.Concatenates [S1024, S2048] S3072 0
  concatenates_S1024x1024_S1024x2048_S1024x3072_d1 : Shape.Concatenates [S1024x1024, S1024x2048] S1024x3072 1
  bcast_S3072_S1x3072_1 : S3072.BroadcastsInDim S1x3072 (![1] : Fin 1 → Fin S1x3072.rank)
  bcast_S1024x1_S1024x3072_0_1 : S1024x1.BroadcastsInDim S1024x3072 (![0, 1] : Fin 2 → Fin S1024x3072.rank)
  bcast_S1x3072_S1024x3072_0_1 : S1x3072.BroadcastsInDim S1024x3072 (![0, 1] : Fin 2 → Fin S1024x3072.rank)
  reducesTo_S1024x3072_S1024_d1 : S1024x3072.ReducesTo [1] S1024
  bcast_S_S1024x3072 : S_.BroadcastsInDim S1024x3072 (![] : Fin 0 → Fin S1024x3072.rank)
  dot_S1024x128_S128x1024_S1024x1024_1_0_0_1_n_n_wf : DotDims.WF S1024x128 S128x1024 S1024x1024 [1] [0] [0] [1] [] []
  dot_S1024x128_S128x65536_S1024x65536_1_0_0_1_n_n_wf : DotDims.WF S1024x128 S128x65536 S1024x65536 [1] [0] [0] [1] [] []
  scatter_S2048x128_S65536x1_S65536x128_1_0_0_1_wf : ScatterDims.WF S2048x128 S65536x1 S65536x128 [1] [0] [0] 1
  scatter_S2048_S65536x1_S65536_n_0_0_1_wf : ScatterDims.WF S2048 S65536x1 S65536 [] [0] [0] 1
  gather_S2048_S1024x1_S1024_n_0_n_n_0_1_1_wf : GatherDims.WF S2048 S1024x1 S1024 [] [0] [] [0] [] 1 ![1]
  gather_S2048x128_S1024x1_S1024x128_1_0_n_n_0_1_1128_wf : GatherDims.WF S2048x128 S1024x1 S1024x128 [1] [0] [] [0] [] 1 ![1, 128]
  dot_S1024x128_S128x2048_S1024x2048_1_0_0_1_n_n_wf : DotDims.WF S1024x128 S128x2048 S1024x2048 [1] [0] [0] [1] [] []

variable [Facts₀]

def dot_S1024x128_S128x1024_S1024x1024_1_0_0_1_n_n : DotDims S1024x128 S128x1024 S1024x1024 where
  lhsContracting := [1]
  rhsContracting := [0]
  lhsNonContracting := [0]
  rhsNonContracting := [1]
  lhsBatch := []
  rhsBatch := []
  wf := dot_S1024x128_S128x1024_S1024x1024_1_0_0_1_n_n_wf
def dot_S1024x128_S128x65536_S1024x65536_1_0_0_1_n_n : DotDims S1024x128 S128x65536 S1024x65536 where
  lhsContracting := [1]
  rhsContracting := [0]
  lhsNonContracting := [0]
  rhsNonContracting := [1]
  lhsBatch := []
  rhsBatch := []
  wf := dot_S1024x128_S128x65536_S1024x65536_1_0_0_1_n_n_wf
def scatter_S2048x128_S65536x1_S65536x128_1_0_0_1 : ScatterDims S2048x128 S65536x1 S65536x128 where
  updateWindowDims := [1]
  insertedWindowDims := [0]
  scatterDimsToOperandDims := [0]
  indexVectorDim := 1
  wf := scatter_S2048x128_S65536x1_S65536x128_1_0_0_1_wf
def scatter_S2048_S65536x1_S65536_n_0_0_1 : ScatterDims S2048 S65536x1 S65536 where
  updateWindowDims := []
  insertedWindowDims := [0]
  scatterDimsToOperandDims := [0]
  indexVectorDim := 1
  wf := scatter_S2048_S65536x1_S65536_n_0_0_1_wf
def gather_S2048_S1024x1_S1024_n_0_n_n_0_1_1 : GatherDims S2048 S1024x1 S1024 where
  offsetDims := []
  collapsedSliceDims := [0]
  operandBatchingDims := []
  startIndicesBatchingDims := []
  startIndexMap := [0]
  indexVectorDim := 1
  sliceSizes := ![1]
  wf := gather_S2048_S1024x1_S1024_n_0_n_n_0_1_1_wf
def gather_S2048x128_S1024x1_S1024x128_1_0_n_n_0_1_1128 : GatherDims S2048x128 S1024x1 S1024x128 where
  offsetDims := [1]
  collapsedSliceDims := [0]
  operandBatchingDims := []
  startIndicesBatchingDims := []
  startIndexMap := [0]
  indexVectorDim := 1
  sliceSizes := ![1, 128]
  wf := gather_S2048x128_S1024x1_S1024x128_1_0_n_n_0_1_1128_wf
def dot_S1024x128_S128x2048_S1024x2048_1_0_0_1_n_n : DotDims S1024x128 S128x2048 S1024x2048 where
  lhsContracting := [1]
  rhsContracting := [0]
  lhsNonContracting := [0]
  rhsNonContracting := [1]
  lhsBatch := []
  rhsBatch := []
  wf := dot_S1024x128_S128x2048_S1024x2048_1_0_0_1_n_n_wf

class Facts : Prop extends Facts₀ where

variable [Facts]
-- ==== Proof.K.Base.lean ====
/-
  The streaming kernel's program around its one region: the host operations before the region leave each buffer at a
  composed term of the launch memory (the valuation `V0`), the region's nine windows read their blocks off those
  contents (`iblk`), and five stretches of host operations follow the region (`tailOps`).
-/
import proofs.«405218_j60748017434937_2_alg».proof.Proof.Gen.Kernel.Launch
import proofs.«405218_j60748017434937_2_alg».proof.Proof.Gen.Kernel.Skeleton
import proofs.«405218_j60748017434937_2_alg».proof.Proof.Gen.Kernel.Points
import Idealize.ShloMosaic.Lib.Pipeline.FrameBody
import Idealize.ShloMosaic.Lib.Pipeline.FrameSuffix
import Idealize.ShloMosaic.Lib.Ring
import Idealize.ShloMosaic.Lib.Tactic

set_option maxRecDepth 16384

noncomputable section

namespace Cert.Kernel.Hand

open Cert.Kernel Cert.Kernel.Gen
open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)

variable {F : FTy → Type} [FloatOps F]

local notation "𝕄" => MT nD τ sig Unit (Elt F) ℕ (UR sig nD τ) ℕ

variable (m : (ℓ : Loc nD τ sig) → Buf (Elt F) ℓ) (ρ : Dev nD → PrngReg)

/-- The stretches of host operations after the region, in program order. -/
abbrev tailOps : List (List (HloOp τ sig (Elt F))) := [hostOps1, hostOps1_1, hostOps1_2, hostOps1_3, hostOps1_4]

/-- Core `c`'s buffer contents when the region is entered: the launch memory after the host operations before it. -/
abbrev V0 (c : Dev nD) : Valuation τ sig (Elt F) := StableHlo.after (List.flatten [hostOps0]) (fun b => m (c, b))
/-- The same read at a TensorCore reference. -/
abbrev V (c : Dev nD) (b : Ref sig .tc) : Buf (Elt F) ((c : Thread nD τ).loc b) := V0 m c (Proc.devRef .tc b)

/-- Window `w`'s block at grid point `t`, read off its array as the region finds it. -/
def iblk (c : Dev nD) (w : Fin cfg0.W) (t : Fin cfg0.N) : ((cfg0.win w).xblock (cfg0.grid.coords t)).Idx → Elt F (cfg0.win w).elt :=
  ((cfg0.win w).blk t).view.read (Elt F) (V m c (Pipeline.arrRef spec0 w))

end Cert.Kernel.Hand

end
-- ==== Proof.K.Conds.lean ====
/-
  The kernel body's two branches over the grid: a point is the first tile of its core's half (the accumulators are
  reset: `t % 64 = 0`), the last (the accumulators are copied to the outputs: `t % 64 = 63`), or neither. The four
  output windows are idle, and not written back, except at a last tile. The staging and scratch memrefs as the pipeline
  passes them to the body, and the region invariant with the four scratch buffers owned at some contents.
-/
import proofs.«405218_j60748017434937_2_alg».proof.Proof.K.Base

set_option maxRecDepth 16384

noncomputable section

namespace Cert.Kernel.Hand

open Cert.Kernel Cert.Kernel.Gen
open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)

variable {F : FTy → Type} [FloatOps F]

local notation "𝕄" => MT nD τ sig Unit (Elt F) ℕ (UR sig nD τ) ℕ

variable (m : (ℓ : Loc nD τ sig) → Buf (Elt F) ℓ) (ρ : Dev nD → PrngReg)

/-! ## The two branch conditions, decided over the grid -/

/-- The first branch (reset of the four accumulators): the tile coordinate is zero. -/
abbrev cond0_0 (i : grid0.Coords) : Prop := (Scalar.cmpi .ne (Scalar.extui (Scalar.cmpi .eq (BitVec.ofNat 32 (i 1).val) 0#32)) 0#32) = 1#1
theorem hcond0_0 : ∀ t : Fin cfg0.N, cond0_0 (grid0.coords t) ↔ t.val % 64 = 0 :=
  (by decide +kernel : ∀ t : Fin grid0.N, cond0_0 (grid0.coords t) ↔ t.val % 64 = 0)

/-- The second branch (the accumulators copied out): the tile coordinate is the last, 63. -/
abbrev cond0_1 (i : grid0.Coords) : Prop := k0_cond2 i = 1#1
theorem hcond0_1 : ∀ t : Fin cfg0.N, cond0_1 (grid0.coords t) ↔ t.val % 64 = 63 :=
  (by decide +kernel : ∀ t : Fin grid0.N, cond0_1 (grid0.coords t) ↔ t.val % 64 = 63)

/-! ## Where the windows are idle -/

theorem liveAt0_0 : ∀ t : Fin cfg0.N, cfg0.idle 0 (grid0.coords t) = false := by decide +kernel
theorem liveAt0_1 : ∀ t : Fin cfg0.N, cfg0.idle 1 (grid0.coords t) = false := by decide +kernel
theorem liveAt0_2 : ∀ t : Fin cfg0.N, cfg0.idle 2 (grid0.coords t) = false := by decide +kernel
theorem liveAt0_3 : ∀ t : Fin cfg0.N, cfg0.idle 3 (grid0.coords t) = false := by decide +kernel
theorem liveAt0_4 : ∀ t : Fin cfg0.N, cfg0.idle 4 (grid0.coords t) = false := by decide +kernel
/-- Away from a last tile an output window is idle and is not written back. -/
theorem idleAt0_out : ∀ (w : Fin 9), 5 ≤ w.val → ∀ t : Fin cfg0.N, ¬cond0_1 (grid0.coords t) → cfg0.idle w (grid0.coords t) = true := by decide +kernel
theorem noFlush0_out : ∀ (w : Fin 9), 5 ≤ w.val → ∀ t : Fin cfg0.N, ¬cond0_1 (grid0.coords t) → (cfg0.win w).flush t = false := by decide +kernel
/-- At a last tile the body stores into every output window. -/
theorem liveAt0_out : ∀ (w : Fin 9), 5 ≤ w.val → ∀ t : Fin cfg0.N, cond0_1 (grid0.coords t) → cfg0.idle w (grid0.coords t) = false := by decide +kernel

/-! ## The memrefs the body is called with -/

abbrev ms0_0 (t : Fin cfg0.N) : Memref sig .tc .vmem S128x512 .f32 := win0_0.stage (cfg0.slots t 0)
abbrev hs0_0 (t : Fin cfg0.N) : (ms0_0 t).IsWhole := hstage0_0 ((cfg0.slots t 0).cast nbuf0_0)
abbrev ms0_1 (t : Fin cfg0.N) : Memref sig .tc .vmem S512x1 .i32 := win0_1.stage (cfg0.slots t 1)
abbrev hs0_1 (t : Fin cfg0.N) : (ms0_1 t).IsWhole := hstage0_1 ((cfg0.slots t 1).cast nbuf0_1)
abbrev ms0_2 (t : Fin cfg0.N) : Memref sig .tc .vmem S1x512 .i32 := win0_2.stage (cfg0.slots t 2)
abbrev hs0_2 (t : Fin cfg0.N) : (ms0_2 t).IsWhole := hstage0_2 ((cfg0.slots t 2).cast nbuf0_2)
abbrev ms0_3 (t : Fin cfg0.N) : Memref sig .tc .vmem S1024x128 .bf16 := win0_3.stage (cfg0.slots t 3)
abbrev hs0_3 (t : Fin cfg0.N) : (ms0_3 t).IsWhole := hstage0_3 ((cfg0.slots t 3).cast nbuf0_3)
abbrev ms0_4 (t : Fin cfg0.N) : Memref sig .tc .vmem S1024x1 .i32 := win0_4.stage (cfg0.slots t 4)
abbrev hs0_4 (t : Fin cfg0.N) : (ms0_4 t).IsWhole := hstage0_4 ((cfg0.slots t 4).cast nbuf0_4)
abbrev ms0_5 (t : Fin cfg0.N) : Memref sig .tc .vmem S1x128x2048 .f32 := win0_5.stage (cfg0.slots t 5)
abbrev hs0_5 (t : Fin cfg0.N) : (ms0_5 t).IsWhole := hstage0_5 ((cfg0.slots t 5).cast nbuf0_5)
abbrev ms0_6 (t : Fin cfg0.N) : Memref sig .tc .vmem S1x1024x1 .f32 := win0_6.stage (cfg0.slots t 6)
abbrev hs0_6 (t : Fin cfg0.N) : (ms0_6 t).IsWhole := hstage0_6 ((cfg0.slots t 6).cast nbuf0_6)
abbrev ms0_7 (t : Fin cfg0.N) : Memref sig .tc .vmem S1x1024x1 .f32 := win0_7.stage (cfg0.slots t 7)
abbrev hs0_7 (t : Fin cfg0.N) : (ms0_7 t).IsWhole := hstage0_7 ((cfg0.slots t 7).cast nbuf0_7)
abbrev ms0_8 (t : Fin cfg0.N) : Memref sig .tc .vmem S1x1024x1 .f32 := win0_8.stage (cfg0.slots t 8)
abbrev hs0_8 (t : Fin cfg0.N) : (ms0_8 t).IsWhole := hstage0_8 ((cfg0.slots t 8).cast nbuf0_8)

/-- The four scratch accumulators: the per-organisation column sums, the running maximum, the running sum of
    exponentials, the running sum of matched scores. -/
abbrev scM0_0 : Memref sig .tc .vmem S128x2048 .f32 := Memref.whole cc0_scratch0
abbrev scM0_1 : Memref sig .tc .vmem S1024x1 .f32 := Memref.whole cc0_scratch1
abbrev scM0_2 : Memref sig .tc .vmem S1024x1 .f32 := Memref.whole cc0_scratch2
abbrev scM0_3 : Memref sig .tc .vmem S1024x1 .f32 := Memref.whole cc0_scratch3
abbrev VS0_0 : View sig .tc .vmem S128x2048 .f32 := scM0_0.view
abbrev VS0_1 : View sig .tc .vmem S1024x1 .f32 := scM0_1.view
abbrev VS0_2 : View sig .tc .vmem S1024x1 .f32 := scM0_2.view
abbrev VS0_3 : View sig .tc .vmem S1024x1 .f32 := scM0_3.view
/-- One staging buffer of each output window, through which its contents are stated. -/
abbrev VO0_5 : View sig .tc .vmem S1x128x2048 .f32 := (Memref.whole cc0_stg5_0 : Memref sig .tc .vmem S1x128x2048 .f32).view
abbrev VO0_6 : View sig .tc .vmem S1x1024x1 .f32 := (Memref.whole cc0_stg6_0 : Memref sig .tc .vmem S1x1024x1 .f32).view
abbrev VO0_7 : View sig .tc .vmem S1x1024x1 .f32 := (Memref.whole cc0_stg7_0 : Memref sig .tc .vmem S1x1024x1 .f32).view
abbrev VO0_8 : View sig .tc .vmem S1x1024x1 .f32 := (Memref.whole cc0_stg8_0 : Memref sig .tc .vmem S1x1024x1 .f32).view

/-- The region invariant of a kernel that keeps only scratch: the four scratch buffers owned at some contents, and the
    generator register at some state. -/
theorem PhiA0_eq (c : Dev nD) :
    (Pipeline.ΦA spec0 c : sProp 𝕄)
      = iprop(iprop((∃ d, owns (c : Thread nD τ) scM0_0 fullShare d) ∗ (∃ d, owns (c : Thread nD τ) scM0_1 fullShare d) ∗ (∃ d, owns (c : Thread nD τ) scM0_2 fullShare d) ∗ (∃ d, owns (c : Thread nD τ) scM0_3 fullShare d)) ∗ (∃ r, prngReg c r)) := by
  unfold Pipeline.ΦA; rw [scopedRest0_eq]; simp only [scM0_0, scM0_1, scM0_2, scM0_3, owns_whole]; try rfl

end Cert.Kernel.Hand

end
-- ==== Proof.K.RunA.lean ====
/-
  The kernel body run whole at a grid point of case A (the first tile of a core's half: the accumulators are reset first): on whole staging memrefs holding the five input blocks, the
  body runs to its end leaving the inputs as they were and each buffer it stores into with its stores written, as pieces
  (last store first); the two branches are decided by the case's hypotheses.
-/
import proofs.«405218_j60748017434937_2_alg».proof.Proof.K.Conds

set_option maxRecDepth 16384

noncomputable section

namespace Cert.Kernel.Hand

open Cert.Kernel Cert.Kernel.Gen
open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)

variable {F : FTy → Type} [FloatOps F]

local notation "𝕄" => MT nD τ sig Unit (Elt F) ℕ (UR sig nD τ) ℕ

variable (m : (ℓ : Loc nD τ sig) → Buf (Elt F) ℓ) (ρ : Dev nD → PrngReg)

set_option maxHeartbeats 4000000 in
/-- Case A: the four accumulators arrive at anything, are reset and then updated by this tile; the output buffers are
    not touched. -/
noncomputable def kernelRun0_A (c : Dev nD) (i : grid0.Coords) (arg2 : Memref sig .tc .vmem S128x512 .f32) (harg2 : arg2.IsWhole) (arg3 : Memref sig .tc .vmem S512x1 .i32) (harg3 : arg3.IsWhole) (arg4 : Memref sig .tc .vmem S1x512 .i32) (harg4 : arg4.IsWhole) (arg5 : Memref sig .tc .vmem S1024x128 .bf16) (harg5 : arg5.IsWhole) (arg6 : Memref sig .tc .vmem S1024x1 .i32) (harg6 : arg6.IsWhole) (arg7 : Memref sig .tc .vmem S1x128x2048 .f32) (harg7 : arg7.IsWhole) (arg8 : Memref sig .tc .vmem S1x1024x1 .f32) (harg8 : arg8.IsWhole) (arg9 : Memref sig .tc .vmem S1x1024x1 .f32) (harg9 : arg9.IsWhole) (arg10 : Memref sig .tc .vmem S1x1024x1 .f32) (harg10 : arg10.IsWhole) (arg11 : Memref sig .tc .vmem S128x2048 .f32) (harg11 : arg11.IsWhole) (arg12 : Memref sig .tc .vmem S1024x1 .f32) (harg12 : arg12.IsWhole) (arg13 : Memref sig .tc .vmem S1024x1 .f32) (harg13 : arg13.IsWhole) (arg14 : Memref sig .tc .vmem S1024x1 .f32) (harg14 : arg14.IsWhole) (hc0 : cond0_0 i) (hc1 : ¬cond0_1 i)
    (x0 : Vec F S128x512 .f32) (x1 : Vec F S512x1 .i32) (x2 : Vec F S1x512 .i32) (x3 : Vec F S1024x128 .bf16) (x4 : Vec F S1024x1 .i32) :
    Σ' (LS0 : List (View.Piece (Elt F) S128x2048 .f32)) (LS1 : List (View.Piece (Elt F) S1024x1 .f32)) (LS2 : List (View.Piece (Elt F) S1024x1 .f32)), { LS3 : List (View.Piece (Elt F) S1024x1 .f32) //
      ∀ (xi5 : Vec F S1x128x2048 .f32) (xi6 xi7 xi8 : Vec F S1x1024x1 .f32) (E : Set ℕ) (K : PUnit → sProp 𝕄),
        iprop(owns (c : Thread nD τ) arg2 fullShare x0 ∗ owns (c : Thread nD τ) arg3 fullShare x1 ∗ owns (c : Thread nD τ) arg4 fullShare x2 ∗ owns (c : Thread nD τ) arg5 fullShare x3 ∗ owns (c : Thread nD τ) arg6 fullShare x4 ∗ owns (c : Thread nD τ) arg7 fullShare xi5 ∗ owns (c : Thread nD τ) arg8 fullShare xi6 ∗ owns (c : Thread nD τ) arg9 fullShare xi7 ∗ owns (c : Thread nD τ) arg10 fullShare xi8 ∗ (∃ d, owns (c : Thread nD τ) arg11 fullShare d) ∗ (∃ d, owns (c : Thread nD τ) arg12 fullShare d) ∗ (∃ d, owns (c : Thread nD τ) arg13 fullShare d) ∗ (∃ d, owns (c : Thread nD τ) arg14 fullShare d)
            ∗ (iprop(owns (c : Thread nD τ) arg2 fullShare x0 ∗ owns (c : Thread nD τ) arg3 fullShare x1 ∗ owns (c : Thread nD τ) arg4 fullShare x2 ∗ owns (c : Thread nD τ) arg5 fullShare x3 ∗ owns (c : Thread nD τ) arg6 fullShare x4 ∗ owns (c : Thread nD τ) arg7 fullShare xi5 ∗ owns (c : Thread nD τ) arg8 fullShare xi6 ∗ owns (c : Thread nD τ) arg9 fullShare xi7 ∗ owns (c : Thread nD τ) arg10 fullShare xi8 ∗ (∃ f, arg11.view.loc (c : Thread nD τ) ↦[arg11.view.set]{fullShare} arg11.view.writes (Elt F) f LS0) ∗ (∃ f, arg12.view.loc (c : Thread nD τ) ↦[arg12.view.set]{fullShare} arg12.view.writes (Elt F) f LS1) ∗ (∃ f, arg13.view.loc (c : Thread nD τ) ↦[arg13.view.set]{fullShare} arg13.view.writes (Elt F) f LS2) ∗ (∃ f, arg14.view.loc (c : Thread nD τ) ↦[arg14.view.set]{fullShare} arg14.view.writes (Elt F) f LS3)) -∗ K ⟨⟩))
          ⊢ wp frame (wpE (defs₀ (F := F)) Variants.none c none) E (cc0__fused_kernel i arg2 harg2 arg3 harg3 arg4 harg4 arg5 harg5 arg6 harg6 arg7 harg7 arg8 harg8 arg9 harg9 arg10 harg10 arg11 harg11 arg12 harg12 arg13 harg13 arg14 harg14) K } := by
  refine ⟨?_, ?_, ?_, ?_, fun xi5 xi6 xi7 xi8 E K => ?run⟩
  case run =>
    simp only [cc0__fused_kernel_eq_skeleton]; unfold cc0__fused_kernel_skel
    simp only [k0_part2_eq_skeleton, k0_part1_eq_skeleton]
    unfold owns
    iintro ⟨⟨%f0, %hf0, H0⟩, ⟨%f1, %hf1, H1⟩, ⟨%f2, %hf2, H2⟩, ⟨%f3, %hf3, H3⟩, ⟨%f4, %hf4, H4⟩, ⟨%f5, %hf5, H5⟩, ⟨%f6, %hf6, H6⟩, ⟨%f7, %hf7, H7⟩, ⟨%f8, %hf8, H8⟩, ⟨%ds0, %fs0, -, HS0⟩, ⟨%ds1, %fs1, -, HS1⟩, ⟨%ds2, %fs2, -, HS2⟩, ⟨%ds3, %fs3, -, HS3⟩, Hk⟩
    obtain rfl := harg2.eq_unread hf0; obtain rfl := harg3.eq_unread hf1; obtain rfl := harg4.eq_unread hf2; obtain rfl := harg5.eq_unread hf3; obtain rfl := harg6.eq_unread hf4
    obtain rfl := harg7.eq_unread hf5; obtain rfl := harg8.eq_unread hf6; obtain rfl := harg9.eq_unread hf7; obtain rfl := harg10.eq_unread hf8
    sl_exec (disch := first | exact hc0 | exact hc1)
    sl_step
    iapply Hk
    isplitl [H0]
    · iexists _; isplitr; · ipureintro; exact harg2.read_unread _
      iexact H0
    isplitl [H1]
    · iexists _; isplitr; · ipureintro; exact harg3.read_unread _
      iexact H1
    isplitl [H2]
    · iexists _; isplitr; · ipureintro; exact harg4.read_unread _
      iexact H2
    isplitl [H3]
    · iexists _; isplitr; · ipureintro; exact harg5.read_unread _
      iexact H3
    isplitl [H4]
    · iexists _; isplitr; · ipureintro; exact harg6.read_unread _
      iexact H4
    isplitl [H5]
    · iexists _; isplitr; · ipureintro; exact harg7.read_unread _
      iexact H5
    isplitl [H6]
    · iexists _; isplitr; · ipureintro; exact harg8.read_unread _
      iexact H6
    isplitl [H7]
    · iexists _; isplitr; · ipureintro; exact harg9.read_unread _
      iexact H7
    isplitl [H8]
    · iexists _; isplitr; · ipureintro; exact harg10.read_unread _
      iexact H8
    isplitl [HS0]; · iexists _; iexact HS0
    isplitl [HS1]; · iexists _; iexact HS1
    isplitl [HS2]; · iexists _; iexact HS2
    iexists _; iexact HS3

end Cert.Kernel.Hand

end
-- ==== Proof.K.RunB.lean ====
/-
  The kernel body run whole at a grid point of case B (neither the first nor the last tile of a core's half): on whole staging memrefs holding the five input blocks, the
  body runs to its end leaving the inputs as they were and each buffer it stores into with its stores written, as pieces
  (last store first); the two branches are decided by the case's hypotheses.
-/
import proofs.«405218_j60748017434937_2_alg».proof.Proof.K.Conds

set_option maxRecDepth 16384

noncomputable section

namespace Cert.Kernel.Hand

open Cert.Kernel Cert.Kernel.Gen
open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)

variable {F : FTy → Type} [FloatOps F]

local notation "𝕄" => MT nD τ sig Unit (Elt F) ℕ (UR sig nD τ) ℕ

variable (m : (ℓ : Loc nD τ sig) → Buf (Elt F) ℓ) (ρ : Dev nD → PrngReg)

set_option maxHeartbeats 4000000 in
/-- Case B: the four accumulators arrive at what the tile before left (`xs·`) and leave with this tile's stores; the
    output buffers are not touched. -/
noncomputable def kernelRun0_B (c : Dev nD) (i : grid0.Coords) (arg2 : Memref sig .tc .vmem S128x512 .f32) (harg2 : arg2.IsWhole) (arg3 : Memref sig .tc .vmem S512x1 .i32) (harg3 : arg3.IsWhole) (arg4 : Memref sig .tc .vmem S1x512 .i32) (harg4 : arg4.IsWhole) (arg5 : Memref sig .tc .vmem S1024x128 .bf16) (harg5 : arg5.IsWhole) (arg6 : Memref sig .tc .vmem S1024x1 .i32) (harg6 : arg6.IsWhole) (arg7 : Memref sig .tc .vmem S1x128x2048 .f32) (harg7 : arg7.IsWhole) (arg8 : Memref sig .tc .vmem S1x1024x1 .f32) (harg8 : arg8.IsWhole) (arg9 : Memref sig .tc .vmem S1x1024x1 .f32) (harg9 : arg9.IsWhole) (arg10 : Memref sig .tc .vmem S1x1024x1 .f32) (harg10 : arg10.IsWhole) (arg11 : Memref sig .tc .vmem S128x2048 .f32) (harg11 : arg11.IsWhole) (arg12 : Memref sig .tc .vmem S1024x1 .f32) (harg12 : arg12.IsWhole) (arg13 : Memref sig .tc .vmem S1024x1 .f32) (harg13 : arg13.IsWhole) (arg14 : Memref sig .tc .vmem S1024x1 .f32) (harg14 : arg14.IsWhole) (hc0 : ¬cond0_0 i) (hc1 : ¬cond0_1 i)
    (x0 : Vec F S128x512 .f32) (x1 : Vec F S512x1 .i32) (x2 : Vec F S1x512 .i32) (x3 : Vec F S1024x128 .bf16) (x4 : Vec F S1024x1 .i32) (xs0 : Vec F S128x2048 .f32) (xs1 : Vec F S1024x1 .f32) (xs2 : Vec F S1024x1 .f32) (xs3 : Vec F S1024x1 .f32) :
    Σ' (LS0 : List (View.Piece (Elt F) S128x2048 .f32)) (LS1 : List (View.Piece (Elt F) S1024x1 .f32)) (LS2 : List (View.Piece (Elt F) S1024x1 .f32)), { LS3 : List (View.Piece (Elt F) S1024x1 .f32) //
      ∀ (xi5 : Vec F S1x128x2048 .f32) (xi6 xi7 xi8 : Vec F S1x1024x1 .f32) (E : Set ℕ) (K : PUnit → sProp 𝕄),
        iprop(owns (c : Thread nD τ) arg2 fullShare x0 ∗ owns (c : Thread nD τ) arg3 fullShare x1 ∗ owns (c : Thread nD τ) arg4 fullShare x2 ∗ owns (c : Thread nD τ) arg5 fullShare x3 ∗ owns (c : Thread nD τ) arg6 fullShare x4 ∗ owns (c : Thread nD τ) arg7 fullShare xi5 ∗ owns (c : Thread nD τ) arg8 fullShare xi6 ∗ owns (c : Thread nD τ) arg9 fullShare xi7 ∗ owns (c : Thread nD τ) arg10 fullShare xi8 ∗ owns (c : Thread nD τ) arg11 fullShare xs0 ∗ owns (c : Thread nD τ) arg12 fullShare xs1 ∗ owns (c : Thread nD τ) arg13 fullShare xs2 ∗ owns (c : Thread nD τ) arg14 fullShare xs3
            ∗ (iprop(owns (c : Thread nD τ) arg2 fullShare x0 ∗ owns (c : Thread nD τ) arg3 fullShare x1 ∗ owns (c : Thread nD τ) arg4 fullShare x2 ∗ owns (c : Thread nD τ) arg5 fullShare x3 ∗ owns (c : Thread nD τ) arg6 fullShare x4 ∗ owns (c : Thread nD τ) arg7 fullShare xi5 ∗ owns (c : Thread nD τ) arg8 fullShare xi6 ∗ owns (c : Thread nD τ) arg9 fullShare xi7 ∗ owns (c : Thread nD τ) arg10 fullShare xi8 ∗ (∃ f, arg11.view.loc (c : Thread nD τ) ↦[arg11.view.set]{fullShare} arg11.view.writes (Elt F) f LS0) ∗ (∃ f, arg12.view.loc (c : Thread nD τ) ↦[arg12.view.set]{fullShare} arg12.view.writes (Elt F) f LS1) ∗ (∃ f, arg13.view.loc (c : Thread nD τ) ↦[arg13.view.set]{fullShare} arg13.view.writes (Elt F) f LS2) ∗ (∃ f, arg14.view.loc (c : Thread nD τ) ↦[arg14.view.set]{fullShare} arg14.view.writes (Elt F) f LS3)) -∗ K ⟨⟩))
          ⊢ wp frame (wpE (defs₀ (F := F)) Variants.none c none) E (cc0__fused_kernel i arg2 harg2 arg3 harg3 arg4 harg4 arg5 harg5 arg6 harg6 arg7 harg7 arg8 harg8 arg9 harg9 arg10 harg10 arg11 harg11 arg12 harg12 arg13 harg13 arg14 harg14) K } := by
  refine ⟨?_, ?_, ?_, ?_, fun xi5 xi6 xi7 xi8 E K => ?run⟩
  case run =>
    simp only [cc0__fused_kernel_eq_skeleton]; unfold cc0__fused_kernel_skel
    simp only [k0_part2_eq_skeleton, k0_part1_eq_skeleton]
    unfold owns
    iintro ⟨⟨%f0, %hf0, H0⟩, ⟨%f1, %hf1, H1⟩, ⟨%f2, %hf2, H2⟩, ⟨%f3, %hf3, H3⟩, ⟨%f4, %hf4, H4⟩, ⟨%f5, %hf5, H5⟩, ⟨%f6, %hf6, H6⟩, ⟨%f7, %hf7, H7⟩, ⟨%f8, %hf8, H8⟩, ⟨%fs0, %hfs0, HS0⟩, ⟨%fs1, %hfs1, HS1⟩, ⟨%fs2, %hfs2, HS2⟩, ⟨%fs3, %hfs3, HS3⟩, Hk⟩
    obtain rfl := harg2.eq_unread hf0; obtain rfl := harg3.eq_unread hf1; obtain rfl := harg4.eq_unread hf2; obtain rfl := harg5.eq_unread hf3; obtain rfl := harg6.eq_unread hf4
    obtain rfl := harg7.eq_unread hf5; obtain rfl := harg8.eq_unread hf6; obtain rfl := harg9.eq_unread hf7; obtain rfl := harg10.eq_unread hf8
    obtain rfl := harg11.eq_unread hfs0; obtain rfl := harg12.eq_unread hfs1; obtain rfl := harg13.eq_unread hfs2; obtain rfl := harg14.eq_unread hfs3
    sl_exec (disch := first | exact hc0 | exact hc1)
    sl_step
    iapply Hk
    isplitl [H0]
    · iexists _; isplitr; · ipureintro; exact harg2.read_unread _
      iexact H0
    isplitl [H1]
    · iexists _; isplitr; · ipureintro; exact harg3.read_unread _
      iexact H1
    isplitl [H2]
    · iexists _; isplitr; · ipureintro; exact harg4.read_unread _
      iexact H2
    isplitl [H3]
    · iexists _; isplitr; · ipureintro; exact harg5.read_unread _
      iexact H3
    isplitl [H4]
    · iexists _; isplitr; · ipureintro; exact harg6.read_unread _
      iexact H4
    isplitl [H5]
    · iexists _; isplitr; · ipureintro; exact harg7.read_unread _
      iexact H5
    isplitl [H6]
    · iexists _; isplitr; · ipureintro; exact harg8.read_unread _
      iexact H6
    isplitl [H7]
    · iexists _; isplitr; · ipureintro; exact harg9.read_unread _
      iexact H7
    isplitl [H8]
    · iexists _; isplitr; · ipureintro; exact harg10.read_unread _
      iexact H8
    isplitl [HS0]; · iexists _; iexact HS0
    isplitl [HS1]; · iexists _; iexact HS1
    isplitl [HS2]; · iexists _; iexact HS2
    iexists _; iexact HS3

end Cert.Kernel.Hand

end
-- ==== Proof.K.RunC.lean ====
/-
  The kernel body run whole at a grid point of case C (the last tile of a core's half: the accumulators are copied to the outputs): on whole staging memrefs holding the five input blocks, the
  body runs to its end leaving the inputs as they were and each buffer it stores into with its stores written, as pieces
  (last store first); the two branches are decided by the case's hypotheses.
-/
import proofs.«405218_j60748017434937_2_alg».proof.Proof.K.Conds

set_option maxRecDepth 16384

noncomputable section

namespace Cert.Kernel.Hand

open Cert.Kernel Cert.Kernel.Gen
open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)

variable {F : FTy → Type} [FloatOps F]

local notation "𝕄" => MT nD τ sig Unit (Elt F) ℕ (UR sig nD τ) ℕ

variable (m : (ℓ : Loc nD τ sig) → Buf (Elt F) ℓ) (ρ : Dev nD → PrngReg)

set_option maxHeartbeats 4000000 in
/-- Case C: the four accumulators arrive at what the tile before left, are updated by this tile, and are then copied
    whole into the four output buffers (which arrive at anything). -/
noncomputable def kernelRun0_C (c : Dev nD) (i : grid0.Coords) (arg2 : Memref sig .tc .vmem S128x512 .f32) (harg2 : arg2.IsWhole) (arg3 : Memref sig .tc .vmem S512x1 .i32) (harg3 : arg3.IsWhole) (arg4 : Memref sig .tc .vmem S1x512 .i32) (harg4 : arg4.IsWhole) (arg5 : Memref sig .tc .vmem S1024x128 .bf16) (harg5 : arg5.IsWhole) (arg6 : Memref sig .tc .vmem S1024x1 .i32) (harg6 : arg6.IsWhole) (arg7 : Memref sig .tc .vmem S1x128x2048 .f32) (harg7 : arg7.IsWhole) (arg8 : Memref sig .tc .vmem S1x1024x1 .f32) (harg8 : arg8.IsWhole) (arg9 : Memref sig .tc .vmem S1x1024x1 .f32) (harg9 : arg9.IsWhole) (arg10 : Memref sig .tc .vmem S1x1024x1 .f32) (harg10 : arg10.IsWhole) (arg11 : Memref sig .tc .vmem S128x2048 .f32) (harg11 : arg11.IsWhole) (arg12 : Memref sig .tc .vmem S1024x1 .f32) (harg12 : arg12.IsWhole) (arg13 : Memref sig .tc .vmem S1024x1 .f32) (harg13 : arg13.IsWhole) (arg14 : Memref sig .tc .vmem S1024x1 .f32) (harg14 : arg14.IsWhole) (hc0 : ¬cond0_0 i) (hc1 : cond0_1 i)
    (x0 : Vec F S128x512 .f32) (x1 : Vec F S512x1 .i32) (x2 : Vec F S1x512 .i32) (x3 : Vec F S1024x128 .bf16) (x4 : Vec F S1024x1 .i32) (xs0 : Vec F S128x2048 .f32) (xs1 : Vec F S1024x1 .f32) (xs2 : Vec F S1024x1 .f32) (xs3 : Vec F S1024x1 .f32) :
    Σ' (L5 : List (View.Piece (Elt F) S1x128x2048 .f32)) (L6 : List (View.Piece (Elt F) S1x1024x1 .f32)) (L7 : List (View.Piece (Elt F) S1x1024x1 .f32)) (L8 : List (View.Piece (Elt F) S1x1024x1 .f32)) (LS0 : List (View.Piece (Elt F) S128x2048 .f32)) (LS1 : List (View.Piece (Elt F) S1024x1 .f32)) (LS2 : List (View.Piece (Elt F) S1024x1 .f32)), { LS3 : List (View.Piece (Elt F) S1024x1 .f32) //
      ∀ (E : Set ℕ) (K : PUnit → sProp 𝕄),
        iprop(owns (c : Thread nD τ) arg2 fullShare x0 ∗ owns (c : Thread nD τ) arg3 fullShare x1 ∗ owns (c : Thread nD τ) arg4 fullShare x2 ∗ owns (c : Thread nD τ) arg5 fullShare x3 ∗ owns (c : Thread nD τ) arg6 fullShare x4 ∗ (∃ d, owns (c : Thread nD τ) arg7 fullShare d) ∗ (∃ d, owns (c : Thread nD τ) arg8 fullShare d) ∗ (∃ d, owns (c : Thread nD τ) arg9 fullShare d) ∗ (∃ d, owns (c : Thread nD τ) arg10 fullShare d) ∗ owns (c : Thread nD τ) arg11 fullShare xs0 ∗ owns (c : Thread nD τ) arg12 fullShare xs1 ∗ owns (c : Thread nD τ) arg13 fullShare xs2 ∗ owns (c : Thread nD τ) arg14 fullShare xs3
            ∗ (iprop(owns (c : Thread nD τ) arg2 fullShare x0 ∗ owns (c : Thread nD τ) arg3 fullShare x1 ∗ owns (c : Thread nD τ) arg4 fullShare x2 ∗ owns (c : Thread nD τ) arg5 fullShare x3 ∗ owns (c : Thread nD τ) arg6 fullShare x4 ∗ (∃ f, arg7.view.loc (c : Thread nD τ) ↦[arg7.view.set]{fullShare} arg7.view.writes (Elt F) f L5) ∗ (∃ f, arg8.view.loc (c : Thread nD τ) ↦[arg8.view.set]{fullShare} arg8.view.writes (Elt F) f L6) ∗ (∃ f, arg9.view.loc (c : Thread nD τ) ↦[arg9.view.set]{fullShare} arg9.view.writes (Elt F) f L7) ∗ (∃ f, arg10.view.loc (c : Thread nD τ) ↦[arg10.view.set]{fullShare} arg10.view.writes (Elt F) f L8) ∗ (∃ f, arg11.view.loc (c : Thread nD τ) ↦[arg11.view.set]{fullShare} arg11.view.writes (Elt F) f LS0) ∗ (∃ f, arg12.view.loc (c : Thread nD τ) ↦[arg12.view.set]{fullShare} arg12.view.writes (Elt F) f LS1) ∗ (∃ f, arg13.view.loc (c : Thread nD τ) ↦[arg13.view.set]{fullShare} arg13.view.writes (Elt F) f LS2) ∗ (∃ f, arg14.view.loc (c : Thread nD τ) ↦[arg14.view.set]{fullShare} arg14.view.writes (Elt F) f LS3)) -∗ K ⟨⟩))
          ⊢ wp frame (wpE (defs₀ (F := F)) Variants.none c none) E (cc0__fused_kernel i arg2 harg2 arg3 harg3 arg4 harg4 arg5 harg5 arg6 harg6 arg7 harg7 arg8 harg8 arg9 harg9 arg10 harg10 arg11 harg11 arg12 harg12 arg13 harg13 arg14 harg14) K } := by
  refine ⟨?_, ?_, ?_, ?_, ?_, ?_, ?_, ?_, fun E K => ?run⟩
  case run =>
    simp only [cc0__fused_kernel_eq_skeleton]; unfold cc0__fused_kernel_skel
    simp only [k0_part2_eq_skeleton, k0_part1_eq_skeleton]
    unfold owns
    iintro ⟨⟨%f0, %hf0, H0⟩, ⟨%f1, %hf1, H1⟩, ⟨%f2, %hf2, H2⟩, ⟨%f3, %hf3, H3⟩, ⟨%f4, %hf4, H4⟩, ⟨%d5, %f5, -, H5⟩, ⟨%d6, %f6, -, H6⟩, ⟨%d7, %f7, -, H7⟩, ⟨%d8, %f8, -, H8⟩, ⟨%fs0, %hfs0, HS0⟩, ⟨%fs1, %hfs1, HS1⟩, ⟨%fs2, %hfs2, HS2⟩, ⟨%fs3, %hfs3, HS3⟩, Hk⟩
    obtain rfl := harg2.eq_unread hf0; obtain rfl := harg3.eq_unread hf1; obtain rfl := harg4.eq_unread hf2; obtain rfl := harg5.eq_unread hf3; obtain rfl := harg6.eq_unread hf4
    obtain rfl := harg11.eq_unread hfs0; obtain rfl := harg12.eq_unread hfs1; obtain rfl := harg13.eq_unread hfs2; obtain rfl := harg14.eq_unread hfs3
    sl_exec (disch := first | exact hc0 | exact hc1)
    sl_step
    iapply Hk
    isplitl [H0]
    · iexists _; isplitr; · ipureintro; exact harg2.read_unread _
      iexact H0
    isplitl [H1]
    · iexists _; isplitr; · ipureintro; exact harg3.read_unread _
      iexact H1
    isplitl [H2]
    · iexists _; isplitr; · ipureintro; exact harg4.read_unread _
      iexact H2
    isplitl [H3]
    · iexists _; isplitr; · ipureintro; exact harg5.read_unread _
      iexact H3
    isplitl [H4]
    · iexists _; isplitr; · ipureintro; exact harg6.read_unread _
      iexact H4
    isplitl [H5]; · iexists _; iexact H5
    isplitl [H6]; · iexists _; iexact H6
    isplitl [H7]; · iexists _; iexact H7
    isplitl [H8]; · iexists _; iexact H8
    isplitl [HS0]; · iexists _; iexact HS0
    isplitl [HS1]; · iexists _; iexact HS1
    isplitl [HS2]; · iexists _; iexact HS2
    iexists _; iexact HS3

end Cert.Kernel.Hand

end
-- ==== Proof.K.Tail.lean ====
/-
  The host operations around the streaming kernel's one region, as the frame of the program needs them. No operation
  allocates; each writes one buffer of its own, which is never a launch argument and, after the region, never the array
  of a window. So the program is its region continued by the later stretches, an argument array the region does not
  stage ends as launched, and the staged one ends at what the region's run says of its array.
-/
import proofs.«405218_j60748017434937_2_alg».proof.Proof.K.Base
import Mathlib.Data.List.Basic
import Mathlib.Data.Finset.Insert

set_option maxRecDepth 16384

noncomputable section

namespace Cert.Kernel.Hand

open Cert.Kernel Cert.Kernel.Gen
open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)

variable {F : FTy → Type} [FloatOps F]

local notation "𝕄" => MT nD τ sig Unit (Elt F) ℕ (UR sig nD τ) ℕ

variable (m : (ℓ : Loc nD τ sig) → Buf (Elt F) ℓ) (ρ : Dev nD → PrngReg)

/-! ## One written buffer per operation -/

/-- The launch arguments. -/
abbrev args : List (Ref sig .tc) := [main_arg0, main_arg1, main_arg2, main_arg3, main_arg4, main_arg5]

/-- `op` writes one buffer, a TensorCore reference that is no launch argument. -/
def OffArgs (op : HloOp τ sig (Elt F)) : Prop :=
  ∃ y : Ref sig .tc, op.writes = {Proc.devRef .tc y} ∧ y ∉ args

/-- `op` writes one buffer, a TensorCore reference that is neither a launch argument nor the array of a window. -/
def OffKept (op : HloOp τ sig (Elt F)) : Prop :=
  ∃ y : Ref sig .tc, op.writes = {Proc.devRef .tc y} ∧ y ∉ args ∧ ∀ w, Pipeline.arrRef spec0 w ≠ y

theorem OffArgs.keeps {op : HloOp τ sig (Elt F)} (h : OffArgs op) {b : Ref sig .tc} (hb : b ∈ args) :
    Proc.devRef .tc b ∉ op.writes := by
  obtain ⟨y, hw, hy⟩ := h
  rw [hw, Finset.mem_singleton]
  exact StableHlo.devRef_ne_of_ne fun e => hy (e ▸ hb)

theorem OffKept.offArgs {op : HloOp τ sig (Elt F)} (h : OffKept op) : OffArgs op :=
  let ⟨y, hw, hy, _⟩ := h; ⟨y, hw, hy⟩

theorem OffKept.keeps_arr {op : HloOp τ sig (Elt F)} (h : OffKept op) (w : Fin 9) :
    Proc.devRef .tc (Pipeline.arrRef spec0 w) ∉ op.writes := by
  obtain ⟨y, hw, -, hy⟩ := h
  rw [hw, Finset.mem_singleton]
  exact StableHlo.devRef_ne_of_ne (hy w)

/-- A fact of every element of every list, from the lists' `Forall`s. -/
theorem mem₂ {α : Type _} {p : α → Prop} {L : List (List α)} (h : L.Forall fun l => l.Forall p) :
    ∀ l ∈ L, ∀ a ∈ l, p a :=
  fun l hl a ha => List.forall_iff_forall_mem.mp (List.forall_iff_forall_mem.mp h l hl) a ha

/-- Walk a literal list, closing the fact at each element by `t`: linear in the list's length. -/
local macro "walk " t:term : tactic =>
  `(tactic| ((repeat (refine (List.forall_cons _ _ _).mpr ⟨$t, ?_⟩)); exact trivial))

/-! ## The stretches, one by one -/

theorem hostOps0_fresh : (hostOps0 : List (HloOp τ sig (Elt F))).Forall fun op => op.fresh = ∅ := by walk rfl
set_option maxHeartbeats 40000000 in
theorem hostOps1_fresh : (hostOps1 : List (HloOp τ sig (Elt F))).Forall fun op => op.fresh = ∅ := by walk rfl
theorem hostOps1_1_fresh : (hostOps1_1 : List (HloOp τ sig (Elt F))).Forall fun op => op.fresh = ∅ := by walk rfl
theorem hostOps1_2_fresh : (hostOps1_2 : List (HloOp τ sig (Elt F))).Forall fun op => op.fresh = ∅ := by walk rfl
theorem hostOps1_3_fresh : (hostOps1_3 : List (HloOp τ sig (Elt F))).Forall fun op => op.fresh = ∅ := by walk rfl
theorem hostOps1_4_fresh : (hostOps1_4 : List (HloOp τ sig (Elt F))).Forall fun op => op.fresh = ∅ := by walk rfl

/-- Before the region no operation writes a launch argument. -/
theorem hostOps0_off : (hostOps0 : List (HloOp τ sig (Elt F))).Forall OffArgs := by walk ⟨_, rfl, by decide⟩
set_option maxHeartbeats 40000000 in
/-- After it none writes a launch argument or a window's array. -/
theorem hostOps1_off : (hostOps1 : List (HloOp τ sig (Elt F))).Forall OffKept := by walk ⟨_, rfl, by decide⟩
theorem hostOps1_1_off : (hostOps1_1 : List (HloOp τ sig (Elt F))).Forall OffKept := by walk ⟨_, rfl, by decide⟩
theorem hostOps1_2_off : (hostOps1_2 : List (HloOp τ sig (Elt F))).Forall OffKept := by walk ⟨_, rfl, by decide⟩
theorem hostOps1_3_off : (hostOps1_3 : List (HloOp τ sig (Elt F))).Forall OffKept := by walk ⟨_, rfl, by decide⟩
theorem hostOps1_4_off : (hostOps1_4 : List (HloOp τ sig (Elt F))).Forall OffKept := by walk ⟨_, rfl, by decide⟩

/-! ## The stretches after the region, together -/

theorem tail_sub : (tailOps : List (List (HloOp τ sig (Elt F)))).Forall fun ops =>
    ops.Forall fun op => op.bufs ⊆ StableHlo.tcRefs τ sig :=
  ⟨hostOps1_sub, hostOps1_1_sub, hostOps1_2_sub, hostOps1_3_sub, hostOps1_4_sub⟩
theorem tail_fresh : (tailOps : List (List (HloOp τ sig (Elt F)))).Forall fun ops => ops.Forall fun op => op.fresh = ∅ :=
  ⟨hostOps1_fresh, hostOps1_1_fresh, hostOps1_2_fresh, hostOps1_3_fresh, hostOps1_4_fresh⟩
theorem tail_off : (tailOps : List (List (HloOp τ sig (Elt F)))).Forall fun ops => ops.Forall OffKept :=
  ⟨hostOps1_off, hostOps1_1_off, hostOps1_2_off, hostOps1_3_off, hostOps1_4_off⟩

/-- The program is the stretch before the region, the region, and the later stretches as its continuation. -/
theorem hmain (𝒱₀ : Variants) : Pipeline.HMainK (Ix := Unit) (Name := ℕ) (U := UR sig nD τ) (Lvl := ℕ) cfgs 0 defs₀ 𝒱₀ m (main (F := F)) (V m)
      (fun _ => Pipeline.chain (tailOps.map StableHlo.seq)) :=
  Pipeline.hmain_around cfgs 0 defs₀ 𝒱₀ m main [hostOps0] tailOps
    (List.forall_iff_forall_mem.mpr fun ops h => List.mem_singleton.mp h ▸ hostOps0_sub)
    (List.forall_iff_forall_mem.mpr fun ops h => List.mem_singleton.mp h ▸ hostOps0_fresh) main_chain

/-- The later stretches touch unscoped TensorCore references only: with nothing prefetched, the arrays and the
    buffers that bypass the region. -/
theorem sfx_sub : ∀ ops ∈ (tailOps : List (List (HloOp τ sig (Elt F)))), ∀ op ∈ ops,
    op.bufs ⊆ Pipeline.tailRefs sig Pipeline.Prefetch.none spec0 := by
  rw [Pipeline.tailRefs_none spec0 launch0.win.arr_unscoped]
  exact fun ops hops op hop => Pipeline.sub_ucRefs op (mem₂ tail_sub ops hops op hop)
/-- They allocate nothing. -/
theorem sfx_fresh : ∀ ops ∈ (tailOps : List (List (HloOp τ sig (Elt F)))), ∀ op ∈ ops, op.fresh = ∅ :=
  mem₂ tail_fresh
/-- And write no array of the pipeline. -/
theorem sfx_keeps : ∀ ops ∈ (tailOps : List (List (HloOp τ sig (Elt F)))), ∀ op ∈ ops,
    ∀ w, Proc.devRef .tc (Pipeline.arrRef spec0 w) ∉ op.writes :=
  fun ops hops op hop w => (mem₂ tail_off ops hops op hop).keeps_arr w

/-! ## The launch arguments at the region's entry and at the end -/

/-- The region finds a launch argument as launched. -/
theorem V_of (c : Dev nD) (b : Ref sig .tc) (hb : b ∈ args) : V m c b = m ((c : Thread nD τ).loc b) :=
  StableHlo.after_of_forall_not_mem (b := Proc.devRef .tc b) _ _ fun op hop => by
    obtain ⟨ops, hops, hop'⟩ := List.mem_flatten.mp hop
    exact (List.forall_iff_forall_mem.mp hostOps0_off op (List.mem_singleton.mp hops ▸ hop')).keeps hb

theorem V_main_arg0 (c : Dev nD) : V m c main_arg0 = m ((c : Thread nD τ).loc main_arg0) := V_of m c _ (by decide)
theorem V_main_arg1 (c : Dev nD) : V m c main_arg1 = m ((c : Thread nD τ).loc main_arg1) := V_of m c _ (by decide)
theorem V_main_arg2 (c : Dev nD) : V m c main_arg2 = m ((c : Thread nD τ).loc main_arg2) := V_of m c _ (by decide)
theorem V_main_arg3 (c : Dev nD) : V m c main_arg3 = m ((c : Thread nD τ).loc main_arg3) := V_of m c _ (by decide)
theorem V_main_arg4 (c : Dev nD) : V m c main_arg4 = m ((c : Thread nD τ).loc main_arg4) := V_of m c _ (by decide)
theorem V_main_arg5 (c : Dev nD) : V m c main_arg5 = m ((c : Thread nD τ).loc main_arg5) := V_of m c _ (by decide)

/-- A launch argument that is no window's array ends as launched: no later stretch writes it either. -/
theorem W_of (dats : (p : Fin 1) → (c : Dev nD) → Dat τ (Elt F) Unit ℕ (UR sig nD τ) ℕ (cfgs p) c) (c : Dev nD)
    (b : Ref sig .tc) (hb : b ∈ args) (harr : ∀ w, Pipeline.arrRef spec0 w ≠ b) :
    Pipeline.afterTail₀ cfgs dats 0 (V0 m) tailOps c b = m ((c : Thread nD τ).loc b) := by
  unfold Pipeline.afterTail₀
  rw [StableHlo.after_of_forall_not_mem (b := Proc.devRef .tc b) _ _ fun op hop => ?_,
    Pipeline.withArrays_of_ne _ c (V0 m c) _ b harr]
  · exact V_of m c b hb
  · obtain ⟨ops, hops, hop'⟩ := List.mem_flatten.mp hop
    exact (mem₂ tail_off ops hops op hop').offArgs.keeps hb

theorem W_main_arg0 (dats : (p : Fin 1) → (c : Dev nD) → Dat τ (Elt F) Unit ℕ (UR sig nD τ) ℕ (cfgs p) c) (c : Dev nD) :
    Pipeline.afterTail₀ cfgs dats 0 (V0 m) tailOps c main_arg0 = m ((c : Thread nD τ).loc main_arg0) :=
  W_of m dats c _ (by decide) (by decide)
theorem W_main_arg1 (dats : (p : Fin 1) → (c : Dev nD) → Dat τ (Elt F) Unit ℕ (UR sig nD τ) ℕ (cfgs p) c) (c : Dev nD) :
    Pipeline.afterTail₀ cfgs dats 0 (V0 m) tailOps c main_arg1 = m ((c : Thread nD τ).loc main_arg1) :=
  W_of m dats c _ (by decide) (by decide)
theorem W_main_arg2 (dats : (p : Fin 1) → (c : Dev nD) → Dat τ (Elt F) Unit ℕ (UR sig nD τ) ℕ (cfgs p) c) (c : Dev nD) :
    Pipeline.afterTail₀ cfgs dats 0 (V0 m) tailOps c main_arg2 = m ((c : Thread nD τ).loc main_arg2) :=
  W_of m dats c _ (by decide) (by decide)
theorem W_main_arg4 (dats : (p : Fin 1) → (c : Dev nD) → Dat τ (Elt F) Unit ℕ (UR sig nD τ) ℕ (cfgs p) c) (c : Dev nD) :
    Pipeline.afterTail₀ cfgs dats 0 (V0 m) tailOps c main_arg4 = m ((c : Thread nD τ).loc main_arg4) :=
  W_of m dats c _ (by decide) (by decide)
theorem W_main_arg5 (dats : (p : Fin 1) → (c : Dev nD) → Dat τ (Elt F) Unit ℕ (UR sig nD τ) ℕ (cfgs p) c) (c : Dev nD) :
    Pipeline.afterTail₀ cfgs dats 0 (V0 m) tailOps c main_arg5 = m ((c : Thread nD τ).loc main_arg5) :=
  W_of m dats c _ (by decide) (by decide)

/-! ## The frame claim's post from the frame run's -/

/-- For any proof data whose arrays are the region-entry contents, a run to the frame post read at the argument arrays
    is the frame claim's post: the staged argument by what the run says of an input window's array, each other one as
    a buffer that bypasses the region and that no later stretch writes. -/
theorem frame_of (dats : (p : Fin 1) → (c : Dev nD) → Dat τ (Elt F) Unit ℕ (UR sig nD τ) ℕ (cfgs p) c)
    (hA : ∀ c w, (dats 0 c).A w = V m c (Pipeline.arrRef spec0 w))
    (h : θ_run defs (onTc (τ := τ) (main (F := F))) (s₀ m ρ) (Pipeline.FramePost cfgs dats 0 (Pipeline.afterTail₀ cfgs dats 0 (V0 m) tailOps))) :
    θ_run defs (onTc (τ := τ) (main (F := F))) ⟨m, fun _ => 0, ρ⟩ (fun r => ∀ c : Dev nD,
      r.2.mem ((c.tc : Thread nD τ).loc main_arg0) = m ((c.tc : Thread nD τ).loc main_arg0)
      ∧ r.2.mem ((c.tc : Thread nD τ).loc main_arg1) = m ((c.tc : Thread nD τ).loc main_arg1)
      ∧ r.2.mem ((c.tc : Thread nD τ).loc main_arg2) = m ((c.tc : Thread nD τ).loc main_arg2)
      ∧ r.2.mem ((c.tc : Thread nD τ).loc main_arg3) = m ((c.tc : Thread nD τ).loc main_arg3)
      ∧ r.2.mem ((c.tc : Thread nD τ).loc main_arg4) = m ((c.tc : Thread nD τ).loc main_arg4)
      ∧ r.2.mem ((c.tc : Thread nD τ).loc main_arg5) = m ((c.tc : Thread nD τ).loc main_arg5)) :=
  (θ_run defs _ _).mono (fun _ h c =>
    ⟨((h c).2 main_arg0 (Pipeline.mem_restRefs_of main_arg0 (by decide) (by decide))).trans (W_main_arg0 m dats c),
     ((h c).2 main_arg1 (Pipeline.mem_restRefs_of main_arg1 (by decide) (by decide))).trans (W_main_arg1 m dats c),
     ((h c).2 main_arg2 (Pipeline.mem_restRefs_of main_arg2 (by decide) (by decide))).trans (W_main_arg2 m dats c),
     ((h c).1 0).trans (((dats 0 c).arrAt_in 0 rfl _).trans ((hA c 0).trans (V_main_arg3 m c))),
     ((h c).2 main_arg4 (Pipeline.mem_restRefs_of main_arg4 (by decide) (by decide))).trans (W_main_arg4 m dats c),
     ((h c).2 main_arg5 (Pipeline.mem_restRefs_of main_arg5 (by decide) (by decide))).trans (W_main_arg5 m dats c)⟩) h

end Cert.Kernel.Hand

end
-- ==== Proof.K.Frame.lean ====
/-
  The frame of the streaming kernel's program. Per case of the body's two branches, what the body leaves in the four
  accumulators (and, at a last tile, in the four output buffers), read back from the stores its run found; the
  accumulators after each grid point, by recursion on the point (a first tile starts afresh, any other tile continues
  from the tile before); the pipeline's proof data over them; the body obligation, case by case; the launch around the
  region; and the frame: every weakly fair execution ends with the six argument arrays as launched.
-/
import proofs.«405218_j60748017434937_2_alg».proof.Proof.K.RunA
import proofs.«405218_j60748017434937_2_alg».proof.Proof.K.RunB
import proofs.«405218_j60748017434937_2_alg».proof.Proof.K.RunC
import proofs.«405218_j60748017434937_2_alg».proof.Proof.K.Tail

set_option maxRecDepth 16384

noncomputable section

namespace Cert.Kernel.Hand

open Cert.Kernel Cert.Kernel.Gen
open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)

variable {F : FTy → Type} [FloatOps F]

local notation "𝕄" => MT nD τ sig Unit (Elt F) ℕ (UR sig nD τ) ℕ

variable (m : (ℓ : Loc nD τ sig) → Buf (Elt F) ℓ) (ρ : Dev nD → PrngReg)

/-- The four accumulators' contents, and the four output buffers' contents. -/
abbrev Sc (F : FTy → Type) [FloatOps F] : Type := Vec F S128x2048 .f32 × Vec F S1024x1 .f32 × Vec F S1024x1 .f32 × Vec F S1024x1 .f32
abbrev Out (F : FTy → Type) [FloatOps F] : Type := Vec F S1x128x2048 .f32 × Vec F S1x1024x1 .f32 × Vec F S1x1024x1 .f32 × Vec F S1x1024x1 .f32

/-! ## What each case leaves -/

/-- Case A's stores into accumulator 0 tile it. -/
theorem scover0_A_0 (c : Dev nD) (i : grid0.Coords) (arg2 : Memref sig .tc .vmem S128x512 .f32) (harg2 : arg2.IsWhole) (arg3 : Memref sig .tc .vmem S512x1 .i32) (harg3 : arg3.IsWhole) (arg4 : Memref sig .tc .vmem S1x512 .i32) (harg4 : arg4.IsWhole) (arg5 : Memref sig .tc .vmem S1024x128 .bf16) (harg5 : arg5.IsWhole) (arg6 : Memref sig .tc .vmem S1024x1 .i32) (harg6 : arg6.IsWhole) (arg7 : Memref sig .tc .vmem S1x128x2048 .f32) (harg7 : arg7.IsWhole) (arg8 : Memref sig .tc .vmem S1x1024x1 .f32) (harg8 : arg8.IsWhole) (arg9 : Memref sig .tc .vmem S1x1024x1 .f32) (harg9 : arg9.IsWhole) (arg10 : Memref sig .tc .vmem S1x1024x1 .f32) (harg10 : arg10.IsWhole) (arg11 : Memref sig .tc .vmem S128x2048 .f32) (harg11 : arg11.IsWhole) (arg12 : Memref sig .tc .vmem S1024x1 .f32) (harg12 : arg12.IsWhole) (arg13 : Memref sig .tc .vmem S1024x1 .f32) (harg13 : arg13.IsWhole) (arg14 : Memref sig .tc .vmem S1024x1 .f32) (harg14 : arg14.IsWhole) (hc0 : cond0_0 i) (hc1 : ¬cond0_1 i)
    (x0 : Vec F S128x512 .f32) (x1 : Vec F S512x1 .i32) (x2 : Vec F S1x512 .i32) (x3 : Vec F S1024x128 .bf16) (x4 : Vec F S1024x1 .i32)  (y : S128x2048.Idx) :
    ∃ pc ∈ (kernelRun0_A c i arg2 harg2 arg3 harg3 arg4 harg4 arg5 harg5 arg6 harg6 arg7 harg7 arg8 harg8 arg9 harg9 arg10 harg10 arg11 harg11 arg12 harg12 arg13 harg13 arg14 harg14 hc0 hc1 x0 x1 x2 x3 x4).1, y ∈ pc.1.set :=
  View.cover_of_tiledL (kernelRun0_A c i arg2 harg2 arg3 harg3 arg4 harg4 arg5 harg5 arg6 harg6 arg7 harg7 arg8 harg8 arg9 harg9 arg10 harg10 arg11 harg11 arg12 harg12 arg13 harg13 arg14 harg14 hc0 hc1 x0 x1 x2 x3 x4).1 S128x2048.size (by sl_kernel_rfl) y
/-- What case A leaves in accumulator 0: its stores read back. -/
def sout0_A_0 (c : Dev nD) (i : grid0.Coords) (arg2 : Memref sig .tc .vmem S128x512 .f32) (harg2 : arg2.IsWhole) (arg3 : Memref sig .tc .vmem S512x1 .i32) (harg3 : arg3.IsWhole) (arg4 : Memref sig .tc .vmem S1x512 .i32) (harg4 : arg4.IsWhole) (arg5 : Memref sig .tc .vmem S1024x128 .bf16) (harg5 : arg5.IsWhole) (arg6 : Memref sig .tc .vmem S1024x1 .i32) (harg6 : arg6.IsWhole) (arg7 : Memref sig .tc .vmem S1x128x2048 .f32) (harg7 : arg7.IsWhole) (arg8 : Memref sig .tc .vmem S1x1024x1 .f32) (harg8 : arg8.IsWhole) (arg9 : Memref sig .tc .vmem S1x1024x1 .f32) (harg9 : arg9.IsWhole) (arg10 : Memref sig .tc .vmem S1x1024x1 .f32) (harg10 : arg10.IsWhole) (arg11 : Memref sig .tc .vmem S128x2048 .f32) (harg11 : arg11.IsWhole) (arg12 : Memref sig .tc .vmem S1024x1 .f32) (harg12 : arg12.IsWhole) (arg13 : Memref sig .tc .vmem S1024x1 .f32) (harg13 : arg13.IsWhole) (arg14 : Memref sig .tc .vmem S1024x1 .f32) (harg14 : arg14.IsWhole) (hc0 : cond0_0 i) (hc1 : ¬cond0_1 i)
    (x0 : Vec F S128x512 .f32) (x1 : Vec F S512x1 .i32) (x2 : Vec F S1x512 .i32) (x3 : Vec F S1024x128 .bf16) (x4 : Vec F S1024x1 .i32)  : Vec F S128x2048 .f32 :=
  VS0_0.read (Elt F) (VS0_0.writes (Elt F) VS0_0.junk (kernelRun0_A c i arg2 harg2 arg3 harg3 arg4 harg4 arg5 harg5 arg6 harg6 arg7 harg7 arg8 harg8 arg9 harg9 arg10 harg10 arg11 harg11 arg12 harg12 arg13 harg13 arg14 harg14 hc0 hc1 x0 x1 x2 x3 x4).1)

/-- Case A's stores into accumulator 1 tile it. -/
theorem scover0_A_1 (c : Dev nD) (i : grid0.Coords) (arg2 : Memref sig .tc .vmem S128x512 .f32) (harg2 : arg2.IsWhole) (arg3 : Memref sig .tc .vmem S512x1 .i32) (harg3 : arg3.IsWhole) (arg4 : Memref sig .tc .vmem S1x512 .i32) (harg4 : arg4.IsWhole) (arg5 : Memref sig .tc .vmem S1024x128 .bf16) (harg5 : arg5.IsWhole) (arg6 : Memref sig .tc .vmem S1024x1 .i32) (harg6 : arg6.IsWhole) (arg7 : Memref sig .tc .vmem S1x128x2048 .f32) (harg7 : arg7.IsWhole) (arg8 : Memref sig .tc .vmem S1x1024x1 .f32) (harg8 : arg8.IsWhole) (arg9 : Memref sig .tc .vmem S1x1024x1 .f32) (harg9 : arg9.IsWhole) (arg10 : Memref sig .tc .vmem S1x1024x1 .f32) (harg10 : arg10.IsWhole) (arg11 : Memref sig .tc .vmem S128x2048 .f32) (harg11 : arg11.IsWhole) (arg12 : Memref sig .tc .vmem S1024x1 .f32) (harg12 : arg12.IsWhole) (arg13 : Memref sig .tc .vmem S1024x1 .f32) (harg13 : arg13.IsWhole) (arg14 : Memref sig .tc .vmem S1024x1 .f32) (harg14 : arg14.IsWhole) (hc0 : cond0_0 i) (hc1 : ¬cond0_1 i)
    (x0 : Vec F S128x512 .f32) (x1 : Vec F S512x1 .i32) (x2 : Vec F S1x512 .i32) (x3 : Vec F S1024x128 .bf16) (x4 : Vec F S1024x1 .i32)  (y : S1024x1.Idx) :
    ∃ pc ∈ (kernelRun0_A c i arg2 harg2 arg3 harg3 arg4 harg4 arg5 harg5 arg6 harg6 arg7 harg7 arg8 harg8 arg9 harg9 arg10 harg10 arg11 harg11 arg12 harg12 arg13 harg13 arg14 harg14 hc0 hc1 x0 x1 x2 x3 x4).2.1, y ∈ pc.1.set :=
  View.cover_of_tiledL (kernelRun0_A c i arg2 harg2 arg3 harg3 arg4 harg4 arg5 harg5 arg6 harg6 arg7 harg7 arg8 harg8 arg9 harg9 arg10 harg10 arg11 harg11 arg12 harg12 arg13 harg13 arg14 harg14 hc0 hc1 x0 x1 x2 x3 x4).2.1 S1024x1.size (by sl_kernel_rfl) y
/-- What case A leaves in accumulator 1: its stores read back. -/
def sout0_A_1 (c : Dev nD) (i : grid0.Coords) (arg2 : Memref sig .tc .vmem S128x512 .f32) (harg2 : arg2.IsWhole) (arg3 : Memref sig .tc .vmem S512x1 .i32) (harg3 : arg3.IsWhole) (arg4 : Memref sig .tc .vmem S1x512 .i32) (harg4 : arg4.IsWhole) (arg5 : Memref sig .tc .vmem S1024x128 .bf16) (harg5 : arg5.IsWhole) (arg6 : Memref sig .tc .vmem S1024x1 .i32) (harg6 : arg6.IsWhole) (arg7 : Memref sig .tc .vmem S1x128x2048 .f32) (harg7 : arg7.IsWhole) (arg8 : Memref sig .tc .vmem S1x1024x1 .f32) (harg8 : arg8.IsWhole) (arg9 : Memref sig .tc .vmem S1x1024x1 .f32) (harg9 : arg9.IsWhole) (arg10 : Memref sig .tc .vmem S1x1024x1 .f32) (harg10 : arg10.IsWhole) (arg11 : Memref sig .tc .vmem S128x2048 .f32) (harg11 : arg11.IsWhole) (arg12 : Memref sig .tc .vmem S1024x1 .f32) (harg12 : arg12.IsWhole) (arg13 : Memref sig .tc .vmem S1024x1 .f32) (harg13 : arg13.IsWhole) (arg14 : Memref sig .tc .vmem S1024x1 .f32) (harg14 : arg14.IsWhole) (hc0 : cond0_0 i) (hc1 : ¬cond0_1 i)
    (x0 : Vec F S128x512 .f32) (x1 : Vec F S512x1 .i32) (x2 : Vec F S1x512 .i32) (x3 : Vec F S1024x128 .bf16) (x4 : Vec F S1024x1 .i32)  : Vec F S1024x1 .f32 :=
  VS0_1.read (Elt F) (VS0_1.writes (Elt F) VS0_1.junk (kernelRun0_A c i arg2 harg2 arg3 harg3 arg4 harg4 arg5 harg5 arg6 harg6 arg7 harg7 arg8 harg8 arg9 harg9 arg10 harg10 arg11 harg11 arg12 harg12 arg13 harg13 arg14 harg14 hc0 hc1 x0 x1 x2 x3 x4).2.1)

/-- Case A's stores into accumulator 2 tile it. -/
theorem scover0_A_2 (c : Dev nD) (i : grid0.Coords) (arg2 : Memref sig .tc .vmem S128x512 .f32) (harg2 : arg2.IsWhole) (arg3 : Memref sig .tc .vmem S512x1 .i32) (harg3 : arg3.IsWhole) (arg4 : Memref sig .tc .vmem S1x512 .i32) (harg4 : arg4.IsWhole) (arg5 : Memref sig .tc .vmem S1024x128 .bf16) (harg5 : arg5.IsWhole) (arg6 : Memref sig .tc .vmem S1024x1 .i32) (harg6 : arg6.IsWhole) (arg7 : Memref sig .tc .vmem S1x128x2048 .f32) (harg7 : arg7.IsWhole) (arg8 : Memref sig .tc .vmem S1x1024x1 .f32) (harg8 : arg8.IsWhole) (arg9 : Memref sig .tc .vmem S1x1024x1 .f32) (harg9 : arg9.IsWhole) (arg10 : Memref sig .tc .vmem S1x1024x1 .f32) (harg10 : arg10.IsWhole) (arg11 : Memref sig .tc .vmem S128x2048 .f32) (harg11 : arg11.IsWhole) (arg12 : Memref sig .tc .vmem S1024x1 .f32) (harg12 : arg12.IsWhole) (arg13 : Memref sig .tc .vmem S1024x1 .f32) (harg13 : arg13.IsWhole) (arg14 : Memref sig .tc .vmem S1024x1 .f32) (harg14 : arg14.IsWhole) (hc0 : cond0_0 i) (hc1 : ¬cond0_1 i)
    (x0 : Vec F S128x512 .f32) (x1 : Vec F S512x1 .i32) (x2 : Vec F S1x512 .i32) (x3 : Vec F S1024x128 .bf16) (x4 : Vec F S1024x1 .i32)  (y : S1024x1.Idx) :
    ∃ pc ∈ (kernelRun0_A c i arg2 harg2 arg3 harg3 arg4 harg4 arg5 harg5 arg6 harg6 arg7 harg7 arg8 harg8 arg9 harg9 arg10 harg10 arg11 harg11 arg12 harg12 arg13 harg13 arg14 harg14 hc0 hc1 x0 x1 x2 x3 x4).2.2.1, y ∈ pc.1.set :=
  View.cover_of_tiledL (kernelRun0_A c i arg2 harg2 arg3 harg3 arg4 harg4 arg5 harg5 arg6 harg6 arg7 harg7 arg8 harg8 arg9 harg9 arg10 harg10 arg11 harg11 arg12 harg12 arg13 harg13 arg14 harg14 hc0 hc1 x0 x1 x2 x3 x4).2.2.1 S1024x1.size (by sl_kernel_rfl) y
/-- What case A leaves in accumulator 2: its stores read back. -/
def sout0_A_2 (c : Dev nD) (i : grid0.Coords) (arg2 : Memref sig .tc .vmem S128x512 .f32) (harg2 : arg2.IsWhole) (arg3 : Memref sig .tc .vmem S512x1 .i32) (harg3 : arg3.IsWhole) (arg4 : Memref sig .tc .vmem S1x512 .i32) (harg4 : arg4.IsWhole) (arg5 : Memref sig .tc .vmem S1024x128 .bf16) (harg5 : arg5.IsWhole) (arg6 : Memref sig .tc .vmem S1024x1 .i32) (harg6 : arg6.IsWhole) (arg7 : Memref sig .tc .vmem S1x128x2048 .f32) (harg7 : arg7.IsWhole) (arg8 : Memref sig .tc .vmem S1x1024x1 .f32) (harg8 : arg8.IsWhole) (arg9 : Memref sig .tc .vmem S1x1024x1 .f32) (harg9 : arg9.IsWhole) (arg10 : Memref sig .tc .vmem S1x1024x1 .f32) (harg10 : arg10.IsWhole) (arg11 : Memref sig .tc .vmem S128x2048 .f32) (harg11 : arg11.IsWhole) (arg12 : Memref sig .tc .vmem S1024x1 .f32) (harg12 : arg12.IsWhole) (arg13 : Memref sig .tc .vmem S1024x1 .f32) (harg13 : arg13.IsWhole) (arg14 : Memref sig .tc .vmem S1024x1 .f32) (harg14 : arg14.IsWhole) (hc0 : cond0_0 i) (hc1 : ¬cond0_1 i)
    (x0 : Vec F S128x512 .f32) (x1 : Vec F S512x1 .i32) (x2 : Vec F S1x512 .i32) (x3 : Vec F S1024x128 .bf16) (x4 : Vec F S1024x1 .i32)  : Vec F S1024x1 .f32 :=
  VS0_2.read (Elt F) (VS0_2.writes (Elt F) VS0_2.junk (kernelRun0_A c i arg2 harg2 arg3 harg3 arg4 harg4 arg5 harg5 arg6 harg6 arg7 harg7 arg8 harg8 arg9 harg9 arg10 harg10 arg11 harg11 arg12 harg12 arg13 harg13 arg14 harg14 hc0 hc1 x0 x1 x2 x3 x4).2.2.1)

/-- Case A's stores into accumulator 3 tile it. -/
theorem scover0_A_3 (c : Dev nD) (i : grid0.Coords) (arg2 : Memref sig .tc .vmem S128x512 .f32) (harg2 : arg2.IsWhole) (arg3 : Memref sig .tc .vmem S512x1 .i32) (harg3 : arg3.IsWhole) (arg4 : Memref sig .tc .vmem S1x512 .i32) (harg4 : arg4.IsWhole) (arg5 : Memref sig .tc .vmem S1024x128 .bf16) (harg5 : arg5.IsWhole) (arg6 : Memref sig .tc .vmem S1024x1 .i32) (harg6 : arg6.IsWhole) (arg7 : Memref sig .tc .vmem S1x128x2048 .f32) (harg7 : arg7.IsWhole) (arg8 : Memref sig .tc .vmem S1x1024x1 .f32) (harg8 : arg8.IsWhole) (arg9 : Memref sig .tc .vmem S1x1024x1 .f32) (harg9 : arg9.IsWhole) (arg10 : Memref sig .tc .vmem S1x1024x1 .f32) (harg10 : arg10.IsWhole) (arg11 : Memref sig .tc .vmem S128x2048 .f32) (harg11 : arg11.IsWhole) (arg12 : Memref sig .tc .vmem S1024x1 .f32) (harg12 : arg12.IsWhole) (arg13 : Memref sig .tc .vmem S1024x1 .f32) (harg13 : arg13.IsWhole) (arg14 : Memref sig .tc .vmem S1024x1 .f32) (harg14 : arg14.IsWhole) (hc0 : cond0_0 i) (hc1 : ¬cond0_1 i)
    (x0 : Vec F S128x512 .f32) (x1 : Vec F S512x1 .i32) (x2 : Vec F S1x512 .i32) (x3 : Vec F S1024x128 .bf16) (x4 : Vec F S1024x1 .i32)  (y : S1024x1.Idx) :
    ∃ pc ∈ (kernelRun0_A c i arg2 harg2 arg3 harg3 arg4 harg4 arg5 harg5 arg6 harg6 arg7 harg7 arg8 harg8 arg9 harg9 arg10 harg10 arg11 harg11 arg12 harg12 arg13 harg13 arg14 harg14 hc0 hc1 x0 x1 x2 x3 x4).2.2.2.1, y ∈ pc.1.set :=
  View.cover_of_tiledL (kernelRun0_A c i arg2 harg2 arg3 harg3 arg4 harg4 arg5 harg5 arg6 harg6 arg7 harg7 arg8 harg8 arg9 harg9 arg10 harg10 arg11 harg11 arg12 harg12 arg13 harg13 arg14 harg14 hc0 hc1 x0 x1 x2 x3 x4).2.2.2.1 S1024x1.size (by sl_kernel_rfl) y
/-- What case A leaves in accumulator 3: its stores read back. -/
def sout0_A_3 (c : Dev nD) (i : grid0.Coords) (arg2 : Memref sig .tc .vmem S128x512 .f32) (harg2 : arg2.IsWhole) (arg3 : Memref sig .tc .vmem S512x1 .i32) (harg3 : arg3.IsWhole) (arg4 : Memref sig .tc .vmem S1x512 .i32) (harg4 : arg4.IsWhole) (arg5 : Memref sig .tc .vmem S1024x128 .bf16) (harg5 : arg5.IsWhole) (arg6 : Memref sig .tc .vmem S1024x1 .i32) (harg6 : arg6.IsWhole) (arg7 : Memref sig .tc .vmem S1x128x2048 .f32) (harg7 : arg7.IsWhole) (arg8 : Memref sig .tc .vmem S1x1024x1 .f32) (harg8 : arg8.IsWhole) (arg9 : Memref sig .tc .vmem S1x1024x1 .f32) (harg9 : arg9.IsWhole) (arg10 : Memref sig .tc .vmem S1x1024x1 .f32) (harg10 : arg10.IsWhole) (arg11 : Memref sig .tc .vmem S128x2048 .f32) (harg11 : arg11.IsWhole) (arg12 : Memref sig .tc .vmem S1024x1 .f32) (harg12 : arg12.IsWhole) (arg13 : Memref sig .tc .vmem S1024x1 .f32) (harg13 : arg13.IsWhole) (arg14 : Memref sig .tc .vmem S1024x1 .f32) (harg14 : arg14.IsWhole) (hc0 : cond0_0 i) (hc1 : ¬cond0_1 i)
    (x0 : Vec F S128x512 .f32) (x1 : Vec F S512x1 .i32) (x2 : Vec F S1x512 .i32) (x3 : Vec F S1024x128 .bf16) (x4 : Vec F S1024x1 .i32)  : Vec F S1024x1 .f32 :=
  VS0_3.read (Elt F) (VS0_3.writes (Elt F) VS0_3.junk (kernelRun0_A c i arg2 harg2 arg3 harg3 arg4 harg4 arg5 harg5 arg6 harg6 arg7 harg7 arg8 harg8 arg9 harg9 arg10 harg10 arg11 harg11 arg12 harg12 arg13 harg13 arg14 harg14 hc0 hc1 x0 x1 x2 x3 x4).2.2.2.1)

/-- Case B's stores into accumulator 0 tile it. -/
theorem scover0_B_0 (c : Dev nD) (i : grid0.Coords) (arg2 : Memref sig .tc .vmem S128x512 .f32) (harg2 : arg2.IsWhole) (arg3 : Memref sig .tc .vmem S512x1 .i32) (harg3 : arg3.IsWhole) (arg4 : Memref sig .tc .vmem S1x512 .i32) (harg4 : arg4.IsWhole) (arg5 : Memref sig .tc .vmem S1024x128 .bf16) (harg5 : arg5.IsWhole) (arg6 : Memref sig .tc .vmem S1024x1 .i32) (harg6 : arg6.IsWhole) (arg7 : Memref sig .tc .vmem S1x128x2048 .f32) (harg7 : arg7.IsWhole) (arg8 : Memref sig .tc .vmem S1x1024x1 .f32) (harg8 : arg8.IsWhole) (arg9 : Memref sig .tc .vmem S1x1024x1 .f32) (harg9 : arg9.IsWhole) (arg10 : Memref sig .tc .vmem S1x1024x1 .f32) (harg10 : arg10.IsWhole) (arg11 : Memref sig .tc .vmem S128x2048 .f32) (harg11 : arg11.IsWhole) (arg12 : Memref sig .tc .vmem S1024x1 .f32) (harg12 : arg12.IsWhole) (arg13 : Memref sig .tc .vmem S1024x1 .f32) (harg13 : arg13.IsWhole) (arg14 : Memref sig .tc .vmem S1024x1 .f32) (harg14 : arg14.IsWhole) (hc0 : ¬cond0_0 i) (hc1 : ¬cond0_1 i)
    (x0 : Vec F S128x512 .f32) (x1 : Vec F S512x1 .i32) (x2 : Vec F S1x512 .i32) (x3 : Vec F S1024x128 .bf16) (x4 : Vec F S1024x1 .i32) (xs0 : Vec F S128x2048 .f32) (xs1 : Vec F S1024x1 .f32) (xs2 : Vec F S1024x1 .f32) (xs3 : Vec F S1024x1 .f32) (y : S128x2048.Idx) :
    ∃ pc ∈ (kernelRun0_B c i arg2 harg2 arg3 harg3 arg4 harg4 arg5 harg5 arg6 harg6 arg7 harg7 arg8 harg8 arg9 harg9 arg10 harg10 arg11 harg11 arg12 harg12 arg13 harg13 arg14 harg14 hc0 hc1 x0 x1 x2 x3 x4 xs0 xs1 xs2 xs3).1, y ∈ pc.1.set :=
  View.cover_of_tiledL (kernelRun0_B c i arg2 harg2 arg3 harg3 arg4 harg4 arg5 harg5 arg6 harg6 arg7 harg7 arg8 harg8 arg9 harg9 arg10 harg10 arg11 harg11 arg12 harg12 arg13 harg13 arg14 harg14 hc0 hc1 x0 x1 x2 x3 x4 xs0 xs1 xs2 xs3).1 S128x2048.size (by sl_kernel_rfl) y
/-- What case B leaves in accumulator 0: its stores read back. -/
def sout0_B_0 (c : Dev nD) (i : grid0.Coords) (arg2 : Memref sig .tc .vmem S128x512 .f32) (harg2 : arg2.IsWhole) (arg3 : Memref sig .tc .vmem S512x1 .i32) (harg3 : arg3.IsWhole) (arg4 : Memref sig .tc .vmem S1x512 .i32) (harg4 : arg4.IsWhole) (arg5 : Memref sig .tc .vmem S1024x128 .bf16) (harg5 : arg5.IsWhole) (arg6 : Memref sig .tc .vmem S1024x1 .i32) (harg6 : arg6.IsWhole) (arg7 : Memref sig .tc .vmem S1x128x2048 .f32) (harg7 : arg7.IsWhole) (arg8 : Memref sig .tc .vmem S1x1024x1 .f32) (harg8 : arg8.IsWhole) (arg9 : Memref sig .tc .vmem S1x1024x1 .f32) (harg9 : arg9.IsWhole) (arg10 : Memref sig .tc .vmem S1x1024x1 .f32) (harg10 : arg10.IsWhole) (arg11 : Memref sig .tc .vmem S128x2048 .f32) (harg11 : arg11.IsWhole) (arg12 : Memref sig .tc .vmem S1024x1 .f32) (harg12 : arg12.IsWhole) (arg13 : Memref sig .tc .vmem S1024x1 .f32) (harg13 : arg13.IsWhole) (arg14 : Memref sig .tc .vmem S1024x1 .f32) (harg14 : arg14.IsWhole) (hc0 : ¬cond0_0 i) (hc1 : ¬cond0_1 i)
    (x0 : Vec F S128x512 .f32) (x1 : Vec F S512x1 .i32) (x2 : Vec F S1x512 .i32) (x3 : Vec F S1024x128 .bf16) (x4 : Vec F S1024x1 .i32) (xs0 : Vec F S128x2048 .f32) (xs1 : Vec F S1024x1 .f32) (xs2 : Vec F S1024x1 .f32) (xs3 : Vec F S1024x1 .f32) : Vec F S128x2048 .f32 :=
  VS0_0.read (Elt F) (VS0_0.writes (Elt F) VS0_0.junk (kernelRun0_B c i arg2 harg2 arg3 harg3 arg4 harg4 arg5 harg5 arg6 harg6 arg7 harg7 arg8 harg8 arg9 harg9 arg10 harg10 arg11 harg11 arg12 harg12 arg13 harg13 arg14 harg14 hc0 hc1 x0 x1 x2 x3 x4 xs0 xs1 xs2 xs3).1)

/-- Case B's stores into accumulator 1 tile it. -/
theorem scover0_B_1 (c : Dev nD) (i : grid0.Coords) (arg2 : Memref sig .tc .vmem S128x512 .f32) (harg2 : arg2.IsWhole) (arg3 : Memref sig .tc .vmem S512x1 .i32) (harg3 : arg3.IsWhole) (arg4 : Memref sig .tc .vmem S1x512 .i32) (harg4 : arg4.IsWhole) (arg5 : Memref sig .tc .vmem S1024x128 .bf16) (harg5 : arg5.IsWhole) (arg6 : Memref sig .tc .vmem S1024x1 .i32) (harg6 : arg6.IsWhole) (arg7 : Memref sig .tc .vmem S1x128x2048 .f32) (harg7 : arg7.IsWhole) (arg8 : Memref sig .tc .vmem S1x1024x1 .f32) (harg8 : arg8.IsWhole) (arg9 : Memref sig .tc .vmem S1x1024x1 .f32) (harg9 : arg9.IsWhole) (arg10 : Memref sig .tc .vmem S1x1024x1 .f32) (harg10 : arg10.IsWhole) (arg11 : Memref sig .tc .vmem S128x2048 .f32) (harg11 : arg11.IsWhole) (arg12 : Memref sig .tc .vmem S1024x1 .f32) (harg12 : arg12.IsWhole) (arg13 : Memref sig .tc .vmem S1024x1 .f32) (harg13 : arg13.IsWhole) (arg14 : Memref sig .tc .vmem S1024x1 .f32) (harg14 : arg14.IsWhole) (hc0 : ¬cond0_0 i) (hc1 : ¬cond0_1 i)
    (x0 : Vec F S128x512 .f32) (x1 : Vec F S512x1 .i32) (x2 : Vec F S1x512 .i32) (x3 : Vec F S1024x128 .bf16) (x4 : Vec F S1024x1 .i32) (xs0 : Vec F S128x2048 .f32) (xs1 : Vec F S1024x1 .f32) (xs2 : Vec F S1024x1 .f32) (xs3 : Vec F S1024x1 .f32) (y : S1024x1.Idx) :
    ∃ pc ∈ (kernelRun0_B c i arg2 harg2 arg3 harg3 arg4 harg4 arg5 harg5 arg6 harg6 arg7 harg7 arg8 harg8 arg9 harg9 arg10 harg10 arg11 harg11 arg12 harg12 arg13 harg13 arg14 harg14 hc0 hc1 x0 x1 x2 x3 x4 xs0 xs1 xs2 xs3).2.1, y ∈ pc.1.set :=
  View.cover_of_tiledL (kernelRun0_B c i arg2 harg2 arg3 harg3 arg4 harg4 arg5 harg5 arg6 harg6 arg7 harg7 arg8 harg8 arg9 harg9 arg10 harg10 arg11 harg11 arg12 harg12 arg13 harg13 arg14 harg14 hc0 hc1 x0 x1 x2 x3 x4 xs0 xs1 xs2 xs3).2.1 S1024x1.size (by sl_kernel_rfl) y
/-- What case B leaves in accumulator 1: its stores read back. -/
def sout0_B_1 (c : Dev nD) (i : grid0.Coords) (arg2 : Memref sig .tc .vmem S128x512 .f32) (harg2 : arg2.IsWhole) (arg3 : Memref sig .tc .vmem S512x1 .i32) (harg3 : arg3.IsWhole) (arg4 : Memref sig .tc .vmem S1x512 .i32) (harg4 : arg4.IsWhole) (arg5 : Memref sig .tc .vmem S1024x128 .bf16) (harg5 : arg5.IsWhole) (arg6 : Memref sig .tc .vmem S1024x1 .i32) (harg6 : arg6.IsWhole) (arg7 : Memref sig .tc .vmem S1x128x2048 .f32) (harg7 : arg7.IsWhole) (arg8 : Memref sig .tc .vmem S1x1024x1 .f32) (harg8 : arg8.IsWhole) (arg9 : Memref sig .tc .vmem S1x1024x1 .f32) (harg9 : arg9.IsWhole) (arg10 : Memref sig .tc .vmem S1x1024x1 .f32) (harg10 : arg10.IsWhole) (arg11 : Memref sig .tc .vmem S128x2048 .f32) (harg11 : arg11.IsWhole) (arg12 : Memref sig .tc .vmem S1024x1 .f32) (harg12 : arg12.IsWhole) (arg13 : Memref sig .tc .vmem S1024x1 .f32) (harg13 : arg13.IsWhole) (arg14 : Memref sig .tc .vmem S1024x1 .f32) (harg14 : arg14.IsWhole) (hc0 : ¬cond0_0 i) (hc1 : ¬cond0_1 i)
    (x0 : Vec F S128x512 .f32) (x1 : Vec F S512x1 .i32) (x2 : Vec F S1x512 .i32) (x3 : Vec F S1024x128 .bf16) (x4 : Vec F S1024x1 .i32) (xs0 : Vec F S128x2048 .f32) (xs1 : Vec F S1024x1 .f32) (xs2 : Vec F S1024x1 .f32) (xs3 : Vec F S1024x1 .f32) : Vec F S1024x1 .f32 :=
  VS0_1.read (Elt F) (VS0_1.writes (Elt F) VS0_1.junk (kernelRun0_B c i arg2 harg2 arg3 harg3 arg4 harg4 arg5 harg5 arg6 harg6 arg7 harg7 arg8 harg8 arg9 harg9 arg10 harg10 arg11 harg11 arg12 harg12 arg13 harg13 arg14 harg14 hc0 hc1 x0 x1 x2 x3 x4 xs0 xs1 xs2 xs3).2.1)

/-- Case B's stores into accumulator 2 tile it. -/
theorem scover0_B_2 (c : Dev nD) (i : grid0.Coords) (arg2 : Memref sig .tc .vmem S128x512 .f32) (harg2 : arg2.IsWhole) (arg3 : Memref sig .tc .vmem S512x1 .i32) (harg3 : arg3.IsWhole) (arg4 : Memref sig .tc .vmem S1x512 .i32) (harg4 : arg4.IsWhole) (arg5 : Memref sig .tc .vmem S1024x128 .bf16) (harg5 : arg5.IsWhole) (arg6 : Memref sig .tc .vmem S1024x1 .i32) (harg6 : arg6.IsWhole) (arg7 : Memref sig .tc .vmem S1x128x2048 .f32) (harg7 : arg7.IsWhole) (arg8 : Memref sig .tc .vmem S1x1024x1 .f32) (harg8 : arg8.IsWhole) (arg9 : Memref sig .tc .vmem S1x1024x1 .f32) (harg9 : arg9.IsWhole) (arg10 : Memref sig .tc .vmem S1x1024x1 .f32) (harg10 : arg10.IsWhole) (arg11 : Memref sig .tc .vmem S128x2048 .f32) (harg11 : arg11.IsWhole) (arg12 : Memref sig .tc .vmem S1024x1 .f32) (harg12 : arg12.IsWhole) (arg13 : Memref sig .tc .vmem S1024x1 .f32) (harg13 : arg13.IsWhole) (arg14 : Memref sig .tc .vmem S1024x1 .f32) (harg14 : arg14.IsWhole) (hc0 : ¬cond0_0 i) (hc1 : ¬cond0_1 i)
    (x0 : Vec F S128x512 .f32) (x1 : Vec F S512x1 .i32) (x2 : Vec F S1x512 .i32) (x3 : Vec F S1024x128 .bf16) (x4 : Vec F S1024x1 .i32) (xs0 : Vec F S128x2048 .f32) (xs1 : Vec F S1024x1 .f32) (xs2 : Vec F S1024x1 .f32) (xs3 : Vec F S1024x1 .f32) (y : S1024x1.Idx) :
    ∃ pc ∈ (kernelRun0_B c i arg2 harg2 arg3 harg3 arg4 harg4 arg5 harg5 arg6 harg6 arg7 harg7 arg8 harg8 arg9 harg9 arg10 harg10 arg11 harg11 arg12 harg12 arg13 harg13 arg14 harg14 hc0 hc1 x0 x1 x2 x3 x4 xs0 xs1 xs2 xs3).2.2.1, y ∈ pc.1.set :=
  View.cover_of_tiledL (kernelRun0_B c i arg2 harg2 arg3 harg3 arg4 harg4 arg5 harg5 arg6 harg6 arg7 harg7 arg8 harg8 arg9 harg9 arg10 harg10 arg11 harg11 arg12 harg12 arg13 harg13 arg14 harg14 hc0 hc1 x0 x1 x2 x3 x4 xs0 xs1 xs2 xs3).2.2.1 S1024x1.size (by sl_kernel_rfl) y
/-- What case B leaves in accumulator 2: its stores read back. -/
def sout0_B_2 (c : Dev nD) (i : grid0.Coords) (arg2 : Memref sig .tc .vmem S128x512 .f32) (harg2 : arg2.IsWhole) (arg3 : Memref sig .tc .vmem S512x1 .i32) (harg3 : arg3.IsWhole) (arg4 : Memref sig .tc .vmem S1x512 .i32) (harg4 : arg4.IsWhole) (arg5 : Memref sig .tc .vmem S1024x128 .bf16) (harg5 : arg5.IsWhole) (arg6 : Memref sig .tc .vmem S1024x1 .i32) (harg6 : arg6.IsWhole) (arg7 : Memref sig .tc .vmem S1x128x2048 .f32) (harg7 : arg7.IsWhole) (arg8 : Memref sig .tc .vmem S1x1024x1 .f32) (harg8 : arg8.IsWhole) (arg9 : Memref sig .tc .vmem S1x1024x1 .f32) (harg9 : arg9.IsWhole) (arg10 : Memref sig .tc .vmem S1x1024x1 .f32) (harg10 : arg10.IsWhole) (arg11 : Memref sig .tc .vmem S128x2048 .f32) (harg11 : arg11.IsWhole) (arg12 : Memref sig .tc .vmem S1024x1 .f32) (harg12 : arg12.IsWhole) (arg13 : Memref sig .tc .vmem S1024x1 .f32) (harg13 : arg13.IsWhole) (arg14 : Memref sig .tc .vmem S1024x1 .f32) (harg14 : arg14.IsWhole) (hc0 : ¬cond0_0 i) (hc1 : ¬cond0_1 i)
    (x0 : Vec F S128x512 .f32) (x1 : Vec F S512x1 .i32) (x2 : Vec F S1x512 .i32) (x3 : Vec F S1024x128 .bf16) (x4 : Vec F S1024x1 .i32) (xs0 : Vec F S128x2048 .f32) (xs1 : Vec F S1024x1 .f32) (xs2 : Vec F S1024x1 .f32) (xs3 : Vec F S1024x1 .f32) : Vec F S1024x1 .f32 :=
  VS0_2.read (Elt F) (VS0_2.writes (Elt F) VS0_2.junk (kernelRun0_B c i arg2 harg2 arg3 harg3 arg4 harg4 arg5 harg5 arg6 harg6 arg7 harg7 arg8 harg8 arg9 harg9 arg10 harg10 arg11 harg11 arg12 harg12 arg13 harg13 arg14 harg14 hc0 hc1 x0 x1 x2 x3 x4 xs0 xs1 xs2 xs3).2.2.1)

/-- Case B's stores into accumulator 3 tile it. -/
theorem scover0_B_3 (c : Dev nD) (i : grid0.Coords) (arg2 : Memref sig .tc .vmem S128x512 .f32) (harg2 : arg2.IsWhole) (arg3 : Memref sig .tc .vmem S512x1 .i32) (harg3 : arg3.IsWhole) (arg4 : Memref sig .tc .vmem S1x512 .i32) (harg4 : arg4.IsWhole) (arg5 : Memref sig .tc .vmem S1024x128 .bf16) (harg5 : arg5.IsWhole) (arg6 : Memref sig .tc .vmem S1024x1 .i32) (harg6 : arg6.IsWhole) (arg7 : Memref sig .tc .vmem S1x128x2048 .f32) (harg7 : arg7.IsWhole) (arg8 : Memref sig .tc .vmem S1x1024x1 .f32) (harg8 : arg8.IsWhole) (arg9 : Memref sig .tc .vmem S1x1024x1 .f32) (harg9 : arg9.IsWhole) (arg10 : Memref sig .tc .vmem S1x1024x1 .f32) (harg10 : arg10.IsWhole) (arg11 : Memref sig .tc .vmem S128x2048 .f32) (harg11 : arg11.IsWhole) (arg12 : Memref sig .tc .vmem S1024x1 .f32) (harg12 : arg12.IsWhole) (arg13 : Memref sig .tc .vmem S1024x1 .f32) (harg13 : arg13.IsWhole) (arg14 : Memref sig .tc .vmem S1024x1 .f32) (harg14 : arg14.IsWhole) (hc0 : ¬cond0_0 i) (hc1 : ¬cond0_1 i)
    (x0 : Vec F S128x512 .f32) (x1 : Vec F S512x1 .i32) (x2 : Vec F S1x512 .i32) (x3 : Vec F S1024x128 .bf16) (x4 : Vec F S1024x1 .i32) (xs0 : Vec F S128x2048 .f32) (xs1 : Vec F S1024x1 .f32) (xs2 : Vec F S1024x1 .f32) (xs3 : Vec F S1024x1 .f32) (y : S1024x1.Idx) :
    ∃ pc ∈ (kernelRun0_B c i arg2 harg2 arg3 harg3 arg4 harg4 arg5 harg5 arg6 harg6 arg7 harg7 arg8 harg8 arg9 harg9 arg10 harg10 arg11 harg11 arg12 harg12 arg13 harg13 arg14 harg14 hc0 hc1 x0 x1 x2 x3 x4 xs0 xs1 xs2 xs3).2.2.2.1, y ∈ pc.1.set :=
  View.cover_of_tiledL (kernelRun0_B c i arg2 harg2 arg3 harg3 arg4 harg4 arg5 harg5 arg6 harg6 arg7 harg7 arg8 harg8 arg9 harg9 arg10 harg10 arg11 harg11 arg12 harg12 arg13 harg13 arg14 harg14 hc0 hc1 x0 x1 x2 x3 x4 xs0 xs1 xs2 xs3).2.2.2.1 S1024x1.size (by sl_kernel_rfl) y
/-- What case B leaves in accumulator 3: its stores read back. -/
def sout0_B_3 (c : Dev nD) (i : grid0.Coords) (arg2 : Memref sig .tc .vmem S128x512 .f32) (harg2 : arg2.IsWhole) (arg3 : Memref sig .tc .vmem S512x1 .i32) (harg3 : arg3.IsWhole) (arg4 : Memref sig .tc .vmem S1x512 .i32) (harg4 : arg4.IsWhole) (arg5 : Memref sig .tc .vmem S1024x128 .bf16) (harg5 : arg5.IsWhole) (arg6 : Memref sig .tc .vmem S1024x1 .i32) (harg6 : arg6.IsWhole) (arg7 : Memref sig .tc .vmem S1x128x2048 .f32) (harg7 : arg7.IsWhole) (arg8 : Memref sig .tc .vmem S1x1024x1 .f32) (harg8 : arg8.IsWhole) (arg9 : Memref sig .tc .vmem S1x1024x1 .f32) (harg9 : arg9.IsWhole) (arg10 : Memref sig .tc .vmem S1x1024x1 .f32) (harg10 : arg10.IsWhole) (arg11 : Memref sig .tc .vmem S128x2048 .f32) (harg11 : arg11.IsWhole) (arg12 : Memref sig .tc .vmem S1024x1 .f32) (harg12 : arg12.IsWhole) (arg13 : Memref sig .tc .vmem S1024x1 .f32) (harg13 : arg13.IsWhole) (arg14 : Memref sig .tc .vmem S1024x1 .f32) (harg14 : arg14.IsWhole) (hc0 : ¬cond0_0 i) (hc1 : ¬cond0_1 i)
    (x0 : Vec F S128x512 .f32) (x1 : Vec F S512x1 .i32) (x2 : Vec F S1x512 .i32) (x3 : Vec F S1024x128 .bf16) (x4 : Vec F S1024x1 .i32) (xs0 : Vec F S128x2048 .f32) (xs1 : Vec F S1024x1 .f32) (xs2 : Vec F S1024x1 .f32) (xs3 : Vec F S1024x1 .f32) : Vec F S1024x1 .f32 :=
  VS0_3.read (Elt F) (VS0_3.writes (Elt F) VS0_3.junk (kernelRun0_B c i arg2 harg2 arg3 harg3 arg4 harg4 arg5 harg5 arg6 harg6 arg7 harg7 arg8 harg8 arg9 harg9 arg10 harg10 arg11 harg11 arg12 harg12 arg13 harg13 arg14 harg14 hc0 hc1 x0 x1 x2 x3 x4 xs0 xs1 xs2 xs3).2.2.2.1)

/-- Case C's stores into accumulator 0 tile it. -/
theorem scover0_C_0 (c : Dev nD) (i : grid0.Coords) (arg2 : Memref sig .tc .vmem S128x512 .f32) (harg2 : arg2.IsWhole) (arg3 : Memref sig .tc .vmem S512x1 .i32) (harg3 : arg3.IsWhole) (arg4 : Memref sig .tc .vmem S1x512 .i32) (harg4 : arg4.IsWhole) (arg5 : Memref sig .tc .vmem S1024x128 .bf16) (harg5 : arg5.IsWhole) (arg6 : Memref sig .tc .vmem S1024x1 .i32) (harg6 : arg6.IsWhole) (arg7 : Memref sig .tc .vmem S1x128x2048 .f32) (harg7 : arg7.IsWhole) (arg8 : Memref sig .tc .vmem S1x1024x1 .f32) (harg8 : arg8.IsWhole) (arg9 : Memref sig .tc .vmem S1x1024x1 .f32) (harg9 : arg9.IsWhole) (arg10 : Memref sig .tc .vmem S1x1024x1 .f32) (harg10 : arg10.IsWhole) (arg11 : Memref sig .tc .vmem S128x2048 .f32) (harg11 : arg11.IsWhole) (arg12 : Memref sig .tc .vmem S1024x1 .f32) (harg12 : arg12.IsWhole) (arg13 : Memref sig .tc .vmem S1024x1 .f32) (harg13 : arg13.IsWhole) (arg14 : Memref sig .tc .vmem S1024x1 .f32) (harg14 : arg14.IsWhole) (hc0 : ¬cond0_0 i) (hc1 : cond0_1 i)
    (x0 : Vec F S128x512 .f32) (x1 : Vec F S512x1 .i32) (x2 : Vec F S1x512 .i32) (x3 : Vec F S1024x128 .bf16) (x4 : Vec F S1024x1 .i32) (xs0 : Vec F S128x2048 .f32) (xs1 : Vec F S1024x1 .f32) (xs2 : Vec F S1024x1 .f32) (xs3 : Vec F S1024x1 .f32) (y : S128x2048.Idx) :
    ∃ pc ∈ (kernelRun0_C c i arg2 harg2 arg3 harg3 arg4 harg4 arg5 harg5 arg6 harg6 arg7 harg7 arg8 harg8 arg9 harg9 arg10 harg10 arg11 harg11 arg12 harg12 arg13 harg13 arg14 harg14 hc0 hc1 x0 x1 x2 x3 x4 xs0 xs1 xs2 xs3).2.2.2.2.1, y ∈ pc.1.set :=
  View.cover_of_tiledL (kernelRun0_C c i arg2 harg2 arg3 harg3 arg4 harg4 arg5 harg5 arg6 harg6 arg7 harg7 arg8 harg8 arg9 harg9 arg10 harg10 arg11 harg11 arg12 harg12 arg13 harg13 arg14 harg14 hc0 hc1 x0 x1 x2 x3 x4 xs0 xs1 xs2 xs3).2.2.2.2.1 S128x2048.size (by sl_kernel_rfl) y
/-- What case C leaves in accumulator 0: its stores read back. -/
def sout0_C_0 (c : Dev nD) (i : grid0.Coords) (arg2 : Memref sig .tc .vmem S128x512 .f32) (harg2 : arg2.IsWhole) (arg3 : Memref sig .tc .vmem S512x1 .i32) (harg3 : arg3.IsWhole) (arg4 : Memref sig .tc .vmem S1x512 .i32) (harg4 : arg4.IsWhole) (arg5 : Memref sig .tc .vmem S1024x128 .bf16) (harg5 : arg5.IsWhole) (arg6 : Memref sig .tc .vmem S1024x1 .i32) (harg6 : arg6.IsWhole) (arg7 : Memref sig .tc .vmem S1x128x2048 .f32) (harg7 : arg7.IsWhole) (arg8 : Memref sig .tc .vmem S1x1024x1 .f32) (harg8 : arg8.IsWhole) (arg9 : Memref sig .tc .vmem S1x1024x1 .f32) (harg9 : arg9.IsWhole) (arg10 : Memref sig .tc .vmem S1x1024x1 .f32) (harg10 : arg10.IsWhole) (arg11 : Memref sig .tc .vmem S128x2048 .f32) (harg11 : arg11.IsWhole) (arg12 : Memref sig .tc .vmem S1024x1 .f32) (harg12 : arg12.IsWhole) (arg13 : Memref sig .tc .vmem S1024x1 .f32) (harg13 : arg13.IsWhole) (arg14 : Memref sig .tc .vmem S1024x1 .f32) (harg14 : arg14.IsWhole) (hc0 : ¬cond0_0 i) (hc1 : cond0_1 i)
    (x0 : Vec F S128x512 .f32) (x1 : Vec F S512x1 .i32) (x2 : Vec F S1x512 .i32) (x3 : Vec F S1024x128 .bf16) (x4 : Vec F S1024x1 .i32) (xs0 : Vec F S128x2048 .f32) (xs1 : Vec F S1024x1 .f32) (xs2 : Vec F S1024x1 .f32) (xs3 : Vec F S1024x1 .f32) : Vec F S128x2048 .f32 :=
  VS0_0.read (Elt F) (VS0_0.writes (Elt F) VS0_0.junk (kernelRun0_C c i arg2 harg2 arg3 harg3 arg4 harg4 arg5 harg5 arg6 harg6 arg7 harg7 arg8 harg8 arg9 harg9 arg10 harg10 arg11 harg11 arg12 harg12 arg13 harg13 arg14 harg14 hc0 hc1 x0 x1 x2 x3 x4 xs0 xs1 xs2 xs3).2.2.2.2.1)

/-- Case C's stores into accumulator 1 tile it. -/
theorem scover0_C_1 (c : Dev nD) (i : grid0.Coords) (arg2 : Memref sig .tc .vmem S128x512 .f32) (harg2 : arg2.IsWhole) (arg3 : Memref sig .tc .vmem S512x1 .i32) (harg3 : arg3.IsWhole) (arg4 : Memref sig .tc .vmem S1x512 .i32) (harg4 : arg4.IsWhole) (arg5 : Memref sig .tc .vmem S1024x128 .bf16) (harg5 : arg5.IsWhole) (arg6 : Memref sig .tc .vmem S1024x1 .i32) (harg6 : arg6.IsWhole) (arg7 : Memref sig .tc .vmem S1x128x2048 .f32) (harg7 : arg7.IsWhole) (arg8 : Memref sig .tc .vmem S1x1024x1 .f32) (harg8 : arg8.IsWhole) (arg9 : Memref sig .tc .vmem S1x1024x1 .f32) (harg9 : arg9.IsWhole) (arg10 : Memref sig .tc .vmem S1x1024x1 .f32) (harg10 : arg10.IsWhole) (arg11 : Memref sig .tc .vmem S128x2048 .f32) (harg11 : arg11.IsWhole) (arg12 : Memref sig .tc .vmem S1024x1 .f32) (harg12 : arg12.IsWhole) (arg13 : Memref sig .tc .vmem S1024x1 .f32) (harg13 : arg13.IsWhole) (arg14 : Memref sig .tc .vmem S1024x1 .f32) (harg14 : arg14.IsWhole) (hc0 : ¬cond0_0 i) (hc1 : cond0_1 i)
    (x0 : Vec F S128x512 .f32) (x1 : Vec F S512x1 .i32) (x2 : Vec F S1x512 .i32) (x3 : Vec F S1024x128 .bf16) (x4 : Vec F S1024x1 .i32) (xs0 : Vec F S128x2048 .f32) (xs1 : Vec F S1024x1 .f32) (xs2 : Vec F S1024x1 .f32) (xs3 : Vec F S1024x1 .f32) (y : S1024x1.Idx) :
    ∃ pc ∈ (kernelRun0_C c i arg2 harg2 arg3 harg3 arg4 harg4 arg5 harg5 arg6 harg6 arg7 harg7 arg8 harg8 arg9 harg9 arg10 harg10 arg11 harg11 arg12 harg12 arg13 harg13 arg14 harg14 hc0 hc1 x0 x1 x2 x3 x4 xs0 xs1 xs2 xs3).2.2.2.2.2.1, y ∈ pc.1.set :=
  View.cover_of_tiledL (kernelRun0_C c i arg2 harg2 arg3 harg3 arg4 harg4 arg5 harg5 arg6 harg6 arg7 harg7 arg8 harg8 arg9 harg9 arg10 harg10 arg11 harg11 arg12 harg12 arg13 harg13 arg14 harg14 hc0 hc1 x0 x1 x2 x3 x4 xs0 xs1 xs2 xs3).2.2.2.2.2.1 S1024x1.size (by sl_kernel_rfl) y
/-- What case C leaves in accumulator 1: its stores read back. -/
def sout0_C_1 (c : Dev nD) (i : grid0.Coords) (arg2 : Memref sig .tc .vmem S128x512 .f32) (harg2 : arg2.IsWhole) (arg3 : Memref sig .tc .vmem S512x1 .i32) (harg3 : arg3.IsWhole) (arg4 : Memref sig .tc .vmem S1x512 .i32) (harg4 : arg4.IsWhole) (arg5 : Memref sig .tc .vmem S1024x128 .bf16) (harg5 : arg5.IsWhole) (arg6 : Memref sig .tc .vmem S1024x1 .i32) (harg6 : arg6.IsWhole) (arg7 : Memref sig .tc .vmem S1x128x2048 .f32) (harg7 : arg7.IsWhole) (arg8 : Memref sig .tc .vmem S1x1024x1 .f32) (harg8 : arg8.IsWhole) (arg9 : Memref sig .tc .vmem S1x1024x1 .f32) (harg9 : arg9.IsWhole) (arg10 : Memref sig .tc .vmem S1x1024x1 .f32) (harg10 : arg10.IsWhole) (arg11 : Memref sig .tc .vmem S128x2048 .f32) (harg11 : arg11.IsWhole) (arg12 : Memref sig .tc .vmem S1024x1 .f32) (harg12 : arg12.IsWhole) (arg13 : Memref sig .tc .vmem S1024x1 .f32) (harg13 : arg13.IsWhole) (arg14 : Memref sig .tc .vmem S1024x1 .f32) (harg14 : arg14.IsWhole) (hc0 : ¬cond0_0 i) (hc1 : cond0_1 i)
    (x0 : Vec F S128x512 .f32) (x1 : Vec F S512x1 .i32) (x2 : Vec F S1x512 .i32) (x3 : Vec F S1024x128 .bf16) (x4 : Vec F S1024x1 .i32) (xs0 : Vec F S128x2048 .f32) (xs1 : Vec F S1024x1 .f32) (xs2 : Vec F S1024x1 .f32) (xs3 : Vec F S1024x1 .f32) : Vec F S1024x1 .f32 :=
  VS0_1.read (Elt F) (VS0_1.writes (Elt F) VS0_1.junk (kernelRun0_C c i arg2 harg2 arg3 harg3 arg4 harg4 arg5 harg5 arg6 harg6 arg7 harg7 arg8 harg8 arg9 harg9 arg10 harg10 arg11 harg11 arg12 harg12 arg13 harg13 arg14 harg14 hc0 hc1 x0 x1 x2 x3 x4 xs0 xs1 xs2 xs3).2.2.2.2.2.1)

/-- Case C's stores into accumulator 2 tile it. -/
theorem scover0_C_2 (c : Dev nD) (i : grid0.Coords) (arg2 : Memref sig .tc .vmem S128x512 .f32) (harg2 : arg2.IsWhole) (arg3 : Memref sig .tc .vmem S512x1 .i32) (harg3 : arg3.IsWhole) (arg4 : Memref sig .tc .vmem S1x512 .i32) (harg4 : arg4.IsWhole) (arg5 : Memref sig .tc .vmem S1024x128 .bf16) (harg5 : arg5.IsWhole) (arg6 : Memref sig .tc .vmem S1024x1 .i32) (harg6 : arg6.IsWhole) (arg7 : Memref sig .tc .vmem S1x128x2048 .f32) (harg7 : arg7.IsWhole) (arg8 : Memref sig .tc .vmem S1x1024x1 .f32) (harg8 : arg8.IsWhole) (arg9 : Memref sig .tc .vmem S1x1024x1 .f32) (harg9 : arg9.IsWhole) (arg10 : Memref sig .tc .vmem S1x1024x1 .f32) (harg10 : arg10.IsWhole) (arg11 : Memref sig .tc .vmem S128x2048 .f32) (harg11 : arg11.IsWhole) (arg12 : Memref sig .tc .vmem S1024x1 .f32) (harg12 : arg12.IsWhole) (arg13 : Memref sig .tc .vmem S1024x1 .f32) (harg13 : arg13.IsWhole) (arg14 : Memref sig .tc .vmem S1024x1 .f32) (harg14 : arg14.IsWhole) (hc0 : ¬cond0_0 i) (hc1 : cond0_1 i)
    (x0 : Vec F S128x512 .f32) (x1 : Vec F S512x1 .i32) (x2 : Vec F S1x512 .i32) (x3 : Vec F S1024x128 .bf16) (x4 : Vec F S1024x1 .i32) (xs0 : Vec F S128x2048 .f32) (xs1 : Vec F S1024x1 .f32) (xs2 : Vec F S1024x1 .f32) (xs3 : Vec F S1024x1 .f32) (y : S1024x1.Idx) :
    ∃ pc ∈ (kernelRun0_C c i arg2 harg2 arg3 harg3 arg4 harg4 arg5 harg5 arg6 harg6 arg7 harg7 arg8 harg8 arg9 harg9 arg10 harg10 arg11 harg11 arg12 harg12 arg13 harg13 arg14 harg14 hc0 hc1 x0 x1 x2 x3 x4 xs0 xs1 xs2 xs3).2.2.2.2.2.2.1, y ∈ pc.1.set :=
  View.cover_of_tiledL (kernelRun0_C c i arg2 harg2 arg3 harg3 arg4 harg4 arg5 harg5 arg6 harg6 arg7 harg7 arg8 harg8 arg9 harg9 arg10 harg10 arg11 harg11 arg12 harg12 arg13 harg13 arg14 harg14 hc0 hc1 x0 x1 x2 x3 x4 xs0 xs1 xs2 xs3).2.2.2.2.2.2.1 S1024x1.size (by sl_kernel_rfl) y
/-- What case C leaves in accumulator 2: its stores read back. -/
def sout0_C_2 (c : Dev nD) (i : grid0.Coords) (arg2 : Memref sig .tc .vmem S128x512 .f32) (harg2 : arg2.IsWhole) (arg3 : Memref sig .tc .vmem S512x1 .i32) (harg3 : arg3.IsWhole) (arg4 : Memref sig .tc .vmem S1x512 .i32) (harg4 : arg4.IsWhole) (arg5 : Memref sig .tc .vmem S1024x128 .bf16) (harg5 : arg5.IsWhole) (arg6 : Memref sig .tc .vmem S1024x1 .i32) (harg6 : arg6.IsWhole) (arg7 : Memref sig .tc .vmem S1x128x2048 .f32) (harg7 : arg7.IsWhole) (arg8 : Memref sig .tc .vmem S1x1024x1 .f32) (harg8 : arg8.IsWhole) (arg9 : Memref sig .tc .vmem S1x1024x1 .f32) (harg9 : arg9.IsWhole) (arg10 : Memref sig .tc .vmem S1x1024x1 .f32) (harg10 : arg10.IsWhole) (arg11 : Memref sig .tc .vmem S128x2048 .f32) (harg11 : arg11.IsWhole) (arg12 : Memref sig .tc .vmem S1024x1 .f32) (harg12 : arg12.IsWhole) (arg13 : Memref sig .tc .vmem S1024x1 .f32) (harg13 : arg13.IsWhole) (arg14 : Memref sig .tc .vmem S1024x1 .f32) (harg14 : arg14.IsWhole) (hc0 : ¬cond0_0 i) (hc1 : cond0_1 i)
    (x0 : Vec F S128x512 .f32) (x1 : Vec F S512x1 .i32) (x2 : Vec F S1x512 .i32) (x3 : Vec F S1024x128 .bf16) (x4 : Vec F S1024x1 .i32) (xs0 : Vec F S128x2048 .f32) (xs1 : Vec F S1024x1 .f32) (xs2 : Vec F S1024x1 .f32) (xs3 : Vec F S1024x1 .f32) : Vec F S1024x1 .f32 :=
  VS0_2.read (Elt F) (VS0_2.writes (Elt F) VS0_2.junk (kernelRun0_C c i arg2 harg2 arg3 harg3 arg4 harg4 arg5 harg5 arg6 harg6 arg7 harg7 arg8 harg8 arg9 harg9 arg10 harg10 arg11 harg11 arg12 harg12 arg13 harg13 arg14 harg14 hc0 hc1 x0 x1 x2 x3 x4 xs0 xs1 xs2 xs3).2.2.2.2.2.2.1)

/-- Case C's stores into accumulator 3 tile it. -/
theorem scover0_C_3 (c : Dev nD) (i : grid0.Coords) (arg2 : Memref sig .tc .vmem S128x512 .f32) (harg2 : arg2.IsWhole) (arg3 : Memref sig .tc .vmem S512x1 .i32) (harg3 : arg3.IsWhole) (arg4 : Memref sig .tc .vmem S1x512 .i32) (harg4 : arg4.IsWhole) (arg5 : Memref sig .tc .vmem S1024x128 .bf16) (harg5 : arg5.IsWhole) (arg6 : Memref sig .tc .vmem S1024x1 .i32) (harg6 : arg6.IsWhole) (arg7 : Memref sig .tc .vmem S1x128x2048 .f32) (harg7 : arg7.IsWhole) (arg8 : Memref sig .tc .vmem S1x1024x1 .f32) (harg8 : arg8.IsWhole) (arg9 : Memref sig .tc .vmem S1x1024x1 .f32) (harg9 : arg9.IsWhole) (arg10 : Memref sig .tc .vmem S1x1024x1 .f32) (harg10 : arg10.IsWhole) (arg11 : Memref sig .tc .vmem S128x2048 .f32) (harg11 : arg11.IsWhole) (arg12 : Memref sig .tc .vmem S1024x1 .f32) (harg12 : arg12.IsWhole) (arg13 : Memref sig .tc .vmem S1024x1 .f32) (harg13 : arg13.IsWhole) (arg14 : Memref sig .tc .vmem S1024x1 .f32) (harg14 : arg14.IsWhole) (hc0 : ¬cond0_0 i) (hc1 : cond0_1 i)
    (x0 : Vec F S128x512 .f32) (x1 : Vec F S512x1 .i32) (x2 : Vec F S1x512 .i32) (x3 : Vec F S1024x128 .bf16) (x4 : Vec F S1024x1 .i32) (xs0 : Vec F S128x2048 .f32) (xs1 : Vec F S1024x1 .f32) (xs2 : Vec F S1024x1 .f32) (xs3 : Vec F S1024x1 .f32) (y : S1024x1.Idx) :
    ∃ pc ∈ (kernelRun0_C c i arg2 harg2 arg3 harg3 arg4 harg4 arg5 harg5 arg6 harg6 arg7 harg7 arg8 harg8 arg9 harg9 arg10 harg10 arg11 harg11 arg12 harg12 arg13 harg13 arg14 harg14 hc0 hc1 x0 x1 x2 x3 x4 xs0 xs1 xs2 xs3).2.2.2.2.2.2.2.1, y ∈ pc.1.set :=
  View.cover_of_tiledL (kernelRun0_C c i arg2 harg2 arg3 harg3 arg4 harg4 arg5 harg5 arg6 harg6 arg7 harg7 arg8 harg8 arg9 harg9 arg10 harg10 arg11 harg11 arg12 harg12 arg13 harg13 arg14 harg14 hc0 hc1 x0 x1 x2 x3 x4 xs0 xs1 xs2 xs3).2.2.2.2.2.2.2.1 S1024x1.size (by sl_kernel_rfl) y
/-- What case C leaves in accumulator 3: its stores read back. -/
def sout0_C_3 (c : Dev nD) (i : grid0.Coords) (arg2 : Memref sig .tc .vmem S128x512 .f32) (harg2 : arg2.IsWhole) (arg3 : Memref sig .tc .vmem S512x1 .i32) (harg3 : arg3.IsWhole) (arg4 : Memref sig .tc .vmem S1x512 .i32) (harg4 : arg4.IsWhole) (arg5 : Memref sig .tc .vmem S1024x128 .bf16) (harg5 : arg5.IsWhole) (arg6 : Memref sig .tc .vmem S1024x1 .i32) (harg6 : arg6.IsWhole) (arg7 : Memref sig .tc .vmem S1x128x2048 .f32) (harg7 : arg7.IsWhole) (arg8 : Memref sig .tc .vmem S1x1024x1 .f32) (harg8 : arg8.IsWhole) (arg9 : Memref sig .tc .vmem S1x1024x1 .f32) (harg9 : arg9.IsWhole) (arg10 : Memref sig .tc .vmem S1x1024x1 .f32) (harg10 : arg10.IsWhole) (arg11 : Memref sig .tc .vmem S128x2048 .f32) (harg11 : arg11.IsWhole) (arg12 : Memref sig .tc .vmem S1024x1 .f32) (harg12 : arg12.IsWhole) (arg13 : Memref sig .tc .vmem S1024x1 .f32) (harg13 : arg13.IsWhole) (arg14 : Memref sig .tc .vmem S1024x1 .f32) (harg14 : arg14.IsWhole) (hc0 : ¬cond0_0 i) (hc1 : cond0_1 i)
    (x0 : Vec F S128x512 .f32) (x1 : Vec F S512x1 .i32) (x2 : Vec F S1x512 .i32) (x3 : Vec F S1024x128 .bf16) (x4 : Vec F S1024x1 .i32) (xs0 : Vec F S128x2048 .f32) (xs1 : Vec F S1024x1 .f32) (xs2 : Vec F S1024x1 .f32) (xs3 : Vec F S1024x1 .f32) : Vec F S1024x1 .f32 :=
  VS0_3.read (Elt F) (VS0_3.writes (Elt F) VS0_3.junk (kernelRun0_C c i arg2 harg2 arg3 harg3 arg4 harg4 arg5 harg5 arg6 harg6 arg7 harg7 arg8 harg8 arg9 harg9 arg10 harg10 arg11 harg11 arg12 harg12 arg13 harg13 arg14 harg14 hc0 hc1 x0 x1 x2 x3 x4 xs0 xs1 xs2 xs3).2.2.2.2.2.2.2.1)

/-- Case C's stores into output buffer 5 tile it. -/
theorem cover0_C_5 (c : Dev nD) (i : grid0.Coords) (arg2 : Memref sig .tc .vmem S128x512 .f32) (harg2 : arg2.IsWhole) (arg3 : Memref sig .tc .vmem S512x1 .i32) (harg3 : arg3.IsWhole) (arg4 : Memref sig .tc .vmem S1x512 .i32) (harg4 : arg4.IsWhole) (arg5 : Memref sig .tc .vmem S1024x128 .bf16) (harg5 : arg5.IsWhole) (arg6 : Memref sig .tc .vmem S1024x1 .i32) (harg6 : arg6.IsWhole) (arg7 : Memref sig .tc .vmem S1x128x2048 .f32) (harg7 : arg7.IsWhole) (arg8 : Memref sig .tc .vmem S1x1024x1 .f32) (harg8 : arg8.IsWhole) (arg9 : Memref sig .tc .vmem S1x1024x1 .f32) (harg9 : arg9.IsWhole) (arg10 : Memref sig .tc .vmem S1x1024x1 .f32) (harg10 : arg10.IsWhole) (arg11 : Memref sig .tc .vmem S128x2048 .f32) (harg11 : arg11.IsWhole) (arg12 : Memref sig .tc .vmem S1024x1 .f32) (harg12 : arg12.IsWhole) (arg13 : Memref sig .tc .vmem S1024x1 .f32) (harg13 : arg13.IsWhole) (arg14 : Memref sig .tc .vmem S1024x1 .f32) (harg14 : arg14.IsWhole) (hc0 : ¬cond0_0 i) (hc1 : cond0_1 i)
    (x0 : Vec F S128x512 .f32) (x1 : Vec F S512x1 .i32) (x2 : Vec F S1x512 .i32) (x3 : Vec F S1024x128 .bf16) (x4 : Vec F S1024x1 .i32) (xs0 : Vec F S128x2048 .f32) (xs1 : Vec F S1024x1 .f32) (xs2 : Vec F S1024x1 .f32) (xs3 : Vec F S1024x1 .f32) (y : S1x128x2048.Idx) :
    ∃ pc ∈ (kernelRun0_C c i arg2 harg2 arg3 harg3 arg4 harg4 arg5 harg5 arg6 harg6 arg7 harg7 arg8 harg8 arg9 harg9 arg10 harg10 arg11 harg11 arg12 harg12 arg13 harg13 arg14 harg14 hc0 hc1 x0 x1 x2 x3 x4 xs0 xs1 xs2 xs3).1, y ∈ pc.1.set :=
  View.cover_of_tiledL (kernelRun0_C c i arg2 harg2 arg3 harg3 arg4 harg4 arg5 harg5 arg6 harg6 arg7 harg7 arg8 harg8 arg9 harg9 arg10 harg10 arg11 harg11 arg12 harg12 arg13 harg13 arg14 harg14 hc0 hc1 x0 x1 x2 x3 x4 xs0 xs1 xs2 xs3).1 S1x128x2048.size (by sl_kernel_rfl) y
/-- What case C leaves in output buffer 5: its stores read back. -/
def out0_C_5 (c : Dev nD) (i : grid0.Coords) (arg2 : Memref sig .tc .vmem S128x512 .f32) (harg2 : arg2.IsWhole) (arg3 : Memref sig .tc .vmem S512x1 .i32) (harg3 : arg3.IsWhole) (arg4 : Memref sig .tc .vmem S1x512 .i32) (harg4 : arg4.IsWhole) (arg5 : Memref sig .tc .vmem S1024x128 .bf16) (harg5 : arg5.IsWhole) (arg6 : Memref sig .tc .vmem S1024x1 .i32) (harg6 : arg6.IsWhole) (arg7 : Memref sig .tc .vmem S1x128x2048 .f32) (harg7 : arg7.IsWhole) (arg8 : Memref sig .tc .vmem S1x1024x1 .f32) (harg8 : arg8.IsWhole) (arg9 : Memref sig .tc .vmem S1x1024x1 .f32) (harg9 : arg9.IsWhole) (arg10 : Memref sig .tc .vmem S1x1024x1 .f32) (harg10 : arg10.IsWhole) (arg11 : Memref sig .tc .vmem S128x2048 .f32) (harg11 : arg11.IsWhole) (arg12 : Memref sig .tc .vmem S1024x1 .f32) (harg12 : arg12.IsWhole) (arg13 : Memref sig .tc .vmem S1024x1 .f32) (harg13 : arg13.IsWhole) (arg14 : Memref sig .tc .vmem S1024x1 .f32) (harg14 : arg14.IsWhole) (hc0 : ¬cond0_0 i) (hc1 : cond0_1 i)
    (x0 : Vec F S128x512 .f32) (x1 : Vec F S512x1 .i32) (x2 : Vec F S1x512 .i32) (x3 : Vec F S1024x128 .bf16) (x4 : Vec F S1024x1 .i32) (xs0 : Vec F S128x2048 .f32) (xs1 : Vec F S1024x1 .f32) (xs2 : Vec F S1024x1 .f32) (xs3 : Vec F S1024x1 .f32) : Vec F S1x128x2048 .f32 :=
  VO0_5.read (Elt F) (VO0_5.writes (Elt F) VO0_5.junk (kernelRun0_C c i arg2 harg2 arg3 harg3 arg4 harg4 arg5 harg5 arg6 harg6 arg7 harg7 arg8 harg8 arg9 harg9 arg10 harg10 arg11 harg11 arg12 harg12 arg13 harg13 arg14 harg14 hc0 hc1 x0 x1 x2 x3 x4 xs0 xs1 xs2 xs3).1)

/-- Case C's stores into output buffer 6 tile it. -/
theorem cover0_C_6 (c : Dev nD) (i : grid0.Coords) (arg2 : Memref sig .tc .vmem S128x512 .f32) (harg2 : arg2.IsWhole) (arg3 : Memref sig .tc .vmem S512x1 .i32) (harg3 : arg3.IsWhole) (arg4 : Memref sig .tc .vmem S1x512 .i32) (harg4 : arg4.IsWhole) (arg5 : Memref sig .tc .vmem S1024x128 .bf16) (harg5 : arg5.IsWhole) (arg6 : Memref sig .tc .vmem S1024x1 .i32) (harg6 : arg6.IsWhole) (arg7 : Memref sig .tc .vmem S1x128x2048 .f32) (harg7 : arg7.IsWhole) (arg8 : Memref sig .tc .vmem S1x1024x1 .f32) (harg8 : arg8.IsWhole) (arg9 : Memref sig .tc .vmem S1x1024x1 .f32) (harg9 : arg9.IsWhole) (arg10 : Memref sig .tc .vmem S1x1024x1 .f32) (harg10 : arg10.IsWhole) (arg11 : Memref sig .tc .vmem S128x2048 .f32) (harg11 : arg11.IsWhole) (arg12 : Memref sig .tc .vmem S1024x1 .f32) (harg12 : arg12.IsWhole) (arg13 : Memref sig .tc .vmem S1024x1 .f32) (harg13 : arg13.IsWhole) (arg14 : Memref sig .tc .vmem S1024x1 .f32) (harg14 : arg14.IsWhole) (hc0 : ¬cond0_0 i) (hc1 : cond0_1 i)
    (x0 : Vec F S128x512 .f32) (x1 : Vec F S512x1 .i32) (x2 : Vec F S1x512 .i32) (x3 : Vec F S1024x128 .bf16) (x4 : Vec F S1024x1 .i32) (xs0 : Vec F S128x2048 .f32) (xs1 : Vec F S1024x1 .f32) (xs2 : Vec F S1024x1 .f32) (xs3 : Vec F S1024x1 .f32) (y : S1x1024x1.Idx) :
    ∃ pc ∈ (kernelRun0_C c i arg2 harg2 arg3 harg3 arg4 harg4 arg5 harg5 arg6 harg6 arg7 harg7 arg8 harg8 arg9 harg9 arg10 harg10 arg11 harg11 arg12 harg12 arg13 harg13 arg14 harg14 hc0 hc1 x0 x1 x2 x3 x4 xs0 xs1 xs2 xs3).2.1, y ∈ pc.1.set :=
  View.cover_of_tiledL (kernelRun0_C c i arg2 harg2 arg3 harg3 arg4 harg4 arg5 harg5 arg6 harg6 arg7 harg7 arg8 harg8 arg9 harg9 arg10 harg10 arg11 harg11 arg12 harg12 arg13 harg13 arg14 harg14 hc0 hc1 x0 x1 x2 x3 x4 xs0 xs1 xs2 xs3).2.1 S1x1024x1.size (by sl_kernel_rfl) y
/-- What case C leaves in output buffer 6: its stores read back. -/
def out0_C_6 (c : Dev nD) (i : grid0.Coords) (arg2 : Memref sig .tc .vmem S128x512 .f32) (harg2 : arg2.IsWhole) (arg3 : Memref sig .tc .vmem S512x1 .i32) (harg3 : arg3.IsWhole) (arg4 : Memref sig .tc .vmem S1x512 .i32) (harg4 : arg4.IsWhole) (arg5 : Memref sig .tc .vmem S1024x128 .bf16) (harg5 : arg5.IsWhole) (arg6 : Memref sig .tc .vmem S1024x1 .i32) (harg6 : arg6.IsWhole) (arg7 : Memref sig .tc .vmem S1x128x2048 .f32) (harg7 : arg7.IsWhole) (arg8 : Memref sig .tc .vmem S1x1024x1 .f32) (harg8 : arg8.IsWhole) (arg9 : Memref sig .tc .vmem S1x1024x1 .f32) (harg9 : arg9.IsWhole) (arg10 : Memref sig .tc .vmem S1x1024x1 .f32) (harg10 : arg10.IsWhole) (arg11 : Memref sig .tc .vmem S128x2048 .f32) (harg11 : arg11.IsWhole) (arg12 : Memref sig .tc .vmem S1024x1 .f32) (harg12 : arg12.IsWhole) (arg13 : Memref sig .tc .vmem S1024x1 .f32) (harg13 : arg13.IsWhole) (arg14 : Memref sig .tc .vmem S1024x1 .f32) (harg14 : arg14.IsWhole) (hc0 : ¬cond0_0 i) (hc1 : cond0_1 i)
    (x0 : Vec F S128x512 .f32) (x1 : Vec F S512x1 .i32) (x2 : Vec F S1x512 .i32) (x3 : Vec F S1024x128 .bf16) (x4 : Vec F S1024x1 .i32) (xs0 : Vec F S128x2048 .f32) (xs1 : Vec F S1024x1 .f32) (xs2 : Vec F S1024x1 .f32) (xs3 : Vec F S1024x1 .f32) : Vec F S1x1024x1 .f32 :=
  VO0_6.read (Elt F) (VO0_6.writes (Elt F) VO0_6.junk (kernelRun0_C c i arg2 harg2 arg3 harg3 arg4 harg4 arg5 harg5 arg6 harg6 arg7 harg7 arg8 harg8 arg9 harg9 arg10 harg10 arg11 harg11 arg12 harg12 arg13 harg13 arg14 harg14 hc0 hc1 x0 x1 x2 x3 x4 xs0 xs1 xs2 xs3).2.1)

/-- Case C's stores into output buffer 7 tile it. -/
theorem cover0_C_7 (c : Dev nD) (i : grid0.Coords) (arg2 : Memref sig .tc .vmem S128x512 .f32) (harg2 : arg2.IsWhole) (arg3 : Memref sig .tc .vmem S512x1 .i32) (harg3 : arg3.IsWhole) (arg4 : Memref sig .tc .vmem S1x512 .i32) (harg4 : arg4.IsWhole) (arg5 : Memref sig .tc .vmem S1024x128 .bf16) (harg5 : arg5.IsWhole) (arg6 : Memref sig .tc .vmem S1024x1 .i32) (harg6 : arg6.IsWhole) (arg7 : Memref sig .tc .vmem S1x128x2048 .f32) (harg7 : arg7.IsWhole) (arg8 : Memref sig .tc .vmem S1x1024x1 .f32) (harg8 : arg8.IsWhole) (arg9 : Memref sig .tc .vmem S1x1024x1 .f32) (harg9 : arg9.IsWhole) (arg10 : Memref sig .tc .vmem S1x1024x1 .f32) (harg10 : arg10.IsWhole) (arg11 : Memref sig .tc .vmem S128x2048 .f32) (harg11 : arg11.IsWhole) (arg12 : Memref sig .tc .vmem S1024x1 .f32) (harg12 : arg12.IsWhole) (arg13 : Memref sig .tc .vmem S1024x1 .f32) (harg13 : arg13.IsWhole) (arg14 : Memref sig .tc .vmem S1024x1 .f32) (harg14 : arg14.IsWhole) (hc0 : ¬cond0_0 i) (hc1 : cond0_1 i)
    (x0 : Vec F S128x512 .f32) (x1 : Vec F S512x1 .i32) (x2 : Vec F S1x512 .i32) (x3 : Vec F S1024x128 .bf16) (x4 : Vec F S1024x1 .i32) (xs0 : Vec F S128x2048 .f32) (xs1 : Vec F S1024x1 .f32) (xs2 : Vec F S1024x1 .f32) (xs3 : Vec F S1024x1 .f32) (y : S1x1024x1.Idx) :
    ∃ pc ∈ (kernelRun0_C c i arg2 harg2 arg3 harg3 arg4 harg4 arg5 harg5 arg6 harg6 arg7 harg7 arg8 harg8 arg9 harg9 arg10 harg10 arg11 harg11 arg12 harg12 arg13 harg13 arg14 harg14 hc0 hc1 x0 x1 x2 x3 x4 xs0 xs1 xs2 xs3).2.2.1, y ∈ pc.1.set :=
  View.cover_of_tiledL (kernelRun0_C c i arg2 harg2 arg3 harg3 arg4 harg4 arg5 harg5 arg6 harg6 arg7 harg7 arg8 harg8 arg9 harg9 arg10 harg10 arg11 harg11 arg12 harg12 arg13 harg13 arg14 harg14 hc0 hc1 x0 x1 x2 x3 x4 xs0 xs1 xs2 xs3).2.2.1 S1x1024x1.size (by sl_kernel_rfl) y
/-- What case C leaves in output buffer 7: its stores read back. -/
def out0_C_7 (c : Dev nD) (i : grid0.Coords) (arg2 : Memref sig .tc .vmem S128x512 .f32) (harg2 : arg2.IsWhole) (arg3 : Memref sig .tc .vmem S512x1 .i32) (harg3 : arg3.IsWhole) (arg4 : Memref sig .tc .vmem S1x512 .i32) (harg4 : arg4.IsWhole) (arg5 : Memref sig .tc .vmem S1024x128 .bf16) (harg5 : arg5.IsWhole) (arg6 : Memref sig .tc .vmem S1024x1 .i32) (harg6 : arg6.IsWhole) (arg7 : Memref sig .tc .vmem S1x128x2048 .f32) (harg7 : arg7.IsWhole) (arg8 : Memref sig .tc .vmem S1x1024x1 .f32) (harg8 : arg8.IsWhole) (arg9 : Memref sig .tc .vmem S1x1024x1 .f32) (harg9 : arg9.IsWhole) (arg10 : Memref sig .tc .vmem S1x1024x1 .f32) (harg10 : arg10.IsWhole) (arg11 : Memref sig .tc .vmem S128x2048 .f32) (harg11 : arg11.IsWhole) (arg12 : Memref sig .tc .vmem S1024x1 .f32) (harg12 : arg12.IsWhole) (arg13 : Memref sig .tc .vmem S1024x1 .f32) (harg13 : arg13.IsWhole) (arg14 : Memref sig .tc .vmem S1024x1 .f32) (harg14 : arg14.IsWhole) (hc0 : ¬cond0_0 i) (hc1 : cond0_1 i)
    (x0 : Vec F S128x512 .f32) (x1 : Vec F S512x1 .i32) (x2 : Vec F S1x512 .i32) (x3 : Vec F S1024x128 .bf16) (x4 : Vec F S1024x1 .i32) (xs0 : Vec F S128x2048 .f32) (xs1 : Vec F S1024x1 .f32) (xs2 : Vec F S1024x1 .f32) (xs3 : Vec F S1024x1 .f32) : Vec F S1x1024x1 .f32 :=
  VO0_7.read (Elt F) (VO0_7.writes (Elt F) VO0_7.junk (kernelRun0_C c i arg2 harg2 arg3 harg3 arg4 harg4 arg5 harg5 arg6 harg6 arg7 harg7 arg8 harg8 arg9 harg9 arg10 harg10 arg11 harg11 arg12 harg12 arg13 harg13 arg14 harg14 hc0 hc1 x0 x1 x2 x3 x4 xs0 xs1 xs2 xs3).2.2.1)

/-- Case C's stores into output buffer 8 tile it. -/
theorem cover0_C_8 (c : Dev nD) (i : grid0.Coords) (arg2 : Memref sig .tc .vmem S128x512 .f32) (harg2 : arg2.IsWhole) (arg3 : Memref sig .tc .vmem S512x1 .i32) (harg3 : arg3.IsWhole) (arg4 : Memref sig .tc .vmem S1x512 .i32) (harg4 : arg4.IsWhole) (arg5 : Memref sig .tc .vmem S1024x128 .bf16) (harg5 : arg5.IsWhole) (arg6 : Memref sig .tc .vmem S1024x1 .i32) (harg6 : arg6.IsWhole) (arg7 : Memref sig .tc .vmem S1x128x2048 .f32) (harg7 : arg7.IsWhole) (arg8 : Memref sig .tc .vmem S1x1024x1 .f32) (harg8 : arg8.IsWhole) (arg9 : Memref sig .tc .vmem S1x1024x1 .f32) (harg9 : arg9.IsWhole) (arg10 : Memref sig .tc .vmem S1x1024x1 .f32) (harg10 : arg10.IsWhole) (arg11 : Memref sig .tc .vmem S128x2048 .f32) (harg11 : arg11.IsWhole) (arg12 : Memref sig .tc .vmem S1024x1 .f32) (harg12 : arg12.IsWhole) (arg13 : Memref sig .tc .vmem S1024x1 .f32) (harg13 : arg13.IsWhole) (arg14 : Memref sig .tc .vmem S1024x1 .f32) (harg14 : arg14.IsWhole) (hc0 : ¬cond0_0 i) (hc1 : cond0_1 i)
    (x0 : Vec F S128x512 .f32) (x1 : Vec F S512x1 .i32) (x2 : Vec F S1x512 .i32) (x3 : Vec F S1024x128 .bf16) (x4 : Vec F S1024x1 .i32) (xs0 : Vec F S128x2048 .f32) (xs1 : Vec F S1024x1 .f32) (xs2 : Vec F S1024x1 .f32) (xs3 : Vec F S1024x1 .f32) (y : S1x1024x1.Idx) :
    ∃ pc ∈ (kernelRun0_C c i arg2 harg2 arg3 harg3 arg4 harg4 arg5 harg5 arg6 harg6 arg7 harg7 arg8 harg8 arg9 harg9 arg10 harg10 arg11 harg11 arg12 harg12 arg13 harg13 arg14 harg14 hc0 hc1 x0 x1 x2 x3 x4 xs0 xs1 xs2 xs3).2.2.2.1, y ∈ pc.1.set :=
  View.cover_of_tiledL (kernelRun0_C c i arg2 harg2 arg3 harg3 arg4 harg4 arg5 harg5 arg6 harg6 arg7 harg7 arg8 harg8 arg9 harg9 arg10 harg10 arg11 harg11 arg12 harg12 arg13 harg13 arg14 harg14 hc0 hc1 x0 x1 x2 x3 x4 xs0 xs1 xs2 xs3).2.2.2.1 S1x1024x1.size (by sl_kernel_rfl) y
/-- What case C leaves in output buffer 8: its stores read back. -/
def out0_C_8 (c : Dev nD) (i : grid0.Coords) (arg2 : Memref sig .tc .vmem S128x512 .f32) (harg2 : arg2.IsWhole) (arg3 : Memref sig .tc .vmem S512x1 .i32) (harg3 : arg3.IsWhole) (arg4 : Memref sig .tc .vmem S1x512 .i32) (harg4 : arg4.IsWhole) (arg5 : Memref sig .tc .vmem S1024x128 .bf16) (harg5 : arg5.IsWhole) (arg6 : Memref sig .tc .vmem S1024x1 .i32) (harg6 : arg6.IsWhole) (arg7 : Memref sig .tc .vmem S1x128x2048 .f32) (harg7 : arg7.IsWhole) (arg8 : Memref sig .tc .vmem S1x1024x1 .f32) (harg8 : arg8.IsWhole) (arg9 : Memref sig .tc .vmem S1x1024x1 .f32) (harg9 : arg9.IsWhole) (arg10 : Memref sig .tc .vmem S1x1024x1 .f32) (harg10 : arg10.IsWhole) (arg11 : Memref sig .tc .vmem S128x2048 .f32) (harg11 : arg11.IsWhole) (arg12 : Memref sig .tc .vmem S1024x1 .f32) (harg12 : arg12.IsWhole) (arg13 : Memref sig .tc .vmem S1024x1 .f32) (harg13 : arg13.IsWhole) (arg14 : Memref sig .tc .vmem S1024x1 .f32) (harg14 : arg14.IsWhole) (hc0 : ¬cond0_0 i) (hc1 : cond0_1 i)
    (x0 : Vec F S128x512 .f32) (x1 : Vec F S512x1 .i32) (x2 : Vec F S1x512 .i32) (x3 : Vec F S1024x128 .bf16) (x4 : Vec F S1024x1 .i32) (xs0 : Vec F S128x2048 .f32) (xs1 : Vec F S1024x1 .f32) (xs2 : Vec F S1024x1 .f32) (xs3 : Vec F S1024x1 .f32) : Vec F S1x1024x1 .f32 :=
  VO0_8.read (Elt F) (VO0_8.writes (Elt F) VO0_8.junk (kernelRun0_C c i arg2 harg2 arg3 harg3 arg4 harg4 arg5 harg5 arg6 harg6 arg7 harg7 arg8 harg8 arg9 harg9 arg10 harg10 arg11 harg11 arg12 harg12 arg13 harg13 arg14 harg14 hc0 hc1 x0 x1 x2 x3 x4 xs0 xs1 xs2 xs3).2.2.2.1)

/-! ## The accumulators after each grid point -/

/-- The accumulators after a first tile, at point `t`: reset, then this tile's update. -/
def scA (c : Dev nD) (t : Fin cfg0.N) (hc0 : cond0_0 (grid0.coords t)) (hc1 : ¬cond0_1 (grid0.coords t)) : Sc F :=
  (sout0_A_0 c (grid0.coords t) (ms0_0 t) (hs0_0 t) (ms0_1 t) (hs0_1 t) (ms0_2 t) (hs0_2 t) (ms0_3 t) (hs0_3 t) (ms0_4 t) (hs0_4 t) (ms0_5 t) (hs0_5 t) (ms0_6 t) (hs0_6 t) (ms0_7 t) (hs0_7 t) (ms0_8 t) (hs0_8 t) scM0_0 (Memref.isWhole_whole _) scM0_1 (Memref.isWhole_whole _) scM0_2 (Memref.isWhole_whole _) scM0_3 (Memref.isWhole_whole _) hc0 hc1 (iblk m c 0 t) (iblk m c 1 t) (iblk m c 2 t) (iblk m c 3 t) (iblk m c 4 t),
   sout0_A_1 c (grid0.coords t) (ms0_0 t) (hs0_0 t) (ms0_1 t) (hs0_1 t) (ms0_2 t) (hs0_2 t) (ms0_3 t) (hs0_3 t) (ms0_4 t) (hs0_4 t) (ms0_5 t) (hs0_5 t) (ms0_6 t) (hs0_6 t) (ms0_7 t) (hs0_7 t) (ms0_8 t) (hs0_8 t) scM0_0 (Memref.isWhole_whole _) scM0_1 (Memref.isWhole_whole _) scM0_2 (Memref.isWhole_whole _) scM0_3 (Memref.isWhole_whole _) hc0 hc1 (iblk m c 0 t) (iblk m c 1 t) (iblk m c 2 t) (iblk m c 3 t) (iblk m c 4 t),
   sout0_A_2 c (grid0.coords t) (ms0_0 t) (hs0_0 t) (ms0_1 t) (hs0_1 t) (ms0_2 t) (hs0_2 t) (ms0_3 t) (hs0_3 t) (ms0_4 t) (hs0_4 t) (ms0_5 t) (hs0_5 t) (ms0_6 t) (hs0_6 t) (ms0_7 t) (hs0_7 t) (ms0_8 t) (hs0_8 t) scM0_0 (Memref.isWhole_whole _) scM0_1 (Memref.isWhole_whole _) scM0_2 (Memref.isWhole_whole _) scM0_3 (Memref.isWhole_whole _) hc0 hc1 (iblk m c 0 t) (iblk m c 1 t) (iblk m c 2 t) (iblk m c 3 t) (iblk m c 4 t),
   sout0_A_3 c (grid0.coords t) (ms0_0 t) (hs0_0 t) (ms0_1 t) (hs0_1 t) (ms0_2 t) (hs0_2 t) (ms0_3 t) (hs0_3 t) (ms0_4 t) (hs0_4 t) (ms0_5 t) (hs0_5 t) (ms0_6 t) (hs0_6 t) (ms0_7 t) (hs0_7 t) (ms0_8 t) (hs0_8 t) scM0_0 (Memref.isWhole_whole _) scM0_1 (Memref.isWhole_whole _) scM0_2 (Memref.isWhole_whole _) scM0_3 (Memref.isWhole_whole _) hc0 hc1 (iblk m c 0 t) (iblk m c 1 t) (iblk m c 2 t) (iblk m c 3 t) (iblk m c 4 t))
/-- The accumulators after a middle tile, over what the tile before left. -/
def scB (c : Dev nD) (t : Fin cfg0.N) (hc0 : ¬cond0_0 (grid0.coords t)) (hc1 : ¬cond0_1 (grid0.coords t)) (prev : Sc F) : Sc F :=
  (sout0_B_0 c (grid0.coords t) (ms0_0 t) (hs0_0 t) (ms0_1 t) (hs0_1 t) (ms0_2 t) (hs0_2 t) (ms0_3 t) (hs0_3 t) (ms0_4 t) (hs0_4 t) (ms0_5 t) (hs0_5 t) (ms0_6 t) (hs0_6 t) (ms0_7 t) (hs0_7 t) (ms0_8 t) (hs0_8 t) scM0_0 (Memref.isWhole_whole _) scM0_1 (Memref.isWhole_whole _) scM0_2 (Memref.isWhole_whole _) scM0_3 (Memref.isWhole_whole _) hc0 hc1 (iblk m c 0 t) (iblk m c 1 t) (iblk m c 2 t) (iblk m c 3 t) (iblk m c 4 t) prev.1 prev.2.1 prev.2.2.1 prev.2.2.2,
   sout0_B_1 c (grid0.coords t) (ms0_0 t) (hs0_0 t) (ms0_1 t) (hs0_1 t) (ms0_2 t) (hs0_2 t) (ms0_3 t) (hs0_3 t) (ms0_4 t) (hs0_4 t) (ms0_5 t) (hs0_5 t) (ms0_6 t) (hs0_6 t) (ms0_7 t) (hs0_7 t) (ms0_8 t) (hs0_8 t) scM0_0 (Memref.isWhole_whole _) scM0_1 (Memref.isWhole_whole _) scM0_2 (Memref.isWhole_whole _) scM0_3 (Memref.isWhole_whole _) hc0 hc1 (iblk m c 0 t) (iblk m c 1 t) (iblk m c 2 t) (iblk m c 3 t) (iblk m c 4 t) prev.1 prev.2.1 prev.2.2.1 prev.2.2.2,
   sout0_B_2 c (grid0.coords t) (ms0_0 t) (hs0_0 t) (ms0_1 t) (hs0_1 t) (ms0_2 t) (hs0_2 t) (ms0_3 t) (hs0_3 t) (ms0_4 t) (hs0_4 t) (ms0_5 t) (hs0_5 t) (ms0_6 t) (hs0_6 t) (ms0_7 t) (hs0_7 t) (ms0_8 t) (hs0_8 t) scM0_0 (Memref.isWhole_whole _) scM0_1 (Memref.isWhole_whole _) scM0_2 (Memref.isWhole_whole _) scM0_3 (Memref.isWhole_whole _) hc0 hc1 (iblk m c 0 t) (iblk m c 1 t) (iblk m c 2 t) (iblk m c 3 t) (iblk m c 4 t) prev.1 prev.2.1 prev.2.2.1 prev.2.2.2,
   sout0_B_3 c (grid0.coords t) (ms0_0 t) (hs0_0 t) (ms0_1 t) (hs0_1 t) (ms0_2 t) (hs0_2 t) (ms0_3 t) (hs0_3 t) (ms0_4 t) (hs0_4 t) (ms0_5 t) (hs0_5 t) (ms0_6 t) (hs0_6 t) (ms0_7 t) (hs0_7 t) (ms0_8 t) (hs0_8 t) scM0_0 (Memref.isWhole_whole _) scM0_1 (Memref.isWhole_whole _) scM0_2 (Memref.isWhole_whole _) scM0_3 (Memref.isWhole_whole _) hc0 hc1 (iblk m c 0 t) (iblk m c 1 t) (iblk m c 2 t) (iblk m c 3 t) (iblk m c 4 t) prev.1 prev.2.1 prev.2.2.1 prev.2.2.2)
/-- The accumulators after a last tile, over what the tile before left. -/
def scC (c : Dev nD) (t : Fin cfg0.N) (hc0 : ¬cond0_0 (grid0.coords t)) (hc1 : cond0_1 (grid0.coords t)) (prev : Sc F) : Sc F :=
  (sout0_C_0 c (grid0.coords t) (ms0_0 t) (hs0_0 t) (ms0_1 t) (hs0_1 t) (ms0_2 t) (hs0_2 t) (ms0_3 t) (hs0_3 t) (ms0_4 t) (hs0_4 t) (ms0_5 t) (hs0_5 t) (ms0_6 t) (hs0_6 t) (ms0_7 t) (hs0_7 t) (ms0_8 t) (hs0_8 t) scM0_0 (Memref.isWhole_whole _) scM0_1 (Memref.isWhole_whole _) scM0_2 (Memref.isWhole_whole _) scM0_3 (Memref.isWhole_whole _) hc0 hc1 (iblk m c 0 t) (iblk m c 1 t) (iblk m c 2 t) (iblk m c 3 t) (iblk m c 4 t) prev.1 prev.2.1 prev.2.2.1 prev.2.2.2,
   sout0_C_1 c (grid0.coords t) (ms0_0 t) (hs0_0 t) (ms0_1 t) (hs0_1 t) (ms0_2 t) (hs0_2 t) (ms0_3 t) (hs0_3 t) (ms0_4 t) (hs0_4 t) (ms0_5 t) (hs0_5 t) (ms0_6 t) (hs0_6 t) (ms0_7 t) (hs0_7 t) (ms0_8 t) (hs0_8 t) scM0_0 (Memref.isWhole_whole _) scM0_1 (Memref.isWhole_whole _) scM0_2 (Memref.isWhole_whole _) scM0_3 (Memref.isWhole_whole _) hc0 hc1 (iblk m c 0 t) (iblk m c 1 t) (iblk m c 2 t) (iblk m c 3 t) (iblk m c 4 t) prev.1 prev.2.1 prev.2.2.1 prev.2.2.2,
   sout0_C_2 c (grid0.coords t) (ms0_0 t) (hs0_0 t) (ms0_1 t) (hs0_1 t) (ms0_2 t) (hs0_2 t) (ms0_3 t) (hs0_3 t) (ms0_4 t) (hs0_4 t) (ms0_5 t) (hs0_5 t) (ms0_6 t) (hs0_6 t) (ms0_7 t) (hs0_7 t) (ms0_8 t) (hs0_8 t) scM0_0 (Memref.isWhole_whole _) scM0_1 (Memref.isWhole_whole _) scM0_2 (Memref.isWhole_whole _) scM0_3 (Memref.isWhole_whole _) hc0 hc1 (iblk m c 0 t) (iblk m c 1 t) (iblk m c 2 t) (iblk m c 3 t) (iblk m c 4 t) prev.1 prev.2.1 prev.2.2.1 prev.2.2.2,
   sout0_C_3 c (grid0.coords t) (ms0_0 t) (hs0_0 t) (ms0_1 t) (hs0_1 t) (ms0_2 t) (hs0_2 t) (ms0_3 t) (hs0_3 t) (ms0_4 t) (hs0_4 t) (ms0_5 t) (hs0_5 t) (ms0_6 t) (hs0_6 t) (ms0_7 t) (hs0_7 t) (ms0_8 t) (hs0_8 t) scM0_0 (Memref.isWhole_whole _) scM0_1 (Memref.isWhole_whole _) scM0_2 (Memref.isWhole_whole _) scM0_3 (Memref.isWhole_whole _) hc0 hc1 (iblk m c 0 t) (iblk m c 1 t) (iblk m c 2 t) (iblk m c 3 t) (iblk m c 4 t) prev.1 prev.2.1 prev.2.2.1 prev.2.2.2)
/-- The output buffers after a last tile: the updated accumulators, copied. -/
def outC (c : Dev nD) (t : Fin cfg0.N) (hc0 : ¬cond0_0 (grid0.coords t)) (hc1 : cond0_1 (grid0.coords t)) (prev : Sc F) : Out F :=
  (out0_C_5 c (grid0.coords t) (ms0_0 t) (hs0_0 t) (ms0_1 t) (hs0_1 t) (ms0_2 t) (hs0_2 t) (ms0_3 t) (hs0_3 t) (ms0_4 t) (hs0_4 t) (ms0_5 t) (hs0_5 t) (ms0_6 t) (hs0_6 t) (ms0_7 t) (hs0_7 t) (ms0_8 t) (hs0_8 t) scM0_0 (Memref.isWhole_whole _) scM0_1 (Memref.isWhole_whole _) scM0_2 (Memref.isWhole_whole _) scM0_3 (Memref.isWhole_whole _) hc0 hc1 (iblk m c 0 t) (iblk m c 1 t) (iblk m c 2 t) (iblk m c 3 t) (iblk m c 4 t) prev.1 prev.2.1 prev.2.2.1 prev.2.2.2,
   out0_C_6 c (grid0.coords t) (ms0_0 t) (hs0_0 t) (ms0_1 t) (hs0_1 t) (ms0_2 t) (hs0_2 t) (ms0_3 t) (hs0_3 t) (ms0_4 t) (hs0_4 t) (ms0_5 t) (hs0_5 t) (ms0_6 t) (hs0_6 t) (ms0_7 t) (hs0_7 t) (ms0_8 t) (hs0_8 t) scM0_0 (Memref.isWhole_whole _) scM0_1 (Memref.isWhole_whole _) scM0_2 (Memref.isWhole_whole _) scM0_3 (Memref.isWhole_whole _) hc0 hc1 (iblk m c 0 t) (iblk m c 1 t) (iblk m c 2 t) (iblk m c 3 t) (iblk m c 4 t) prev.1 prev.2.1 prev.2.2.1 prev.2.2.2,
   out0_C_7 c (grid0.coords t) (ms0_0 t) (hs0_0 t) (ms0_1 t) (hs0_1 t) (ms0_2 t) (hs0_2 t) (ms0_3 t) (hs0_3 t) (ms0_4 t) (hs0_4 t) (ms0_5 t) (hs0_5 t) (ms0_6 t) (hs0_6 t) (ms0_7 t) (hs0_7 t) (ms0_8 t) (hs0_8 t) scM0_0 (Memref.isWhole_whole _) scM0_1 (Memref.isWhole_whole _) scM0_2 (Memref.isWhole_whole _) scM0_3 (Memref.isWhole_whole _) hc0 hc1 (iblk m c 0 t) (iblk m c 1 t) (iblk m c 2 t) (iblk m c 3 t) (iblk m c 4 t) prev.1 prev.2.1 prev.2.2.1 prev.2.2.2,
   out0_C_8 c (grid0.coords t) (ms0_0 t) (hs0_0 t) (ms0_1 t) (hs0_1 t) (ms0_2 t) (hs0_2 t) (ms0_3 t) (hs0_3 t) (ms0_4 t) (hs0_4 t) (ms0_5 t) (hs0_5 t) (ms0_6 t) (hs0_6 t) (ms0_7 t) (hs0_7 t) (ms0_8 t) (hs0_8 t) scM0_0 (Memref.isWhole_whole _) scM0_1 (Memref.isWhole_whole _) scM0_2 (Memref.isWhole_whole _) scM0_3 (Memref.isWhole_whole _) hc0 hc1 (iblk m c 0 t) (iblk m c 1 t) (iblk m c 2 t) (iblk m c 3 t) (iblk m c 4 t) prev.1 prev.2.1 prev.2.2.1 prev.2.2.2)

theorem not_last_of_first {n : ℕ} (h0 : n % 64 = 0) : ¬ n % 64 = 63 := by omega
theorem not_first_of_last {n : ℕ} (h1 : n % 64 = 63) : ¬ n % 64 = 0 := by omega

/-- THE ACCUMULATION: the four accumulators after the body at position `n` — a first tile starts afresh, every other
    tile continues from what position `n - 1` left. -/
def scAt (c : Dev nD) : (n : ℕ) → n < cfg0.N → Sc F
  | 0, hn => scA m c ⟨0, hn⟩ ((hcond0_0 ⟨0, hn⟩).mpr (Nat.zero_mod _)) (fun h => not_last_of_first (Nat.zero_mod 64) ((hcond0_1 ⟨0, hn⟩).mp h))
  | n + 1, hn =>
    if h0 : (n + 1) % 64 = 0 then
      scA m c ⟨n + 1, hn⟩ ((hcond0_0 ⟨n + 1, hn⟩).mpr h0) (fun h => not_last_of_first h0 ((hcond0_1 ⟨n + 1, hn⟩).mp h))
    else if h1 : (n + 1) % 64 = 63 then
      scC m c ⟨n + 1, hn⟩ (fun h => h0 ((hcond0_0 ⟨n + 1, hn⟩).mp h)) ((hcond0_1 ⟨n + 1, hn⟩).mpr h1) (scAt c n (Nat.lt_of_succ_lt hn))
    else
      scB m c ⟨n + 1, hn⟩ (fun h => h0 ((hcond0_0 ⟨n + 1, hn⟩).mp h)) (fun h => h1 ((hcond0_1 ⟨n + 1, hn⟩).mp h)) (scAt c n (Nat.lt_of_succ_lt hn))

theorem scAt_A (c : Dev nD) (t : Fin cfg0.N) (h0 : t.val % 64 = 0) :
    scAt m c t.val t.isLt = scA m c t ((hcond0_0 t).mpr h0) (fun h => not_last_of_first h0 ((hcond0_1 t).mp h)) := by
  obtain ⟨n, hn⟩ := t
  cases n with
  | zero => exact rfl
  | succ n => exact (dif_pos h0).trans rfl

theorem scAt_B (c : Dev nD) (t : Fin cfg0.N) (h0 : ¬t.val % 64 = 0) (h1 : ¬t.val % 64 = 63) :
    scAt m c t.val t.isLt = scB m c t (fun h => h0 ((hcond0_0 t).mp h)) (fun h => h1 ((hcond0_1 t).mp h))
      (scAt m c (t.val - 1) (Nat.lt_of_le_of_lt (Nat.sub_le _ _) t.isLt)) := by
  obtain ⟨n, hn⟩ := t
  cases n with
  | zero => exact absurd (Nat.zero_mod _) h0
  | succ n => exact (dif_neg h0).trans ((dif_neg h1).trans rfl)

theorem scAt_C (c : Dev nD) (t : Fin cfg0.N) (h0 : ¬t.val % 64 = 0) (h1 : t.val % 64 = 63) :
    scAt m c t.val t.isLt = scC m c t (fun h => h0 ((hcond0_0 t).mp h)) ((hcond0_1 t).mpr h1)
      (scAt m c (t.val - 1) (Nat.lt_of_le_of_lt (Nat.sub_le _ _) t.isLt)) := by
  obtain ⟨n, hn⟩ := t
  cases n with
  | zero => exact absurd (Nat.zero_mod _) h0
  | succ n => exact (dif_neg h0).trans ((dif_pos h1).trans rfl)

/-- The four output buffers after the body at point `t`: at a last tile the copied accumulators; elsewhere the window
    is idle and not written back, and nothing consults the placeholder. -/
def outAt (c : Dev nD) (t : Fin cfg0.N) : Out F :=
  if h1 : t.val % 64 = 63 then
    outC m c t (fun h => not_first_of_last h1 ((hcond0_0 t).mp h)) ((hcond0_1 t).mpr h1)
      (scAt m c (t.val - 1) (Nat.lt_of_le_of_lt (Nat.sub_le _ _) t.isLt))
  else (VO0_5.read (Elt F) VO0_5.junk, VO0_6.read (Elt F) VO0_6.junk, VO0_7.read (Elt F) VO0_7.junk, VO0_8.read (Elt F) VO0_8.junk)

theorem outAt_C (c : Dev nD) (t : Fin cfg0.N) (h1 : t.val % 64 = 63) :
    outAt m c t = outC m c t (fun h => not_first_of_last h1 ((hcond0_0 t).mp h)) ((hcond0_1 t).mpr h1)
      (scAt m c (t.val - 1) (Nat.lt_of_le_of_lt (Nat.sub_le _ _) t.isLt)) := dif_pos h1

/-! ## The region invariant -/

/-- Before the first point every scratch buffer holds anything; before any later point the four accumulators hold what
    the point before left. The generator register is at some state throughout. -/
def PhiS (c : Dev nD) : (n : ℕ) → n ≤ cfg0.N → sProp 𝕄
  | 0, _ => Pipeline.ΦA spec0 c
  | n + 1, hn => iprop(iprop(owns (c : Thread nD τ) scM0_0 fullShare ((scAt m c n hn).1) ∗ owns (c : Thread nD τ) scM0_1 fullShare ((scAt m c n hn).2.1) ∗ owns (c : Thread nD τ) scM0_2 fullShare ((scAt m c n hn).2.2.1) ∗ owns (c : Thread nD τ) scM0_3 fullShare ((scAt m c n hn).2.2.2)) ∗ (∃ r, prngReg c r))

theorem PhiS_zero (c : Dev nD) (n : ℕ) (h : n ≤ cfg0.N) (hz : n = 0) : PhiS m c n h = Pipeline.ΦA spec0 c := by
  subst hz; rfl
theorem PhiS_succ (c : Dev nD) (n : ℕ) (hn : n < cfg0.N) :
    PhiS m c (n + 1) hn = iprop(iprop(owns (c : Thread nD τ) scM0_0 fullShare ((scAt m c n hn).1) ∗ owns (c : Thread nD τ) scM0_1 fullShare ((scAt m c n hn).2.1) ∗ owns (c : Thread nD τ) scM0_2 fullShare ((scAt m c n hn).2.2.1) ∗ owns (c : Thread nD τ) scM0_3 fullShare ((scAt m c n hn).2.2.2)) ∗ (∃ r, prngReg c r)) := rfl
theorem PhiS_pos (c : Dev nD) (n : ℕ) (h : n ≤ cfg0.N) (hz : n ≠ 0) :
    PhiS m c n h = iprop(iprop(owns (c : Thread nD τ) scM0_0 fullShare ((scAt m c (n - 1) (by omega)).1) ∗ owns (c : Thread nD τ) scM0_1 fullShare ((scAt m c (n - 1) (by omega)).2.1) ∗ owns (c : Thread nD τ) scM0_2 fullShare ((scAt m c (n - 1) (by omega)).2.2.1) ∗ owns (c : Thread nD τ) scM0_3 fullShare ((scAt m c (n - 1) (by omega)).2.2.2)) ∗ (∃ r, prngReg c r)) := by
  cases n with
  | zero => exact absurd rfl hz
  | succ n => rfl

/-! ## The pipeline's proof data -/

/-- The arrays as the region finds them; after the body each input buffer at its block, each output buffer at `outAt`;
    the invariant `PhiS`; nothing owed; full shares. -/
def dats (_ : Fin 1) (c : Dev nD) : Dat τ (Elt F) Unit ℕ (UR sig nD τ) ℕ cfg0 c where
  A w := V m c (Pipeline.arrRef spec0 w)
  after w t := match w with
    | ⟨0, _⟩ => iblk m c 0 t
    | ⟨1, _⟩ => iblk m c 1 t
    | ⟨2, _⟩ => iblk m c 2 t
    | ⟨3, _⟩ => iblk m c 3 t
    | ⟨4, _⟩ => iblk m c 4 t
    | ⟨5, _⟩ => (outAt m c t).1
    | ⟨6, _⟩ => (outAt m c t).2.1
    | ⟨7, _⟩ => (outAt m c t).2.2.1
    | ⟨8, _⟩ => (outAt m c t).2.2.2
  Φ t := PhiS m c t.val (Nat.le_of_lt_succ t.isLt)
  q _ := fullShare
  owed _ := 0

theorem A_eq (c : Dev nD) (w : Fin cfg0.W) : (dats m 0 c).A w = V m c (Pipeline.arrRef spec0 w) := by
  dsimp only [dats]
theorem PhiS_castSucc (c : Dev nD) (t : Fin cfg0.N) :
    (dats m 0 c).Φ t.castSucc = PhiS m c t.val (Nat.le_of_lt t.isLt) := by
  dsimp only [dats]; simp only [Fin.coe_castSucc]
theorem after0_0 (c : Dev nD) (t : Fin cfg0.N) : (dats m 0 c).after 0 t = iblk m c 0 t := by dsimp only [dats]
theorem after0_1 (c : Dev nD) (t : Fin cfg0.N) : (dats m 0 c).after 1 t = iblk m c 1 t := by dsimp only [dats]
theorem after0_2 (c : Dev nD) (t : Fin cfg0.N) : (dats m 0 c).after 2 t = iblk m c 2 t := by dsimp only [dats]
theorem after0_3 (c : Dev nD) (t : Fin cfg0.N) : (dats m 0 c).after 3 t = iblk m c 3 t := by dsimp only [dats]
theorem after0_4 (c : Dev nD) (t : Fin cfg0.N) : (dats m 0 c).after 4 t = iblk m c 4 t := by dsimp only [dats]
theorem after0_5 (c : Dev nD) (t : Fin cfg0.N) : (dats m 0 c).after 5 t = (outAt m c t).1 := by dsimp only [dats]
theorem after0_6 (c : Dev nD) (t : Fin cfg0.N) : (dats m 0 c).after 6 t = (outAt m c t).2.1 := by dsimp only [dats]
theorem after0_7 (c : Dev nD) (t : Fin cfg0.N) : (dats m 0 c).after 7 t = (outAt m c t).2.2.1 := by dsimp only [dats]
theorem after0_8 (c : Dev nD) (t : Fin cfg0.N) : (dats m 0 c).after 8 t = (outAt m c t).2.2.2 := by dsimp only [dats]

/-- Each input's current staging buffer holds its block at every point, fetched there or not. -/
theorem before0_0 (c : Dev nD) (t : Fin cfg0.N) (d) : (dats m 0 c).before 0 t d = iblk m c 0 t :=
  ((dats m 0 c).before_in_eq_fetched 0 rfl (fun _ => rfl) (fun _ _ _ => rfl) (fun t => by rw [after0_0]; unfold Dat.blockOf iblk; rw [A_eq]; try rfl) t d).trans
    (by unfold Dat.fetched Dat.blockOf iblk; rw [A_eq]; try rfl)
theorem before0_1 (c : Dev nD) (t : Fin cfg0.N) (d) : (dats m 0 c).before 1 t d = iblk m c 1 t :=
  ((dats m 0 c).before_in_eq_fetched 1 rfl (fun _ => rfl) (fun _ _ _ => rfl) (fun t => by rw [after0_1]; unfold Dat.blockOf iblk; rw [A_eq]; try rfl) t d).trans
    (by unfold Dat.fetched Dat.blockOf iblk; rw [A_eq]; try rfl)
theorem before0_2 (c : Dev nD) (t : Fin cfg0.N) (d) : (dats m 0 c).before 2 t d = iblk m c 2 t :=
  ((dats m 0 c).before_in_eq_fetched 2 rfl (fun _ => rfl) (fun _ _ _ => rfl) (fun t => by rw [after0_2]; unfold Dat.blockOf iblk; rw [A_eq]; try rfl) t d).trans
    (by unfold Dat.fetched Dat.blockOf iblk; rw [A_eq]; try rfl)
theorem before0_3 (c : Dev nD) (t : Fin cfg0.N) (d) : (dats m 0 c).before 3 t d = iblk m c 3 t :=
  ((dats m 0 c).before_in_eq_fetched 3 rfl (fun _ => rfl) (fun _ _ _ => rfl) (fun t => by rw [after0_3]; unfold Dat.blockOf iblk; rw [A_eq]; try rfl) t d).trans
    (by unfold Dat.fetched Dat.blockOf iblk; rw [A_eq]; try rfl)
theorem before0_4 (c : Dev nD) (t : Fin cfg0.N) (d) : (dats m 0 c).before 4 t d = iblk m c 4 t :=
  ((dats m 0 c).before_in_eq_fetched 4 rfl (fun _ => rfl) (fun _ _ _ => rfl) (fun t => by rw [after0_4]; unfold Dat.blockOf iblk; rw [A_eq]; try rfl) t d).trans
    (by unfold Dat.fetched Dat.blockOf iblk; rw [A_eq]; try rfl)

/-! ## The body obligation, at a generic point -/

/-- What the body is called with at point `t`: the invariant, what the core owes, each window's buffer. -/
def bodyPre (c : Dev nD) (t : Fin cfg0.N) : sProp 𝕄 :=
  iprop((dats m 0 c).Φ t.castSucc ∗ (dats m 0 c).owesAt () t.castSucc
    ∗ (∃ d, owns (c : Thread nD τ) (ms0_0 t) fullShare ((dats m 0 c).before 0 t d))
    ∗ (∃ d, owns (c : Thread nD τ) (ms0_1 t) fullShare ((dats m 0 c).before 1 t d))
    ∗ (∃ d, owns (c : Thread nD τ) (ms0_2 t) fullShare ((dats m 0 c).before 2 t d))
    ∗ (∃ d, owns (c : Thread nD τ) (ms0_3 t) fullShare ((dats m 0 c).before 3 t d))
    ∗ (∃ d, owns (c : Thread nD τ) (ms0_4 t) fullShare ((dats m 0 c).before 4 t d))
    ∗ (∃ d, owns (c : Thread nD τ) (ms0_5 t) fullShare ((dats m 0 c).before 5 t d))
    ∗ (∃ d, owns (c : Thread nD τ) (ms0_6 t) fullShare ((dats m 0 c).before 6 t d))
    ∗ (∃ d, owns (c : Thread nD τ) (ms0_7 t) fullShare ((dats m 0 c).before 7 t d))
    ∗ (∃ d, owns (c : Thread nD τ) (ms0_8 t) fullShare ((dats m 0 c).before 8 t d)))

/-- And what it returns. -/
def bodyPost (c : Dev nD) (t : Fin cfg0.N) : sProp 𝕄 :=
  iprop((dats m 0 c).Φ t.succ ∗ (dats m 0 c).owesAt () t.succ
    ∗ (dats m 0 c).leavesExact 0 t
    ∗ (dats m 0 c).leavesExact 1 t
    ∗ (dats m 0 c).leavesExact 2 t
    ∗ (dats m 0 c).leavesExact 3 t
    ∗ (dats m 0 c).leavesExact 4 t
    ∗ (dats m 0 c).leavesExact 5 t
    ∗ (dats m 0 c).leavesExact 6 t
    ∗ (dats m 0 c).leavesExact 7 t
    ∗ (dats m 0 c).leavesExact 8 t)

set_option maxHeartbeats 16000000 in
/-- The body at the very first point: every scratch buffer arrives at anything; the accumulators leave reset and updated
    by this tile; the output windows are handed back untouched. -/
theorem sound_body_first (c : Dev nD) (t : Fin cfg0.N) (hz : t.val = 0) :
    bodyPre m c t ⊢ wp frame (wpE (defs₀ (F := F)) Variants.none c none) Set.univ (bodyAt0 t) (fun _ => bodyPost m c t) := by
  unfold bodyPre bodyPost bodyAt0
  simp only [before0_0, before0_1, before0_2, before0_3, before0_4]
  rw [show (dats m 0 c).owesAt () t.succ = (dats m 0 c).owesAt () t.castSucc from rfl]
  rw [show (dats m 0 c).Φ t.succ = PhiS m c (t.val + 1) t.isLt from rfl, PhiS_succ]
  have hN : t.val < 128 := lt_of_lt_of_eq t.isLt (show cfg0.N = 128 from N_0)
  rw [show (dats m 0 c).leavesExact 0 t = owns (c : Thread nD τ) (ms0_0 t) fullShare ((dats m 0 c).after 0 t) from by
    unfold Dat.leavesExact; rw [liveAt0_0 t], after0_0]
  rw [show (dats m 0 c).leavesExact 1 t = owns (c : Thread nD τ) (ms0_1 t) fullShare ((dats m 0 c).after 1 t) from by
    unfold Dat.leavesExact; rw [liveAt0_1 t], after0_1]
  rw [show (dats m 0 c).leavesExact 2 t = owns (c : Thread nD τ) (ms0_2 t) fullShare ((dats m 0 c).after 2 t) from by
    unfold Dat.leavesExact; rw [liveAt0_2 t], after0_2]
  rw [show (dats m 0 c).leavesExact 3 t = owns (c : Thread nD τ) (ms0_3 t) fullShare ((dats m 0 c).after 3 t) from by
    unfold Dat.leavesExact; rw [liveAt0_3 t], after0_3]
  rw [show (dats m 0 c).leavesExact 4 t = owns (c : Thread nD τ) (ms0_4 t) fullShare ((dats m 0 c).after 4 t) from by
    unfold Dat.leavesExact; rw [liveAt0_4 t], after0_4]
  have h0 : t.val % 64 = 0 := by rw [hz]
  have h1 : ¬t.val % 64 = 63 := not_last_of_first h0
  have hc0 : cond0_0 (grid0.coords t) := (hcond0_0 t).mpr h0
  have hc1 : ¬cond0_1 (grid0.coords t) := fun h => h1 ((hcond0_1 t).mp h)
  rw [Dat.leavesExact_idle (dats m 0 c) 5 t (idleAt0_out 5 (by decide) t hc1) (noFlush0_out 5 (by decide) t hc1)]
  rw [Dat.leavesExact_idle (dats m 0 c) 6 t (idleAt0_out 6 (by decide) t hc1) (noFlush0_out 6 (by decide) t hc1)]
  rw [Dat.leavesExact_idle (dats m 0 c) 7 t (idleAt0_out 7 (by decide) t hc1) (noFlush0_out 7 (by decide) t hc1)]
  rw [Dat.leavesExact_idle (dats m 0 c) 8 t (idleAt0_out 8 (by decide) t hc1) (noFlush0_out 8 (by decide) t hc1)]
  rw [PhiS_castSucc m c t, PhiS_zero m c _ _ hz, PhiA0_eq]
  rw [scAt_A m c t h0]
  unfold scA sout0_A_0 sout0_A_1 sout0_A_2 sout0_A_3; (try dsimp only)
  iintro ⟨⟨⟨HS0, HS1, HS2, HS3⟩, Hg⟩, Ho, ⟨%d0, H0⟩, ⟨%d1, H1⟩, ⟨%d2, H2⟩, ⟨%d3, H3⟩, ⟨%d4, H4⟩, ⟨%d5, H5⟩, ⟨%d6, H6⟩, ⟨%d7, H7⟩, ⟨%d8, H8⟩⟩
  iapply ((kernelRun0_A c (grid0.coords t) _ _ _ _ _ _ _ _ _ _ _ _ _ _ _ _ _ _ _ _ _ _ _ _ _ _ hc0 hc1 (iblk m c 0 t) (iblk m c 1 t) (iblk m c 2 t) (iblk m c 3 t) (iblk m c 4 t)).2.2.2.2 _ _ _ _ Set.univ _)
  isplitl [H0]; · iexact H0
  isplitl [H1]; · iexact H1
  isplitl [H2]; · iexact H2
  isplitl [H3]; · iexact H3
  isplitl [H4]; · iexact H4
  isplitl [H5]; · iexact H5
  isplitl [H6]; · iexact H6
  isplitl [H7]; · iexact H7
  isplitl [H8]; · iexact H8
  isplitl [HS0]; · iexact HS0
  isplitl [HS1]; · iexact HS1
  isplitl [HS2]; · iexact HS2
  isplitl [HS3]; · iexact HS3
  iintro ⟨H0, H1, H2, H3, H4, H5, H6, H7, H8, ⟨%es0, HS0⟩, ⟨%es1, HS1⟩, ⟨%es2, HS2⟩, ⟨%es3, HS3⟩⟩
  isplitl [HS0 HS1 HS2 HS3 Hg]
  · isplitl [HS0 HS1 HS2 HS3]
    · isplitl [HS0]
      · unfold owns; iexists _; isplitr
        swap; · iexact HS0
        ipureintro; exact View.read_writes_of_cover _ _ _ _ _ (scover0_A_0 c _ _ _ _ _ _ _ _ _ _ _ _ _ _ _ _ _ _ _ _ _ _ _ _ _ _ _ _ _ _ _ _ _ _)
      isplitl [HS1]
      · unfold owns; iexists _; isplitr
        swap; · iexact HS1
        ipureintro; exact View.read_writes_of_cover _ _ _ _ _ (scover0_A_1 c _ _ _ _ _ _ _ _ _ _ _ _ _ _ _ _ _ _ _ _ _ _ _ _ _ _ _ _ _ _ _ _ _ _)
      isplitl [HS2]
      · unfold owns; iexists _; isplitr
        swap; · iexact HS2
        ipureintro; exact View.read_writes_of_cover _ _ _ _ _ (scover0_A_2 c _ _ _ _ _ _ _ _ _ _ _ _ _ _ _ _ _ _ _ _ _ _ _ _ _ _ _ _ _ _ _ _ _ _)
      unfold owns; iexists _; isplitr
      swap; · iexact HS3
      ipureintro; exact View.read_writes_of_cover _ _ _ _ _ (scover0_A_3 c _ _ _ _ _ _ _ _ _ _ _ _ _ _ _ _ _ _ _ _ _ _ _ _ _ _ _ _ _ _ _ _ _ _)
    iexact Hg
  isplitl [Ho]; · iexact Ho
  isplitl [H0]; · iexact H0
  isplitl [H1]; · iexact H1
  isplitl [H2]; · iexact H2
  isplitl [H3]; · iexact H3
  isplitl [H4]; · iexact H4
  isplitl [H5]; · iexists _; iexact H5
  isplitl [H6]; · iexists _; iexact H6
  isplitl [H7]; · iexists _; iexact H7
  iexists _; iexact H8

set_option maxHeartbeats 16000000 in
/-- The body at the first tile of the second core's half: the accumulators arrive at what the last tile of the first
    half left, and are reset. -/
theorem sound_body_A (c : Dev nD) (t : Fin cfg0.N) (h0 : t.val % 64 = 0) (hz : t.val ≠ 0) :
    bodyPre m c t ⊢ wp frame (wpE (defs₀ (F := F)) Variants.none c none) Set.univ (bodyAt0 t) (fun _ => bodyPost m c t) := by
  unfold bodyPre bodyPost bodyAt0
  simp only [before0_0, before0_1, before0_2, before0_3, before0_4]
  rw [show (dats m 0 c).owesAt () t.succ = (dats m 0 c).owesAt () t.castSucc from rfl]
  rw [show (dats m 0 c).Φ t.succ = PhiS m c (t.val + 1) t.isLt from rfl, PhiS_succ]
  have hN : t.val < 128 := lt_of_lt_of_eq t.isLt (show cfg0.N = 128 from N_0)
  rw [show (dats m 0 c).leavesExact 0 t = owns (c : Thread nD τ) (ms0_0 t) fullShare ((dats m 0 c).after 0 t) from by
    unfold Dat.leavesExact; rw [liveAt0_0 t], after0_0]
  rw [show (dats m 0 c).leavesExact 1 t = owns (c : Thread nD τ) (ms0_1 t) fullShare ((dats m 0 c).after 1 t) from by
    unfold Dat.leavesExact; rw [liveAt0_1 t], after0_1]
  rw [show (dats m 0 c).leavesExact 2 t = owns (c : Thread nD τ) (ms0_2 t) fullShare ((dats m 0 c).after 2 t) from by
    unfold Dat.leavesExact; rw [liveAt0_2 t], after0_2]
  rw [show (dats m 0 c).leavesExact 3 t = owns (c : Thread nD τ) (ms0_3 t) fullShare ((dats m 0 c).after 3 t) from by
    unfold Dat.leavesExact; rw [liveAt0_3 t], after0_3]
  rw [show (dats m 0 c).leavesExact 4 t = owns (c : Thread nD τ) (ms0_4 t) fullShare ((dats m 0 c).after 4 t) from by
    unfold Dat.leavesExact; rw [liveAt0_4 t], after0_4]
  have h1 : ¬t.val % 64 = 63 := not_last_of_first h0
  have hc0 : cond0_0 (grid0.coords t) := (hcond0_0 t).mpr h0
  have hc1 : ¬cond0_1 (grid0.coords t) := fun h => h1 ((hcond0_1 t).mp h)
  rw [Dat.leavesExact_idle (dats m 0 c) 5 t (idleAt0_out 5 (by decide) t hc1) (noFlush0_out 5 (by decide) t hc1)]
  rw [Dat.leavesExact_idle (dats m 0 c) 6 t (idleAt0_out 6 (by decide) t hc1) (noFlush0_out 6 (by decide) t hc1)]
  rw [Dat.leavesExact_idle (dats m 0 c) 7 t (idleAt0_out 7 (by decide) t hc1) (noFlush0_out 7 (by decide) t hc1)]
  rw [Dat.leavesExact_idle (dats m 0 c) 8 t (idleAt0_out 8 (by decide) t hc1) (noFlush0_out 8 (by decide) t hc1)]
  rw [PhiS_castSucc m c t, PhiS_pos m c _ _ hz]
  rw [scAt_A m c t h0]
  unfold scA sout0_A_0 sout0_A_1 sout0_A_2 sout0_A_3; (try dsimp only)
  iintro ⟨⟨⟨HS0, HS1, HS2, HS3⟩, Hg⟩, Ho, ⟨%d0, H0⟩, ⟨%d1, H1⟩, ⟨%d2, H2⟩, ⟨%d3, H3⟩, ⟨%d4, H4⟩, ⟨%d5, H5⟩, ⟨%d6, H6⟩, ⟨%d7, H7⟩, ⟨%d8, H8⟩⟩
  iapply ((kernelRun0_A c (grid0.coords t) _ _ _ _ _ _ _ _ _ _ _ _ _ _ _ _ _ _ _ _ _ _ _ _ _ _ hc0 hc1 (iblk m c 0 t) (iblk m c 1 t) (iblk m c 2 t) (iblk m c 3 t) (iblk m c 4 t)).2.2.2.2 _ _ _ _ Set.univ _)
  isplitl [H0]; · iexact H0
  isplitl [H1]; · iexact H1
  isplitl [H2]; · iexact H2
  isplitl [H3]; · iexact H3
  isplitl [H4]; · iexact H4
  isplitl [H5]; · iexact H5
  isplitl [H6]; · iexact H6
  isplitl [H7]; · iexact H7
  isplitl [H8]; · iexact H8
  isplitl [HS0]; · iexists _; iexact HS0
  isplitl [HS1]; · iexists _; iexact HS1
  isplitl [HS2]; · iexists _; iexact HS2
  isplitl [HS3]; · iexists _; iexact HS3
  iintro ⟨H0, H1, H2, H3, H4, H5, H6, H7, H8, ⟨%es0, HS0⟩, ⟨%es1, HS1⟩, ⟨%es2, HS2⟩, ⟨%es3, HS3⟩⟩
  isplitl [HS0 HS1 HS2 HS3 Hg]
  · isplitl [HS0 HS1 HS2 HS3]
    · isplitl [HS0]
      · unfold owns; iexists _; isplitr
        swap; · iexact HS0
        ipureintro; exact View.read_writes_of_cover _ _ _ _ _ (scover0_A_0 c _ _ _ _ _ _ _ _ _ _ _ _ _ _ _ _ _ _ _ _ _ _ _ _ _ _ _ _ _ _ _ _ _ _)
      isplitl [HS1]
      · unfold owns; iexists _; isplitr
        swap; · iexact HS1
        ipureintro; exact View.read_writes_of_cover _ _ _ _ _ (scover0_A_1 c _ _ _ _ _ _ _ _ _ _ _ _ _ _ _ _ _ _ _ _ _ _ _ _ _ _ _ _ _ _ _ _ _ _)
      isplitl [HS2]
      · unfold owns; iexists _; isplitr
        swap; · iexact HS2
        ipureintro; exact View.read_writes_of_cover _ _ _ _ _ (scover0_A_2 c _ _ _ _ _ _ _ _ _ _ _ _ _ _ _ _ _ _ _ _ _ _ _ _ _ _ _ _ _ _ _ _ _ _)
      unfold owns; iexists _; isplitr
      swap; · iexact HS3
      ipureintro; exact View.read_writes_of_cover _ _ _ _ _ (scover0_A_3 c _ _ _ _ _ _ _ _ _ _ _ _ _ _ _ _ _ _ _ _ _ _ _ _ _ _ _ _ _ _ _ _ _ _)
    iexact Hg
  isplitl [Ho]; · iexact Ho
  isplitl [H0]; · iexact H0
  isplitl [H1]; · iexact H1
  isplitl [H2]; · iexact H2
  isplitl [H3]; · iexact H3
  isplitl [H4]; · iexact H4
  isplitl [H5]; · iexists _; iexact H5
  isplitl [H6]; · iexists _; iexact H6
  isplitl [H7]; · iexists _; iexact H7
  iexists _; iexact H8

set_option maxHeartbeats 16000000 in
/-- The body at a middle tile. -/
theorem sound_body_B (c : Dev nD) (t : Fin cfg0.N) (h0 : ¬t.val % 64 = 0) (h1 : ¬t.val % 64 = 63) :
    bodyPre m c t ⊢ wp frame (wpE (defs₀ (F := F)) Variants.none c none) Set.univ (bodyAt0 t) (fun _ => bodyPost m c t) := by
  unfold bodyPre bodyPost bodyAt0
  simp only [before0_0, before0_1, before0_2, before0_3, before0_4]
  rw [show (dats m 0 c).owesAt () t.succ = (dats m 0 c).owesAt () t.castSucc from rfl]
  rw [show (dats m 0 c).Φ t.succ = PhiS m c (t.val + 1) t.isLt from rfl, PhiS_succ]
  have hN : t.val < 128 := lt_of_lt_of_eq t.isLt (show cfg0.N = 128 from N_0)
  rw [show (dats m 0 c).leavesExact 0 t = owns (c : Thread nD τ) (ms0_0 t) fullShare ((dats m 0 c).after 0 t) from by
    unfold Dat.leavesExact; rw [liveAt0_0 t], after0_0]
  rw [show (dats m 0 c).leavesExact 1 t = owns (c : Thread nD τ) (ms0_1 t) fullShare ((dats m 0 c).after 1 t) from by
    unfold Dat.leavesExact; rw [liveAt0_1 t], after0_1]
  rw [show (dats m 0 c).leavesExact 2 t = owns (c : Thread nD τ) (ms0_2 t) fullShare ((dats m 0 c).after 2 t) from by
    unfold Dat.leavesExact; rw [liveAt0_2 t], after0_2]
  rw [show (dats m 0 c).leavesExact 3 t = owns (c : Thread nD τ) (ms0_3 t) fullShare ((dats m 0 c).after 3 t) from by
    unfold Dat.leavesExact; rw [liveAt0_3 t], after0_3]
  rw [show (dats m 0 c).leavesExact 4 t = owns (c : Thread nD τ) (ms0_4 t) fullShare ((dats m 0 c).after 4 t) from by
    unfold Dat.leavesExact; rw [liveAt0_4 t], after0_4]
  have hz : t.val ≠ 0 := fun e => h0 (by rw [e])
  have hc0 : ¬cond0_0 (grid0.coords t) := fun h => h0 ((hcond0_0 t).mp h)
  have hc1 : ¬cond0_1 (grid0.coords t) := fun h => h1 ((hcond0_1 t).mp h)
  rw [Dat.leavesExact_idle (dats m 0 c) 5 t (idleAt0_out 5 (by decide) t hc1) (noFlush0_out 5 (by decide) t hc1)]
  rw [Dat.leavesExact_idle (dats m 0 c) 6 t (idleAt0_out 6 (by decide) t hc1) (noFlush0_out 6 (by decide) t hc1)]
  rw [Dat.leavesExact_idle (dats m 0 c) 7 t (idleAt0_out 7 (by decide) t hc1) (noFlush0_out 7 (by decide) t hc1)]
  rw [Dat.leavesExact_idle (dats m 0 c) 8 t (idleAt0_out 8 (by decide) t hc1) (noFlush0_out 8 (by decide) t hc1)]
  rw [PhiS_castSucc m c t, PhiS_pos m c _ _ hz]
  rw [scAt_B m c t h0 h1]
  unfold scB sout0_B_0 sout0_B_1 sout0_B_2 sout0_B_3; (try dsimp only)
  iintro ⟨⟨⟨HS0, HS1, HS2, HS3⟩, Hg⟩, Ho, ⟨%d0, H0⟩, ⟨%d1, H1⟩, ⟨%d2, H2⟩, ⟨%d3, H3⟩, ⟨%d4, H4⟩, ⟨%d5, H5⟩, ⟨%d6, H6⟩, ⟨%d7, H7⟩, ⟨%d8, H8⟩⟩
  iapply ((kernelRun0_B c (grid0.coords t) _ _ _ _ _ _ _ _ _ _ _ _ _ _ _ _ _ _ _ _ _ _ _ _ _ _ hc0 hc1 (iblk m c 0 t) (iblk m c 1 t) (iblk m c 2 t) (iblk m c 3 t) (iblk m c 4 t) _ _ _ _).2.2.2.2 _ _ _ _ Set.univ _)
  isplitl [H0]; · iexact H0
  isplitl [H1]; · iexact H1
  isplitl [H2]; · iexact H2
  isplitl [H3]; · iexact H3
  isplitl [H4]; · iexact H4
  isplitl [H5]; · iexact H5
  isplitl [H6]; · iexact H6
  isplitl [H7]; · iexact H7
  isplitl [H8]; · iexact H8
  isplitl [HS0]; · iexact HS0
  isplitl [HS1]; · iexact HS1
  isplitl [HS2]; · iexact HS2
  isplitl [HS3]; · iexact HS3
  iintro ⟨H0, H1, H2, H3, H4, H5, H6, H7, H8, ⟨%es0, HS0⟩, ⟨%es1, HS1⟩, ⟨%es2, HS2⟩, ⟨%es3, HS3⟩⟩
  isplitl [HS0 HS1 HS2 HS3 Hg]
  · isplitl [HS0 HS1 HS2 HS3]
    · isplitl [HS0]
      · unfold owns; iexists _; isplitr
        swap; · iexact HS0
        ipureintro; exact View.read_writes_of_cover _ _ _ _ _ (scover0_B_0 c _ _ _ _ _ _ _ _ _ _ _ _ _ _ _ _ _ _ _ _ _ _ _ _ _ _ _ _ _ _ _ _ _ _ _ _ _ _)
      isplitl [HS1]
      · unfold owns; iexists _; isplitr
        swap; · iexact HS1
        ipureintro; exact View.read_writes_of_cover _ _ _ _ _ (scover0_B_1 c _ _ _ _ _ _ _ _ _ _ _ _ _ _ _ _ _ _ _ _ _ _ _ _ _ _ _ _ _ _ _ _ _ _ _ _ _ _)
      isplitl [HS2]
      · unfold owns; iexists _; isplitr
        swap; · iexact HS2
        ipureintro; exact View.read_writes_of_cover _ _ _ _ _ (scover0_B_2 c _ _ _ _ _ _ _ _ _ _ _ _ _ _ _ _ _ _ _ _ _ _ _ _ _ _ _ _ _ _ _ _ _ _ _ _ _ _)
      unfold owns; iexists _; isplitr
      swap; · iexact HS3
      ipureintro; exact View.read_writes_of_cover _ _ _ _ _ (scover0_B_3 c _ _ _ _ _ _ _ _ _ _ _ _ _ _ _ _ _ _ _ _ _ _ _ _ _ _ _ _ _ _ _ _ _ _ _ _ _ _)
    iexact Hg
  isplitl [Ho]; · iexact Ho
  isplitl [H0]; · iexact H0
  isplitl [H1]; · iexact H1
  isplitl [H2]; · iexact H2
  isplitl [H3]; · iexact H3
  isplitl [H4]; · iexact H4
  isplitl [H5]; · iexists _; iexact H5
  isplitl [H6]; · iexists _; iexact H6
  isplitl [H7]; · iexists _; iexact H7
  iexists _; iexact H8

set_option maxHeartbeats 16000000 in
/-- The body at a last tile: the updated accumulators are also copied whole into the four output buffers. -/
theorem sound_body_C (c : Dev nD) (t : Fin cfg0.N) (h0 : ¬t.val % 64 = 0) (h1 : t.val % 64 = 63) :
    bodyPre m c t ⊢ wp frame (wpE (defs₀ (F := F)) Variants.none c none) Set.univ (bodyAt0 t) (fun _ => bodyPost m c t) := by
  unfold bodyPre bodyPost bodyAt0
  simp only [before0_0, before0_1, before0_2, before0_3, before0_4]
  rw [show (dats m 0 c).owesAt () t.succ = (dats m 0 c).owesAt () t.castSucc from rfl]
  rw [show (dats m 0 c).Φ t.succ = PhiS m c (t.val + 1) t.isLt from rfl, PhiS_succ]
  have hN : t.val < 128 := lt_of_lt_of_eq t.isLt (show cfg0.N = 128 from N_0)
  rw [show (dats m 0 c).leavesExact 0 t = owns (c : Thread nD τ) (ms0_0 t) fullShare ((dats m 0 c).after 0 t) from by
    unfold Dat.leavesExact; rw [liveAt0_0 t], after0_0]
  rw [show (dats m 0 c).leavesExact 1 t = owns (c : Thread nD τ) (ms0_1 t) fullShare ((dats m 0 c).after 1 t) from by
    unfold Dat.leavesExact; rw [liveAt0_1 t], after0_1]
  rw [show (dats m 0 c).leavesExact 2 t = owns (c : Thread nD τ) (ms0_2 t) fullShare ((dats m 0 c).after 2 t) from by
    unfold Dat.leavesExact; rw [liveAt0_2 t], after0_2]
  rw [show (dats m 0 c).leavesExact 3 t = owns (c : Thread nD τ) (ms0_3 t) fullShare ((dats m 0 c).after 3 t) from by
    unfold Dat.leavesExact; rw [liveAt0_3 t], after0_3]
  rw [show (dats m 0 c).leavesExact 4 t = owns (c : Thread nD τ) (ms0_4 t) fullShare ((dats m 0 c).after 4 t) from by
    unfold Dat.leavesExact; rw [liveAt0_4 t], after0_4]
  have hz : t.val ≠ 0 := fun e => h0 (by rw [e])
  have hc0 : ¬cond0_0 (grid0.coords t) := fun h => h0 ((hcond0_0 t).mp h)
  have hc1 : cond0_1 (grid0.coords t) := (hcond0_1 t).mpr h1
  rw [show (dats m 0 c).leavesExact 5 t = owns (c : Thread nD τ) (ms0_5 t) fullShare ((dats m 0 c).after 5 t) from by
    unfold Dat.leavesExact; rw [liveAt0_out 5 (by decide) t hc1], after0_5]
  rw [show (dats m 0 c).leavesExact 6 t = owns (c : Thread nD τ) (ms0_6 t) fullShare ((dats m 0 c).after 6 t) from by
    unfold Dat.leavesExact; rw [liveAt0_out 6 (by decide) t hc1], after0_6]
  rw [show (dats m 0 c).leavesExact 7 t = owns (c : Thread nD τ) (ms0_7 t) fullShare ((dats m 0 c).after 7 t) from by
    unfold Dat.leavesExact; rw [liveAt0_out 7 (by decide) t hc1], after0_7]
  rw [show (dats m 0 c).leavesExact 8 t = owns (c : Thread nD τ) (ms0_8 t) fullShare ((dats m 0 c).after 8 t) from by
    unfold Dat.leavesExact; rw [liveAt0_out 8 (by decide) t hc1], after0_8]
  rw [PhiS_castSucc m c t, PhiS_pos m c _ _ hz]
  rw [outAt_C m c t h1, scAt_C m c t h0 h1]
  unfold outC scC out0_C_5 out0_C_6 out0_C_7 out0_C_8 sout0_C_0 sout0_C_1 sout0_C_2 sout0_C_3; (try dsimp only)
  iintro ⟨⟨⟨HS0, HS1, HS2, HS3⟩, Hg⟩, Ho, ⟨%d0, H0⟩, ⟨%d1, H1⟩, ⟨%d2, H2⟩, ⟨%d3, H3⟩, ⟨%d4, H4⟩, ⟨%d5, H5⟩, ⟨%d6, H6⟩, ⟨%d7, H7⟩, ⟨%d8, H8⟩⟩
  iapply ((kernelRun0_C c (grid0.coords t) _ _ _ _ _ _ _ _ _ _ _ _ _ _ _ _ _ _ _ _ _ _ _ _ _ _ hc0 hc1 (iblk m c 0 t) (iblk m c 1 t) (iblk m c 2 t) (iblk m c 3 t) (iblk m c 4 t) _ _ _ _).2.2.2.2.2.2.2.2 Set.univ _)
  isplitl [H0]; · iexact H0
  isplitl [H1]; · iexact H1
  isplitl [H2]; · iexact H2
  isplitl [H3]; · iexact H3
  isplitl [H4]; · iexact H4
  isplitl [H5]; · iexists _; iexact H5
  isplitl [H6]; · iexists _; iexact H6
  isplitl [H7]; · iexists _; iexact H7
  isplitl [H8]; · iexists _; iexact H8
  isplitl [HS0]; · iexact HS0
  isplitl [HS1]; · iexact HS1
  isplitl [HS2]; · iexact HS2
  isplitl [HS3]; · iexact HS3
  iintro ⟨H0, H1, H2, H3, H4, ⟨%e5, H5⟩, ⟨%e6, H6⟩, ⟨%e7, H7⟩, ⟨%e8, H8⟩, ⟨%es0, HS0⟩, ⟨%es1, HS1⟩, ⟨%es2, HS2⟩, ⟨%es3, HS3⟩⟩
  isplitl [HS0 HS1 HS2 HS3 Hg]
  · isplitl [HS0 HS1 HS2 HS3]
    · isplitl [HS0]
      · unfold owns; iexists _; isplitr
        swap; · iexact HS0
        ipureintro; exact View.read_writes_of_cover _ _ _ _ _ (scover0_C_0 c _ _ _ _ _ _ _ _ _ _ _ _ _ _ _ _ _ _ _ _ _ _ _ _ _ _ _ _ _ _ _ _ _ _ _ _ _ _)
      isplitl [HS1]
      · unfold owns; iexists _; isplitr
        swap; · iexact HS1
        ipureintro; exact View.read_writes_of_cover _ _ _ _ _ (scover0_C_1 c _ _ _ _ _ _ _ _ _ _ _ _ _ _ _ _ _ _ _ _ _ _ _ _ _ _ _ _ _ _ _ _ _ _ _ _ _ _)
      isplitl [HS2]
      · unfold owns; iexists _; isplitr
        swap; · iexact HS2
        ipureintro; exact View.read_writes_of_cover _ _ _ _ _ (scover0_C_2 c _ _ _ _ _ _ _ _ _ _ _ _ _ _ _ _ _ _ _ _ _ _ _ _ _ _ _ _ _ _ _ _ _ _ _ _ _ _)
      unfold owns; iexists _; isplitr
      swap; · iexact HS3
      ipureintro; exact View.read_writes_of_cover _ _ _ _ _ (scover0_C_3 c _ _ _ _ _ _ _ _ _ _ _ _ _ _ _ _ _ _ _ _ _ _ _ _ _ _ _ _ _ _ _ _ _ _ _ _ _ _)
    iexact Hg
  isplitl [Ho]; · iexact Ho
  isplitl [H0]; · iexact H0
  isplitl [H1]; · iexact H1
  isplitl [H2]; · iexact H2
  isplitl [H3]; · iexact H3
  isplitl [H4]; · iexact H4
  isplitl [H5]
  · unfold owns; iexists _; isplitr
    swap; · iexact H5
    ipureintro; exact View.read_writes_of_cover _ _ _ _ _ (cover0_C_5 c _ _ _ _ _ _ _ _ _ _ _ _ _ _ _ _ _ _ _ _ _ _ _ _ _ _ _ _ _ _ _ _ _ _ _ _ _ _)
  isplitl [H6]
  · unfold owns; iexists _; isplitr
    swap; · iexact H6
    ipureintro; exact View.read_writes_of_cover _ _ _ _ _ (cover0_C_6 c _ _ _ _ _ _ _ _ _ _ _ _ _ _ _ _ _ _ _ _ _ _ _ _ _ _ _ _ _ _ _ _ _ _ _ _ _ _)
  isplitl [H7]
  · unfold owns; iexists _; isplitr
    swap; · iexact H7
    ipureintro; exact View.read_writes_of_cover _ _ _ _ _ (cover0_C_7 c _ _ _ _ _ _ _ _ _ _ _ _ _ _ _ _ _ _ _ _ _ _ _ _ _ _ _ _ _ _ _ _ _ _ _ _ _ _)
  unfold owns; iexists _; isplitr
  swap; · iexact H8
  ipureintro; exact View.read_writes_of_cover _ _ _ _ _ (cover0_C_8 c _ _ _ _ _ _ _ _ _ _ _ _ _ _ _ _ _ _ _ _ _ _ _ _ _ _ _ _ _ _ _ _ _ _ _ _ _ _)

/-- The body at any point: a first tile (of the whole grid, or of the second half), a last tile, or a middle one. -/
theorem sound_body (c : Dev nD) (t : Fin cfg0.N) :
    bodyPre m c t ⊢ wp frame (wpE (defs₀ (F := F)) Variants.none c none) Set.univ (bodyAt0 t) (fun _ => bodyPost m c t) := by
  by_cases h0 : t.val % 64 = 0
  · by_cases hz : t.val = 0
    · exact sound_body_first m c t hz
    · exact sound_body_A m c t h0 hz
  · by_cases h1 : t.val % 64 = 63
    · exact sound_body_C m c t h0 h1
    · exact sound_body_B m c t h0 h1

/-- The library's body obligation, at every point. -/
theorem body_obligation (c : Dev nD) : BodyObligation (dats (F := F) m 0 c) (defs₀ (F := F)) Variants.none () Set.univ := fun t => by
  rw [bigSep_W0, bigSep_W0]
  exact sound_body m c t

/-- What the launch hands the region is the invariant before the first point. -/
theorem hin (c : Dev nD) : Pipeline.ΦA spec0 c ⊢ (dats m 0 c).Φ 0 := by
  rw [show (dats m 0 c).Φ 0 = PhiS m c 0 (Nat.zero_le _) from rfl, PhiS_zero m c 0 _ rfl]
  try exact Idealize.SL.BI.Entails.refl _

/-- After any point but the first the invariant gives the scratch buffers back at some contents. -/
theorem Phi_out (c : Dev nD) (t : Fin (cfg0.N + 1)) (ht : t.val ≠ 0) : (dats m 0 c).Φ t ⊢ Pipeline.ΦA spec0 c := by
  rw [show (dats m 0 c).Φ t = PhiS m c t.val (Nat.le_of_lt_succ t.isLt) from rfl, PhiS_pos m c _ _ ht, PhiA0_eq]
  iintro ⟨⟨HS0, HS1, HS2, HS3⟩, Hg⟩
  isplitl [HS0 HS1 HS2 HS3]
  · isplitl [HS0]; · iexists _; iexact HS0
    isplitl [HS1]; · iexists _; iexact HS1
    isplitl [HS2]; · iexists _; iexact HS2
    iexists _; iexact HS3
  iexact Hg

theorem hout (c : Dev nD) : (dats m 0 c).Φ (Fin.last cfg0.N) ⊢ Pipeline.ΦA spec0 c :=
  Phi_out m c _ (by rw [Fin.val_last]; have : cfg0.N = 128 := N_0; omega)

/-! ## The run and the frame -/

set_option backward.isDefEq.respectTransparency.types false in
/-- From any memory with zero counters, every weakly fair execution of the program terminates, and every final state
    has each of the pipeline's arrays at what the proof data give (an input as it was, an output overwritten block by
    block by what the last tiles left) and every other buffer as the host operations after the region leave it. -/
theorem run_main : θ_run defs (onTc (τ := τ) (main (F := F))) (s₀ m ρ) (Pipeline.FramePost cfgs (dats m) 0 (Pipeline.afterTail₀ cfgs (dats m) 0 (V0 m) tailOps)) :=
  Pipeline.θ_run_frame_around_track cfgs (dats m) (0 : Fin 1) launch0 defs₀ Variants.none m ρ main
    (hbody := fun c => (body_obligation m c).loose) (hshare := fun c => (dats m 0 c).share_full fun _ => rfl)
    (howed := fun _ _ => rfl) (V₀ := V0 m) (opss := tailOps) (hsub := sfx_sub) (hfresh := sfx_fresh) (hkeep := sfx_keeps)
    (hmain := hmain m Variants.none) (hA := A_eq m) (hin := hin m) (hout := hout m)

/-- THE FRAME: every weakly fair execution terminates, nothing faults, and the six argument arrays end as launched. -/
theorem frame : θ_run defs (onTc (τ := τ) (main (F := F))) ⟨m, fun _ => 0, ρ⟩ (fun r => ∀ c : Dev nD,
      r.2.mem ((c.tc : Thread nD τ).loc main_arg0) = m ((c.tc : Thread nD τ).loc main_arg0)
      ∧ r.2.mem ((c.tc : Thread nD τ).loc main_arg1) = m ((c.tc : Thread nD τ).loc main_arg1)
      ∧ r.2.mem ((c.tc : Thread nD τ).loc main_arg2) = m ((c.tc : Thread nD τ).loc main_arg2)
      ∧ r.2.mem ((c.tc : Thread nD τ).loc main_arg3) = m ((c.tc : Thread nD τ).loc main_arg3)
      ∧ r.2.mem ((c.tc : Thread nD τ).loc main_arg4) = m ((c.tc : Thread nD τ).loc main_arg4)
      ∧ r.2.mem ((c.tc : Thread nD τ).loc main_arg5) = m ((c.tc : Thread nD τ).loc main_arg5)) :=
  frame_of m ρ (dats m) (A_eq m) (run_main m ρ)

end Cert.Kernel.Hand

end
-- ==== Proof.KI.Base.lean ====
/-
  The streaming kernel's program around its one region: the host operations before the region leave each buffer at a
  composed term of the launch memory (the valuation `V0`), the region's nine windows read their blocks off those
  contents (`iblk`), and five stretches of host operations follow the region (`tailOps`).
-/
import proofs.«405218_j60748017434937_2_alg».proof.Proof.Gen.KernelIdeal.Launch
import proofs.«405218_j60748017434937_2_alg».proof.Proof.Gen.KernelIdeal.Skeleton
import proofs.«405218_j60748017434937_2_alg».proof.Proof.Gen.KernelIdeal.Points
import Idealize.ShloMosaic.Lib.Pipeline.FrameBody
import Idealize.ShloMosaic.Lib.Pipeline.FrameSuffix
import Idealize.ShloMosaic.Lib.Ring
import Idealize.ShloMosaic.Lib.Tactic

set_option maxRecDepth 16384

noncomputable section

namespace Cert.KernelIdeal.Hand

open Cert.KernelIdeal Cert.KernelIdeal.Gen
open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)

variable {F : FTy → Type} [FloatOps F]

local notation "𝕄" => MT nD τ sig Unit (Elt F) ℕ (UR sig nD τ) ℕ

variable (m : (ℓ : Loc nD τ sig) → Buf (Elt F) ℓ) (ρ : Dev nD → PrngReg)

/-- The stretches of host operations after the region, in program order. -/
abbrev tailOps : List (List (HloOp τ sig (Elt F))) := [hostOps1, hostOps1_1, hostOps1_2, hostOps1_3, hostOps1_4]

/-- Core `c`'s buffer contents when the region is entered: the launch memory after the host operations before it. -/
abbrev V0 (c : Dev nD) : Valuation τ sig (Elt F) := StableHlo.after (List.flatten [hostOps0]) (fun b => m (c, b))
/-- The same read at a TensorCore reference. -/
abbrev V (c : Dev nD) (b : Ref sig .tc) : Buf (Elt F) ((c : Thread nD τ).loc b) := V0 m c (Proc.devRef .tc b)

/-- Window `w`'s block at grid point `t`, read off its array as the region finds it. -/
def iblk (c : Dev nD) (w : Fin cfg0.W) (t : Fin cfg0.N) : ((cfg0.win w).xblock (cfg0.grid.coords t)).Idx → Elt F (cfg0.win w).elt :=
  ((cfg0.win w).blk t).view.read (Elt F) (V m c (Pipeline.arrRef spec0 w))

end Cert.KernelIdeal.Hand

end
-- ==== Proof.KI.Conds.lean ====
/-
  The kernel body's two branches over the grid: a point is the first tile of its core's half (the accumulators are
  reset: `t % 64 = 0`), the last (the accumulators are copied to the outputs: `t % 64 = 63`), or neither. The four
  output windows are idle, and not written back, except at a last tile. The staging and scratch memrefs as the pipeline
  passes them to the body, and the region invariant with the four scratch buffers owned at some contents.
-/
import proofs.«405218_j60748017434937_2_alg».proof.Proof.KI.Base

set_option maxRecDepth 16384

noncomputable section

namespace Cert.KernelIdeal.Hand

open Cert.KernelIdeal Cert.KernelIdeal.Gen
open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)

variable {F : FTy → Type} [FloatOps F]

local notation "𝕄" => MT nD τ sig Unit (Elt F) ℕ (UR sig nD τ) ℕ

variable (m : (ℓ : Loc nD τ sig) → Buf (Elt F) ℓ) (ρ : Dev nD → PrngReg)

/-! ## The two branch conditions, decided over the grid -/

/-- The first branch (reset of the four accumulators): the tile coordinate is zero. -/
abbrev cond0_0 (i : grid0.Coords) : Prop := (Scalar.cmpi .ne (Scalar.extui (Scalar.cmpi .eq (BitVec.ofNat 32 (i 1).val) 0#32)) 0#32) = 1#1
theorem hcond0_0 : ∀ t : Fin cfg0.N, cond0_0 (grid0.coords t) ↔ t.val % 64 = 0 :=
  (by decide +kernel : ∀ t : Fin grid0.N, cond0_0 (grid0.coords t) ↔ t.val % 64 = 0)

/-- The second branch (the accumulators copied out): the tile coordinate is the last, 63. -/
abbrev cond0_1 (i : grid0.Coords) : Prop := k0_cond2 i = 1#1
theorem hcond0_1 : ∀ t : Fin cfg0.N, cond0_1 (grid0.coords t) ↔ t.val % 64 = 63 :=
  (by decide +kernel : ∀ t : Fin grid0.N, cond0_1 (grid0.coords t) ↔ t.val % 64 = 63)

/-! ## Where the windows are idle -/

theorem liveAt0_0 : ∀ t : Fin cfg0.N, cfg0.idle 0 (grid0.coords t) = false := by decide +kernel
theorem liveAt0_1 : ∀ t : Fin cfg0.N, cfg0.idle 1 (grid0.coords t) = false := by decide +kernel
theorem liveAt0_2 : ∀ t : Fin cfg0.N, cfg0.idle 2 (grid0.coords t) = false := by decide +kernel
theorem liveAt0_3 : ∀ t : Fin cfg0.N, cfg0.idle 3 (grid0.coords t) = false := by decide +kernel
theorem liveAt0_4 : ∀ t : Fin cfg0.N, cfg0.idle 4 (grid0.coords t) = false := by decide +kernel
/-- Away from a last tile an output window is idle and is not written back. -/
theorem idleAt0_out : ∀ (w : Fin 9), 5 ≤ w.val → ∀ t : Fin cfg0.N, ¬cond0_1 (grid0.coords t) → cfg0.idle w (grid0.coords t) = true := by decide +kernel
theorem noFlush0_out : ∀ (w : Fin 9), 5 ≤ w.val → ∀ t : Fin cfg0.N, ¬cond0_1 (grid0.coords t) → (cfg0.win w).flush t = false := by decide +kernel
/-- At a last tile the body stores into every output window. -/
theorem liveAt0_out : ∀ (w : Fin 9), 5 ≤ w.val → ∀ t : Fin cfg0.N, cond0_1 (grid0.coords t) → cfg0.idle w (grid0.coords t) = false := by decide +kernel

/-! ## The memrefs the body is called with -/

abbrev ms0_0 (t : Fin cfg0.N) : Memref sig .tc .vmem S128x512 .f32 := win0_0.stage (cfg0.slots t 0)
abbrev hs0_0 (t : Fin cfg0.N) : (ms0_0 t).IsWhole := hstage0_0 ((cfg0.slots t 0).cast nbuf0_0)
abbrev ms0_1 (t : Fin cfg0.N) : Memref sig .tc .vmem S512x1 .i32 := win0_1.stage (cfg0.slots t 1)
abbrev hs0_1 (t : Fin cfg0.N) : (ms0_1 t).IsWhole := hstage0_1 ((cfg0.slots t 1).cast nbuf0_1)
abbrev ms0_2 (t : Fin cfg0.N) : Memref sig .tc .vmem S1x512 .i32 := win0_2.stage (cfg0.slots t 2)
abbrev hs0_2 (t : Fin cfg0.N) : (ms0_2 t).IsWhole := hstage0_2 ((cfg0.slots t 2).cast nbuf0_2)
abbrev ms0_3 (t : Fin cfg0.N) : Memref sig .tc .vmem S1024x128 .bf16 := win0_3.stage (cfg0.slots t 3)
abbrev hs0_3 (t : Fin cfg0.N) : (ms0_3 t).IsWhole := hstage0_3 ((cfg0.slots t 3).cast nbuf0_3)
abbrev ms0_4 (t : Fin cfg0.N) : Memref sig .tc .vmem S1024x1 .i32 := win0_4.stage (cfg0.slots t 4)
abbrev hs0_4 (t : Fin cfg0.N) : (ms0_4 t).IsWhole := hstage0_4 ((cfg0.slots t 4).cast nbuf0_4)
abbrev ms0_5 (t : Fin cfg0.N) : Memref sig .tc .vmem S1x128x2048 .f32 := win0_5.stage (cfg0.slots t 5)
abbrev hs0_5 (t : Fin cfg0.N) : (ms0_5 t).IsWhole := hstage0_5 ((cfg0.slots t 5).cast nbuf0_5)
abbrev ms0_6 (t : Fin cfg0.N) : Memref sig .tc .vmem S1x1024x1 .f32 := win0_6.stage (cfg0.slots t 6)
abbrev hs0_6 (t : Fin cfg0.N) : (ms0_6 t).IsWhole := hstage0_6 ((cfg0.slots t 6).cast nbuf0_6)
abbrev ms0_7 (t : Fin cfg0.N) : Memref sig .tc .vmem S1x1024x1 .f32 := win0_7.stage (cfg0.slots t 7)
abbrev hs0_7 (t : Fin cfg0.N) : (ms0_7 t).IsWhole := hstage0_7 ((cfg0.slots t 7).cast nbuf0_7)
abbrev ms0_8 (t : Fin cfg0.N) : Memref sig .tc .vmem S1x1024x1 .f32 := win0_8.stage (cfg0.slots t 8)
abbrev hs0_8 (t : Fin cfg0.N) : (ms0_8 t).IsWhole := hstage0_8 ((cfg0.slots t 8).cast nbuf0_8)

/-- The four scratch accumulators: the per-organisation column sums, the running maximum, the running sum of
    exponentials, the running sum of matched scores. -/
abbrev scM0_0 : Memref sig .tc .vmem S128x2048 .f32 := Memref.whole cc0_scratch0
abbrev scM0_1 : Memref sig .tc .vmem S1024x1 .f32 := Memref.whole cc0_scratch1
abbrev scM0_2 : Memref sig .tc .vmem S1024x1 .f32 := Memref.whole cc0_scratch2
abbrev scM0_3 : Memref sig .tc .vmem S1024x1 .f32 := Memref.whole cc0_scratch3
abbrev VS0_0 : View sig .tc .vmem S128x2048 .f32 := scM0_0.view
abbrev VS0_1 : View sig .tc .vmem S1024x1 .f32 := scM0_1.view
abbrev VS0_2 : View sig .tc .vmem S1024x1 .f32 := scM0_2.view
abbrev VS0_3 : View sig .tc .vmem S1024x1 .f32 := scM0_3.view
/-- One staging buffer of each output window, through which its contents are stated. -/
abbrev VO0_5 : View sig .tc .vmem S1x128x2048 .f32 := (Memref.whole cc0_stg5_0 : Memref sig .tc .vmem S1x128x2048 .f32).view
abbrev VO0_6 : View sig .tc .vmem S1x1024x1 .f32 := (Memref.whole cc0_stg6_0 : Memref sig .tc .vmem S1x1024x1 .f32).view
abbrev VO0_7 : View sig .tc .vmem S1x1024x1 .f32 := (Memref.whole cc0_stg7_0 : Memref sig .tc .vmem S1x1024x1 .f32).view
abbrev VO0_8 : View sig .tc .vmem S1x1024x1 .f32 := (Memref.whole cc0_stg8_0 : Memref sig .tc .vmem S1x1024x1 .f32).view

/-- The region invariant of a kernel that keeps only scratch: the four scratch buffers owned at some contents, and the
    generator register at some state. -/
theorem PhiA0_eq (c : Dev nD) :
    (Pipeline.ΦA spec0 c : sProp 𝕄)
      = iprop(iprop((∃ d, owns (c : Thread nD τ) scM0_0 fullShare d) ∗ (∃ d, owns (c : Thread nD τ) scM0_1 fullShare d) ∗ (∃ d, owns (c : Thread nD τ) scM0_2 fullShare d) ∗ (∃ d, owns (c : Thread nD τ) scM0_3 fullShare d)) ∗ (∃ r, prngReg c r)) := by
  unfold Pipeline.ΦA; rw [scopedRest0_eq]; simp only [scM0_0, scM0_1, scM0_2, scM0_3, owns_whole]; try rfl

end Cert.KernelIdeal.Hand

end
-- ==== Proof.KI.RunA.lean ====
/-
  The kernel body run whole at a grid point of case A (the first tile of a core's half: the accumulators are reset first): on whole staging memrefs holding the five input blocks, the
  body runs to its end leaving the inputs as they were and each buffer it stores into with its stores written, as pieces
  (last store first); the two branches are decided by the case's hypotheses.
-/
import proofs.«405218_j60748017434937_2_alg».proof.Proof.KI.Conds

set_option maxRecDepth 16384

noncomputable section

namespace Cert.KernelIdeal.Hand

open Cert.KernelIdeal Cert.KernelIdeal.Gen
open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)

variable {F : FTy → Type} [FloatOps F]

local notation "𝕄" => MT nD τ sig Unit (Elt F) ℕ (UR sig nD τ) ℕ

variable (m : (ℓ : Loc nD τ sig) → Buf (Elt F) ℓ) (ρ : Dev nD → PrngReg)

set_option maxHeartbeats 4000000 in
/-- Case A: the four accumulators arrive at anything, are reset and then updated by this tile; the output buffers are
    not touched. -/
noncomputable def kernelRun0_A (c : Dev nD) (i : grid0.Coords) (arg2 : Memref sig .tc .vmem S128x512 .f32) (harg2 : arg2.IsWhole) (arg3 : Memref sig .tc .vmem S512x1 .i32) (harg3 : arg3.IsWhole) (arg4 : Memref sig .tc .vmem S1x512 .i32) (harg4 : arg4.IsWhole) (arg5 : Memref sig .tc .vmem S1024x128 .bf16) (harg5 : arg5.IsWhole) (arg6 : Memref sig .tc .vmem S1024x1 .i32) (harg6 : arg6.IsWhole) (arg7 : Memref sig .tc .vmem S1x128x2048 .f32) (harg7 : arg7.IsWhole) (arg8 : Memref sig .tc .vmem S1x1024x1 .f32) (harg8 : arg8.IsWhole) (arg9 : Memref sig .tc .vmem S1x1024x1 .f32) (harg9 : arg9.IsWhole) (arg10 : Memref sig .tc .vmem S1x1024x1 .f32) (harg10 : arg10.IsWhole) (arg11 : Memref sig .tc .vmem S128x2048 .f32) (harg11 : arg11.IsWhole) (arg12 : Memref sig .tc .vmem S1024x1 .f32) (harg12 : arg12.IsWhole) (arg13 : Memref sig .tc .vmem S1024x1 .f32) (harg13 : arg13.IsWhole) (arg14 : Memref sig .tc .vmem S1024x1 .f32) (harg14 : arg14.IsWhole) (hc0 : cond0_0 i) (hc1 : ¬cond0_1 i)
    (x0 : Vec F S128x512 .f32) (x1 : Vec F S512x1 .i32) (x2 : Vec F S1x512 .i32) (x3 : Vec F S1024x128 .bf16) (x4 : Vec F S1024x1 .i32) :
    Σ' (LS0 : List (View.Piece (Elt F) S128x2048 .f32)) (LS1 : List (View.Piece (Elt F) S1024x1 .f32)) (LS2 : List (View.Piece (Elt F) S1024x1 .f32)), { LS3 : List (View.Piece (Elt F) S1024x1 .f32) //
      ∀ (xi5 : Vec F S1x128x2048 .f32) (xi6 xi7 xi8 : Vec F S1x1024x1 .f32) (E : Set ℕ) (K : PUnit → sProp 𝕄),
        iprop(owns (c : Thread nD τ) arg2 fullShare x0 ∗ owns (c : Thread nD τ) arg3 fullShare x1 ∗ owns (c : Thread nD τ) arg4 fullShare x2 ∗ owns (c : Thread nD τ) arg5 fullShare x3 ∗ owns (c : Thread nD τ) arg6 fullShare x4 ∗ owns (c : Thread nD τ) arg7 fullShare xi5 ∗ owns (c : Thread nD τ) arg8 fullShare xi6 ∗ owns (c : Thread nD τ) arg9 fullShare xi7 ∗ owns (c : Thread nD τ) arg10 fullShare xi8 ∗ (∃ d, owns (c : Thread nD τ) arg11 fullShare d) ∗ (∃ d, owns (c : Thread nD τ) arg12 fullShare d) ∗ (∃ d, owns (c : Thread nD τ) arg13 fullShare d) ∗ (∃ d, owns (c : Thread nD τ) arg14 fullShare d)
            ∗ (iprop(owns (c : Thread nD τ) arg2 fullShare x0 ∗ owns (c : Thread nD τ) arg3 fullShare x1 ∗ owns (c : Thread nD τ) arg4 fullShare x2 ∗ owns (c : Thread nD τ) arg5 fullShare x3 ∗ owns (c : Thread nD τ) arg6 fullShare x4 ∗ owns (c : Thread nD τ) arg7 fullShare xi5 ∗ owns (c : Thread nD τ) arg8 fullShare xi6 ∗ owns (c : Thread nD τ) arg9 fullShare xi7 ∗ owns (c : Thread nD τ) arg10 fullShare xi8 ∗ (∃ f, arg11.view.loc (c : Thread nD τ) ↦[arg11.view.set]{fullShare} arg11.view.writes (Elt F) f LS0) ∗ (∃ f, arg12.view.loc (c : Thread nD τ) ↦[arg12.view.set]{fullShare} arg12.view.writes (Elt F) f LS1) ∗ (∃ f, arg13.view.loc (c : Thread nD τ) ↦[arg13.view.set]{fullShare} arg13.view.writes (Elt F) f LS2) ∗ (∃ f, arg14.view.loc (c : Thread nD τ) ↦[arg14.view.set]{fullShare} arg14.view.writes (Elt F) f LS3)) -∗ K ⟨⟩))
          ⊢ wp frame (wpE (defs₀ (F := F)) Variants.none c none) E (cc0__fused_kernel i arg2 harg2 arg3 harg3 arg4 harg4 arg5 harg5 arg6 harg6 arg7 harg7 arg8 harg8 arg9 harg9 arg10 harg10 arg11 harg11 arg12 harg12 arg13 harg13 arg14 harg14) K } := by
  refine ⟨?_, ?_, ?_, ?_, fun xi5 xi6 xi7 xi8 E K => ?run⟩
  case run =>
    simp only [cc0__fused_kernel_eq_skeleton]; unfold cc0__fused_kernel_skel
    simp only [k0_part2_eq_skeleton, k0_part1_eq_skeleton]
    unfold owns
    iintro ⟨⟨%f0, %hf0, H0⟩, ⟨%f1, %hf1, H1⟩, ⟨%f2, %hf2, H2⟩, ⟨%f3, %hf3, H3⟩, ⟨%f4, %hf4, H4⟩, ⟨%f5, %hf5, H5⟩, ⟨%f6, %hf6, H6⟩, ⟨%f7, %hf7, H7⟩, ⟨%f8, %hf8, H8⟩, ⟨%ds0, %fs0, -, HS0⟩, ⟨%ds1, %fs1, -, HS1⟩, ⟨%ds2, %fs2, -, HS2⟩, ⟨%ds3, %fs3, -, HS3⟩, Hk⟩
    obtain rfl := harg2.eq_unread hf0; obtain rfl := harg3.eq_unread hf1; obtain rfl := harg4.eq_unread hf2; obtain rfl := harg5.eq_unread hf3; obtain rfl := harg6.eq_unread hf4
    obtain rfl := harg7.eq_unread hf5; obtain rfl := harg8.eq_unread hf6; obtain rfl := harg9.eq_unread hf7; obtain rfl := harg10.eq_unread hf8
    sl_exec (disch := first | exact hc0 | exact hc1)
    sl_step
    iapply Hk
    isplitl [H0]
    · iexists _; isplitr; · ipureintro; exact harg2.read_unread _
      iexact H0
    isplitl [H1]
    · iexists _; isplitr; · ipureintro; exact harg3.read_unread _
      iexact H1
    isplitl [H2]
    · iexists _; isplitr; · ipureintro; exact harg4.read_unread _
      iexact H2
    isplitl [H3]
    · iexists _; isplitr; · ipureintro; exact harg5.read_unread _
      iexact H3
    isplitl [H4]
    · iexists _; isplitr; · ipureintro; exact harg6.read_unread _
      iexact H4
    isplitl [H5]
    · iexists _; isplitr; · ipureintro; exact harg7.read_unread _
      iexact H5
    isplitl [H6]
    · iexists _; isplitr; · ipureintro; exact harg8.read_unread _
      iexact H6
    isplitl [H7]
    · iexists _; isplitr; · ipureintro; exact harg9.read_unread _
      iexact H7
    isplitl [H8]
    · iexists _; isplitr; · ipureintro; exact harg10.read_unread _
      iexact H8
    isplitl [HS0]; · iexists _; iexact HS0
    isplitl [HS1]; · iexists _; iexact HS1
    isplitl [HS2]; · iexists _; iexact HS2
    iexists _; iexact HS3

end Cert.KernelIdeal.Hand

end
-- ==== Proof.KI.RunB.lean ====
/-
  The kernel body run whole at a grid point of case B (neither the first nor the last tile of a core's half): on whole staging memrefs holding the five input blocks, the
  body runs to its end leaving the inputs as they were and each buffer it stores into with its stores written, as pieces
  (last store first); the two branches are decided by the case's hypotheses.
-/
import proofs.«405218_j60748017434937_2_alg».proof.Proof.KI.Conds

set_option maxRecDepth 16384

noncomputable section

namespace Cert.KernelIdeal.Hand

open Cert.KernelIdeal Cert.KernelIdeal.Gen
open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)

variable {F : FTy → Type} [FloatOps F]

local notation "𝕄" => MT nD τ sig Unit (Elt F) ℕ (UR sig nD τ) ℕ

variable (m : (ℓ : Loc nD τ sig) → Buf (Elt F) ℓ) (ρ : Dev nD → PrngReg)

set_option maxHeartbeats 4000000 in
/-- Case B: the four accumulators arrive at what the tile before left (`xs·`) and leave with this tile's stores; the
    output buffers are not touched. -/
noncomputable def kernelRun0_B (c : Dev nD) (i : grid0.Coords) (arg2 : Memref sig .tc .vmem S128x512 .f32) (harg2 : arg2.IsWhole) (arg3 : Memref sig .tc .vmem S512x1 .i32) (harg3 : arg3.IsWhole) (arg4 : Memref sig .tc .vmem S1x512 .i32) (harg4 : arg4.IsWhole) (arg5 : Memref sig .tc .vmem S1024x128 .bf16) (harg5 : arg5.IsWhole) (arg6 : Memref sig .tc .vmem S1024x1 .i32) (harg6 : arg6.IsWhole) (arg7 : Memref sig .tc .vmem S1x128x2048 .f32) (harg7 : arg7.IsWhole) (arg8 : Memref sig .tc .vmem S1x1024x1 .f32) (harg8 : arg8.IsWhole) (arg9 : Memref sig .tc .vmem S1x1024x1 .f32) (harg9 : arg9.IsWhole) (arg10 : Memref sig .tc .vmem S1x1024x1 .f32) (harg10 : arg10.IsWhole) (arg11 : Memref sig .tc .vmem S128x2048 .f32) (harg11 : arg11.IsWhole) (arg12 : Memref sig .tc .vmem S1024x1 .f32) (harg12 : arg12.IsWhole) (arg13 : Memref sig .tc .vmem S1024x1 .f32) (harg13 : arg13.IsWhole) (arg14 : Memref sig .tc .vmem S1024x1 .f32) (harg14 : arg14.IsWhole) (hc0 : ¬cond0_0 i) (hc1 : ¬cond0_1 i)
    (x0 : Vec F S128x512 .f32) (x1 : Vec F S512x1 .i32) (x2 : Vec F S1x512 .i32) (x3 : Vec F S1024x128 .bf16) (x4 : Vec F S1024x1 .i32) (xs0 : Vec F S128x2048 .f32) (xs1 : Vec F S1024x1 .f32) (xs2 : Vec F S1024x1 .f32) (xs3 : Vec F S1024x1 .f32) :
    Σ' (LS0 : List (View.Piece (Elt F) S128x2048 .f32)) (LS1 : List (View.Piece (Elt F) S1024x1 .f32)) (LS2 : List (View.Piece (Elt F) S1024x1 .f32)), { LS3 : List (View.Piece (Elt F) S1024x1 .f32) //
      ∀ (xi5 : Vec F S1x128x2048 .f32) (xi6 xi7 xi8 : Vec F S1x1024x1 .f32) (E : Set ℕ) (K : PUnit → sProp 𝕄),
        iprop(owns (c : Thread nD τ) arg2 fullShare x0 ∗ owns (c : Thread nD τ) arg3 fullShare x1 ∗ owns (c : Thread nD τ) arg4 fullShare x2 ∗ owns (c : Thread nD τ) arg5 fullShare x3 ∗ owns (c : Thread nD τ) arg6 fullShare x4 ∗ owns (c : Thread nD τ) arg7 fullShare xi5 ∗ owns (c : Thread nD τ) arg8 fullShare xi6 ∗ owns (c : Thread nD τ) arg9 fullShare xi7 ∗ owns (c : Thread nD τ) arg10 fullShare xi8 ∗ owns (c : Thread nD τ) arg11 fullShare xs0 ∗ owns (c : Thread nD τ) arg12 fullShare xs1 ∗ owns (c : Thread nD τ) arg13 fullShare xs2 ∗ owns (c : Thread nD τ) arg14 fullShare xs3
            ∗ (iprop(owns (c : Thread nD τ) arg2 fullShare x0 ∗ owns (c : Thread nD τ) arg3 fullShare x1 ∗ owns (c : Thread nD τ) arg4 fullShare x2 ∗ owns (c : Thread nD τ) arg5 fullShare x3 ∗ owns (c : Thread nD τ) arg6 fullShare x4 ∗ owns (c : Thread nD τ) arg7 fullShare xi5 ∗ owns (c : Thread nD τ) arg8 fullShare xi6 ∗ owns (c : Thread nD τ) arg9 fullShare xi7 ∗ owns (c : Thread nD τ) arg10 fullShare xi8 ∗ (∃ f, arg11.view.loc (c : Thread nD τ) ↦[arg11.view.set]{fullShare} arg11.view.writes (Elt F) f LS0) ∗ (∃ f, arg12.view.loc (c : Thread nD τ) ↦[arg12.view.set]{fullShare} arg12.view.writes (Elt F) f LS1) ∗ (∃ f, arg13.view.loc (c : Thread nD τ) ↦[arg13.view.set]{fullShare} arg13.view.writes (Elt F) f LS2) ∗ (∃ f, arg14.view.loc (c : Thread nD τ) ↦[arg14.view.set]{fullShare} arg14.view.writes (Elt F) f LS3)) -∗ K ⟨⟩))
          ⊢ wp frame (wpE (defs₀ (F := F)) Variants.none c none) E (cc0__fused_kernel i arg2 harg2 arg3 harg3 arg4 harg4 arg5 harg5 arg6 harg6 arg7 harg7 arg8 harg8 arg9 harg9 arg10 harg10 arg11 harg11 arg12 harg12 arg13 harg13 arg14 harg14) K } := by
  refine ⟨?_, ?_, ?_, ?_, fun xi5 xi6 xi7 xi8 E K => ?run⟩
  case run =>
    simp only [cc0__fused_kernel_eq_skeleton]; unfold cc0__fused_kernel_skel
    simp only [k0_part2_eq_skeleton, k0_part1_eq_skeleton]
    unfold owns
    iintro ⟨⟨%f0, %hf0, H0⟩, ⟨%f1, %hf1, H1⟩, ⟨%f2, %hf2, H2⟩, ⟨%f3, %hf3, H3⟩, ⟨%f4, %hf4, H4⟩, ⟨%f5, %hf5, H5⟩, ⟨%f6, %hf6, H6⟩, ⟨%f7, %hf7, H7⟩, ⟨%f8, %hf8, H8⟩, ⟨%fs0, %hfs0, HS0⟩, ⟨%fs1, %hfs1, HS1⟩, ⟨%fs2, %hfs2, HS2⟩, ⟨%fs3, %hfs3, HS3⟩, Hk⟩
    obtain rfl := harg2.eq_unread hf0; obtain rfl := harg3.eq_unread hf1; obtain rfl := harg4.eq_unread hf2; obtain rfl := harg5.eq_unread hf3; obtain rfl := harg6.eq_unread hf4
    obtain rfl := harg7.eq_unread hf5; obtain rfl := harg8.eq_unread hf6; obtain rfl := harg9.eq_unread hf7; obtain rfl := harg10.eq_unread hf8
    obtain rfl := harg11.eq_unread hfs0; obtain rfl := harg12.eq_unread hfs1; obtain rfl := harg13.eq_unread hfs2; obtain rfl := harg14.eq_unread hfs3
    sl_exec (disch := first | exact hc0 | exact hc1)
    sl_step
    iapply Hk
    isplitl [H0]
    · iexists _; isplitr; · ipureintro; exact harg2.read_unread _
      iexact H0
    isplitl [H1]
    · iexists _; isplitr; · ipureintro; exact harg3.read_unread _
      iexact H1
    isplitl [H2]
    · iexists _; isplitr; · ipureintro; exact harg4.read_unread _
      iexact H2
    isplitl [H3]
    · iexists _; isplitr; · ipureintro; exact harg5.read_unread _
      iexact H3
    isplitl [H4]
    · iexists _; isplitr; · ipureintro; exact harg6.read_unread _
      iexact H4
    isplitl [H5]
    · iexists _; isplitr; · ipureintro; exact harg7.read_unread _
      iexact H5
    isplitl [H6]
    · iexists _; isplitr; · ipureintro; exact harg8.read_unread _
      iexact H6
    isplitl [H7]
    · iexists _; isplitr; · ipureintro; exact harg9.read_unread _
      iexact H7
    isplitl [H8]
    · iexists _; isplitr; · ipureintro; exact harg10.read_unread _
      iexact H8
    isplitl [HS0]; · iexists _; iexact HS0
    isplitl [HS1]; · iexists _; iexact HS1
    isplitl [HS2]; · iexists _; iexact HS2
    iexists _; iexact HS3

end Cert.KernelIdeal.Hand

end
-- ==== Proof.KI.RunC.lean ====
/-
  The kernel body run whole at a grid point of case C (the last tile of a core's half: the accumulators are copied to the outputs): on whole staging memrefs holding the five input blocks, the
  body runs to its end leaving the inputs as they were and each buffer it stores into with its stores written, as pieces
  (last store first); the two branches are decided by the case's hypotheses.
-/
import proofs.«405218_j60748017434937_2_alg».proof.Proof.KI.Conds

set_option maxRecDepth 16384

noncomputable section

namespace Cert.KernelIdeal.Hand

open Cert.KernelIdeal Cert.KernelIdeal.Gen
open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)

variable {F : FTy → Type} [FloatOps F]

local notation "𝕄" => MT nD τ sig Unit (Elt F) ℕ (UR sig nD τ) ℕ

variable (m : (ℓ : Loc nD τ sig) → Buf (Elt F) ℓ) (ρ : Dev nD → PrngReg)

set_option maxHeartbeats 4000000 in
/-- Case C: the four accumulators arrive at what the tile before left, are updated by this tile, and are then copied
    whole into the four output buffers (which arrive at anything). -/
noncomputable def kernelRun0_C (c : Dev nD) (i : grid0.Coords) (arg2 : Memref sig .tc .vmem S128x512 .f32) (harg2 : arg2.IsWhole) (arg3 : Memref sig .tc .vmem S512x1 .i32) (harg3 : arg3.IsWhole) (arg4 : Memref sig .tc .vmem S1x512 .i32) (harg4 : arg4.IsWhole) (arg5 : Memref sig .tc .vmem S1024x128 .bf16) (harg5 : arg5.IsWhole) (arg6 : Memref sig .tc .vmem S1024x1 .i32) (harg6 : arg6.IsWhole) (arg7 : Memref sig .tc .vmem S1x128x2048 .f32) (harg7 : arg7.IsWhole) (arg8 : Memref sig .tc .vmem S1x1024x1 .f32) (harg8 : arg8.IsWhole) (arg9 : Memref sig .tc .vmem S1x1024x1 .f32) (harg9 : arg9.IsWhole) (arg10 : Memref sig .tc .vmem S1x1024x1 .f32) (harg10 : arg10.IsWhole) (arg11 : Memref sig .tc .vmem S128x2048 .f32) (harg11 : arg11.IsWhole) (arg12 : Memref sig .tc .vmem S1024x1 .f32) (harg12 : arg12.IsWhole) (arg13 : Memref sig .tc .vmem S1024x1 .f32) (harg13 : arg13.IsWhole) (arg14 : Memref sig .tc .vmem S1024x1 .f32) (harg14 : arg14.IsWhole) (hc0 : ¬cond0_0 i) (hc1 : cond0_1 i)
    (x0 : Vec F S128x512 .f32) (x1 : Vec F S512x1 .i32) (x2 : Vec F S1x512 .i32) (x3 : Vec F S1024x128 .bf16) (x4 : Vec F S1024x1 .i32) (xs0 : Vec F S128x2048 .f32) (xs1 : Vec F S1024x1 .f32) (xs2 : Vec F S1024x1 .f32) (xs3 : Vec F S1024x1 .f32) :
    Σ' (L5 : List (View.Piece (Elt F) S1x128x2048 .f32)) (L6 : List (View.Piece (Elt F) S1x1024x1 .f32)) (L7 : List (View.Piece (Elt F) S1x1024x1 .f32)) (L8 : List (View.Piece (Elt F) S1x1024x1 .f32)) (LS0 : List (View.Piece (Elt F) S128x2048 .f32)) (LS1 : List (View.Piece (Elt F) S1024x1 .f32)) (LS2 : List (View.Piece (Elt F) S1024x1 .f32)), { LS3 : List (View.Piece (Elt F) S1024x1 .f32) //
      ∀ (E : Set ℕ) (K : PUnit → sProp 𝕄),
        iprop(owns (c : Thread nD τ) arg2 fullShare x0 ∗ owns (c : Thread nD τ) arg3 fullShare x1 ∗ owns (c : Thread nD τ) arg4 fullShare x2 ∗ owns (c : Thread nD τ) arg5 fullShare x3 ∗ owns (c : Thread nD τ) arg6 fullShare x4 ∗ (∃ d, owns (c : Thread nD τ) arg7 fullShare d) ∗ (∃ d, owns (c : Thread nD τ) arg8 fullShare d) ∗ (∃ d, owns (c : Thread nD τ) arg9 fullShare d) ∗ (∃ d, owns (c : Thread nD τ) arg10 fullShare d) ∗ owns (c : Thread nD τ) arg11 fullShare xs0 ∗ owns (c : Thread nD τ) arg12 fullShare xs1 ∗ owns (c : Thread nD τ) arg13 fullShare xs2 ∗ owns (c : Thread nD τ) arg14 fullShare xs3
            ∗ (iprop(owns (c : Thread nD τ) arg2 fullShare x0 ∗ owns (c : Thread nD τ) arg3 fullShare x1 ∗ owns (c : Thread nD τ) arg4 fullShare x2 ∗ owns (c : Thread nD τ) arg5 fullShare x3 ∗ owns (c : Thread nD τ) arg6 fullShare x4 ∗ (∃ f, arg7.view.loc (c : Thread nD τ) ↦[arg7.view.set]{fullShare} arg7.view.writes (Elt F) f L5) ∗ (∃ f, arg8.view.loc (c : Thread nD τ) ↦[arg8.view.set]{fullShare} arg8.view.writes (Elt F) f L6) ∗ (∃ f, arg9.view.loc (c : Thread nD τ) ↦[arg9.view.set]{fullShare} arg9.view.writes (Elt F) f L7) ∗ (∃ f, arg10.view.loc (c : Thread nD τ) ↦[arg10.view.set]{fullShare} arg10.view.writes (Elt F) f L8) ∗ (∃ f, arg11.view.loc (c : Thread nD τ) ↦[arg11.view.set]{fullShare} arg11.view.writes (Elt F) f LS0) ∗ (∃ f, arg12.view.loc (c : Thread nD τ) ↦[arg12.view.set]{fullShare} arg12.view.writes (Elt F) f LS1) ∗ (∃ f, arg13.view.loc (c : Thread nD τ) ↦[arg13.view.set]{fullShare} arg13.view.writes (Elt F) f LS2) ∗ (∃ f, arg14.view.loc (c : Thread nD τ) ↦[arg14.view.set]{fullShare} arg14.view.writes (Elt F) f LS3)) -∗ K ⟨⟩))
          ⊢ wp frame (wpE (defs₀ (F := F)) Variants.none c none) E (cc0__fused_kernel i arg2 harg2 arg3 harg3 arg4 harg4 arg5 harg5 arg6 harg6 arg7 harg7 arg8 harg8 arg9 harg9 arg10 harg10 arg11 harg11 arg12 harg12 arg13 harg13 arg14 harg14) K } := by
  refine ⟨?_, ?_, ?_, ?_, ?_, ?_, ?_, ?_, fun E K => ?run⟩
  case run =>
    simp only [cc0__fused_kernel_eq_skeleton]; unfold cc0__fused_kernel_skel
    simp only [k0_part2_eq_skeleton, k0_part1_eq_skeleton]
    unfold owns
    iintro ⟨⟨%f0, %hf0, H0⟩, ⟨%f1, %hf1, H1⟩, ⟨%f2, %hf2, H2⟩, ⟨%f3, %hf3, H3⟩, ⟨%f4, %hf4, H4⟩, ⟨%d5, %f5, -, H5⟩, ⟨%d6, %f6, -, H6⟩, ⟨%d7, %f7, -, H7⟩, ⟨%d8, %f8, -, H8⟩, ⟨%fs0, %hfs0, HS0⟩, ⟨%fs1, %hfs1, HS1⟩, ⟨%fs2, %hfs2, HS2⟩, ⟨%fs3, %hfs3, HS3⟩, Hk⟩
    obtain rfl := harg2.eq_unread hf0; obtain rfl := harg3.eq_unread hf1; obtain rfl := harg4.eq_unread hf2; obtain rfl := harg5.eq_unread hf3; obtain rfl := harg6.eq_unread hf4
    obtain rfl := harg11.eq_unread hfs0; obtain rfl := harg12.eq_unread hfs1; obtain rfl := harg13.eq_unread hfs2; obtain rfl := harg14.eq_unread hfs3
    sl_exec (disch := first | exact hc0 | exact hc1)
    sl_step
    iapply Hk
    isplitl [H0]
    · iexists _; isplitr; · ipureintro; exact harg2.read_unread _
      iexact H0
    isplitl [H1]
    · iexists _; isplitr; · ipureintro; exact harg3.read_unread _
      iexact H1
    isplitl [H2]
    · iexists _; isplitr; · ipureintro; exact harg4.read_unread _
      iexact H2
    isplitl [H3]
    · iexists _; isplitr; · ipureintro; exact harg5.read_unread _
      iexact H3
    isplitl [H4]
    · iexists _; isplitr; · ipureintro; exact harg6.read_unread _
      iexact H4
    isplitl [H5]; · iexists _; iexact H5
    isplitl [H6]; · iexists _; iexact H6
    isplitl [H7]; · iexists _; iexact H7
    isplitl [H8]; · iexists _; iexact H8
    isplitl [HS0]; · iexists _; iexact HS0
    isplitl [HS1]; · iexists _; iexact HS1
    isplitl [HS2]; · iexists _; iexact HS2
    iexists _; iexact HS3

end Cert.KernelIdeal.Hand

end
-- ==== Proof.KI.Tail.lean ====
/-
  The host operations around the streaming kernel's one region, as the frame of the program needs them. No operation
  allocates; each writes one buffer of its own, which is never a launch argument and, after the region, never the array
  of a window. So the program is its region continued by the later stretches, an argument array the region does not
  stage ends as launched, and the staged one ends at what the region's run says of its array.
-/
import proofs.«405218_j60748017434937_2_alg».proof.Proof.KI.Base
import Mathlib.Data.List.Basic
import Mathlib.Data.Finset.Insert

set_option maxRecDepth 16384

noncomputable section

namespace Cert.KernelIdeal.Hand

open Cert.KernelIdeal Cert.KernelIdeal.Gen
open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)

variable {F : FTy → Type} [FloatOps F]

local notation "𝕄" => MT nD τ sig Unit (Elt F) ℕ (UR sig nD τ) ℕ

variable (m : (ℓ : Loc nD τ sig) → Buf (Elt F) ℓ) (ρ : Dev nD → PrngReg)

/-! ## One written buffer per operation -/

/-- The launch arguments. -/
abbrev args : List (Ref sig .tc) := [main_arg0, main_arg1, main_arg2, main_arg3, main_arg4, main_arg5]

/-- `op` writes one buffer, a TensorCore reference that is no launch argument. -/
def OffArgs (op : HloOp τ sig (Elt F)) : Prop :=
  ∃ y : Ref sig .tc, op.writes = {Proc.devRef .tc y} ∧ y ∉ args

/-- `op` writes one buffer, a TensorCore reference that is neither a launch argument nor the array of a window. -/
def OffKept (op : HloOp τ sig (Elt F)) : Prop :=
  ∃ y : Ref sig .tc, op.writes = {Proc.devRef .tc y} ∧ y ∉ args ∧ ∀ w, Pipeline.arrRef spec0 w ≠ y

theorem OffArgs.keeps {op : HloOp τ sig (Elt F)} (h : OffArgs op) {b : Ref sig .tc} (hb : b ∈ args) :
    Proc.devRef .tc b ∉ op.writes := by
  obtain ⟨y, hw, hy⟩ := h
  rw [hw, Finset.mem_singleton]
  exact StableHlo.devRef_ne_of_ne fun e => hy (e ▸ hb)

theorem OffKept.offArgs {op : HloOp τ sig (Elt F)} (h : OffKept op) : OffArgs op :=
  let ⟨y, hw, hy, _⟩ := h; ⟨y, hw, hy⟩

theorem OffKept.keeps_arr {op : HloOp τ sig (Elt F)} (h : OffKept op) (w : Fin 9) :
    Proc.devRef .tc (Pipeline.arrRef spec0 w) ∉ op.writes := by
  obtain ⟨y, hw, -, hy⟩ := h
  rw [hw, Finset.mem_singleton]
  exact StableHlo.devRef_ne_of_ne (hy w)

/-- A fact of every element of every list, from the lists' `Forall`s. -/
theorem mem₂ {α : Type _} {p : α → Prop} {L : List (List α)} (h : L.Forall fun l => l.Forall p) :
    ∀ l ∈ L, ∀ a ∈ l, p a :=
  fun l hl a ha => List.forall_iff_forall_mem.mp (List.forall_iff_forall_mem.mp h l hl) a ha

/-- Walk a literal list, closing the fact at each element by `t`: linear in the list's length. -/
local macro "walk " t:term : tactic =>
  `(tactic| ((repeat (refine (List.forall_cons _ _ _).mpr ⟨$t, ?_⟩)); exact trivial))

/-! ## The stretches, one by one -/

theorem hostOps0_fresh : (hostOps0 : List (HloOp τ sig (Elt F))).Forall fun op => op.fresh = ∅ := by walk rfl
set_option maxHeartbeats 40000000 in
theorem hostOps1_fresh : (hostOps1 : List (HloOp τ sig (Elt F))).Forall fun op => op.fresh = ∅ := by walk rfl
theorem hostOps1_1_fresh : (hostOps1_1 : List (HloOp τ sig (Elt F))).Forall fun op => op.fresh = ∅ := by walk rfl
theorem hostOps1_2_fresh : (hostOps1_2 : List (HloOp τ sig (Elt F))).Forall fun op => op.fresh = ∅ := by walk rfl
theorem hostOps1_3_fresh : (hostOps1_3 : List (HloOp τ sig (Elt F))).Forall fun op => op.fresh = ∅ := by walk rfl
theorem hostOps1_4_fresh : (hostOps1_4 : List (HloOp τ sig (Elt F))).Forall fun op => op.fresh = ∅ := by walk rfl

/-- Before the region no operation writes a launch argument. -/
theorem hostOps0_off : (hostOps0 : List (HloOp τ sig (Elt F))).Forall OffArgs := by walk ⟨_, rfl, by decide⟩
set_option maxHeartbeats 40000000 in
/-- After it none writes a launch argument or a window's array. -/
theorem hostOps1_off : (hostOps1 : List (HloOp τ sig (Elt F))).Forall OffKept := by walk ⟨_, rfl, by decide⟩
theorem hostOps1_1_off : (hostOps1_1 : List (HloOp τ sig (Elt F))).Forall OffKept := by walk ⟨_, rfl, by decide⟩
theorem hostOps1_2_off : (hostOps1_2 : List (HloOp τ sig (Elt F))).Forall OffKept := by walk ⟨_, rfl, by decide⟩
theorem hostOps1_3_off : (hostOps1_3 : List (HloOp τ sig (Elt F))).Forall OffKept := by walk ⟨_, rfl, by decide⟩
theorem hostOps1_4_off : (hostOps1_4 : List (HloOp τ sig (Elt F))).Forall OffKept := by walk ⟨_, rfl, by decide⟩

/-! ## The stretches after the region, together -/

theorem tail_sub : (tailOps : List (List (HloOp τ sig (Elt F)))).Forall fun ops =>
    ops.Forall fun op => op.bufs ⊆ StableHlo.tcRefs τ sig :=
  ⟨hostOps1_sub, hostOps1_1_sub, hostOps1_2_sub, hostOps1_3_sub, hostOps1_4_sub⟩
theorem tail_fresh : (tailOps : List (List (HloOp τ sig (Elt F)))).Forall fun ops => ops.Forall fun op => op.fresh = ∅ :=
  ⟨hostOps1_fresh, hostOps1_1_fresh, hostOps1_2_fresh, hostOps1_3_fresh, hostOps1_4_fresh⟩
theorem tail_off : (tailOps : List (List (HloOp τ sig (Elt F)))).Forall fun ops => ops.Forall OffKept :=
  ⟨hostOps1_off, hostOps1_1_off, hostOps1_2_off, hostOps1_3_off, hostOps1_4_off⟩

/-- The program is the stretch before the region, the region, and the later stretches as its continuation. -/
theorem hmain (𝒱₀ : Variants) : Pipeline.HMainK (Ix := Unit) (Name := ℕ) (U := UR sig nD τ) (Lvl := ℕ) cfgs 0 defs₀ 𝒱₀ m (main (F := F)) (V m)
      (fun _ => Pipeline.chain (tailOps.map StableHlo.seq)) :=
  Pipeline.hmain_around cfgs 0 defs₀ 𝒱₀ m main [hostOps0] tailOps
    (List.forall_iff_forall_mem.mpr fun ops h => List.mem_singleton.mp h ▸ hostOps0_sub)
    (List.forall_iff_forall_mem.mpr fun ops h => List.mem_singleton.mp h ▸ hostOps0_fresh) main_chain

/-- The later stretches touch unscoped TensorCore references only: with nothing prefetched, the arrays and the
    buffers that bypass the region. -/
theorem sfx_sub : ∀ ops ∈ (tailOps : List (List (HloOp τ sig (Elt F)))), ∀ op ∈ ops,
    op.bufs ⊆ Pipeline.tailRefs sig Pipeline.Prefetch.none spec0 := by
  rw [Pipeline.tailRefs_none spec0 launch0.win.arr_unscoped]
  exact fun ops hops op hop => Pipeline.sub_ucRefs op (mem₂ tail_sub ops hops op hop)
/-- They allocate nothing. -/
theorem sfx_fresh : ∀ ops ∈ (tailOps : List (List (HloOp τ sig (Elt F)))), ∀ op ∈ ops, op.fresh = ∅ :=
  mem₂ tail_fresh
/-- And write no array of the pipeline. -/
theorem sfx_keeps : ∀ ops ∈ (tailOps : List (List (HloOp τ sig (Elt F)))), ∀ op ∈ ops,
    ∀ w, Proc.devRef .tc (Pipeline.arrRef spec0 w) ∉ op.writes :=
  fun ops hops op hop w => (mem₂ tail_off ops hops op hop).keeps_arr w

/-! ## The launch arguments at the region's entry and at the end -/

/-- The region finds a launch argument as launched. -/
theorem V_of (c : Dev nD) (b : Ref sig .tc) (hb : b ∈ args) : V m c b = m ((c : Thread nD τ).loc b) :=
  StableHlo.after_of_forall_not_mem (b := Proc.devRef .tc b) _ _ fun op hop => by
    obtain ⟨ops, hops, hop'⟩ := List.mem_flatten.mp hop
    exact (List.forall_iff_forall_mem.mp hostOps0_off op (List.mem_singleton.mp hops ▸ hop')).keeps hb

theorem V_main_arg0 (c : Dev nD) : V m c main_arg0 = m ((c : Thread nD τ).loc main_arg0) := V_of m c _ (by decide)
theorem V_main_arg1 (c : Dev nD) : V m c main_arg1 = m ((c : Thread nD τ).loc main_arg1) := V_of m c _ (by decide)
theorem V_main_arg2 (c : Dev nD) : V m c main_arg2 = m ((c : Thread nD τ).loc main_arg2) := V_of m c _ (by decide)
theorem V_main_arg3 (c : Dev nD) : V m c main_arg3 = m ((c : Thread nD τ).loc main_arg3) := V_of m c _ (by decide)
theorem V_main_arg4 (c : Dev nD) : V m c main_arg4 = m ((c : Thread nD τ).loc main_arg4) := V_of m c _ (by decide)
theorem V_main_arg5 (c : Dev nD) : V m c main_arg5 = m ((c : Thread nD τ).loc main_arg5) := V_of m c _ (by decide)

/-- A launch argument that is no window's array ends as launched: no later stretch writes it either. -/
theorem W_of (dats : (p : Fin 1) → (c : Dev nD) → Dat τ (Elt F) Unit ℕ (UR sig nD τ) ℕ (cfgs p) c) (c : Dev nD)
    (b : Ref sig .tc) (hb : b ∈ args) (harr : ∀ w, Pipeline.arrRef spec0 w ≠ b) :
    Pipeline.afterTail₀ cfgs dats 0 (V0 m) tailOps c b = m ((c : Thread nD τ).loc b) := by
  unfold Pipeline.afterTail₀
  rw [StableHlo.after_of_forall_not_mem (b := Proc.devRef .tc b) _ _ fun op hop => ?_,
    Pipeline.withArrays_of_ne _ c (V0 m c) _ b harr]
  · exact V_of m c b hb
  · obtain ⟨ops, hops, hop'⟩ := List.mem_flatten.mp hop
    exact (mem₂ tail_off ops hops op hop').offArgs.keeps hb

theorem W_main_arg0 (dats : (p : Fin 1) → (c : Dev nD) → Dat τ (Elt F) Unit ℕ (UR sig nD τ) ℕ (cfgs p) c) (c : Dev nD) :
    Pipeline.afterTail₀ cfgs dats 0 (V0 m) tailOps c main_arg0 = m ((c : Thread nD τ).loc main_arg0) :=
  W_of m dats c _ (by decide) (by decide)
theorem W_main_arg1 (dats : (p : Fin 1) → (c : Dev nD) → Dat τ (Elt F) Unit ℕ (UR sig nD τ) ℕ (cfgs p) c) (c : Dev nD) :
    Pipeline.afterTail₀ cfgs dats 0 (V0 m) tailOps c main_arg1 = m ((c : Thread nD τ).loc main_arg1) :=
  W_of m dats c _ (by decide) (by decide)
theorem W_main_arg2 (dats : (p : Fin 1) → (c : Dev nD) → Dat τ (Elt F) Unit ℕ (UR sig nD τ) ℕ (cfgs p) c) (c : Dev nD) :
    Pipeline.afterTail₀ cfgs dats 0 (V0 m) tailOps c main_arg2 = m ((c : Thread nD τ).loc main_arg2) :=
  W_of m dats c _ (by decide) (by decide)
theorem W_main_arg4 (dats : (p : Fin 1) → (c : Dev nD) → Dat τ (Elt F) Unit ℕ (UR sig nD τ) ℕ (cfgs p) c) (c : Dev nD) :
    Pipeline.afterTail₀ cfgs dats 0 (V0 m) tailOps c main_arg4 = m ((c : Thread nD τ).loc main_arg4) :=
  W_of m dats c _ (by decide) (by decide)
theorem W_main_arg5 (dats : (p : Fin 1) → (c : Dev nD) → Dat τ (Elt F) Unit ℕ (UR sig nD τ) ℕ (cfgs p) c) (c : Dev nD) :
    Pipeline.afterTail₀ cfgs dats 0 (V0 m) tailOps c main_arg5 = m ((c : Thread nD τ).loc main_arg5) :=
  W_of m dats c _ (by decide) (by decide)

/-! ## The frame claim's post from the frame run's -/

/-- For any proof data whose arrays are the region-entry contents, a run to the frame post read at the argument arrays
    is the frame claim's post: the staged argument by what the run says of an input window's array, each other one as
    a buffer that bypasses the region and that no later stretch writes. -/
theorem frame_of (dats : (p : Fin 1) → (c : Dev nD) → Dat τ (Elt F) Unit ℕ (UR sig nD τ) ℕ (cfgs p) c)
    (hA : ∀ c w, (dats 0 c).A w = V m c (Pipeline.arrRef spec0 w))
    (h : θ_run defs (onTc (τ := τ) (main (F := F))) (s₀ m ρ) (Pipeline.FramePost cfgs dats 0 (Pipeline.afterTail₀ cfgs dats 0 (V0 m) tailOps))) :
    θ_run defs (onTc (τ := τ) (main (F := F))) ⟨m, fun _ => 0, ρ⟩ (fun r => ∀ c : Dev nD,
      r.2.mem ((c.tc : Thread nD τ).loc main_arg0) = m ((c.tc : Thread nD τ).loc main_arg0)
      ∧ r.2.mem ((c.tc : Thread nD τ).loc main_arg1) = m ((c.tc : Thread nD τ).loc main_arg1)
      ∧ r.2.mem ((c.tc : Thread nD τ).loc main_arg2) = m ((c.tc : Thread nD τ).loc main_arg2)
      ∧ r.2.mem ((c.tc : Thread nD τ).loc main_arg3) = m ((c.tc : Thread nD τ).loc main_arg3)
      ∧ r.2.mem ((c.tc : Thread nD τ).loc main_arg4) = m ((c.tc : Thread nD τ).loc main_arg4)
      ∧ r.2.mem ((c.tc : Thread nD τ).loc main_arg5) = m ((c.tc : Thread nD τ).loc main_arg5)) :=
  (θ_run defs _ _).mono (fun _ h c =>
    ⟨((h c).2 main_arg0 (Pipeline.mem_restRefs_of main_arg0 (by decide) (by decide))).trans (W_main_arg0 m dats c),
     ((h c).2 main_arg1 (Pipeline.mem_restRefs_of main_arg1 (by decide) (by decide))).trans (W_main_arg1 m dats c),
     ((h c).2 main_arg2 (Pipeline.mem_restRefs_of main_arg2 (by decide) (by decide))).trans (W_main_arg2 m dats c),
     ((h c).1 0).trans (((dats 0 c).arrAt_in 0 rfl _).trans ((hA c 0).trans (V_main_arg3 m c))),
     ((h c).2 main_arg4 (Pipeline.mem_restRefs_of main_arg4 (by decide) (by decide))).trans (W_main_arg4 m dats c),
     ((h c).2 main_arg5 (Pipeline.mem_restRefs_of main_arg5 (by decide) (by decide))).trans (W_main_arg5 m dats c)⟩) h

end Cert.KernelIdeal.Hand

end
-- ==== Proof.KI.Frame.lean ====
/-
  The frame of the streaming kernel's program. Per case of the body's two branches, what the body leaves in the four
  accumulators (and, at a last tile, in the four output buffers), read back from the stores its run found; the
  accumulators after each grid point, by recursion on the point (a first tile starts afresh, any other tile continues
  from the tile before); the pipeline's proof data over them; the body obligation, case by case; the launch around the
  region; and the frame: every weakly fair execution ends with the six argument arrays as launched.
-/
import proofs.«405218_j60748017434937_2_alg».proof.Proof.KI.RunA
import proofs.«405218_j60748017434937_2_alg».proof.Proof.KI.RunB
import proofs.«405218_j60748017434937_2_alg».proof.Proof.KI.RunC
import proofs.«405218_j60748017434937_2_alg».proof.Proof.KI.Tail

set_option maxRecDepth 16384

noncomputable section

namespace Cert.KernelIdeal.Hand

open Cert.KernelIdeal Cert.KernelIdeal.Gen
open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)

variable {F : FTy → Type} [FloatOps F]

local notation "𝕄" => MT nD τ sig Unit (Elt F) ℕ (UR sig nD τ) ℕ

variable (m : (ℓ : Loc nD τ sig) → Buf (Elt F) ℓ) (ρ : Dev nD → PrngReg)

/-- The four accumulators' contents, and the four output buffers' contents. -/
abbrev Sc (F : FTy → Type) [FloatOps F] : Type := Vec F S128x2048 .f32 × Vec F S1024x1 .f32 × Vec F S1024x1 .f32 × Vec F S1024x1 .f32
abbrev Out (F : FTy → Type) [FloatOps F] : Type := Vec F S1x128x2048 .f32 × Vec F S1x1024x1 .f32 × Vec F S1x1024x1 .f32 × Vec F S1x1024x1 .f32

/-! ## What each case leaves -/

/-- Case A's stores into accumulator 0 tile it. -/
theorem scover0_A_0 (c : Dev nD) (i : grid0.Coords) (arg2 : Memref sig .tc .vmem S128x512 .f32) (harg2 : arg2.IsWhole) (arg3 : Memref sig .tc .vmem S512x1 .i32) (harg3 : arg3.IsWhole) (arg4 : Memref sig .tc .vmem S1x512 .i32) (harg4 : arg4.IsWhole) (arg5 : Memref sig .tc .vmem S1024x128 .bf16) (harg5 : arg5.IsWhole) (arg6 : Memref sig .tc .vmem S1024x1 .i32) (harg6 : arg6.IsWhole) (arg7 : Memref sig .tc .vmem S1x128x2048 .f32) (harg7 : arg7.IsWhole) (arg8 : Memref sig .tc .vmem S1x1024x1 .f32) (harg8 : arg8.IsWhole) (arg9 : Memref sig .tc .vmem S1x1024x1 .f32) (harg9 : arg9.IsWhole) (arg10 : Memref sig .tc .vmem S1x1024x1 .f32) (harg10 : arg10.IsWhole) (arg11 : Memref sig .tc .vmem S128x2048 .f32) (harg11 : arg11.IsWhole) (arg12 : Memref sig .tc .vmem S1024x1 .f32) (harg12 : arg12.IsWhole) (arg13 : Memref sig .tc .vmem S1024x1 .f32) (harg13 : arg13.IsWhole) (arg14 : Memref sig .tc .vmem S1024x1 .f32) (harg14 : arg14.IsWhole) (hc0 : cond0_0 i) (hc1 : ¬cond0_1 i)
    (x0 : Vec F S128x512 .f32) (x1 : Vec F S512x1 .i32) (x2 : Vec F S1x512 .i32) (x3 : Vec F S1024x128 .bf16) (x4 : Vec F S1024x1 .i32)  (y : S128x2048.Idx) :
    ∃ pc ∈ (kernelRun0_A c i arg2 harg2 arg3 harg3 arg4 harg4 arg5 harg5 arg6 harg6 arg7 harg7 arg8 harg8 arg9 harg9 arg10 harg10 arg11 harg11 arg12 harg12 arg13 harg13 arg14 harg14 hc0 hc1 x0 x1 x2 x3 x4).1, y ∈ pc.1.set :=
  View.cover_of_tiledL (kernelRun0_A c i arg2 harg2 arg3 harg3 arg4 harg4 arg5 harg5 arg6 harg6 arg7 harg7 arg8 harg8 arg9 harg9 arg10 harg10 arg11 harg11 arg12 harg12 arg13 harg13 arg14 harg14 hc0 hc1 x0 x1 x2 x3 x4).1 S128x2048.size (by sl_kernel_rfl) y
/-- What case A leaves in accumulator 0: its stores read back. -/
def sout0_A_0 (c : Dev nD) (i : grid0.Coords) (arg2 : Memref sig .tc .vmem S128x512 .f32) (harg2 : arg2.IsWhole) (arg3 : Memref sig .tc .vmem S512x1 .i32) (harg3 : arg3.IsWhole) (arg4 : Memref sig .tc .vmem S1x512 .i32) (harg4 : arg4.IsWhole) (arg5 : Memref sig .tc .vmem S1024x128 .bf16) (harg5 : arg5.IsWhole) (arg6 : Memref sig .tc .vmem S1024x1 .i32) (harg6 : arg6.IsWhole) (arg7 : Memref sig .tc .vmem S1x128x2048 .f32) (harg7 : arg7.IsWhole) (arg8 : Memref sig .tc .vmem S1x1024x1 .f32) (harg8 : arg8.IsWhole) (arg9 : Memref sig .tc .vmem S1x1024x1 .f32) (harg9 : arg9.IsWhole) (arg10 : Memref sig .tc .vmem S1x1024x1 .f32) (harg10 : arg10.IsWhole) (arg11 : Memref sig .tc .vmem S128x2048 .f32) (harg11 : arg11.IsWhole) (arg12 : Memref sig .tc .vmem S1024x1 .f32) (harg12 : arg12.IsWhole) (arg13 : Memref sig .tc .vmem S1024x1 .f32) (harg13 : arg13.IsWhole) (arg14 : Memref sig .tc .vmem S1024x1 .f32) (harg14 : arg14.IsWhole) (hc0 : cond0_0 i) (hc1 : ¬cond0_1 i)
    (x0 : Vec F S128x512 .f32) (x1 : Vec F S512x1 .i32) (x2 : Vec F S1x512 .i32) (x3 : Vec F S1024x128 .bf16) (x4 : Vec F S1024x1 .i32)  : Vec F S128x2048 .f32 :=
  VS0_0.read (Elt F) (VS0_0.writes (Elt F) VS0_0.junk (kernelRun0_A c i arg2 harg2 arg3 harg3 arg4 harg4 arg5 harg5 arg6 harg6 arg7 harg7 arg8 harg8 arg9 harg9 arg10 harg10 arg11 harg11 arg12 harg12 arg13 harg13 arg14 harg14 hc0 hc1 x0 x1 x2 x3 x4).1)

/-- Case A's stores into accumulator 1 tile it. -/
theorem scover0_A_1 (c : Dev nD) (i : grid0.Coords) (arg2 : Memref sig .tc .vmem S128x512 .f32) (harg2 : arg2.IsWhole) (arg3 : Memref sig .tc .vmem S512x1 .i32) (harg3 : arg3.IsWhole) (arg4 : Memref sig .tc .vmem S1x512 .i32) (harg4 : arg4.IsWhole) (arg5 : Memref sig .tc .vmem S1024x128 .bf16) (harg5 : arg5.IsWhole) (arg6 : Memref sig .tc .vmem S1024x1 .i32) (harg6 : arg6.IsWhole) (arg7 : Memref sig .tc .vmem S1x128x2048 .f32) (harg7 : arg7.IsWhole) (arg8 : Memref sig .tc .vmem S1x1024x1 .f32) (harg8 : arg8.IsWhole) (arg9 : Memref sig .tc .vmem S1x1024x1 .f32) (harg9 : arg9.IsWhole) (arg10 : Memref sig .tc .vmem S1x1024x1 .f32) (harg10 : arg10.IsWhole) (arg11 : Memref sig .tc .vmem S128x2048 .f32) (harg11 : arg11.IsWhole) (arg12 : Memref sig .tc .vmem S1024x1 .f32) (harg12 : arg12.IsWhole) (arg13 : Memref sig .tc .vmem S1024x1 .f32) (harg13 : arg13.IsWhole) (arg14 : Memref sig .tc .vmem S1024x1 .f32) (harg14 : arg14.IsWhole) (hc0 : cond0_0 i) (hc1 : ¬cond0_1 i)
    (x0 : Vec F S128x512 .f32) (x1 : Vec F S512x1 .i32) (x2 : Vec F S1x512 .i32) (x3 : Vec F S1024x128 .bf16) (x4 : Vec F S1024x1 .i32)  (y : S1024x1.Idx) :
    ∃ pc ∈ (kernelRun0_A c i arg2 harg2 arg3 harg3 arg4 harg4 arg5 harg5 arg6 harg6 arg7 harg7 arg8 harg8 arg9 harg9 arg10 harg10 arg11 harg11 arg12 harg12 arg13 harg13 arg14 harg14 hc0 hc1 x0 x1 x2 x3 x4).2.1, y ∈ pc.1.set :=
  View.cover_of_tiledL (kernelRun0_A c i arg2 harg2 arg3 harg3 arg4 harg4 arg5 harg5 arg6 harg6 arg7 harg7 arg8 harg8 arg9 harg9 arg10 harg10 arg11 harg11 arg12 harg12 arg13 harg13 arg14 harg14 hc0 hc1 x0 x1 x2 x3 x4).2.1 S1024x1.size (by sl_kernel_rfl) y
/-- What case A leaves in accumulator 1: its stores read back. -/
def sout0_A_1 (c : Dev nD) (i : grid0.Coords) (arg2 : Memref sig .tc .vmem S128x512 .f32) (harg2 : arg2.IsWhole) (arg3 : Memref sig .tc .vmem S512x1 .i32) (harg3 : arg3.IsWhole) (arg4 : Memref sig .tc .vmem S1x512 .i32) (harg4 : arg4.IsWhole) (arg5 : Memref sig .tc .vmem S1024x128 .bf16) (harg5 : arg5.IsWhole) (arg6 : Memref sig .tc .vmem S1024x1 .i32) (harg6 : arg6.IsWhole) (arg7 : Memref sig .tc .vmem S1x128x2048 .f32) (harg7 : arg7.IsWhole) (arg8 : Memref sig .tc .vmem S1x1024x1 .f32) (harg8 : arg8.IsWhole) (arg9 : Memref sig .tc .vmem S1x1024x1 .f32) (harg9 : arg9.IsWhole) (arg10 : Memref sig .tc .vmem S1x1024x1 .f32) (harg10 : arg10.IsWhole) (arg11 : Memref sig .tc .vmem S128x2048 .f32) (harg11 : arg11.IsWhole) (arg12 : Memref sig .tc .vmem S1024x1 .f32) (harg12 : arg12.IsWhole) (arg13 : Memref sig .tc .vmem S1024x1 .f32) (harg13 : arg13.IsWhole) (arg14 : Memref sig .tc .vmem S1024x1 .f32) (harg14 : arg14.IsWhole) (hc0 : cond0_0 i) (hc1 : ¬cond0_1 i)
    (x0 : Vec F S128x512 .f32) (x1 : Vec F S512x1 .i32) (x2 : Vec F S1x512 .i32) (x3 : Vec F S1024x128 .bf16) (x4 : Vec F S1024x1 .i32)  : Vec F S1024x1 .f32 :=
  VS0_1.read (Elt F) (VS0_1.writes (Elt F) VS0_1.junk (kernelRun0_A c i arg2 harg2 arg3 harg3 arg4 harg4 arg5 harg5 arg6 harg6 arg7 harg7 arg8 harg8 arg9 harg9 arg10 harg10 arg11 harg11 arg12 harg12 arg13 harg13 arg14 harg14 hc0 hc1 x0 x1 x2 x3 x4).2.1)

/-- Case A's stores into accumulator 2 tile it. -/
theorem scover0_A_2 (c : Dev nD) (i : grid0.Coords) (arg2 : Memref sig .tc .vmem S128x512 .f32) (harg2 : arg2.IsWhole) (arg3 : Memref sig .tc .vmem S512x1 .i32) (harg3 : arg3.IsWhole) (arg4 : Memref sig .tc .vmem S1x512 .i32) (harg4 : arg4.IsWhole) (arg5 : Memref sig .tc .vmem S1024x128 .bf16) (harg5 : arg5.IsWhole) (arg6 : Memref sig .tc .vmem S1024x1 .i32) (harg6 : arg6.IsWhole) (arg7 : Memref sig .tc .vmem S1x128x2048 .f32) (harg7 : arg7.IsWhole) (arg8 : Memref sig .tc .vmem S1x1024x1 .f32) (harg8 : arg8.IsWhole) (arg9 : Memref sig .tc .vmem S1x1024x1 .f32) (harg9 : arg9.IsWhole) (arg10 : Memref sig .tc .vmem S1x1024x1 .f32) (harg10 : arg10.IsWhole) (arg11 : Memref sig .tc .vmem S128x2048 .f32) (harg11 : arg11.IsWhole) (arg12 : Memref sig .tc .vmem S1024x1 .f32) (harg12 : arg12.IsWhole) (arg13 : Memref sig .tc .vmem S1024x1 .f32) (harg13 : arg13.IsWhole) (arg14 : Memref sig .tc .vmem S1024x1 .f32) (harg14 : arg14.IsWhole) (hc0 : cond0_0 i) (hc1 : ¬cond0_1 i)
    (x0 : Vec F S128x512 .f32) (x1 : Vec F S512x1 .i32) (x2 : Vec F S1x512 .i32) (x3 : Vec F S1024x128 .bf16) (x4 : Vec F S1024x1 .i32)  (y : S1024x1.Idx) :
    ∃ pc ∈ (kernelRun0_A c i arg2 harg2 arg3 harg3 arg4 harg4 arg5 harg5 arg6 harg6 arg7 harg7 arg8 harg8 arg9 harg9 arg10 harg10 arg11 harg11 arg12 harg12 arg13 harg13 arg14 harg14 hc0 hc1 x0 x1 x2 x3 x4).2.2.1, y ∈ pc.1.set :=
  View.cover_of_tiledL (kernelRun0_A c i arg2 harg2 arg3 harg3 arg4 harg4 arg5 harg5 arg6 harg6 arg7 harg7 arg8 harg8 arg9 harg9 arg10 harg10 arg11 harg11 arg12 harg12 arg13 harg13 arg14 harg14 hc0 hc1 x0 x1 x2 x3 x4).2.2.1 S1024x1.size (by sl_kernel_rfl) y
/-- What case A leaves in accumulator 2: its stores read back. -/
def sout0_A_2 (c : Dev nD) (i : grid0.Coords) (arg2 : Memref sig .tc .vmem S128x512 .f32) (harg2 : arg2.IsWhole) (arg3 : Memref sig .tc .vmem S512x1 .i32) (harg3 : arg3.IsWhole) (arg4 : Memref sig .tc .vmem S1x512 .i32) (harg4 : arg4.IsWhole) (arg5 : Memref sig .tc .vmem S1024x128 .bf16) (harg5 : arg5.IsWhole) (arg6 : Memref sig .tc .vmem S1024x1 .i32) (harg6 : arg6.IsWhole) (arg7 : Memref sig .tc .vmem S1x128x2048 .f32) (harg7 : arg7.IsWhole) (arg8 : Memref sig .tc .vmem S1x1024x1 .f32) (harg8 : arg8.IsWhole) (arg9 : Memref sig .tc .vmem S1x1024x1 .f32) (harg9 : arg9.IsWhole) (arg10 : Memref sig .tc .vmem S1x1024x1 .f32) (harg10 : arg10.IsWhole) (arg11 : Memref sig .tc .vmem S128x2048 .f32) (harg11 : arg11.IsWhole) (arg12 : Memref sig .tc .vmem S1024x1 .f32) (harg12 : arg12.IsWhole) (arg13 : Memref sig .tc .vmem S1024x1 .f32) (harg13 : arg13.IsWhole) (arg14 : Memref sig .tc .vmem S1024x1 .f32) (harg14 : arg14.IsWhole) (hc0 : cond0_0 i) (hc1 : ¬cond0_1 i)
    (x0 : Vec F S128x512 .f32) (x1 : Vec F S512x1 .i32) (x2 : Vec F S1x512 .i32) (x3 : Vec F S1024x128 .bf16) (x4 : Vec F S1024x1 .i32)  : Vec F S1024x1 .f32 :=
  VS0_2.read (Elt F) (VS0_2.writes (Elt F) VS0_2.junk (kernelRun0_A c i arg2 harg2 arg3 harg3 arg4 harg4 arg5 harg5 arg6 harg6 arg7 harg7 arg8 harg8 arg9 harg9 arg10 harg10 arg11 harg11 arg12 harg12 arg13 harg13 arg14 harg14 hc0 hc1 x0 x1 x2 x3 x4).2.2.1)

/-- Case A's stores into accumulator 3 tile it. -/
theorem scover0_A_3 (c : Dev nD) (i : grid0.Coords) (arg2 : Memref sig .tc .vmem S128x512 .f32) (harg2 : arg2.IsWhole) (arg3 : Memref sig .tc .vmem S512x1 .i32) (harg3 : arg3.IsWhole) (arg4 : Memref sig .tc .vmem S1x512 .i32) (harg4 : arg4.IsWhole) (arg5 : Memref sig .tc .vmem S1024x128 .bf16) (harg5 : arg5.IsWhole) (arg6 : Memref sig .tc .vmem S1024x1 .i32) (harg6 : arg6.IsWhole) (arg7 : Memref sig .tc .vmem S1x128x2048 .f32) (harg7 : arg7.IsWhole) (arg8 : Memref sig .tc .vmem S1x1024x1 .f32) (harg8 : arg8.IsWhole) (arg9 : Memref sig .tc .vmem S1x1024x1 .f32) (harg9 : arg9.IsWhole) (arg10 : Memref sig .tc .vmem S1x1024x1 .f32) (harg10 : arg10.IsWhole) (arg11 : Memref sig .tc .vmem S128x2048 .f32) (harg11 : arg11.IsWhole) (arg12 : Memref sig .tc .vmem S1024x1 .f32) (harg12 : arg12.IsWhole) (arg13 : Memref sig .tc .vmem S1024x1 .f32) (harg13 : arg13.IsWhole) (arg14 : Memref sig .tc .vmem S1024x1 .f32) (harg14 : arg14.IsWhole) (hc0 : cond0_0 i) (hc1 : ¬cond0_1 i)
    (x0 : Vec F S128x512 .f32) (x1 : Vec F S512x1 .i32) (x2 : Vec F S1x512 .i32) (x3 : Vec F S1024x128 .bf16) (x4 : Vec F S1024x1 .i32)  (y : S1024x1.Idx) :
    ∃ pc ∈ (kernelRun0_A c i arg2 harg2 arg3 harg3 arg4 harg4 arg5 harg5 arg6 harg6 arg7 harg7 arg8 harg8 arg9 harg9 arg10 harg10 arg11 harg11 arg12 harg12 arg13 harg13 arg14 harg14 hc0 hc1 x0 x1 x2 x3 x4).2.2.2.1, y ∈ pc.1.set :=
  View.cover_of_tiledL (kernelRun0_A c i arg2 harg2 arg3 harg3 arg4 harg4 arg5 harg5 arg6 harg6 arg7 harg7 arg8 harg8 arg9 harg9 arg10 harg10 arg11 harg11 arg12 harg12 arg13 harg13 arg14 harg14 hc0 hc1 x0 x1 x2 x3 x4).2.2.2.1 S1024x1.size (by sl_kernel_rfl) y
/-- What case A leaves in accumulator 3: its stores read back. -/
def sout0_A_3 (c : Dev nD) (i : grid0.Coords) (arg2 : Memref sig .tc .vmem S128x512 .f32) (harg2 : arg2.IsWhole) (arg3 : Memref sig .tc .vmem S512x1 .i32) (harg3 : arg3.IsWhole) (arg4 : Memref sig .tc .vmem S1x512 .i32) (harg4 : arg4.IsWhole) (arg5 : Memref sig .tc .vmem S1024x128 .bf16) (harg5 : arg5.IsWhole) (arg6 : Memref sig .tc .vmem S1024x1 .i32) (harg6 : arg6.IsWhole) (arg7 : Memref sig .tc .vmem S1x128x2048 .f32) (harg7 : arg7.IsWhole) (arg8 : Memref sig .tc .vmem S1x1024x1 .f32) (harg8 : arg8.IsWhole) (arg9 : Memref sig .tc .vmem S1x1024x1 .f32) (harg9 : arg9.IsWhole) (arg10 : Memref sig .tc .vmem S1x1024x1 .f32) (harg10 : arg10.IsWhole) (arg11 : Memref sig .tc .vmem S128x2048 .f32) (harg11 : arg11.IsWhole) (arg12 : Memref sig .tc .vmem S1024x1 .f32) (harg12 : arg12.IsWhole) (arg13 : Memref sig .tc .vmem S1024x1 .f32) (harg13 : arg13.IsWhole) (arg14 : Memref sig .tc .vmem S1024x1 .f32) (harg14 : arg14.IsWhole) (hc0 : cond0_0 i) (hc1 : ¬cond0_1 i)
    (x0 : Vec F S128x512 .f32) (x1 : Vec F S512x1 .i32) (x2 : Vec F S1x512 .i32) (x3 : Vec F S1024x128 .bf16) (x4 : Vec F S1024x1 .i32)  : Vec F S1024x1 .f32 :=
  VS0_3.read (Elt F) (VS0_3.writes (Elt F) VS0_3.junk (kernelRun0_A c i arg2 harg2 arg3 harg3 arg4 harg4 arg5 harg5 arg6 harg6 arg7 harg7 arg8 harg8 arg9 harg9 arg10 harg10 arg11 harg11 arg12 harg12 arg13 harg13 arg14 harg14 hc0 hc1 x0 x1 x2 x3 x4).2.2.2.1)

/-- Case B's stores into accumulator 0 tile it. -/
theorem scover0_B_0 (c : Dev nD) (i : grid0.Coords) (arg2 : Memref sig .tc .vmem S128x512 .f32) (harg2 : arg2.IsWhole) (arg3 : Memref sig .tc .vmem S512x1 .i32) (harg3 : arg3.IsWhole) (arg4 : Memref sig .tc .vmem S1x512 .i32) (harg4 : arg4.IsWhole) (arg5 : Memref sig .tc .vmem S1024x128 .bf16) (harg5 : arg5.IsWhole) (arg6 : Memref sig .tc .vmem S1024x1 .i32) (harg6 : arg6.IsWhole) (arg7 : Memref sig .tc .vmem S1x128x2048 .f32) (harg7 : arg7.IsWhole) (arg8 : Memref sig .tc .vmem S1x1024x1 .f32) (harg8 : arg8.IsWhole) (arg9 : Memref sig .tc .vmem S1x1024x1 .f32) (harg9 : arg9.IsWhole) (arg10 : Memref sig .tc .vmem S1x1024x1 .f32) (harg10 : arg10.IsWhole) (arg11 : Memref sig .tc .vmem S128x2048 .f32) (harg11 : arg11.IsWhole) (arg12 : Memref sig .tc .vmem S1024x1 .f32) (harg12 : arg12.IsWhole) (arg13 : Memref sig .tc .vmem S1024x1 .f32) (harg13 : arg13.IsWhole) (arg14 : Memref sig .tc .vmem S1024x1 .f32) (harg14 : arg14.IsWhole) (hc0 : ¬cond0_0 i) (hc1 : ¬cond0_1 i)
    (x0 : Vec F S128x512 .f32) (x1 : Vec F S512x1 .i32) (x2 : Vec F S1x512 .i32) (x3 : Vec F S1024x128 .bf16) (x4 : Vec F S1024x1 .i32) (xs0 : Vec F S128x2048 .f32) (xs1 : Vec F S1024x1 .f32) (xs2 : Vec F S1024x1 .f32) (xs3 : Vec F S1024x1 .f32) (y : S128x2048.Idx) :
    ∃ pc ∈ (kernelRun0_B c i arg2 harg2 arg3 harg3 arg4 harg4 arg5 harg5 arg6 harg6 arg7 harg7 arg8 harg8 arg9 harg9 arg10 harg10 arg11 harg11 arg12 harg12 arg13 harg13 arg14 harg14 hc0 hc1 x0 x1 x2 x3 x4 xs0 xs1 xs2 xs3).1, y ∈ pc.1.set :=
  View.cover_of_tiledL (kernelRun0_B c i arg2 harg2 arg3 harg3 arg4 harg4 arg5 harg5 arg6 harg6 arg7 harg7 arg8 harg8 arg9 harg9 arg10 harg10 arg11 harg11 arg12 harg12 arg13 harg13 arg14 harg14 hc0 hc1 x0 x1 x2 x3 x4 xs0 xs1 xs2 xs3).1 S128x2048.size (by sl_kernel_rfl) y
/-- What case B leaves in accumulator 0: its stores read back. -/
def sout0_B_0 (c : Dev nD) (i : grid0.Coords) (arg2 : Memref sig .tc .vmem S128x512 .f32) (harg2 : arg2.IsWhole) (arg3 : Memref sig .tc .vmem S512x1 .i32) (harg3 : arg3.IsWhole) (arg4 : Memref sig .tc .vmem S1x512 .i32) (harg4 : arg4.IsWhole) (arg5 : Memref sig .tc .vmem S1024x128 .bf16) (harg5 : arg5.IsWhole) (arg6 : Memref sig .tc .vmem S1024x1 .i32) (harg6 : arg6.IsWhole) (arg7 : Memref sig .tc .vmem S1x128x2048 .f32) (harg7 : arg7.IsWhole) (arg8 : Memref sig .tc .vmem S1x1024x1 .f32) (harg8 : arg8.IsWhole) (arg9 : Memref sig .tc .vmem S1x1024x1 .f32) (harg9 : arg9.IsWhole) (arg10 : Memref sig .tc .vmem S1x1024x1 .f32) (harg10 : arg10.IsWhole) (arg11 : Memref sig .tc .vmem S128x2048 .f32) (harg11 : arg11.IsWhole) (arg12 : Memref sig .tc .vmem S1024x1 .f32) (harg12 : arg12.IsWhole) (arg13 : Memref sig .tc .vmem S1024x1 .f32) (harg13 : arg13.IsWhole) (arg14 : Memref sig .tc .vmem S1024x1 .f32) (harg14 : arg14.IsWhole) (hc0 : ¬cond0_0 i) (hc1 : ¬cond0_1 i)
    (x0 : Vec F S128x512 .f32) (x1 : Vec F S512x1 .i32) (x2 : Vec F S1x512 .i32) (x3 : Vec F S1024x128 .bf16) (x4 : Vec F S1024x1 .i32) (xs0 : Vec F S128x2048 .f32) (xs1 : Vec F S1024x1 .f32) (xs2 : Vec F S1024x1 .f32) (xs3 : Vec F S1024x1 .f32) : Vec F S128x2048 .f32 :=
  VS0_0.read (Elt F) (VS0_0.writes (Elt F) VS0_0.junk (kernelRun0_B c i arg2 harg2 arg3 harg3 arg4 harg4 arg5 harg5 arg6 harg6 arg7 harg7 arg8 harg8 arg9 harg9 arg10 harg10 arg11 harg11 arg12 harg12 arg13 harg13 arg14 harg14 hc0 hc1 x0 x1 x2 x3 x4 xs0 xs1 xs2 xs3).1)

/-- Case B's stores into accumulator 1 tile it. -/
theorem scover0_B_1 (c : Dev nD) (i : grid0.Coords) (arg2 : Memref sig .tc .vmem S128x512 .f32) (harg2 : arg2.IsWhole) (arg3 : Memref sig .tc .vmem S512x1 .i32) (harg3 : arg3.IsWhole) (arg4 : Memref sig .tc .vmem S1x512 .i32) (harg4 : arg4.IsWhole) (arg5 : Memref sig .tc .vmem S1024x128 .bf16) (harg5 : arg5.IsWhole) (arg6 : Memref sig .tc .vmem S1024x1 .i32) (harg6 : arg6.IsWhole) (arg7 : Memref sig .tc .vmem S1x128x2048 .f32) (harg7 : arg7.IsWhole) (arg8 : Memref sig .tc .vmem S1x1024x1 .f32) (harg8 : arg8.IsWhole) (arg9 : Memref sig .tc .vmem S1x1024x1 .f32) (harg9 : arg9.IsWhole) (arg10 : Memref sig .tc .vmem S1x1024x1 .f32) (harg10 : arg10.IsWhole) (arg11 : Memref sig .tc .vmem S128x2048 .f32) (harg11 : arg11.IsWhole) (arg12 : Memref sig .tc .vmem S1024x1 .f32) (harg12 : arg12.IsWhole) (arg13 : Memref sig .tc .vmem S1024x1 .f32) (harg13 : arg13.IsWhole) (arg14 : Memref sig .tc .vmem S1024x1 .f32) (harg14 : arg14.IsWhole) (hc0 : ¬cond0_0 i) (hc1 : ¬cond0_1 i)
    (x0 : Vec F S128x512 .f32) (x1 : Vec F S512x1 .i32) (x2 : Vec F S1x512 .i32) (x3 : Vec F S1024x128 .bf16) (x4 : Vec F S1024x1 .i32) (xs0 : Vec F S128x2048 .f32) (xs1 : Vec F S1024x1 .f32) (xs2 : Vec F S1024x1 .f32) (xs3 : Vec F S1024x1 .f32) (y : S1024x1.Idx) :
    ∃ pc ∈ (kernelRun0_B c i arg2 harg2 arg3 harg3 arg4 harg4 arg5 harg5 arg6 harg6 arg7 harg7 arg8 harg8 arg9 harg9 arg10 harg10 arg11 harg11 arg12 harg12 arg13 harg13 arg14 harg14 hc0 hc1 x0 x1 x2 x3 x4 xs0 xs1 xs2 xs3).2.1, y ∈ pc.1.set :=
  View.cover_of_tiledL (kernelRun0_B c i arg2 harg2 arg3 harg3 arg4 harg4 arg5 harg5 arg6 harg6 arg7 harg7 arg8 harg8 arg9 harg9 arg10 harg10 arg11 harg11 arg12 harg12 arg13 harg13 arg14 harg14 hc0 hc1 x0 x1 x2 x3 x4 xs0 xs1 xs2 xs3).2.1 S1024x1.size (by sl_kernel_rfl) y
/-- What case B leaves in accumulator 1: its stores read back. -/
def sout0_B_1 (c : Dev nD) (i : grid0.Coords) (arg2 : Memref sig .tc .vmem S128x512 .f32) (harg2 : arg2.IsWhole) (arg3 : Memref sig .tc .vmem S512x1 .i32) (harg3 : arg3.IsWhole) (arg4 : Memref sig .tc .vmem S1x512 .i32) (harg4 : arg4.IsWhole) (arg5 : Memref sig .tc .vmem S1024x128 .bf16) (harg5 : arg5.IsWhole) (arg6 : Memref sig .tc .vmem S1024x1 .i32) (harg6 : arg6.IsWhole) (arg7 : Memref sig .tc .vmem S1x128x2048 .f32) (harg7 : arg7.IsWhole) (arg8 : Memref sig .tc .vmem S1x1024x1 .f32) (harg8 : arg8.IsWhole) (arg9 : Memref sig .tc .vmem S1x1024x1 .f32) (harg9 : arg9.IsWhole) (arg10 : Memref sig .tc .vmem S1x1024x1 .f32) (harg10 : arg10.IsWhole) (arg11 : Memref sig .tc .vmem S128x2048 .f32) (harg11 : arg11.IsWhole) (arg12 : Memref sig .tc .vmem S1024x1 .f32) (harg12 : arg12.IsWhole) (arg13 : Memref sig .tc .vmem S1024x1 .f32) (harg13 : arg13.IsWhole) (arg14 : Memref sig .tc .vmem S1024x1 .f32) (harg14 : arg14.IsWhole) (hc0 : ¬cond0_0 i) (hc1 : ¬cond0_1 i)
    (x0 : Vec F S128x512 .f32) (x1 : Vec F S512x1 .i32) (x2 : Vec F S1x512 .i32) (x3 : Vec F S1024x128 .bf16) (x4 : Vec F S1024x1 .i32) (xs0 : Vec F S128x2048 .f32) (xs1 : Vec F S1024x1 .f32) (xs2 : Vec F S1024x1 .f32) (xs3 : Vec F S1024x1 .f32) : Vec F S1024x1 .f32 :=
  VS0_1.read (Elt F) (VS0_1.writes (Elt F) VS0_1.junk (kernelRun0_B c i arg2 harg2 arg3 harg3 arg4 harg4 arg5 harg5 arg6 harg6 arg7 harg7 arg8 harg8 arg9 harg9 arg10 harg10 arg11 harg11 arg12 harg12 arg13 harg13 arg14 harg14 hc0 hc1 x0 x1 x2 x3 x4 xs0 xs1 xs2 xs3).2.1)

/-- Case B's stores into accumulator 2 tile it. -/
theorem scover0_B_2 (c : Dev nD) (i : grid0.Coords) (arg2 : Memref sig .tc .vmem S128x512 .f32) (harg2 : arg2.IsWhole) (arg3 : Memref sig .tc .vmem S512x1 .i32) (harg3 : arg3.IsWhole) (arg4 : Memref sig .tc .vmem S1x512 .i32) (harg4 : arg4.IsWhole) (arg5 : Memref sig .tc .vmem S1024x128 .bf16) (harg5 : arg5.IsWhole) (arg6 : Memref sig .tc .vmem S1024x1 .i32) (harg6 : arg6.IsWhole) (arg7 : Memref sig .tc .vmem S1x128x2048 .f32) (harg7 : arg7.IsWhole) (arg8 : Memref sig .tc .vmem S1x1024x1 .f32) (harg8 : arg8.IsWhole) (arg9 : Memref sig .tc .vmem S1x1024x1 .f32) (harg9 : arg9.IsWhole) (arg10 : Memref sig .tc .vmem S1x1024x1 .f32) (harg10 : arg10.IsWhole) (arg11 : Memref sig .tc .vmem S128x2048 .f32) (harg11 : arg11.IsWhole) (arg12 : Memref sig .tc .vmem S1024x1 .f32) (harg12 : arg12.IsWhole) (arg13 : Memref sig .tc .vmem S1024x1 .f32) (harg13 : arg13.IsWhole) (arg14 : Memref sig .tc .vmem S1024x1 .f32) (harg14 : arg14.IsWhole) (hc0 : ¬cond0_0 i) (hc1 : ¬cond0_1 i)
    (x0 : Vec F S128x512 .f32) (x1 : Vec F S512x1 .i32) (x2 : Vec F S1x512 .i32) (x3 : Vec F S1024x128 .bf16) (x4 : Vec F S1024x1 .i32) (xs0 : Vec F S128x2048 .f32) (xs1 : Vec F S1024x1 .f32) (xs2 : Vec F S1024x1 .f32) (xs3 : Vec F S1024x1 .f32) (y : S1024x1.Idx) :
    ∃ pc ∈ (kernelRun0_B c i arg2 harg2 arg3 harg3 arg4 harg4 arg5 harg5 arg6 harg6 arg7 harg7 arg8 harg8 arg9 harg9 arg10 harg10 arg11 harg11 arg12 harg12 arg13 harg13 arg14 harg14 hc0 hc1 x0 x1 x2 x3 x4 xs0 xs1 xs2 xs3).2.2.1, y ∈ pc.1.set :=
  View.cover_of_tiledL (kernelRun0_B c i arg2 harg2 arg3 harg3 arg4 harg4 arg5 harg5 arg6 harg6 arg7 harg7 arg8 harg8 arg9 harg9 arg10 harg10 arg11 harg11 arg12 harg12 arg13 harg13 arg14 harg14 hc0 hc1 x0 x1 x2 x3 x4 xs0 xs1 xs2 xs3).2.2.1 S1024x1.size (by sl_kernel_rfl) y
/-- What case B leaves in accumulator 2: its stores read back. -/
def sout0_B_2 (c : Dev nD) (i : grid0.Coords) (arg2 : Memref sig .tc .vmem S128x512 .f32) (harg2 : arg2.IsWhole) (arg3 : Memref sig .tc .vmem S512x1 .i32) (harg3 : arg3.IsWhole) (arg4 : Memref sig .tc .vmem S1x512 .i32) (harg4 : arg4.IsWhole) (arg5 : Memref sig .tc .vmem S1024x128 .bf16) (harg5 : arg5.IsWhole) (arg6 : Memref sig .tc .vmem S1024x1 .i32) (harg6 : arg6.IsWhole) (arg7 : Memref sig .tc .vmem S1x128x2048 .f32) (harg7 : arg7.IsWhole) (arg8 : Memref sig .tc .vmem S1x1024x1 .f32) (harg8 : arg8.IsWhole) (arg9 : Memref sig .tc .vmem S1x1024x1 .f32) (harg9 : arg9.IsWhole) (arg10 : Memref sig .tc .vmem S1x1024x1 .f32) (harg10 : arg10.IsWhole) (arg11 : Memref sig .tc .vmem S128x2048 .f32) (harg11 : arg11.IsWhole) (arg12 : Memref sig .tc .vmem S1024x1 .f32) (harg12 : arg12.IsWhole) (arg13 : Memref sig .tc .vmem S1024x1 .f32) (harg13 : arg13.IsWhole) (arg14 : Memref sig .tc .vmem S1024x1 .f32) (harg14 : arg14.IsWhole) (hc0 : ¬cond0_0 i) (hc1 : ¬cond0_1 i)
    (x0 : Vec F S128x512 .f32) (x1 : Vec F S512x1 .i32) (x2 : Vec F S1x512 .i32) (x3 : Vec F S1024x128 .bf16) (x4 : Vec F S1024x1 .i32) (xs0 : Vec F S128x2048 .f32) (xs1 : Vec F S1024x1 .f32) (xs2 : Vec F S1024x1 .f32) (xs3 : Vec F S1024x1 .f32) : Vec F S1024x1 .f32 :=
  VS0_2.read (Elt F) (VS0_2.writes (Elt F) VS0_2.junk (kernelRun0_B c i arg2 harg2 arg3 harg3 arg4 harg4 arg5 harg5 arg6 harg6 arg7 harg7 arg8 harg8 arg9 harg9 arg10 harg10 arg11 harg11 arg12 harg12 arg13 harg13 arg14 harg14 hc0 hc1 x0 x1 x2 x3 x4 xs0 xs1 xs2 xs3).2.2.1)

/-- Case B's stores into accumulator 3 tile it. -/
theorem scover0_B_3 (c : Dev nD) (i : grid0.Coords) (arg2 : Memref sig .tc .vmem S128x512 .f32) (harg2 : arg2.IsWhole) (arg3 : Memref sig .tc .vmem S512x1 .i32) (harg3 : arg3.IsWhole) (arg4 : Memref sig .tc .vmem S1x512 .i32) (harg4 : arg4.IsWhole) (arg5 : Memref sig .tc .vmem S1024x128 .bf16) (harg5 : arg5.IsWhole) (arg6 : Memref sig .tc .vmem S1024x1 .i32) (harg6 : arg6.IsWhole) (arg7 : Memref sig .tc .vmem S1x128x2048 .f32) (harg7 : arg7.IsWhole) (arg8 : Memref sig .tc .vmem S1x1024x1 .f32) (harg8 : arg8.IsWhole) (arg9 : Memref sig .tc .vmem S1x1024x1 .f32) (harg9 : arg9.IsWhole) (arg10 : Memref sig .tc .vmem S1x1024x1 .f32) (harg10 : arg10.IsWhole) (arg11 : Memref sig .tc .vmem S128x2048 .f32) (harg11 : arg11.IsWhole) (arg12 : Memref sig .tc .vmem S1024x1 .f32) (harg12 : arg12.IsWhole) (arg13 : Memref sig .tc .vmem S1024x1 .f32) (harg13 : arg13.IsWhole) (arg14 : Memref sig .tc .vmem S1024x1 .f32) (harg14 : arg14.IsWhole) (hc0 : ¬cond0_0 i) (hc1 : ¬cond0_1 i)
    (x0 : Vec F S128x512 .f32) (x1 : Vec F S512x1 .i32) (x2 : Vec F S1x512 .i32) (x3 : Vec F S1024x128 .bf16) (x4 : Vec F S1024x1 .i32) (xs0 : Vec F S128x2048 .f32) (xs1 : Vec F S1024x1 .f32) (xs2 : Vec F S1024x1 .f32) (xs3 : Vec F S1024x1 .f32) (y : S1024x1.Idx) :
    ∃ pc ∈ (kernelRun0_B c i arg2 harg2 arg3 harg3 arg4 harg4 arg5 harg5 arg6 harg6 arg7 harg7 arg8 harg8 arg9 harg9 arg10 harg10 arg11 harg11 arg12 harg12 arg13 harg13 arg14 harg14 hc0 hc1 x0 x1 x2 x3 x4 xs0 xs1 xs2 xs3).2.2.2.1, y ∈ pc.1.set :=
  View.cover_of_tiledL (kernelRun0_B c i arg2 harg2 arg3 harg3 arg4 harg4 arg5 harg5 arg6 harg6 arg7 harg7 arg8 harg8 arg9 harg9 arg10 harg10 arg11 harg11 arg12 harg12 arg13 harg13 arg14 harg14 hc0 hc1 x0 x1 x2 x3 x4 xs0 xs1 xs2 xs3).2.2.2.1 S1024x1.size (by sl_kernel_rfl) y
/-- What case B leaves in accumulator 3: its stores read back. -/
def sout0_B_3 (c : Dev nD) (i : grid0.Coords) (arg2 : Memref sig .tc .vmem S128x512 .f32) (harg2 : arg2.IsWhole) (arg3 : Memref sig .tc .vmem S512x1 .i32) (harg3 : arg3.IsWhole) (arg4 : Memref sig .tc .vmem S1x512 .i32) (harg4 : arg4.IsWhole) (arg5 : Memref sig .tc .vmem S1024x128 .bf16) (harg5 : arg5.IsWhole) (arg6 : Memref sig .tc .vmem S1024x1 .i32) (harg6 : arg6.IsWhole) (arg7 : Memref sig .tc .vmem S1x128x2048 .f32) (harg7 : arg7.IsWhole) (arg8 : Memref sig .tc .vmem S1x1024x1 .f32) (harg8 : arg8.IsWhole) (arg9 : Memref sig .tc .vmem S1x1024x1 .f32) (harg9 : arg9.IsWhole) (arg10 : Memref sig .tc .vmem S1x1024x1 .f32) (harg10 : arg10.IsWhole) (arg11 : Memref sig .tc .vmem S128x2048 .f32) (harg11 : arg11.IsWhole) (arg12 : Memref sig .tc .vmem S1024x1 .f32) (harg12 : arg12.IsWhole) (arg13 : Memref sig .tc .vmem S1024x1 .f32) (harg13 : arg13.IsWhole) (arg14 : Memref sig .tc .vmem S1024x1 .f32) (harg14 : arg14.IsWhole) (hc0 : ¬cond0_0 i) (hc1 : ¬cond0_1 i)
    (x0 : Vec F S128x512 .f32) (x1 : Vec F S512x1 .i32) (x2 : Vec F S1x512 .i32) (x3 : Vec F S1024x128 .bf16) (x4 : Vec F S1024x1 .i32) (xs0 : Vec F S128x2048 .f32) (xs1 : Vec F S1024x1 .f32) (xs2 : Vec F S1024x1 .f32) (xs3 : Vec F S1024x1 .f32) : Vec F S1024x1 .f32 :=
  VS0_3.read (Elt F) (VS0_3.writes (Elt F) VS0_3.junk (kernelRun0_B c i arg2 harg2 arg3 harg3 arg4 harg4 arg5 harg5 arg6 harg6 arg7 harg7 arg8 harg8 arg9 harg9 arg10 harg10 arg11 harg11 arg12 harg12 arg13 harg13 arg14 harg14 hc0 hc1 x0 x1 x2 x3 x4 xs0 xs1 xs2 xs3).2.2.2.1)

/-- Case C's stores into accumulator 0 tile it. -/
theorem scover0_C_0 (c : Dev nD) (i : grid0.Coords) (arg2 : Memref sig .tc .vmem S128x512 .f32) (harg2 : arg2.IsWhole) (arg3 : Memref sig .tc .vmem S512x1 .i32) (harg3 : arg3.IsWhole) (arg4 : Memref sig .tc .vmem S1x512 .i32) (harg4 : arg4.IsWhole) (arg5 : Memref sig .tc .vmem S1024x128 .bf16) (harg5 : arg5.IsWhole) (arg6 : Memref sig .tc .vmem S1024x1 .i32) (harg6 : arg6.IsWhole) (arg7 : Memref sig .tc .vmem S1x128x2048 .f32) (harg7 : arg7.IsWhole) (arg8 : Memref sig .tc .vmem S1x1024x1 .f32) (harg8 : arg8.IsWhole) (arg9 : Memref sig .tc .vmem S1x1024x1 .f32) (harg9 : arg9.IsWhole) (arg10 : Memref sig .tc .vmem S1x1024x1 .f32) (harg10 : arg10.IsWhole) (arg11 : Memref sig .tc .vmem S128x2048 .f32) (harg11 : arg11.IsWhole) (arg12 : Memref sig .tc .vmem S1024x1 .f32) (harg12 : arg12.IsWhole) (arg13 : Memref sig .tc .vmem S1024x1 .f32) (harg13 : arg13.IsWhole) (arg14 : Memref sig .tc .vmem S1024x1 .f32) (harg14 : arg14.IsWhole) (hc0 : ¬cond0_0 i) (hc1 : cond0_1 i)
    (x0 : Vec F S128x512 .f32) (x1 : Vec F S512x1 .i32) (x2 : Vec F S1x512 .i32) (x3 : Vec F S1024x128 .bf16) (x4 : Vec F S1024x1 .i32) (xs0 : Vec F S128x2048 .f32) (xs1 : Vec F S1024x1 .f32) (xs2 : Vec F S1024x1 .f32) (xs3 : Vec F S1024x1 .f32) (y : S128x2048.Idx) :
    ∃ pc ∈ (kernelRun0_C c i arg2 harg2 arg3 harg3 arg4 harg4 arg5 harg5 arg6 harg6 arg7 harg7 arg8 harg8 arg9 harg9 arg10 harg10 arg11 harg11 arg12 harg12 arg13 harg13 arg14 harg14 hc0 hc1 x0 x1 x2 x3 x4 xs0 xs1 xs2 xs3).2.2.2.2.1, y ∈ pc.1.set :=
  View.cover_of_tiledL (kernelRun0_C c i arg2 harg2 arg3 harg3 arg4 harg4 arg5 harg5 arg6 harg6 arg7 harg7 arg8 harg8 arg9 harg9 arg10 harg10 arg11 harg11 arg12 harg12 arg13 harg13 arg14 harg14 hc0 hc1 x0 x1 x2 x3 x4 xs0 xs1 xs2 xs3).2.2.2.2.1 S128x2048.size (by sl_kernel_rfl) y
/-- What case C leaves in accumulator 0: its stores read back. -/
def sout0_C_0 (c : Dev nD) (i : grid0.Coords) (arg2 : Memref sig .tc .vmem S128x512 .f32) (harg2 : arg2.IsWhole) (arg3 : Memref sig .tc .vmem S512x1 .i32) (harg3 : arg3.IsWhole) (arg4 : Memref sig .tc .vmem S1x512 .i32) (harg4 : arg4.IsWhole) (arg5 : Memref sig .tc .vmem S1024x128 .bf16) (harg5 : arg5.IsWhole) (arg6 : Memref sig .tc .vmem S1024x1 .i32) (harg6 : arg6.IsWhole) (arg7 : Memref sig .tc .vmem S1x128x2048 .f32) (harg7 : arg7.IsWhole) (arg8 : Memref sig .tc .vmem S1x1024x1 .f32) (harg8 : arg8.IsWhole) (arg9 : Memref sig .tc .vmem S1x1024x1 .f32) (harg9 : arg9.IsWhole) (arg10 : Memref sig .tc .vmem S1x1024x1 .f32) (harg10 : arg10.IsWhole) (arg11 : Memref sig .tc .vmem S128x2048 .f32) (harg11 : arg11.IsWhole) (arg12 : Memref sig .tc .vmem S1024x1 .f32) (harg12 : arg12.IsWhole) (arg13 : Memref sig .tc .vmem S1024x1 .f32) (harg13 : arg13.IsWhole) (arg14 : Memref sig .tc .vmem S1024x1 .f32) (harg14 : arg14.IsWhole) (hc0 : ¬cond0_0 i) (hc1 : cond0_1 i)
    (x0 : Vec F S128x512 .f32) (x1 : Vec F S512x1 .i32) (x2 : Vec F S1x512 .i32) (x3 : Vec F S1024x128 .bf16) (x4 : Vec F S1024x1 .i32) (xs0 : Vec F S128x2048 .f32) (xs1 : Vec F S1024x1 .f32) (xs2 : Vec F S1024x1 .f32) (xs3 : Vec F S1024x1 .f32) : Vec F S128x2048 .f32 :=
  VS0_0.read (Elt F) (VS0_0.writes (Elt F) VS0_0.junk (kernelRun0_C c i arg2 harg2 arg3 harg3 arg4 harg4 arg5 harg5 arg6 harg6 arg7 harg7 arg8 harg8 arg9 harg9 arg10 harg10 arg11 harg11 arg12 harg12 arg13 harg13 arg14 harg14 hc0 hc1 x0 x1 x2 x3 x4 xs0 xs1 xs2 xs3).2.2.2.2.1)

/-- Case C's stores into accumulator 1 tile it. -/
theorem scover0_C_1 (c : Dev nD) (i : grid0.Coords) (arg2 : Memref sig .tc .vmem S128x512 .f32) (harg2 : arg2.IsWhole) (arg3 : Memref sig .tc .vmem S512x1 .i32) (harg3 : arg3.IsWhole) (arg4 : Memref sig .tc .vmem S1x512 .i32) (harg4 : arg4.IsWhole) (arg5 : Memref sig .tc .vmem S1024x128 .bf16) (harg5 : arg5.IsWhole) (arg6 : Memref sig .tc .vmem S1024x1 .i32) (harg6 : arg6.IsWhole) (arg7 : Memref sig .tc .vmem S1x128x2048 .f32) (harg7 : arg7.IsWhole) (arg8 : Memref sig .tc .vmem S1x1024x1 .f32) (harg8 : arg8.IsWhole) (arg9 : Memref sig .tc .vmem S1x1024x1 .f32) (harg9 : arg9.IsWhole) (arg10 : Memref sig .tc .vmem S1x1024x1 .f32) (harg10 : arg10.IsWhole) (arg11 : Memref sig .tc .vmem S128x2048 .f32) (harg11 : arg11.IsWhole) (arg12 : Memref sig .tc .vmem S1024x1 .f32) (harg12 : arg12.IsWhole) (arg13 : Memref sig .tc .vmem S1024x1 .f32) (harg13 : arg13.IsWhole) (arg14 : Memref sig .tc .vmem S1024x1 .f32) (harg14 : arg14.IsWhole) (hc0 : ¬cond0_0 i) (hc1 : cond0_1 i)
    (x0 : Vec F S128x512 .f32) (x1 : Vec F S512x1 .i32) (x2 : Vec F S1x512 .i32) (x3 : Vec F S1024x128 .bf16) (x4 : Vec F S1024x1 .i32) (xs0 : Vec F S128x2048 .f32) (xs1 : Vec F S1024x1 .f32) (xs2 : Vec F S1024x1 .f32) (xs3 : Vec F S1024x1 .f32) (y : S1024x1.Idx) :
    ∃ pc ∈ (kernelRun0_C c i arg2 harg2 arg3 harg3 arg4 harg4 arg5 harg5 arg6 harg6 arg7 harg7 arg8 harg8 arg9 harg9 arg10 harg10 arg11 harg11 arg12 harg12 arg13 harg13 arg14 harg14 hc0 hc1 x0 x1 x2 x3 x4 xs0 xs1 xs2 xs3).2.2.2.2.2.1, y ∈ pc.1.set :=
  View.cover_of_tiledL (kernelRun0_C c i arg2 harg2 arg3 harg3 arg4 harg4 arg5 harg5 arg6 harg6 arg7 harg7 arg8 harg8 arg9 harg9 arg10 harg10 arg11 harg11 arg12 harg12 arg13 harg13 arg14 harg14 hc0 hc1 x0 x1 x2 x3 x4 xs0 xs1 xs2 xs3).2.2.2.2.2.1 S1024x1.size (by sl_kernel_rfl) y
/-- What case C leaves in accumulator 1: its stores read back. -/
def sout0_C_1 (c : Dev nD) (i : grid0.Coords) (arg2 : Memref sig .tc .vmem S128x512 .f32) (harg2 : arg2.IsWhole) (arg3 : Memref sig .tc .vmem S512x1 .i32) (harg3 : arg3.IsWhole) (arg4 : Memref sig .tc .vmem S1x512 .i32) (harg4 : arg4.IsWhole) (arg5 : Memref sig .tc .vmem S1024x128 .bf16) (harg5 : arg5.IsWhole) (arg6 : Memref sig .tc .vmem S1024x1 .i32) (harg6 : arg6.IsWhole) (arg7 : Memref sig .tc .vmem S1x128x2048 .f32) (harg7 : arg7.IsWhole) (arg8 : Memref sig .tc .vmem S1x1024x1 .f32) (harg8 : arg8.IsWhole) (arg9 : Memref sig .tc .vmem S1x1024x1 .f32) (harg9 : arg9.IsWhole) (arg10 : Memref sig .tc .vmem S1x1024x1 .f32) (harg10 : arg10.IsWhole) (arg11 : Memref sig .tc .vmem S128x2048 .f32) (harg11 : arg11.IsWhole) (arg12 : Memref sig .tc .vmem S1024x1 .f32) (harg12 : arg12.IsWhole) (arg13 : Memref sig .tc .vmem S1024x1 .f32) (harg13 : arg13.IsWhole) (arg14 : Memref sig .tc .vmem S1024x1 .f32) (harg14 : arg14.IsWhole) (hc0 : ¬cond0_0 i) (hc1 : cond0_1 i)
    (x0 : Vec F S128x512 .f32) (x1 : Vec F S512x1 .i32) (x2 : Vec F S1x512 .i32) (x3 : Vec F S1024x128 .bf16) (x4 : Vec F S1024x1 .i32) (xs0 : Vec F S128x2048 .f32) (xs1 : Vec F S1024x1 .f32) (xs2 : Vec F S1024x1 .f32) (xs3 : Vec F S1024x1 .f32) : Vec F S1024x1 .f32 :=
  VS0_1.read (Elt F) (VS0_1.writes (Elt F) VS0_1.junk (kernelRun0_C c i arg2 harg2 arg3 harg3 arg4 harg4 arg5 harg5 arg6 harg6 arg7 harg7 arg8 harg8 arg9 harg9 arg10 harg10 arg11 harg11 arg12 harg12 arg13 harg13 arg14 harg14 hc0 hc1 x0 x1 x2 x3 x4 xs0 xs1 xs2 xs3).2.2.2.2.2.1)

/-- Case C's stores into accumulator 2 tile it. -/
theorem scover0_C_2 (c : Dev nD) (i : grid0.Coords) (arg2 : Memref sig .tc .vmem S128x512 .f32) (harg2 : arg2.IsWhole) (arg3 : Memref sig .tc .vmem S512x1 .i32) (harg3 : arg3.IsWhole) (arg4 : Memref sig .tc .vmem S1x512 .i32) (harg4 : arg4.IsWhole) (arg5 : Memref sig .tc .vmem S1024x128 .bf16) (harg5 : arg5.IsWhole) (arg6 : Memref sig .tc .vmem S1024x1 .i32) (harg6 : arg6.IsWhole) (arg7 : Memref sig .tc .vmem S1x128x2048 .f32) (harg7 : arg7.IsWhole) (arg8 : Memref sig .tc .vmem S1x1024x1 .f32) (harg8 : arg8.IsWhole) (arg9 : Memref sig .tc .vmem S1x1024x1 .f32) (harg9 : arg9.IsWhole) (arg10 : Memref sig .tc .vmem S1x1024x1 .f32) (harg10 : arg10.IsWhole) (arg11 : Memref sig .tc .vmem S128x2048 .f32) (harg11 : arg11.IsWhole) (arg12 : Memref sig .tc .vmem S1024x1 .f32) (harg12 : arg12.IsWhole) (arg13 : Memref sig .tc .vmem S1024x1 .f32) (harg13 : arg13.IsWhole) (arg14 : Memref sig .tc .vmem S1024x1 .f32) (harg14 : arg14.IsWhole) (hc0 : ¬cond0_0 i) (hc1 : cond0_1 i)
    (x0 : Vec F S128x512 .f32) (x1 : Vec F S512x1 .i32) (x2 : Vec F S1x512 .i32) (x3 : Vec F S1024x128 .bf16) (x4 : Vec F S1024x1 .i32) (xs0 : Vec F S128x2048 .f32) (xs1 : Vec F S1024x1 .f32) (xs2 : Vec F S1024x1 .f32) (xs3 : Vec F S1024x1 .f32) (y : S1024x1.Idx) :
    ∃ pc ∈ (kernelRun0_C c i arg2 harg2 arg3 harg3 arg4 harg4 arg5 harg5 arg6 harg6 arg7 harg7 arg8 harg8 arg9 harg9 arg10 harg10 arg11 harg11 arg12 harg12 arg13 harg13 arg14 harg14 hc0 hc1 x0 x1 x2 x3 x4 xs0 xs1 xs2 xs3).2.2.2.2.2.2.1, y ∈ pc.1.set :=
  View.cover_of_tiledL (kernelRun0_C c i arg2 harg2 arg3 harg3 arg4 harg4 arg5 harg5 arg6 harg6 arg7 harg7 arg8 harg8 arg9 harg9 arg10 harg10 arg11 harg11 arg12 harg12 arg13 harg13 arg14 harg14 hc0 hc1 x0 x1 x2 x3 x4 xs0 xs1 xs2 xs3).2.2.2.2.2.2.1 S1024x1.size (by sl_kernel_rfl) y
/-- What case C leaves in accumulator 2: its stores read back. -/
def sout0_C_2 (c : Dev nD) (i : grid0.Coords) (arg2 : Memref sig .tc .vmem S128x512 .f32) (harg2 : arg2.IsWhole) (arg3 : Memref sig .tc .vmem S512x1 .i32) (harg3 : arg3.IsWhole) (arg4 : Memref sig .tc .vmem S1x512 .i32) (harg4 : arg4.IsWhole) (arg5 : Memref sig .tc .vmem S1024x128 .bf16) (harg5 : arg5.IsWhole) (arg6 : Memref sig .tc .vmem S1024x1 .i32) (harg6 : arg6.IsWhole) (arg7 : Memref sig .tc .vmem S1x128x2048 .f32) (harg7 : arg7.IsWhole) (arg8 : Memref sig .tc .vmem S1x1024x1 .f32) (harg8 : arg8.IsWhole) (arg9 : Memref sig .tc .vmem S1x1024x1 .f32) (harg9 : arg9.IsWhole) (arg10 : Memref sig .tc .vmem S1x1024x1 .f32) (harg10 : arg10.IsWhole) (arg11 : Memref sig .tc .vmem S128x2048 .f32) (harg11 : arg11.IsWhole) (arg12 : Memref sig .tc .vmem S1024x1 .f32) (harg12 : arg12.IsWhole) (arg13 : Memref sig .tc .vmem S1024x1 .f32) (harg13 : arg13.IsWhole) (arg14 : Memref sig .tc .vmem S1024x1 .f32) (harg14 : arg14.IsWhole) (hc0 : ¬cond0_0 i) (hc1 : cond0_1 i)
    (x0 : Vec F S128x512 .f32) (x1 : Vec F S512x1 .i32) (x2 : Vec F S1x512 .i32) (x3 : Vec F S1024x128 .bf16) (x4 : Vec F S1024x1 .i32) (xs0 : Vec F S128x2048 .f32) (xs1 : Vec F S1024x1 .f32) (xs2 : Vec F S1024x1 .f32) (xs3 : Vec F S1024x1 .f32) : Vec F S1024x1 .f32 :=
  VS0_2.read (Elt F) (VS0_2.writes (Elt F) VS0_2.junk (kernelRun0_C c i arg2 harg2 arg3 harg3 arg4 harg4 arg5 harg5 arg6 harg6 arg7 harg7 arg8 harg8 arg9 harg9 arg10 harg10 arg11 harg11 arg12 harg12 arg13 harg13 arg14 harg14 hc0 hc1 x0 x1 x2 x3 x4 xs0 xs1 xs2 xs3).2.2.2.2.2.2.1)

/-- Case C's stores into accumulator 3 tile it. -/
theorem scover0_C_3 (c : Dev nD) (i : grid0.Coords) (arg2 : Memref sig .tc .vmem S128x512 .f32) (harg2 : arg2.IsWhole) (arg3 : Memref sig .tc .vmem S512x1 .i32) (harg3 : arg3.IsWhole) (arg4 : Memref sig .tc .vmem S1x512 .i32) (harg4 : arg4.IsWhole) (arg5 : Memref sig .tc .vmem S1024x128 .bf16) (harg5 : arg5.IsWhole) (arg6 : Memref sig .tc .vmem S1024x1 .i32) (harg6 : arg6.IsWhole) (arg7 : Memref sig .tc .vmem S1x128x2048 .f32) (harg7 : arg7.IsWhole) (arg8 : Memref sig .tc .vmem S1x1024x1 .f32) (harg8 : arg8.IsWhole) (arg9 : Memref sig .tc .vmem S1x1024x1 .f32) (harg9 : arg9.IsWhole) (arg10 : Memref sig .tc .vmem S1x1024x1 .f32) (harg10 : arg10.IsWhole) (arg11 : Memref sig .tc .vmem S128x2048 .f32) (harg11 : arg11.IsWhole) (arg12 : Memref sig .tc .vmem S1024x1 .f32) (harg12 : arg12.IsWhole) (arg13 : Memref sig .tc .vmem S1024x1 .f32) (harg13 : arg13.IsWhole) (arg14 : Memref sig .tc .vmem S1024x1 .f32) (harg14 : arg14.IsWhole) (hc0 : ¬cond0_0 i) (hc1 : cond0_1 i)
    (x0 : Vec F S128x512 .f32) (x1 : Vec F S512x1 .i32) (x2 : Vec F S1x512 .i32) (x3 : Vec F S1024x128 .bf16) (x4 : Vec F S1024x1 .i32) (xs0 : Vec F S128x2048 .f32) (xs1 : Vec F S1024x1 .f32) (xs2 : Vec F S1024x1 .f32) (xs3 : Vec F S1024x1 .f32) (y : S1024x1.Idx) :
    ∃ pc ∈ (kernelRun0_C c i arg2 harg2 arg3 harg3 arg4 harg4 arg5 harg5 arg6 harg6 arg7 harg7 arg8 harg8 arg9 harg9 arg10 harg10 arg11 harg11 arg12 harg12 arg13 harg13 arg14 harg14 hc0 hc1 x0 x1 x2 x3 x4 xs0 xs1 xs2 xs3).2.2.2.2.2.2.2.1, y ∈ pc.1.set :=
  View.cover_of_tiledL (kernelRun0_C c i arg2 harg2 arg3 harg3 arg4 harg4 arg5 harg5 arg6 harg6 arg7 harg7 arg8 harg8 arg9 harg9 arg10 harg10 arg11 harg11 arg12 harg12 arg13 harg13 arg14 harg14 hc0 hc1 x0 x1 x2 x3 x4 xs0 xs1 xs2 xs3).2.2.2.2.2.2.2.1 S1024x1.size (by sl_kernel_rfl) y
/-- What case C leaves in accumulator 3: its stores read back. -/
def sout0_C_3 (c : Dev nD) (i : grid0.Coords) (arg2 : Memref sig .tc .vmem S128x512 .f32) (harg2 : arg2.IsWhole) (arg3 : Memref sig .tc .vmem S512x1 .i32) (harg3 : arg3.IsWhole) (arg4 : Memref sig .tc .vmem S1x512 .i32) (harg4 : arg4.IsWhole) (arg5 : Memref sig .tc .vmem S1024x128 .bf16) (harg5 : arg5.IsWhole) (arg6 : Memref sig .tc .vmem S1024x1 .i32) (harg6 : arg6.IsWhole) (arg7 : Memref sig .tc .vmem S1x128x2048 .f32) (harg7 : arg7.IsWhole) (arg8 : Memref sig .tc .vmem S1x1024x1 .f32) (harg8 : arg8.IsWhole) (arg9 : Memref sig .tc .vmem S1x1024x1 .f32) (harg9 : arg9.IsWhole) (arg10 : Memref sig .tc .vmem S1x1024x1 .f32) (harg10 : arg10.IsWhole) (arg11 : Memref sig .tc .vmem S128x2048 .f32) (harg11 : arg11.IsWhole) (arg12 : Memref sig .tc .vmem S1024x1 .f32) (harg12 : arg12.IsWhole) (arg13 : Memref sig .tc .vmem S1024x1 .f32) (harg13 : arg13.IsWhole) (arg14 : Memref sig .tc .vmem S1024x1 .f32) (harg14 : arg14.IsWhole) (hc0 : ¬cond0_0 i) (hc1 : cond0_1 i)
    (x0 : Vec F S128x512 .f32) (x1 : Vec F S512x1 .i32) (x2 : Vec F S1x512 .i32) (x3 : Vec F S1024x128 .bf16) (x4 : Vec F S1024x1 .i32) (xs0 : Vec F S128x2048 .f32) (xs1 : Vec F S1024x1 .f32) (xs2 : Vec F S1024x1 .f32) (xs3 : Vec F S1024x1 .f32) : Vec F S1024x1 .f32 :=
  VS0_3.read (Elt F) (VS0_3.writes (Elt F) VS0_3.junk (kernelRun0_C c i arg2 harg2 arg3 harg3 arg4 harg4 arg5 harg5 arg6 harg6 arg7 harg7 arg8 harg8 arg9 harg9 arg10 harg10 arg11 harg11 arg12 harg12 arg13 harg13 arg14 harg14 hc0 hc1 x0 x1 x2 x3 x4 xs0 xs1 xs2 xs3).2.2.2.2.2.2.2.1)

/-- Case C's stores into output buffer 5 tile it. -/
theorem cover0_C_5 (c : Dev nD) (i : grid0.Coords) (arg2 : Memref sig .tc .vmem S128x512 .f32) (harg2 : arg2.IsWhole) (arg3 : Memref sig .tc .vmem S512x1 .i32) (harg3 : arg3.IsWhole) (arg4 : Memref sig .tc .vmem S1x512 .i32) (harg4 : arg4.IsWhole) (arg5 : Memref sig .tc .vmem S1024x128 .bf16) (harg5 : arg5.IsWhole) (arg6 : Memref sig .tc .vmem S1024x1 .i32) (harg6 : arg6.IsWhole) (arg7 : Memref sig .tc .vmem S1x128x2048 .f32) (harg7 : arg7.IsWhole) (arg8 : Memref sig .tc .vmem S1x1024x1 .f32) (harg8 : arg8.IsWhole) (arg9 : Memref sig .tc .vmem S1x1024x1 .f32) (harg9 : arg9.IsWhole) (arg10 : Memref sig .tc .vmem S1x1024x1 .f32) (harg10 : arg10.IsWhole) (arg11 : Memref sig .tc .vmem S128x2048 .f32) (harg11 : arg11.IsWhole) (arg12 : Memref sig .tc .vmem S1024x1 .f32) (harg12 : arg12.IsWhole) (arg13 : Memref sig .tc .vmem S1024x1 .f32) (harg13 : arg13.IsWhole) (arg14 : Memref sig .tc .vmem S1024x1 .f32) (harg14 : arg14.IsWhole) (hc0 : ¬cond0_0 i) (hc1 : cond0_1 i)
    (x0 : Vec F S128x512 .f32) (x1 : Vec F S512x1 .i32) (x2 : Vec F S1x512 .i32) (x3 : Vec F S1024x128 .bf16) (x4 : Vec F S1024x1 .i32) (xs0 : Vec F S128x2048 .f32) (xs1 : Vec F S1024x1 .f32) (xs2 : Vec F S1024x1 .f32) (xs3 : Vec F S1024x1 .f32) (y : S1x128x2048.Idx) :
    ∃ pc ∈ (kernelRun0_C c i arg2 harg2 arg3 harg3 arg4 harg4 arg5 harg5 arg6 harg6 arg7 harg7 arg8 harg8 arg9 harg9 arg10 harg10 arg11 harg11 arg12 harg12 arg13 harg13 arg14 harg14 hc0 hc1 x0 x1 x2 x3 x4 xs0 xs1 xs2 xs3).1, y ∈ pc.1.set :=
  View.cover_of_tiledL (kernelRun0_C c i arg2 harg2 arg3 harg3 arg4 harg4 arg5 harg5 arg6 harg6 arg7 harg7 arg8 harg8 arg9 harg9 arg10 harg10 arg11 harg11 arg12 harg12 arg13 harg13 arg14 harg14 hc0 hc1 x0 x1 x2 x3 x4 xs0 xs1 xs2 xs3).1 S1x128x2048.size (by sl_kernel_rfl) y
/-- What case C leaves in output buffer 5: its stores read back. -/
def out0_C_5 (c : Dev nD) (i : grid0.Coords) (arg2 : Memref sig .tc .vmem S128x512 .f32) (harg2 : arg2.IsWhole) (arg3 : Memref sig .tc .vmem S512x1 .i32) (harg3 : arg3.IsWhole) (arg4 : Memref sig .tc .vmem S1x512 .i32) (harg4 : arg4.IsWhole) (arg5 : Memref sig .tc .vmem S1024x128 .bf16) (harg5 : arg5.IsWhole) (arg6 : Memref sig .tc .vmem S1024x1 .i32) (harg6 : arg6.IsWhole) (arg7 : Memref sig .tc .vmem S1x128x2048 .f32) (harg7 : arg7.IsWhole) (arg8 : Memref sig .tc .vmem S1x1024x1 .f32) (harg8 : arg8.IsWhole) (arg9 : Memref sig .tc .vmem S1x1024x1 .f32) (harg9 : arg9.IsWhole) (arg10 : Memref sig .tc .vmem S1x1024x1 .f32) (harg10 : arg10.IsWhole) (arg11 : Memref sig .tc .vmem S128x2048 .f32) (harg11 : arg11.IsWhole) (arg12 : Memref sig .tc .vmem S1024x1 .f32) (harg12 : arg12.IsWhole) (arg13 : Memref sig .tc .vmem S1024x1 .f32) (harg13 : arg13.IsWhole) (arg14 : Memref sig .tc .vmem S1024x1 .f32) (harg14 : arg14.IsWhole) (hc0 : ¬cond0_0 i) (hc1 : cond0_1 i)
    (x0 : Vec F S128x512 .f32) (x1 : Vec F S512x1 .i32) (x2 : Vec F S1x512 .i32) (x3 : Vec F S1024x128 .bf16) (x4 : Vec F S1024x1 .i32) (xs0 : Vec F S128x2048 .f32) (xs1 : Vec F S1024x1 .f32) (xs2 : Vec F S1024x1 .f32) (xs3 : Vec F S1024x1 .f32) : Vec F S1x128x2048 .f32 :=
  VO0_5.read (Elt F) (VO0_5.writes (Elt F) VO0_5.junk (kernelRun0_C c i arg2 harg2 arg3 harg3 arg4 harg4 arg5 harg5 arg6 harg6 arg7 harg7 arg8 harg8 arg9 harg9 arg10 harg10 arg11 harg11 arg12 harg12 arg13 harg13 arg14 harg14 hc0 hc1 x0 x1 x2 x3 x4 xs0 xs1 xs2 xs3).1)

/-- Case C's stores into output buffer 6 tile it. -/
theorem cover0_C_6 (c : Dev nD) (i : grid0.Coords) (arg2 : Memref sig .tc .vmem S128x512 .f32) (harg2 : arg2.IsWhole) (arg3 : Memref sig .tc .vmem S512x1 .i32) (harg3 : arg3.IsWhole) (arg4 : Memref sig .tc .vmem S1x512 .i32) (harg4 : arg4.IsWhole) (arg5 : Memref sig .tc .vmem S1024x128 .bf16) (harg5 : arg5.IsWhole) (arg6 : Memref sig .tc .vmem S1024x1 .i32) (harg6 : arg6.IsWhole) (arg7 : Memref sig .tc .vmem S1x128x2048 .f32) (harg7 : arg7.IsWhole) (arg8 : Memref sig .tc .vmem S1x1024x1 .f32) (harg8 : arg8.IsWhole) (arg9 : Memref sig .tc .vmem S1x1024x1 .f32) (harg9 : arg9.IsWhole) (arg10 : Memref sig .tc .vmem S1x1024x1 .f32) (harg10 : arg10.IsWhole) (arg11 : Memref sig .tc .vmem S128x2048 .f32) (harg11 : arg11.IsWhole) (arg12 : Memref sig .tc .vmem S1024x1 .f32) (harg12 : arg12.IsWhole) (arg13 : Memref sig .tc .vmem S1024x1 .f32) (harg13 : arg13.IsWhole) (arg14 : Memref sig .tc .vmem S1024x1 .f32) (harg14 : arg14.IsWhole) (hc0 : ¬cond0_0 i) (hc1 : cond0_1 i)
    (x0 : Vec F S128x512 .f32) (x1 : Vec F S512x1 .i32) (x2 : Vec F S1x512 .i32) (x3 : Vec F S1024x128 .bf16) (x4 : Vec F S1024x1 .i32) (xs0 : Vec F S128x2048 .f32) (xs1 : Vec F S1024x1 .f32) (xs2 : Vec F S1024x1 .f32) (xs3 : Vec F S1024x1 .f32) (y : S1x1024x1.Idx) :
    ∃ pc ∈ (kernelRun0_C c i arg2 harg2 arg3 harg3 arg4 harg4 arg5 harg5 arg6 harg6 arg7 harg7 arg8 harg8 arg9 harg9 arg10 harg10 arg11 harg11 arg12 harg12 arg13 harg13 arg14 harg14 hc0 hc1 x0 x1 x2 x3 x4 xs0 xs1 xs2 xs3).2.1, y ∈ pc.1.set :=
  View.cover_of_tiledL (kernelRun0_C c i arg2 harg2 arg3 harg3 arg4 harg4 arg5 harg5 arg6 harg6 arg7 harg7 arg8 harg8 arg9 harg9 arg10 harg10 arg11 harg11 arg12 harg12 arg13 harg13 arg14 harg14 hc0 hc1 x0 x1 x2 x3 x4 xs0 xs1 xs2 xs3).2.1 S1x1024x1.size (by sl_kernel_rfl) y
/-- What case C leaves in output buffer 6: its stores read back. -/
def out0_C_6 (c : Dev nD) (i : grid0.Coords) (arg2 : Memref sig .tc .vmem S128x512 .f32) (harg2 : arg2.IsWhole) (arg3 : Memref sig .tc .vmem S512x1 .i32) (harg3 : arg3.IsWhole) (arg4 : Memref sig .tc .vmem S1x512 .i32) (harg4 : arg4.IsWhole) (arg5 : Memref sig .tc .vmem S1024x128 .bf16) (harg5 : arg5.IsWhole) (arg6 : Memref sig .tc .vmem S1024x1 .i32) (harg6 : arg6.IsWhole) (arg7 : Memref sig .tc .vmem S1x128x2048 .f32) (harg7 : arg7.IsWhole) (arg8 : Memref sig .tc .vmem S1x1024x1 .f32) (harg8 : arg8.IsWhole) (arg9 : Memref sig .tc .vmem S1x1024x1 .f32) (harg9 : arg9.IsWhole) (arg10 : Memref sig .tc .vmem S1x1024x1 .f32) (harg10 : arg10.IsWhole) (arg11 : Memref sig .tc .vmem S128x2048 .f32) (harg11 : arg11.IsWhole) (arg12 : Memref sig .tc .vmem S1024x1 .f32) (harg12 : arg12.IsWhole) (arg13 : Memref sig .tc .vmem S1024x1 .f32) (harg13 : arg13.IsWhole) (arg14 : Memref sig .tc .vmem S1024x1 .f32) (harg14 : arg14.IsWhole) (hc0 : ¬cond0_0 i) (hc1 : cond0_1 i)
    (x0 : Vec F S128x512 .f32) (x1 : Vec F S512x1 .i32) (x2 : Vec F S1x512 .i32) (x3 : Vec F S1024x128 .bf16) (x4 : Vec F S1024x1 .i32) (xs0 : Vec F S128x2048 .f32) (xs1 : Vec F S1024x1 .f32) (xs2 : Vec F S1024x1 .f32) (xs3 : Vec F S1024x1 .f32) : Vec F S1x1024x1 .f32 :=
  VO0_6.read (Elt F) (VO0_6.writes (Elt F) VO0_6.junk (kernelRun0_C c i arg2 harg2 arg3 harg3 arg4 harg4 arg5 harg5 arg6 harg6 arg7 harg7 arg8 harg8 arg9 harg9 arg10 harg10 arg11 harg11 arg12 harg12 arg13 harg13 arg14 harg14 hc0 hc1 x0 x1 x2 x3 x4 xs0 xs1 xs2 xs3).2.1)

/-- Case C's stores into output buffer 7 tile it. -/
theorem cover0_C_7 (c : Dev nD) (i : grid0.Coords) (arg2 : Memref sig .tc .vmem S128x512 .f32) (harg2 : arg2.IsWhole) (arg3 : Memref sig .tc .vmem S512x1 .i32) (harg3 : arg3.IsWhole) (arg4 : Memref sig .tc .vmem S1x512 .i32) (harg4 : arg4.IsWhole) (arg5 : Memref sig .tc .vmem S1024x128 .bf16) (harg5 : arg5.IsWhole) (arg6 : Memref sig .tc .vmem S1024x1 .i32) (harg6 : arg6.IsWhole) (arg7 : Memref sig .tc .vmem S1x128x2048 .f32) (harg7 : arg7.IsWhole) (arg8 : Memref sig .tc .vmem S1x1024x1 .f32) (harg8 : arg8.IsWhole) (arg9 : Memref sig .tc .vmem S1x1024x1 .f32) (harg9 : arg9.IsWhole) (arg10 : Memref sig .tc .vmem S1x1024x1 .f32) (harg10 : arg10.IsWhole) (arg11 : Memref sig .tc .vmem S128x2048 .f32) (harg11 : arg11.IsWhole) (arg12 : Memref sig .tc .vmem S1024x1 .f32) (harg12 : arg12.IsWhole) (arg13 : Memref sig .tc .vmem S1024x1 .f32) (harg13 : arg13.IsWhole) (arg14 : Memref sig .tc .vmem S1024x1 .f32) (harg14 : arg14.IsWhole) (hc0 : ¬cond0_0 i) (hc1 : cond0_1 i)
    (x0 : Vec F S128x512 .f32) (x1 : Vec F S512x1 .i32) (x2 : Vec F S1x512 .i32) (x3 : Vec F S1024x128 .bf16) (x4 : Vec F S1024x1 .i32) (xs0 : Vec F S128x2048 .f32) (xs1 : Vec F S1024x1 .f32) (xs2 : Vec F S1024x1 .f32) (xs3 : Vec F S1024x1 .f32) (y : S1x1024x1.Idx) :
    ∃ pc ∈ (kernelRun0_C c i arg2 harg2 arg3 harg3 arg4 harg4 arg5 harg5 arg6 harg6 arg7 harg7 arg8 harg8 arg9 harg9 arg10 harg10 arg11 harg11 arg12 harg12 arg13 harg13 arg14 harg14 hc0 hc1 x0 x1 x2 x3 x4 xs0 xs1 xs2 xs3).2.2.1, y ∈ pc.1.set :=
  View.cover_of_tiledL (kernelRun0_C c i arg2 harg2 arg3 harg3 arg4 harg4 arg5 harg5 arg6 harg6 arg7 harg7 arg8 harg8 arg9 harg9 arg10 harg10 arg11 harg11 arg12 harg12 arg13 harg13 arg14 harg14 hc0 hc1 x0 x1 x2 x3 x4 xs0 xs1 xs2 xs3).2.2.1 S1x1024x1.size (by sl_kernel_rfl) y
/-- What case C leaves in output buffer 7: its stores read back. -/
def out0_C_7 (c : Dev nD) (i : grid0.Coords) (arg2 : Memref sig .tc .vmem S128x512 .f32) (harg2 : arg2.IsWhole) (arg3 : Memref sig .tc .vmem S512x1 .i32) (harg3 : arg3.IsWhole) (arg4 : Memref sig .tc .vmem S1x512 .i32) (harg4 : arg4.IsWhole) (arg5 : Memref sig .tc .vmem S1024x128 .bf16) (harg5 : arg5.IsWhole) (arg6 : Memref sig .tc .vmem S1024x1 .i32) (harg6 : arg6.IsWhole) (arg7 : Memref sig .tc .vmem S1x128x2048 .f32) (harg7 : arg7.IsWhole) (arg8 : Memref sig .tc .vmem S1x1024x1 .f32) (harg8 : arg8.IsWhole) (arg9 : Memref sig .tc .vmem S1x1024x1 .f32) (harg9 : arg9.IsWhole) (arg10 : Memref sig .tc .vmem S1x1024x1 .f32) (harg10 : arg10.IsWhole) (arg11 : Memref sig .tc .vmem S128x2048 .f32) (harg11 : arg11.IsWhole) (arg12 : Memref sig .tc .vmem S1024x1 .f32) (harg12 : arg12.IsWhole) (arg13 : Memref sig .tc .vmem S1024x1 .f32) (harg13 : arg13.IsWhole) (arg14 : Memref sig .tc .vmem S1024x1 .f32) (harg14 : arg14.IsWhole) (hc0 : ¬cond0_0 i) (hc1 : cond0_1 i)
    (x0 : Vec F S128x512 .f32) (x1 : Vec F S512x1 .i32) (x2 : Vec F S1x512 .i32) (x3 : Vec F S1024x128 .bf16) (x4 : Vec F S1024x1 .i32) (xs0 : Vec F S128x2048 .f32) (xs1 : Vec F S1024x1 .f32) (xs2 : Vec F S1024x1 .f32) (xs3 : Vec F S1024x1 .f32) : Vec F S1x1024x1 .f32 :=
  VO0_7.read (Elt F) (VO0_7.writes (Elt F) VO0_7.junk (kernelRun0_C c i arg2 harg2 arg3 harg3 arg4 harg4 arg5 harg5 arg6 harg6 arg7 harg7 arg8 harg8 arg9 harg9 arg10 harg10 arg11 harg11 arg12 harg12 arg13 harg13 arg14 harg14 hc0 hc1 x0 x1 x2 x3 x4 xs0 xs1 xs2 xs3).2.2.1)

/-- Case C's stores into output buffer 8 tile it. -/
theorem cover0_C_8 (c : Dev nD) (i : grid0.Coords) (arg2 : Memref sig .tc .vmem S128x512 .f32) (harg2 : arg2.IsWhole) (arg3 : Memref sig .tc .vmem S512x1 .i32) (harg3 : arg3.IsWhole) (arg4 : Memref sig .tc .vmem S1x512 .i32) (harg4 : arg4.IsWhole) (arg5 : Memref sig .tc .vmem S1024x128 .bf16) (harg5 : arg5.IsWhole) (arg6 : Memref sig .tc .vmem S1024x1 .i32) (harg6 : arg6.IsWhole) (arg7 : Memref sig .tc .vmem S1x128x2048 .f32) (harg7 : arg7.IsWhole) (arg8 : Memref sig .tc .vmem S1x1024x1 .f32) (harg8 : arg8.IsWhole) (arg9 : Memref sig .tc .vmem S1x1024x1 .f32) (harg9 : arg9.IsWhole) (arg10 : Memref sig .tc .vmem S1x1024x1 .f32) (harg10 : arg10.IsWhole) (arg11 : Memref sig .tc .vmem S128x2048 .f32) (harg11 : arg11.IsWhole) (arg12 : Memref sig .tc .vmem S1024x1 .f32) (harg12 : arg12.IsWhole) (arg13 : Memref sig .tc .vmem S1024x1 .f32) (harg13 : arg13.IsWhole) (arg14 : Memref sig .tc .vmem S1024x1 .f32) (harg14 : arg14.IsWhole) (hc0 : ¬cond0_0 i) (hc1 : cond0_1 i)
    (x0 : Vec F S128x512 .f32) (x1 : Vec F S512x1 .i32) (x2 : Vec F S1x512 .i32) (x3 : Vec F S1024x128 .bf16) (x4 : Vec F S1024x1 .i32) (xs0 : Vec F S128x2048 .f32) (xs1 : Vec F S1024x1 .f32) (xs2 : Vec F S1024x1 .f32) (xs3 : Vec F S1024x1 .f32) (y : S1x1024x1.Idx) :
    ∃ pc ∈ (kernelRun0_C c i arg2 harg2 arg3 harg3 arg4 harg4 arg5 harg5 arg6 harg6 arg7 harg7 arg8 harg8 arg9 harg9 arg10 harg10 arg11 harg11 arg12 harg12 arg13 harg13 arg14 harg14 hc0 hc1 x0 x1 x2 x3 x4 xs0 xs1 xs2 xs3).2.2.2.1, y ∈ pc.1.set :=
  View.cover_of_tiledL (kernelRun0_C c i arg2 harg2 arg3 harg3 arg4 harg4 arg5 harg5 arg6 harg6 arg7 harg7 arg8 harg8 arg9 harg9 arg10 harg10 arg11 harg11 arg12 harg12 arg13 harg13 arg14 harg14 hc0 hc1 x0 x1 x2 x3 x4 xs0 xs1 xs2 xs3).2.2.2.1 S1x1024x1.size (by sl_kernel_rfl) y
/-- What case C leaves in output buffer 8: its stores read back. -/
def out0_C_8 (c : Dev nD) (i : grid0.Coords) (arg2 : Memref sig .tc .vmem S128x512 .f32) (harg2 : arg2.IsWhole) (arg3 : Memref sig .tc .vmem S512x1 .i32) (harg3 : arg3.IsWhole) (arg4 : Memref sig .tc .vmem S1x512 .i32) (harg4 : arg4.IsWhole) (arg5 : Memref sig .tc .vmem S1024x128 .bf16) (harg5 : arg5.IsWhole) (arg6 : Memref sig .tc .vmem S1024x1 .i32) (harg6 : arg6.IsWhole) (arg7 : Memref sig .tc .vmem S1x128x2048 .f32) (harg7 : arg7.IsWhole) (arg8 : Memref sig .tc .vmem S1x1024x1 .f32) (harg8 : arg8.IsWhole) (arg9 : Memref sig .tc .vmem S1x1024x1 .f32) (harg9 : arg9.IsWhole) (arg10 : Memref sig .tc .vmem S1x1024x1 .f32) (harg10 : arg10.IsWhole) (arg11 : Memref sig .tc .vmem S128x2048 .f32) (harg11 : arg11.IsWhole) (arg12 : Memref sig .tc .vmem S1024x1 .f32) (harg12 : arg12.IsWhole) (arg13 : Memref sig .tc .vmem S1024x1 .f32) (harg13 : arg13.IsWhole) (arg14 : Memref sig .tc .vmem S1024x1 .f32) (harg14 : arg14.IsWhole) (hc0 : ¬cond0_0 i) (hc1 : cond0_1 i)
    (x0 : Vec F S128x512 .f32) (x1 : Vec F S512x1 .i32) (x2 : Vec F S1x512 .i32) (x3 : Vec F S1024x128 .bf16) (x4 : Vec F S1024x1 .i32) (xs0 : Vec F S128x2048 .f32) (xs1 : Vec F S1024x1 .f32) (xs2 : Vec F S1024x1 .f32) (xs3 : Vec F S1024x1 .f32) : Vec F S1x1024x1 .f32 :=
  VO0_8.read (Elt F) (VO0_8.writes (Elt F) VO0_8.junk (kernelRun0_C c i arg2 harg2 arg3 harg3 arg4 harg4 arg5 harg5 arg6 harg6 arg7 harg7 arg8 harg8 arg9 harg9 arg10 harg10 arg11 harg11 arg12 harg12 arg13 harg13 arg14 harg14 hc0 hc1 x0 x1 x2 x3 x4 xs0 xs1 xs2 xs3).2.2.2.1)

/-! ## The accumulators after each grid point -/

/-- The accumulators after a first tile, at point `t`: reset, then this tile's update. -/
def scA (c : Dev nD) (t : Fin cfg0.N) (hc0 : cond0_0 (grid0.coords t)) (hc1 : ¬cond0_1 (grid0.coords t)) : Sc F :=
  (sout0_A_0 c (grid0.coords t) (ms0_0 t) (hs0_0 t) (ms0_1 t) (hs0_1 t) (ms0_2 t) (hs0_2 t) (ms0_3 t) (hs0_3 t) (ms0_4 t) (hs0_4 t) (ms0_5 t) (hs0_5 t) (ms0_6 t) (hs0_6 t) (ms0_7 t) (hs0_7 t) (ms0_8 t) (hs0_8 t) scM0_0 (Memref.isWhole_whole _) scM0_1 (Memref.isWhole_whole _) scM0_2 (Memref.isWhole_whole _) scM0_3 (Memref.isWhole_whole _) hc0 hc1 (iblk m c 0 t) (iblk m c 1 t) (iblk m c 2 t) (iblk m c 3 t) (iblk m c 4 t),
   sout0_A_1 c (grid0.coords t) (ms0_0 t) (hs0_0 t) (ms0_1 t) (hs0_1 t) (ms0_2 t) (hs0_2 t) (ms0_3 t) (hs0_3 t) (ms0_4 t) (hs0_4 t) (ms0_5 t) (hs0_5 t) (ms0_6 t) (hs0_6 t) (ms0_7 t) (hs0_7 t) (ms0_8 t) (hs0_8 t) scM0_0 (Memref.isWhole_whole _) scM0_1 (Memref.isWhole_whole _) scM0_2 (Memref.isWhole_whole _) scM0_3 (Memref.isWhole_whole _) hc0 hc1 (iblk m c 0 t) (iblk m c 1 t) (iblk m c 2 t) (iblk m c 3 t) (iblk m c 4 t),
   sout0_A_2 c (grid0.coords t) (ms0_0 t) (hs0_0 t) (ms0_1 t) (hs0_1 t) (ms0_2 t) (hs0_2 t) (ms0_3 t) (hs0_3 t) (ms0_4 t) (hs0_4 t) (ms0_5 t) (hs0_5 t) (ms0_6 t) (hs0_6 t) (ms0_7 t) (hs0_7 t) (ms0_8 t) (hs0_8 t) scM0_0 (Memref.isWhole_whole _) scM0_1 (Memref.isWhole_whole _) scM0_2 (Memref.isWhole_whole _) scM0_3 (Memref.isWhole_whole _) hc0 hc1 (iblk m c 0 t) (iblk m c 1 t) (iblk m c 2 t) (iblk m c 3 t) (iblk m c 4 t),
   sout0_A_3 c (grid0.coords t) (ms0_0 t) (hs0_0 t) (ms0_1 t) (hs0_1 t) (ms0_2 t) (hs0_2 t) (ms0_3 t) (hs0_3 t) (ms0_4 t) (hs0_4 t) (ms0_5 t) (hs0_5 t) (ms0_6 t) (hs0_6 t) (ms0_7 t) (hs0_7 t) (ms0_8 t) (hs0_8 t) scM0_0 (Memref.isWhole_whole _) scM0_1 (Memref.isWhole_whole _) scM0_2 (Memref.isWhole_whole _) scM0_3 (Memref.isWhole_whole _) hc0 hc1 (iblk m c 0 t) (iblk m c 1 t) (iblk m c 2 t) (iblk m c 3 t) (iblk m c 4 t))
/-- The accumulators after a middle tile, over what the tile before left. -/
def scB (c : Dev nD) (t : Fin cfg0.N) (hc0 : ¬cond0_0 (grid0.coords t)) (hc1 : ¬cond0_1 (grid0.coords t)) (prev : Sc F) : Sc F :=
  (sout0_B_0 c (grid0.coords t) (ms0_0 t) (hs0_0 t) (ms0_1 t) (hs0_1 t) (ms0_2 t) (hs0_2 t) (ms0_3 t) (hs0_3 t) (ms0_4 t) (hs0_4 t) (ms0_5 t) (hs0_5 t) (ms0_6 t) (hs0_6 t) (ms0_7 t) (hs0_7 t) (ms0_8 t) (hs0_8 t) scM0_0 (Memref.isWhole_whole _) scM0_1 (Memref.isWhole_whole _) scM0_2 (Memref.isWhole_whole _) scM0_3 (Memref.isWhole_whole _) hc0 hc1 (iblk m c 0 t) (iblk m c 1 t) (iblk m c 2 t) (iblk m c 3 t) (iblk m c 4 t) prev.1 prev.2.1 prev.2.2.1 prev.2.2.2,
   sout0_B_1 c (grid0.coords t) (ms0_0 t) (hs0_0 t) (ms0_1 t) (hs0_1 t) (ms0_2 t) (hs0_2 t) (ms0_3 t) (hs0_3 t) (ms0_4 t) (hs0_4 t) (ms0_5 t) (hs0_5 t) (ms0_6 t) (hs0_6 t) (ms0_7 t) (hs0_7 t) (ms0_8 t) (hs0_8 t) scM0_0 (Memref.isWhole_whole _) scM0_1 (Memref.isWhole_whole _) scM0_2 (Memref.isWhole_whole _) scM0_3 (Memref.isWhole_whole _) hc0 hc1 (iblk m c 0 t) (iblk m c 1 t) (iblk m c 2 t) (iblk m c 3 t) (iblk m c 4 t) prev.1 prev.2.1 prev.2.2.1 prev.2.2.2,
   sout0_B_2 c (grid0.coords t) (ms0_0 t) (hs0_0 t) (ms0_1 t) (hs0_1 t) (ms0_2 t) (hs0_2 t) (ms0_3 t) (hs0_3 t) (ms0_4 t) (hs0_4 t) (ms0_5 t) (hs0_5 t) (ms0_6 t) (hs0_6 t) (ms0_7 t) (hs0_7 t) (ms0_8 t) (hs0_8 t) scM0_0 (Memref.isWhole_whole _) scM0_1 (Memref.isWhole_whole _) scM0_2 (Memref.isWhole_whole _) scM0_3 (Memref.isWhole_whole _) hc0 hc1 (iblk m c 0 t) (iblk m c 1 t) (iblk m c 2 t) (iblk m c 3 t) (iblk m c 4 t) prev.1 prev.2.1 prev.2.2.1 prev.2.2.2,
   sout0_B_3 c (grid0.coords t) (ms0_0 t) (hs0_0 t) (ms0_1 t) (hs0_1 t) (ms0_2 t) (hs0_2 t) (ms0_3 t) (hs0_3 t) (ms0_4 t) (hs0_4 t) (ms0_5 t) (hs0_5 t) (ms0_6 t) (hs0_6 t) (ms0_7 t) (hs0_7 t) (ms0_8 t) (hs0_8 t) scM0_0 (Memref.isWhole_whole _) scM0_1 (Memref.isWhole_whole _) scM0_2 (Memref.isWhole_whole _) scM0_3 (Memref.isWhole_whole _) hc0 hc1 (iblk m c 0 t) (iblk m c 1 t) (iblk m c 2 t) (iblk m c 3 t) (iblk m c 4 t) prev.1 prev.2.1 prev.2.2.1 prev.2.2.2)
/-- The accumulators after a last tile, over what the tile before left. -/
def scC (c : Dev nD) (t : Fin cfg0.N) (hc0 : ¬cond0_0 (grid0.coords t)) (hc1 : cond0_1 (grid0.coords t)) (prev : Sc F) : Sc F :=
  (sout0_C_0 c (grid0.coords t) (ms0_0 t) (hs0_0 t) (ms0_1 t) (hs0_1 t) (ms0_2 t) (hs0_2 t) (ms0_3 t) (hs0_3 t) (ms0_4 t) (hs0_4 t) (ms0_5 t) (hs0_5 t) (ms0_6 t) (hs0_6 t) (ms0_7 t) (hs0_7 t) (ms0_8 t) (hs0_8 t) scM0_0 (Memref.isWhole_whole _) scM0_1 (Memref.isWhole_whole _) scM0_2 (Memref.isWhole_whole _) scM0_3 (Memref.isWhole_whole _) hc0 hc1 (iblk m c 0 t) (iblk m c 1 t) (iblk m c 2 t) (iblk m c 3 t) (iblk m c 4 t) prev.1 prev.2.1 prev.2.2.1 prev.2.2.2,
   sout0_C_1 c (grid0.coords t) (ms0_0 t) (hs0_0 t) (ms0_1 t) (hs0_1 t) (ms0_2 t) (hs0_2 t) (ms0_3 t) (hs0_3 t) (ms0_4 t) (hs0_4 t) (ms0_5 t) (hs0_5 t) (ms0_6 t) (hs0_6 t) (ms0_7 t) (hs0_7 t) (ms0_8 t) (hs0_8 t) scM0_0 (Memref.isWhole_whole _) scM0_1 (Memref.isWhole_whole _) scM0_2 (Memref.isWhole_whole _) scM0_3 (Memref.isWhole_whole _) hc0 hc1 (iblk m c 0 t) (iblk m c 1 t) (iblk m c 2 t) (iblk m c 3 t) (iblk m c 4 t) prev.1 prev.2.1 prev.2.2.1 prev.2.2.2,
   sout0_C_2 c (grid0.coords t) (ms0_0 t) (hs0_0 t) (ms0_1 t) (hs0_1 t) (ms0_2 t) (hs0_2 t) (ms0_3 t) (hs0_3 t) (ms0_4 t) (hs0_4 t) (ms0_5 t) (hs0_5 t) (ms0_6 t) (hs0_6 t) (ms0_7 t) (hs0_7 t) (ms0_8 t) (hs0_8 t) scM0_0 (Memref.isWhole_whole _) scM0_1 (Memref.isWhole_whole _) scM0_2 (Memref.isWhole_whole _) scM0_3 (Memref.isWhole_whole _) hc0 hc1 (iblk m c 0 t) (iblk m c 1 t) (iblk m c 2 t) (iblk m c 3 t) (iblk m c 4 t) prev.1 prev.2.1 prev.2.2.1 prev.2.2.2,
   sout0_C_3 c (grid0.coords t) (ms0_0 t) (hs0_0 t) (ms0_1 t) (hs0_1 t) (ms0_2 t) (hs0_2 t) (ms0_3 t) (hs0_3 t) (ms0_4 t) (hs0_4 t) (ms0_5 t) (hs0_5 t) (ms0_6 t) (hs0_6 t) (ms0_7 t) (hs0_7 t) (ms0_8 t) (hs0_8 t) scM0_0 (Memref.isWhole_whole _) scM0_1 (Memref.isWhole_whole _) scM0_2 (Memref.isWhole_whole _) scM0_3 (Memref.isWhole_whole _) hc0 hc1 (iblk m c 0 t) (iblk m c 1 t) (iblk m c 2 t) (iblk m c 3 t) (iblk m c 4 t) prev.1 prev.2.1 prev.2.2.1 prev.2.2.2)
/-- The output buffers after a last tile: the updated accumulators, copied. -/
def outC (c : Dev nD) (t : Fin cfg0.N) (hc0 : ¬cond0_0 (grid0.coords t)) (hc1 : cond0_1 (grid0.coords t)) (prev : Sc F) : Out F :=
  (out0_C_5 c (grid0.coords t) (ms0_0 t) (hs0_0 t) (ms0_1 t) (hs0_1 t) (ms0_2 t) (hs0_2 t) (ms0_3 t) (hs0_3 t) (ms0_4 t) (hs0_4 t) (ms0_5 t) (hs0_5 t) (ms0_6 t) (hs0_6 t) (ms0_7 t) (hs0_7 t) (ms0_8 t) (hs0_8 t) scM0_0 (Memref.isWhole_whole _) scM0_1 (Memref.isWhole_whole _) scM0_2 (Memref.isWhole_whole _) scM0_3 (Memref.isWhole_whole _) hc0 hc1 (iblk m c 0 t) (iblk m c 1 t) (iblk m c 2 t) (iblk m c 3 t) (iblk m c 4 t) prev.1 prev.2.1 prev.2.2.1 prev.2.2.2,
   out0_C_6 c (grid0.coords t) (ms0_0 t) (hs0_0 t) (ms0_1 t) (hs0_1 t) (ms0_2 t) (hs0_2 t) (ms0_3 t) (hs0_3 t) (ms0_4 t) (hs0_4 t) (ms0_5 t) (hs0_5 t) (ms0_6 t) (hs0_6 t) (ms0_7 t) (hs0_7 t) (ms0_8 t) (hs0_8 t) scM0_0 (Memref.isWhole_whole _) scM0_1 (Memref.isWhole_whole _) scM0_2 (Memref.isWhole_whole _) scM0_3 (Memref.isWhole_whole _) hc0 hc1 (iblk m c 0 t) (iblk m c 1 t) (iblk m c 2 t) (iblk m c 3 t) (iblk m c 4 t) prev.1 prev.2.1 prev.2.2.1 prev.2.2.2,
   out0_C_7 c (grid0.coords t) (ms0_0 t) (hs0_0 t) (ms0_1 t) (hs0_1 t) (ms0_2 t) (hs0_2 t) (ms0_3 t) (hs0_3 t) (ms0_4 t) (hs0_4 t) (ms0_5 t) (hs0_5 t) (ms0_6 t) (hs0_6 t) (ms0_7 t) (hs0_7 t) (ms0_8 t) (hs0_8 t) scM0_0 (Memref.isWhole_whole _) scM0_1 (Memref.isWhole_whole _) scM0_2 (Memref.isWhole_whole _) scM0_3 (Memref.isWhole_whole _) hc0 hc1 (iblk m c 0 t) (iblk m c 1 t) (iblk m c 2 t) (iblk m c 3 t) (iblk m c 4 t) prev.1 prev.2.1 prev.2.2.1 prev.2.2.2,
   out0_C_8 c (grid0.coords t) (ms0_0 t) (hs0_0 t) (ms0_1 t) (hs0_1 t) (ms0_2 t) (hs0_2 t) (ms0_3 t) (hs0_3 t) (ms0_4 t) (hs0_4 t) (ms0_5 t) (hs0_5 t) (ms0_6 t) (hs0_6 t) (ms0_7 t) (hs0_7 t) (ms0_8 t) (hs0_8 t) scM0_0 (Memref.isWhole_whole _) scM0_1 (Memref.isWhole_whole _) scM0_2 (Memref.isWhole_whole _) scM0_3 (Memref.isWhole_whole _) hc0 hc1 (iblk m c 0 t) (iblk m c 1 t) (iblk m c 2 t) (iblk m c 3 t) (iblk m c 4 t) prev.1 prev.2.1 prev.2.2.1 prev.2.2.2)

theorem not_last_of_first {n : ℕ} (h0 : n % 64 = 0) : ¬ n % 64 = 63 := by omega
theorem not_first_of_last {n : ℕ} (h1 : n % 64 = 63) : ¬ n % 64 = 0 := by omega

/-- THE ACCUMULATION: the four accumulators after the body at position `n` — a first tile starts afresh, every other
    tile continues from what position `n - 1` left. -/
def scAt (c : Dev nD) : (n : ℕ) → n < cfg0.N → Sc F
  | 0, hn => scA m c ⟨0, hn⟩ ((hcond0_0 ⟨0, hn⟩).mpr (Nat.zero_mod _)) (fun h => not_last_of_first (Nat.zero_mod 64) ((hcond0_1 ⟨0, hn⟩).mp h))
  | n + 1, hn =>
    if h0 : (n + 1) % 64 = 0 then
      scA m c ⟨n + 1, hn⟩ ((hcond0_0 ⟨n + 1, hn⟩).mpr h0) (fun h => not_last_of_first h0 ((hcond0_1 ⟨n + 1, hn⟩).mp h))
    else if h1 : (n + 1) % 64 = 63 then
      scC m c ⟨n + 1, hn⟩ (fun h => h0 ((hcond0_0 ⟨n + 1, hn⟩).mp h)) ((hcond0_1 ⟨n + 1, hn⟩).mpr h1) (scAt c n (Nat.lt_of_succ_lt hn))
    else
      scB m c ⟨n + 1, hn⟩ (fun h => h0 ((hcond0_0 ⟨n + 1, hn⟩).mp h)) (fun h => h1 ((hcond0_1 ⟨n + 1, hn⟩).mp h)) (scAt c n (Nat.lt_of_succ_lt hn))

theorem scAt_A (c : Dev nD) (t : Fin cfg0.N) (h0 : t.val % 64 = 0) :
    scAt m c t.val t.isLt = scA m c t ((hcond0_0 t).mpr h0) (fun h => not_last_of_first h0 ((hcond0_1 t).mp h)) := by
  obtain ⟨n, hn⟩ := t
  cases n with
  | zero => exact rfl
  | succ n => exact (dif_pos h0).trans rfl

theorem scAt_B (c : Dev nD) (t : Fin cfg0.N) (h0 : ¬t.val % 64 = 0) (h1 : ¬t.val % 64 = 63) :
    scAt m c t.val t.isLt = scB m c t (fun h => h0 ((hcond0_0 t).mp h)) (fun h => h1 ((hcond0_1 t).mp h))
      (scAt m c (t.val - 1) (Nat.lt_of_le_of_lt (Nat.sub_le _ _) t.isLt)) := by
  obtain ⟨n, hn⟩ := t
  cases n with
  | zero => exact absurd (Nat.zero_mod _) h0
  | succ n => exact (dif_neg h0).trans ((dif_neg h1).trans rfl)

theorem scAt_C (c : Dev nD) (t : Fin cfg0.N) (h0 : ¬t.val % 64 = 0) (h1 : t.val % 64 = 63) :
    scAt m c t.val t.isLt = scC m c t (fun h => h0 ((hcond0_0 t).mp h)) ((hcond0_1 t).mpr h1)
      (scAt m c (t.val - 1) (Nat.lt_of_le_of_lt (Nat.sub_le _ _) t.isLt)) := by
  obtain ⟨n, hn⟩ := t
  cases n with
  | zero => exact absurd (Nat.zero_mod _) h0
  | succ n => exact (dif_neg h0).trans ((dif_pos h1).trans rfl)

/-- The four output buffers after the body at point `t`: at a last tile the copied accumulators; elsewhere the window
    is idle and not written back, and nothing consults the placeholder. -/
def outAt (c : Dev nD) (t : Fin cfg0.N) : Out F :=
  if h1 : t.val % 64 = 63 then
    outC m c t (fun h => not_first_of_last h1 ((hcond0_0 t).mp h)) ((hcond0_1 t).mpr h1)
      (scAt m c (t.val - 1) (Nat.lt_of_le_of_lt (Nat.sub_le _ _) t.isLt))
  else (VO0_5.read (Elt F) VO0_5.junk, VO0_6.read (Elt F) VO0_6.junk, VO0_7.read (Elt F) VO0_7.junk, VO0_8.read (Elt F) VO0_8.junk)

theorem outAt_C (c : Dev nD) (t : Fin cfg0.N) (h1 : t.val % 64 = 63) :
    outAt m c t = outC m c t (fun h => not_first_of_last h1 ((hcond0_0 t).mp h)) ((hcond0_1 t).mpr h1)
      (scAt m c (t.val - 1) (Nat.lt_of_le_of_lt (Nat.sub_le _ _) t.isLt)) := dif_pos h1

/-! ## The region invariant -/

/-- Before the first point every scratch buffer holds anything; before any later point the four accumulators hold what
    the point before left. The generator register is at some state throughout. -/
def PhiS (c : Dev nD) : (n : ℕ) → n ≤ cfg0.N → sProp 𝕄
  | 0, _ => Pipeline.ΦA spec0 c
  | n + 1, hn => iprop(iprop(owns (c : Thread nD τ) scM0_0 fullShare ((scAt m c n hn).1) ∗ owns (c : Thread nD τ) scM0_1 fullShare ((scAt m c n hn).2.1) ∗ owns (c : Thread nD τ) scM0_2 fullShare ((scAt m c n hn).2.2.1) ∗ owns (c : Thread nD τ) scM0_3 fullShare ((scAt m c n hn).2.2.2)) ∗ (∃ r, prngReg c r))

theorem PhiS_zero (c : Dev nD) (n : ℕ) (h : n ≤ cfg0.N) (hz : n = 0) : PhiS m c n h = Pipeline.ΦA spec0 c := by
  subst hz; rfl
theorem PhiS_succ (c : Dev nD) (n : ℕ) (hn : n < cfg0.N) :
    PhiS m c (n + 1) hn = iprop(iprop(owns (c : Thread nD τ) scM0_0 fullShare ((scAt m c n hn).1) ∗ owns (c : Thread nD τ) scM0_1 fullShare ((scAt m c n hn).2.1) ∗ owns (c : Thread nD τ) scM0_2 fullShare ((scAt m c n hn).2.2.1) ∗ owns (c : Thread nD τ) scM0_3 fullShare ((scAt m c n hn).2.2.2)) ∗ (∃ r, prngReg c r)) := rfl
theorem PhiS_pos (c : Dev nD) (n : ℕ) (h : n ≤ cfg0.N) (hz : n ≠ 0) :
    PhiS m c n h = iprop(iprop(owns (c : Thread nD τ) scM0_0 fullShare ((scAt m c (n - 1) (by omega)).1) ∗ owns (c : Thread nD τ) scM0_1 fullShare ((scAt m c (n - 1) (by omega)).2.1) ∗ owns (c : Thread nD τ) scM0_2 fullShare ((scAt m c (n - 1) (by omega)).2.2.1) ∗ owns (c : Thread nD τ) scM0_3 fullShare ((scAt m c (n - 1) (by omega)).2.2.2)) ∗ (∃ r, prngReg c r)) := by
  cases n with
  | zero => exact absurd rfl hz
  | succ n => rfl

/-! ## The pipeline's proof data -/

/-- The arrays as the region finds them; after the body each input buffer at its block, each output buffer at `outAt`;
    the invariant `PhiS`; nothing owed; full shares. -/
def dats (_ : Fin 1) (c : Dev nD) : Dat τ (Elt F) Unit ℕ (UR sig nD τ) ℕ cfg0 c where
  A w := V m c (Pipeline.arrRef spec0 w)
  after w t := match w with
    | ⟨0, _⟩ => iblk m c 0 t
    | ⟨1, _⟩ => iblk m c 1 t
    | ⟨2, _⟩ => iblk m c 2 t
    | ⟨3, _⟩ => iblk m c 3 t
    | ⟨4, _⟩ => iblk m c 4 t
    | ⟨5, _⟩ => (outAt m c t).1
    | ⟨6, _⟩ => (outAt m c t).2.1
    | ⟨7, _⟩ => (outAt m c t).2.2.1
    | ⟨8, _⟩ => (outAt m c t).2.2.2
  Φ t := PhiS m c t.val (Nat.le_of_lt_succ t.isLt)
  q _ := fullShare
  owed _ := 0

theorem A_eq (c : Dev nD) (w : Fin cfg0.W) : (dats m 0 c).A w = V m c (Pipeline.arrRef spec0 w) := by
  dsimp only [dats]
theorem PhiS_castSucc (c : Dev nD) (t : Fin cfg0.N) :
    (dats m 0 c).Φ t.castSucc = PhiS m c t.val (Nat.le_of_lt t.isLt) := by
  dsimp only [dats]; simp only [Fin.coe_castSucc]
theorem after0_0 (c : Dev nD) (t : Fin cfg0.N) : (dats m 0 c).after 0 t = iblk m c 0 t := by dsimp only [dats]
theorem after0_1 (c : Dev nD) (t : Fin cfg0.N) : (dats m 0 c).after 1 t = iblk m c 1 t := by dsimp only [dats]
theorem after0_2 (c : Dev nD) (t : Fin cfg0.N) : (dats m 0 c).after 2 t = iblk m c 2 t := by dsimp only [dats]
theorem after0_3 (c : Dev nD) (t : Fin cfg0.N) : (dats m 0 c).after 3 t = iblk m c 3 t := by dsimp only [dats]
theorem after0_4 (c : Dev nD) (t : Fin cfg0.N) : (dats m 0 c).after 4 t = iblk m c 4 t := by dsimp only [dats]
theorem after0_5 (c : Dev nD) (t : Fin cfg0.N) : (dats m 0 c).after 5 t = (outAt m c t).1 := by dsimp only [dats]
theorem after0_6 (c : Dev nD) (t : Fin cfg0.N) : (dats m 0 c).after 6 t = (outAt m c t).2.1 := by dsimp only [dats]
theorem after0_7 (c : Dev nD) (t : Fin cfg0.N) : (dats m 0 c).after 7 t = (outAt m c t).2.2.1 := by dsimp only [dats]
theorem after0_8 (c : Dev nD) (t : Fin cfg0.N) : (dats m 0 c).after 8 t = (outAt m c t).2.2.2 := by dsimp only [dats]

/-- Each input's current staging buffer holds its block at every point, fetched there or not. -/
theorem before0_0 (c : Dev nD) (t : Fin cfg0.N) (d) : (dats m 0 c).before 0 t d = iblk m c 0 t :=
  ((dats m 0 c).before_in_eq_fetched 0 rfl (fun _ => rfl) (fun _ _ _ => rfl) (fun t => by rw [after0_0]; unfold Dat.blockOf iblk; rw [A_eq]; try rfl) t d).trans
    (by unfold Dat.fetched Dat.blockOf iblk; rw [A_eq]; try rfl)
theorem before0_1 (c : Dev nD) (t : Fin cfg0.N) (d) : (dats m 0 c).before 1 t d = iblk m c 1 t :=
  ((dats m 0 c).before_in_eq_fetched 1 rfl (fun _ => rfl) (fun _ _ _ => rfl) (fun t => by rw [after0_1]; unfold Dat.blockOf iblk; rw [A_eq]; try rfl) t d).trans
    (by unfold Dat.fetched Dat.blockOf iblk; rw [A_eq]; try rfl)
theorem before0_2 (c : Dev nD) (t : Fin cfg0.N) (d) : (dats m 0 c).before 2 t d = iblk m c 2 t :=
  ((dats m 0 c).before_in_eq_fetched 2 rfl (fun _ => rfl) (fun _ _ _ => rfl) (fun t => by rw [after0_2]; unfold Dat.blockOf iblk; rw [A_eq]; try rfl) t d).trans
    (by unfold Dat.fetched Dat.blockOf iblk; rw [A_eq]; try rfl)
theorem before0_3 (c : Dev nD) (t : Fin cfg0.N) (d) : (dats m 0 c).before 3 t d = iblk m c 3 t :=
  ((dats m 0 c).before_in_eq_fetched 3 rfl (fun _ => rfl) (fun _ _ _ => rfl) (fun t => by rw [after0_3]; unfold Dat.blockOf iblk; rw [A_eq]; try rfl) t d).trans
    (by unfold Dat.fetched Dat.blockOf iblk; rw [A_eq]; try rfl)
theorem before0_4 (c : Dev nD) (t : Fin cfg0.N) (d) : (dats m 0 c).before 4 t d = iblk m c 4 t :=
  ((dats m 0 c).before_in_eq_fetched 4 rfl (fun _ => rfl) (fun _ _ _ => rfl) (fun t => by rw [after0_4]; unfold Dat.blockOf iblk; rw [A_eq]; try rfl) t d).trans
    (by unfold Dat.fetched Dat.blockOf iblk; rw [A_eq]; try rfl)

/-! ## The body obligation, at a generic point -/

/-- What the body is called with at point `t`: the invariant, what the core owes, each window's buffer. -/
def bodyPre (c : Dev nD) (t : Fin cfg0.N) : sProp 𝕄 :=
  iprop((dats m 0 c).Φ t.castSucc ∗ (dats m 0 c).owesAt () t.castSucc
    ∗ (∃ d, owns (c : Thread nD τ) (ms0_0 t) fullShare ((dats m 0 c).before 0 t d))
    ∗ (∃ d, owns (c : Thread nD τ) (ms0_1 t) fullShare ((dats m 0 c).before 1 t d))
    ∗ (∃ d, owns (c : Thread nD τ) (ms0_2 t) fullShare ((dats m 0 c).before 2 t d))
    ∗ (∃ d, owns (c : Thread nD τ) (ms0_3 t) fullShare ((dats m 0 c).before 3 t d))
    ∗ (∃ d, owns (c : Thread nD τ) (ms0_4 t) fullShare ((dats m 0 c).before 4 t d))
    ∗ (∃ d, owns (c : Thread nD τ) (ms0_5 t) fullShare ((dats m 0 c).before 5 t d))
    ∗ (∃ d, owns (c : Thread nD τ) (ms0_6 t) fullShare ((dats m 0 c).before 6 t d))
    ∗ (∃ d, owns (c : Thread nD τ) (ms0_7 t) fullShare ((dats m 0 c).before 7 t d))
    ∗ (∃ d, owns (c : Thread nD τ) (ms0_8 t) fullShare ((dats m 0 c).before 8 t d)))

/-- And what it returns. -/
def bodyPost (c : Dev nD) (t : Fin cfg0.N) : sProp 𝕄 :=
  iprop((dats m 0 c).Φ t.succ ∗ (dats m 0 c).owesAt () t.succ
    ∗ (dats m 0 c).leavesExact 0 t
    ∗ (dats m 0 c).leavesExact 1 t
    ∗ (dats m 0 c).leavesExact 2 t
    ∗ (dats m 0 c).leavesExact 3 t
    ∗ (dats m 0 c).leavesExact 4 t
    ∗ (dats m 0 c).leavesExact 5 t
    ∗ (dats m 0 c).leavesExact 6 t
    ∗ (dats m 0 c).leavesExact 7 t
    ∗ (dats m 0 c).leavesExact 8 t)

set_option maxHeartbeats 16000000 in
/-- The body at the very first point: every scratch buffer arrives at anything; the accumulators leave reset and updated
    by this tile; the output windows are handed back untouched. -/
theorem sound_body_first (c : Dev nD) (t : Fin cfg0.N) (hz : t.val = 0) :
    bodyPre m c t ⊢ wp frame (wpE (defs₀ (F := F)) Variants.none c none) Set.univ (bodyAt0 t) (fun _ => bodyPost m c t) := by
  unfold bodyPre bodyPost bodyAt0
  simp only [before0_0, before0_1, before0_2, before0_3, before0_4]
  rw [show (dats m 0 c).owesAt () t.succ = (dats m 0 c).owesAt () t.castSucc from rfl]
  rw [show (dats m 0 c).Φ t.succ = PhiS m c (t.val + 1) t.isLt from rfl, PhiS_succ]
  have hN : t.val < 128 := lt_of_lt_of_eq t.isLt (show cfg0.N = 128 from N_0)
  rw [show (dats m 0 c).leavesExact 0 t = owns (c : Thread nD τ) (ms0_0 t) fullShare ((dats m 0 c).after 0 t) from by
    unfold Dat.leavesExact; rw [liveAt0_0 t], after0_0]
  rw [show (dats m 0 c).leavesExact 1 t = owns (c : Thread nD τ) (ms0_1 t) fullShare ((dats m 0 c).after 1 t) from by
    unfold Dat.leavesExact; rw [liveAt0_1 t], after0_1]
  rw [show (dats m 0 c).leavesExact 2 t = owns (c : Thread nD τ) (ms0_2 t) fullShare ((dats m 0 c).after 2 t) from by
    unfold Dat.leavesExact; rw [liveAt0_2 t], after0_2]
  rw [show (dats m 0 c).leavesExact 3 t = owns (c : Thread nD τ) (ms0_3 t) fullShare ((dats m 0 c).after 3 t) from by
    unfold Dat.leavesExact; rw [liveAt0_3 t], after0_3]
  rw [show (dats m 0 c).leavesExact 4 t = owns (c : Thread nD τ) (ms0_4 t) fullShare ((dats m 0 c).after 4 t) from by
    unfold Dat.leavesExact; rw [liveAt0_4 t], after0_4]
  have h0 : t.val % 64 = 0 := by rw [hz]
  have h1 : ¬t.val % 64 = 63 := not_last_of_first h0
  have hc0 : cond0_0 (grid0.coords t) := (hcond0_0 t).mpr h0
  have hc1 : ¬cond0_1 (grid0.coords t) := fun h => h1 ((hcond0_1 t).mp h)
  rw [Dat.leavesExact_idle (dats m 0 c) 5 t (idleAt0_out 5 (by decide) t hc1) (noFlush0_out 5 (by decide) t hc1)]
  rw [Dat.leavesExact_idle (dats m 0 c) 6 t (idleAt0_out 6 (by decide) t hc1) (noFlush0_out 6 (by decide) t hc1)]
  rw [Dat.leavesExact_idle (dats m 0 c) 7 t (idleAt0_out 7 (by decide) t hc1) (noFlush0_out 7 (by decide) t hc1)]
  rw [Dat.leavesExact_idle (dats m 0 c) 8 t (idleAt0_out 8 (by decide) t hc1) (noFlush0_out 8 (by decide) t hc1)]
  rw [PhiS_castSucc m c t, PhiS_zero m c _ _ hz, PhiA0_eq]
  rw [scAt_A m c t h0]
  unfold scA sout0_A_0 sout0_A_1 sout0_A_2 sout0_A_3; (try dsimp only)
  iintro ⟨⟨⟨HS0, HS1, HS2, HS3⟩, Hg⟩, Ho, ⟨%d0, H0⟩, ⟨%d1, H1⟩, ⟨%d2, H2⟩, ⟨%d3, H3⟩, ⟨%d4, H4⟩, ⟨%d5, H5⟩, ⟨%d6, H6⟩, ⟨%d7, H7⟩, ⟨%d8, H8⟩⟩
  iapply ((kernelRun0_A c (grid0.coords t) _ _ _ _ _ _ _ _ _ _ _ _ _ _ _ _ _ _ _ _ _ _ _ _ _ _ hc0 hc1 (iblk m c 0 t) (iblk m c 1 t) (iblk m c 2 t) (iblk m c 3 t) (iblk m c 4 t)).2.2.2.2 _ _ _ _ Set.univ _)
  isplitl [H0]; · iexact H0
  isplitl [H1]; · iexact H1
  isplitl [H2]; · iexact H2
  isplitl [H3]; · iexact H3
  isplitl [H4]; · iexact H4
  isplitl [H5]; · iexact H5
  isplitl [H6]; · iexact H6
  isplitl [H7]; · iexact H7
  isplitl [H8]; · iexact H8
  isplitl [HS0]; · iexact HS0
  isplitl [HS1]; · iexact HS1
  isplitl [HS2]; · iexact HS2
  isplitl [HS3]; · iexact HS3
  iintro ⟨H0, H1, H2, H3, H4, H5, H6, H7, H8, ⟨%es0, HS0⟩, ⟨%es1, HS1⟩, ⟨%es2, HS2⟩, ⟨%es3, HS3⟩⟩
  isplitl [HS0 HS1 HS2 HS3 Hg]
  · isplitl [HS0 HS1 HS2 HS3]
    · isplitl [HS0]
      · unfold owns; iexists _; isplitr
        swap; · iexact HS0
        ipureintro; exact View.read_writes_of_cover _ _ _ _ _ (scover0_A_0 c _ _ _ _ _ _ _ _ _ _ _ _ _ _ _ _ _ _ _ _ _ _ _ _ _ _ _ _ _ _ _ _ _ _)
      isplitl [HS1]
      · unfold owns; iexists _; isplitr
        swap; · iexact HS1
        ipureintro; exact View.read_writes_of_cover _ _ _ _ _ (scover0_A_1 c _ _ _ _ _ _ _ _ _ _ _ _ _ _ _ _ _ _ _ _ _ _ _ _ _ _ _ _ _ _ _ _ _ _)
      isplitl [HS2]
      · unfold owns; iexists _; isplitr
        swap; · iexact HS2
        ipureintro; exact View.read_writes_of_cover _ _ _ _ _ (scover0_A_2 c _ _ _ _ _ _ _ _ _ _ _ _ _ _ _ _ _ _ _ _ _ _ _ _ _ _ _ _ _ _ _ _ _ _)
      unfold owns; iexists _; isplitr
      swap; · iexact HS3
      ipureintro; exact View.read_writes_of_cover _ _ _ _ _ (scover0_A_3 c _ _ _ _ _ _ _ _ _ _ _ _ _ _ _ _ _ _ _ _ _ _ _ _ _ _ _ _ _ _ _ _ _ _)
    iexact Hg
  isplitl [Ho]; · iexact Ho
  isplitl [H0]; · iexact H0
  isplitl [H1]; · iexact H1
  isplitl [H2]; · iexact H2
  isplitl [H3]; · iexact H3
  isplitl [H4]; · iexact H4
  isplitl [H5]; · iexists _; iexact H5
  isplitl [H6]; · iexists _; iexact H6
  isplitl [H7]; · iexists _; iexact H7
  iexists _; iexact H8

set_option maxHeartbeats 16000000 in
/-- The body at the first tile of the second core's half: the accumulators arrive at what the last tile of the first
    half left, and are reset. -/
theorem sound_body_A (c : Dev nD) (t : Fin cfg0.N) (h0 : t.val % 64 = 0) (hz : t.val ≠ 0) :
    bodyPre m c t ⊢ wp frame (wpE (defs₀ (F := F)) Variants.none c none) Set.univ (bodyAt0 t) (fun _ => bodyPost m c t) := by
  unfold bodyPre bodyPost bodyAt0
  simp only [before0_0, before0_1, before0_2, before0_3, before0_4]
  rw [show (dats m 0 c).owesAt () t.succ = (dats m 0 c).owesAt () t.castSucc from rfl]
  rw [show (dats m 0 c).Φ t.succ = PhiS m c (t.val + 1) t.isLt from rfl, PhiS_succ]
  have hN : t.val < 128 := lt_of_lt_of_eq t.isLt (show cfg0.N = 128 from N_0)
  rw [show (dats m 0 c).leavesExact 0 t = owns (c : Thread nD τ) (ms0_0 t) fullShare ((dats m 0 c).after 0 t) from by
    unfold Dat.leavesExact; rw [liveAt0_0 t], after0_0]
  rw [show (dats m 0 c).leavesExact 1 t = owns (c : Thread nD τ) (ms0_1 t) fullShare ((dats m 0 c).after 1 t) from by
    unfold Dat.leavesExact; rw [liveAt0_1 t], after0_1]
  rw [show (dats m 0 c).leavesExact 2 t = owns (c : Thread nD τ) (ms0_2 t) fullShare ((dats m 0 c).after 2 t) from by
    unfold Dat.leavesExact; rw [liveAt0_2 t], after0_2]
  rw [show (dats m 0 c).leavesExact 3 t = owns (c : Thread nD τ) (ms0_3 t) fullShare ((dats m 0 c).after 3 t) from by
    unfold Dat.leavesExact; rw [liveAt0_3 t], after0_3]
  rw [show (dats m 0 c).leavesExact 4 t = owns (c : Thread nD τ) (ms0_4 t) fullShare ((dats m 0 c).after 4 t) from by
    unfold Dat.leavesExact; rw [liveAt0_4 t], after0_4]
  have h1 : ¬t.val % 64 = 63 := not_last_of_first h0
  have hc0 : cond0_0 (grid0.coords t) := (hcond0_0 t).mpr h0
  have hc1 : ¬cond0_1 (grid0.coords t) := fun h => h1 ((hcond0_1 t).mp h)
  rw [Dat.leavesExact_idle (dats m 0 c) 5 t (idleAt0_out 5 (by decide) t hc1) (noFlush0_out 5 (by decide) t hc1)]
  rw [Dat.leavesExact_idle (dats m 0 c) 6 t (idleAt0_out 6 (by decide) t hc1) (noFlush0_out 6 (by decide) t hc1)]
  rw [Dat.leavesExact_idle (dats m 0 c) 7 t (idleAt0_out 7 (by decide) t hc1) (noFlush0_out 7 (by decide) t hc1)]
  rw [Dat.leavesExact_idle (dats m 0 c) 8 t (idleAt0_out 8 (by decide) t hc1) (noFlush0_out 8 (by decide) t hc1)]
  rw [PhiS_castSucc m c t, PhiS_pos m c _ _ hz]
  rw [scAt_A m c t h0]
  unfold scA sout0_A_0 sout0_A_1 sout0_A_2 sout0_A_3; (try dsimp only)
  iintro ⟨⟨⟨HS0, HS1, HS2, HS3⟩, Hg⟩, Ho, ⟨%d0, H0⟩, ⟨%d1, H1⟩, ⟨%d2, H2⟩, ⟨%d3, H3⟩, ⟨%d4, H4⟩, ⟨%d5, H5⟩, ⟨%d6, H6⟩, ⟨%d7, H7⟩, ⟨%d8, H8⟩⟩
  iapply ((kernelRun0_A c (grid0.coords t) _ _ _ _ _ _ _ _ _ _ _ _ _ _ _ _ _ _ _ _ _ _ _ _ _ _ hc0 hc1 (iblk m c 0 t) (iblk m c 1 t) (iblk m c 2 t) (iblk m c 3 t) (iblk m c 4 t)).2.2.2.2 _ _ _ _ Set.univ _)
  isplitl [H0]; · iexact H0
  isplitl [H1]; · iexact H1
  isplitl [H2]; · iexact H2
  isplitl [H3]; · iexact H3
  isplitl [H4]; · iexact H4
  isplitl [H5]; · iexact H5
  isplitl [H6]; · iexact H6
  isplitl [H7]; · iexact H7
  isplitl [H8]; · iexact H8
  isplitl [HS0]; · iexists _; iexact HS0
  isplitl [HS1]; · iexists _; iexact HS1
  isplitl [HS2]; · iexists _; iexact HS2
  isplitl [HS3]; · iexists _; iexact HS3
  iintro ⟨H0, H1, H2, H3, H4, H5, H6, H7, H8, ⟨%es0, HS0⟩, ⟨%es1, HS1⟩, ⟨%es2, HS2⟩, ⟨%es3, HS3⟩⟩
  isplitl [HS0 HS1 HS2 HS3 Hg]
  · isplitl [HS0 HS1 HS2 HS3]
    · isplitl [HS0]
      · unfold owns; iexists _; isplitr
        swap; · iexact HS0
        ipureintro; exact View.read_writes_of_cover _ _ _ _ _ (scover0_A_0 c _ _ _ _ _ _ _ _ _ _ _ _ _ _ _ _ _ _ _ _ _ _ _ _ _ _ _ _ _ _ _ _ _ _)
      isplitl [HS1]
      · unfold owns; iexists _; isplitr
        swap; · iexact HS1
        ipureintro; exact View.read_writes_of_cover _ _ _ _ _ (scover0_A_1 c _ _ _ _ _ _ _ _ _ _ _ _ _ _ _ _ _ _ _ _ _ _ _ _ _ _ _ _ _ _ _ _ _ _)
      isplitl [HS2]
      · unfold owns; iexists _; isplitr
        swap; · iexact HS2
        ipureintro; exact View.read_writes_of_cover _ _ _ _ _ (scover0_A_2 c _ _ _ _ _ _ _ _ _ _ _ _ _ _ _ _ _ _ _ _ _ _ _ _ _ _ _ _ _ _ _ _ _ _)
      unfold owns; iexists _; isplitr
      swap; · iexact HS3
      ipureintro; exact View.read_writes_of_cover _ _ _ _ _ (scover0_A_3 c _ _ _ _ _ _ _ _ _ _ _ _ _ _ _ _ _ _ _ _ _ _ _ _ _ _ _ _ _ _ _ _ _ _)
    iexact Hg
  isplitl [Ho]; · iexact Ho
  isplitl [H0]; · iexact H0
  isplitl [H1]; · iexact H1
  isplitl [H2]; · iexact H2
  isplitl [H3]; · iexact H3
  isplitl [H4]; · iexact H4
  isplitl [H5]; · iexists _; iexact H5
  isplitl [H6]; · iexists _; iexact H6
  isplitl [H7]; · iexists _; iexact H7
  iexists _; iexact H8

set_option maxHeartbeats 16000000 in
/-- The body at a middle tile. -/
theorem sound_body_B (c : Dev nD) (t : Fin cfg0.N) (h0 : ¬t.val % 64 = 0) (h1 : ¬t.val % 64 = 63) :
    bodyPre m c t ⊢ wp frame (wpE (defs₀ (F := F)) Variants.none c none) Set.univ (bodyAt0 t) (fun _ => bodyPost m c t) := by
  unfold bodyPre bodyPost bodyAt0
  simp only [before0_0, before0_1, before0_2, before0_3, before0_4]
  rw [show (dats m 0 c).owesAt () t.succ = (dats m 0 c).owesAt () t.castSucc from rfl]
  rw [show (dats m 0 c).Φ t.succ = PhiS m c (t.val + 1) t.isLt from rfl, PhiS_succ]
  have hN : t.val < 128 := lt_of_lt_of_eq t.isLt (show cfg0.N = 128 from N_0)
  rw [show (dats m 0 c).leavesExact 0 t = owns (c : Thread nD τ) (ms0_0 t) fullShare ((dats m 0 c).after 0 t) from by
    unfold Dat.leavesExact; rw [liveAt0_0 t], after0_0]
  rw [show (dats m 0 c).leavesExact 1 t = owns (c : Thread nD τ) (ms0_1 t) fullShare ((dats m 0 c).after 1 t) from by
    unfold Dat.leavesExact; rw [liveAt0_1 t], after0_1]
  rw [show (dats m 0 c).leavesExact 2 t = owns (c : Thread nD τ) (ms0_2 t) fullShare ((dats m 0 c).after 2 t) from by
    unfold Dat.leavesExact; rw [liveAt0_2 t], after0_2]
  rw [show (dats m 0 c).leavesExact 3 t = owns (c : Thread nD τ) (ms0_3 t) fullShare ((dats m 0 c).after 3 t) from by
    unfold Dat.leavesExact; rw [liveAt0_3 t], after0_3]
  rw [show (dats m 0 c).leavesExact 4 t = owns (c : Thread nD τ) (ms0_4 t) fullShare ((dats m 0 c).after 4 t) from by
    unfold Dat.leavesExact; rw [liveAt0_4 t], after0_4]
  have hz : t.val ≠ 0 := fun e => h0 (by rw [e])
  have hc0 : ¬cond0_0 (grid0.coords t) := fun h => h0 ((hcond0_0 t).mp h)
  have hc1 : ¬cond0_1 (grid0.coords t) := fun h => h1 ((hcond0_1 t).mp h)
  rw [Dat.leavesExact_idle (dats m 0 c) 5 t (idleAt0_out 5 (by decide) t hc1) (noFlush0_out 5 (by decide) t hc1)]
  rw [Dat.leavesExact_idle (dats m 0 c) 6 t (idleAt0_out 6 (by decide) t hc1) (noFlush0_out 6 (by decide) t hc1)]
  rw [Dat.leavesExact_idle (dats m 0 c) 7 t (idleAt0_out 7 (by decide) t hc1) (noFlush0_out 7 (by decide) t hc1)]
  rw [Dat.leavesExact_idle (dats m 0 c) 8 t (idleAt0_out 8 (by decide) t hc1) (noFlush0_out 8 (by decide) t hc1)]
  rw [PhiS_castSucc m c t, PhiS_pos m c _ _ hz]
  rw [scAt_B m c t h0 h1]
  unfold scB sout0_B_0 sout0_B_1 sout0_B_2 sout0_B_3; (try dsimp only)
  iintro ⟨⟨⟨HS0, HS1, HS2, HS3⟩, Hg⟩, Ho, ⟨%d0, H0⟩, ⟨%d1, H1⟩, ⟨%d2, H2⟩, ⟨%d3, H3⟩, ⟨%d4, H4⟩, ⟨%d5, H5⟩, ⟨%d6, H6⟩, ⟨%d7, H7⟩, ⟨%d8, H8⟩⟩
  iapply ((kernelRun0_B c (grid0.coords t) _ _ _ _ _ _ _ _ _ _ _ _ _ _ _ _ _ _ _ _ _ _ _ _ _ _ hc0 hc1 (iblk m c 0 t) (iblk m c 1 t) (iblk m c 2 t) (iblk m c 3 t) (iblk m c 4 t) _ _ _ _).2.2.2.2 _ _ _ _ Set.univ _)
  isplitl [H0]; · iexact H0
  isplitl [H1]; · iexact H1
  isplitl [H2]; · iexact H2
  isplitl [H3]; · iexact H3
  isplitl [H4]; · iexact H4
  isplitl [H5]; · iexact H5
  isplitl [H6]; · iexact H6
  isplitl [H7]; · iexact H7
  isplitl [H8]; · iexact H8
  isplitl [HS0]; · iexact HS0
  isplitl [HS1]; · iexact HS1
  isplitl [HS2]; · iexact HS2
  isplitl [HS3]; · iexact HS3
  iintro ⟨H0, H1, H2, H3, H4, H5, H6, H7, H8, ⟨%es0, HS0⟩, ⟨%es1, HS1⟩, ⟨%es2, HS2⟩, ⟨%es3, HS3⟩⟩
  isplitl [HS0 HS1 HS2 HS3 Hg]
  · isplitl [HS0 HS1 HS2 HS3]
    · isplitl [HS0]
      · unfold owns; iexists _; isplitr
        swap; · iexact HS0
        ipureintro; exact View.read_writes_of_cover _ _ _ _ _ (scover0_B_0 c _ _ _ _ _ _ _ _ _ _ _ _ _ _ _ _ _ _ _ _ _ _ _ _ _ _ _ _ _ _ _ _ _ _ _ _ _ _)
      isplitl [HS1]
      · unfold owns; iexists _; isplitr
        swap; · iexact HS1
        ipureintro; exact View.read_writes_of_cover _ _ _ _ _ (scover0_B_1 c _ _ _ _ _ _ _ _ _ _ _ _ _ _ _ _ _ _ _ _ _ _ _ _ _ _ _ _ _ _ _ _ _ _ _ _ _ _)
      isplitl [HS2]
      · unfold owns; iexists _; isplitr
        swap; · iexact HS2
        ipureintro; exact View.read_writes_of_cover _ _ _ _ _ (scover0_B_2 c _ _ _ _ _ _ _ _ _ _ _ _ _ _ _ _ _ _ _ _ _ _ _ _ _ _ _ _ _ _ _ _ _ _ _ _ _ _)
      unfold owns; iexists _; isplitr
      swap; · iexact HS3
      ipureintro; exact View.read_writes_of_cover _ _ _ _ _ (scover0_B_3 c _ _ _ _ _ _ _ _ _ _ _ _ _ _ _ _ _ _ _ _ _ _ _ _ _ _ _ _ _ _ _ _ _ _ _ _ _ _)
    iexact Hg
  isplitl [Ho]; · iexact Ho
  isplitl [H0]; · iexact H0
  isplitl [H1]; · iexact H1
  isplitl [H2]; · iexact H2
  isplitl [H3]; · iexact H3
  isplitl [H4]; · iexact H4
  isplitl [H5]; · iexists _; iexact H5
  isplitl [H6]; · iexists _; iexact H6
  isplitl [H7]; · iexists _; iexact H7
  iexists _; iexact H8

set_option maxHeartbeats 16000000 in
/-- The body at a last tile: the updated accumulators are also copied whole into the four output buffers. -/
theorem sound_body_C (c : Dev nD) (t : Fin cfg0.N) (h0 : ¬t.val % 64 = 0) (h1 : t.val % 64 = 63) :
    bodyPre m c t ⊢ wp frame (wpE (defs₀ (F := F)) Variants.none c none) Set.univ (bodyAt0 t) (fun _ => bodyPost m c t) := by
  unfold bodyPre bodyPost bodyAt0
  simp only [before0_0, before0_1, before0_2, before0_3, before0_4]
  rw [show (dats m 0 c).owesAt () t.succ = (dats m 0 c).owesAt () t.castSucc from rfl]
  rw [show (dats m 0 c).Φ t.succ = PhiS m c (t.val + 1) t.isLt from rfl, PhiS_succ]
  have hN : t.val < 128 := lt_of_lt_of_eq t.isLt (show cfg0.N = 128 from N_0)
  rw [show (dats m 0 c).leavesExact 0 t = owns (c : Thread nD τ) (ms0_0 t) fullShare ((dats m 0 c).after 0 t) from by
    unfold Dat.leavesExact; rw [liveAt0_0 t], after0_0]
  rw [show (dats m 0 c).leavesExact 1 t = owns (c : Thread nD τ) (ms0_1 t) fullShare ((dats m 0 c).after 1 t) from by
    unfold Dat.leavesExact; rw [liveAt0_1 t], after0_1]
  rw [show (dats m 0 c).leavesExact 2 t = owns (c : Thread nD τ) (ms0_2 t) fullShare ((dats m 0 c).after 2 t) from by
    unfold Dat.leavesExact; rw [liveAt0_2 t], after0_2]
  rw [show (dats m 0 c).leavesExact 3 t = owns (c : Thread nD τ) (ms0_3 t) fullShare ((dats m 0 c).after 3 t) from by
    unfold Dat.leavesExact; rw [liveAt0_3 t], after0_3]
  rw [show (dats m 0 c).leavesExact 4 t = owns (c : Thread nD τ) (ms0_4 t) fullShare ((dats m 0 c).after 4 t) from by
    unfold Dat.leavesExact; rw [liveAt0_4 t], after0_4]
  have hz : t.val ≠ 0 := fun e => h0 (by rw [e])
  have hc0 : ¬cond0_0 (grid0.coords t) := fun h => h0 ((hcond0_0 t).mp h)
  have hc1 : cond0_1 (grid0.coords t) := (hcond0_1 t).mpr h1
  rw [show (dats m 0 c).leavesExact 5 t = owns (c : Thread nD τ) (ms0_5 t) fullShare ((dats m 0 c).after 5 t) from by
    unfold Dat.leavesExact; rw [liveAt0_out 5 (by decide) t hc1], after0_5]
  rw [show (dats m 0 c).leavesExact 6 t = owns (c : Thread nD τ) (ms0_6 t) fullShare ((dats m 0 c).after 6 t) from by
    unfold Dat.leavesExact; rw [liveAt0_out 6 (by decide) t hc1], after0_6]
  rw [show (dats m 0 c).leavesExact 7 t = owns (c : Thread nD τ) (ms0_7 t) fullShare ((dats m 0 c).after 7 t) from by
    unfold Dat.leavesExact; rw [liveAt0_out 7 (by decide) t hc1], after0_7]
  rw [show (dats m 0 c).leavesExact 8 t = owns (c : Thread nD τ) (ms0_8 t) fullShare ((dats m 0 c).after 8 t) from by
    unfold Dat.leavesExact; rw [liveAt0_out 8 (by decide) t hc1], after0_8]
  rw [PhiS_castSucc m c t, PhiS_pos m c _ _ hz]
  rw [outAt_C m c t h1, scAt_C m c t h0 h1]
  unfold outC scC out0_C_5 out0_C_6 out0_C_7 out0_C_8 sout0_C_0 sout0_C_1 sout0_C_2 sout0_C_3; (try dsimp only)
  iintro ⟨⟨⟨HS0, HS1, HS2, HS3⟩, Hg⟩, Ho, ⟨%d0, H0⟩, ⟨%d1, H1⟩, ⟨%d2, H2⟩, ⟨%d3, H3⟩, ⟨%d4, H4⟩, ⟨%d5, H5⟩, ⟨%d6, H6⟩, ⟨%d7, H7⟩, ⟨%d8, H8⟩⟩
  iapply ((kernelRun0_C c (grid0.coords t) _ _ _ _ _ _ _ _ _ _ _ _ _ _ _ _ _ _ _ _ _ _ _ _ _ _ hc0 hc1 (iblk m c 0 t) (iblk m c 1 t) (iblk m c 2 t) (iblk m c 3 t) (iblk m c 4 t) _ _ _ _).2.2.2.2.2.2.2.2 Set.univ _)
  isplitl [H0]; · iexact H0
  isplitl [H1]; · iexact H1
  isplitl [H2]; · iexact H2
  isplitl [H3]; · iexact H3
  isplitl [H4]; · iexact H4
  isplitl [H5]; · iexists _; iexact H5
  isplitl [H6]; · iexists _; iexact H6
  isplitl [H7]; · iexists _; iexact H7
  isplitl [H8]; · iexists _; iexact H8
  isplitl [HS0]; · iexact HS0
  isplitl [HS1]; · iexact HS1
  isplitl [HS2]; · iexact HS2
  isplitl [HS3]; · iexact HS3
  iintro ⟨H0, H1, H2, H3, H4, ⟨%e5, H5⟩, ⟨%e6, H6⟩, ⟨%e7, H7⟩, ⟨%e8, H8⟩, ⟨%es0, HS0⟩, ⟨%es1, HS1⟩, ⟨%es2, HS2⟩, ⟨%es3, HS3⟩⟩
  isplitl [HS0 HS1 HS2 HS3 Hg]
  · isplitl [HS0 HS1 HS2 HS3]
    · isplitl [HS0]
      · unfold owns; iexists _; isplitr
        swap; · iexact HS0
        ipureintro; exact View.read_writes_of_cover _ _ _ _ _ (scover0_C_0 c _ _ _ _ _ _ _ _ _ _ _ _ _ _ _ _ _ _ _ _ _ _ _ _ _ _ _ _ _ _ _ _ _ _ _ _ _ _)
      isplitl [HS1]
      · unfold owns; iexists _; isplitr
        swap; · iexact HS1
        ipureintro; exact View.read_writes_of_cover _ _ _ _ _ (scover0_C_1 c _ _ _ _ _ _ _ _ _ _ _ _ _ _ _ _ _ _ _ _ _ _ _ _ _ _ _ _ _ _ _ _ _ _ _ _ _ _)
      isplitl [HS2]
      · unfold owns; iexists _; isplitr
        swap; · iexact HS2
        ipureintro; exact View.read_writes_of_cover _ _ _ _ _ (scover0_C_2 c _ _ _ _ _ _ _ _ _ _ _ _ _ _ _ _ _ _ _ _ _ _ _ _ _ _ _ _ _ _ _ _ _ _ _ _ _ _)
      unfold owns; iexists _; isplitr
      swap; · iexact HS3
      ipureintro; exact View.read_writes_of_cover _ _ _ _ _ (scover0_C_3 c _ _ _ _ _ _ _ _ _ _ _ _ _ _ _ _ _ _ _ _ _ _ _ _ _ _ _ _ _ _ _ _ _ _ _ _ _ _)
    iexact Hg
  isplitl [Ho]; · iexact Ho
  isplitl [H0]; · iexact H0
  isplitl [H1]; · iexact H1
  isplitl [H2]; · iexact H2
  isplitl [H3]; · iexact H3
  isplitl [H4]; · iexact H4
  isplitl [H5]
  · unfold owns; iexists _; isplitr
    swap; · iexact H5
    ipureintro; exact View.read_writes_of_cover _ _ _ _ _ (cover0_C_5 c _ _ _ _ _ _ _ _ _ _ _ _ _ _ _ _ _ _ _ _ _ _ _ _ _ _ _ _ _ _ _ _ _ _ _ _ _ _)
  isplitl [H6]
  · unfold owns; iexists _; isplitr
    swap; · iexact H6
    ipureintro; exact View.read_writes_of_cover _ _ _ _ _ (cover0_C_6 c _ _ _ _ _ _ _ _ _ _ _ _ _ _ _ _ _ _ _ _ _ _ _ _ _ _ _ _ _ _ _ _ _ _ _ _ _ _)
  isplitl [H7]
  · unfold owns; iexists _; isplitr
    swap; · iexact H7
    ipureintro; exact View.read_writes_of_cover _ _ _ _ _ (cover0_C_7 c _ _ _ _ _ _ _ _ _ _ _ _ _ _ _ _ _ _ _ _ _ _ _ _ _ _ _ _ _ _ _ _ _ _ _ _ _ _)
  unfold owns; iexists _; isplitr
  swap; · iexact H8
  ipureintro; exact View.read_writes_of_cover _ _ _ _ _ (cover0_C_8 c _ _ _ _ _ _ _ _ _ _ _ _ _ _ _ _ _ _ _ _ _ _ _ _ _ _ _ _ _ _ _ _ _ _ _ _ _ _)

/-- The body at any point: a first tile (of the whole grid, or of the second half), a last tile, or a middle one. -/
theorem sound_body (c : Dev nD) (t : Fin cfg0.N) :
    bodyPre m c t ⊢ wp frame (wpE (defs₀ (F := F)) Variants.none c none) Set.univ (bodyAt0 t) (fun _ => bodyPost m c t) := by
  by_cases h0 : t.val % 64 = 0
  · by_cases hz : t.val = 0
    · exact sound_body_first m c t hz
    · exact sound_body_A m c t h0 hz
  · by_cases h1 : t.val % 64 = 63
    · exact sound_body_C m c t h0 h1
    · exact sound_body_B m c t h0 h1

/-- The library's body obligation, at every point. -/
theorem body_obligation (c : Dev nD) : BodyObligation (dats (F := F) m 0 c) (defs₀ (F := F)) Variants.none () Set.univ := fun t => by
  rw [bigSep_W0, bigSep_W0]
  exact sound_body m c t

/-- What the launch hands the region is the invariant before the first point. -/
theorem hin (c : Dev nD) : Pipeline.ΦA spec0 c ⊢ (dats m 0 c).Φ 0 := by
  rw [show (dats m 0 c).Φ 0 = PhiS m c 0 (Nat.zero_le _) from rfl, PhiS_zero m c 0 _ rfl]
  try exact Idealize.SL.BI.Entails.refl _

/-- After any point but the first the invariant gives the scratch buffers back at some contents. -/
theorem Phi_out (c : Dev nD) (t : Fin (cfg0.N + 1)) (ht : t.val ≠ 0) : (dats m 0 c).Φ t ⊢ Pipeline.ΦA spec0 c := by
  rw [show (dats m 0 c).Φ t = PhiS m c t.val (Nat.le_of_lt_succ t.isLt) from rfl, PhiS_pos m c _ _ ht, PhiA0_eq]
  iintro ⟨⟨HS0, HS1, HS2, HS3⟩, Hg⟩
  isplitl [HS0 HS1 HS2 HS3]
  · isplitl [HS0]; · iexists _; iexact HS0
    isplitl [HS1]; · iexists _; iexact HS1
    isplitl [HS2]; · iexists _; iexact HS2
    iexists _; iexact HS3
  iexact Hg

theorem hout (c : Dev nD) : (dats m 0 c).Φ (Fin.last cfg0.N) ⊢ Pipeline.ΦA spec0 c :=
  Phi_out m c _ (by rw [Fin.val_last]; have : cfg0.N = 128 := N_0; omega)

/-! ## The run and the frame -/

set_option backward.isDefEq.respectTransparency.types false in
/-- From any memory with zero counters, every weakly fair execution of the program terminates, and every final state
    has each of the pipeline's arrays at what the proof data give (an input as it was, an output overwritten block by
    block by what the last tiles left) and every other buffer as the host operations after the region leave it. -/
theorem run_main : θ_run defs (onTc (τ := τ) (main (F := F))) (s₀ m ρ) (Pipeline.FramePost cfgs (dats m) 0 (Pipeline.afterTail₀ cfgs (dats m) 0 (V0 m) tailOps)) :=
  Pipeline.θ_run_frame_around_track cfgs (dats m) (0 : Fin 1) launch0 defs₀ Variants.none m ρ main
    (hbody := fun c => (body_obligation m c).loose) (hshare := fun c => (dats m 0 c).share_full fun _ => rfl)
    (howed := fun _ _ => rfl) (V₀ := V0 m) (opss := tailOps) (hsub := sfx_sub) (hfresh := sfx_fresh) (hkeep := sfx_keeps)
    (hmain := hmain m Variants.none) (hA := A_eq m) (hin := hin m) (hout := hout m)

/-- THE FRAME: every weakly fair execution terminates, nothing faults, and the six argument arrays end as launched. -/
theorem frame : θ_run defs (onTc (τ := τ) (main (F := F))) ⟨m, fun _ => 0, ρ⟩ (fun r => ∀ c : Dev nD,
      r.2.mem ((c.tc : Thread nD τ).loc main_arg0) = m ((c.tc : Thread nD τ).loc main_arg0)
      ∧ r.2.mem ((c.tc : Thread nD τ).loc main_arg1) = m ((c.tc : Thread nD τ).loc main_arg1)
      ∧ r.2.mem ((c.tc : Thread nD τ).loc main_arg2) = m ((c.tc : Thread nD τ).loc main_arg2)
      ∧ r.2.mem ((c.tc : Thread nD τ).loc main_arg3) = m ((c.tc : Thread nD τ).loc main_arg3)
      ∧ r.2.mem ((c.tc : Thread nD τ).loc main_arg4) = m ((c.tc : Thread nD τ).loc main_arg4)
      ∧ r.2.mem ((c.tc : Thread nD τ).loc main_arg5) = m ((c.tc : Thread nD τ).loc main_arg5)) :=
  frame_of m ρ (dats m) (A_eq m) (run_main m ρ)

end Cert.KernelIdeal.Hand

end
-- ==== Proof.KI.ValueRun.lean ====
/-
  The kernel program's run with its three results named. After the region the host operations of the tail run from
  the region's exit contents (the pipeline's arrays at what the proof data give, every other buffer as the region found
  it); each result buffer ends at that fold read at its reference, and the six argument arrays end as launched.
-/
import proofs.«405218_j60748017434937_2_alg».proof.Proof.KI.Frame

set_option maxRecDepth 16384

noncomputable section

namespace Cert.KernelIdeal.Hand

open Cert.KernelIdeal Cert.KernelIdeal.Gen
open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)

variable {F : FTy → Type} [FloatOps F]

local notation "𝕄" => MT nD τ sig Unit (Elt F) ℕ (UR sig nD τ) ℕ

variable (m : (ℓ : Loc nD τ sig) → Buf (Elt F) ℓ) (ρ : Dev nD → PrngReg)

/-- The buffer contents at the region's exit: the four output arrays as the write-backs leave them, everything else as
    the region found it. -/
abbrev exitVal (c : Dev nD) : Valuation τ sig (Elt F) :=
  Pipeline.withArrays spec0 c (V0 m c) fun w => (dats m 0 c).arrAt w cfg0.N

/-- A buffer's contents after the whole program: the tail's operations folded over the exit contents. -/
abbrev resK (c : Dev nD) (b : Ref sig .tc) : Buf (Elt F) ((c.tc : Thread nD τ).loc b) :=
  Pipeline.afterTail₀ cfgs (dats m) 0 (V0 m) tailOps c b

theorem resK_eq (c : Dev nD) (b : Ref sig .tc) :
    resK m c b = StableHlo.after (List.flatten tailOps) (exitVal m c) (Proc.devRef .tc b) := rfl

/-- At the exit an output window's array holds what the proof data give. -/
theorem exitVal_arr (c : Dev nD) (w : Fin 9) :
    exitVal m c (Proc.devRef .tc (Pipeline.arrRef spec0 w)) = (dats m 0 c).arrAt w cfg0.N :=
  Pipeline.withArrays_arr spec0 launch0.win.arr_inj c _ _ w

/-- At the exit a buffer that is no window's array holds what the region found in it. -/
theorem exitVal_rest (c : Dev nD) (b : Ref sig .tc) (hb : ∀ w, Pipeline.arrRef spec0 w ≠ b) :
    exitVal m c (Proc.devRef .tc b) = V m c b :=
  Pipeline.withArrays_of_ne spec0 c (V0 m c) _ b hb

/-- THE RUN WITH VALUES: every weakly fair execution terminates with each of the three results at `resK` and the six
    argument arrays as launched. -/
theorem run_values : θ_run defs (onTc (τ := τ) (main (F := F))) ⟨m, fun _ => 0, ρ⟩ (fun r => ∀ c : Dev nD,
      r.2.mem ((c.tc : Thread nD τ).loc main_v94) = resK m c main_v94
      ∧ r.2.mem ((c.tc : Thread nD τ).loc main_v185) = resK m c main_v185
      ∧ r.2.mem ((c.tc : Thread nD τ).loc main_v209) = resK m c main_v209
      ∧ r.2.mem ((c.tc : Thread nD τ).loc main_arg0) = m ((c.tc : Thread nD τ).loc main_arg0)
      ∧ r.2.mem ((c.tc : Thread nD τ).loc main_arg1) = m ((c.tc : Thread nD τ).loc main_arg1)
      ∧ r.2.mem ((c.tc : Thread nD τ).loc main_arg2) = m ((c.tc : Thread nD τ).loc main_arg2)
      ∧ r.2.mem ((c.tc : Thread nD τ).loc main_arg3) = m ((c.tc : Thread nD τ).loc main_arg3)
      ∧ r.2.mem ((c.tc : Thread nD τ).loc main_arg4) = m ((c.tc : Thread nD τ).loc main_arg4)
      ∧ r.2.mem ((c.tc : Thread nD τ).loc main_arg5) = m ((c.tc : Thread nD τ).loc main_arg5)) :=
  (θ_run defs _ _).mono (fun _ h c =>
    ⟨(h c).2 main_v94 (Pipeline.mem_restRefs_of main_v94 (by decide) (by decide)),
     (h c).2 main_v185 (Pipeline.mem_restRefs_of main_v185 (by decide) (by decide)),
     (h c).2 main_v209 (Pipeline.mem_restRefs_of main_v209 (by decide) (by decide)),
     ((h c).2 main_arg0 (Pipeline.mem_restRefs_of main_arg0 (by decide) (by decide))).trans (W_main_arg0 m (dats m) c),
     ((h c).2 main_arg1 (Pipeline.mem_restRefs_of main_arg1 (by decide) (by decide))).trans (W_main_arg1 m (dats m) c),
     ((h c).2 main_arg2 (Pipeline.mem_restRefs_of main_arg2 (by decide) (by decide))).trans (W_main_arg2 m (dats m) c),
     ((h c).1 0).trans (((dats m 0 c).arrAt_in 0 rfl _).trans ((A_eq m c 0).trans (V_main_arg3 m c))),
     ((h c).2 main_arg4 (Pipeline.mem_restRefs_of main_arg4 (by decide) (by decide))).trans (W_main_arg4 m (dats m) c),
     ((h c).2 main_arg5 (Pipeline.mem_restRefs_of main_arg5 (by decide) (by decide))).trans (W_main_arg5 m (dats m) c)⟩)
    (run_main m ρ)

end Cert.KernelIdeal.Hand

end
-- ==== Proof.PreDecode.lean ====
/-
  THE PRECONDITION DECODED. The printed precondition is one `i1` word: the conjunction of six tests, each the
  `and`-reduction over every element of an array of element tests. Four of the tests say of a float input that every
  element x has |x| < +∞, where |x| is max x (−x) in the extended reals and +∞ is what the pattern 0x7F800000 denotes;
  two say of the 1024 index words b that 0 ≤ b and b < 2048, read signed. When the word is 1 every element test is 1:
  every float element is then a real number (neither infinity passes |x| < +∞: |±∞| = +∞), and every index word, being
  nonnegative and below 2048 signed, has the same value unsigned, so is below 2048 unsigned too.
-/
import proofs.«405218_j60748017434937_2_alg».proof.Proof.Gen.Pre_finite_inputs
import Idealize.ShloMosaic.Lib.ReduceAll
import Idealize.ShloMosaic.Lib.StableHlo.Predicate
import Idealize.ShloMosaic.Lib.ValueIdx
import Idealize.ShloMosaic.PureOps.Ideal

noncomputable section

namespace Cert.PreDecode

open Idealize.ShloMosaic
open Cert.Pre_finite_inputs

/-- The scalar shape has one index. -/
instance subsingleton_scalar_idx : Subsingleton S_.Idx := ⟨fun a b => funext fun d => d.elim0⟩

/-! ## The element facts -/

/-- The pattern 0x7F800000 denotes +∞. -/
theorem inf_pattern : Ideal.ofBits .f32 0x7F800000#32 = (⊤ : EReal) := by simp [Ideal.ofBits, Ideal.ieee]

/-- An extended real whose absolute value max x (−x) lies strictly below +∞ is a real number: at either infinity the
    absolute value is +∞ itself. -/
theorem real_of_abs_lt_top (x : EReal) (h : max x (-x) < ⊤) : ∃ r : ℝ, x = (r : EReal) := by
  induction x using EReal.rec with
  | bot => simp at h
  | coe r => exact ⟨r, rfl⟩
  | top => simp at h

/-- A nonnegative signed word reads the same unsigned. -/
theorem toNat_of_toInt_nonneg (b : BitVec 32) (h0 : 0 ≤ b.toInt) : (b.toNat : Int) = b.toInt := by
  have hc := BitVec.toInt_eq_toNat_cond b
  have hl := b.isLt
  split at hc <;> omega

/-! ## One test, read at an element -/

variable {s : Shape} {axes : List (Fin s.rank)}

/-- The float test at element i: |x i| < +∞ as an `i1` word being 1 makes x i a real. -/
theorem real_of_test (hb : S_.BroadcastsInDim s (![] : Fin 0 → Fin s.rank)) (x : FVec Ideal s .f32) (i : s.Idx)
    (h : cmpf .olt (Host.absf x) (broadcastInDim s ![] hb (constant S_ .f32 0x7F800000#32)) i = 1#1) :
    ∃ r : ℝ, x i = (r : EReal) := by
  have h' : Ideal.cmp .olt (max (x i) (-(x i))) (Ideal.ofBits .f32 0x7F800000#32) = 1#1 := h
  rw [inf_pattern] at h'
  simp only [Ideal.cmp, StableHlo.Predicate.ofBool_eq_one_iff, decide_eq_true_eq] at h'
  exact real_of_abs_lt_top _ h'

/-- The float test under its `and`-reduction over every element: the reduction being 1 makes every element a real. -/
theorem real_of_all (hb : S_.BroadcastsInDim s (![] : Fin 0 → Fin s.rank)) (hr : s.ReducesTo axes S_) (hu : 0 < S_.numel)
    (x : FVec Ideal s .f32)
    (h : Host.reduce IntOp.andi (cmpf .olt (Host.absf x) (broadcastInDim s ![] hb (constant S_ .f32 0x7F800000#32)))
      (constantI S_ 1 1#1) hr hu ValueIdx.ix0 = 1#1) (i : s.Idx) : ∃ r : ℝ, x i = (r : EReal) :=
  real_of_test hb x i (Host.reduce_andi_all _ _ hr hu _ h i)

/-- The lower index test under its reduction: every word is nonnegative, signed. -/
theorem nonneg_of_all (hb : S_.BroadcastsInDim s (![] : Fin 0 → Fin s.rank)) (hr : s.ReducesTo axes S_) (hu : 0 < S_.numel)
    (x : IVec s 32)
    (h : Host.reduce IntOp.andi (cmpi .sge x (broadcastInDim s ![] hb (constantI S_ 32 0#32)))
      (constantI S_ 1 1#1) hr hu ValueIdx.ix0 = 1#1) (i : s.Idx) : 0 ≤ (x i).toInt := by
  have e : IntOp.cmpi .sge (x i) 0#32 = 1#1 := Host.reduce_andi_all _ _ hr hu _ h i
  rw [IntOp.cmpi_sge, show (0#32 : BitVec 32).toInt = 0 from by decide] at e
  exact e

/-- The upper index test under its reduction: every word is below 2048, signed. -/
theorem lt_of_all (hb : S_.BroadcastsInDim s (![] : Fin 0 → Fin s.rank)) (hr : s.ReducesTo axes S_) (hu : 0 < S_.numel)
    (x : IVec s 32)
    (h : Host.reduce IntOp.andi (cmpi .slt x (broadcastInDim s ![] hb (constantI S_ 32 2048#32)))
      (constantI S_ 1 1#1) hr hu ValueIdx.ix0 = 1#1) (i : s.Idx) : (x i).toInt < 2048 := by
  have e : IntOp.cmpi .slt (x i) 2048#32 = 1#1 := Host.reduce_andi_all _ _ hr hu _ h i
  rw [IntOp.cmpi_slt, show (2048#32 : BitVec 32).toInt = 2048 from by decide] at e
  exact e

/-! ## The precondition -/

/-- THE PRECONDITION DECODED: every element of the four float inputs is a real number, and every index word lies in
    [0, 2048) read signed. -/
theorem finite_of_pre [Cert.Pre_finite_inputs.Facts] (x0 x1 x2 : FVec Ideal S1024x128 .f32) (x3 : FVec Ideal S128x65536 .f32)
    (x4 : IVec S1024 32) (x5 : IVec S65536 32)
    (h : Cert.Pre_finite_inputs.fn (F := Ideal) x0 x1 x2 x3 x4 x5 = fun _ => 1#1) :
    (∀ i, ∃ r : ℝ, x0 i = (r : EReal)) ∧ (∀ i, ∃ r : ℝ, x1 i = (r : EReal)) ∧ (∀ i, ∃ r : ℝ, x2 i = (r : EReal))
      ∧ (∀ i, ∃ r : ℝ, x3 i = (r : EReal)) ∧ (∀ i, 0 ≤ (x4 i).toInt ∧ (x4 i).toInt < 2048) := by
  have e := congrFun h ValueIdx.ix0
  dsimp only [Cert.Pre_finite_inputs.fn, Cert.Pre_finite_inputs.fn_part1] at e
  simp only [andi, IntOp.andi_eq_one] at e
  obtain ⟨⟨⟨⟨⟨h0, h1⟩, h2⟩, h3⟩, h4⟩, h5⟩ := e
  exact ⟨real_of_all _ _ _ x0 h0, real_of_all _ _ _ x1 h1, real_of_all _ _ _ x2 h2, real_of_all _ _ _ x3 h3,
    fun i => ⟨nonneg_of_all _ _ _ x4 h4 i, lt_of_all _ _ _ x4 h5 i⟩⟩

/-- The index words read unsigned: each is below 2048. -/
theorem index_lt_of_pre [Cert.Pre_finite_inputs.Facts] (x0 x1 x2 : FVec Ideal S1024x128 .f32) (x3 : FVec Ideal S128x65536 .f32)
    (x4 : IVec S1024 32) (x5 : IVec S65536 32)
    (h : Cert.Pre_finite_inputs.fn (F := Ideal) x0 x1 x2 x3 x4 x5 = fun _ => 1#1) (i : S1024.Idx) : (x4 i).toNat < 2048 := by
  obtain ⟨h0, h1⟩ := (finite_of_pre x0 x1 x2 x3 x4 x5 h).2.2.2.2 i
  have := toNat_of_toInt_nonneg (x4 i) h0
  omega

end Cert.PreDecode

end
-- ==== Proof.LibOnlineLse.lean ====
/-
  Extended-real arithmetic on finite arguments, and the real identities behind a streamed
  log-sum-exp and a weighted log-softmax sum.

  Part A: each extended-real operation, applied to coercions of reals inside its regular domain,
  is the coercion of the real operation. Parts B to E: the shift invariance of log-sum-exp, the
  merge rule for partial sums of shifted exponentials, the closed form of a weighted sum of
  log-softmax entries, and the row identity obtained by joining them. Part G restates them over
  the extended reals on finite arguments. Part F: a running maximum of finite numbers is finite.
-/
import Idealize.ShloMosaic.PureOps.Ideal
import Idealize.ShloMosaic.PureOps.Ideal.Laws
import Mathlib.Data.EReal.Basic
import Mathlib.Data.EReal.Operations
import Mathlib.Data.EReal.Inv
import Mathlib.Analysis.SpecialFunctions.Exp
import Mathlib.Analysis.SpecialFunctions.Log.Basic
import Mathlib.Analysis.SpecialFunctions.Sqrt
import Mathlib.Algebra.BigOperators.Group.Finset.Basic
import Mathlib.Algebra.BigOperators.Field
import Mathlib.Algebra.Order.BigOperators.Group.Finset
import Mathlib.Data.Finset.Fold

namespace Cert.LibOnlineLse

open Idealize.ShloMosaic
open scoped BigOperators

/-! ### A. The operations on finite arguments -/

/-- The exponential of a finite extended real is the real exponential. -/
theorem coe_exp (x : ℝ) : Ideal.exp (x : EReal) = ((Real.exp x : ℝ) : EReal) := rfl

/-- The logarithm of a positive finite extended real is the real logarithm. -/
theorem coe_log {x : ℝ} (hx : 0 < x) : Ideal.log (x : EReal) = ((Real.log x : ℝ) : EReal) := by
  rw [Ideal.log_coe, if_neg (not_le.mpr hx)]

/-- The quotient of finite extended reals by a nonzero divisor is the real quotient. -/
theorem coe_div (x : ℝ) {y : ℝ} (hy : y ≠ 0) :
    Ideal.div (x : EReal) (y : EReal) = ((x / y : ℝ) : EReal) := by
  rw [Ideal.div_coe hy, ← EReal.coe_mul, mul_one_div]

/-- The square root of a nonnegative finite extended real is the real square root. -/
theorem coe_sqrt {x : ℝ} (hx : 0 ≤ x) : Ideal.sqrt (x : EReal) = ((Real.sqrt x : ℝ) : EReal) := by
  rw [Ideal.sqrt_coe, if_neg (not_lt.mpr hx)]

/-- The maximum of two finite extended reals is the real maximum. -/
theorem coe_max (x y : ℝ) : max (x : EReal) (y : EReal) = ((max x y : ℝ) : EReal) :=
  (EReal.coe_strictMono.monotone.map_max).symm

/-- The minimum of two finite extended reals is the real minimum. -/
theorem coe_min (x y : ℝ) : min (x : EReal) (y : EReal) = ((min x y : ℝ) : EReal) :=
  (EReal.coe_strictMono.monotone.map_min).symm

/-- The sum of two finite extended reals is the real sum. -/
theorem coe_add (x y : ℝ) : (x : EReal) + (y : EReal) = ((x + y : ℝ) : EReal) :=
  (EReal.coe_add x y).symm

/-- The difference of two finite extended reals is the real difference. -/
theorem coe_sub (x y : ℝ) : (x : EReal) - (y : EReal) = ((x - y : ℝ) : EReal) :=
  (EReal.coe_sub x y).symm

/-- The product of two finite extended reals is the real product. -/
theorem coe_mul (x y : ℝ) : (x : EReal) * (y : EReal) = ((x * y : ℝ) : EReal) :=
  (EReal.coe_mul x y).symm

/-- The negation of a finite extended real is the real negation. -/
theorem coe_neg (x : ℝ) : -(x : EReal) = ((-x : ℝ) : EReal) :=
  (EReal.coe_neg x).symm

/-- The extended-real zero is the coercion of the real zero. -/
theorem coe_zero : (0 : EReal) = ((0 : ℝ) : EReal) := EReal.coe_zero.symm

/-- The extended-real one is the coercion of the real one. -/
theorem coe_one : (1 : EReal) = ((1 : ℝ) : EReal) := EReal.coe_one.symm

/-- A finite sum of finite extended reals is the real sum. -/
theorem coe_sum {ι : Type*} (s : Finset ι) (f : ι → ℝ) :
    ∑ k ∈ s, (f k : EReal) = ((∑ k ∈ s, f k : ℝ) : EReal) := by
  classical
  induction s using Finset.induction_on with
  | empty => simp
  | insert a s ha ih => rw [Finset.sum_insert ha, Finset.sum_insert ha, ih, EReal.coe_add]

/-- Dividing by the larger of a square root and a positive floor, all arguments finite, is the
    real quotient (the divisor is positive). -/
theorem coe_div_max_sqrt (x : ℝ) {q e : ℝ} (hq : 0 ≤ q) (he : 0 < e) :
    Ideal.div (x : EReal) (max (Ideal.sqrt (q : EReal)) (e : EReal))
      = ((x / max (Real.sqrt q) e : ℝ) : EReal) := by
  rw [coe_sqrt hq, coe_max, coe_div _ (ne_of_gt (lt_max_of_lt_right he))]

/-- A sum of shifted exponentials over a nonempty index set is positive. -/
theorem sum_exp_pos {ι : Type*} {s : Finset ι} (hs : s.Nonempty) (x : ι → ℝ) (m : ℝ) :
    0 < ∑ k ∈ s, Real.exp (x k - m) :=
  Finset.sum_pos (fun _ _ => Real.exp_pos _) hs

/-! ### B. Shift invariance of log-sum-exp -/

/-- For any shift m: m + log (sum of exp (x - m)) = log (sum of exp x). -/
theorem lse_shift {ι : Type*} {s : Finset ι} (hs : s.Nonempty) (x : ι → ℝ) (m : ℝ) :
    m + Real.log (∑ k ∈ s, Real.exp (x k - m)) = Real.log (∑ k ∈ s, Real.exp (x k)) := by
  have h1 : ∑ k ∈ s, Real.exp (x k - m) = (∑ k ∈ s, Real.exp (x k)) * Real.exp (-m) := by
    rw [Finset.sum_mul]
    exact Finset.sum_congr rfl fun k _ => by rw [← Real.exp_add, sub_eq_add_neg]
  have hpos : 0 < ∑ k ∈ s, Real.exp (x k) := Finset.sum_pos (fun _ _ => Real.exp_pos _) hs
  rw [h1, Real.log_mul hpos.ne' (Real.exp_pos _).ne', Real.log_exp]
  ring

/-! ### C. Merging partial sums of shifted exponentials -/

/-- Re-basing a sum of exponentials from shift m₁ to shift m. -/
theorem rebase {ι : Type*} (s : Finset ι) (x : ι → ℝ) (m₁ m : ℝ) :
    (∑ k ∈ s, Real.exp (x k - m₁)) * Real.exp (m₁ - m) = ∑ k ∈ s, Real.exp (x k - m) := by
  rw [Finset.sum_mul]
  exact Finset.sum_congr rfl fun k _ => by rw [← Real.exp_add]; congr 1; ring

/-- Two partial sums over disjoint index sets, each with its own shift, merge to the sum over the
    union at any common shift. -/
theorem merge {ι : Type*} [DecidableEq ι] {s₁ s₂ : Finset ι} (hd : Disjoint s₁ s₂) (x : ι → ℝ)
    {l₁ l₂ m₁ m₂ : ℝ} (h₁ : l₁ = ∑ k ∈ s₁, Real.exp (x k - m₁))
    (h₂ : l₂ = ∑ k ∈ s₂, Real.exp (x k - m₂)) (m : ℝ) :
    l₁ * Real.exp (m₁ - m) + l₂ * Real.exp (m₂ - m) = ∑ k ∈ s₁ ∪ s₂, Real.exp (x k - m) := by
  rw [h₁, h₂, rebase, rebase, Finset.sum_union hd]

/-- The per-tile step: a running sum re-based to the new shift, plus the tile's own exponentials at
    that shift, is the sum over the enlarged index set. The running set may be empty (l = 0). -/
theorem step {ι : Type*} [DecidableEq ι] {s t : Finset ι} (hd : Disjoint s t) (x : ι → ℝ)
    {l m₁ : ℝ} (h : l = ∑ k ∈ s, Real.exp (x k - m₁)) (m : ℝ) :
    l * Real.exp (m₁ - m) + ∑ k ∈ t, Real.exp (x k - m) = ∑ k ∈ s ∪ t, Real.exp (x k - m) := by
  rw [h, rebase, Finset.sum_union hd]

/-! ### D. A weighted sum of log-softmax entries -/

/-- With weights normalised by their nonzero total c, the weighted sum of x - L is the weighted
    mean of x minus L. -/
theorem weighted_sub {ι : Type*} (s : Finset ι) (x w : ι → ℝ) {c : ℝ} (hc : c = ∑ k ∈ s, w k)
    (hc0 : c ≠ 0) (L : ℝ) :
    ∑ k ∈ s, (x k - L) * (w k / c) = (∑ k ∈ s, w k * x k) / c - L := by
  have h1 : ∀ k ∈ s, (x k - L) * (w k / c) = (w k * x k) / c - L * (w k / c) := fun k _ => by ring
  rw [Finset.sum_congr rfl h1, Finset.sum_sub_distrib, ← Finset.sum_div, ← Finset.mul_sum,
    ← Finset.sum_div, ← hc, div_self hc0, mul_one]

/-- The same with L written as a shift plus the logarithm of the shifted exponential sum. -/
theorem weighted_log_softmax {ι : Type*} (s : Finset ι) (x w : ι → ℝ) {c : ℝ}
    (hc : c = ∑ k ∈ s, w k) (hc0 : c ≠ 0) (M : ℝ) :
    ∑ k ∈ s, ((x k - M) - Real.log (∑ j ∈ s, Real.exp (x j - M))) * (w k / c)
      = (∑ k ∈ s, w k * x k) / c - (M + Real.log (∑ j ∈ s, Real.exp (x j - M))) := by
  rw [← weighted_sub s x w hc hc0]
  exact Finset.sum_congr rfl fun k _ => by ring

/-! ### E. The row identity -/

/-- The row identity, with arbitrary intermediate shifts. The columns split into three pairwise
    disjoint parts with partial sums lᵢ at shifts mᵢ; the last two are merged at shift mc,
    the result is merged with the first at shift fm. The weighted log-softmax sum over the
    whole row is then the weighted mean of x, summed part by part, minus fm + log fl. -/
theorem row_identity_gen {ι : Type*} [DecidableEq ι] {s s₀ s₁ s₂ : Finset ι}
    (hs : s = s₀ ∪ s₁ ∪ s₂) (h01 : Disjoint s₀ s₁) (h02 : Disjoint s₀ s₂) (h12 : Disjoint s₁ s₂)
    (hne : s₀.Nonempty) (x w : ι → ℝ) {c : ℝ} (hc : c = ∑ k ∈ s, w k) (hc0 : c ≠ 0)
    {m₀ m₁ m₂ l₀ l₁ l₂ mc lc fm fl : ℝ}
    (hl₀ : l₀ = ∑ k ∈ s₀, Real.exp (x k - m₀)) (hl₁ : l₁ = ∑ k ∈ s₁, Real.exp (x k - m₁))
    (hl₂ : l₂ = ∑ k ∈ s₂, Real.exp (x k - m₂))
    (hlc : lc = l₁ * Real.exp (m₁ - mc) + l₂ * Real.exp (m₂ - mc))
    (hfl : fl = l₀ * Real.exp (m₀ - fm) + lc * Real.exp (mc - fm)) (M : ℝ) :
    ∑ k ∈ s, ((x k - M) - Real.log (∑ j ∈ s, Real.exp (x j - M))) * (w k / c)
      = ((∑ k ∈ s₀, w k * x k) + (∑ k ∈ s₁, w k * x k) + (∑ k ∈ s₂, w k * x k)) / c
        - (fm + Real.log fl) := by
  have hlc' : lc = ∑ k ∈ s₁ ∪ s₂, Real.exp (x k - mc) := by rw [hlc, merge h12 x hl₁ hl₂]
  have hd : Disjoint s₀ (s₁ ∪ s₂) := Finset.disjoint_union_right.mpr ⟨h01, h02⟩
  have hfl' : fl = ∑ k ∈ s, Real.exp (x k - fm) := by
    rw [hfl, merge hd x hl₀ hlc', hs, Finset.union_assoc]
  have hsne : s.Nonempty := by
    rw [hs]; exact (hne.mono Finset.subset_union_left).mono Finset.subset_union_left
  have hd' : Disjoint (s₀ ∪ s₁) s₂ := Finset.disjoint_union_left.mpr ⟨h02, h12⟩
  rw [weighted_log_softmax s x w hc hc0 M, lse_shift hsne x M, hfl', lse_shift hsne x fm, hs,
    Finset.sum_union hd', Finset.sum_union h01]

/-- The row identity with the intermediate shifts the maxima of the parts' shifts. -/
theorem row_identity {ι : Type*} [DecidableEq ι] {s s₀ s₁ s₂ : Finset ι}
    (hs : s = s₀ ∪ s₁ ∪ s₂) (h01 : Disjoint s₀ s₁) (h02 : Disjoint s₀ s₂) (h12 : Disjoint s₁ s₂)
    (hne : s₀.Nonempty) (x w : ι → ℝ) {c : ℝ} (hc : c = ∑ k ∈ s, w k) (hc0 : c ≠ 0)
    {m₀ m₁ m₂ l₀ l₁ l₂ mc lc fm fl : ℝ}
    (hl₀ : l₀ = ∑ k ∈ s₀, Real.exp (x k - m₀)) (hl₁ : l₁ = ∑ k ∈ s₁, Real.exp (x k - m₁))
    (hl₂ : l₂ = ∑ k ∈ s₂, Real.exp (x k - m₂)) (_hmc : mc = max m₁ m₂)
    (hlc : lc = l₁ * Real.exp (m₁ - mc) + l₂ * Real.exp (m₂ - mc)) (_hfm : fm = max m₀ mc)
    (hfl : fl = l₀ * Real.exp (m₀ - fm) + lc * Real.exp (mc - fm)) (M : ℝ) :
    ∑ k ∈ s, ((x k - M) - Real.log (∑ j ∈ s, Real.exp (x j - M))) * (w k / c)
      = ((∑ k ∈ s₀, w k * x k) + (∑ k ∈ s₁, w k * x k) + (∑ k ∈ s₂, w k * x k)) / c
        - (fm + Real.log fl) :=
  row_identity_gen hs h01 h02 h12 hne x w hc hc0 hl₀ hl₁ hl₂ hlc hfl M

/-- The final running sum of the row identity is the whole row's shifted exponential sum, and is
    positive. -/
theorem row_fl_pos {ι : Type*} [DecidableEq ι] {s₀ s₁ s₂ : Finset ι}
    (h01 : Disjoint s₀ s₁) (h02 : Disjoint s₀ s₂) (h12 : Disjoint s₁ s₂)
    (hne : s₀.Nonempty) (x : ι → ℝ)
    {m₀ m₁ m₂ l₀ l₁ l₂ mc lc fm fl : ℝ}
    (hl₀ : l₀ = ∑ k ∈ s₀, Real.exp (x k - m₀)) (hl₁ : l₁ = ∑ k ∈ s₁, Real.exp (x k - m₁))
    (hl₂ : l₂ = ∑ k ∈ s₂, Real.exp (x k - m₂))
    (hlc : lc = l₁ * Real.exp (m₁ - mc) + l₂ * Real.exp (m₂ - mc))
    (hfl : fl = l₀ * Real.exp (m₀ - fm) + lc * Real.exp (mc - fm)) :
    fl = ∑ k ∈ s₀ ∪ s₁ ∪ s₂, Real.exp (x k - fm) ∧ 0 < fl := by
  have hlc' : lc = ∑ k ∈ s₁ ∪ s₂, Real.exp (x k - mc) := by rw [hlc, merge h12 x hl₁ hl₂]
  have hd : Disjoint s₀ (s₁ ∪ s₂) := Finset.disjoint_union_right.mpr ⟨h01, h02⟩
  have hfl' : fl = ∑ k ∈ s₀ ∪ s₁ ∪ s₂, Real.exp (x k - fm) := by
    rw [hfl, merge hd x hl₀ hlc', Finset.union_assoc]
  refine ⟨hfl', ?_⟩
  rw [hfl']
  exact sum_exp_pos ((hne.mono Finset.subset_union_left).mono Finset.subset_union_left) x fm

/-- Scaling one factor of every product by a common divisor scales the sum of products. -/
theorem sum_div_mul {ι : Type*} (s : Finset ι) (a b : ι → ℝ) (t : ℝ) :
    ∑ k ∈ s, (a k / t) * b k = (∑ k ∈ s, a k * b k) / t := by
  rw [Finset.sum_div]
  exact Finset.sum_congr rfl fun k _ => by ring

/-! ### G. The same over the extended reals, on finite arguments -/

/-- A sum of shifted exponentials of finite extended reals is the real sum. -/
theorem sum_exp_coe {ι : Type*} (s : Finset ι) (x : ι → ℝ) (m : ℝ) :
    ∑ k ∈ s, Ideal.exp ((x k : EReal) - (m : EReal))
      = ((∑ k ∈ s, Real.exp (x k - m) : ℝ) : EReal) := by
  rw [← coe_sum]
  exact Finset.sum_congr rfl fun k _ => by rw [coe_sub, coe_exp]

/-- The logarithm of a nonempty sum of shifted exponentials of finite extended reals is the real
    one. -/
theorem log_sum_exp_coe {ι : Type*} {s : Finset ι} (hs : s.Nonempty) (x : ι → ℝ) (m : ℝ) :
    Ideal.log (∑ k ∈ s, Ideal.exp ((x k : EReal) - (m : EReal)))
      = ((Real.log (∑ k ∈ s, Real.exp (x k - m)) : ℝ) : EReal) := by
  rw [sum_exp_coe, coe_log (sum_exp_pos hs x m)]

/-- A log-softmax entry of a row of finite extended reals, computed at shift M, is the real one. -/
theorem log_softmax_coe {ι : Type*} {s : Finset ι} (hs : s.Nonempty) (x : ι → ℝ) (M : ℝ) (k : ι) :
    ((x k : EReal) - (M : EReal)) - Ideal.log (∑ j ∈ s, Ideal.exp ((x j : EReal) - (M : EReal)))
      = (((x k - M) - Real.log (∑ j ∈ s, Real.exp (x j - M)) : ℝ) : EReal) := by
  rw [log_sum_exp_coe hs, coe_sub, coe_sub]

/-- The merge of two running sums over the extended reals is the real merge. -/
theorem merge_coe (l₁ l₂ m₁ m₂ m : ℝ) :
    (l₁ : EReal) * Ideal.exp ((m₁ : EReal) - (m : EReal))
        + (l₂ : EReal) * Ideal.exp ((m₂ : EReal) - (m : EReal))
      = ((l₁ * Real.exp (m₁ - m) + l₂ * Real.exp (m₂ - m) : ℝ) : EReal) := by
  rw [coe_sub, coe_sub, coe_exp, coe_exp, coe_mul, coe_mul, coe_add]

/-- The per-tile step over the extended reals is the real step. -/
theorem step_coe {ι : Type*} (t : Finset ι) (x : ι → ℝ) (l m₁ m : ℝ) :
    (l : EReal) * Ideal.exp ((m₁ : EReal) - (m : EReal))
        + ∑ k ∈ t, Ideal.exp ((x k : EReal) - (m : EReal))
      = ((l * Real.exp (m₁ - m) + ∑ k ∈ t, Real.exp (x k - m) : ℝ) : EReal) := by
  rw [sum_exp_coe, coe_sub, coe_exp, coe_mul, coe_add]

/-- The weighted log-softmax sum of a row of finite extended reals, with finite weights normalised
    by a nonzero finite total, is the real one. -/
theorem weighted_sum_coe {ι : Type*} {s : Finset ι} (hs : s.Nonempty) (x w : ι → ℝ) {c : ℝ}
    (hc0 : c ≠ 0) (M : ℝ) :
    ∑ k ∈ s, (((x k : EReal) - (M : EReal))
          - Ideal.log (∑ j ∈ s, Ideal.exp ((x j : EReal) - (M : EReal))))
        * Ideal.div (w k : EReal) (c : EReal)
      = ((∑ k ∈ s, ((x k - M) - Real.log (∑ j ∈ s, Real.exp (x j - M))) * (w k / c) : ℝ)
          : EReal) := by
  rw [← coe_sum]
  exact Finset.sum_congr rfl fun k _ => by rw [log_softmax_coe hs, coe_div _ hc0, coe_mul]

/-- The row identity over the extended reals: the reference's weighted log-softmax sum over the
    whole row equals the streamed closed form, all arguments finite. -/
theorem row_identity_coe {ι : Type*} [DecidableEq ι] {s s₀ s₁ s₂ : Finset ι}
    (hs : s = s₀ ∪ s₁ ∪ s₂) (h01 : Disjoint s₀ s₁) (h02 : Disjoint s₀ s₂) (h12 : Disjoint s₁ s₂)
    (hne : s₀.Nonempty) (x w : ι → ℝ) {c : ℝ} (hc : c = ∑ k ∈ s, w k) (hc0 : c ≠ 0)
    {m₀ m₁ m₂ l₀ l₁ l₂ mc lc fm fl S₀ S₁ S₂ : ℝ}
    (hl₀ : l₀ = ∑ k ∈ s₀, Real.exp (x k - m₀)) (hl₁ : l₁ = ∑ k ∈ s₁, Real.exp (x k - m₁))
    (hl₂ : l₂ = ∑ k ∈ s₂, Real.exp (x k - m₂))
    (hlc : lc = l₁ * Real.exp (m₁ - mc) + l₂ * Real.exp (m₂ - mc))
    (hfl : fl = l₀ * Real.exp (m₀ - fm) + lc * Real.exp (mc - fm))
    (hS₀ : S₀ = ∑ k ∈ s₀, w k * x k) (hS₁ : S₁ = ∑ k ∈ s₁, w k * x k)
    (hS₂ : S₂ = ∑ k ∈ s₂, w k * x k) (M : ℝ) :
    ∑ k ∈ s, (((x k : EReal) - (M : EReal))
          - Ideal.log (∑ j ∈ s, Ideal.exp ((x j : EReal) - (M : EReal))))
        * Ideal.div (w k : EReal) (c : EReal)
      = Ideal.div ((S₀ : EReal) + (S₁ : EReal) + (S₂ : EReal)) (c : EReal)
        - ((fm : EReal) + Ideal.log (fl : EReal)) := by
  have hsne : s.Nonempty := by
    rw [hs]; exact (hne.mono Finset.subset_union_left).mono Finset.subset_union_left
  have hflpos : 0 < fl := (row_fl_pos h01 h02 h12 hne x hl₀ hl₁ hl₂ hlc hfl).2
  rw [weighted_sum_coe hsne x w hc0 M,
    row_identity_gen hs h01 h02 h12 hne x w hc hc0 hl₀ hl₁ hl₂ hlc hfl M,
    coe_add, coe_add, coe_div _ hc0, coe_log hflpos, coe_add, coe_sub, hS₀, hS₁, hS₂]

/-! ### F. A running maximum of finite numbers is finite -/

/-- The maximum of two finite extended reals is finite. -/
theorem max_finite {a b : EReal} (ha : ∃ r : ℝ, a = (r : EReal)) (hb : ∃ r : ℝ, b = (r : EReal)) :
    ∃ r : ℝ, max a b = (r : EReal) := by
  obtain ⟨ra, rfl⟩ := ha
  obtain ⟨rb, rfl⟩ := hb
  exact ⟨max ra rb, coe_max ra rb⟩

/-- A fold of max over a finite index set, started at a finite number, through finite numbers,
    is finite. -/
theorem fold_max_finite {ι : Type*} (s : Finset ι) (y : ι → EReal) {m : EReal}
    (hm : ∃ r : ℝ, m = (r : EReal)) (hy : ∀ k ∈ s, ∃ r : ℝ, y k = (r : EReal)) :
    ∃ r : ℝ, s.fold max m y = (r : EReal) := by
  classical
  induction s using Finset.induction_on with
  | empty => simpa using hm
  | insert a s ha ih =>
    rw [Finset.fold_insert ha]
    exact max_finite (hy a (Finset.mem_insert_self a s))
      (ih fun k hk => hy k (Finset.mem_insert_of_mem hk))

/-- A left fold of max over a list of finite numbers, started at a finite number, is finite. -/
theorem foldl_max_finite (l : List EReal) {m : EReal}
    (hm : ∃ r : ℝ, m = (r : EReal)) (hl : ∀ y ∈ l, ∃ r : ℝ, y = (r : EReal)) :
    ∃ r : ℝ, l.foldl max m = (r : EReal) := by
  induction l generalizing m with
  | nil => simpa using hm
  | cons a l ih =>
    rw [List.foldl_cons]
    exact ih (max_finite hm (hl a (List.mem_cons_self ..)))
      (fun y hy => hl y (List.mem_cons_of_mem _ hy))

/-- A left fold of max along a list of indices through a finite-valued family is finite. -/
theorem foldl_max_map_finite {ι : Type*} (l : List ι) (y : ι → EReal) {m : EReal}
    (hm : ∃ r : ℝ, m = (r : EReal)) (hy : ∀ k ∈ l, ∃ r : ℝ, y k = (r : EReal)) :
    ∃ r : ℝ, l.foldl (fun acc k => max acc (y k)) m = (r : EReal) := by
  induction l generalizing m with
  | nil => simpa using hm
  | cons a l ih =>
    rw [List.foldl_cons]
    exact ih (max_finite hm (hy a (List.mem_cons_self ..)))
      (fun k hk => hy k (List.mem_cons_of_mem _ hk))

/-- A fold of max over finite extended reals is the coercion of the real fold. -/
theorem fold_max_coe {ι : Type*} (s : Finset ι) (y : ι → ℝ) (m : ℝ) :
    s.fold max (m : EReal) (fun k => (y k : EReal)) = ((s.fold max m y : ℝ) : EReal) := by
  classical
  induction s using Finset.induction_on with
  | empty => simp
  | insert a s ha ih => rw [Finset.fold_insert ha, Finset.fold_insert ha, ih, coe_max]

/-- A fold of max from the bottom element over a nonempty set of finite numbers is finite. -/
theorem fold_max_bot_finite {ι : Type*} {s : Finset ι} (hs : s.Nonempty) (y : ι → EReal)
    (hy : ∀ k ∈ s, ∃ r : ℝ, y k = (r : EReal)) :
    ∃ r : ℝ, s.fold max ⊥ y = (r : EReal) := by
  classical
  induction s using Finset.induction_on with
  | empty => exact absurd hs Finset.not_nonempty_empty
  | insert a s ha ih =>
    rw [Finset.fold_insert ha]
    have hya := hy a (Finset.mem_insert_self a s)
    rcases s.eq_empty_or_nonempty with rfl | hne
    · obtain ⟨ra, hra⟩ := hya
      exact ⟨ra, by rw [Finset.fold_empty, hra, max_eq_left bot_le]⟩
    · exact max_finite hya (ih hne fun k hk => hy k (Finset.mem_insert_of_mem hk))

/-- A left fold of max from the bottom element over a nonempty list of finite numbers is finite. -/
theorem foldl_max_bot_finite {l : List EReal} (hne : l ≠ [])
    (hl : ∀ y ∈ l, ∃ r : ℝ, y = (r : EReal)) :
    ∃ r : ℝ, l.foldl max ⊥ = (r : EReal) := by
  cases l with
  | nil => exact absurd rfl hne
  | cons a l =>
    rw [List.foldl_cons, max_eq_right bot_le]
    exact foldl_max_finite l (hl a (List.mem_cons_self ..))
      (fun y hy => hl y (List.mem_cons_of_mem _ hy))

/-- A left fold of max from the bottom element along a nonempty list of indices through a
    finite-valued family is finite. -/
theorem foldl_max_map_bot_finite {ι : Type*} {l : List ι} (hne : l ≠ []) (y : ι → EReal)
    (hy : ∀ k ∈ l, ∃ r : ℝ, y k = (r : EReal)) :
    ∃ r : ℝ, l.foldl (fun acc k => max acc (y k)) ⊥ = (r : EReal) := by
  cases l with
  | nil => exact absurd rfl hne
  | cons a l =>
    rw [List.foldl_cons, max_eq_right bot_le]
    exact foldl_max_map_finite l y (hy a (List.mem_cons_self ..))
      (fun k hk => hy k (List.mem_cons_of_mem _ hk))

end Cert.LibOnlineLse
-- ==== Proof.LibWords.lean ====
/-
  The float words of a contrastive-loss kernel and its reference as extended reals, and the
  finiteness of the arithmetic built on them: L2 normalisation with a positive floor, dot
  products of finite rows, and sums of 0/1 indicators.
-/
import Idealize.ShloMosaic.PureOps.Ideal
import proofs.«405218_j60748017434937_2_alg».proof.Proof.LibOnlineLse
import Mathlib.Data.EReal.Basic
import Mathlib.Data.EReal.Operations
import Mathlib.Analysis.SpecialFunctions.Sqrt
import Mathlib.Algebra.BigOperators.Group.Finset.Basic
import Mathlib.Algebra.BigOperators.Field
import Mathlib.Algebra.Order.BigOperators.Group.Finset
import Mathlib.Algebra.Order.BigOperators.Ring.Finset

noncomputable section

namespace Cert.LibWords

open Idealize.ShloMosaic
open Cert.LibOnlineLse
open scoped BigOperators

/-! ### W1. The words -/

/-- The binary32 number nearest to 1e-12: 9223372 · 2⁻⁶³. -/
def eps : ℝ := 9223372 / 2 ^ 63

/-- The binary32 number nearest to 0.07: 9395241 · 2⁻²⁷. -/
def temp : ℝ := 9395241 / 2 ^ 27

/-- The binary32 number nearest to -1e30: -13234890 · 2⁷⁶. -/
def negBig : ℝ := -(13234890 * 2 ^ 76)

/-- The floor of the normalisation is positive. -/
theorem eps_pos : 0 < eps := by unfold eps; positivity

/-- The temperature is positive. -/
theorem temp_pos : 0 < temp := by unfold temp; positivity

/-- The temperature is not zero. -/
theorem temp_ne_zero : temp ≠ 0 := temp_pos.ne'

/-- The floor of the normalisation is not zero. -/
theorem eps_ne_zero : eps ≠ 0 := eps_pos.ne'

/-- The word 0x2B8CBCCC denotes the floor 9223372 · 2⁻⁶³. -/
theorem ofBits_eps : Ideal.ofBits .f32 0x2B8CBCCC#32 = ((eps : ℝ) : EReal) := by
  simp [Ideal.ofBits, Ideal.ieee, -EReal.coe_mul, eps]; norm_num

/-- The word 0x3D8F5C29 denotes the temperature 9395241 · 2⁻²⁷. -/
theorem ofBits_temp : Ideal.ofBits .f32 0x3D8F5C29#32 = ((temp : ℝ) : EReal) := by
  simp [Ideal.ofBits, Ideal.ieee, -EReal.coe_mul, temp]; norm_num

/-- The word 0xF149F2CA denotes the finite number -13234890 · 2⁷⁶. -/
theorem ofBits_negBig : Ideal.ofBits .f32 0xF149F2CA#32 = ((negBig : ℝ) : EReal) := by
  simp [Ideal.ofBits, Ideal.ieee, -EReal.coe_mul, negBig]

/-- The word 0xF149F2CA denotes a finite number. -/
theorem ofBits_negBig_finite : ∃ r : ℝ, Ideal.ofBits .f32 0xF149F2CA#32 = (r : EReal) :=
  ⟨negBig, ofBits_negBig⟩

/-- The word 0x44800000 denotes 1024. -/
theorem ofBits_1024 : Ideal.ofBits .f32 0x44800000#32 = ((1024 : ℝ) : EReal) := by
  simp [Ideal.ofBits, Ideal.ieee, -EReal.coe_mul]; norm_num

/-- The word 0x00000000 denotes zero. -/
theorem ofBits_zero : Ideal.ofBits .f32 0x00000000#32 = 0 := by
  simp [Ideal.ofBits, Ideal.ieee]

/-- The word 0x00000000 denotes the coercion of the real zero. -/
theorem ofBits_zero_coe : Ideal.ofBits .f32 0x00000000#32 = ((0 : ℝ) : EReal) := by
  rw [ofBits_zero, EReal.coe_zero]

/-- The word 0x3F800000 denotes one. -/
theorem ofBits_one : Ideal.ofBits .f32 0x3F800000#32 = 1 := by
  simp [Ideal.ofBits, Ideal.ieee, -EReal.coe_mul]; norm_num

/-- The word 0x3F800000 denotes the coercion of the real one. -/
theorem ofBits_one_coe : Ideal.ofBits .f32 0x3F800000#32 = ((1 : ℝ) : EReal) := by
  rw [ofBits_one, EReal.coe_one]

/-- The word 0xFF800000 denotes the bottom element. -/
theorem ofBits_neg_inf : Ideal.ofBits .f32 0xFF800000#32 = ⊥ := by
  simp [Ideal.ofBits, Ideal.ieee]

/-- The word 0x7F800000 denotes the top element. -/
theorem ofBits_pos_inf : Ideal.ofBits .f32 0x7F800000#32 = ⊤ := by
  simp [Ideal.ofBits, Ideal.ieee]

/-! The same words read through the instance's field. -/

/-- The word 0x2B8CBCCC through the instance's field. -/
theorem floatOps_ofBits_eps :
    FloatOps.ofBits (F := Ideal) .f32 0x2B8CBCCC#32 = ((eps : ℝ) : EReal) := ofBits_eps

/-- The word 0x3D8F5C29 through the instance's field. -/
theorem floatOps_ofBits_temp :
    FloatOps.ofBits (F := Ideal) .f32 0x3D8F5C29#32 = ((temp : ℝ) : EReal) := ofBits_temp

/-- The word 0xF149F2CA through the instance's field. -/
theorem floatOps_ofBits_negBig :
    FloatOps.ofBits (F := Ideal) .f32 0xF149F2CA#32 = ((negBig : ℝ) : EReal) := ofBits_negBig

/-- The word 0x44800000 through the instance's field. -/
theorem floatOps_ofBits_1024 :
    FloatOps.ofBits (F := Ideal) .f32 0x44800000#32 = ((1024 : ℝ) : EReal) := ofBits_1024

/-- The word 0x00000000 through the instance's field. -/
theorem floatOps_ofBits_zero : FloatOps.ofBits (F := Ideal) .f32 0x00000000#32 = 0 := ofBits_zero

/-- The word 0x3F800000 through the instance's field. -/
theorem floatOps_ofBits_one : FloatOps.ofBits (F := Ideal) .f32 0x3F800000#32 = 1 := ofBits_one

/-- The word 0xFF800000 through the instance's field. -/
theorem floatOps_ofBits_neg_inf :
    FloatOps.ofBits (F := Ideal) .f32 0xFF800000#32 = ⊥ := ofBits_neg_inf

/-- The word 0x7F800000 through the instance's field. -/
theorem floatOps_ofBits_pos_inf :
    FloatOps.ofBits (F := Ideal) .f32 0x7F800000#32 = ⊤ := ofBits_pos_inf

/-! ### W3. Dot products of finite rows -/

/-- A dot product of finite rows is the real dot product. -/
theorem dot_coe {ι : Type*} (s : Finset ι) (a q : ι → ℝ) :
    ∑ e ∈ s, (a e : EReal) * (q e : EReal) = ((∑ e ∈ s, a e * q e : ℝ) : EReal) := by
  rw [← coe_sum]
  exact Finset.sum_congr rfl fun e _ => coe_mul _ _

/-- A dot product whose left row is first divided by a nonzero finite number is the real dot
    product divided by it. -/
theorem dot_div_coe {ι : Type*} (s : Finset ι) (a q : ι → ℝ) {T : ℝ} (hT : T ≠ 0) :
    ∑ e ∈ s, Ideal.div (a e : EReal) (T : EReal) * (q e : EReal)
      = (((∑ e ∈ s, a e * q e) / T : ℝ) : EReal) := by
  rw [← sum_div_mul, ← coe_sum]
  exact Finset.sum_congr rfl fun e _ => by rw [coe_div _ hT, coe_mul]

/-- A dot product of finite rows added to a zero accumulator is the real dot product. -/
theorem zero_add_dot_coe {ι : Type*} (s : Finset ι) (a q : ι → ℝ) :
    (0 : EReal) + ∑ e ∈ s, (a e : EReal) * (q e : EReal) = ((∑ e ∈ s, a e * q e : ℝ) : EReal) := by
  rw [zero_add, dot_coe]

/-- The scaled dot product added to a zero accumulator. -/
theorem zero_add_dot_div_coe {ι : Type*} (s : Finset ι) (a q : ι → ℝ) {T : ℝ} (hT : T ≠ 0) :
    (0 : EReal) + ∑ e ∈ s, Ideal.div (a e : EReal) (T : EReal) * (q e : EReal)
      = (((∑ e ∈ s, a e * q e) / T : ℝ) : EReal) := by
  rw [zero_add, dot_div_coe s a q hT]

/-! ### W2. L2 normalisation with a positive floor -/

/-- A sum of squares is nonnegative. -/
theorem sum_sq_nonneg {ι : Type*} (s : Finset ι) (x : ι → ℝ) : 0 ≤ ∑ j ∈ s, x j * x j :=
  Finset.sum_nonneg fun j _ => mul_self_nonneg (x j)

/-- The divisor of the normalisation is positive. -/
theorem norm_floor_pos {ι : Type*} (s : Finset ι) (x : ι → ℝ) {e : ℝ} (he : 0 < e) :
    0 < max (Real.sqrt (∑ j ∈ s, x j * x j)) e := lt_max_of_lt_right he

/-- L2 normalisation of a finite row, over a finite index set, with a positive floor, is the real
    normalisation. -/
theorem l2norm_coe {ι : Type*} (s : Finset ι) (x : ι → ℝ) {e : ℝ} (he : 0 < e) (v : ℝ) :
    Ideal.div (v : EReal) (max (Ideal.sqrt (∑ j ∈ s, (x j : EReal) * (x j : EReal))) (e : EReal))
      = ((v / max (Real.sqrt (∑ j ∈ s, x j * x j)) e : ℝ) : EReal) := by
  rw [dot_coe, coe_div_max_sqrt v (sum_sq_nonneg s x) he]

/-- The same with the sum of squares added to a zero accumulator. -/
theorem l2norm_zero_add_coe {ι : Type*} (s : Finset ι) (x : ι → ℝ) {e : ℝ} (he : 0 < e) (v : ℝ) :
    Ideal.div (v : EReal)
        (max (Ideal.sqrt (0 + ∑ j ∈ s, (x j : EReal) * (x j : EReal))) (e : EReal))
      = ((v / max (Real.sqrt (∑ j ∈ s, x j * x j)) e : ℝ) : EReal) := by
  rw [zero_add, l2norm_coe s x he]

/-- L2 normalisation over a whole finite index type. -/
theorem l2norm_univ_coe {ι : Type*} [Fintype ι] (x : ι → ℝ) {e : ℝ} (he : 0 < e) (v : ℝ) :
    Ideal.div (v : EReal) (max (Ideal.sqrt (∑ j, (x j : EReal) * (x j : EReal))) (e : EReal))
      = ((v / max (Real.sqrt (∑ j, x j * x j)) e : ℝ) : EReal) :=
  l2norm_coe Finset.univ x he v

/-- L2 normalisation over a whole finite index type, the sum added to a zero accumulator. -/
theorem l2norm_univ_zero_add_coe {ι : Type*} [Fintype ι] (x : ι → ℝ) {e : ℝ} (he : 0 < e)
    (v : ℝ) :
    Ideal.div (v : EReal) (max (Ideal.sqrt (0 + ∑ j, (x j : EReal) * (x j : EReal))) (e : EReal))
      = ((v / max (Real.sqrt (∑ j, x j * x j)) e : ℝ) : EReal) :=
  l2norm_zero_add_coe Finset.univ x he v

/-! ### W4. Indicators -/

/-- A 0/1 indicator over the extended reals is the coercion of the real indicator. -/
theorem ite_coe (p : Prop) [Decidable p] :
    (if p then (1 : EReal) else 0) = (((if p then (1 : ℝ) else 0) : ℝ) : EReal) := by
  split <;> simp

/-- A real 0/1 indicator is nonnegative. -/
theorem ite_nonneg (p : Prop) [Decidable p] : 0 ≤ (if p then (1 : ℝ) else 0) := by
  split <;> norm_num

/-- A one-bit word is zero or one. -/
theorem bit_cases (b : BitVec 1) : b = 0#1 ∨ b = 1#1 := by
  have := b.isLt
  rcases Nat.lt_or_ge b.toNat 1 with h0 | h1
  · left; apply BitVec.eq_of_toNat_eq; simp; omega
  · right; apply BitVec.eq_of_toNat_eq; simp; omega

/-- A one-bit word read as an unsigned number is the real indicator of the bit. -/
theorem toNat_bit (b : BitVec 1) : ((b.toNat : ℕ) : ℝ) = if b = 1#1 then (1 : ℝ) else 0 := by
  rcases bit_cases b with rfl | rfl <;> simp

/-- A one-bit word widened with zeros to 32 bits and read as a signed number is the real indicator
    of the bit. -/
theorem toInt_setWidth_bit (b : BitVec 1) :
    (((b.setWidth 32).toInt : ℤ) : ℝ) = if b = 1#1 then (1 : ℝ) else 0 := by
  rcases bit_cases b with rfl | rfl <;> simp

/-- Both readings of a one-bit word agree. -/
theorem toInt_setWidth_bit_eq_toNat (b : BitVec 1) :
    (((b.setWidth 32).toInt : ℤ) : ℝ) = ((b.toNat : ℕ) : ℝ) := by
  rw [toInt_setWidth_bit, toNat_bit]

/-- The word of a truth value is the set bit exactly when the value is true. -/
theorem ofBool_eq_one (c : Bool) : BitVec.ofBool c = 1#1 ↔ c = true := by
  cases c <;> simp

/-- The word of a truth value read as an unsigned number is the real indicator of the value. -/
theorem toNat_ofBool (c : Bool) :
    (((BitVec.ofBool c).toNat : ℕ) : ℝ) = if c = true then (1 : ℝ) else 0 := by
  cases c <;> simp

/-- The word of a truth value widened to 32 bits and read as a signed number is the real indicator
    of the value. -/
theorem toInt_setWidth_ofBool (c : Bool) :
    ((((BitVec.ofBool c).setWidth 32).toInt : ℤ) : ℝ) = if c = true then (1 : ℝ) else 0 := by
  cases c <;> simp

/-- A one-bit word read as an unsigned number is a nonnegative real. -/
theorem toNat_bit_nonneg (b : BitVec 1) : (0 : ℝ) ≤ ((b.toNat : ℕ) : ℝ) := Nat.cast_nonneg _

/-- A sum of real indicators counts the indices where the predicate holds. -/
theorem sum_ite_eq_card {ι : Type*} (s : Finset ι) (p : ι → Prop) [DecidablePred p] :
    ∑ k ∈ s, (if p k then (1 : ℝ) else 0) = (((s.filter p).card : ℕ) : ℝ) :=
  Finset.sum_boole p s

/-- A sum of extended-real indicators is the coercion of that count. -/
theorem sum_ite_coe {ι : Type*} (s : Finset ι) (p : ι → Prop) [DecidablePred p] :
    ∑ k ∈ s, (if p k then (1 : EReal) else 0) = (((((s.filter p).card : ℕ) : ℝ)) : EReal) := by
  rw [← sum_ite_eq_card, ← coe_sum]
  exact Finset.sum_congr rfl fun k _ => ite_coe (p k)

/-- A sum of nonnegative reals with a positive term is positive. -/
theorem sum_pos_of_mem {ι : Type*} {s : Finset ι} {w : ι → ℝ} (h0 : ∀ k ∈ s, 0 ≤ w k) {k₀ : ι}
    (hk : k₀ ∈ s) (h1 : 0 < w k₀) : 0 < ∑ k ∈ s, w k :=
  lt_of_lt_of_le h1 (Finset.single_le_sum h0 hk)

/-- A sum of nonnegative reals with a positive term is not zero. -/
theorem sum_ne_zero_of_mem {ι : Type*} {s : Finset ι} {w : ι → ℝ} (h0 : ∀ k ∈ s, 0 ≤ w k)
    {k₀ : ι} (hk : k₀ ∈ s) (h1 : 0 < w k₀) : ∑ k ∈ s, w k ≠ 0 :=
  (sum_pos_of_mem h0 hk h1).ne'

/-- A sum of indicators over a set that holds an index where the predicate is true is not zero. -/
theorem sum_ite_ne_zero {ι : Type*} {s : Finset ι} (p : ι → Prop) [DecidablePred p] {k₀ : ι}
    (hk : k₀ ∈ s) (hp : p k₀) : ∑ k ∈ s, (if p k then (1 : ℝ) else 0) ≠ 0 :=
  sum_ne_zero_of_mem (fun k _ => ite_nonneg (p k)) hk (by rw [if_pos hp]; exact one_pos)

/-- A sum of one-bit words read as unsigned numbers, one of which is set, is not zero. -/
theorem sum_toNat_bit_ne_zero {ι : Type*} {s : Finset ι} (b : ι → BitVec 1) {k₀ : ι}
    (hk : k₀ ∈ s) (hb : b k₀ = 1#1) : ∑ k ∈ s, (((b k).toNat : ℕ) : ℝ) ≠ 0 :=
  sum_ne_zero_of_mem (fun k _ => Nat.cast_nonneg _) hk (by rw [hb]; norm_num)

end Cert.LibWords

end
-- ==== Proof.Spec.lean ====
/-
  The real-valued data both programs compute from finite inputs. Rows of the anchors and of the in-batch assets, and
  columns of the queue, are L2-normalised with the floor `eps` under the norm; `P1` and `P2` are the anchors' dot
  products with the in-batch assets and with the queue columns; a row of scores is those divided by the temperature,
  the in-batch columns first and the queue columns after them; a row of match weights is 1 where the column's
  organisation index is the row's.
-/
import proofs.«405218_j60748017434937_2_alg».proof.Proof.LibWords

noncomputable section

namespace Cert.Spec

open Cert.LibWords

variable (X0 X2 : Fin 1024 → Fin 128 → ℝ) (Q : Fin 128 → Fin 65536 → ℝ)
variable (bi : Fin 1024 → BitVec 32) (qi : Fin 65536 → BitVec 32)

/-- A row of `X` divided by its Euclidean norm, the norm floored at `eps`. -/
def nrmRow (X : Fin 1024 → Fin 128 → ℝ) (b : Fin 1024) (e : Fin 128) : ℝ :=
  X b e / max (Real.sqrt (∑ e' : Fin 128, X b e' * X b e')) eps

/-- A column of the queue divided by its Euclidean norm, the norm floored at `eps`. -/
def nrmCol (e : Fin 128) (j : Fin 65536) : ℝ :=
  Q e j / max (Real.sqrt (∑ e' : Fin 128, Q e' j * Q e' j)) eps

/-- Anchor `b` against in-batch asset `j`. -/
def P1 (b j : Fin 1024) : ℝ := ∑ e : Fin 128, nrmRow X0 b e * nrmRow X2 j e
/-- Anchor `b` against queue column `j`. -/
def P2 (b : Fin 1024) (j : Fin 65536) : ℝ := ∑ e : Fin 128, nrmRow X0 b e * nrmCol Q e j

/-- The scores of row `b`: in-batch columns, then queue columns, each divided by the temperature. -/
def x1 (b j : Fin 1024) : ℝ := P1 X0 X2 b j / temp
def xq (b : Fin 1024) (j : Fin 65536) : ℝ := P2 X0 Q b j / temp
def xrow (b : Fin 1024) (k : Fin 66560) : ℝ :=
  if h : k.val < 1024 then x1 X0 X2 b ⟨k.val, h⟩ else xq X0 Q b ⟨k.val - 1024, by have := k.isLt; omega⟩

/-- The match weights of row `b`. -/
def w1 (b j : Fin 1024) : ℝ := if bi b = bi j then 1 else 0
def wq (b : Fin 1024) (j : Fin 65536) : ℝ := if bi b = qi j then 1 else 0
def wrow (b : Fin 1024) (k : Fin 66560) : ℝ :=
  if h : k.val < 1024 then w1 bi b ⟨k.val, h⟩ else wq bi qi b ⟨k.val - 1024, by have := k.isLt; omega⟩

/-- The kernel's score of anchor `b` against queue column `j`: the anchors are divided by the temperature before the
    dot product; over the reals that is the quotient of the dot product. -/
theorem scaled_dot (b : Fin 1024) (j : Fin 65536) :
    ∑ e : Fin 128, (nrmRow X0 b e / temp) * nrmCol Q e j = xq X0 Q b j := by
  unfold xq P2
  rw [Finset.sum_div]
  exact Finset.sum_congr rfl fun e _ => by ring

/-- A row always matches itself: the in-batch weights of row `b` do not sum to zero. -/
theorem w1_self (b : Fin 1024) : w1 bi b b = 1 := by unfold w1; simp

end Cert.Spec

end
-- ==== Proof.KI.HeadVal.lean ====
/-
  What the host operations before the streaming region leave in the buffers the region and the tail read. Each is a
  composed term of the argument arrays: the row-normalised anchors, their [1024,1024] products, the products over the
  temperature, and per row the maximum, the sum of exponentials less the maximum, the sum over the columns whose label
  equals the row's, and the count of such columns; the anchors over the temperature in the narrower format; and the
  labels recast as a column and as a row. Then every term is read at an index at the ideal instance, where a float is
  an extended real: a sum along a row is the sum over the row's columns, the maximum along a row is the fold of `max`
  from −∞ (the row's supremum, attained), a broadcast reads its operand at the kept coordinates and a recast at the
  same row-major position. Over real products and a nonzero real temperature each row quantity is the coercion of the
  real expression. Last, over real anchors the normalisation is the real one (the floor under the norm is positive),
  the products are the real dot products of the normalised rows, and so each buffer is the coercion of the shared real
  quantity.
-/
import proofs.«405218_j60748017434937_2_alg».proof.Proof.KI.Base
import proofs.«405218_j60748017434937_2_alg».proof.Proof.LibOnlineLse
import proofs.«405218_j60748017434937_2_alg».proof.Proof.LibWords
import proofs.«405218_j60748017434937_2_alg».proof.Proof.Spec
import Idealize.ShloMosaic.Lib.StableHlo.Run
import Idealize.ShloMosaic.Lib.ValueIdx
import Idealize.ShloMosaic.Lib.ValueLayout
import Idealize.ShloMosaic.Lib.Pipeline.Value
import Idealize.ShloMosaic.PureOps.Ideal.Laws
import Mathlib.Data.Finset.Fold
import Mathlib.Data.Finset.Lattice.Fold

set_option maxRecDepth 16384

noncomputable section

namespace Cert.KernelIdeal.HeadVal

open Cert.KernelIdeal Cert.KernelIdeal.Gen Cert.KernelIdeal.Hand
open Idealize.ShloMosaic Idealize.ShloMosaic.TcCoe Idealize.ShloMosaic.StableHlo Idealize.ShloMosaic.ValueIdx
open Idealize.SL.Sem

/-! ## The prefix as composed terms of the argument arrays -/

section Terms

variable {F : FTy → Type} [FloatOps F]

/-- A [1024,128] array with every row divided by its Euclidean norm, the norm floored at the word 0x2B8CBCCC. -/
def nrm (x : FVec F S1024x128 .f32) : FVec F S1024x128 .f32 :=
  Host.divf x
    (broadcastInDim S1024x128 ![0, 1] bcast_S1024x1_S1024x128_0_1
      (maximumf
        (Host.sqrt (broadcastInDim S1024x1 ![0] bcast_S1024_S1024x1_0
          (Host.reduceAdd (mulf x x) (constant S_ .f32 0x00000000#32) reducesTo_S1024x128_S1024_d1 h_S_)))
        (broadcastInDim S1024x1 ![] bcast_S_S1024x1 (constant S_ .f32 0x2B8CBCCC#32))))

/-- The [1024,1024] products of the normalised rows of the first array with those of the second. -/
def P1term (x0 x2 : FVec F S1024x128 .f32) : FVec F S1024x1024 .f32 :=
  Host.dotGeneral dot_S1024x128_S128x1024_S1024x1024_1_0_0_1_n_n none (nrm x0)
    (transpose S128x1024 [1, 0] (nrm x2) transposes_S1024x128_S128x1024_1_0)

/-- A [1024,1024] array divided entrywise by the temperature word 0x3D8F5C29. -/
def Zterm (P : FVec F S1024x1024 .f32) : FVec F S1024x1024 .f32 :=
  Host.divf P (broadcastInDim S1024x1024 ![] bcast_S_S1024x1024 (constant S_ .f32 0x3D8F5C29#32))

/-- The row maxima of the scaled array, as a column. -/
def m0term (P : FVec F S1024x1024 .f32) : FVec F S1024x1 .f32 :=
  broadcastInDim S1024x1 ![0] bcast_S1024_S1024x1_0
    (Host.reduce FloatOps.maximumf (Zterm P) (constant S_ .f32 0xFF800000#32) reducesTo_S1024x1024_S1024_d1 h_S_)

/-- The row sums of the exponentials of the scaled array less its row maximum, as a column. -/
def l0term (P : FVec F S1024x1024 .f32) : FVec F S1024x1 .f32 :=
  broadcastInDim S1024x1 ![0] bcast_S1024_S1024x1_0
    (Host.reduceAdd
      (Host.exp (subf (Zterm P) (broadcastInDim S1024x1024 ![0, 1] bcast_S1024x1_S1024x1024_0_1 (m0term P))))
      (constant S_ .f32 0x00000000#32) reducesTo_S1024x1024_S1024_d1 h_S_)

/-- The [1024,1024] indicator "row's label equals column's label" as floats. -/
def posterm (x4 : IVec S1024 32) : FVec F S1024x1024 .f32 :=
  uitofp .f32
    (cmpi .eq
      (broadcastInDim S1024x1024 ![0, 1] bcast_S1024x1_S1024x1024_0_1 (broadcastInDim S1024x1 ![0] bcast_S1024_S1024x1_0 x4))
      (broadcastInDim S1024x1024 ![0, 1] bcast_S1x1024_S1024x1024_0_1 (broadcastInDim S1x1024 ![1] bcast_S1024_S1x1024_1 x4)))

/-- The row sums of the indicator times the scaled array, as a column. -/
def s0term (P : FVec F S1024x1024 .f32) (x4 : IVec S1024 32) : FVec F S1024x1 .f32 :=
  broadcastInDim S1024x1 ![0] bcast_S1024_S1024x1_0
    (Host.reduceAdd (mulf (posterm x4) (Zterm P)) (constant S_ .f32 0x00000000#32) reducesTo_S1024x1024_S1024_d1 h_S_)

/-- The row sums of the indicator, as a column. -/
def cbterm (x4 : IVec S1024 32) : FVec F S1024x1 .f32 :=
  broadcastInDim S1024x1 ![0] bcast_S1024_S1024x1_0
    (Host.reduceAdd (posterm (F := F) x4) (constant S_ .f32 0x00000000#32) reducesTo_S1024x1024_S1024_d1 h_S_)

/-- A [1024,128] array divided entrywise by the temperature word, in the narrower float format. -/
def aTterm (a : FVec F S1024x128 .f32) : FVec F S1024x128 .bf16 :=
  truncf .bf16 (Host.divf a (broadcastInDim S1024x128 ![] bcast_S_S1024x128 (constant S_ .f32 0x3D8F5C29#32))) bitsLt_bf16_f32

/-- The 1024 labels as a column. -/
def biCol (x4 : IVec S1024 32) : IVec S1024x1 32 := shapeCast S1024x1 x4 shapeCasts_S1024_S1024x1
/-- The 65536 labels as a column. -/
def qiCol (x5 : IVec S65536 32) : IVec S65536x1 32 := shapeCast S65536x1 x5 shapeCasts_S65536_S65536x1
/-- The 65536 labels as a row. -/
def qiRow (x5 : IVec S65536 32) : IVec S1x65536 32 := shapeCast S1x65536 x5 shapeCasts_S65536_S1x65536

end Terms

/-! ## What each prefix buffer holds when the region is entered -/

section H1
variable {F : FTy → Type} [FloatOps F]
variable (m : (ℓ : Loc nD τ sig) → Buf (Elt F) ℓ)

/-- The first anchor array as core `c` finds it at launch. -/
abbrev X0 (c : Dev nD) : FVec F S1024x128 .f32 := m ((c : Thread nD τ).loc main_arg0)
/-- The third anchor array. -/
abbrev X2 (c : Dev nD) : FVec F S1024x128 .f32 := m ((c : Thread nD τ).loc main_arg2)
/-- The anchors' labels. -/
abbrev X4 (c : Dev nD) : IVec S1024 32 := m ((c : Thread nD τ).loc main_arg4)
/-- The queue's labels. -/
abbrev X5 (c : Dev nD) : IVec S65536 32 := m ((c : Thread nD τ).loc main_arg5)

/-- The normalised first anchors. -/
theorem V_v7 (c : Dev nD) : (V m c main_v7 : FVec F S1024x128 .f32) = nrm (X0 m c) := by
  show StableHlo.after hostOps0 (fun b => m (c, b)) (Proc.devRef .tc main_v7) = _
  after_results_simp
  rfl

/-- The normalised third anchors. -/
theorem V_v15 (c : Dev nD) : (V m c main_v15 : FVec F S1024x128 .f32) = nrm (X2 m c) := by
  show StableHlo.after hostOps0 (fun b => m (c, b)) (Proc.devRef .tc main_v15) = _
  after_results_simp
  rfl

/-- The anchors' products. -/
theorem V_v17 (c : Dev nD) : (V m c main_v17 : FVec F S1024x1024 .f32) = P1term (X0 m c) (X2 m c) := by
  show StableHlo.after hostOps0 (fun b => m (c, b)) (Proc.devRef .tc main_v17) = _
  after_results_simp
  rfl

/-- The scaled products. -/
theorem V_v19 (c : Dev nD) : (V m c main_v19 : FVec F S1024x1024 .f32) = Zterm (P1term (X0 m c) (X2 m c)) := by
  show StableHlo.after hostOps0 (fun b => m (c, b)) (Proc.devRef .tc main_v19) = _
  after_results_simp
  rfl

/-- Their row maxima. -/
theorem V_v21 (c : Dev nD) : (V m c main_v21 : FVec F S1024x1 .f32) = m0term (P1term (X0 m c) (X2 m c)) := by
  show StableHlo.after hostOps0 (fun b => m (c, b)) (Proc.devRef .tc main_v21) = _
  after_results_simp
  rfl

/-- The rows' sums of exponentials. -/
theorem V_v26 (c : Dev nD) : (V m c main_v26 : FVec F S1024x1 .f32) = l0term (P1term (X0 m c) (X2 m c)) := by
  show StableHlo.after hostOps0 (fun b => m (c, b)) (Proc.devRef .tc main_v26) = _
  after_results_simp
  rfl

/-- The rows' sums over equal labels. -/
theorem V_v35 (c : Dev nD) : (V m c main_v35 : FVec F S1024x1 .f32) = s0term (P1term (X0 m c) (X2 m c)) (X4 m c) := by
  show StableHlo.after hostOps0 (fun b => m (c, b)) (Proc.devRef .tc main_v35) = _
  after_results_simp
  rfl

/-- The rows' counts of equal labels. -/
theorem V_v37 (c : Dev nD) : (V m c main_v37 : FVec F S1024x1 .f32) = cbterm (X4 m c) := by
  show StableHlo.after hostOps0 (fun b => m (c, b)) (Proc.devRef .tc main_v37) = _
  after_results_simp
  rfl

/-- The scaled anchors: the array of the region's window 3. -/
theorem V_v40 (c : Dev nD) : (V m c main_v40 : FVec F S1024x128 .bf16) = aTterm (nrm (X0 m c)) := by
  show StableHlo.after hostOps0 (fun b => m (c, b)) (Proc.devRef .tc main_v40) = _
  after_results_simp
  rfl

/-- The anchors' labels as a column: the array of the region's window 4. -/
theorem V_v41 (c : Dev nD) : (V m c main_v41 : IVec S1024x1 32) = biCol (X4 m c) := by
  show StableHlo.after hostOps0 (fun b => m (c, b)) (Proc.devRef .tc main_v41) = _
  after_results_simp
  rfl

/-- The queue's labels as a column: the array of the region's window 1. -/
theorem V_v42 (c : Dev nD) : (V m c main_v42 : IVec S65536x1 32) = qiCol (X5 m c) := by
  show StableHlo.after hostOps0 (fun b => m (c, b)) (Proc.devRef .tc main_v42) = _
  after_results_simp
  rfl

/-- The queue's labels as a row: the array of the region's window 2. -/
theorem V_v43 (c : Dev nD) : (V m c main_v43 : IVec S1x65536 32) = qiRow (X5 m c) := by
  show StableHlo.after hostOps0 (fun b => m (c, b)) (Proc.devRef .tc main_v43) = _
  after_results_simp
  rfl

end H1

/-! ## The same terms read at an index, at the ideal instance -/

section H2

/-- The temperature: the extended real the word 0x3D8F5C29 denotes. -/
abbrev Tw : EReal := Ideal.ofBits .f32 0x3D8F5C29#32

/-- Entry (b, j) of a [1024,1024] array, divided by the temperature. -/
def z1 (P : FVec Ideal S1024x1024 .f32) (b j : Fin 1024) : EReal := Ideal.div (P (ix2 b j)) Tw

/-- The 0/1 indicator that two labels agree. -/
def eq01 (u v : BitVec 32) : EReal := if u = v then 1 else 0

/-! ### Layout operations of the prefix at an index -/

theorem bcast_vec_col_apply {α : Type} (y : S1024.Idx → α) (b : Fin 1024) :
    broadcastInDim S1024x1 ![0] bcast_S1024_S1024x1_0 y (ix2 b (0 : Fin 1)) = y (ix1 b) :=
  broadcastInDim_apply _ bcast_S1024_S1024x1_0 y _ (ix1 b) (fun a => match a with
    | ⟨0, _⟩ => by show b.val = if (1024 : Nat) = 1 then 0 else b.val; rw [if_neg (by decide)])

theorem bcast_col_apply {α : Type} (y : S1024x1.Idx → α) (b j : Fin 1024) :
    broadcastInDim S1024x1024 ![0, 1] bcast_S1024x1_S1024x1024_0_1 y (ix2 b j) = y (ix2 b (0 : Fin 1)) :=
  broadcastInDim_apply _ bcast_S1024x1_S1024x1024_0_1 y _ (ix2 b (0 : Fin 1)) (fun a => match a with
    | ⟨0, _⟩ => by show b.val = if (1024 : Nat) = 1 then 0 else b.val; rw [if_neg (by decide)]
    | ⟨1, _⟩ => by show 0 = if (1 : Nat) = 1 then 0 else j.val; rw [if_pos rfl])

theorem bcast_vec_row_apply {α : Type} (y : S1024.Idx → α) (j : Fin 1024) :
    broadcastInDim S1x1024 ![1] bcast_S1024_S1x1024_1 y (ix2 (0 : Fin 1) j) = y (ix1 j) :=
  broadcastInDim_apply _ bcast_S1024_S1x1024_1 y _ (ix1 j) (fun a => match a with
    | ⟨0, _⟩ => by show j.val = if (1024 : Nat) = 1 then 0 else j.val; rw [if_neg (by decide)])

theorem bcast_row_apply {α : Type} (y : S1x1024.Idx → α) (b j : Fin 1024) :
    broadcastInDim S1024x1024 ![0, 1] bcast_S1x1024_S1024x1024_0_1 y (ix2 b j) = y (ix2 (0 : Fin 1) j) :=
  broadcastInDim_apply _ bcast_S1x1024_S1024x1024_0_1 y _ (ix2 (0 : Fin 1) j) (fun a => match a with
    | ⟨0, _⟩ => by show 0 = if (1 : Nat) = 1 then 0 else b.val; rw [if_pos rfl]
    | ⟨1, _⟩ => by show j.val = if (1024 : Nat) = 1 then 0 else j.val; rw [if_neg (by decide)])

/-- The reduced index `b` with column `k` put back is (b, k). -/
theorem lift_row (h : S1024x1024.Reduces [1] S1024) (b : Fin 1024) (k : Fin (S1024x1024.size 1)) :
    h.lift (ix1 b) k = ix2 b (⟨k.val, k.isLt⟩ : Fin 1024) := by
  funext c; apply Fin.ext
  fin_cases c <;> rfl

theorem reduces_row : S1024x1024.Reduces [1] S1024 := by decide

/-- A float sum along the rows of a [1024,1024] array from the zero word: the sum of the row. -/
theorem reduceAdd_row_apply (x : FVec Ideal S1024x1024 .f32) (b : Fin 1024) :
    Host.reduceAdd x (constant (F := Ideal) S_ .f32 0x00000000#32) reducesTo_S1024x1024_S1024_d1 h_S_ (ix1 b)
      = ∑ j : Fin 1024, x (ix2 b j) := by
  simp only [Host.reduceAdd, Ideal.hostReduceAdd_def]
  rw [Ideal.hostReduceAdd_single reducesTo_S1024x1024_S1024_d1 reduces_row]
  have h0 : (constant (F := Ideal) S_ .f32 0x00000000#32) (Shape.Idx.first h_S_) = 0 := by
    show Ideal.ofBits .f32 0x00000000#32 = 0
    simp [Ideal.ofBits, Ideal.ieee]
  rw [h0, zero_add]
  exact Finset.sum_congr rfl fun k _ => congrArg x (lift_row reduces_row b k)

/-- A maximum along the rows of a [1024,1024] array from the word of −∞: the fold of `max` over the row. -/
theorem reduceMax_row_apply (x : FVec Ideal S1024x1024 .f32) (b : Fin 1024) :
    Host.reduce FloatOps.maximumf x (constant (F := Ideal) S_ .f32 0xFF800000#32) reducesTo_S1024x1024_S1024_d1 h_S_ (ix1 b)
      = (Finset.univ : Finset (Fin 1024)).fold max (Ideal.ofBits .f32 0xFF800000#32) (fun j => x (ix2 b j)) := by
  rw [Host.reduce_eq_fold_single FloatOps.maximumf x _ reducesTo_S1024x1024_S1024_d1 reduces_row h_S_]
  have hf : (x ∘ reduces_row.lift (ix1 b)) = fun k : Fin 1024 => x (ix2 b k) :=
    funext fun k => congrArg x (lift_row reduces_row b k)
  exact congrArg (fun f => Finset.fold max (Ideal.ofBits .f32 0xFF800000#32) f (Finset.univ : Finset (Fin 1024))) hf

/-! ### The prefix's buffers at an index -/

variable (P : FVec Ideal S1024x1024 .f32)

theorem Zterm_apply (b j : Fin 1024) : Zterm P (ix2 b j) = z1 P b j := rfl

/-- The row maximum, in the form the reduce's law gives. -/
theorem m0term_apply (b : Fin 1024) :
    m0term P (ix2 b (0 : Fin 1))
      = (Finset.univ : Finset (Fin 1024)).fold max (Ideal.ofBits .f32 0xFF800000#32) (fun j => z1 P b j) := by
  unfold m0term
  rw [bcast_vec_col_apply, reduceMax_row_apply]
  rfl

theorem l0term_apply (b : Fin 1024) :
    l0term P (ix2 b (0 : Fin 1)) = ∑ j : Fin 1024, Ideal.exp (z1 P b j - m0term P (ix2 b (0 : Fin 1))) := by
  unfold l0term
  rw [bcast_vec_col_apply, reduceAdd_row_apply]
  refine Finset.sum_congr rfl fun j _ => ?_
  show Ideal.exp (Zterm P (ix2 b j) - broadcastInDim S1024x1024 ![0, 1] bcast_S1024x1_S1024x1024_0_1 (m0term P) (ix2 b j)) = _
  rw [bcast_col_apply, Zterm_apply]

theorem posterm_apply (x4 : IVec S1024 32) (b j : Fin 1024) :
    posterm (F := Ideal) x4 (ix2 b j) = eq01 (x4 (ix1 b)) (x4 (ix1 j)) := by
  unfold posterm
  show FloatOps.uitofp (F := Ideal) .f32 (IntOp.cmpi .eq
      (broadcastInDim S1024x1024 ![0, 1] bcast_S1024x1_S1024x1024_0_1 (broadcastInDim S1024x1 ![0] bcast_S1024_S1024x1_0 x4) (ix2 b j))
      (broadcastInDim S1024x1024 ![0, 1] bcast_S1x1024_S1024x1024_0_1 (broadcastInDim S1x1024 ![1] bcast_S1024_S1x1024_1 x4) (ix2 b j))) = _
  rw [bcast_col_apply, bcast_vec_col_apply, bcast_row_apply, bcast_vec_row_apply]
  unfold eq01
  by_cases h : x4 (ix1 b) = x4 (ix1 j)
  · rw [if_pos h, h]
    show (((IntOp.cmpi .eq (x4 (ix1 j)) (x4 (ix1 j))).toNat : ℝ) : EReal) = 1
    simp [IntOp.cmpi]
  · rw [if_neg h]
    show (((IntOp.cmpi .eq (x4 (ix1 b)) (x4 (ix1 j))).toNat : ℝ) : EReal) = 0
    simp [IntOp.cmpi, h]

theorem s0term_apply (x4 : IVec S1024 32) (b : Fin 1024) :
    s0term P x4 (ix2 b (0 : Fin 1)) = ∑ j : Fin 1024, eq01 (x4 (ix1 b)) (x4 (ix1 j)) * z1 P b j := by
  unfold s0term
  rw [bcast_vec_col_apply, reduceAdd_row_apply]
  refine Finset.sum_congr rfl fun j _ => ?_
  show posterm (F := Ideal) x4 (ix2 b j) * Zterm P (ix2 b j) = _
  rw [posterm_apply, Zterm_apply]

theorem cbterm_apply (x4 : IVec S1024 32) (b : Fin 1024) :
    cbterm (F := Ideal) x4 (ix2 b (0 : Fin 1)) = ∑ j : Fin 1024, eq01 (x4 (ix1 b)) (x4 (ix1 j)) := by
  unfold cbterm
  rw [bcast_vec_col_apply, reduceAdd_row_apply]
  exact Finset.sum_congr rfl fun j _ => posterm_apply x4 b j

theorem aTterm_apply (a : FVec Ideal S1024x128 .f32) (b : Fin 1024) (e : Fin 128) :
    aTterm a (ix2 b e) = Ideal.div (a (ix2 b e)) Tw := rfl

theorem biCol_apply (x4 : IVec S1024 32) (b : Fin 1024) : biCol x4 (ix2 b (0 : Fin 1)) = x4 (ix1 b) :=
  shapeCast_apply x4 shapeCasts_S1024_S1024x1 _ (ix1 b) (by
    rw [Shape.rowMajor_val_one, Shape.rowMajor_val_two]; show b.val = b.val * 1 + 0; omega)

theorem qiCol_apply (x5 : IVec S65536 32) (j : Fin 65536) : qiCol x5 (ix2 j (0 : Fin 1)) = x5 (ix1 j) :=
  shapeCast_apply x5 shapeCasts_S65536_S65536x1 _ (ix1 j) (by
    rw [Shape.rowMajor_val_one, Shape.rowMajor_val_two]; show j.val = j.val * 1 + 0; omega)

theorem qiRow_apply (x5 : IVec S65536 32) (j : Fin 65536) : qiRow x5 (ix2 (0 : Fin 1) j) = x5 (ix1 j) :=
  shapeCast_apply x5 shapeCasts_S65536_S1x65536 _ (ix1 j) (by
    rw [Shape.rowMajor_val_one, Shape.rowMajor_val_two]; show j.val = 0 * 65536 + j.val; omega)

end H2

/-! ### The row maximum as a supremum: it bounds the row and is attained in it -/

section RowMax

/-- The word 0xFF800000 denotes −∞. -/
theorem negInf_word : Ideal.ofBits .f32 0xFF800000#32 = (⊥ : EReal) := by simp [Ideal.ofBits, Ideal.ieee]

/-- The 1024 columns are not none. -/
theorem cols_nonempty : (Finset.univ : Finset (Fin 1024)).Nonempty := ⟨⟨0, by decide⟩, Finset.mem_univ _⟩

/-- Over a nonempty range the fold of `max` from −∞ is the range's supremum. -/
theorem fold_max_bot_eq_sup' (f : Fin 1024 → EReal) :
    (Finset.univ : Finset (Fin 1024)).fold max (⊥ : EReal) f = Finset.univ.sup' cols_nonempty f := by
  apply le_antisymm
  · exact (Finset.fold_max_le _).2 ⟨bot_le, fun x hx => Finset.le_sup' f hx⟩
  · exact Finset.sup'_le _ _ fun x hx => (Finset.le_fold_max _).2 (Or.inr ⟨x, hx, le_rfl⟩)

variable (P : FVec Ideal S1024x1024 .f32)

theorem m0term_eq_sup' (b : Fin 1024) :
    m0term P (ix2 b (0 : Fin 1)) = Finset.univ.sup' cols_nonempty (fun j => z1 P b j) := by
  rw [m0term_apply, negInf_word, fold_max_bot_eq_sup']

/-- Every scaled entry of row `b` is at most the row's maximum … -/
theorem z1_le_m0term (b j : Fin 1024) : z1 P b j ≤ m0term P (ix2 b (0 : Fin 1)) := by
  rw [m0term_eq_sup']
  exact Finset.le_sup' (fun j => z1 P b j) (Finset.mem_univ j)

/-- … and the maximum is one of them. -/
theorem m0term_attained (b : Fin 1024) : ∃ j : Fin 1024, m0term P (ix2 b (0 : Fin 1)) = z1 P b j := by
  rw [m0term_eq_sup']
  obtain ⟨i, _, hi⟩ := Finset.exists_mem_eq_sup' cols_nonempty (fun j => z1 P b j)
  exact ⟨i, hi⟩

end RowMax

/-! ## The same buffers over real data

When every product is a real number, and the temperature word denotes a nonzero real `T`, each of the five row
quantities is the coercion of the corresponding real expression. -/

section Finite

open Cert.LibOnlineLse

/-- The real row maximum of the products over `T`. -/
def m0r (Pr : Fin 1024 → Fin 1024 → ℝ) (T : ℝ) (b : Fin 1024) : ℝ :=
  Finset.univ.sup' cols_nonempty (fun j => Pr b j / T)

/-- The real 0/1 indicator that row `b`'s label is column `j`'s. -/
def w01 (x4 : IVec S1024 32) (b j : Fin 1024) : ℝ := if x4 (ix1 b) = x4 (ix1 j) then 1 else 0

theorem le_m0r (Pr : Fin 1024 → Fin 1024 → ℝ) (T : ℝ) (b j : Fin 1024) : Pr b j / T ≤ m0r Pr T b :=
  Finset.le_sup' (fun j => Pr b j / T) (Finset.mem_univ j)

theorem m0r_attained (Pr : Fin 1024 → Fin 1024 → ℝ) (T : ℝ) (b : Fin 1024) : ∃ j : Fin 1024, m0r Pr T b = Pr b j / T := by
  obtain ⟨i, _, hi⟩ := Finset.exists_mem_eq_sup' cols_nonempty (fun j => Pr b j / T)
  exact ⟨i, hi⟩

theorem eq01_coe (u v : BitVec 32) : eq01 u v = (((if u = v then (1 : ℝ) else 0) : ℝ) : EReal) := by
  unfold eq01; split <;> simp

variable {P : FVec Ideal S1024x1024 .f32} {Pr : Fin 1024 → Fin 1024 → ℝ} {T : ℝ}

theorem z1_coe (hT : T ≠ 0) (hTw : Tw = (T : EReal)) (hP : ∀ b j, P (ix2 b j) = ((Pr b j : ℝ) : EReal)) (b j : Fin 1024) :
    z1 P b j = ((Pr b j / T : ℝ) : EReal) := by
  unfold z1
  rw [hP, hTw, coe_div _ hT]

theorem m0term_coe (hT : T ≠ 0) (hTw : Tw = (T : EReal)) (hP : ∀ b j, P (ix2 b j) = ((Pr b j : ℝ) : EReal)) (b : Fin 1024) :
    m0term P (ix2 b (0 : Fin 1)) = ((m0r Pr T b : ℝ) : EReal) := by
  obtain ⟨j0, hj0⟩ := m0term_attained P b
  obtain ⟨j1, hj1⟩ := m0r_attained Pr T b
  have h1 : z1 P b j1 ≤ m0term P (ix2 b (0 : Fin 1)) := z1_le_m0term P b j1
  rw [hj0, z1_coe hT hTw hP, z1_coe hT hTw hP, EReal.coe_le_coe_iff] at h1
  rw [hj0, z1_coe hT hTw hP]
  exact congrArg _ (le_antisymm (le_m0r Pr T b j0) (hj1 ▸ h1))

theorem l0term_coe (hT : T ≠ 0) (hTw : Tw = (T : EReal)) (hP : ∀ b j, P (ix2 b j) = ((Pr b j : ℝ) : EReal)) (b : Fin 1024) :
    l0term P (ix2 b (0 : Fin 1)) = ((∑ j : Fin 1024, Real.exp (Pr b j / T - m0r Pr T b) : ℝ) : EReal) := by
  rw [l0term_apply, m0term_coe hT hTw hP, ← sum_exp_coe]
  exact Finset.sum_congr rfl fun j _ => by rw [z1_coe hT hTw hP]

theorem s0term_coe (hT : T ≠ 0) (hTw : Tw = (T : EReal)) (hP : ∀ b j, P (ix2 b j) = ((Pr b j : ℝ) : EReal)) (x4 : IVec S1024 32)
    (b : Fin 1024) :
    s0term P x4 (ix2 b (0 : Fin 1)) = ((∑ j : Fin 1024, w01 x4 b j * (Pr b j / T) : ℝ) : EReal) := by
  rw [s0term_apply, ← coe_sum]
  exact Finset.sum_congr rfl fun j _ => by rw [eq01_coe, z1_coe hT hTw hP, coe_mul]; rfl

theorem cbterm_coe (x4 : IVec S1024 32) (b : Fin 1024) :
    cbterm (F := Ideal) x4 (ix2 b (0 : Fin 1)) = ((∑ j : Fin 1024, w01 x4 b j : ℝ) : EReal) := by
  rw [cbterm_apply, ← coe_sum]
  exact Finset.sum_congr rfl fun j _ => eq01_coe _ _

theorem aTterm_coe (hT : T ≠ 0) (hTw : Tw = (T : EReal)) {a : FVec Ideal S1024x128 .f32} {ar : Fin 1024 → Fin 128 → ℝ}
    (ha : ∀ b e, a (ix2 b e) = ((ar b e : ℝ) : EReal)) (b : Fin 1024) (e : Fin 128) :
    aTterm a (ix2 b e) = ((ar b e / T : ℝ) : EReal) := by
  rw [aTterm_apply, ha, hTw, coe_div _ hT]

end Finite
/-! ## At the temperature the word denotes -/

section AtTemp

open Cert.LibWords

variable {P : FVec Ideal S1024x1024 .f32} {Pr : Fin 1024 → Fin 1024 → ℝ}

theorem Tw_eq : Tw = ((temp : ℝ) : EReal) := ofBits_temp

theorem z1_temp (hP : ∀ b j, P (ix2 b j) = ((Pr b j : ℝ) : EReal)) (b j : Fin 1024) :
    z1 P b j = ((Pr b j / temp : ℝ) : EReal) := z1_coe temp_ne_zero Tw_eq hP b j

theorem m0term_temp (hP : ∀ b j, P (ix2 b j) = ((Pr b j : ℝ) : EReal)) (b : Fin 1024) :
    m0term P (ix2 b (0 : Fin 1)) = ((m0r Pr temp b : ℝ) : EReal) := m0term_coe temp_ne_zero Tw_eq hP b

theorem l0term_temp (hP : ∀ b j, P (ix2 b j) = ((Pr b j : ℝ) : EReal)) (b : Fin 1024) :
    l0term P (ix2 b (0 : Fin 1)) = ((∑ j : Fin 1024, Real.exp (Pr b j / temp - m0r Pr temp b) : ℝ) : EReal) :=
  l0term_coe temp_ne_zero Tw_eq hP b

theorem s0term_temp (hP : ∀ b j, P (ix2 b j) = ((Pr b j : ℝ) : EReal)) (x4 : IVec S1024 32) (b : Fin 1024) :
    s0term P x4 (ix2 b (0 : Fin 1)) = ((∑ j : Fin 1024, w01 x4 b j * (Pr b j / temp) : ℝ) : EReal) :=
  s0term_coe temp_ne_zero Tw_eq hP x4 b

theorem aTterm_temp {a : FVec Ideal S1024x128 .f32} {ar : Fin 1024 → Fin 128 → ℝ}
    (ha : ∀ b e, a (ix2 b e) = ((ar b e : ℝ) : EReal)) (b : Fin 1024) (e : Fin 128) :
    aTterm a (ix2 b e) = ((ar b e / temp : ℝ) : EReal) := aTterm_coe temp_ne_zero Tw_eq ha b e

end AtTemp

/-! ## The normalised anchors and their products over real data -/

section RealData

open Cert.LibOnlineLse Cert.LibWords

/-! ### Layout operations and reductions of the [1024,128] prefix at an index -/

theorem bcast_col128_apply {α : Type} (y : S1024x1.Idx → α) (b : Fin 1024) (e : Fin 128) :
    broadcastInDim S1024x128 ![0, 1] bcast_S1024x1_S1024x128_0_1 y (ix2 b e) = y (ix2 b (0 : Fin 1)) :=
  broadcastInDim_apply _ bcast_S1024x1_S1024x128_0_1 y _ (ix2 b (0 : Fin 1)) (fun a => match a with
    | ⟨0, _⟩ => by show b.val = if (1024 : Nat) = 1 then 0 else b.val; rw [if_neg (by decide)]
    | ⟨1, _⟩ => by show 0 = if (1 : Nat) = 1 then 0 else e.val; rw [if_pos rfl])

theorem reduces_row128 : S1024x128.Reduces [1] S1024 := by decide

/-- The reduced index `b` with coordinate `k` put back is (b, k). -/
theorem lift_row128 (h : S1024x128.Reduces [1] S1024) (b : Fin 1024) (k : Fin (S1024x128.size 1)) :
    h.lift (ix1 b) k = ix2 b (⟨k.val, k.isLt⟩ : Fin 128) := by
  funext c; apply Fin.ext
  fin_cases c <;> rfl

/-- A float sum along the rows of a [1024,128] array from the zero word: the sum of the row. -/
theorem reduceAdd_row128_apply (x : FVec Ideal S1024x128 .f32) (b : Fin 1024) :
    Host.reduceAdd x (constant (F := Ideal) S_ .f32 0x00000000#32) reducesTo_S1024x128_S1024_d1 h_S_ (ix1 b)
      = ∑ e : Fin 128, x (ix2 b e) := by
  simp only [Host.reduceAdd, Ideal.hostReduceAdd_def]
  rw [Ideal.hostReduceAdd_single reducesTo_S1024x128_S1024_d1 reduces_row128]
  have h0 : (constant (F := Ideal) S_ .f32 0x00000000#32) (Shape.Idx.first h_S_) = 0 := by
    show Ideal.ofBits .f32 0x00000000#32 = 0
    exact ofBits_zero
  rw [h0, zero_add]
  exact Finset.sum_congr rfl fun k _ => congrArg x (lift_row128 reduces_row128 b k)

/-- The row normalisation at an index: the entry over the larger of the row's Euclidean norm and the floor word. -/
theorem nrm_apply (x : FVec Ideal S1024x128 .f32) (b : Fin 1024) (e : Fin 128) :
    nrm x (ix2 b e)
      = Ideal.div (x (ix2 b e))
          (max (Ideal.sqrt (∑ e' : Fin 128, x (ix2 b e') * x (ix2 b e'))) (Ideal.ofBits .f32 0x2B8CBCCC#32)) := by
  have e1 : ∀ y : FVec Ideal S1024x128 .f32, Host.divf x y (ix2 b e) = Ideal.div (x (ix2 b e)) (y (ix2 b e)) := fun _ => rfl
  have e2 : ∀ (y : FVec Ideal S1024x1 .f32) (i : S1024x1.Idx), Host.sqrt y i = Ideal.sqrt (y i) := fun _ _ => rfl
  unfold nrm
  rw [e1, bcast_col128_apply, maximumf_apply, e2, bcast_vec_col_apply, reduceAdd_row128_apply]
  rfl

/-- Over real rows the normalisation is the real one. -/
theorem nrm_coe {x : FVec Ideal S1024x128 .f32} {X : Fin 1024 → Fin 128 → ℝ}
    (hx : ∀ b e, x (ix2 b e) = ((X b e : ℝ) : EReal)) (b : Fin 1024) (e : Fin 128) :
    nrm x (ix2 b e) = ((Cert.Spec.nrmRow X b e : ℝ) : EReal) := by
  rw [nrm_apply, ofBits_eps]
  simp only [hx]
  exact l2norm_univ_coe (fun e' => X b e') eps_pos (X b e)

/-! ### The products -/

/-- The product's left operand index at output (b, j) and contraction index `q`: row `b` … -/
theorem dot_lhs0 (i : S1024x1024.Idx) (q : dot_S1024x128_S128x1024_S1024x1024_1_0_0_1_n_n.contr.Idx) : (dot_S1024x128_S128x1024_S1024x1024_1_0_0_1_n_n.lhsIdx i q 0).val = (i 0).val := by
  unfold DotDims.lhsIdx
  rw [dif_neg (show ¬(0 : Fin S1024x128.rank) ∈ dot_S1024x128_S128x1024_S1024x1024_1_0_0_1_n_n.lhsBatch by decide),
    dif_pos (show (0 : Fin S1024x128.rank) ∈ dot_S1024x128_S128x1024_S1024x1024_1_0_0_1_n_n.lhsNonContracting by decide)]
  rfl
/-- … at the contracted coordinate. -/
theorem dot_lhs1 (i : S1024x1024.Idx) (q : dot_S1024x128_S128x1024_S1024x1024_1_0_0_1_n_n.contr.Idx) : (dot_S1024x128_S128x1024_S1024x1024_1_0_0_1_n_n.lhsIdx i q 1).val = (q ⟨0, by decide⟩).val :=
  dot_S1024x128_S128x1024_S1024x1024_1_0_0_1_n_n.lhsIdx_val_of_single rfl i q
/-- The right operand index: the contracted coordinate … -/
theorem dot_rhs0 (i : S1024x1024.Idx) (q : dot_S1024x128_S128x1024_S1024x1024_1_0_0_1_n_n.contr.Idx) : (dot_S1024x128_S128x1024_S1024x1024_1_0_0_1_n_n.rhsIdx i q 0).val = (q ⟨0, by decide⟩).val :=
  dot_S1024x128_S128x1024_S1024x1024_1_0_0_1_n_n.rhsIdx_val_of_single rfl i q
/-- … at column `j`. -/
theorem dot_rhs1 (i : S1024x1024.Idx) (q : dot_S1024x128_S128x1024_S1024x1024_1_0_0_1_n_n.contr.Idx) : (dot_S1024x128_S128x1024_S1024x1024_1_0_0_1_n_n.rhsIdx i q 1).val = (i 1).val := by
  unfold DotDims.rhsIdx
  rw [dif_neg (show ¬(1 : Fin S128x1024.rank) ∈ dot_S1024x128_S128x1024_S1024x1024_1_0_0_1_n_n.rhsBatch by decide),
    dif_pos (show (1 : Fin S128x1024.rank) ∈ dot_S1024x128_S128x1024_S1024x1024_1_0_0_1_n_n.rhsNonContracting by decide)]
  rfl

/-- The host's [1024,128] × [128,1024] product at (b, j): the sum over the contracted coordinate. -/
theorem dot_apply (y0 : FVec Ideal S1024x128 .f32) (y1 : FVec Ideal S128x1024 .f32) (b j : Fin 1024) :
    Host.dotGeneral dot_S1024x128_S128x1024_S1024x1024_1_0_0_1_n_n none y0 y1 (ix2 b j) = ∑ k : Fin 128, y0 (ix2 b k) * y1 (ix2 k j) := by
  simp only [Host.dotGeneral]
  rw [Ideal.dotGeneral_apply, ← Equiv.sum_comp (contrEquiv1 dot_S1024x128_S128x1024_S1024x1024_1_0_0_1_n_n 128 rfl rfl).symm]
  refine Finset.sum_congr rfl fun k _ => ?_
  have hk := contrEquiv1_symm_val dot_S1024x128_S128x1024_S1024x1024_1_0_0_1_n_n 128 rfl rfl k
  have el : dot_S1024x128_S128x1024_S1024x1024_1_0_0_1_n_n.lhsIdx (ix2 b j) ((contrEquiv1 dot_S1024x128_S128x1024_S1024x1024_1_0_0_1_n_n 128 rfl rfl).symm k) = ix2 b k :=
    funext fun a => Fin.ext (by
      match a with
      | ⟨0, _⟩ => exact dot_lhs0 _ _
      | ⟨1, _⟩ => exact (dot_lhs1 _ _).trans hk)
  have er : dot_S1024x128_S128x1024_S1024x1024_1_0_0_1_n_n.rhsIdx (ix2 b j) ((contrEquiv1 dot_S1024x128_S128x1024_S1024x1024_1_0_0_1_n_n 128 rfl rfl).symm k) = ix2 k j :=
    funext fun a => Fin.ext (by
      match a with
      | ⟨0, _⟩ => exact (dot_rhs0 _ _).trans hk
      | ⟨1, _⟩ => exact dot_rhs1 _ _)
  rw [el, er]

/-- The anchors' products at (b, j): the normalised rows' dot product. -/
theorem P1term_apply (x0 x2 : FVec Ideal S1024x128 .f32) (b j : Fin 1024) :
    P1term x0 x2 (ix2 b j) = ∑ k : Fin 128, nrm x0 (ix2 b k) * nrm x2 (ix2 j k) := by
  unfold P1term
  rw [dot_apply]
  exact Finset.sum_congr rfl fun k _ => by
    rw [transpose_ix2_apply (nrm x2) transposes_S1024x128_S128x1024_1_0 k j]

/-- Over real rows the products are the real ones. -/
theorem P1term_coe {x0 x2 : FVec Ideal S1024x128 .f32} {X0r X2r : Fin 1024 → Fin 128 → ℝ}
    (h0 : ∀ b e, x0 (ix2 b e) = ((X0r b e : ℝ) : EReal)) (h2 : ∀ b e, x2 (ix2 b e) = ((X2r b e : ℝ) : EReal))
    (b j : Fin 1024) :
    P1term x0 x2 (ix2 b j) = ((Cert.Spec.P1 X0r X2r b j : ℝ) : EReal) := by
  rw [P1term_apply]
  simp only [nrm_coe h0, nrm_coe h2]
  exact dot_coe Finset.univ (fun k => Cert.Spec.nrmRow X0r b k) (fun k => Cert.Spec.nrmRow X2r j k)

end RealData

/-! ## The buffers themselves, over real anchors -/

section AtBuffers

open Cert.LibWords

/-- The indicator of equal labels is the shared one at the labels read by coordinate. -/
theorem w01_eq_w1 (x4 : IVec S1024 32) (b j : Fin 1024) : w01 x4 b j = Cert.Spec.w1 (fun i => x4 (ix1 i)) b j := rfl

variable (m : (ℓ : Loc nD τ sig) → Buf (Elt Ideal) ℓ) (c : Dev nD)
variable {X0r X2r : Fin 1024 → Fin 128 → ℝ}

theorem V_v7_coe (h0 : ∀ b e, X0 m c (ix2 b e) = ((X0r b e : ℝ) : EReal)) (b : Fin 1024) (e : Fin 128) :
    (V m c main_v7 : FVec Ideal S1024x128 .f32) (ix2 b e) = ((Cert.Spec.nrmRow X0r b e : ℝ) : EReal) :=
  (congrFun (V_v7 m c) (ix2 b e)).trans (nrm_coe h0 b e)

theorem V_v15_coe (h2 : ∀ b e, X2 m c (ix2 b e) = ((X2r b e : ℝ) : EReal)) (b : Fin 1024) (e : Fin 128) :
    (V m c main_v15 : FVec Ideal S1024x128 .f32) (ix2 b e) = ((Cert.Spec.nrmRow X2r b e : ℝ) : EReal) :=
  (congrFun (V_v15 m c) (ix2 b e)).trans (nrm_coe h2 b e)

theorem V_v17_coe (h0 : ∀ b e, X0 m c (ix2 b e) = ((X0r b e : ℝ) : EReal))
    (h2 : ∀ b e, X2 m c (ix2 b e) = ((X2r b e : ℝ) : EReal)) (b j : Fin 1024) :
    (V m c main_v17 : FVec Ideal S1024x1024 .f32) (ix2 b j) = ((Cert.Spec.P1 X0r X2r b j : ℝ) : EReal) :=
  (congrFun (V_v17 m c) (ix2 b j)).trans (P1term_coe h0 h2 b j)

theorem V_v19_coe (h0 : ∀ b e, X0 m c (ix2 b e) = ((X0r b e : ℝ) : EReal))
    (h2 : ∀ b e, X2 m c (ix2 b e) = ((X2r b e : ℝ) : EReal)) (b j : Fin 1024) :
    (V m c main_v19 : FVec Ideal S1024x1024 .f32) (ix2 b j) = ((Cert.Spec.x1 X0r X2r b j : ℝ) : EReal) :=
  (congrFun (V_v19 m c) (ix2 b j)).trans (z1_temp (P1term_coe h0 h2) b j)

theorem V_v21_coe (h0 : ∀ b e, X0 m c (ix2 b e) = ((X0r b e : ℝ) : EReal))
    (h2 : ∀ b e, X2 m c (ix2 b e) = ((X2r b e : ℝ) : EReal)) (b : Fin 1024) :
    (V m c main_v21 : FVec Ideal S1024x1 .f32) (ix2 b (0 : Fin 1)) = ((m0r (Cert.Spec.P1 X0r X2r) temp b : ℝ) : EReal) :=
  (congrFun (V_v21 m c) (ix2 b (0 : Fin 1))).trans (m0term_temp (P1term_coe h0 h2) b)

theorem V_v26_coe (h0 : ∀ b e, X0 m c (ix2 b e) = ((X0r b e : ℝ) : EReal))
    (h2 : ∀ b e, X2 m c (ix2 b e) = ((X2r b e : ℝ) : EReal)) (b : Fin 1024) :
    (V m c main_v26 : FVec Ideal S1024x1 .f32) (ix2 b (0 : Fin 1))
      = ((∑ j : Fin 1024, Real.exp (Cert.Spec.P1 X0r X2r b j / temp - m0r (Cert.Spec.P1 X0r X2r) temp b) : ℝ) : EReal) :=
  (congrFun (V_v26 m c) (ix2 b (0 : Fin 1))).trans (l0term_temp (P1term_coe h0 h2) b)

theorem V_v35_coe (h0 : ∀ b e, X0 m c (ix2 b e) = ((X0r b e : ℝ) : EReal))
    (h2 : ∀ b e, X2 m c (ix2 b e) = ((X2r b e : ℝ) : EReal)) (b : Fin 1024) :
    (V m c main_v35 : FVec Ideal S1024x1 .f32) (ix2 b (0 : Fin 1))
      = ((∑ j : Fin 1024, w01 (X4 m c) b j * (Cert.Spec.P1 X0r X2r b j / temp) : ℝ) : EReal) :=
  (congrFun (V_v35 m c) (ix2 b (0 : Fin 1))).trans (s0term_temp (P1term_coe h0 h2) (X4 m c) b)

theorem V_v37_coe (b : Fin 1024) :
    (V m c main_v37 : FVec Ideal S1024x1 .f32) (ix2 b (0 : Fin 1)) = ((∑ j : Fin 1024, w01 (X4 m c) b j : ℝ) : EReal) :=
  (congrFun (V_v37 m c) (ix2 b (0 : Fin 1))).trans (cbterm_coe (X4 m c) b)

theorem V_v40_coe (h0 : ∀ b e, X0 m c (ix2 b e) = ((X0r b e : ℝ) : EReal)) (b : Fin 1024) (e : Fin 128) :
    (V m c main_v40 : FVec Ideal S1024x128 .bf16) (ix2 b e) = ((Cert.Spec.nrmRow X0r b e / temp : ℝ) : EReal) :=
  (congrFun (V_v40 m c) (ix2 b e)).trans (aTterm_temp (nrm_coe h0) b e)

theorem V_v41_apply (b : Fin 1024) : (V m c main_v41 : IVec S1024x1 32) (ix2 b (0 : Fin 1)) = X4 m c (ix1 b) :=
  (congrFun (V_v41 m c) (ix2 b (0 : Fin 1))).trans (biCol_apply (X4 m c) b)

theorem V_v42_apply (j : Fin 65536) : (V m c main_v42 : IVec S65536x1 32) (ix2 j (0 : Fin 1)) = X5 m c (ix1 j) :=
  (congrFun (V_v42 m c) (ix2 j (0 : Fin 1))).trans (qiCol_apply (X5 m c) j)

theorem V_v43_apply (j : Fin 65536) : (V m c main_v43 : IVec S1x65536 32) (ix2 (0 : Fin 1) j) = X5 m c (ix1 j) :=
  (congrFun (V_v43 m c) (ix2 (0 : Fin 1) j)).trans (qiRow_apply (X5 m c) j)

end AtBuffers

end Cert.KernelIdeal.HeadVal

end
-- ==== Proof.KI.Pieces.lean ====
/-
  What the kernel body leaves, as arithmetic. Per case of the body's two branches the frame states the contents of the
  four accumulators (and, at a last tile, of the four output buffers) as the body's stores read back; here each is the
  payload term of the values the body loaded. A middle tile (case B) updates each accumulator from its contents on
  entry: the per-organisation sums from the queue tile, its organisation column and the sums on entry; the running
  maximum from the tile's scores and the maximum on entry; the running sum of exponentials from the scores, the
  maximum on entry (read twice) and the sum on entry; the matched-score sum from the tile's organisation row, the
  scores, the batch's organisation column broadcast, and the sum on entry. A first tile (case A) is the same with the
  contents on entry replaced by the reset values, which the body stores and then reads back. A last tile (case C)
  updates as a middle tile does and then copies each accumulator, under a leading unit axis, into its output buffer.
-/
import proofs.«405218_j60748017434937_2_alg».proof.Proof.KI.Frame
import Idealize.ShloMosaic.Lib.Pipeline.Value

set_option maxRecDepth 16384

noncomputable section

namespace Cert.KernelIdeal.Hand

open Cert.KernelIdeal Cert.KernelIdeal.Gen
open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)

variable {F : FTy → Type} [FloatOps F]

local notation "𝕄" => MT nD τ sig Unit (Elt F) ℕ (UR sig nD τ) ℕ

variable (m : (ℓ : Loc nD τ sig) → Buf (Elt F) ℓ) (ρ : Dev nD → PrngReg)

/-- The zero offsets of a whole-buffer access, at rank two and three. -/
theorem zero_off2 : (![0, 0] : Fin 2 → Nat) = fun _ => 0 := funext fun a => by fin_cases a <;> rfl
theorem zero_off3 : (![0, 0, 0] : Fin 3 → Nat) = fun _ => 0 := funext fun a => by fin_cases a <;> rfl

/-! ## A first tile -/

/-- A first tile leaves in the per-organisation sums the update of the reset value (zero). -/
theorem sout0_A_0_eq (c : Dev nD) (i : grid0.Coords) (arg2 : Memref sig .tc .vmem S128x512 .f32) (harg2 : arg2.IsWhole) (arg3 : Memref sig .tc .vmem S512x1 .i32) (harg3 : arg3.IsWhole) (arg4 : Memref sig .tc .vmem S1x512 .i32) (harg4 : arg4.IsWhole) (arg5 : Memref sig .tc .vmem S1024x128 .bf16) (harg5 : arg5.IsWhole) (arg6 : Memref sig .tc .vmem S1024x1 .i32) (harg6 : arg6.IsWhole) (arg7 : Memref sig .tc .vmem S1x128x2048 .f32) (harg7 : arg7.IsWhole) (arg8 : Memref sig .tc .vmem S1x1024x1 .f32) (harg8 : arg8.IsWhole) (arg9 : Memref sig .tc .vmem S1x1024x1 .f32) (harg9 : arg9.IsWhole) (arg10 : Memref sig .tc .vmem S1x1024x1 .f32) (harg10 : arg10.IsWhole) (arg11 : Memref sig .tc .vmem S128x2048 .f32) (harg11 : arg11.IsWhole) (arg12 : Memref sig .tc .vmem S1024x1 .f32) (harg12 : arg12.IsWhole) (arg13 : Memref sig .tc .vmem S1024x1 .f32) (harg13 : arg13.IsWhole) (arg14 : Memref sig .tc .vmem S1024x1 .f32) (harg14 : arg14.IsWhole) (hc0 : cond0_0 i) (hc1 : ¬cond0_1 i)
    (x0 : Vec F S128x512 .f32) (x1 : Vec F S512x1 .i32) (x2 : Vec F S1x512 .i32) (x3 : Vec F S1024x128 .bf16) (x4 : Vec F S1024x1 .i32) :
    sout0_A_0 c i arg2 harg2 arg3 harg3 arg4 harg4 arg5 harg5 arg6 harg6 arg7 harg7 arg8 harg8 arg9 harg9 arg10 harg10 arg11 harg11 arg12 harg12 arg13 harg13 arg14 harg14 hc0 hc1 x0 x1 x2 x3 x4 = k0_pay6 x0 x1 k0_pay1 := by
  unfold sout0_A_0
  rw [View.read_writes_eq_canon _ _ _ (scover0_A_0 c i arg2 harg2 arg3 harg3 arg4 harg4 arg5 harg5 arg6 harg6 arg7 harg7 arg8 harg8 arg9 harg9 arg10 harg10 arg11 harg11 arg12 harg12 arg13 harg13 arg14 harg14 hc0 hc1 x0 x1 x2 x3 x4)]
  unfold kernelRun0_A
  dsimp only
  sl_unfold_words
  rw [View.canon_cons_unit_zero (S := S128x2048) zero_off2]
  simp only [View.readAt_eq_ld, harg2.read_unread, harg3.read_unread, harg4.read_unread, harg5.read_unread, harg6.read_unread, harg11.read_unread, harg12.read_unread, harg13.read_unread, harg14.read_unread, View.ld_unit_zero (S := S128x512) zero_off2, View.ld_unit_zero (S := S512x1) zero_off2, View.ld_unit_zero (S := S1x512) zero_off2, View.ld_unit_zero (S := S1024x128) zero_off2, View.ld_unit_zero (S := S1024x1) zero_off2, View.ld_unit_zero (S := S128x2048) zero_off2, View.readCov_unit_zero (S := S128x2048) _ zero_off2, View.readCov_unit_zero (S := S1024x1) _ zero_off2]

/-- A first tile leaves in the running maximum the update of the reset value. -/
theorem sout0_A_1_eq (c : Dev nD) (i : grid0.Coords) (arg2 : Memref sig .tc .vmem S128x512 .f32) (harg2 : arg2.IsWhole) (arg3 : Memref sig .tc .vmem S512x1 .i32) (harg3 : arg3.IsWhole) (arg4 : Memref sig .tc .vmem S1x512 .i32) (harg4 : arg4.IsWhole) (arg5 : Memref sig .tc .vmem S1024x128 .bf16) (harg5 : arg5.IsWhole) (arg6 : Memref sig .tc .vmem S1024x1 .i32) (harg6 : arg6.IsWhole) (arg7 : Memref sig .tc .vmem S1x128x2048 .f32) (harg7 : arg7.IsWhole) (arg8 : Memref sig .tc .vmem S1x1024x1 .f32) (harg8 : arg8.IsWhole) (arg9 : Memref sig .tc .vmem S1x1024x1 .f32) (harg9 : arg9.IsWhole) (arg10 : Memref sig .tc .vmem S1x1024x1 .f32) (harg10 : arg10.IsWhole) (arg11 : Memref sig .tc .vmem S128x2048 .f32) (harg11 : arg11.IsWhole) (arg12 : Memref sig .tc .vmem S1024x1 .f32) (harg12 : arg12.IsWhole) (arg13 : Memref sig .tc .vmem S1024x1 .f32) (harg13 : arg13.IsWhole) (arg14 : Memref sig .tc .vmem S1024x1 .f32) (harg14 : arg14.IsWhole) (hc0 : cond0_0 i) (hc1 : ¬cond0_1 i)
    (x0 : Vec F S128x512 .f32) (x1 : Vec F S512x1 .i32) (x2 : Vec F S1x512 .i32) (x3 : Vec F S1024x128 .bf16) (x4 : Vec F S1024x1 .i32) :
    sout0_A_1 c i arg2 harg2 arg3 harg3 arg4 harg4 arg5 harg5 arg6 harg6 arg7 harg7 arg8 harg8 arg9 harg9 arg10 harg10 arg11 harg11 arg12 harg12 arg13 harg13 arg14 harg14 hc0 hc1 x0 x1 x2 x3 x4 = k0_pay12 (k0_pay7 x0 x3) k0_pay2 := by
  unfold sout0_A_1
  rw [View.read_writes_eq_canon _ _ _ (scover0_A_1 c i arg2 harg2 arg3 harg3 arg4 harg4 arg5 harg5 arg6 harg6 arg7 harg7 arg8 harg8 arg9 harg9 arg10 harg10 arg11 harg11 arg12 harg12 arg13 harg13 arg14 harg14 hc0 hc1 x0 x1 x2 x3 x4)]
  unfold kernelRun0_A
  dsimp only
  sl_unfold_words
  rw [View.canon_cons_unit_zero (S := S1024x1) zero_off2]
  simp only [View.readAt_eq_ld, harg2.read_unread, harg3.read_unread, harg4.read_unread, harg5.read_unread, harg6.read_unread, harg11.read_unread, harg12.read_unread, harg13.read_unread, harg14.read_unread, View.ld_unit_zero (S := S128x512) zero_off2, View.ld_unit_zero (S := S512x1) zero_off2, View.ld_unit_zero (S := S1x512) zero_off2, View.ld_unit_zero (S := S1024x128) zero_off2, View.ld_unit_zero (S := S1024x1) zero_off2, View.ld_unit_zero (S := S128x2048) zero_off2, View.readCov_unit_zero (S := S128x2048) _ zero_off2, View.readCov_unit_zero (S := S1024x1) _ zero_off2]

/-- A first tile leaves in the running sum of exponentials the update of the reset values. -/
theorem sout0_A_2_eq (c : Dev nD) (i : grid0.Coords) (arg2 : Memref sig .tc .vmem S128x512 .f32) (harg2 : arg2.IsWhole) (arg3 : Memref sig .tc .vmem S512x1 .i32) (harg3 : arg3.IsWhole) (arg4 : Memref sig .tc .vmem S1x512 .i32) (harg4 : arg4.IsWhole) (arg5 : Memref sig .tc .vmem S1024x128 .bf16) (harg5 : arg5.IsWhole) (arg6 : Memref sig .tc .vmem S1024x1 .i32) (harg6 : arg6.IsWhole) (arg7 : Memref sig .tc .vmem S1x128x2048 .f32) (harg7 : arg7.IsWhole) (arg8 : Memref sig .tc .vmem S1x1024x1 .f32) (harg8 : arg8.IsWhole) (arg9 : Memref sig .tc .vmem S1x1024x1 .f32) (harg9 : arg9.IsWhole) (arg10 : Memref sig .tc .vmem S1x1024x1 .f32) (harg10 : arg10.IsWhole) (arg11 : Memref sig .tc .vmem S128x2048 .f32) (harg11 : arg11.IsWhole) (arg12 : Memref sig .tc .vmem S1024x1 .f32) (harg12 : arg12.IsWhole) (arg13 : Memref sig .tc .vmem S1024x1 .f32) (harg13 : arg13.IsWhole) (arg14 : Memref sig .tc .vmem S1024x1 .f32) (harg14 : arg14.IsWhole) (hc0 : cond0_0 i) (hc1 : ¬cond0_1 i)
    (x0 : Vec F S128x512 .f32) (x1 : Vec F S512x1 .i32) (x2 : Vec F S1x512 .i32) (x3 : Vec F S1024x128 .bf16) (x4 : Vec F S1024x1 .i32) :
    sout0_A_2 c i arg2 harg2 arg3 harg3 arg4 harg4 arg5 harg5 arg6 harg6 arg7 harg7 arg8 harg8 arg9 harg9 arg10 harg10 arg11 harg11 arg12 harg12 arg13 harg13 arg14 harg14 hc0 hc1 x0 x1 x2 x3 x4 = k0_pay11 (k0_pay7 x0 x3) k0_pay2 k0_pay2 k0_pay3 := by
  unfold sout0_A_2
  rw [View.read_writes_eq_canon _ _ _ (scover0_A_2 c i arg2 harg2 arg3 harg3 arg4 harg4 arg5 harg5 arg6 harg6 arg7 harg7 arg8 harg8 arg9 harg9 arg10 harg10 arg11 harg11 arg12 harg12 arg13 harg13 arg14 harg14 hc0 hc1 x0 x1 x2 x3 x4)]
  unfold kernelRun0_A
  dsimp only
  sl_unfold_words
  rw [View.canon_cons_unit_zero (S := S1024x1) zero_off2]
  simp only [View.readAt_eq_ld, harg2.read_unread, harg3.read_unread, harg4.read_unread, harg5.read_unread, harg6.read_unread, harg11.read_unread, harg12.read_unread, harg13.read_unread, harg14.read_unread, View.ld_unit_zero (S := S128x512) zero_off2, View.ld_unit_zero (S := S512x1) zero_off2, View.ld_unit_zero (S := S1x512) zero_off2, View.ld_unit_zero (S := S1024x128) zero_off2, View.ld_unit_zero (S := S1024x1) zero_off2, View.ld_unit_zero (S := S128x2048) zero_off2, View.readCov_unit_zero (S := S128x2048) _ zero_off2, View.readCov_unit_zero (S := S1024x1) _ zero_off2]

/-- A first tile leaves in the matched-score sum the update of the reset value (zero). -/
theorem sout0_A_3_eq (c : Dev nD) (i : grid0.Coords) (arg2 : Memref sig .tc .vmem S128x512 .f32) (harg2 : arg2.IsWhole) (arg3 : Memref sig .tc .vmem S512x1 .i32) (harg3 : arg3.IsWhole) (arg4 : Memref sig .tc .vmem S1x512 .i32) (harg4 : arg4.IsWhole) (arg5 : Memref sig .tc .vmem S1024x128 .bf16) (harg5 : arg5.IsWhole) (arg6 : Memref sig .tc .vmem S1024x1 .i32) (harg6 : arg6.IsWhole) (arg7 : Memref sig .tc .vmem S1x128x2048 .f32) (harg7 : arg7.IsWhole) (arg8 : Memref sig .tc .vmem S1x1024x1 .f32) (harg8 : arg8.IsWhole) (arg9 : Memref sig .tc .vmem S1x1024x1 .f32) (harg9 : arg9.IsWhole) (arg10 : Memref sig .tc .vmem S1x1024x1 .f32) (harg10 : arg10.IsWhole) (arg11 : Memref sig .tc .vmem S128x2048 .f32) (harg11 : arg11.IsWhole) (arg12 : Memref sig .tc .vmem S1024x1 .f32) (harg12 : arg12.IsWhole) (arg13 : Memref sig .tc .vmem S1024x1 .f32) (harg13 : arg13.IsWhole) (arg14 : Memref sig .tc .vmem S1024x1 .f32) (harg14 : arg14.IsWhole) (hc0 : cond0_0 i) (hc1 : ¬cond0_1 i)
    (x0 : Vec F S128x512 .f32) (x1 : Vec F S512x1 .i32) (x2 : Vec F S1x512 .i32) (x3 : Vec F S1024x128 .bf16) (x4 : Vec F S1024x1 .i32) :
    sout0_A_3 c i arg2 harg2 arg3 harg3 arg4 harg4 arg5 harg5 arg6 harg6 arg7 harg7 arg8 harg8 arg9 harg9 arg10 harg10 arg11 harg11 arg12 harg12 arg13 harg13 arg14 harg14 hc0 hc1 x0 x1 x2 x3 x4 = k0_pay9 (k0_pay5 x2) (k0_pay7 x0 x3) (k0_pay8 x4) k0_pay4 := by
  unfold sout0_A_3
  rw [View.read_writes_eq_canon _ _ _ (scover0_A_3 c i arg2 harg2 arg3 harg3 arg4 harg4 arg5 harg5 arg6 harg6 arg7 harg7 arg8 harg8 arg9 harg9 arg10 harg10 arg11 harg11 arg12 harg12 arg13 harg13 arg14 harg14 hc0 hc1 x0 x1 x2 x3 x4)]
  unfold kernelRun0_A
  dsimp only
  sl_unfold_words
  rw [View.canon_cons_unit_zero (S := S1024x1) zero_off2]
  simp only [View.readAt_eq_ld, harg2.read_unread, harg3.read_unread, harg4.read_unread, harg5.read_unread, harg6.read_unread, harg11.read_unread, harg12.read_unread, harg13.read_unread, harg14.read_unread, View.ld_unit_zero (S := S128x512) zero_off2, View.ld_unit_zero (S := S512x1) zero_off2, View.ld_unit_zero (S := S1x512) zero_off2, View.ld_unit_zero (S := S1024x128) zero_off2, View.ld_unit_zero (S := S1024x1) zero_off2, View.ld_unit_zero (S := S128x2048) zero_off2, View.readCov_unit_zero (S := S128x2048) _ zero_off2, View.readCov_unit_zero (S := S1024x1) _ zero_off2]

/-! ## A middle tile -/

/-- A middle tile leaves in the per-organisation sums their update from the contents on entry. -/
theorem sout0_B_0_eq (c : Dev nD) (i : grid0.Coords) (arg2 : Memref sig .tc .vmem S128x512 .f32) (harg2 : arg2.IsWhole) (arg3 : Memref sig .tc .vmem S512x1 .i32) (harg3 : arg3.IsWhole) (arg4 : Memref sig .tc .vmem S1x512 .i32) (harg4 : arg4.IsWhole) (arg5 : Memref sig .tc .vmem S1024x128 .bf16) (harg5 : arg5.IsWhole) (arg6 : Memref sig .tc .vmem S1024x1 .i32) (harg6 : arg6.IsWhole) (arg7 : Memref sig .tc .vmem S1x128x2048 .f32) (harg7 : arg7.IsWhole) (arg8 : Memref sig .tc .vmem S1x1024x1 .f32) (harg8 : arg8.IsWhole) (arg9 : Memref sig .tc .vmem S1x1024x1 .f32) (harg9 : arg9.IsWhole) (arg10 : Memref sig .tc .vmem S1x1024x1 .f32) (harg10 : arg10.IsWhole) (arg11 : Memref sig .tc .vmem S128x2048 .f32) (harg11 : arg11.IsWhole) (arg12 : Memref sig .tc .vmem S1024x1 .f32) (harg12 : arg12.IsWhole) (arg13 : Memref sig .tc .vmem S1024x1 .f32) (harg13 : arg13.IsWhole) (arg14 : Memref sig .tc .vmem S1024x1 .f32) (harg14 : arg14.IsWhole) (hc0 : ¬cond0_0 i) (hc1 : ¬cond0_1 i)
    (x0 : Vec F S128x512 .f32) (x1 : Vec F S512x1 .i32) (x2 : Vec F S1x512 .i32) (x3 : Vec F S1024x128 .bf16) (x4 : Vec F S1024x1 .i32) (xs0 : Vec F S128x2048 .f32) (xs1 : Vec F S1024x1 .f32) (xs2 : Vec F S1024x1 .f32) (xs3 : Vec F S1024x1 .f32) :
    sout0_B_0 c i arg2 harg2 arg3 harg3 arg4 harg4 arg5 harg5 arg6 harg6 arg7 harg7 arg8 harg8 arg9 harg9 arg10 harg10 arg11 harg11 arg12 harg12 arg13 harg13 arg14 harg14 hc0 hc1 x0 x1 x2 x3 x4 xs0 xs1 xs2 xs3 = k0_pay6 x0 x1 xs0 := by
  unfold sout0_B_0
  rw [View.read_writes_eq_canon _ _ _ (scover0_B_0 c i arg2 harg2 arg3 harg3 arg4 harg4 arg5 harg5 arg6 harg6 arg7 harg7 arg8 harg8 arg9 harg9 arg10 harg10 arg11 harg11 arg12 harg12 arg13 harg13 arg14 harg14 hc0 hc1 x0 x1 x2 x3 x4 xs0 xs1 xs2 xs3)]
  unfold kernelRun0_B
  dsimp only
  sl_unfold_words
  rw [View.canon_unit_zero zero_off2]
  simp only [View.readAt_eq_ld, harg2.read_unread, harg3.read_unread, harg4.read_unread, harg5.read_unread, harg6.read_unread, harg11.read_unread, harg12.read_unread, harg13.read_unread, harg14.read_unread, View.ld_unit_zero (S := S128x512) zero_off2, View.ld_unit_zero (S := S512x1) zero_off2, View.ld_unit_zero (S := S1x512) zero_off2, View.ld_unit_zero (S := S1024x128) zero_off2, View.ld_unit_zero (S := S1024x1) zero_off2, View.ld_unit_zero (S := S128x2048) zero_off2]

/-- A middle tile leaves in the running maximum its update from the contents on entry. -/
theorem sout0_B_1_eq (c : Dev nD) (i : grid0.Coords) (arg2 : Memref sig .tc .vmem S128x512 .f32) (harg2 : arg2.IsWhole) (arg3 : Memref sig .tc .vmem S512x1 .i32) (harg3 : arg3.IsWhole) (arg4 : Memref sig .tc .vmem S1x512 .i32) (harg4 : arg4.IsWhole) (arg5 : Memref sig .tc .vmem S1024x128 .bf16) (harg5 : arg5.IsWhole) (arg6 : Memref sig .tc .vmem S1024x1 .i32) (harg6 : arg6.IsWhole) (arg7 : Memref sig .tc .vmem S1x128x2048 .f32) (harg7 : arg7.IsWhole) (arg8 : Memref sig .tc .vmem S1x1024x1 .f32) (harg8 : arg8.IsWhole) (arg9 : Memref sig .tc .vmem S1x1024x1 .f32) (harg9 : arg9.IsWhole) (arg10 : Memref sig .tc .vmem S1x1024x1 .f32) (harg10 : arg10.IsWhole) (arg11 : Memref sig .tc .vmem S128x2048 .f32) (harg11 : arg11.IsWhole) (arg12 : Memref sig .tc .vmem S1024x1 .f32) (harg12 : arg12.IsWhole) (arg13 : Memref sig .tc .vmem S1024x1 .f32) (harg13 : arg13.IsWhole) (arg14 : Memref sig .tc .vmem S1024x1 .f32) (harg14 : arg14.IsWhole) (hc0 : ¬cond0_0 i) (hc1 : ¬cond0_1 i)
    (x0 : Vec F S128x512 .f32) (x1 : Vec F S512x1 .i32) (x2 : Vec F S1x512 .i32) (x3 : Vec F S1024x128 .bf16) (x4 : Vec F S1024x1 .i32) (xs0 : Vec F S128x2048 .f32) (xs1 : Vec F S1024x1 .f32) (xs2 : Vec F S1024x1 .f32) (xs3 : Vec F S1024x1 .f32) :
    sout0_B_1 c i arg2 harg2 arg3 harg3 arg4 harg4 arg5 harg5 arg6 harg6 arg7 harg7 arg8 harg8 arg9 harg9 arg10 harg10 arg11 harg11 arg12 harg12 arg13 harg13 arg14 harg14 hc0 hc1 x0 x1 x2 x3 x4 xs0 xs1 xs2 xs3 = k0_pay12 (k0_pay7 x0 x3) xs1 := by
  unfold sout0_B_1
  rw [View.read_writes_eq_canon _ _ _ (scover0_B_1 c i arg2 harg2 arg3 harg3 arg4 harg4 arg5 harg5 arg6 harg6 arg7 harg7 arg8 harg8 arg9 harg9 arg10 harg10 arg11 harg11 arg12 harg12 arg13 harg13 arg14 harg14 hc0 hc1 x0 x1 x2 x3 x4 xs0 xs1 xs2 xs3)]
  unfold kernelRun0_B
  dsimp only
  sl_unfold_words
  rw [View.canon_unit_zero zero_off2]
  simp only [View.readAt_eq_ld, harg2.read_unread, harg3.read_unread, harg4.read_unread, harg5.read_unread, harg6.read_unread, harg11.read_unread, harg12.read_unread, harg13.read_unread, harg14.read_unread, View.ld_unit_zero (S := S128x512) zero_off2, View.ld_unit_zero (S := S512x1) zero_off2, View.ld_unit_zero (S := S1x512) zero_off2, View.ld_unit_zero (S := S1024x128) zero_off2, View.ld_unit_zero (S := S1024x1) zero_off2, View.ld_unit_zero (S := S128x2048) zero_off2]

/-- A middle tile leaves in the running sum of exponentials its update; the old maximum is read twice. -/
theorem sout0_B_2_eq (c : Dev nD) (i : grid0.Coords) (arg2 : Memref sig .tc .vmem S128x512 .f32) (harg2 : arg2.IsWhole) (arg3 : Memref sig .tc .vmem S512x1 .i32) (harg3 : arg3.IsWhole) (arg4 : Memref sig .tc .vmem S1x512 .i32) (harg4 : arg4.IsWhole) (arg5 : Memref sig .tc .vmem S1024x128 .bf16) (harg5 : arg5.IsWhole) (arg6 : Memref sig .tc .vmem S1024x1 .i32) (harg6 : arg6.IsWhole) (arg7 : Memref sig .tc .vmem S1x128x2048 .f32) (harg7 : arg7.IsWhole) (arg8 : Memref sig .tc .vmem S1x1024x1 .f32) (harg8 : arg8.IsWhole) (arg9 : Memref sig .tc .vmem S1x1024x1 .f32) (harg9 : arg9.IsWhole) (arg10 : Memref sig .tc .vmem S1x1024x1 .f32) (harg10 : arg10.IsWhole) (arg11 : Memref sig .tc .vmem S128x2048 .f32) (harg11 : arg11.IsWhole) (arg12 : Memref sig .tc .vmem S1024x1 .f32) (harg12 : arg12.IsWhole) (arg13 : Memref sig .tc .vmem S1024x1 .f32) (harg13 : arg13.IsWhole) (arg14 : Memref sig .tc .vmem S1024x1 .f32) (harg14 : arg14.IsWhole) (hc0 : ¬cond0_0 i) (hc1 : ¬cond0_1 i)
    (x0 : Vec F S128x512 .f32) (x1 : Vec F S512x1 .i32) (x2 : Vec F S1x512 .i32) (x3 : Vec F S1024x128 .bf16) (x4 : Vec F S1024x1 .i32) (xs0 : Vec F S128x2048 .f32) (xs1 : Vec F S1024x1 .f32) (xs2 : Vec F S1024x1 .f32) (xs3 : Vec F S1024x1 .f32) :
    sout0_B_2 c i arg2 harg2 arg3 harg3 arg4 harg4 arg5 harg5 arg6 harg6 arg7 harg7 arg8 harg8 arg9 harg9 arg10 harg10 arg11 harg11 arg12 harg12 arg13 harg13 arg14 harg14 hc0 hc1 x0 x1 x2 x3 x4 xs0 xs1 xs2 xs3 = k0_pay11 (k0_pay7 x0 x3) xs1 xs1 xs2 := by
  unfold sout0_B_2
  rw [View.read_writes_eq_canon _ _ _ (scover0_B_2 c i arg2 harg2 arg3 harg3 arg4 harg4 arg5 harg5 arg6 harg6 arg7 harg7 arg8 harg8 arg9 harg9 arg10 harg10 arg11 harg11 arg12 harg12 arg13 harg13 arg14 harg14 hc0 hc1 x0 x1 x2 x3 x4 xs0 xs1 xs2 xs3)]
  unfold kernelRun0_B
  dsimp only
  sl_unfold_words
  rw [View.canon_unit_zero zero_off2]
  simp only [View.readAt_eq_ld, harg2.read_unread, harg3.read_unread, harg4.read_unread, harg5.read_unread, harg6.read_unread, harg11.read_unread, harg12.read_unread, harg13.read_unread, harg14.read_unread, View.ld_unit_zero (S := S128x512) zero_off2, View.ld_unit_zero (S := S512x1) zero_off2, View.ld_unit_zero (S := S1x512) zero_off2, View.ld_unit_zero (S := S1024x128) zero_off2, View.ld_unit_zero (S := S1024x1) zero_off2, View.ld_unit_zero (S := S128x2048) zero_off2]

/-- A middle tile leaves in the matched-score sum its update from the contents on entry. -/
theorem sout0_B_3_eq (c : Dev nD) (i : grid0.Coords) (arg2 : Memref sig .tc .vmem S128x512 .f32) (harg2 : arg2.IsWhole) (arg3 : Memref sig .tc .vmem S512x1 .i32) (harg3 : arg3.IsWhole) (arg4 : Memref sig .tc .vmem S1x512 .i32) (harg4 : arg4.IsWhole) (arg5 : Memref sig .tc .vmem S1024x128 .bf16) (harg5 : arg5.IsWhole) (arg6 : Memref sig .tc .vmem S1024x1 .i32) (harg6 : arg6.IsWhole) (arg7 : Memref sig .tc .vmem S1x128x2048 .f32) (harg7 : arg7.IsWhole) (arg8 : Memref sig .tc .vmem S1x1024x1 .f32) (harg8 : arg8.IsWhole) (arg9 : Memref sig .tc .vmem S1x1024x1 .f32) (harg9 : arg9.IsWhole) (arg10 : Memref sig .tc .vmem S1x1024x1 .f32) (harg10 : arg10.IsWhole) (arg11 : Memref sig .tc .vmem S128x2048 .f32) (harg11 : arg11.IsWhole) (arg12 : Memref sig .tc .vmem S1024x1 .f32) (harg12 : arg12.IsWhole) (arg13 : Memref sig .tc .vmem S1024x1 .f32) (harg13 : arg13.IsWhole) (arg14 : Memref sig .tc .vmem S1024x1 .f32) (harg14 : arg14.IsWhole) (hc0 : ¬cond0_0 i) (hc1 : ¬cond0_1 i)
    (x0 : Vec F S128x512 .f32) (x1 : Vec F S512x1 .i32) (x2 : Vec F S1x512 .i32) (x3 : Vec F S1024x128 .bf16) (x4 : Vec F S1024x1 .i32) (xs0 : Vec F S128x2048 .f32) (xs1 : Vec F S1024x1 .f32) (xs2 : Vec F S1024x1 .f32) (xs3 : Vec F S1024x1 .f32) :
    sout0_B_3 c i arg2 harg2 arg3 harg3 arg4 harg4 arg5 harg5 arg6 harg6 arg7 harg7 arg8 harg8 arg9 harg9 arg10 harg10 arg11 harg11 arg12 harg12 arg13 harg13 arg14 harg14 hc0 hc1 x0 x1 x2 x3 x4 xs0 xs1 xs2 xs3 = k0_pay9 (k0_pay5 x2) (k0_pay7 x0 x3) (k0_pay8 x4) xs3 := by
  unfold sout0_B_3
  rw [View.read_writes_eq_canon _ _ _ (scover0_B_3 c i arg2 harg2 arg3 harg3 arg4 harg4 arg5 harg5 arg6 harg6 arg7 harg7 arg8 harg8 arg9 harg9 arg10 harg10 arg11 harg11 arg12 harg12 arg13 harg13 arg14 harg14 hc0 hc1 x0 x1 x2 x3 x4 xs0 xs1 xs2 xs3)]
  unfold kernelRun0_B
  dsimp only
  sl_unfold_words
  rw [View.canon_unit_zero zero_off2]
  simp only [View.readAt_eq_ld, harg2.read_unread, harg3.read_unread, harg4.read_unread, harg5.read_unread, harg6.read_unread, harg11.read_unread, harg12.read_unread, harg13.read_unread, harg14.read_unread, View.ld_unit_zero (S := S128x512) zero_off2, View.ld_unit_zero (S := S512x1) zero_off2, View.ld_unit_zero (S := S1x512) zero_off2, View.ld_unit_zero (S := S1024x128) zero_off2, View.ld_unit_zero (S := S1024x1) zero_off2, View.ld_unit_zero (S := S128x2048) zero_off2]

/-! ## A last tile -/

/-- A last tile updates the per-organisation sums as a middle tile does. -/
theorem sout0_C_0_eq (c : Dev nD) (i : grid0.Coords) (arg2 : Memref sig .tc .vmem S128x512 .f32) (harg2 : arg2.IsWhole) (arg3 : Memref sig .tc .vmem S512x1 .i32) (harg3 : arg3.IsWhole) (arg4 : Memref sig .tc .vmem S1x512 .i32) (harg4 : arg4.IsWhole) (arg5 : Memref sig .tc .vmem S1024x128 .bf16) (harg5 : arg5.IsWhole) (arg6 : Memref sig .tc .vmem S1024x1 .i32) (harg6 : arg6.IsWhole) (arg7 : Memref sig .tc .vmem S1x128x2048 .f32) (harg7 : arg7.IsWhole) (arg8 : Memref sig .tc .vmem S1x1024x1 .f32) (harg8 : arg8.IsWhole) (arg9 : Memref sig .tc .vmem S1x1024x1 .f32) (harg9 : arg9.IsWhole) (arg10 : Memref sig .tc .vmem S1x1024x1 .f32) (harg10 : arg10.IsWhole) (arg11 : Memref sig .tc .vmem S128x2048 .f32) (harg11 : arg11.IsWhole) (arg12 : Memref sig .tc .vmem S1024x1 .f32) (harg12 : arg12.IsWhole) (arg13 : Memref sig .tc .vmem S1024x1 .f32) (harg13 : arg13.IsWhole) (arg14 : Memref sig .tc .vmem S1024x1 .f32) (harg14 : arg14.IsWhole) (hc0 : ¬cond0_0 i) (hc1 : cond0_1 i)
    (x0 : Vec F S128x512 .f32) (x1 : Vec F S512x1 .i32) (x2 : Vec F S1x512 .i32) (x3 : Vec F S1024x128 .bf16) (x4 : Vec F S1024x1 .i32) (xs0 : Vec F S128x2048 .f32) (xs1 : Vec F S1024x1 .f32) (xs2 : Vec F S1024x1 .f32) (xs3 : Vec F S1024x1 .f32) :
    sout0_C_0 c i arg2 harg2 arg3 harg3 arg4 harg4 arg5 harg5 arg6 harg6 arg7 harg7 arg8 harg8 arg9 harg9 arg10 harg10 arg11 harg11 arg12 harg12 arg13 harg13 arg14 harg14 hc0 hc1 x0 x1 x2 x3 x4 xs0 xs1 xs2 xs3 = k0_pay6 x0 x1 xs0 := by
  unfold sout0_C_0
  rw [View.read_writes_eq_canon _ _ _ (scover0_C_0 c i arg2 harg2 arg3 harg3 arg4 harg4 arg5 harg5 arg6 harg6 arg7 harg7 arg8 harg8 arg9 harg9 arg10 harg10 arg11 harg11 arg12 harg12 arg13 harg13 arg14 harg14 hc0 hc1 x0 x1 x2 x3 x4 xs0 xs1 xs2 xs3)]
  unfold kernelRun0_C
  dsimp only
  sl_unfold_words
  rw [View.canon_unit_zero zero_off2]
  simp only [View.readAt_eq_ld, harg2.read_unread, harg3.read_unread, harg4.read_unread, harg5.read_unread, harg6.read_unread, harg11.read_unread, harg12.read_unread, harg13.read_unread, harg14.read_unread, View.ld_unit_zero (S := S128x512) zero_off2, View.ld_unit_zero (S := S512x1) zero_off2, View.ld_unit_zero (S := S1x512) zero_off2, View.ld_unit_zero (S := S1024x128) zero_off2, View.ld_unit_zero (S := S1024x1) zero_off2, View.ld_unit_zero (S := S128x2048) zero_off2]

/-- A last tile updates the running maximum as a middle tile does. -/
theorem sout0_C_1_eq (c : Dev nD) (i : grid0.Coords) (arg2 : Memref sig .tc .vmem S128x512 .f32) (harg2 : arg2.IsWhole) (arg3 : Memref sig .tc .vmem S512x1 .i32) (harg3 : arg3.IsWhole) (arg4 : Memref sig .tc .vmem S1x512 .i32) (harg4 : arg4.IsWhole) (arg5 : Memref sig .tc .vmem S1024x128 .bf16) (harg5 : arg5.IsWhole) (arg6 : Memref sig .tc .vmem S1024x1 .i32) (harg6 : arg6.IsWhole) (arg7 : Memref sig .tc .vmem S1x128x2048 .f32) (harg7 : arg7.IsWhole) (arg8 : Memref sig .tc .vmem S1x1024x1 .f32) (harg8 : arg8.IsWhole) (arg9 : Memref sig .tc .vmem S1x1024x1 .f32) (harg9 : arg9.IsWhole) (arg10 : Memref sig .tc .vmem S1x1024x1 .f32) (harg10 : arg10.IsWhole) (arg11 : Memref sig .tc .vmem S128x2048 .f32) (harg11 : arg11.IsWhole) (arg12 : Memref sig .tc .vmem S1024x1 .f32) (harg12 : arg12.IsWhole) (arg13 : Memref sig .tc .vmem S1024x1 .f32) (harg13 : arg13.IsWhole) (arg14 : Memref sig .tc .vmem S1024x1 .f32) (harg14 : arg14.IsWhole) (hc0 : ¬cond0_0 i) (hc1 : cond0_1 i)
    (x0 : Vec F S128x512 .f32) (x1 : Vec F S512x1 .i32) (x2 : Vec F S1x512 .i32) (x3 : Vec F S1024x128 .bf16) (x4 : Vec F S1024x1 .i32) (xs0 : Vec F S128x2048 .f32) (xs1 : Vec F S1024x1 .f32) (xs2 : Vec F S1024x1 .f32) (xs3 : Vec F S1024x1 .f32) :
    sout0_C_1 c i arg2 harg2 arg3 harg3 arg4 harg4 arg5 harg5 arg6 harg6 arg7 harg7 arg8 harg8 arg9 harg9 arg10 harg10 arg11 harg11 arg12 harg12 arg13 harg13 arg14 harg14 hc0 hc1 x0 x1 x2 x3 x4 xs0 xs1 xs2 xs3 = k0_pay12 (k0_pay7 x0 x3) xs1 := by
  unfold sout0_C_1
  rw [View.read_writes_eq_canon _ _ _ (scover0_C_1 c i arg2 harg2 arg3 harg3 arg4 harg4 arg5 harg5 arg6 harg6 arg7 harg7 arg8 harg8 arg9 harg9 arg10 harg10 arg11 harg11 arg12 harg12 arg13 harg13 arg14 harg14 hc0 hc1 x0 x1 x2 x3 x4 xs0 xs1 xs2 xs3)]
  unfold kernelRun0_C
  dsimp only
  sl_unfold_words
  rw [View.canon_unit_zero zero_off2]
  simp only [View.readAt_eq_ld, harg2.read_unread, harg3.read_unread, harg4.read_unread, harg5.read_unread, harg6.read_unread, harg11.read_unread, harg12.read_unread, harg13.read_unread, harg14.read_unread, View.ld_unit_zero (S := S128x512) zero_off2, View.ld_unit_zero (S := S512x1) zero_off2, View.ld_unit_zero (S := S1x512) zero_off2, View.ld_unit_zero (S := S1024x128) zero_off2, View.ld_unit_zero (S := S1024x1) zero_off2, View.ld_unit_zero (S := S128x2048) zero_off2]

/-- A last tile updates the running sum of exponentials as a middle tile does. -/
theorem sout0_C_2_eq (c : Dev nD) (i : grid0.Coords) (arg2 : Memref sig .tc .vmem S128x512 .f32) (harg2 : arg2.IsWhole) (arg3 : Memref sig .tc .vmem S512x1 .i32) (harg3 : arg3.IsWhole) (arg4 : Memref sig .tc .vmem S1x512 .i32) (harg4 : arg4.IsWhole) (arg5 : Memref sig .tc .vmem S1024x128 .bf16) (harg5 : arg5.IsWhole) (arg6 : Memref sig .tc .vmem S1024x1 .i32) (harg6 : arg6.IsWhole) (arg7 : Memref sig .tc .vmem S1x128x2048 .f32) (harg7 : arg7.IsWhole) (arg8 : Memref sig .tc .vmem S1x1024x1 .f32) (harg8 : arg8.IsWhole) (arg9 : Memref sig .tc .vmem S1x1024x1 .f32) (harg9 : arg9.IsWhole) (arg10 : Memref sig .tc .vmem S1x1024x1 .f32) (harg10 : arg10.IsWhole) (arg11 : Memref sig .tc .vmem S128x2048 .f32) (harg11 : arg11.IsWhole) (arg12 : Memref sig .tc .vmem S1024x1 .f32) (harg12 : arg12.IsWhole) (arg13 : Memref sig .tc .vmem S1024x1 .f32) (harg13 : arg13.IsWhole) (arg14 : Memref sig .tc .vmem S1024x1 .f32) (harg14 : arg14.IsWhole) (hc0 : ¬cond0_0 i) (hc1 : cond0_1 i)
    (x0 : Vec F S128x512 .f32) (x1 : Vec F S512x1 .i32) (x2 : Vec F S1x512 .i32) (x3 : Vec F S1024x128 .bf16) (x4 : Vec F S1024x1 .i32) (xs0 : Vec F S128x2048 .f32) (xs1 : Vec F S1024x1 .f32) (xs2 : Vec F S1024x1 .f32) (xs3 : Vec F S1024x1 .f32) :
    sout0_C_2 c i arg2 harg2 arg3 harg3 arg4 harg4 arg5 harg5 arg6 harg6 arg7 harg7 arg8 harg8 arg9 harg9 arg10 harg10 arg11 harg11 arg12 harg12 arg13 harg13 arg14 harg14 hc0 hc1 x0 x1 x2 x3 x4 xs0 xs1 xs2 xs3 = k0_pay11 (k0_pay7 x0 x3) xs1 xs1 xs2 := by
  unfold sout0_C_2
  rw [View.read_writes_eq_canon _ _ _ (scover0_C_2 c i arg2 harg2 arg3 harg3 arg4 harg4 arg5 harg5 arg6 harg6 arg7 harg7 arg8 harg8 arg9 harg9 arg10 harg10 arg11 harg11 arg12 harg12 arg13 harg13 arg14 harg14 hc0 hc1 x0 x1 x2 x3 x4 xs0 xs1 xs2 xs3)]
  unfold kernelRun0_C
  dsimp only
  sl_unfold_words
  rw [View.canon_unit_zero zero_off2]
  simp only [View.readAt_eq_ld, harg2.read_unread, harg3.read_unread, harg4.read_unread, harg5.read_unread, harg6.read_unread, harg11.read_unread, harg12.read_unread, harg13.read_unread, harg14.read_unread, View.ld_unit_zero (S := S128x512) zero_off2, View.ld_unit_zero (S := S512x1) zero_off2, View.ld_unit_zero (S := S1x512) zero_off2, View.ld_unit_zero (S := S1024x128) zero_off2, View.ld_unit_zero (S := S1024x1) zero_off2, View.ld_unit_zero (S := S128x2048) zero_off2]

/-- A last tile updates the matched-score sum as a middle tile does. -/
theorem sout0_C_3_eq (c : Dev nD) (i : grid0.Coords) (arg2 : Memref sig .tc .vmem S128x512 .f32) (harg2 : arg2.IsWhole) (arg3 : Memref sig .tc .vmem S512x1 .i32) (harg3 : arg3.IsWhole) (arg4 : Memref sig .tc .vmem S1x512 .i32) (harg4 : arg4.IsWhole) (arg5 : Memref sig .tc .vmem S1024x128 .bf16) (harg5 : arg5.IsWhole) (arg6 : Memref sig .tc .vmem S1024x1 .i32) (harg6 : arg6.IsWhole) (arg7 : Memref sig .tc .vmem S1x128x2048 .f32) (harg7 : arg7.IsWhole) (arg8 : Memref sig .tc .vmem S1x1024x1 .f32) (harg8 : arg8.IsWhole) (arg9 : Memref sig .tc .vmem S1x1024x1 .f32) (harg9 : arg9.IsWhole) (arg10 : Memref sig .tc .vmem S1x1024x1 .f32) (harg10 : arg10.IsWhole) (arg11 : Memref sig .tc .vmem S128x2048 .f32) (harg11 : arg11.IsWhole) (arg12 : Memref sig .tc .vmem S1024x1 .f32) (harg12 : arg12.IsWhole) (arg13 : Memref sig .tc .vmem S1024x1 .f32) (harg13 : arg13.IsWhole) (arg14 : Memref sig .tc .vmem S1024x1 .f32) (harg14 : arg14.IsWhole) (hc0 : ¬cond0_0 i) (hc1 : cond0_1 i)
    (x0 : Vec F S128x512 .f32) (x1 : Vec F S512x1 .i32) (x2 : Vec F S1x512 .i32) (x3 : Vec F S1024x128 .bf16) (x4 : Vec F S1024x1 .i32) (xs0 : Vec F S128x2048 .f32) (xs1 : Vec F S1024x1 .f32) (xs2 : Vec F S1024x1 .f32) (xs3 : Vec F S1024x1 .f32) :
    sout0_C_3 c i arg2 harg2 arg3 harg3 arg4 harg4 arg5 harg5 arg6 harg6 arg7 harg7 arg8 harg8 arg9 harg9 arg10 harg10 arg11 harg11 arg12 harg12 arg13 harg13 arg14 harg14 hc0 hc1 x0 x1 x2 x3 x4 xs0 xs1 xs2 xs3 = k0_pay9 (k0_pay5 x2) (k0_pay7 x0 x3) (k0_pay8 x4) xs3 := by
  unfold sout0_C_3
  rw [View.read_writes_eq_canon _ _ _ (scover0_C_3 c i arg2 harg2 arg3 harg3 arg4 harg4 arg5 harg5 arg6 harg6 arg7 harg7 arg8 harg8 arg9 harg9 arg10 harg10 arg11 harg11 arg12 harg12 arg13 harg13 arg14 harg14 hc0 hc1 x0 x1 x2 x3 x4 xs0 xs1 xs2 xs3)]
  unfold kernelRun0_C
  dsimp only
  sl_unfold_words
  rw [View.canon_unit_zero zero_off2]
  simp only [View.readAt_eq_ld, harg2.read_unread, harg3.read_unread, harg4.read_unread, harg5.read_unread, harg6.read_unread, harg11.read_unread, harg12.read_unread, harg13.read_unread, harg14.read_unread, View.ld_unit_zero (S := S128x512) zero_off2, View.ld_unit_zero (S := S512x1) zero_off2, View.ld_unit_zero (S := S1x512) zero_off2, View.ld_unit_zero (S := S1024x128) zero_off2, View.ld_unit_zero (S := S1024x1) zero_off2, View.ld_unit_zero (S := S128x2048) zero_off2]

/-- A last tile copies the updated per-organisation sums to their output buffer, under a leading unit axis. -/
theorem out0_C_5_eq (c : Dev nD) (i : grid0.Coords) (arg2 : Memref sig .tc .vmem S128x512 .f32) (harg2 : arg2.IsWhole) (arg3 : Memref sig .tc .vmem S512x1 .i32) (harg3 : arg3.IsWhole) (arg4 : Memref sig .tc .vmem S1x512 .i32) (harg4 : arg4.IsWhole) (arg5 : Memref sig .tc .vmem S1024x128 .bf16) (harg5 : arg5.IsWhole) (arg6 : Memref sig .tc .vmem S1024x1 .i32) (harg6 : arg6.IsWhole) (arg7 : Memref sig .tc .vmem S1x128x2048 .f32) (harg7 : arg7.IsWhole) (arg8 : Memref sig .tc .vmem S1x1024x1 .f32) (harg8 : arg8.IsWhole) (arg9 : Memref sig .tc .vmem S1x1024x1 .f32) (harg9 : arg9.IsWhole) (arg10 : Memref sig .tc .vmem S1x1024x1 .f32) (harg10 : arg10.IsWhole) (arg11 : Memref sig .tc .vmem S128x2048 .f32) (harg11 : arg11.IsWhole) (arg12 : Memref sig .tc .vmem S1024x1 .f32) (harg12 : arg12.IsWhole) (arg13 : Memref sig .tc .vmem S1024x1 .f32) (harg13 : arg13.IsWhole) (arg14 : Memref sig .tc .vmem S1024x1 .f32) (harg14 : arg14.IsWhole) (hc0 : ¬cond0_0 i) (hc1 : cond0_1 i)
    (x0 : Vec F S128x512 .f32) (x1 : Vec F S512x1 .i32) (x2 : Vec F S1x512 .i32) (x3 : Vec F S1024x128 .bf16) (x4 : Vec F S1024x1 .i32) (xs0 : Vec F S128x2048 .f32) (xs1 : Vec F S1024x1 .f32) (xs2 : Vec F S1024x1 .f32) (xs3 : Vec F S1024x1 .f32) :
    out0_C_5 c i arg2 harg2 arg3 harg3 arg4 harg4 arg5 harg5 arg6 harg6 arg7 harg7 arg8 harg8 arg9 harg9 arg10 harg10 arg11 harg11 arg12 harg12 arg13 harg13 arg14 harg14 hc0 hc1 x0 x1 x2 x3 x4 xs0 xs1 xs2 xs3 = k0_pay13 (k0_pay6 x0 x1 xs0) := by
  unfold out0_C_5
  rw [View.read_writes_eq_canon _ _ _ (cover0_C_5 c i arg2 harg2 arg3 harg3 arg4 harg4 arg5 harg5 arg6 harg6 arg7 harg7 arg8 harg8 arg9 harg9 arg10 harg10 arg11 harg11 arg12 harg12 arg13 harg13 arg14 harg14 hc0 hc1 x0 x1 x2 x3 x4 xs0 xs1 xs2 xs3)]
  unfold kernelRun0_C
  dsimp only
  sl_unfold_words
  rw [View.canon_unit_zero zero_off3]
  simp only [View.readAt_eq_ld, harg2.read_unread, harg3.read_unread, harg4.read_unread, harg5.read_unread, harg6.read_unread, harg11.read_unread, harg12.read_unread, harg13.read_unread, harg14.read_unread, View.ld_unit_zero (S := S128x512) zero_off2, View.ld_unit_zero (S := S512x1) zero_off2, View.ld_unit_zero (S := S1x512) zero_off2, View.ld_unit_zero (S := S1024x128) zero_off2, View.ld_unit_zero (S := S1024x1) zero_off2, View.ld_unit_zero (S := S128x2048) zero_off2, View.readCov_unit_zero (S := S128x2048) _ zero_off2, View.readCov_unit_zero (S := S1024x1) _ zero_off2]

/-- A last tile copies the updated running maximum to its output buffer. -/
theorem out0_C_6_eq (c : Dev nD) (i : grid0.Coords) (arg2 : Memref sig .tc .vmem S128x512 .f32) (harg2 : arg2.IsWhole) (arg3 : Memref sig .tc .vmem S512x1 .i32) (harg3 : arg3.IsWhole) (arg4 : Memref sig .tc .vmem S1x512 .i32) (harg4 : arg4.IsWhole) (arg5 : Memref sig .tc .vmem S1024x128 .bf16) (harg5 : arg5.IsWhole) (arg6 : Memref sig .tc .vmem S1024x1 .i32) (harg6 : arg6.IsWhole) (arg7 : Memref sig .tc .vmem S1x128x2048 .f32) (harg7 : arg7.IsWhole) (arg8 : Memref sig .tc .vmem S1x1024x1 .f32) (harg8 : arg8.IsWhole) (arg9 : Memref sig .tc .vmem S1x1024x1 .f32) (harg9 : arg9.IsWhole) (arg10 : Memref sig .tc .vmem S1x1024x1 .f32) (harg10 : arg10.IsWhole) (arg11 : Memref sig .tc .vmem S128x2048 .f32) (harg11 : arg11.IsWhole) (arg12 : Memref sig .tc .vmem S1024x1 .f32) (harg12 : arg12.IsWhole) (arg13 : Memref sig .tc .vmem S1024x1 .f32) (harg13 : arg13.IsWhole) (arg14 : Memref sig .tc .vmem S1024x1 .f32) (harg14 : arg14.IsWhole) (hc0 : ¬cond0_0 i) (hc1 : cond0_1 i)
    (x0 : Vec F S128x512 .f32) (x1 : Vec F S512x1 .i32) (x2 : Vec F S1x512 .i32) (x3 : Vec F S1024x128 .bf16) (x4 : Vec F S1024x1 .i32) (xs0 : Vec F S128x2048 .f32) (xs1 : Vec F S1024x1 .f32) (xs2 : Vec F S1024x1 .f32) (xs3 : Vec F S1024x1 .f32) :
    out0_C_6 c i arg2 harg2 arg3 harg3 arg4 harg4 arg5 harg5 arg6 harg6 arg7 harg7 arg8 harg8 arg9 harg9 arg10 harg10 arg11 harg11 arg12 harg12 arg13 harg13 arg14 harg14 hc0 hc1 x0 x1 x2 x3 x4 xs0 xs1 xs2 xs3 = k0_pay14 (k0_pay12 (k0_pay7 x0 x3) xs1) := by
  unfold out0_C_6
  rw [View.read_writes_eq_canon _ _ _ (cover0_C_6 c i arg2 harg2 arg3 harg3 arg4 harg4 arg5 harg5 arg6 harg6 arg7 harg7 arg8 harg8 arg9 harg9 arg10 harg10 arg11 harg11 arg12 harg12 arg13 harg13 arg14 harg14 hc0 hc1 x0 x1 x2 x3 x4 xs0 xs1 xs2 xs3)]
  unfold kernelRun0_C
  dsimp only
  sl_unfold_words
  rw [View.canon_unit_zero zero_off3]
  simp only [View.readAt_eq_ld, harg2.read_unread, harg3.read_unread, harg4.read_unread, harg5.read_unread, harg6.read_unread, harg11.read_unread, harg12.read_unread, harg13.read_unread, harg14.read_unread, View.ld_unit_zero (S := S128x512) zero_off2, View.ld_unit_zero (S := S512x1) zero_off2, View.ld_unit_zero (S := S1x512) zero_off2, View.ld_unit_zero (S := S1024x128) zero_off2, View.ld_unit_zero (S := S1024x1) zero_off2, View.ld_unit_zero (S := S128x2048) zero_off2, View.readCov_unit_zero (S := S128x2048) _ zero_off2, View.readCov_unit_zero (S := S1024x1) _ zero_off2]

/-- A last tile copies the updated running sum of exponentials to its output buffer. -/
theorem out0_C_7_eq (c : Dev nD) (i : grid0.Coords) (arg2 : Memref sig .tc .vmem S128x512 .f32) (harg2 : arg2.IsWhole) (arg3 : Memref sig .tc .vmem S512x1 .i32) (harg3 : arg3.IsWhole) (arg4 : Memref sig .tc .vmem S1x512 .i32) (harg4 : arg4.IsWhole) (arg5 : Memref sig .tc .vmem S1024x128 .bf16) (harg5 : arg5.IsWhole) (arg6 : Memref sig .tc .vmem S1024x1 .i32) (harg6 : arg6.IsWhole) (arg7 : Memref sig .tc .vmem S1x128x2048 .f32) (harg7 : arg7.IsWhole) (arg8 : Memref sig .tc .vmem S1x1024x1 .f32) (harg8 : arg8.IsWhole) (arg9 : Memref sig .tc .vmem S1x1024x1 .f32) (harg9 : arg9.IsWhole) (arg10 : Memref sig .tc .vmem S1x1024x1 .f32) (harg10 : arg10.IsWhole) (arg11 : Memref sig .tc .vmem S128x2048 .f32) (harg11 : arg11.IsWhole) (arg12 : Memref sig .tc .vmem S1024x1 .f32) (harg12 : arg12.IsWhole) (arg13 : Memref sig .tc .vmem S1024x1 .f32) (harg13 : arg13.IsWhole) (arg14 : Memref sig .tc .vmem S1024x1 .f32) (harg14 : arg14.IsWhole) (hc0 : ¬cond0_0 i) (hc1 : cond0_1 i)
    (x0 : Vec F S128x512 .f32) (x1 : Vec F S512x1 .i32) (x2 : Vec F S1x512 .i32) (x3 : Vec F S1024x128 .bf16) (x4 : Vec F S1024x1 .i32) (xs0 : Vec F S128x2048 .f32) (xs1 : Vec F S1024x1 .f32) (xs2 : Vec F S1024x1 .f32) (xs3 : Vec F S1024x1 .f32) :
    out0_C_7 c i arg2 harg2 arg3 harg3 arg4 harg4 arg5 harg5 arg6 harg6 arg7 harg7 arg8 harg8 arg9 harg9 arg10 harg10 arg11 harg11 arg12 harg12 arg13 harg13 arg14 harg14 hc0 hc1 x0 x1 x2 x3 x4 xs0 xs1 xs2 xs3 = k0_pay15 (k0_pay11 (k0_pay7 x0 x3) xs1 xs1 xs2) := by
  unfold out0_C_7
  rw [View.read_writes_eq_canon _ _ _ (cover0_C_7 c i arg2 harg2 arg3 harg3 arg4 harg4 arg5 harg5 arg6 harg6 arg7 harg7 arg8 harg8 arg9 harg9 arg10 harg10 arg11 harg11 arg12 harg12 arg13 harg13 arg14 harg14 hc0 hc1 x0 x1 x2 x3 x4 xs0 xs1 xs2 xs3)]
  unfold kernelRun0_C
  dsimp only
  sl_unfold_words
  rw [View.canon_unit_zero zero_off3]
  simp only [View.readAt_eq_ld, harg2.read_unread, harg3.read_unread, harg4.read_unread, harg5.read_unread, harg6.read_unread, harg11.read_unread, harg12.read_unread, harg13.read_unread, harg14.read_unread, View.ld_unit_zero (S := S128x512) zero_off2, View.ld_unit_zero (S := S512x1) zero_off2, View.ld_unit_zero (S := S1x512) zero_off2, View.ld_unit_zero (S := S1024x128) zero_off2, View.ld_unit_zero (S := S1024x1) zero_off2, View.ld_unit_zero (S := S128x2048) zero_off2, View.readCov_unit_zero (S := S128x2048) _ zero_off2, View.readCov_unit_zero (S := S1024x1) _ zero_off2]

/-- A last tile copies the updated matched-score sum to its output buffer. -/
theorem out0_C_8_eq (c : Dev nD) (i : grid0.Coords) (arg2 : Memref sig .tc .vmem S128x512 .f32) (harg2 : arg2.IsWhole) (arg3 : Memref sig .tc .vmem S512x1 .i32) (harg3 : arg3.IsWhole) (arg4 : Memref sig .tc .vmem S1x512 .i32) (harg4 : arg4.IsWhole) (arg5 : Memref sig .tc .vmem S1024x128 .bf16) (harg5 : arg5.IsWhole) (arg6 : Memref sig .tc .vmem S1024x1 .i32) (harg6 : arg6.IsWhole) (arg7 : Memref sig .tc .vmem S1x128x2048 .f32) (harg7 : arg7.IsWhole) (arg8 : Memref sig .tc .vmem S1x1024x1 .f32) (harg8 : arg8.IsWhole) (arg9 : Memref sig .tc .vmem S1x1024x1 .f32) (harg9 : arg9.IsWhole) (arg10 : Memref sig .tc .vmem S1x1024x1 .f32) (harg10 : arg10.IsWhole) (arg11 : Memref sig .tc .vmem S128x2048 .f32) (harg11 : arg11.IsWhole) (arg12 : Memref sig .tc .vmem S1024x1 .f32) (harg12 : arg12.IsWhole) (arg13 : Memref sig .tc .vmem S1024x1 .f32) (harg13 : arg13.IsWhole) (arg14 : Memref sig .tc .vmem S1024x1 .f32) (harg14 : arg14.IsWhole) (hc0 : ¬cond0_0 i) (hc1 : cond0_1 i)
    (x0 : Vec F S128x512 .f32) (x1 : Vec F S512x1 .i32) (x2 : Vec F S1x512 .i32) (x3 : Vec F S1024x128 .bf16) (x4 : Vec F S1024x1 .i32) (xs0 : Vec F S128x2048 .f32) (xs1 : Vec F S1024x1 .f32) (xs2 : Vec F S1024x1 .f32) (xs3 : Vec F S1024x1 .f32) :
    out0_C_8 c i arg2 harg2 arg3 harg3 arg4 harg4 arg5 harg5 arg6 harg6 arg7 harg7 arg8 harg8 arg9 harg9 arg10 harg10 arg11 harg11 arg12 harg12 arg13 harg13 arg14 harg14 hc0 hc1 x0 x1 x2 x3 x4 xs0 xs1 xs2 xs3 = k0_pay16 (k0_pay9 (k0_pay5 x2) (k0_pay7 x0 x3) (k0_pay8 x4) xs3) := by
  unfold out0_C_8
  rw [View.read_writes_eq_canon _ _ _ (cover0_C_8 c i arg2 harg2 arg3 harg3 arg4 harg4 arg5 harg5 arg6 harg6 arg7 harg7 arg8 harg8 arg9 harg9 arg10 harg10 arg11 harg11 arg12 harg12 arg13 harg13 arg14 harg14 hc0 hc1 x0 x1 x2 x3 x4 xs0 xs1 xs2 xs3)]
  unfold kernelRun0_C
  dsimp only
  sl_unfold_words
  rw [View.canon_unit_zero zero_off3]
  simp only [View.readAt_eq_ld, harg2.read_unread, harg3.read_unread, harg4.read_unread, harg5.read_unread, harg6.read_unread, harg11.read_unread, harg12.read_unread, harg13.read_unread, harg14.read_unread, View.ld_unit_zero (S := S128x512) zero_off2, View.ld_unit_zero (S := S512x1) zero_off2, View.ld_unit_zero (S := S1x512) zero_off2, View.ld_unit_zero (S := S1024x128) zero_off2, View.ld_unit_zero (S := S1024x1) zero_off2, View.ld_unit_zero (S := S128x2048) zero_off2, View.readCov_unit_zero (S := S128x2048) _ zero_off2, View.readCov_unit_zero (S := S1024x1) _ zero_off2]

end Cert.KernelIdeal.Hand

end
-- ==== Proof.KI.PayVal.lean ====
/-
  THE KERNEL BODY'S PAYLOADS READ AT AN INDEX, over the extended reals. One tile T of 512 queue columns is in hand:
  v3 its [128 × 512] block of the queue, v4 / v6 the tile's organisation words as a column / a row, v30 the batch's
  [1024 × 128] block. Each payload is a composition of elementwise operations, layout operations (casts that add or
  keep a unit axis, broadcasts of a row or a column), sums and maxima along one axis, and matrix products; read at one
  index each is a closed expression in the loaded values:
    * the scores of the tile: the product of the batch block with the tile's columns, each divided by the larger of its
      Euclidean norm and a small constant;
    * the per-organisation column sums: the running sums plus the product of the tile with the one-hot matrix of its
      organisation words;
    * the matched-score sum, the running maximum and the running sum of exponentials of a streaming softmax.
-/
import proofs.«405218_j60748017434937_2_alg».proof.Proof.Gen.KernelIdeal.Skeleton
import Idealize.ShloMosaic.Lib.ValueIdx
import Idealize.ShloMosaic.Lib.ValueLayout
import Idealize.ShloMosaic.Lib.Pipeline.Value
import Idealize.ShloMosaic.PureOps.Ideal.Laws

noncomputable section

namespace Cert.KernelIdeal.PayVal

open Cert.KernelIdeal Cert.KernelIdeal.Gen Idealize.ShloMosaic ValueIdx

/-! ## Layout operations at coordinates -/

section Layout
variable {α : Type}

/-- An [a] array cast to the column [a, 1] reads, at (i, u), the operand at i. -/
theorem shapeCast_a_a1_apply {a : ℕ} (x : (⟨1, ![a]⟩ : Shape).Idx → α) (h : (⟨1, ![a]⟩ : Shape).ShapeCasts ⟨2, ![a, 1]⟩)
    (i : Fin a) (u : Fin 1) : shapeCast ⟨2, ![a, 1]⟩ x h (ix2 i u) = x (ix1 i) :=
  shapeCast_apply x h _ _ (by
    have hu : u.val = 0 := by omega
    rw [Shape.rowMajor_val_two, Shape.rowMajor_val_one]
    show i.val = i.val * 1 + u.val
    rw [hu, Nat.mul_one, Nat.add_zero])

/-- A column [a, 1] broadcast to [a, b] reads, at (p, c), the column at p. -/
theorem broadcastTo_a1_ab_apply {a b : ℕ} (v : (⟨2, ![a, 1]⟩ : Shape).Idx → α) (h : (⟨2, ![a, 1]⟩ : Shape).Broadcasts ⟨2, ![a, b]⟩)
    (p : Fin a) (c : Fin b) : broadcastTo ⟨2, ![a, b]⟩ v h (ix2 p c) = v (ix2 p (0 : Fin 1)) := by
  refine broadcastTo_apply v h (ix2 p c) (ix2 p (0 : Fin 1)) fun ax => ?_
  match ax with
  | ⟨0, _⟩ =>
    show p.val = if a = 1 then 0 else p.val
    split
    · have := p.isLt; omega
    · rfl
  | ⟨1, _⟩ => rfl

end Layout

/-! ## Sums and maxima along one axis of a rectangle -/

/-- Over result index j of a reduction along the rows, the source index with row k inserted is (k, j). -/
theorem lift_axis0 {n m : ℕ} (h : (⟨2, ![n, m]⟩ : Shape).Reduces [0] ⟨1, ![m]⟩) (j : Fin m) (k : Fin n) :
    h.lift (ix1 j) k = ix2 k j := by
  funext c
  apply Fin.ext
  match c with
  | ⟨0, _⟩ => rfl
  | ⟨1, _⟩ => rfl

/-- Over result index i of a reduction along the columns, the source index with column k inserted is (i, k). -/
theorem lift_axis1 {n m : ℕ} (h : (⟨2, ![n, m]⟩ : Shape).Reduces [1] ⟨1, ![n]⟩) (i : Fin n) (k : Fin m) :
    h.lift (ix1 i) k = ix2 i k := by
  funext c
  apply Fin.ext
  match c with
  | ⟨0, _⟩ => rfl
  | ⟨1, _⟩ => rfl

/-- The sum along the rows of a rectangle, at column j. -/
theorem sum_axis0 {n m : ℕ} (src : FVec Ideal ⟨2, ![n, m]⟩ .f32) (h : (⟨2, ![n, m]⟩ : Shape).Reduces [0] ⟨1, ![m]⟩)
    (hφ : FKind.Formats .f32) (hacc : (0x00000000#32 : BitVec 32) = 0x00000000#32) (j : Fin m) :
    multiReduction .add [0] ⟨1, ![m]⟩ src 0x00000000#32 h hφ hacc (ix1 j) = ∑ k : Fin n, src (ix2 k j) :=
  (Ideal.multiReduction_add_single src 0x00000000#32 h hφ hacc (ix1 j)).trans
    (Finset.sum_congr rfl fun k _ => congrArg src (lift_axis0 h j k))

/-- The sum along the columns of a rectangle, at row i. -/
theorem sum_axis1 {n m : ℕ} (src : FVec Ideal ⟨2, ![n, m]⟩ .f32) (h : (⟨2, ![n, m]⟩ : Shape).Reduces [1] ⟨1, ![n]⟩)
    (hφ : FKind.Formats .f32) (hacc : (0x00000000#32 : BitVec 32) = 0x00000000#32) (i : Fin n) :
    multiReduction .add [1] ⟨1, ![n]⟩ src 0x00000000#32 h hφ hacc (ix1 i) = ∑ k : Fin m, src (ix2 i k) :=
  (Ideal.multiReduction_add_single src 0x00000000#32 h hφ hacc (ix1 i)).trans
    (Finset.sum_congr rfl fun k _ => congrArg src (lift_axis1 h i k))

/-- The pattern 0xFF800000 denotes −∞. -/
theorem neg_inf_pattern : Ideal.ofBits .f32 0xFF800000#32 = (⊥ : EReal) := by simp [Ideal.ofBits, Ideal.ieee]

/-- The maximum along the columns of a rectangle, at row i: the fold of max from −∞ over the row. -/
theorem max_axis1 {n m : ℕ} (src : FVec Ideal ⟨2, ![n, m]⟩ .f32) (h : (⟨2, ![n, m]⟩ : Shape).Reduces [1] ⟨1, ![n]⟩)
    (hφ : FKind.Formats .f32) (hacc : (0xFF800000#32 : BitVec 32) = 0xFF800000#32) (i : Fin n) :
    multiReduction .maximumf [1] ⟨1, ![n]⟩ src 0xFF800000#32 h hφ hacc (ix1 i)
      = (Finset.univ : Finset (Fin m)).fold max (⊥ : EReal) fun k => src (ix2 i k) := by
  refine (Ideal.multiReduction_maximumf_single src 0xFF800000#32 h hφ hacc (ix1 i)).trans ?_
  rw [Ideal.ofBits_def, neg_inf_pattern]
  exact congrArg (Finset.fold max (⊥ : EReal) · Finset.univ) (funext fun k => congrArg src (lift_axis1 h i k))

/-! ## The two matrix products at coordinates -/

/-- The [1024 × 128] by [128 × 512] product: the left operand's index on its row axis is the result's row. -/
theorem lhs_scores_0 (i : S1024x512.Idx) (q : dot_S1024x128_S128x512_S1024x512_1_0_0_1_n_n.contr.Idx) :
    (dot_S1024x128_S128x512_S1024x512_1_0_0_1_n_n.lhsIdx i q 0).val = (i 0).val := by
  unfold DotDims.lhsIdx
  rw [dif_neg (show ¬(0 : Fin S1024x128.rank) ∈ dot_S1024x128_S128x512_S1024x512_1_0_0_1_n_n.lhsBatch by decide), dif_pos (show (0 : Fin S1024x128.rank) ∈ dot_S1024x128_S128x512_S1024x512_1_0_0_1_n_n.lhsNonContracting by decide)]
  rfl
theorem lhs_scores_1 (i : S1024x512.Idx) (q : dot_S1024x128_S128x512_S1024x512_1_0_0_1_n_n.contr.Idx) :
    (dot_S1024x128_S128x512_S1024x512_1_0_0_1_n_n.lhsIdx i q 1).val = (q ⟨0, by decide⟩).val :=
  dot_S1024x128_S128x512_S1024x512_1_0_0_1_n_n.lhsIdx_val_of_single rfl i q
theorem rhs_scores_0 (i : S1024x512.Idx) (q : dot_S1024x128_S128x512_S1024x512_1_0_0_1_n_n.contr.Idx) :
    (dot_S1024x128_S128x512_S1024x512_1_0_0_1_n_n.rhsIdx i q 0).val = (q ⟨0, by decide⟩).val :=
  dot_S1024x128_S128x512_S1024x512_1_0_0_1_n_n.rhsIdx_val_of_single rfl i q
theorem rhs_scores_1 (i : S1024x512.Idx) (q : dot_S1024x128_S128x512_S1024x512_1_0_0_1_n_n.contr.Idx) :
    (dot_S1024x128_S128x512_S1024x512_1_0_0_1_n_n.rhsIdx i q 1).val = (i 1).val := by
  unfold DotDims.rhsIdx
  rw [dif_neg (show ¬(1 : Fin S128x512.rank) ∈ dot_S1024x128_S128x512_S1024x512_1_0_0_1_n_n.rhsBatch by decide), dif_pos (show (1 : Fin S128x512.rank) ∈ dot_S1024x128_S128x512_S1024x512_1_0_0_1_n_n.rhsNonContracting by decide)]
  rfl

/-- The scores product into the zero accumulator, at (b, j): the sum over the 128 features of row b of the left operand
    times column j of the right. -/
theorem matmul_scores_apply {φ₁ φ₂ : FTy} (lhs : FVec Ideal S1024x128 φ₁) (rhs : FVec Ideal S128x512 φ₂) (b : Fin 1024) (j : Fin 512) :
    matmul dot_S1024x128_S128x512_S1024x512_1_0_0_1_n_n none lhs rhs (constant S1024x512 .f32 0x00000000#32) (ix2 b j)
      = ∑ e : Fin 128, lhs (ix2 b e) * rhs (ix2 e j) := by
  simp only [matmul]
  rw [Ideal.matmul_constant_zero_apply, ← Equiv.sum_comp (ValueIdx.contrEquiv1 dot_S1024x128_S128x512_S1024x512_1_0_0_1_n_n 128 rfl rfl).symm]
  refine Finset.sum_congr rfl fun k _ => ?_
  have hk := ValueIdx.contrEquiv1_symm_val dot_S1024x128_S128x512_S1024x512_1_0_0_1_n_n 128 rfl rfl k
  have el : dot_S1024x128_S128x512_S1024x512_1_0_0_1_n_n.lhsIdx (ix2 b j) ((ValueIdx.contrEquiv1 dot_S1024x128_S128x512_S1024x512_1_0_0_1_n_n 128 rfl rfl).symm k) = ix2 b k := funext fun a => Fin.ext (by
    match a with
    | ⟨0, _⟩ => exact lhs_scores_0 _ _
    | ⟨1, _⟩ => exact (lhs_scores_1 _ _).trans hk)
  have er : dot_S1024x128_S128x512_S1024x512_1_0_0_1_n_n.rhsIdx (ix2 b j) ((ValueIdx.contrEquiv1 dot_S1024x128_S128x512_S1024x512_1_0_0_1_n_n 128 rfl rfl).symm k) = ix2 k j := funext fun a => Fin.ext (by
    match a with
    | ⟨0, _⟩ => exact (rhs_scores_0 _ _).trans hk
    | ⟨1, _⟩ => exact rhs_scores_1 _ _)
  rw [el, er]

/-- The [128 × 512] by [512 × 2048] product: the four axis facts. -/
theorem lhs_orgsum_0 (i : S128x2048.Idx) (q : dot_S128x512_S512x2048_S128x2048_1_0_0_1_n_n.contr.Idx) :
    (dot_S128x512_S512x2048_S128x2048_1_0_0_1_n_n.lhsIdx i q 0).val = (i 0).val := by
  unfold DotDims.lhsIdx
  rw [dif_neg (show ¬(0 : Fin S128x512.rank) ∈ dot_S128x512_S512x2048_S128x2048_1_0_0_1_n_n.lhsBatch by decide), dif_pos (show (0 : Fin S128x512.rank) ∈ dot_S128x512_S512x2048_S128x2048_1_0_0_1_n_n.lhsNonContracting by decide)]
  rfl
theorem lhs_orgsum_1 (i : S128x2048.Idx) (q : dot_S128x512_S512x2048_S128x2048_1_0_0_1_n_n.contr.Idx) :
    (dot_S128x512_S512x2048_S128x2048_1_0_0_1_n_n.lhsIdx i q 1).val = (q ⟨0, by decide⟩).val :=
  dot_S128x512_S512x2048_S128x2048_1_0_0_1_n_n.lhsIdx_val_of_single rfl i q
theorem rhs_orgsum_0 (i : S128x2048.Idx) (q : dot_S128x512_S512x2048_S128x2048_1_0_0_1_n_n.contr.Idx) :
    (dot_S128x512_S512x2048_S128x2048_1_0_0_1_n_n.rhsIdx i q 0).val = (q ⟨0, by decide⟩).val :=
  dot_S128x512_S512x2048_S128x2048_1_0_0_1_n_n.rhsIdx_val_of_single rfl i q
theorem rhs_orgsum_1 (i : S128x2048.Idx) (q : dot_S128x512_S512x2048_S128x2048_1_0_0_1_n_n.contr.Idx) :
    (dot_S128x512_S512x2048_S128x2048_1_0_0_1_n_n.rhsIdx i q 1).val = (i 1).val := by
  unfold DotDims.rhsIdx
  rw [dif_neg (show ¬(1 : Fin S512x2048.rank) ∈ dot_S128x512_S512x2048_S128x2048_1_0_0_1_n_n.rhsBatch by decide), dif_pos (show (1 : Fin S512x2048.rank) ∈ dot_S128x512_S512x2048_S128x2048_1_0_0_1_n_n.rhsNonContracting by decide)]
  rfl

/-- The organisation-sum product into the zero accumulator, at (e, o): the sum over the tile's 512 columns. -/
theorem matmul_orgsum_apply {φ₁ φ₂ : FTy} (lhs : FVec Ideal S128x512 φ₁) (rhs : FVec Ideal S512x2048 φ₂) (e : Fin 128) (o : Fin 2048) :
    matmul dot_S128x512_S512x2048_S128x2048_1_0_0_1_n_n none lhs rhs (constant S128x2048 .f32 0x00000000#32) (ix2 e o)
      = ∑ j : Fin 512, lhs (ix2 e j) * rhs (ix2 j o) := by
  simp only [matmul]
  rw [Ideal.matmul_constant_zero_apply, ← Equiv.sum_comp (ValueIdx.contrEquiv1 dot_S128x512_S512x2048_S128x2048_1_0_0_1_n_n 512 rfl rfl).symm]
  refine Finset.sum_congr rfl fun k _ => ?_
  have hk := ValueIdx.contrEquiv1_symm_val dot_S128x512_S512x2048_S128x2048_1_0_0_1_n_n 512 rfl rfl k
  have el : dot_S128x512_S512x2048_S128x2048_1_0_0_1_n_n.lhsIdx (ix2 e o) ((ValueIdx.contrEquiv1 dot_S128x512_S512x2048_S128x2048_1_0_0_1_n_n 512 rfl rfl).symm k) = ix2 e k := funext fun a => Fin.ext (by
    match a with
    | ⟨0, _⟩ => exact lhs_orgsum_0 _ _
    | ⟨1, _⟩ => exact (lhs_orgsum_1 _ _).trans hk)
  have er : dot_S128x512_S512x2048_S128x2048_1_0_0_1_n_n.rhsIdx (ix2 e o) ((ValueIdx.contrEquiv1 dot_S128x512_S512x2048_S128x2048_1_0_0_1_n_n 512 rfl rfl).symm k) = ix2 k o := funext fun a => Fin.ext (by
    match a with
    | ⟨0, _⟩ => exact (rhs_orgsum_0 _ _).trans hk
    | ⟨1, _⟩ => exact rhs_orgsum_1 _ _)
  rw [el, er]

/-! ## The payloads -/

/-- SCORES OF THE TILE at (b, j): the sum over the 128 features of the batch block's row b times column j of the tile
    divided by the larger of the column's Euclidean norm and the small constant (the narrowing of both operands to the
    16-bit format changes nothing over the extended reals, and the zero accumulator adds nothing). -/
theorem pay7_apply (v3 : Vec Ideal S128x512 .f32) (v30 : Vec Ideal S1024x128 .bf16) (b : Fin 1024) (j : Fin 512) :
    k0_pay7 (F := Ideal) v3 v30 (ix2 b j)
      = ∑ e : Fin 128, v30 (ix2 b e) * Ideal.div (v3 (ix2 e j))
          (max (Ideal.sqrt (∑ e' : Fin 128, v3 (ix2 e' j) * v3 (ix2 e' j))) (Ideal.ofBits .f32 0x2B8CBCCC#32)) := by
  unfold k0_pay7
  refine (matmul_scores_apply _ _ b j).trans (Finset.sum_congr rfl fun e _ => ?_)
  refine congrArg₂ (· * ·) (congrFun (shapeCast_self v30 _) _) ?_
  refine congrArg (Ideal.div (v3 (ix2 e j))) ((broadcastTo_1b_ab_apply _ _ e j).trans ?_)
  refine congrArg (fun x : EReal => max (Ideal.sqrt x) (Ideal.ofBits .f32 0x2B8CBCCC#32)) ?_
  exact (shapeCast_a_1a_apply _ _ (0 : Fin 1) j).trans (sum_axis0 _ _ _ _ j)

/-- RUNNING MAXIMUM at row b: the larger of the carried maximum and the maximum of the tile's scores in row b (the
    fold of max from −∞ over the row's 512 entries). -/
theorem pay10_apply (v32 : FVec Ideal S1024x512 .f32) (v50 : Vec Ideal S1024x1 .f32) (b : Fin 1024) (u : Fin 1) :
    k0_pay10 (F := Ideal) v32 v50 (ix2 b u)
      = max (v50 (ix2 b u)) ((Finset.univ : Finset (Fin 512)).fold max (⊥ : EReal) fun j => v32 (ix2 b j)) := by
  unfold k0_pay10
  exact congrArg (max (v50 (ix2 b u))) ((shapeCast_a_a1_apply _ _ b u).trans (max_axis1 _ _ _ _ b))

/-- The fold of max from −∞ over a row is the row's supremum. -/
theorem fold_max_eq_sup {m : ℕ} (f : Fin m → EReal) :
    (Finset.univ : Finset (Fin m)).fold max (⊥ : EReal) f = Finset.univ.sup f := rfl

/-- The stored maximum is the running maximum: the cast to the same shape is the identity. -/
theorem pay12_eq (v32 : FVec Ideal S1024x512 .f32) (v50 : Vec Ideal S1024x1 .f32) :
    k0_pay12 (F := Ideal) v32 v50 = k0_pay10 (F := Ideal) v32 v50 := by
  unfold k0_pay12
  exact shapeCast_self _ _

/-- RUNNING SUM OF EXPONENTIALS at row b, with M the new running maximum there: the carried sum rescaled by
    exp (old maximum − M), plus the sum over the tile's 512 columns of exp (score − M). -/
theorem pay11_apply (v32 : FVec Ideal S1024x512 .f32) (v50 v52 v55 : Vec Ideal S1024x1 .f32) (b : Fin 1024) (u : Fin 1) :
    k0_pay11 (F := Ideal) v32 v50 v52 v55 (ix2 b u)
      = v55 (ix2 b u) * Ideal.exp (v52 (ix2 b u) - k0_pay10 (F := Ideal) v32 v50 (ix2 b u))
        + ∑ j : Fin 512, Ideal.exp (v32 (ix2 b j) - k0_pay10 (F := Ideal) v32 v50 (ix2 b u)) := by
  obtain rfl : u = 0 := Subsingleton.elim u 0
  unfold k0_pay11
  refine (congrFun (shapeCast_self _ _) _).trans ?_
  refine congrArg (v55 (ix2 b 0) * Ideal.exp (v52 (ix2 b 0) - k0_pay10 (F := Ideal) v32 v50 (ix2 b 0)) + ·) ?_
  refine (shapeCast_a_a1_apply _ _ b 0).trans ((sum_axis1 _ _ _ _ b).trans (Finset.sum_congr rfl fun j _ => ?_))
  exact congrArg (fun x : EReal => Ideal.exp (v32 (ix2 b j) - x)) (broadcastTo_a1_ab_apply _ _ b j)

/-- A comparison for equality of two words, widened to a word and converted to a float, is the indicator of the
    equality: 1 where the words agree, 0 where they differ. -/
theorem indicator_word (x y : BitVec 32) :
    ((((IntOp.cmpi .eq x y).setWidth 32).toInt : ℝ) : EReal) = if x = y then 1 else 0 := by
  by_cases h : x = y
  · have e : IntOp.cmpi .eq x y = 1#1 := by subst h; simp [IntOp.cmpi]
    rw [e, if_pos h, show ((1#1 : BitVec 1).setWidth 32).toInt = 1 from by decide]
    simp
  · have e : IntOp.cmpi .eq x y = 0#1 := by
      show BitVec.ofBool (x == y) = 0#1
      rw [beq_eq_false_iff_ne.2 h]
      rfl
    rw [e, if_neg h, show ((0#1 : BitVec 1).setWidth 32).toInt = 0 from by decide]
    simp

/-- MATCHED-SCORE SUM at row b: the carried sum plus the sum over the tile's columns j of the score (b, j) where the
    batch row's organisation word equals the column's. -/
theorem pay9_apply (v7 : IVec S1x512 32) (v32 : FVec Ideal S1024x512 .f32) (v35 : IVec S1024x512 32) (v40 : Vec Ideal S1024x1 .f32)
    (b : Fin 1024) (u : Fin 1) :
    k0_pay9 (F := Ideal) v7 v32 v35 v40 (ix2 b u)
      = v40 (ix2 b u) + ∑ j : Fin 512, (if v35 (ix2 b j) = v7 (ix2 (0 : Fin 1) j) then (1 : EReal) else 0) * v32 (ix2 b j) := by
  unfold k0_pay9
  refine (congrFun (shapeCast_self _ _) _).trans ?_
  refine congrArg (v40 (ix2 b u) + ·) ?_
  refine (shapeCast_a_a1_apply _ _ b u).trans ((sum_axis1 _ _ _ _ b).trans (Finset.sum_congr rfl fun j _ => ?_))
  refine congrArg (· * v32 (ix2 b j)) ((indicator_word _ _).trans ?_)
  exact congrArg (fun w : BitVec 32 => if v35 (ix2 b j) = w then (1 : EReal) else 0) (broadcastTo_1b_ab_apply v7 _ b j)

/-- COLUMN SUMS PER ORGANISATION at (e, o): the carried sum plus the sum over the tile's columns j whose organisation
    word is o of the queue entry (e, j) (the one-hot matrix compares the word of column j with the position o along the
    2048 organisations, as a 32-bit word). -/
theorem pay6_apply (v3 : Vec Ideal S128x512 .f32) (v4 : Vec Ideal S512x1 .i32) (v15 : Vec Ideal S128x2048 .f32)
    (e : Fin 128) (o : Fin 2048) :
    k0_pay6 (F := Ideal) v3 v4 v15 (ix2 e o)
      = v15 (ix2 e o) + ∑ j : Fin 512, v3 (ix2 e j) * (if v4 (ix2 j (0 : Fin 1)) = BitVec.ofNat 32 o.val then (1 : EReal) else 0) := by
  unfold k0_pay6
  refine (congrFun (shapeCast_self _ _) _).trans ?_
  refine congrArg (v15 (ix2 e o) + ·) ?_
  refine (matmul_orgsum_apply _ _ e o).trans (Finset.sum_congr rfl fun j _ => ?_)
  refine congrArg (v3 (ix2 e j) * ·) ((indicator_word _ _).trans ?_)
  exact congrArg₂ (fun x y : BitVec 32 => if x = y then (1 : EReal) else 0)
    ((broadcastTo_a1_ab_apply _ _ j o).trans (congrFun (shapeCast_self v4 _) _))
    (iota_single_apply .tc S512x2048 32 1 _ (ix2 j o))

/-! ## The layout-only and constant payloads -/

/-- The batch's organisation column broadcast along the tile: constant along each row. -/
theorem pay8_apply (v33 : Vec Ideal S1024x1 .i32) (b : Fin 1024) (j : Fin 512) :
    k0_pay8 (F := Ideal) v33 (ix2 b j) = v33 (ix2 b (0 : Fin 1)) := by
  unfold k0_pay8
  exact (broadcastTo_a1_ab_apply _ _ b j).trans (congrFun (shapeCast_self v33 _) _)

/-- The tile's organisation row, cast to its own shape. -/
theorem pay5_eq (v6 : Vec Ideal S1x512 .i32) : k0_pay5 (F := Ideal) v6 = v6 := by
  unfold k0_pay5
  exact shapeCast_self v6 _

/-- The column sums stored under a leading unit axis. -/
theorem pay13_apply (v72 : Vec Ideal S128x2048 .f32) (u : Fin 1) (e : Fin 128) (o : Fin 2048) :
    k0_pay13 (F := Ideal) v72 (ix3 u e o) = v72 (ix2 e o) := by
  unfold k0_pay13
  exact shapeCast_ab_1ab_apply v72 _ u e o

/-- The three row statistics stored under a leading unit axis. -/
theorem pay14_apply (v76 : Vec Ideal S1024x1 .f32) (u : Fin 1) (b : Fin 1024) (w : Fin 1) :
    k0_pay14 (F := Ideal) v76 (ix3 u b w) = v76 (ix2 b w) := by
  unfold k0_pay14
  exact shapeCast_ab_1ab_apply v76 _ u b w
theorem pay15_apply (v80 : Vec Ideal S1024x1 .f32) (u : Fin 1) (b : Fin 1024) (w : Fin 1) :
    k0_pay15 (F := Ideal) v80 (ix3 u b w) = v80 (ix2 b w) := by
  unfold k0_pay15
  exact shapeCast_ab_1ab_apply v80 _ u b w
theorem pay16_apply (v84 : Vec Ideal S1024x1 .f32) (u : Fin 1) (b : Fin 1024) (w : Fin 1) :
    k0_pay16 (F := Ideal) v84 (ix3 u b w) = v84 (ix2 b w) := by
  unfold k0_pay16
  exact shapeCast_ab_1ab_apply v84 _ u b w

/-- The initial column sums: zero everywhere. -/
theorem pay1_apply (i : S128x2048.Idx) : k0_pay1 (F := Ideal) i = 0 := by
  unfold k0_pay1
  exact (congrFun (shapeCast_self _ _) i).trans Ideal.ofBits_zero_f32

/-- The initial running maximum: the word 0xF149F2CA everywhere. -/
theorem pay2_apply (i : S1024x1.Idx) : k0_pay2 (F := Ideal) i = Ideal.ofBits .f32 0xF149F2CA#32 := by
  unfold k0_pay2
  exact congrFun (shapeCast_self _ _) i

/-- The initial running sum of exponentials and matched-score sum: zero everywhere. -/
theorem pay3_apply (i : S1024x1.Idx) : k0_pay3 (F := Ideal) i = 0 := by
  unfold k0_pay3
  exact (congrFun (shapeCast_self _ _) i).trans Ideal.ofBits_zero_f32
theorem pay4_apply (i : S1024x1.Idx) : k0_pay4 (F := Ideal) i = 0 := by
  unfold k0_pay4
  exact (congrFun (shapeCast_self _ _) i).trans Ideal.ofBits_zero_f32

end Cert.KernelIdeal.PayVal

end
-- ==== Proof.KI.Blocks.lean ====
/-
  Each input window's block at a grid point, read at explicit coordinates, is its array at the global index. The grid's
  128 points are numbered t = 64·core + tile; the streamed windows (the queue in column blocks of 512, its labels as a
  column and as a row in blocks of 512) sit at block index t along the streamed axis, so coordinate j of block t is
  coordinate 512·t + j of the array; the two resident windows have one block, the whole array.
-/
import proofs.«405218_j60748017434937_2_alg».proof.Proof.KI.Base
import Idealize.ShloMosaic.Lib.ValueIdx
import Idealize.ShloMosaic.Lib.Pipeline.Value

set_option maxRecDepth 16384

noncomputable section

namespace Cert.KernelIdeal.Hand

open Cert.KernelIdeal Cert.KernelIdeal.Gen
open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)
open Idealize.ShloMosaic.ValueIdx

variable {F : FTy → Type} [FloatOps F]

local notation "𝕄" => MT nD τ sig Unit (Elt F) ℕ (UR sig nD τ) ℕ

variable (m : (ℓ : Loc nD τ sig) → Buf (Elt F) ℓ) (ρ : Dev nD → PrngReg)

/-! ## The windows' arrays and the grid -/

theorem arrRef0 : Pipeline.arrRef spec0 0 = main_arg3 := rfl
theorem arrRef1 : Pipeline.arrRef spec0 1 = main_v42 := rfl
theorem arrRef2 : Pipeline.arrRef spec0 2 = main_v43 := rfl
theorem arrRef3 : Pipeline.arrRef spec0 3 = main_v40 := rfl
theorem arrRef4 : Pipeline.arrRef spec0 4 = main_v41 := rfl

/-- A grid point's number is below 128. -/
theorem point_lt (t : Fin cfg0.N) : t.val < 128 := lt_of_lt_of_eq t.isLt N_0

/-! ## The printed index maps, decided over the grid -/

/-- The queue's block index at point `t` is `(0, t)`. -/
theorem index0 : ∀ t : Fin cfg0.N, win0_0.index t (0 : Fin 2) = 0 ∧ win0_0.index t (1 : Fin 2) = t.val :=
  (by decide +kernel : ∀ t : Fin grid0.N, _)
/-- The labels' block index, as a column, is `(t, 0)`. -/
theorem index1 : ∀ t : Fin cfg0.N, win0_1.index t (0 : Fin 2) = t.val ∧ win0_1.index t (1 : Fin 2) = 0 :=
  (by decide +kernel : ∀ t : Fin grid0.N, _)
/-- The labels' block index, as a row, is `(0, t)`. -/
theorem index2 : ∀ t : Fin cfg0.N, win0_2.index t (0 : Fin 2) = 0 ∧ win0_2.index t (1 : Fin 2) = t.val :=
  (by decide +kernel : ∀ t : Fin grid0.N, _)
/-- The resident windows stay at block `(0, 0)`. -/
theorem index3 : ∀ t : Fin cfg0.N, win0_3.index t (0 : Fin 2) = 0 ∧ win0_3.index t (1 : Fin 2) = 0 :=
  (by decide +kernel : ∀ t : Fin grid0.N, _)
theorem index4 : ∀ t : Fin cfg0.N, win0_4.index t (0 : Fin 2) = 0 ∧ win0_4.index t (1 : Fin 2) = 0 :=
  (by decide +kernel : ∀ t : Fin grid0.N, _)

/-! ## A block's element is the array's, coordinate by coordinate -/

/-- Window 0: row `x 0`, column `512·t + x 1` of the queue. -/
theorem iblk0_at (c : Dev nD) (t : Fin cfg0.N) (x : S128x512.Idx) (k : S128x65536.Idx)
    (hk0 : (k 0).val = (x 0).val) (hk1 : (k 1).val = t.val * 512 + (x 1).val) :
    (iblk m c 0 t : S128x512.Idx → Elt F .f32) x = (V m c (Pipeline.arrRef spec0 0) : S128x65536.Idx → Elt F .f32) k := by
  obtain ⟨h0, h1⟩ := index0 t
  unfold iblk
  rw [View.read_apply]
  show (V m c main_arg3 : S128x65536.Idx → Elt F .f32) (((cfg0.win 0).blk t).view.emb x) = (V m c main_arg3 : S128x65536.Idx → Elt F .f32) k
  refine congrArg (V m c main_arg3 : S128x65536.Idx → Elt F .f32) (funext fun a => Fin.ext ?_)
  match a with
  | ⟨0, _⟩ => show win0_0.index t 0 * 128 + 1 * (x 0).val = (k 0).val; omega
  | ⟨1, _⟩ => show win0_0.index t 1 * 512 + 1 * (x 1).val = (k 1).val; omega

/-- Window 1: row `512·t + x 0` of the labels' column. -/
theorem iblk1_at (c : Dev nD) (t : Fin cfg0.N) (x : S512x1.Idx) (k : S65536x1.Idx)
    (hk0 : (k 0).val = t.val * 512 + (x 0).val) (hk1 : (k 1).val = (x 1).val) :
    (iblk m c 1 t : S512x1.Idx → Elt F .i32) x = (V m c (Pipeline.arrRef spec0 1) : S65536x1.Idx → Elt F .i32) k := by
  obtain ⟨h0, h1⟩ := index1 t
  unfold iblk
  rw [View.read_apply]
  show (V m c main_v42 : S65536x1.Idx → Elt F .i32) (((cfg0.win 1).blk t).view.emb x) = (V m c main_v42 : S65536x1.Idx → Elt F .i32) k
  refine congrArg (V m c main_v42 : S65536x1.Idx → Elt F .i32) (funext fun a => Fin.ext ?_)
  match a with
  | ⟨0, _⟩ => show win0_1.index t 0 * 512 + 1 * (x 0).val = (k 0).val; omega
  | ⟨1, _⟩ => show win0_1.index t 1 * 1 + 1 * (x 1).val = (k 1).val; omega

/-- Window 2: column `512·t + x 1` of the labels' row. -/
theorem iblk2_at (c : Dev nD) (t : Fin cfg0.N) (x : S1x512.Idx) (k : S1x65536.Idx)
    (hk0 : (k 0).val = (x 0).val) (hk1 : (k 1).val = t.val * 512 + (x 1).val) :
    (iblk m c 2 t : S1x512.Idx → Elt F .i32) x = (V m c (Pipeline.arrRef spec0 2) : S1x65536.Idx → Elt F .i32) k := by
  obtain ⟨h0, h1⟩ := index2 t
  unfold iblk
  rw [View.read_apply]
  show (V m c main_v43 : S1x65536.Idx → Elt F .i32) (((cfg0.win 2).blk t).view.emb x) = (V m c main_v43 : S1x65536.Idx → Elt F .i32) k
  refine congrArg (V m c main_v43 : S1x65536.Idx → Elt F .i32) (funext fun a => Fin.ext ?_)
  match a with
  | ⟨0, _⟩ => show win0_2.index t 0 * 1 + 1 * (x 0).val = (k 0).val; omega
  | ⟨1, _⟩ => show win0_2.index t 1 * 512 + 1 * (x 1).val = (k 1).val; omega

/-- Window 3: its one block is the whole array. -/
theorem iblk3_eq (c : Dev nD) (t : Fin cfg0.N) :
    (iblk m c 3 t : S1024x128.Idx → Elt F .bf16) = (V m c (Pipeline.arrRef spec0 3) : S1024x128.Idx → Elt F .bf16) := by
  obtain ⟨h0, h1⟩ := index3 t
  funext x
  unfold iblk
  rw [View.read_apply]
  show (V m c main_v40 : S1024x128.Idx → Elt F .bf16) (((cfg0.win 3).blk t).view.emb x) = (V m c main_v40 : S1024x128.Idx → Elt F .bf16) x
  refine congrArg (V m c main_v40 : S1024x128.Idx → Elt F .bf16) (funext fun a => Fin.ext ?_)
  match a with
  | ⟨0, _⟩ => show win0_3.index t 0 * 1024 + 1 * (x 0).val = (x 0).val; omega
  | ⟨1, _⟩ => show win0_3.index t 1 * 128 + 1 * (x 1).val = (x 1).val; omega

/-- Window 4: its one block is the whole array. -/
theorem iblk4_eq (c : Dev nD) (t : Fin cfg0.N) :
    (iblk m c 4 t : S1024x1.Idx → Elt F .i32) = (V m c (Pipeline.arrRef spec0 4) : S1024x1.Idx → Elt F .i32) := by
  obtain ⟨h0, h1⟩ := index4 t
  funext x
  unfold iblk
  rw [View.read_apply]
  show (V m c main_v41 : S1024x1.Idx → Elt F .i32) (((cfg0.win 4).blk t).view.emb x) = (V m c main_v41 : S1024x1.Idx → Elt F .i32) x
  refine congrArg (V m c main_v41 : S1024x1.Idx → Elt F .i32) (funext fun a => Fin.ext ?_)
  match a with
  | ⟨0, _⟩ => show win0_4.index t 0 * 1024 + 1 * (x 0).val = (x 0).val; omega
  | ⟨1, _⟩ => show win0_4.index t 1 * 1 + 1 * (x 1).val = (x 1).val; omega

/-! ## The same at coordinates -/

theorem iblk0_apply (c : Dev nD) (t : Fin cfg0.N) (e : Fin 128) (j : Fin 512) :
    iblk m c 0 t (ix2 e j)
      = V m c (Pipeline.arrRef spec0 0) (ix2 e ⟨t.val * 512 + j.val, by have := point_lt t; have := j.isLt; omega⟩) :=
  iblk0_at m c t (ix2 e j) (ix2 e ⟨t.val * 512 + j.val, by have := point_lt t; have := j.isLt; omega⟩) rfl rfl

theorem iblk1_apply (c : Dev nD) (t : Fin cfg0.N) (j : Fin 512) :
    iblk m c 1 t (ix2 j (0 : Fin 1))
      = V m c (Pipeline.arrRef spec0 1) (ix2 ⟨t.val * 512 + j.val, by have := point_lt t; have := j.isLt; omega⟩ (0 : Fin 1)) :=
  iblk1_at m c t (ix2 j 0) (ix2 ⟨t.val * 512 + j.val, by have := point_lt t; have := j.isLt; omega⟩ 0) rfl rfl

theorem iblk2_apply (c : Dev nD) (t : Fin cfg0.N) (j : Fin 512) :
    iblk m c 2 t (ix2 (0 : Fin 1) j)
      = V m c (Pipeline.arrRef spec0 2) (ix2 (0 : Fin 1) ⟨t.val * 512 + j.val, by have := point_lt t; have := j.isLt; omega⟩) :=
  iblk2_at m c t (ix2 0 j) (ix2 0 ⟨t.val * 512 + j.val, by have := point_lt t; have := j.isLt; omega⟩) rfl rfl

theorem iblk3_apply (c : Dev nD) (t : Fin cfg0.N) (b : Fin 1024) (e : Fin 128) :
    iblk m c 3 t (ix2 b e) = V m c (Pipeline.arrRef spec0 3) (ix2 b e) :=
  congrFun (iblk3_eq m c t) (ix2 b e)

theorem iblk4_apply (c : Dev nD) (t : Fin cfg0.N) (b : Fin 1024) :
    iblk m c 4 t (ix2 b (0 : Fin 1)) = V m c (Pipeline.arrRef spec0 4) (ix2 b (0 : Fin 1)) :=
  congrFun (iblk4_eq m c t) (ix2 b 0)

end Cert.KernelIdeal.Hand

end
-- ==== Proof.KI.ArrOut.lean ====
/-
  The four output arrays after the run, slab by slab. Each output window has one block per core, the core's slab of its
  array, and writes it back exactly once, after the core's last tile (points 63 and 127); so slab k of each array ends at
  what the output buffer held after point 64·k + 63.
-/
import proofs.«405218_j60748017434937_2_alg».proof.Proof.KI.Frame
import Idealize.ShloMosaic.Lib.ValueIdx
import Idealize.ShloMosaic.Lib.Pipeline.Value

set_option maxRecDepth 16384

noncomputable section

namespace Cert.KernelIdeal.Hand

open Cert.KernelIdeal Cert.KernelIdeal.Gen
open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)
open Idealize.ShloMosaic.ValueIdx

variable {F : FTy → Type} [FloatOps F]

local notation "𝕄" => MT nD τ sig Unit (Elt F) ℕ (UR sig nD τ) ℕ

variable (m : (ℓ : Loc nD τ sig) → Buf (Elt F) ℓ) (ρ : Dev nD → PrngReg)

/-! ## A core's last tile -/

/-- Core `k`'s last tile, as a grid point: number `64·k + 63`. -/
abbrev lastTile (k : Fin 2) : Fin cfg0.N := ⟨k.val * 64 + 63, by have hN : cfg0.N = 128 := N_0; have := k.isLt; omega⟩

theorem lastTile_mod (k : Fin 2) : (lastTile k).val % 64 = 63 := by show (k.val * 64 + 63) % 64 = 63; omega

/-! ## Output window 5 -/

/-- Its block index at point `t` is `(t / 64, 0, 0)`: the core's slab. -/
theorem index5 : ∀ t : Fin cfg0.N, win0_5.index t (0 : Fin 3) = t.val / 64 ∧ win0_5.index t (1 : Fin 3) = 0 ∧ win0_5.index t (2 : Fin 3) = 0 :=
  (by decide +kernel : ∀ t : Fin grid0.N, _)

/-- The array the two write-backs assemble: slab `k` is what core `k`'s last tile left in the output buffer. -/
def G5 (c : Dev nD) : S2x128x2048.Idx → Elt F .f32 := fun i =>
  ((outAt m c (lastTile (i 0))).1 : S1x128x2048.Idx → Elt F .f32) (ix3 (0 : Fin 1) (i 1 : Fin 128) (i 2 : Fin 2048))

/-- It reads, under a last tile's block, what that tile left. -/
theorem G5_at (c : Dev nD) (t : Fin cfg0.N) (h63 : t.val % 64 = 63) (y : S1x128x2048.Idx) (i : S2x128x2048.Idx)
    (h0 : (i 0).val = t.val / 64) (h1 : (i 1).val = (y 1).val) (h2 : (i 2).val = (y 2).val) :
    G5 m c i = ((outAt m c t).1 : S1x128x2048.Idx → Elt F .f32) y := by
  unfold G5
  have ht : lastTile (i 0) = t := Fin.ext (by show (i 0).val * 64 + 63 = t.val; omega)
  have hy : (ix3 (0 : Fin 1) (i 1 : Fin 128) (i 2 : Fin 2048) : S1x128x2048.Idx) = y := by
    funext a
    match a with
    | ⟨0, _⟩ => exact Fin.ext (by have hy0 : (y 0).val < 1 := (y 0).isLt; show 0 = (y 0).val; omega)
    | ⟨1, _⟩ => exact Fin.ext h1
    | ⟨2, _⟩ => exact Fin.ext h2
  rw [ht, hy]

/-- What a last tile writes back is its block of that array. -/
theorem flushed5_eq (c : Dev nD) (t : Fin cfg0.N) (hf : (cfg0.win 5).flush t = true) :
    (dats m 0 c).flushed 5 t = ((cfg0.win 5).blk t).view.read (Elt F) (G5 m c) := by
  have h63 : t.val % 64 = 63 := (flush0_5 t).mp hf
  obtain ⟨e0, e1, e2⟩ := index5 t
  show (cfg0.win 5).cut (grid0.coords t) ((dats m 0 c).after 5 t) = _
  rw [after0_5]
  funext y
  rw [View.read_apply]
  show ((outAt m c t).1 : S1x128x2048.Idx → Elt F .f32) y = G5 m c (((cfg0.win 5).blk t).view.emb y)
  refine (G5_at m c t h63 y _ ?_ ?_ ?_).symm
  · show win0_5.index t 0 * 1 + 1 * (y 0).val = t.val / 64; have hy0 : (y 0).val < 1 := (y 0).isLt; omega
  · show win0_5.index t 1 * 128 + 1 * (y 1).val = (y 1).val; omega
  · show win0_5.index t 2 * 2048 + 1 * (y 2).val = (y 2).val; omega

/-- THE ARRAY after the run, slab by slab: core `k`'s slab is what its last tile left in the output buffer. -/
theorem arrOut5 (c : Dev nD) (k : Fin 2) (e : Fin 128) (o : Fin 2048) :
    ((dats m 0 c).arrAt 5 cfg0.N : S2x128x2048.Idx → Elt F .f32) (ix3 k e o)
      = ((outAt m c (lastTile k)).1 : S1x128x2048.Idx → Elt F .f32) (ix3 (0 : Fin 1) e o) := by
  have hf : (cfg0.win 5).flush (lastTile k) = true := (flush0_5 _).mpr (lastTile_mod k)
  obtain ⟨e0, e1, e2⟩ := index5 (lastTile k)
  have hemb : ((cfg0.win 5).blk (lastTile k)).view.emb (ix3 (0 : Fin 1) e o) = (ix3 k e o : S2x128x2048.Idx) := by
    funext a; apply Fin.ext
    match a with
    | ⟨0, _⟩ => show win0_5.index (lastTile k) 0 * 1 + 1 * 0 = k.val; rw [e0]; show (k.val * 64 + 63) / 64 * 1 + 1 * 0 = k.val; omega
    | ⟨1, _⟩ => show win0_5.index (lastTile k) 1 * 128 + 1 * e.val = e.val; omega
    | ⟨2, _⟩ => show win0_5.index (lastTile k) 2 * 2048 + 1 * o.val = o.val; omega
  have h := congrFun ((dats m 0 c).read_blk_arrAt 5 (G5 m c) (flushed5_eq m c) (lastTile k) hf) (ix3 (0 : Fin 1) e o)
  rw [View.read_apply, View.read_apply, hemb] at h
  refine Eq.trans h ?_
  exact G5_at m c (lastTile k) (lastTile_mod k) (ix3 (0 : Fin 1) e o) (ix3 k e o) (by show k.val = (k.val * 64 + 63) / 64; omega) rfl rfl

/-! ## Output window 6 -/

/-- Its block index at point `t` is `(t / 64, 0, 0)`: the core's slab. -/
theorem index6 : ∀ t : Fin cfg0.N, win0_6.index t (0 : Fin 3) = t.val / 64 ∧ win0_6.index t (1 : Fin 3) = 0 ∧ win0_6.index t (2 : Fin 3) = 0 :=
  (by decide +kernel : ∀ t : Fin grid0.N, _)

/-- The array the two write-backs assemble: slab `k` is what core `k`'s last tile left in the output buffer. -/
def G6 (c : Dev nD) : S2x1024x1.Idx → Elt F .f32 := fun i =>
  ((outAt m c (lastTile (i 0))).2.1 : S1x1024x1.Idx → Elt F .f32) (ix3 (0 : Fin 1) (i 1 : Fin 1024) (i 2 : Fin 1))

/-- It reads, under a last tile's block, what that tile left. -/
theorem G6_at (c : Dev nD) (t : Fin cfg0.N) (h63 : t.val % 64 = 63) (y : S1x1024x1.Idx) (i : S2x1024x1.Idx)
    (h0 : (i 0).val = t.val / 64) (h1 : (i 1).val = (y 1).val) (h2 : (i 2).val = (y 2).val) :
    G6 m c i = ((outAt m c t).2.1 : S1x1024x1.Idx → Elt F .f32) y := by
  unfold G6
  have ht : lastTile (i 0) = t := Fin.ext (by show (i 0).val * 64 + 63 = t.val; omega)
  have hy : (ix3 (0 : Fin 1) (i 1 : Fin 1024) (i 2 : Fin 1) : S1x1024x1.Idx) = y := by
    funext a
    match a with
    | ⟨0, _⟩ => exact Fin.ext (by have hy0 : (y 0).val < 1 := (y 0).isLt; show 0 = (y 0).val; omega)
    | ⟨1, _⟩ => exact Fin.ext h1
    | ⟨2, _⟩ => exact Fin.ext h2
  rw [ht, hy]

/-- What a last tile writes back is its block of that array. -/
theorem flushed6_eq (c : Dev nD) (t : Fin cfg0.N) (hf : (cfg0.win 6).flush t = true) :
    (dats m 0 c).flushed 6 t = ((cfg0.win 6).blk t).view.read (Elt F) (G6 m c) := by
  have h63 : t.val % 64 = 63 := (flush0_6 t).mp hf
  obtain ⟨e0, e1, e2⟩ := index6 t
  show (cfg0.win 6).cut (grid0.coords t) ((dats m 0 c).after 6 t) = _
  rw [after0_6]
  funext y
  rw [View.read_apply]
  show ((outAt m c t).2.1 : S1x1024x1.Idx → Elt F .f32) y = G6 m c (((cfg0.win 6).blk t).view.emb y)
  refine (G6_at m c t h63 y _ ?_ ?_ ?_).symm
  · show win0_6.index t 0 * 1 + 1 * (y 0).val = t.val / 64; have hy0 : (y 0).val < 1 := (y 0).isLt; omega
  · show win0_6.index t 1 * 1024 + 1 * (y 1).val = (y 1).val; omega
  · show win0_6.index t 2 * 1 + 1 * (y 2).val = (y 2).val; omega

/-- THE ARRAY after the run, slab by slab: core `k`'s slab is what its last tile left in the output buffer. -/
theorem arrOut6 (c : Dev nD) (k : Fin 2) (b : Fin 1024) :
    ((dats m 0 c).arrAt 6 cfg0.N : S2x1024x1.Idx → Elt F .f32) (ix3 k b (0 : Fin 1))
      = ((outAt m c (lastTile k)).2.1 : S1x1024x1.Idx → Elt F .f32) (ix3 (0 : Fin 1) b (0 : Fin 1)) := by
  have hf : (cfg0.win 6).flush (lastTile k) = true := (flush0_6 _).mpr (lastTile_mod k)
  obtain ⟨e0, e1, e2⟩ := index6 (lastTile k)
  have hemb : ((cfg0.win 6).blk (lastTile k)).view.emb (ix3 (0 : Fin 1) b (0 : Fin 1)) = (ix3 k b (0 : Fin 1) : S2x1024x1.Idx) := by
    funext a; apply Fin.ext
    match a with
    | ⟨0, _⟩ => show win0_6.index (lastTile k) 0 * 1 + 1 * 0 = k.val; rw [e0]; show (k.val * 64 + 63) / 64 * 1 + 1 * 0 = k.val; omega
    | ⟨1, _⟩ => show win0_6.index (lastTile k) 1 * 1024 + 1 * b.val = b.val; omega
    | ⟨2, _⟩ => show win0_6.index (lastTile k) 2 * 1 + 1 * 0 = 0; omega
  have h := congrFun ((dats m 0 c).read_blk_arrAt 6 (G6 m c) (flushed6_eq m c) (lastTile k) hf) (ix3 (0 : Fin 1) b (0 : Fin 1))
  rw [View.read_apply, View.read_apply, hemb] at h
  refine Eq.trans h ?_
  exact G6_at m c (lastTile k) (lastTile_mod k) (ix3 (0 : Fin 1) b (0 : Fin 1)) (ix3 k b (0 : Fin 1)) (by show k.val = (k.val * 64 + 63) / 64; omega) rfl rfl

/-! ## Output window 7 -/

/-- Its block index at point `t` is `(t / 64, 0, 0)`: the core's slab. -/
theorem index7 : ∀ t : Fin cfg0.N, win0_7.index t (0 : Fin 3) = t.val / 64 ∧ win0_7.index t (1 : Fin 3) = 0 ∧ win0_7.index t (2 : Fin 3) = 0 :=
  (by decide +kernel : ∀ t : Fin grid0.N, _)

/-- The array the two write-backs assemble: slab `k` is what core `k`'s last tile left in the output buffer. -/
def G7 (c : Dev nD) : S2x1024x1.Idx → Elt F .f32 := fun i =>
  ((outAt m c (lastTile (i 0))).2.2.1 : S1x1024x1.Idx → Elt F .f32) (ix3 (0 : Fin 1) (i 1 : Fin 1024) (i 2 : Fin 1))

/-- It reads, under a last tile's block, what that tile left. -/
theorem G7_at (c : Dev nD) (t : Fin cfg0.N) (h63 : t.val % 64 = 63) (y : S1x1024x1.Idx) (i : S2x1024x1.Idx)
    (h0 : (i 0).val = t.val / 64) (h1 : (i 1).val = (y 1).val) (h2 : (i 2).val = (y 2).val) :
    G7 m c i = ((outAt m c t).2.2.1 : S1x1024x1.Idx → Elt F .f32) y := by
  unfold G7
  have ht : lastTile (i 0) = t := Fin.ext (by show (i 0).val * 64 + 63 = t.val; omega)
  have hy : (ix3 (0 : Fin 1) (i 1 : Fin 1024) (i 2 : Fin 1) : S1x1024x1.Idx) = y := by
    funext a
    match a with
    | ⟨0, _⟩ => exact Fin.ext (by have hy0 : (y 0).val < 1 := (y 0).isLt; show 0 = (y 0).val; omega)
    | ⟨1, _⟩ => exact Fin.ext h1
    | ⟨2, _⟩ => exact Fin.ext h2
  rw [ht, hy]

/-- What a last tile writes back is its block of that array. -/
theorem flushed7_eq (c : Dev nD) (t : Fin cfg0.N) (hf : (cfg0.win 7).flush t = true) :
    (dats m 0 c).flushed 7 t = ((cfg0.win 7).blk t).view.read (Elt F) (G7 m c) := by
  have h63 : t.val % 64 = 63 := (flush0_7 t).mp hf
  obtain ⟨e0, e1, e2⟩ := index7 t
  show (cfg0.win 7).cut (grid0.coords t) ((dats m 0 c).after 7 t) = _
  rw [after0_7]
  funext y
  rw [View.read_apply]
  show ((outAt m c t).2.2.1 : S1x1024x1.Idx → Elt F .f32) y = G7 m c (((cfg0.win 7).blk t).view.emb y)
  refine (G7_at m c t h63 y _ ?_ ?_ ?_).symm
  · show win0_7.index t 0 * 1 + 1 * (y 0).val = t.val / 64; have hy0 : (y 0).val < 1 := (y 0).isLt; omega
  · show win0_7.index t 1 * 1024 + 1 * (y 1).val = (y 1).val; omega
  · show win0_7.index t 2 * 1 + 1 * (y 2).val = (y 2).val; omega

/-- THE ARRAY after the run, slab by slab: core `k`'s slab is what its last tile left in the output buffer. -/
theorem arrOut7 (c : Dev nD) (k : Fin 2) (b : Fin 1024) :
    ((dats m 0 c).arrAt 7 cfg0.N : S2x1024x1.Idx → Elt F .f32) (ix3 k b (0 : Fin 1))
      = ((outAt m c (lastTile k)).2.2.1 : S1x1024x1.Idx → Elt F .f32) (ix3 (0 : Fin 1) b (0 : Fin 1)) := by
  have hf : (cfg0.win 7).flush (lastTile k) = true := (flush0_7 _).mpr (lastTile_mod k)
  obtain ⟨e0, e1, e2⟩ := index7 (lastTile k)
  have hemb : ((cfg0.win 7).blk (lastTile k)).view.emb (ix3 (0 : Fin 1) b (0 : Fin 1)) = (ix3 k b (0 : Fin 1) : S2x1024x1.Idx) := by
    funext a; apply Fin.ext
    match a with
    | ⟨0, _⟩ => show win0_7.index (lastTile k) 0 * 1 + 1 * 0 = k.val; rw [e0]; show (k.val * 64 + 63) / 64 * 1 + 1 * 0 = k.val; omega
    | ⟨1, _⟩ => show win0_7.index (lastTile k) 1 * 1024 + 1 * b.val = b.val; omega
    | ⟨2, _⟩ => show win0_7.index (lastTile k) 2 * 1 + 1 * 0 = 0; omega
  have h := congrFun ((dats m 0 c).read_blk_arrAt 7 (G7 m c) (flushed7_eq m c) (lastTile k) hf) (ix3 (0 : Fin 1) b (0 : Fin 1))
  rw [View.read_apply, View.read_apply, hemb] at h
  refine Eq.trans h ?_
  exact G7_at m c (lastTile k) (lastTile_mod k) (ix3 (0 : Fin 1) b (0 : Fin 1)) (ix3 k b (0 : Fin 1)) (by show k.val = (k.val * 64 + 63) / 64; omega) rfl rfl

/-! ## Output window 8 -/

/-- Its block index at point `t` is `(t / 64, 0, 0)`: the core's slab. -/
theorem index8 : ∀ t : Fin cfg0.N, win0_8.index t (0 : Fin 3) = t.val / 64 ∧ win0_8.index t (1 : Fin 3) = 0 ∧ win0_8.index t (2 : Fin 3) = 0 :=
  (by decide +kernel : ∀ t : Fin grid0.N, _)

/-- The array the two write-backs assemble: slab `k` is what core `k`'s last tile left in the output buffer. -/
def G8 (c : Dev nD) : S2x1024x1.Idx → Elt F .f32 := fun i =>
  ((outAt m c (lastTile (i 0))).2.2.2 : S1x1024x1.Idx → Elt F .f32) (ix3 (0 : Fin 1) (i 1 : Fin 1024) (i 2 : Fin 1))

/-- It reads, under a last tile's block, what that tile left. -/
theorem G8_at (c : Dev nD) (t : Fin cfg0.N) (h63 : t.val % 64 = 63) (y : S1x1024x1.Idx) (i : S2x1024x1.Idx)
    (h0 : (i 0).val = t.val / 64) (h1 : (i 1).val = (y 1).val) (h2 : (i 2).val = (y 2).val) :
    G8 m c i = ((outAt m c t).2.2.2 : S1x1024x1.Idx → Elt F .f32) y := by
  unfold G8
  have ht : lastTile (i 0) = t := Fin.ext (by show (i 0).val * 64 + 63 = t.val; omega)
  have hy : (ix3 (0 : Fin 1) (i 1 : Fin 1024) (i 2 : Fin 1) : S1x1024x1.Idx) = y := by
    funext a
    match a with
    | ⟨0, _⟩ => exact Fin.ext (by have hy0 : (y 0).val < 1 := (y 0).isLt; show 0 = (y 0).val; omega)
    | ⟨1, _⟩ => exact Fin.ext h1
    | ⟨2, _⟩ => exact Fin.ext h2
  rw [ht, hy]

/-- What a last tile writes back is its block of that array. -/
theorem flushed8_eq (c : Dev nD) (t : Fin cfg0.N) (hf : (cfg0.win 8).flush t = true) :
    (dats m 0 c).flushed 8 t = ((cfg0.win 8).blk t).view.read (Elt F) (G8 m c) := by
  have h63 : t.val % 64 = 63 := (flush0_8 t).mp hf
  obtain ⟨e0, e1, e2⟩ := index8 t
  show (cfg0.win 8).cut (grid0.coords t) ((dats m 0 c).after 8 t) = _
  rw [after0_8]
  funext y
  rw [View.read_apply]
  show ((outAt m c t).2.2.2 : S1x1024x1.Idx → Elt F .f32) y = G8 m c (((cfg0.win 8).blk t).view.emb y)
  refine (G8_at m c t h63 y _ ?_ ?_ ?_).symm
  · show win0_8.index t 0 * 1 + 1 * (y 0).val = t.val / 64; have hy0 : (y 0).val < 1 := (y 0).isLt; omega
  · show win0_8.index t 1 * 1024 + 1 * (y 1).val = (y 1).val; omega
  · show win0_8.index t 2 * 1 + 1 * (y 2).val = (y 2).val; omega

/-- THE ARRAY after the run, slab by slab: core `k`'s slab is what its last tile left in the output buffer. -/
theorem arrOut8 (c : Dev nD) (k : Fin 2) (b : Fin 1024) :
    ((dats m 0 c).arrAt 8 cfg0.N : S2x1024x1.Idx → Elt F .f32) (ix3 k b (0 : Fin 1))
      = ((outAt m c (lastTile k)).2.2.2 : S1x1024x1.Idx → Elt F .f32) (ix3 (0 : Fin 1) b (0 : Fin 1)) := by
  have hf : (cfg0.win 8).flush (lastTile k) = true := (flush0_8 _).mpr (lastTile_mod k)
  obtain ⟨e0, e1, e2⟩ := index8 (lastTile k)
  have hemb : ((cfg0.win 8).blk (lastTile k)).view.emb (ix3 (0 : Fin 1) b (0 : Fin 1)) = (ix3 k b (0 : Fin 1) : S2x1024x1.Idx) := by
    funext a; apply Fin.ext
    match a with
    | ⟨0, _⟩ => show win0_8.index (lastTile k) 0 * 1 + 1 * 0 = k.val; rw [e0]; show (k.val * 64 + 63) / 64 * 1 + 1 * 0 = k.val; omega
    | ⟨1, _⟩ => show win0_8.index (lastTile k) 1 * 1024 + 1 * b.val = b.val; omega
    | ⟨2, _⟩ => show win0_8.index (lastTile k) 2 * 1 + 1 * 0 = 0; omega
  have h := congrFun ((dats m 0 c).read_blk_arrAt 8 (G8 m c) (flushed8_eq m c) (lastTile k) hf) (ix3 (0 : Fin 1) b (0 : Fin 1))
  rw [View.read_apply, View.read_apply, hemb] at h
  refine Eq.trans h ?_
  exact G8_at m c (lastTile k) (lastTile_mod k) (ix3 (0 : Fin 1) b (0 : Fin 1)) (ix3 k b (0 : Fin 1)) (by show k.val = (k.val * 64 + 63) / 64; omega) rfl rfl

end Cert.KernelIdeal.Hand

end
-- ==== Proof.LibRowGlue.lean ====
/-
  The row identity over the concrete index types of a row of 1024 in-batch columns followed by
  65536 queue columns streamed in two halves of 64 tiles of 512, and the bookkeeping of the
  streamed accumulation over tiles.
-/
import proofs.«405218_j60748017434937_2_alg».proof.Proof.LibOnlineLse
import Mathlib.Algebra.BigOperators.Fin
import Mathlib.Algebra.BigOperators.Group.Finset.Basic
import Mathlib.Algebra.BigOperators.Ring.Finset
import Mathlib.Data.Fintype.BigOperators

noncomputable section

namespace Cert.LibRowGlue

open Idealize.ShloMosaic
open Cert.LibOnlineLse
open scoped BigOperators

/-! ### Concatenation and splitting of index ranges -/

/-- A row of 1024 entries followed by a row of 65536 entries. -/
def cat {α : Type*} (a : Fin 1024 → α) (b : Fin 65536 → α) : Fin 66560 → α :=
  fun k => if h : k.val < 1024 then a ⟨k.val, h⟩
    else b ⟨k.val - 1024, by have := k.isLt; omega⟩

/-- The concatenation at a position below 1024 is the first row's entry. -/
theorem cat_of_lt {α : Type*} (a : Fin 1024 → α) (b : Fin 65536 → α) (k : Fin 66560)
    (j : Fin 1024) (h : k.val = j.val) : cat a b k = a j := by
  have hj := j.isLt
  unfold cat
  rw [dif_pos (by omega)]
  congr 1
  exact Fin.ext h

/-- The concatenation at a position from 1024 on is the second row's entry. -/
theorem cat_of_ge {α : Type*} (a : Fin 1024 → α) (b : Fin 65536 → α) (k : Fin 66560)
    (j : Fin 65536) (h : k.val = 1024 + j.val) : cat a b k = b j := by
  unfold cat
  rw [dif_neg (by omega)]
  congr 1
  apply Fin.ext
  simp only
  omega

/-- The concatenation of coerced rows is the coercion of the concatenation. -/
theorem cat_coe (a : Fin 1024 → ℝ) (b : Fin 65536 → ℝ) (k : Fin 66560) :
    cat (fun j => (a j : EReal)) (fun j => (b j : EReal)) k = ((cat a b k : ℝ) : EReal) := by
  unfold cat
  split <;> rfl

/-- A sum over an index range splits at any point into the sums over the two parts. -/
theorem sum_split {M : Type*} [AddCommMonoid M] {N : ℕ} (a b : ℕ) (h : a + b = N)
    (F : Fin N → M) :
    ∑ k, F k = ∑ i : Fin a, F ⟨i.val, by have := i.isLt; omega⟩
      + ∑ i : Fin b, F ⟨a + i.val, by have := i.isLt; omega⟩ := by
  subst h
  rw [Fin.sum_univ_add]
  rfl

/-- The positions a, …, a + n - 1 inside an index range of length N, as an embedding. -/
def shiftEmb (N a n : ℕ) (h : a + n ≤ N) : Fin n ↪ Fin N :=
  ⟨fun i => ⟨a + i.val, by have := i.isLt; omega⟩, fun i j hij => by
    have := congrArg Fin.val hij
    simp only at this
    exact Fin.ext (by omega)⟩

/-- The value of the shift embedding. -/
theorem shiftEmb_val (N a n : ℕ) (h : a + n ≤ N) (i : Fin n) :
    (shiftEmb N a n h i).val = a + i.val := rfl

/-- Membership in the image of the shift embedding. -/
theorem mem_map_shiftEmb (N a n : ℕ) (h : a + n ≤ N) (k : Fin N) :
    k ∈ Finset.univ.map (shiftEmb N a n h) ↔ a ≤ k.val ∧ k.val < a + n := by
  rw [Finset.mem_map]
  constructor
  · rintro ⟨i, _, rfl⟩
    have := i.isLt
    rw [shiftEmb_val]
    omega
  · rintro ⟨h1, h2⟩
    exact ⟨⟨k.val - a, by omega⟩, Finset.mem_univ _, Fin.ext (by rw [shiftEmb_val]; simp only; omega)⟩

/-! ### G1. The row identity over the concrete index types -/

/-- The row identity for a row of 1024 in-batch columns followed by 65536 queue columns whose
    two halves are summed apart: the weighted log-softmax sum over the whole row, weights
    normalised by their total, equals the streamed closed form. -/
theorem row_glue (x1 w1 : Fin 1024 → ℝ) (xq wq : Fin 65536 → ℝ)
    (e0 e1 : Fin 32768 → Fin 65536) (he0 : ∀ i, (e0 i).val = i.val)
    (he1 : ∀ i, (e1 i).val = 32768 + i.val)
    {m0 m_0 m_1 l0 l_0 l_1 s0 s_0 s_1 cb cq mc lc fm fl : ℝ}
    (hl0 : l0 = ∑ j : Fin 1024, Real.exp (x1 j - m0))
    (hs0 : s0 = ∑ j : Fin 1024, w1 j * x1 j)
    (hcb : cb = ∑ j : Fin 1024, w1 j)
    (hl_0 : l_0 = ∑ i : Fin 32768, Real.exp (xq (e0 i) - m_0))
    (hl_1 : l_1 = ∑ i : Fin 32768, Real.exp (xq (e1 i) - m_1))
    (hs_0 : s_0 = ∑ i : Fin 32768, wq (e0 i) * xq (e0 i))
    (hs_1 : s_1 = ∑ i : Fin 32768, wq (e1 i) * xq (e1 i))
    (hcq : cq = ∑ j : Fin 65536, wq j)
    (hlc : lc = l_0 * Real.exp (m_0 - mc) + l_1 * Real.exp (m_1 - mc))
    (hfl : fl = l0 * Real.exp (m0 - fm) + lc * Real.exp (mc - fm))
    (hne : cb + cq ≠ 0) (M : ℝ) :
    ∑ k : Fin 66560, (((cat x1 xq k : ℝ) : EReal) - (M : EReal)
          - Ideal.log (∑ k' : Fin 66560, Ideal.exp (((cat x1 xq k' : ℝ) : EReal) - (M : EReal))))
        * Ideal.div ((cat w1 wq k : ℝ) : EReal) (∑ k' : Fin 66560, ((cat w1 wq k' : ℝ) : EReal))
      = Ideal.div ((s0 : EReal) + (s_0 : EReal) + (s_1 : EReal)) ((cb : EReal) + (cq : EReal))
        - ((fm : EReal) + Ideal.log (fl : EReal)) := by
  -- the three parts of the row as images of shifts
  set E0 := shiftEmb 66560 0 1024 (by norm_num) with hE0
  set E1 := shiftEmb 66560 1024 32768 (by norm_num) with hE1
  set E2 := shiftEmb 66560 33792 32768 (by norm_num) with hE2
  have hx0 : ∀ j : Fin 1024, cat x1 xq (E0 j) = x1 j := fun j =>
    cat_of_lt x1 xq _ j (by rw [hE0, shiftEmb_val]; omega)
  have hw0 : ∀ j : Fin 1024, cat w1 wq (E0 j) = w1 j := fun j =>
    cat_of_lt w1 wq _ j (by rw [hE0, shiftEmb_val]; omega)
  have hx1 : ∀ i : Fin 32768, cat x1 xq (E1 i) = xq (e0 i) := fun i =>
    cat_of_ge x1 xq _ (e0 i) (by rw [hE1, shiftEmb_val, he0])
  have hw1 : ∀ i : Fin 32768, cat w1 wq (E1 i) = wq (e0 i) := fun i =>
    cat_of_ge w1 wq _ (e0 i) (by rw [hE1, shiftEmb_val, he0])
  have hx2 : ∀ i : Fin 32768, cat x1 xq (E2 i) = xq (e1 i) := fun i =>
    cat_of_ge x1 xq _ (e1 i) (by rw [hE2, shiftEmb_val, he1]; omega)
  have hw2 : ∀ i : Fin 32768, cat w1 wq (E2 i) = wq (e1 i) := fun i =>
    cat_of_ge w1 wq _ (e1 i) (by rw [hE2, shiftEmb_val, he1]; omega)
  have hs : (Finset.univ : Finset (Fin 66560))
      = Finset.univ.map E0 ∪ Finset.univ.map E1 ∪ Finset.univ.map E2 := by
    ext k
    have := k.isLt
    simp only [Finset.mem_univ, Finset.mem_union, mem_map_shiftEmb, hE0, hE1, hE2, true_iff]
    omega
  have h01 : Disjoint (Finset.univ.map E0) (Finset.univ.map E1) := by
    rw [Finset.disjoint_left]
    intro k hk0 hk1
    rw [hE0, mem_map_shiftEmb] at hk0
    rw [hE1, mem_map_shiftEmb] at hk1
    omega
  have h02 : Disjoint (Finset.univ.map E0) (Finset.univ.map E2) := by
    rw [Finset.disjoint_left]
    intro k hk0 hk2
    rw [hE0, mem_map_shiftEmb] at hk0
    rw [hE2, mem_map_shiftEmb] at hk2
    omega
  have h12 : Disjoint (Finset.univ.map E1) (Finset.univ.map E2) := by
    rw [Finset.disjoint_left]
    intro k hk1 hk2
    rw [hE1, mem_map_shiftEmb] at hk1
    rw [hE2, mem_map_shiftEmb] at hk2
    omega
  have hne0 : (Finset.univ.map E0).Nonempty := ⟨E0 ⟨0, by norm_num⟩, Finset.mem_map_of_mem _ (Finset.mem_univ _)⟩
  -- the partial sums over the parts
  have hl0' : l0 = ∑ k ∈ Finset.univ.map E0, Real.exp (cat x1 xq k - m0) := by
    rw [Finset.sum_map, hl0]; exact Finset.sum_congr rfl fun j _ => by rw [hx0]
  have hl1' : l_0 = ∑ k ∈ Finset.univ.map E1, Real.exp (cat x1 xq k - m_0) := by
    rw [Finset.sum_map, hl_0]; exact Finset.sum_congr rfl fun j _ => by rw [hx1]
  have hl2' : l_1 = ∑ k ∈ Finset.univ.map E2, Real.exp (cat x1 xq k - m_1) := by
    rw [Finset.sum_map, hl_1]; exact Finset.sum_congr rfl fun j _ => by rw [hx2]
  have hS0 : s0 = ∑ k ∈ Finset.univ.map E0, cat w1 wq k * cat x1 xq k := by
    rw [Finset.sum_map, hs0]; exact Finset.sum_congr rfl fun j _ => by rw [hx0, hw0]
  have hS1 : s_0 = ∑ k ∈ Finset.univ.map E1, cat w1 wq k * cat x1 xq k := by
    rw [Finset.sum_map, hs_0]; exact Finset.sum_congr rfl fun j _ => by rw [hx1, hw1]
  have hS2 : s_1 = ∑ k ∈ Finset.univ.map E2, cat w1 wq k * cat x1 xq k := by
    rw [Finset.sum_map, hs_1]; exact Finset.sum_congr rfl fun j _ => by rw [hx2, hw2]
  -- the total weight
  have hc : cb + cq = ∑ k : Fin 66560, cat w1 wq k := by
    have hA : ∀ j : Fin 1024, cat w1 wq ⟨j.val, by have := j.isLt; omega⟩ = w1 j :=
      fun j => cat_of_lt w1 wq _ j rfl
    have hB : ∀ j : Fin 65536, cat w1 wq ⟨1024 + j.val, by have := j.isLt; omega⟩ = wq j :=
      fun j => cat_of_ge w1 wq _ j rfl
    rw [sum_split 1024 65536 (by norm_num) (cat w1 wq), hcb, hcq]
    simp only [hA, hB]
  rw [coe_sum, ← hc, coe_add cb cq]
  exact row_identity_coe hs h01 h02 h12 hne0 (cat x1 xq) (cat w1 wq) hc hne hl0' hl1' hl2' hlc hfl
    hS0 hS1 hS2 M

/-- The same with the two halves of the queue addressed by position. -/
theorem row_glue_pos (x1 w1 : Fin 1024 → ℝ) (xq wq : Fin 65536 → ℝ)
    {m0 m_0 m_1 l0 l_0 l_1 s0 s_0 s_1 cb cq mc lc fm fl : ℝ}
    (hl0 : l0 = ∑ j : Fin 1024, Real.exp (x1 j - m0))
    (hs0 : s0 = ∑ j : Fin 1024, w1 j * x1 j)
    (hcb : cb = ∑ j : Fin 1024, w1 j)
    (hl_0 : l_0 = ∑ i : Fin 32768,
      Real.exp (xq ⟨i.val, by have := i.isLt; omega⟩ - m_0))
    (hl_1 : l_1 = ∑ i : Fin 32768,
      Real.exp (xq ⟨32768 + i.val, by have := i.isLt; omega⟩ - m_1))
    (hs_0 : s_0 = ∑ i : Fin 32768,
      wq ⟨i.val, by have := i.isLt; omega⟩ * xq ⟨i.val, by have := i.isLt; omega⟩)
    (hs_1 : s_1 = ∑ i : Fin 32768,
      wq ⟨32768 + i.val, by have := i.isLt; omega⟩ * xq ⟨32768 + i.val, by have := i.isLt; omega⟩)
    (hcq : cq = ∑ j : Fin 65536, wq j)
    (hlc : lc = l_0 * Real.exp (m_0 - mc) + l_1 * Real.exp (m_1 - mc))
    (hfl : fl = l0 * Real.exp (m0 - fm) + lc * Real.exp (mc - fm))
    (hne : cb + cq ≠ 0) (M : ℝ) :
    ∑ k : Fin 66560, (((cat x1 xq k : ℝ) : EReal) - (M : EReal)
          - Ideal.log (∑ k' : Fin 66560, Ideal.exp (((cat x1 xq k' : ℝ) : EReal) - (M : EReal))))
        * Ideal.div ((cat w1 wq k : ℝ) : EReal) (∑ k' : Fin 66560, ((cat w1 wq k' : ℝ) : EReal))
      = Ideal.div ((s0 : EReal) + (s_0 : EReal) + (s_1 : EReal)) ((cb : EReal) + (cq : EReal))
        - ((fm : EReal) + Ideal.log (fl : EReal)) :=
  row_glue x1 w1 xq wq (fun i => ⟨i.val, by have := i.isLt; omega⟩)
    (fun i => ⟨32768 + i.val, by have := i.isLt; omega⟩) (fun _ => rfl) (fun _ => rfl)
    hl0 hs0 hcb hl_0 hl_1 hs_0 hs_1 hcq hlc hfl hne M

/-- Equal row terms give equal negated means. -/
theorem neg_mean_congr {ι : Type*} [Fintype ι] (R K : ι → EReal) (N : EReal)
    (h : ∀ b, R b = K b) :
    -(Ideal.div (∑ b, R b) N) = -(Ideal.div (∑ b, K b) N) := by
  rw [show R = K from funext h]

/-! ### G2. Tiles -/

/-- A sum over 32768 positions is the sum over 64 tiles of the sums over the 512 positions of
    each. -/
theorem sum_tiles {M : Type*} [AddCommMonoid M] (f : Fin 32768 → M) :
    ∑ q : Fin 64, ∑ j : Fin 512,
        f ⟨q.val * 512 + j.val, by have := q.isLt; have := j.isLt; omega⟩
      = ∑ i : Fin 32768, f i := by
  rw [← Fintype.sum_prod_type']
  refine Fintype.sum_bijective
    (fun p : Fin 64 × Fin 512 =>
      (⟨p.1.val * 512 + p.2.val, by have := p.1.isLt; have := p.2.isLt; omega⟩ : Fin 32768))
    ⟨?_, ?_⟩ _ _ (fun _ => rfl)
  · rintro ⟨q, j⟩ ⟨q', j'⟩ h
    have hv := congrArg Fin.val h
    simp only at hv
    have := j.isLt
    have := j'.isLt
    have hq : q.val = q'.val := by omega
    have hj : j.val = j'.val := by omega
    exact Prod.ext (Fin.ext hq) (Fin.ext hj)
  · intro i
    have := i.isLt
    exact ⟨(⟨i.val / 512, by omega⟩, ⟨i.val % 512, by omega⟩), Fin.ext (by simp only; omega)⟩

/-- The same with the tiles counted by natural numbers below 64. -/
theorem sum_tiles_range {M : Type*} [AddCommMonoid M] (f : Fin 32768 → M) (g : ℕ → Fin 512 → M)
    (hg : ∀ (q : ℕ) (hq : q < 64) (j : Fin 512),
      g q j = f ⟨q * 512 + j.val, by have := j.isLt; omega⟩) :
    ∑ q ∈ Finset.range 64, ∑ j : Fin 512, g q j = ∑ i : Fin 32768, f i := by
  rw [Finset.sum_range, ← sum_tiles f]
  exact Finset.sum_congr rfl fun q _ => Finset.sum_congr rfl fun j _ => hg q.val q.isLt j

/-! ### G3. The streamed accumulation over tiles -/

/-- The running sum of shifted exponentials: started from an empty sum at any seed shift and
    updated tile by tile with an arbitrary sequence of shifts, after tile q it is the sum of
    the exponentials of all entries of tiles 0 to q at the current shift. -/
theorem online_sum {J : Type*} [Fintype J] (n : ℕ) (x : ℕ → J → ℝ) (mm ll : ℕ → ℝ)
    (seed l₀ : ℝ) (hl₀ : l₀ = 0)
    (h0 : ll 0 = l₀ * Real.exp (seed - mm 0) + ∑ j, Real.exp (x 0 j - mm 0))
    (hstep : ∀ q, q + 1 < n → ll (q + 1)
      = ll q * Real.exp (mm q - mm (q + 1)) + ∑ j, Real.exp (x (q + 1) j - mm (q + 1))) :
    ∀ q, q < n → ll q = ∑ q' ∈ Finset.range (q + 1), ∑ j, Real.exp (x q' j - mm q) := by
  intro q
  induction q with
  | zero =>
    intro _
    rw [h0, hl₀, zero_mul, zero_add, Finset.sum_range_one]
  | succ q ih =>
    intro hq
    rw [hstep q hq, ih (by omega), Finset.sum_range_succ _ (q + 1), Finset.sum_mul]
    congr 1
    exact Finset.sum_congr rfl fun q' _ => rebase Finset.univ (x q') (mm q) (mm (q + 1))

/-- A running sum started from zero and updated term by term is the partial sum. -/
theorem running_sum (n : ℕ) (t ss : ℕ → ℝ) (h0 : ss 0 = 0 + t 0)
    (hstep : ∀ q, q + 1 < n → ss (q + 1) = ss q + t (q + 1)) :
    ∀ q, q < n → ss q = ∑ q' ∈ Finset.range (q + 1), t q' := by
  intro q
  induction q with
  | zero =>
    intro _
    rw [h0, zero_add, Finset.sum_range_one]
  | succ q ih =>
    intro hq
    rw [hstep q hq, ih (by omega), Finset.sum_range_succ _ (q + 1)]

end Cert.LibRowGlue

end
-- ==== Proof.LibAccum.lean ====
/-
  The three accumulators of one row streamed over the tiles of a half of the queue — the running
  maximum, the running sum of shifted exponentials and the running weighted sum — as the
  extended-real recurrences that update them, have real closed forms; so has a plain running sum
  of products with 0/1 indicators.
-/
import proofs.«405218_j60748017434937_2_alg».proof.Proof.LibOnlineLse
import proofs.«405218_j60748017434937_2_alg».proof.Proof.LibRowGlue
import proofs.«405218_j60748017434937_2_alg».proof.Proof.LibWords
import Mathlib.Data.EReal.Basic
import Mathlib.Algebra.BigOperators.Group.Finset.Basic
import Mathlib.Algebra.BigOperators.Ring.Finset

noncomputable section

namespace Cert.LibAccum

open Idealize.ShloMosaic
open Cert.LibOnlineLse Cert.LibRowGlue Cert.LibWords
open scoped BigOperators

/-! ### The running maximum -/

/-- The maximum of a nonempty finite family of reals, as the real value of the fold of max from
    the bottom element over their coercions. -/
def tileMax {J : Type*} [Fintype J] (y : J → ℝ) : ℝ :=
  ((Finset.univ : Finset J).fold max (⊥ : EReal) fun j => (y j : EReal)).toReal

/-- The fold of max from the bottom element over a nonempty finite family of finite numbers is
    the coercion of its real value. -/
theorem fold_max_bot_eq {J : Type*} [Fintype J] [Nonempty J] (y : J → ℝ) :
    (Finset.univ : Finset J).fold max (⊥ : EReal) (fun j => (y j : EReal))
      = ((tileMax y : ℝ) : EReal) := by
  obtain ⟨r, hr⟩ := fold_max_bot_finite (Finset.univ_nonempty (α := J))
    (fun j => (y j : EReal)) (fun k _ => ⟨y k, rfl⟩)
  rw [tileMax, hr, EReal.toReal_coe]

/-- The running maximum over tiles: the seed joined with tile 0, then joined with each next
    tile. -/
def runMax (seed : ℝ) (tm : ℕ → ℝ) : ℕ → ℝ
  | 0 => max seed (tm 0)
  | q + 1 => max (runMax seed tm q) (tm (q + 1))

/-- The running maximum of a row over its tiles, from a seed. -/
def rowMax {J : Type*} [Fintype J] (seed : ℝ) (sc : ℕ → J → ℝ) : ℕ → ℝ :=
  runMax seed fun q => tileMax (sc q)

/-- The extended-real running maximum, seeded with a finite number and joined tile by tile with
    the tile's maximum folded from the bottom element, is the real running maximum. -/
theorem accum_max {J : Type*} [Fintype J] [Nonempty J] (n : ℕ) (sc : ℕ → J → ℝ) (seed : ℝ)
    (Mx : ℕ → EReal)
    (hM0 : Mx 0 = max (seed : EReal)
      ((Finset.univ : Finset J).fold max (⊥ : EReal) fun j => (sc 0 j : EReal)))
    (hMs : ∀ q, q + 1 < n → Mx (q + 1) = max (Mx q)
      ((Finset.univ : Finset J).fold max (⊥ : EReal) fun j => (sc (q + 1) j : EReal))) :
    ∀ q, q < n → Mx q = ((rowMax seed sc q : ℝ) : EReal) := by
  intro q
  induction q with
  | zero =>
    intro _
    rw [hM0, fold_max_bot_eq, coe_max]
    rfl
  | succ q ih =>
    intro hq
    rw [hMs q hq, ih (by omega), fold_max_bot_eq, coe_max]
    rfl

/-! ### The running sum of shifted exponentials -/

/-- One update of the closed form: the sum over tiles 0 to q at shift a, re-based to shift b,
    plus tile q + 1 at shift b, is the sum over tiles 0 to q + 1 at shift b. -/
theorem closed_step {J : Type*} [Fintype J] (x : ℕ → J → ℝ) (q : ℕ) (a b : ℝ) :
    (∑ q' ∈ Finset.range (q + 1), ∑ j, Real.exp (x q' j - a)) * Real.exp (a - b)
        + ∑ j, Real.exp (x (q + 1) j - b)
      = ∑ q' ∈ Finset.range (q + 1 + 1), ∑ j, Real.exp (x q' j - b) := by
  rw [Finset.sum_range_succ _ (q + 1), Finset.sum_mul]
  congr 1
  exact Finset.sum_congr rfl fun q' _ => rebase Finset.univ (x q') a b

/-- The extended-real running sum of shifted exponentials, reset to zero and updated tile by
    tile along any finite sequence of shifts, is the real sum of the exponentials of all entries
    so far at the current shift. -/
theorem accum_L {J : Type*} [Fintype J] (n : ℕ) (sc : ℕ → J → ℝ) (seed : ℝ) (mr : ℕ → ℝ)
    (Mx L : ℕ → EReal) (l₀ : EReal) (hl₀ : l₀ = 0)
    (hMx : ∀ q, q < n → Mx q = ((mr q : ℝ) : EReal))
    (hL0 : L 0 = l₀ * Ideal.exp ((seed : EReal) - Mx 0)
      + ∑ j : J, Ideal.exp ((sc 0 j : EReal) - Mx 0))
    (hLs : ∀ q, q + 1 < n → L (q + 1) = L q * Ideal.exp (Mx q - Mx (q + 1))
      + ∑ j : J, Ideal.exp ((sc (q + 1) j : EReal) - Mx (q + 1))) :
    ∀ q, q < n → L q
      = ((∑ q' ∈ Finset.range (q + 1), ∑ j : J, Real.exp (sc q' j - mr q) : ℝ) : EReal) := by
  intro q
  induction q with
  | zero =>
    intro h0
    rw [hL0, hl₀, zero_mul, zero_add, hMx 0 h0, sum_exp_coe, Finset.sum_range_one]
  | succ q ih =>
    intro hq
    rw [hLs q hq, ih (by omega), hMx q (by omega), hMx (q + 1) hq, step_coe, closed_step]

/-! ### Plain running sums -/

/-- An extended-real running sum of finite terms, reset to zero and updated tile by tile, is the
    real sum of all terms so far. -/
theorem accum_sum {J : Type*} [Fintype J] (n : ℕ) (t : ℕ → J → ℝ) (G : ℕ → EReal) (g₀ : EReal)
    (hg₀ : g₀ = 0) (hG0 : G 0 = g₀ + ∑ j : J, ((t 0 j : ℝ) : EReal))
    (hGs : ∀ q, q + 1 < n → G (q + 1) = G q + ∑ j : J, ((t (q + 1) j : ℝ) : EReal)) :
    ∀ q, q < n → G q = ((∑ q' ∈ Finset.range (q + 1), ∑ j : J, t q' j : ℝ) : EReal) := by
  intro q
  induction q with
  | zero =>
    intro _
    rw [hG0, hg₀, zero_add, coe_sum, Finset.sum_range_one]
  | succ q ih =>
    intro hq
    rw [hGs q hq, ih (by omega), coe_sum, coe_add, Finset.sum_range_succ _ (q + 1)]

/-- The running weighted sum: products of finite weights and finite scores. -/
theorem accum_S {J : Type*} [Fintype J] (n : ℕ) (sc wt : ℕ → J → ℝ) (S : ℕ → EReal) (s₀ : EReal)
    (hs₀ : s₀ = 0) (hS0 : S 0 = s₀ + ∑ j : J, (wt 0 j : EReal) * (sc 0 j : EReal))
    (hSs : ∀ q, q + 1 < n → S (q + 1)
      = S q + ∑ j : J, (wt (q + 1) j : EReal) * (sc (q + 1) j : EReal)) :
    ∀ q, q < n → S q
      = ((∑ q' ∈ Finset.range (q + 1), ∑ j : J, wt q' j * sc q' j : ℝ) : EReal) := by
  have hc : ∀ q, ∑ j : J, (wt q j : EReal) * (sc q j : EReal)
      = ∑ j : J, ((wt q j * sc q j : ℝ) : EReal) :=
    fun q => Finset.sum_congr rfl fun j _ => coe_mul _ _
  refine accum_sum n (fun q j => wt q j * sc q j) S s₀ hs₀ ?_ ?_
  · rw [hS0, hc]
  · intro q hq
    rw [hSs q hq, hc]

/-- The running weighted sum with the weights written as 0/1 indicators. -/
theorem accum_S_ite {J : Type*} [Fintype J] (n : ℕ) (sc : ℕ → J → ℝ) (p : ℕ → J → Prop)
    [∀ q j, Decidable (p q j)] (S : ℕ → EReal) (s₀ : EReal) (hs₀ : s₀ = 0)
    (hS0 : S 0 = s₀ + ∑ j : J, (if p 0 j then (1 : EReal) else 0) * (sc 0 j : EReal))
    (hSs : ∀ q, q + 1 < n → S (q + 1)
      = S q + ∑ j : J, (if p (q + 1) j then (1 : EReal) else 0) * (sc (q + 1) j : EReal)) :
    ∀ q, q < n → S q
      = ((∑ q' ∈ Finset.range (q + 1), ∑ j : J, (if p q' j then (1 : ℝ) else 0) * sc q' j : ℝ)
          : EReal) := by
  have hc : ∀ q, ∑ j : J, (if p q j then (1 : EReal) else 0) * (sc q j : EReal)
      = ∑ j : J, (((if p q j then (1 : ℝ) else 0 : ℝ)) : EReal) * (sc q j : EReal) :=
    fun q => Finset.sum_congr rfl fun j _ => by rw [ite_coe]
  refine accum_S n sc (fun q j => if p q j then (1 : ℝ) else 0) S s₀ hs₀ ?_ ?_
  · rw [hS0, hc]
  · intro q hq
    rw [hSs q hq, hc]

/-- A running sum of finite values times 0/1 indicators. -/
theorem accum_G {J : Type*} [Fintype J] (n : ℕ) (qv : ℕ → J → ℝ) (ind : ℕ → J → Prop)
    [∀ q j, Decidable (ind q j)] (G : ℕ → EReal) (g₀ : EReal) (hg₀ : g₀ = 0)
    (hG0 : G 0 = g₀ + ∑ j : J, (qv 0 j : EReal) * (if ind 0 j then (1 : EReal) else 0))
    (hGs : ∀ q, q + 1 < n → G (q + 1)
      = G q + ∑ j : J, (qv (q + 1) j : EReal) * (if ind (q + 1) j then (1 : EReal) else 0)) :
    ∀ q, q < n → G q
      = ((∑ q' ∈ Finset.range (q + 1), ∑ j : J, qv q' j * (if ind q' j then (1 : ℝ) else 0) : ℝ)
          : EReal) := by
  have hc : ∀ q, ∑ j : J, (qv q j : EReal) * (if ind q j then (1 : EReal) else 0)
      = ∑ j : J, ((qv q j * (if ind q j then (1 : ℝ) else 0) : ℝ) : EReal) :=
    fun q => Finset.sum_congr rfl fun j _ => by rw [ite_coe, coe_mul]
  refine accum_sum n (fun q j => qv q j * (if ind q j then (1 : ℝ) else 0)) G g₀ hg₀ ?_ ?_
  · rw [hG0, hc]
  · intro q hq
    rw [hGs q hq, hc]

/-! ### The three accumulators together -/

/-- The three accumulators of a row over n tiles, with the reset values given as extended reals
    that are zero: each has its real closed form at every tile, along one real sequence of
    running maxima. -/
theorem accum' {J : Type*} [Fintype J] [Nonempty J] (n : ℕ) (sc wt : ℕ → J → ℝ) (seed : ℝ)
    (Mx L S : ℕ → EReal) (l₀ s₀ : EReal) (hl₀ : l₀ = 0) (hs₀ : s₀ = 0)
    (hM0 : Mx 0 = max (seed : EReal)
      ((Finset.univ : Finset J).fold max (⊥ : EReal) fun j => (sc 0 j : EReal)))
    (hMs : ∀ q, q + 1 < n → Mx (q + 1) = max (Mx q)
      ((Finset.univ : Finset J).fold max (⊥ : EReal) fun j => (sc (q + 1) j : EReal)))
    (hL0 : L 0 = l₀ * Ideal.exp ((seed : EReal) - Mx 0)
      + ∑ j : J, Ideal.exp ((sc 0 j : EReal) - Mx 0))
    (hLs : ∀ q, q + 1 < n → L (q + 1) = L q * Ideal.exp (Mx q - Mx (q + 1))
      + ∑ j : J, Ideal.exp ((sc (q + 1) j : EReal) - Mx (q + 1)))
    (hS0 : S 0 = s₀ + ∑ j : J, (wt 0 j : EReal) * (sc 0 j : EReal))
    (hSs : ∀ q, q + 1 < n → S (q + 1)
      = S q + ∑ j : J, (wt (q + 1) j : EReal) * (sc (q + 1) j : EReal)) :
    ∃ mr : ℕ → ℝ, ∀ q, q < n →
      Mx q = ((mr q : ℝ) : EReal)
      ∧ L q = ((∑ q' ∈ Finset.range (q + 1), ∑ j : J, Real.exp (sc q' j - mr q) : ℝ) : EReal)
      ∧ S q = ((∑ q' ∈ Finset.range (q + 1), ∑ j : J, wt q' j * sc q' j : ℝ) : EReal) := by
  have hMx := accum_max n sc seed Mx hM0 hMs
  exact ⟨rowMax seed sc, fun q hq =>
    ⟨hMx q hq, accum_L n sc seed (rowMax seed sc) Mx L l₀ hl₀ hMx hL0 hLs q hq,
      accum_S n sc wt S s₀ hs₀ hS0 hSs q hq⟩⟩

/-- The same with the reset values written as the literal zero. -/
theorem accum {J : Type*} [Fintype J] [Nonempty J] (n : ℕ) (sc wt : ℕ → J → ℝ) (seed : ℝ)
    (Mx L S : ℕ → EReal)
    (hM0 : Mx 0 = max (seed : EReal)
      ((Finset.univ : Finset J).fold max (⊥ : EReal) fun j => (sc 0 j : EReal)))
    (hMs : ∀ q, q + 1 < n → Mx (q + 1) = max (Mx q)
      ((Finset.univ : Finset J).fold max (⊥ : EReal) fun j => (sc (q + 1) j : EReal)))
    (hL0 : L 0 = (0 : EReal) * Ideal.exp ((seed : EReal) - Mx 0)
      + ∑ j : J, Ideal.exp ((sc 0 j : EReal) - Mx 0))
    (hLs : ∀ q, q + 1 < n → L (q + 1) = L q * Ideal.exp (Mx q - Mx (q + 1))
      + ∑ j : J, Ideal.exp ((sc (q + 1) j : EReal) - Mx (q + 1)))
    (hS0 : S 0 = (0 : EReal) + ∑ j : J, (wt 0 j : EReal) * (sc 0 j : EReal))
    (hSs : ∀ q, q + 1 < n → S (q + 1)
      = S q + ∑ j : J, (wt (q + 1) j : EReal) * (sc (q + 1) j : EReal)) :
    ∃ mr : ℕ → ℝ, ∀ q, q < n →
      Mx q = ((mr q : ℝ) : EReal)
      ∧ L q = ((∑ q' ∈ Finset.range (q + 1), ∑ j : J, Real.exp (sc q' j - mr q) : ℝ) : EReal)
      ∧ S q = ((∑ q' ∈ Finset.range (q + 1), ∑ j : J, wt q' j * sc q' j : ℝ) : EReal) :=
  accum' n sc wt seed Mx L S 0 0 rfl rfl hM0 hMs hL0 hLs hS0 hSs

/-- The same with the weights written as 0/1 indicators. -/
theorem accum_ite {J : Type*} [Fintype J] [Nonempty J] (n : ℕ) (sc : ℕ → J → ℝ)
    (p : ℕ → J → Prop) [∀ q j, Decidable (p q j)] (seed : ℝ)
    (Mx L S : ℕ → EReal) (l₀ s₀ : EReal) (hl₀ : l₀ = 0) (hs₀ : s₀ = 0)
    (hM0 : Mx 0 = max (seed : EReal)
      ((Finset.univ : Finset J).fold max (⊥ : EReal) fun j => (sc 0 j : EReal)))
    (hMs : ∀ q, q + 1 < n → Mx (q + 1) = max (Mx q)
      ((Finset.univ : Finset J).fold max (⊥ : EReal) fun j => (sc (q + 1) j : EReal)))
    (hL0 : L 0 = l₀ * Ideal.exp ((seed : EReal) - Mx 0)
      + ∑ j : J, Ideal.exp ((sc 0 j : EReal) - Mx 0))
    (hLs : ∀ q, q + 1 < n → L (q + 1) = L q * Ideal.exp (Mx q - Mx (q + 1))
      + ∑ j : J, Ideal.exp ((sc (q + 1) j : EReal) - Mx (q + 1)))
    (hS0 : S 0 = s₀ + ∑ j : J, (if p 0 j then (1 : EReal) else 0) * (sc 0 j : EReal))
    (hSs : ∀ q, q + 1 < n → S (q + 1)
      = S q + ∑ j : J, (if p (q + 1) j then (1 : EReal) else 0) * (sc (q + 1) j : EReal)) :
    ∃ mr : ℕ → ℝ, ∀ q, q < n →
      Mx q = ((mr q : ℝ) : EReal)
      ∧ L q = ((∑ q' ∈ Finset.range (q + 1), ∑ j : J, Real.exp (sc q' j - mr q) : ℝ) : EReal)
      ∧ S q = ((∑ q' ∈ Finset.range (q + 1), ∑ j : J,
          (if p q' j then (1 : ℝ) else 0) * sc q' j : ℝ) : EReal) := by
  have hMx := accum_max n sc seed Mx hM0 hMs
  exact ⟨rowMax seed sc, fun q hq =>
    ⟨hMx q hq, accum_L n sc seed (rowMax seed sc) Mx L l₀ hl₀ hMx hL0 hLs q hq,
      accum_S_ite n sc p S s₀ hs₀ hS0 hSs q hq⟩⟩

/-! ### At the last of 64 tiles of 512, as sums over the 32768 columns of a half -/

/-- After the last of 64 tiles of 512 columns the accumulators are the sums over all 32768 columns
    of the half: the exponentials at the final running maximum, and the weighted scores. -/
theorem accum_last (sc wt : ℕ → Fin 512 → ℝ) (f g : Fin 32768 → ℝ)
    (hsc : ∀ (q : ℕ) (hq : q < 64) (j : Fin 512),
      sc q j = f ⟨q * 512 + j.val, by have := j.isLt; omega⟩)
    (hwt : ∀ (q : ℕ) (hq : q < 64) (j : Fin 512),
      wt q j = g ⟨q * 512 + j.val, by have := j.isLt; omega⟩)
    (seed : ℝ) (Mx L S : ℕ → EReal) (l₀ s₀ : EReal) (hl₀ : l₀ = 0) (hs₀ : s₀ = 0)
    (hM0 : Mx 0 = max (seed : EReal)
      ((Finset.univ : Finset (Fin 512)).fold max (⊥ : EReal) fun j => (sc 0 j : EReal)))
    (hMs : ∀ q, q + 1 < 64 → Mx (q + 1) = max (Mx q)
      ((Finset.univ : Finset (Fin 512)).fold max (⊥ : EReal) fun j => (sc (q + 1) j : EReal)))
    (hL0 : L 0 = l₀ * Ideal.exp ((seed : EReal) - Mx 0)
      + ∑ j : Fin 512, Ideal.exp ((sc 0 j : EReal) - Mx 0))
    (hLs : ∀ q, q + 1 < 64 → L (q + 1) = L q * Ideal.exp (Mx q - Mx (q + 1))
      + ∑ j : Fin 512, Ideal.exp ((sc (q + 1) j : EReal) - Mx (q + 1)))
    (hS0 : S 0 = s₀ + ∑ j : Fin 512, (wt 0 j : EReal) * (sc 0 j : EReal))
    (hSs : ∀ q, q + 1 < 64 → S (q + 1)
      = S q + ∑ j : Fin 512, (wt (q + 1) j : EReal) * (sc (q + 1) j : EReal)) :
    ∃ m : ℝ, Mx 63 = ((m : ℝ) : EReal)
      ∧ L 63 = ((∑ i : Fin 32768, Real.exp (f i - m) : ℝ) : EReal)
      ∧ S 63 = ((∑ i : Fin 32768, g i * f i : ℝ) : EReal) := by
  obtain ⟨mr, h⟩ := accum' 64 sc wt seed Mx L S l₀ s₀ hl₀ hs₀ hM0 hMs hL0 hLs hS0 hSs
  obtain ⟨h1, h2, h3⟩ := h 63 (by norm_num)
  have e2 : ∑ q' ∈ Finset.range 64, ∑ j : Fin 512, Real.exp (sc q' j - mr 63)
      = ∑ i : Fin 32768, Real.exp (f i - mr 63) :=
    sum_tiles_range (fun i => Real.exp (f i - mr 63)) (fun q j => Real.exp (sc q j - mr 63))
      (fun q hq j => by simp only [hsc q hq j])
  have e3 : ∑ q' ∈ Finset.range 64, ∑ j : Fin 512, wt q' j * sc q' j
      = ∑ i : Fin 32768, g i * f i :=
    sum_tiles_range (fun i => g i * f i) (fun q j => wt q j * sc q j)
      (fun q hq j => by simp only [hsc q hq j, hwt q hq j])
  exact ⟨mr 63, h1, h2.trans (congrArg _ e2), h3.trans (congrArg _ e3)⟩

/-- The same with the weights written as 0/1 indicators of a predicate on the columns. -/
theorem accum_last_ite (sc : ℕ → Fin 512 → ℝ) (p : ℕ → Fin 512 → Prop)
    [∀ q j, Decidable (p q j)] (f : Fin 32768 → ℝ) (P : Fin 32768 → Prop) [DecidablePred P]
    (hsc : ∀ (q : ℕ) (hq : q < 64) (j : Fin 512),
      sc q j = f ⟨q * 512 + j.val, by have := j.isLt; omega⟩)
    (hp : ∀ (q : ℕ) (hq : q < 64) (j : Fin 512),
      p q j ↔ P ⟨q * 512 + j.val, by have := j.isLt; omega⟩)
    (seed : ℝ) (Mx L S : ℕ → EReal) (l₀ s₀ : EReal) (hl₀ : l₀ = 0) (hs₀ : s₀ = 0)
    (hM0 : Mx 0 = max (seed : EReal)
      ((Finset.univ : Finset (Fin 512)).fold max (⊥ : EReal) fun j => (sc 0 j : EReal)))
    (hMs : ∀ q, q + 1 < 64 → Mx (q + 1) = max (Mx q)
      ((Finset.univ : Finset (Fin 512)).fold max (⊥ : EReal) fun j => (sc (q + 1) j : EReal)))
    (hL0 : L 0 = l₀ * Ideal.exp ((seed : EReal) - Mx 0)
      + ∑ j : Fin 512, Ideal.exp ((sc 0 j : EReal) - Mx 0))
    (hLs : ∀ q, q + 1 < 64 → L (q + 1) = L q * Ideal.exp (Mx q - Mx (q + 1))
      + ∑ j : Fin 512, Ideal.exp ((sc (q + 1) j : EReal) - Mx (q + 1)))
    (hS0 : S 0 = s₀ + ∑ j : Fin 512, (if p 0 j then (1 : EReal) else 0) * (sc 0 j : EReal))
    (hSs : ∀ q, q + 1 < 64 → S (q + 1)
      = S q + ∑ j : Fin 512, (if p (q + 1) j then (1 : EReal) else 0) * (sc (q + 1) j : EReal)) :
    ∃ m : ℝ, Mx 63 = ((m : ℝ) : EReal)
      ∧ L 63 = ((∑ i : Fin 32768, Real.exp (f i - m) : ℝ) : EReal)
      ∧ S 63 = ((∑ i : Fin 32768, (if P i then (1 : ℝ) else 0) * f i : ℝ) : EReal) := by
  obtain ⟨mr, h⟩ := accum_ite 64 sc p seed Mx L S l₀ s₀ hl₀ hs₀ hM0 hMs hL0 hLs hS0 hSs
  obtain ⟨h1, h2, h3⟩ := h 63 (by norm_num)
  have e2 : ∑ q' ∈ Finset.range 64, ∑ j : Fin 512, Real.exp (sc q' j - mr 63)
      = ∑ i : Fin 32768, Real.exp (f i - mr 63) :=
    sum_tiles_range (fun i => Real.exp (f i - mr 63)) (fun q j => Real.exp (sc q j - mr 63))
      (fun q hq j => by simp only [hsc q hq j])
  have e3 : ∑ q' ∈ Finset.range 64, ∑ j : Fin 512, (if p q' j then (1 : ℝ) else 0) * sc q' j
      = ∑ i : Fin 32768, (if P i then (1 : ℝ) else 0) * f i :=
    sum_tiles_range (fun i => (if P i then (1 : ℝ) else 0) * f i)
      (fun q j => (if p q j then (1 : ℝ) else 0) * sc q j)
      (fun q hq j => by simp only [hsc q hq j, hp q hq j])
  exact ⟨mr 63, h1, h2.trans (congrArg _ e2), h3.trans (congrArg _ e3)⟩

/-- After the last of 64 tiles of 512 columns a running sum of values times 0/1 indicators is the
    sum over all 32768 columns of the half. -/
theorem accum_G_last (qv : ℕ → Fin 512 → ℝ) (ind : ℕ → Fin 512 → Prop)
    [∀ q j, Decidable (ind q j)] (f : Fin 32768 → ℝ) (P : Fin 32768 → Prop) [DecidablePred P]
    (hqv : ∀ (q : ℕ) (hq : q < 64) (j : Fin 512),
      qv q j = f ⟨q * 512 + j.val, by have := j.isLt; omega⟩)
    (hind : ∀ (q : ℕ) (hq : q < 64) (j : Fin 512),
      ind q j ↔ P ⟨q * 512 + j.val, by have := j.isLt; omega⟩)
    (G : ℕ → EReal) (g₀ : EReal) (hg₀ : g₀ = 0)
    (hG0 : G 0 = g₀ + ∑ j : Fin 512, (qv 0 j : EReal) * (if ind 0 j then (1 : EReal) else 0))
    (hGs : ∀ q, q + 1 < 64 → G (q + 1)
      = G q + ∑ j : Fin 512, (qv (q + 1) j : EReal) * (if ind (q + 1) j then (1 : EReal) else 0)) :
    G 63 = ((∑ i : Fin 32768, f i * (if P i then (1 : ℝ) else 0) : ℝ) : EReal) := by
  have e : ∑ q' ∈ Finset.range 64, ∑ j : Fin 512, qv q' j * (if ind q' j then (1 : ℝ) else 0)
      = ∑ i : Fin 32768, f i * (if P i then (1 : ℝ) else 0) :=
    sum_tiles_range (fun i => f i * (if P i then (1 : ℝ) else 0))
      (fun q j => qv q j * (if ind q j then (1 : ℝ) else 0))
      (fun q hq j => by simp only [hqv q hq j, hind q hq j])
  exact (accum_G 64 qv ind G g₀ hg₀ hG0 hGs 63 (by norm_num)).trans (congrArg _ e)

end Cert.LibAccum

end
-- ==== Proof.KI.RegionVal.lean ====
/-
  THE REGION'S VALUE over the real data. The batch block holds the L2-normalised anchors divided by the temperature, the
  queue holds finite columns; a tile's scores are then the real scores of the anchors against the tile's 512 queue
  columns. Along the 64 tiles of a core's half of the queue the four accumulators follow the recurrences of a streaming
  softmax: the running maximum of a row (from the reset value, a large negative number), the running sum of the
  exponentials of the row's scores at the running maximum (rescaled when the maximum moves), the running sum of the
  scores of the columns whose label is the row's, and, per feature and organisation, the running sum of the queue
  entries of the columns with that organisation. After the last tile these are: a real maximum, the sum over the
  half's 32768 columns of the exponentials at that maximum, the matched-score sum over the half, and the
  per-organisation column sums over the half; a last tile copies them to the output buffers, whose slabs the output
  arrays end at.
-/
import proofs.«405218_j60748017434937_2_alg».proof.Proof.KI.Pieces
import proofs.«405218_j60748017434937_2_alg».proof.Proof.KI.PayVal
import proofs.«405218_j60748017434937_2_alg».proof.Proof.KI.Blocks
import proofs.«405218_j60748017434937_2_alg».proof.Proof.KI.ArrOut
import proofs.«405218_j60748017434937_2_alg».proof.Proof.Spec
import proofs.«405218_j60748017434937_2_alg».proof.Proof.LibWords
import proofs.«405218_j60748017434937_2_alg».proof.Proof.LibOnlineLse
import proofs.«405218_j60748017434937_2_alg».proof.Proof.LibAccum

set_option maxRecDepth 16384

noncomputable section

namespace Cert.KernelIdeal.RegionVal

open Cert.KernelIdeal Cert.KernelIdeal.Gen Cert.KernelIdeal.Hand Cert.KernelIdeal.PayVal Idealize.ShloMosaic ValueIdx Cert.LibWords
open Cert.LibOnlineLse
open Idealize.ShloMosaic.TcCoe Idealize.SL.Sem
open Idealize.ShloMosaic.Pipeline (Dat)
open scoped BigOperators

variable (m : (ℓ : Loc nD τ sig) → Buf (Elt Ideal) ℓ) (c : Dev nD)
variable (X0 : Fin 1024 → Fin 128 → ℝ) (Q : Fin 128 → Fin 65536 → ℝ)
variable (bi : Fin 1024 → BitVec 32) (qi : Fin 65536 → BitVec 32)

/-! ## The five input blocks of a tile, by their literal types -/

/-- The queue's block of 512 columns, its labels as a column and as a row, the batch block, the batch's labels. -/
abbrev qblk (t : Fin cfg0.N) : Vec Ideal S128x512 .f32 := iblk m c 0 t
abbrev qcol (t : Fin cfg0.N) : Vec Ideal S512x1 .i32 := iblk m c 1 t
abbrev qrow (t : Fin cfg0.N) : Vec Ideal S1x512 .i32 := iblk m c 2 t
abbrev ablk (t : Fin cfg0.N) : Vec Ideal S1024x128 .bf16 := iblk m c 3 t
abbrev bcol (t : Fin cfg0.N) : Vec Ideal S1024x1 .i32 := iblk m c 4 t

/-- Column j of tile t is column 512·t + j of the queue. -/
def col (t : Fin cfg0.N) (j : Fin 512) : Fin 65536 :=
  ⟨t.val * 512 + j.val, by have := point_lt t; have := j.isLt; omega⟩

/-! ## (1) The scores of a tile are real -/

/-- The score the kernel computes for anchor b against column j of tile t is the real score of b against that queue
    column: the batch block holds the normalised anchors over the temperature, the queue block holds finite columns,
    which the kernel normalises with the floor under the norm. -/
theorem tile_scores (hA : ∀ (b : Fin 1024) (e : Fin 128), (V m c main_v40 : S1024x128.Idx → Elt Ideal .bf16) (ix2 b e) = ((Spec.nrmRow X0 b e / temp : ℝ) : EReal))
    (hQ : ∀ (e : Fin 128) (j : Fin 65536), (V m c main_arg3 : S128x65536.Idx → Elt Ideal .f32) (ix2 e j) = ((Q e j : ℝ) : EReal))
    (t : Fin cfg0.N) (b : Fin 1024) (j : Fin 512) :
    k0_pay7 (F := Ideal) (qblk m c t) (ablk m c t) (ix2 b j) = ((Spec.xq X0 Q b (col t j) : ℝ) : EReal) := by
  have ha : ∀ e : Fin 128, ablk m c t (ix2 b e) = ((Spec.nrmRow X0 b e / temp : ℝ) : EReal) :=
    fun e => (iblk3_apply m c t b e).trans (hA b e)
  have hq : ∀ e : Fin 128, qblk m c t (ix2 e j) = ((Q e (col t j) : ℝ) : EReal) :=
    fun e => (iblk0_apply m c t e j).trans (hQ e (col t j))
  refine (pay7_apply (qblk m c t) (ablk m c t) b j).trans ?_
  refine (Finset.sum_congr rfl fun e _ => ?_).trans
    ((dot_coe Finset.univ (fun e => Spec.nrmRow X0 b e / temp) (fun e => Spec.nrmCol Q e (col t j))).trans
      (congrArg _ (Spec.scaled_dot X0 Q b (col t j))))
  simp only [ha, hq, ofBits_eps]
  rw [l2norm_univ_coe (fun e' => Q e' (col t j)) eps_pos (Q e (col t j))]
  rfl

/-! ## (2) The accumulators tile by tile -/

theorem pred_lt (t : Fin cfg0.N) : t.val - 1 < cfg0.N := Nat.lt_of_le_of_lt (Nat.sub_le _ _) t.isLt

/-- A first tile leaves the update of the reset values. -/
theorem sc_first (t : Fin cfg0.N) (h0 : t.val % 64 = 0) :
    (scAt m c t.val t.isLt).1 = k0_pay6 (qblk m c t) (qcol m c t) (k0_pay1 (F := Ideal))
    ∧ (scAt m c t.val t.isLt).2.1 = k0_pay12 (k0_pay7 (qblk m c t) (ablk m c t)) (k0_pay2 (F := Ideal))
    ∧ (scAt m c t.val t.isLt).2.2.1 = k0_pay11 (k0_pay7 (qblk m c t) (ablk m c t)) (k0_pay2 (F := Ideal)) (k0_pay2 (F := Ideal)) (k0_pay3 (F := Ideal))
    ∧ (scAt m c t.val t.isLt).2.2.2 = k0_pay9 (k0_pay5 (qrow m c t)) (k0_pay7 (qblk m c t) (ablk m c t)) (k0_pay8 (bcol m c t)) (k0_pay4 (F := Ideal)) := by
  rw [scAt_A m c t h0]
  dsimp only [scA]
  exact ⟨sout0_A_0_eq c (grid0.coords t) (ms0_0 t) (hs0_0 t) (ms0_1 t) (hs0_1 t) (ms0_2 t) (hs0_2 t) (ms0_3 t) (hs0_3 t) (ms0_4 t) (hs0_4 t) (ms0_5 t) (hs0_5 t) (ms0_6 t) (hs0_6 t) (ms0_7 t) (hs0_7 t) (ms0_8 t) (hs0_8 t) scM0_0 (Memref.isWhole_whole _) scM0_1 (Memref.isWhole_whole _) scM0_2 (Memref.isWhole_whole _) scM0_3 (Memref.isWhole_whole _) ((hcond0_0 t).mpr h0) (fun h => not_last_of_first h0 ((hcond0_1 t).mp h)) (iblk m c 0 t) (iblk m c 1 t) (iblk m c 2 t) (iblk m c 3 t) (iblk m c 4 t),
    sout0_A_1_eq c (grid0.coords t) (ms0_0 t) (hs0_0 t) (ms0_1 t) (hs0_1 t) (ms0_2 t) (hs0_2 t) (ms0_3 t) (hs0_3 t) (ms0_4 t) (hs0_4 t) (ms0_5 t) (hs0_5 t) (ms0_6 t) (hs0_6 t) (ms0_7 t) (hs0_7 t) (ms0_8 t) (hs0_8 t) scM0_0 (Memref.isWhole_whole _) scM0_1 (Memref.isWhole_whole _) scM0_2 (Memref.isWhole_whole _) scM0_3 (Memref.isWhole_whole _) ((hcond0_0 t).mpr h0) (fun h => not_last_of_first h0 ((hcond0_1 t).mp h)) (iblk m c 0 t) (iblk m c 1 t) (iblk m c 2 t) (iblk m c 3 t) (iblk m c 4 t),
    sout0_A_2_eq c (grid0.coords t) (ms0_0 t) (hs0_0 t) (ms0_1 t) (hs0_1 t) (ms0_2 t) (hs0_2 t) (ms0_3 t) (hs0_3 t) (ms0_4 t) (hs0_4 t) (ms0_5 t) (hs0_5 t) (ms0_6 t) (hs0_6 t) (ms0_7 t) (hs0_7 t) (ms0_8 t) (hs0_8 t) scM0_0 (Memref.isWhole_whole _) scM0_1 (Memref.isWhole_whole _) scM0_2 (Memref.isWhole_whole _) scM0_3 (Memref.isWhole_whole _) ((hcond0_0 t).mpr h0) (fun h => not_last_of_first h0 ((hcond0_1 t).mp h)) (iblk m c 0 t) (iblk m c 1 t) (iblk m c 2 t) (iblk m c 3 t) (iblk m c 4 t),
    sout0_A_3_eq c (grid0.coords t) (ms0_0 t) (hs0_0 t) (ms0_1 t) (hs0_1 t) (ms0_2 t) (hs0_2 t) (ms0_3 t) (hs0_3 t) (ms0_4 t) (hs0_4 t) (ms0_5 t) (hs0_5 t) (ms0_6 t) (hs0_6 t) (ms0_7 t) (hs0_7 t) (ms0_8 t) (hs0_8 t) scM0_0 (Memref.isWhole_whole _) scM0_1 (Memref.isWhole_whole _) scM0_2 (Memref.isWhole_whole _) scM0_3 (Memref.isWhole_whole _) ((hcond0_0 t).mpr h0) (fun h => not_last_of_first h0 ((hcond0_1 t).mp h)) (iblk m c 0 t) (iblk m c 1 t) (iblk m c 2 t) (iblk m c 3 t) (iblk m c 4 t)⟩

/-- Any other tile, a last one included, leaves the update of what the tile before left. -/
theorem sc_step (t : Fin cfg0.N) (h0 : ¬t.val % 64 = 0) :
    (scAt m c t.val t.isLt).1 = k0_pay6 (qblk m c t) (qcol m c t) (scAt m c (t.val - 1) (pred_lt t)).1
    ∧ (scAt m c t.val t.isLt).2.1 = k0_pay12 (k0_pay7 (qblk m c t) (ablk m c t)) (scAt m c (t.val - 1) (pred_lt t)).2.1
    ∧ (scAt m c t.val t.isLt).2.2.1 = k0_pay11 (k0_pay7 (qblk m c t) (ablk m c t)) (scAt m c (t.val - 1) (pred_lt t)).2.1 (scAt m c (t.val - 1) (pred_lt t)).2.1 (scAt m c (t.val - 1) (pred_lt t)).2.2.1
    ∧ (scAt m c t.val t.isLt).2.2.2 = k0_pay9 (k0_pay5 (qrow m c t)) (k0_pay7 (qblk m c t) (ablk m c t)) (k0_pay8 (bcol m c t)) (scAt m c (t.val - 1) (pred_lt t)).2.2.2 := by
  by_cases h1 : t.val % 64 = 63
  · rw [scAt_C m c t h0 h1]
    dsimp only [scC]
    exact ⟨sout0_C_0_eq c (grid0.coords t) (ms0_0 t) (hs0_0 t) (ms0_1 t) (hs0_1 t) (ms0_2 t) (hs0_2 t) (ms0_3 t) (hs0_3 t) (ms0_4 t) (hs0_4 t) (ms0_5 t) (hs0_5 t) (ms0_6 t) (hs0_6 t) (ms0_7 t) (hs0_7 t) (ms0_8 t) (hs0_8 t) scM0_0 (Memref.isWhole_whole _) scM0_1 (Memref.isWhole_whole _) scM0_2 (Memref.isWhole_whole _) scM0_3 (Memref.isWhole_whole _) (fun h => h0 ((hcond0_0 t).mp h)) ((hcond0_1 t).mpr h1) (iblk m c 0 t) (iblk m c 1 t) (iblk m c 2 t) (iblk m c 3 t) (iblk m c 4 t) (scAt m c (t.val - 1) (pred_lt t)).1 (scAt m c (t.val - 1) (pred_lt t)).2.1 (scAt m c (t.val - 1) (pred_lt t)).2.2.1 (scAt m c (t.val - 1) (pred_lt t)).2.2.2,
      sout0_C_1_eq c (grid0.coords t) (ms0_0 t) (hs0_0 t) (ms0_1 t) (hs0_1 t) (ms0_2 t) (hs0_2 t) (ms0_3 t) (hs0_3 t) (ms0_4 t) (hs0_4 t) (ms0_5 t) (hs0_5 t) (ms0_6 t) (hs0_6 t) (ms0_7 t) (hs0_7 t) (ms0_8 t) (hs0_8 t) scM0_0 (Memref.isWhole_whole _) scM0_1 (Memref.isWhole_whole _) scM0_2 (Memref.isWhole_whole _) scM0_3 (Memref.isWhole_whole _) (fun h => h0 ((hcond0_0 t).mp h)) ((hcond0_1 t).mpr h1) (iblk m c 0 t) (iblk m c 1 t) (iblk m c 2 t) (iblk m c 3 t) (iblk m c 4 t) (scAt m c (t.val - 1) (pred_lt t)).1 (scAt m c (t.val - 1) (pred_lt t)).2.1 (scAt m c (t.val - 1) (pred_lt t)).2.2.1 (scAt m c (t.val - 1) (pred_lt t)).2.2.2,
      sout0_C_2_eq c (grid0.coords t) (ms0_0 t) (hs0_0 t) (ms0_1 t) (hs0_1 t) (ms0_2 t) (hs0_2 t) (ms0_3 t) (hs0_3 t) (ms0_4 t) (hs0_4 t) (ms0_5 t) (hs0_5 t) (ms0_6 t) (hs0_6 t) (ms0_7 t) (hs0_7 t) (ms0_8 t) (hs0_8 t) scM0_0 (Memref.isWhole_whole _) scM0_1 (Memref.isWhole_whole _) scM0_2 (Memref.isWhole_whole _) scM0_3 (Memref.isWhole_whole _) (fun h => h0 ((hcond0_0 t).mp h)) ((hcond0_1 t).mpr h1) (iblk m c 0 t) (iblk m c 1 t) (iblk m c 2 t) (iblk m c 3 t) (iblk m c 4 t) (scAt m c (t.val - 1) (pred_lt t)).1 (scAt m c (t.val - 1) (pred_lt t)).2.1 (scAt m c (t.val - 1) (pred_lt t)).2.2.1 (scAt m c (t.val - 1) (pred_lt t)).2.2.2,
      sout0_C_3_eq c (grid0.coords t) (ms0_0 t) (hs0_0 t) (ms0_1 t) (hs0_1 t) (ms0_2 t) (hs0_2 t) (ms0_3 t) (hs0_3 t) (ms0_4 t) (hs0_4 t) (ms0_5 t) (hs0_5 t) (ms0_6 t) (hs0_6 t) (ms0_7 t) (hs0_7 t) (ms0_8 t) (hs0_8 t) scM0_0 (Memref.isWhole_whole _) scM0_1 (Memref.isWhole_whole _) scM0_2 (Memref.isWhole_whole _) scM0_3 (Memref.isWhole_whole _) (fun h => h0 ((hcond0_0 t).mp h)) ((hcond0_1 t).mpr h1) (iblk m c 0 t) (iblk m c 1 t) (iblk m c 2 t) (iblk m c 3 t) (iblk m c 4 t) (scAt m c (t.val - 1) (pred_lt t)).1 (scAt m c (t.val - 1) (pred_lt t)).2.1 (scAt m c (t.val - 1) (pred_lt t)).2.2.1 (scAt m c (t.val - 1) (pred_lt t)).2.2.2⟩
  · rw [scAt_B m c t h0 h1]
    dsimp only [scB]
    exact ⟨sout0_B_0_eq c (grid0.coords t) (ms0_0 t) (hs0_0 t) (ms0_1 t) (hs0_1 t) (ms0_2 t) (hs0_2 t) (ms0_3 t) (hs0_3 t) (ms0_4 t) (hs0_4 t) (ms0_5 t) (hs0_5 t) (ms0_6 t) (hs0_6 t) (ms0_7 t) (hs0_7 t) (ms0_8 t) (hs0_8 t) scM0_0 (Memref.isWhole_whole _) scM0_1 (Memref.isWhole_whole _) scM0_2 (Memref.isWhole_whole _) scM0_3 (Memref.isWhole_whole _) (fun h => h0 ((hcond0_0 t).mp h)) (fun h => h1 ((hcond0_1 t).mp h)) (iblk m c 0 t) (iblk m c 1 t) (iblk m c 2 t) (iblk m c 3 t) (iblk m c 4 t) (scAt m c (t.val - 1) (pred_lt t)).1 (scAt m c (t.val - 1) (pred_lt t)).2.1 (scAt m c (t.val - 1) (pred_lt t)).2.2.1 (scAt m c (t.val - 1) (pred_lt t)).2.2.2,
      sout0_B_1_eq c (grid0.coords t) (ms0_0 t) (hs0_0 t) (ms0_1 t) (hs0_1 t) (ms0_2 t) (hs0_2 t) (ms0_3 t) (hs0_3 t) (ms0_4 t) (hs0_4 t) (ms0_5 t) (hs0_5 t) (ms0_6 t) (hs0_6 t) (ms0_7 t) (hs0_7 t) (ms0_8 t) (hs0_8 t) scM0_0 (Memref.isWhole_whole _) scM0_1 (Memref.isWhole_whole _) scM0_2 (Memref.isWhole_whole _) scM0_3 (Memref.isWhole_whole _) (fun h => h0 ((hcond0_0 t).mp h)) (fun h => h1 ((hcond0_1 t).mp h)) (iblk m c 0 t) (iblk m c 1 t) (iblk m c 2 t) (iblk m c 3 t) (iblk m c 4 t) (scAt m c (t.val - 1) (pred_lt t)).1 (scAt m c (t.val - 1) (pred_lt t)).2.1 (scAt m c (t.val - 1) (pred_lt t)).2.2.1 (scAt m c (t.val - 1) (pred_lt t)).2.2.2,
      sout0_B_2_eq c (grid0.coords t) (ms0_0 t) (hs0_0 t) (ms0_1 t) (hs0_1 t) (ms0_2 t) (hs0_2 t) (ms0_3 t) (hs0_3 t) (ms0_4 t) (hs0_4 t) (ms0_5 t) (hs0_5 t) (ms0_6 t) (hs0_6 t) (ms0_7 t) (hs0_7 t) (ms0_8 t) (hs0_8 t) scM0_0 (Memref.isWhole_whole _) scM0_1 (Memref.isWhole_whole _) scM0_2 (Memref.isWhole_whole _) scM0_3 (Memref.isWhole_whole _) (fun h => h0 ((hcond0_0 t).mp h)) (fun h => h1 ((hcond0_1 t).mp h)) (iblk m c 0 t) (iblk m c 1 t) (iblk m c 2 t) (iblk m c 3 t) (iblk m c 4 t) (scAt m c (t.val - 1) (pred_lt t)).1 (scAt m c (t.val - 1) (pred_lt t)).2.1 (scAt m c (t.val - 1) (pred_lt t)).2.2.1 (scAt m c (t.val - 1) (pred_lt t)).2.2.2,
      sout0_B_3_eq c (grid0.coords t) (ms0_0 t) (hs0_0 t) (ms0_1 t) (hs0_1 t) (ms0_2 t) (hs0_2 t) (ms0_3 t) (hs0_3 t) (ms0_4 t) (hs0_4 t) (ms0_5 t) (hs0_5 t) (ms0_6 t) (hs0_6 t) (ms0_7 t) (hs0_7 t) (ms0_8 t) (hs0_8 t) scM0_0 (Memref.isWhole_whole _) scM0_1 (Memref.isWhole_whole _) scM0_2 (Memref.isWhole_whole _) scM0_3 (Memref.isWhole_whole _) (fun h => h0 ((hcond0_0 t).mp h)) (fun h => h1 ((hcond0_1 t).mp h)) (iblk m c 0 t) (iblk m c 1 t) (iblk m c 2 t) (iblk m c 3 t) (iblk m c 4 t) (scAt m c (t.val - 1) (pred_lt t)).1 (scAt m c (t.val - 1) (pred_lt t)).2.1 (scAt m c (t.val - 1) (pred_lt t)).2.2.1 (scAt m c (t.val - 1) (pred_lt t)).2.2.2⟩

/-- A last tile copies the updated accumulators to the output buffers, under a leading unit axis. -/
theorem out_last (t : Fin cfg0.N) (h1 : t.val % 64 = 63) :
    (outAt m c t).1 = k0_pay13 (scAt m c t.val t.isLt).1
    ∧ (outAt m c t).2.1 = k0_pay14 (scAt m c t.val t.isLt).2.1
    ∧ (outAt m c t).2.2.1 = k0_pay15 (scAt m c t.val t.isLt).2.2.1
    ∧ (outAt m c t).2.2.2 = k0_pay16 (scAt m c t.val t.isLt).2.2.2 := by
  have h0 : ¬t.val % 64 = 0 := not_first_of_last h1
  obtain ⟨e0, e1, e2, e3⟩ := sc_step m c t h0
  rw [e0, e1, e2, e3, outAt_C m c t h1]
  dsimp only [outC]
  exact ⟨out0_C_5_eq c (grid0.coords t) (ms0_0 t) (hs0_0 t) (ms0_1 t) (hs0_1 t) (ms0_2 t) (hs0_2 t) (ms0_3 t) (hs0_3 t) (ms0_4 t) (hs0_4 t) (ms0_5 t) (hs0_5 t) (ms0_6 t) (hs0_6 t) (ms0_7 t) (hs0_7 t) (ms0_8 t) (hs0_8 t) scM0_0 (Memref.isWhole_whole _) scM0_1 (Memref.isWhole_whole _) scM0_2 (Memref.isWhole_whole _) scM0_3 (Memref.isWhole_whole _) (fun h => not_first_of_last h1 ((hcond0_0 t).mp h)) ((hcond0_1 t).mpr h1) (iblk m c 0 t) (iblk m c 1 t) (iblk m c 2 t) (iblk m c 3 t) (iblk m c 4 t) (scAt m c (t.val - 1) (pred_lt t)).1 (scAt m c (t.val - 1) (pred_lt t)).2.1 (scAt m c (t.val - 1) (pred_lt t)).2.2.1 (scAt m c (t.val - 1) (pred_lt t)).2.2.2,
    out0_C_6_eq c (grid0.coords t) (ms0_0 t) (hs0_0 t) (ms0_1 t) (hs0_1 t) (ms0_2 t) (hs0_2 t) (ms0_3 t) (hs0_3 t) (ms0_4 t) (hs0_4 t) (ms0_5 t) (hs0_5 t) (ms0_6 t) (hs0_6 t) (ms0_7 t) (hs0_7 t) (ms0_8 t) (hs0_8 t) scM0_0 (Memref.isWhole_whole _) scM0_1 (Memref.isWhole_whole _) scM0_2 (Memref.isWhole_whole _) scM0_3 (Memref.isWhole_whole _) (fun h => not_first_of_last h1 ((hcond0_0 t).mp h)) ((hcond0_1 t).mpr h1) (iblk m c 0 t) (iblk m c 1 t) (iblk m c 2 t) (iblk m c 3 t) (iblk m c 4 t) (scAt m c (t.val - 1) (pred_lt t)).1 (scAt m c (t.val - 1) (pred_lt t)).2.1 (scAt m c (t.val - 1) (pred_lt t)).2.2.1 (scAt m c (t.val - 1) (pred_lt t)).2.2.2,
    out0_C_7_eq c (grid0.coords t) (ms0_0 t) (hs0_0 t) (ms0_1 t) (hs0_1 t) (ms0_2 t) (hs0_2 t) (ms0_3 t) (hs0_3 t) (ms0_4 t) (hs0_4 t) (ms0_5 t) (hs0_5 t) (ms0_6 t) (hs0_6 t) (ms0_7 t) (hs0_7 t) (ms0_8 t) (hs0_8 t) scM0_0 (Memref.isWhole_whole _) scM0_1 (Memref.isWhole_whole _) scM0_2 (Memref.isWhole_whole _) scM0_3 (Memref.isWhole_whole _) (fun h => not_first_of_last h1 ((hcond0_0 t).mp h)) ((hcond0_1 t).mpr h1) (iblk m c 0 t) (iblk m c 1 t) (iblk m c 2 t) (iblk m c 3 t) (iblk m c 4 t) (scAt m c (t.val - 1) (pred_lt t)).1 (scAt m c (t.val - 1) (pred_lt t)).2.1 (scAt m c (t.val - 1) (pred_lt t)).2.2.1 (scAt m c (t.val - 1) (pred_lt t)).2.2.2,
    out0_C_8_eq c (grid0.coords t) (ms0_0 t) (hs0_0 t) (ms0_1 t) (hs0_1 t) (ms0_2 t) (hs0_2 t) (ms0_3 t) (hs0_3 t) (ms0_4 t) (hs0_4 t) (ms0_5 t) (hs0_5 t) (ms0_6 t) (hs0_6 t) (ms0_7 t) (hs0_7 t) (ms0_8 t) (hs0_8 t) scM0_0 (Memref.isWhole_whole _) scM0_1 (Memref.isWhole_whole _) scM0_2 (Memref.isWhole_whole _) scM0_3 (Memref.isWhole_whole _) (fun h => not_first_of_last h1 ((hcond0_0 t).mp h)) ((hcond0_1 t).mpr h1) (iblk m c 0 t) (iblk m c 1 t) (iblk m c 2 t) (iblk m c 3 t) (iblk m c 4 t) (scAt m c (t.val - 1) (pred_lt t)).1 (scAt m c (t.val - 1) (pred_lt t)).2.1 (scAt m c (t.val - 1) (pred_lt t)).2.2.1 (scAt m c (t.val - 1) (pred_lt t)).2.2.2⟩

/-! ### The same at an index, over the real data -/

/-- The batch's label at row b, the tile's labels as a row and as a column, the queue's entries. -/
theorem lab_b (hbi : ∀ b : Fin 1024, (V m c main_v41 : S1024x1.Idx → Elt Ideal .i32) (ix2 b (0 : Fin 1)) = bi b)
    (t : Fin cfg0.N) (b : Fin 1024) (j : Fin 512) : k0_pay8 (F := Ideal) (bcol m c t) (ix2 b j) = bi b :=
  (pay8_apply (bcol m c t) b j).trans ((iblk4_apply m c t b).trans (hbi b))
theorem lab_row (hqr : ∀ j : Fin 65536, (V m c main_v43 : S1x65536.Idx → Elt Ideal .i32) (ix2 (0 : Fin 1) j) = qi j)
    (t : Fin cfg0.N) (j : Fin 512) : k0_pay5 (F := Ideal) (qrow m c t) (ix2 (0 : Fin 1) j) = qi (col t j) :=
  (congrFun (pay5_eq (qrow m c t)) _).trans ((iblk2_apply m c t j).trans (hqr (col t j)))
theorem lab_col (hqc : ∀ j : Fin 65536, (V m c main_v42 : S65536x1.Idx → Elt Ideal .i32) (ix2 j (0 : Fin 1)) = qi j)
    (t : Fin cfg0.N) (j : Fin 512) : qcol m c t (ix2 j (0 : Fin 1)) = qi (col t j) :=
  (iblk1_apply m c t j).trans (hqc (col t j))
theorem queue_at (hQ : ∀ (e : Fin 128) (j : Fin 65536), (V m c main_arg3 : S128x65536.Idx → Elt Ideal .f32) (ix2 e j) = ((Q e j : ℝ) : EReal))
    (t : Fin cfg0.N) (e : Fin 128) (j : Fin 512) : qblk m c t (ix2 e j) = ((Q e (col t j) : ℝ) : EReal) :=
  (iblk0_apply m c t e j).trans (hQ e (col t j))

/-- The running maximum after a first tile: the reset value joined with the tile's maximum. -/
theorem M_first (hA : ∀ (b : Fin 1024) (e : Fin 128), (V m c main_v40 : S1024x128.Idx → Elt Ideal .bf16) (ix2 b e) = ((Spec.nrmRow X0 b e / temp : ℝ) : EReal))
    (hQ : ∀ (e : Fin 128) (j : Fin 65536), (V m c main_arg3 : S128x65536.Idx → Elt Ideal .f32) (ix2 e j) = ((Q e j : ℝ) : EReal))
    (t : Fin cfg0.N) (h0 : t.val % 64 = 0) (b : Fin 1024) :
    (scAt m c t.val t.isLt).2.1 (ix2 b (0 : Fin 1)) = max ((negBig : ℝ) : EReal) ((Finset.univ : Finset (Fin 512)).fold max (⊥ : EReal) fun j => ((Spec.xq X0 Q b (col t j) : ℝ) : EReal)) := by
  refine (congrFun ((sc_first m c t h0).2.1.trans (pay12_eq _ _)) (ix2 b (0 : Fin 1))).trans ((pay10_apply _ _ b 0).trans ?_)
  exact congrArg₂ max ((pay2_apply _).trans ofBits_negBig)
    (congrArg (fun f => Finset.fold max (⊥ : EReal) f Finset.univ) (funext fun j => tile_scores m c X0 Q hA hQ t b j))

/-- The running maximum after any other tile: the maximum before joined with the tile's. -/
theorem M_step (hA : ∀ (b : Fin 1024) (e : Fin 128), (V m c main_v40 : S1024x128.Idx → Elt Ideal .bf16) (ix2 b e) = ((Spec.nrmRow X0 b e / temp : ℝ) : EReal))
    (hQ : ∀ (e : Fin 128) (j : Fin 65536), (V m c main_arg3 : S128x65536.Idx → Elt Ideal .f32) (ix2 e j) = ((Q e j : ℝ) : EReal))
    (t : Fin cfg0.N) (h0 : ¬t.val % 64 = 0) (n : ℕ) (hn : n < cfg0.N) (e : t.val - 1 = n) (b : Fin 1024) :
    (scAt m c t.val t.isLt).2.1 (ix2 b (0 : Fin 1)) = max ((scAt m c n hn).2.1 (ix2 b (0 : Fin 1))) ((Finset.univ : Finset (Fin 512)).fold max (⊥ : EReal) fun j => ((Spec.xq X0 Q b (col t j) : ℝ) : EReal)) := by
  subst e
  refine (congrFun ((sc_step m c t h0).2.1.trans (pay12_eq _ _)) (ix2 b (0 : Fin 1))).trans ((pay10_apply _ _ b 0).trans ?_)
  exact congrArg (max _)
    (congrArg (fun f => Finset.fold max (⊥ : EReal) f Finset.univ) (funext fun j => tile_scores m c X0 Q hA hQ t b j))

/-- The running sum of exponentials after a first tile, M the running maximum after it. -/
theorem L_first (hA : ∀ (b : Fin 1024) (e : Fin 128), (V m c main_v40 : S1024x128.Idx → Elt Ideal .bf16) (ix2 b e) = ((Spec.nrmRow X0 b e / temp : ℝ) : EReal))
    (hQ : ∀ (e : Fin 128) (j : Fin 65536), (V m c main_arg3 : S128x65536.Idx → Elt Ideal .f32) (ix2 e j) = ((Q e j : ℝ) : EReal))
    (t : Fin cfg0.N) (h0 : t.val % 64 = 0) (b : Fin 1024) :
    (scAt m c t.val t.isLt).2.2.1 (ix2 b (0 : Fin 1))
      = (k0_pay3 (F := Ideal)) (ix2 b (0 : Fin 1)) * Ideal.exp (((negBig : ℝ) : EReal) - (scAt m c t.val t.isLt).2.1 (ix2 b (0 : Fin 1)))
        + ∑ j : Fin 512, Ideal.exp (((Spec.xq X0 Q b (col t j) : ℝ) : EReal) - (scAt m c t.val t.isLt).2.1 (ix2 b (0 : Fin 1))) := by
  have hM : k0_pay10 (F := Ideal) (k0_pay7 (qblk m c t) (ablk m c t)) (k0_pay2 (F := Ideal)) (ix2 b (0 : Fin 1)) = (scAt m c t.val t.isLt).2.1 (ix2 b (0 : Fin 1)) :=
    (congrFun ((sc_first m c t h0).2.1.trans (pay12_eq _ _)) (ix2 b (0 : Fin 1))).symm
  refine (congrFun (sc_first m c t h0).2.2.1 (ix2 b (0 : Fin 1))).trans ((pay11_apply _ _ _ _ b 0).trans ?_)
  simp only [hM, pay2_apply, ofBits_negBig, tile_scores m c X0 Q hA hQ t b]

/-- The running sum of exponentials after any other tile. -/
theorem L_step (hA : ∀ (b : Fin 1024) (e : Fin 128), (V m c main_v40 : S1024x128.Idx → Elt Ideal .bf16) (ix2 b e) = ((Spec.nrmRow X0 b e / temp : ℝ) : EReal))
    (hQ : ∀ (e : Fin 128) (j : Fin 65536), (V m c main_arg3 : S128x65536.Idx → Elt Ideal .f32) (ix2 e j) = ((Q e j : ℝ) : EReal))
    (t : Fin cfg0.N) (h0 : ¬t.val % 64 = 0) (n : ℕ) (hn : n < cfg0.N) (e : t.val - 1 = n) (b : Fin 1024) :
    (scAt m c t.val t.isLt).2.2.1 (ix2 b (0 : Fin 1))
      = (scAt m c n hn).2.2.1 (ix2 b (0 : Fin 1)) * Ideal.exp ((scAt m c n hn).2.1 (ix2 b (0 : Fin 1)) - (scAt m c t.val t.isLt).2.1 (ix2 b (0 : Fin 1)))
        + ∑ j : Fin 512, Ideal.exp (((Spec.xq X0 Q b (col t j) : ℝ) : EReal) - (scAt m c t.val t.isLt).2.1 (ix2 b (0 : Fin 1))) := by
  subst e
  have hM : k0_pay10 (F := Ideal) (k0_pay7 (qblk m c t) (ablk m c t)) (scAt m c (t.val - 1) (pred_lt t)).2.1 (ix2 b (0 : Fin 1)) = (scAt m c t.val t.isLt).2.1 (ix2 b (0 : Fin 1)) :=
    (congrFun ((sc_step m c t h0).2.1.trans (pay12_eq _ _)) (ix2 b (0 : Fin 1))).symm
  refine (congrFun (sc_step m c t h0).2.2.1 (ix2 b (0 : Fin 1))).trans ((pay11_apply _ _ _ _ b 0).trans ?_)
  simp only [hM, tile_scores m c X0 Q hA hQ t b]

/-- The matched-score sum after a first tile. -/
theorem S_first (hA : ∀ (b : Fin 1024) (e : Fin 128), (V m c main_v40 : S1024x128.Idx → Elt Ideal .bf16) (ix2 b e) = ((Spec.nrmRow X0 b e / temp : ℝ) : EReal))
    (hQ : ∀ (e : Fin 128) (j : Fin 65536), (V m c main_arg3 : S128x65536.Idx → Elt Ideal .f32) (ix2 e j) = ((Q e j : ℝ) : EReal))
    (hbi : ∀ b : Fin 1024, (V m c main_v41 : S1024x1.Idx → Elt Ideal .i32) (ix2 b (0 : Fin 1)) = bi b)
    (hqr : ∀ j : Fin 65536, (V m c main_v43 : S1x65536.Idx → Elt Ideal .i32) (ix2 (0 : Fin 1) j) = qi j)
    (t : Fin cfg0.N) (h0 : t.val % 64 = 0) (b : Fin 1024) :
    (scAt m c t.val t.isLt).2.2.2 (ix2 b (0 : Fin 1))
      = (k0_pay4 (F := Ideal)) (ix2 b (0 : Fin 1)) + ∑ j : Fin 512, (if bi b = qi (col t j) then (1 : EReal) else 0) * ((Spec.xq X0 Q b (col t j) : ℝ) : EReal) := by
  refine (congrFun (sc_first m c t h0).2.2.2 (ix2 b (0 : Fin 1))).trans ((pay9_apply _ _ _ _ b 0).trans ?_)
  simp only [lab_b m c bi hbi t b, lab_row m c qi hqr t, tile_scores m c X0 Q hA hQ t b]

/-- The matched-score sum after any other tile. -/
theorem S_step (hA : ∀ (b : Fin 1024) (e : Fin 128), (V m c main_v40 : S1024x128.Idx → Elt Ideal .bf16) (ix2 b e) = ((Spec.nrmRow X0 b e / temp : ℝ) : EReal))
    (hQ : ∀ (e : Fin 128) (j : Fin 65536), (V m c main_arg3 : S128x65536.Idx → Elt Ideal .f32) (ix2 e j) = ((Q e j : ℝ) : EReal))
    (hbi : ∀ b : Fin 1024, (V m c main_v41 : S1024x1.Idx → Elt Ideal .i32) (ix2 b (0 : Fin 1)) = bi b)
    (hqr : ∀ j : Fin 65536, (V m c main_v43 : S1x65536.Idx → Elt Ideal .i32) (ix2 (0 : Fin 1) j) = qi j)
    (t : Fin cfg0.N) (h0 : ¬t.val % 64 = 0) (n : ℕ) (hn : n < cfg0.N) (e : t.val - 1 = n) (b : Fin 1024) :
    (scAt m c t.val t.isLt).2.2.2 (ix2 b (0 : Fin 1))
      = (scAt m c n hn).2.2.2 (ix2 b (0 : Fin 1)) + ∑ j : Fin 512, (if bi b = qi (col t j) then (1 : EReal) else 0) * ((Spec.xq X0 Q b (col t j) : ℝ) : EReal) := by
  subst e
  refine (congrFun (sc_step m c t h0).2.2.2 (ix2 b (0 : Fin 1))).trans ((pay9_apply _ _ _ _ b 0).trans ?_)
  simp only [lab_b m c bi hbi t b, lab_row m c qi hqr t, tile_scores m c X0 Q hA hQ t b]

/-- The per-organisation sums after a first tile. -/
theorem G_first (hQ : ∀ (e : Fin 128) (j : Fin 65536), (V m c main_arg3 : S128x65536.Idx → Elt Ideal .f32) (ix2 e j) = ((Q e j : ℝ) : EReal))
    (hqc : ∀ j : Fin 65536, (V m c main_v42 : S65536x1.Idx → Elt Ideal .i32) (ix2 j (0 : Fin 1)) = qi j)
    (t : Fin cfg0.N) (h0 : t.val % 64 = 0) (e : Fin 128) (o : Fin 2048) :
    (scAt m c t.val t.isLt).1 (ix2 e o)
      = (k0_pay1 (F := Ideal)) (ix2 e o) + ∑ j : Fin 512, ((Q e (col t j) : ℝ) : EReal) * (if qi (col t j) = BitVec.ofNat 32 o.val then (1 : EReal) else 0) := by
  refine (congrFun (sc_first m c t h0).1 (ix2 e o)).trans ((pay6_apply _ _ _ e o).trans ?_)
  simp only [queue_at m c Q hQ t e, lab_col m c qi hqc t]

/-- The per-organisation sums after any other tile. -/
theorem G_step (hQ : ∀ (e : Fin 128) (j : Fin 65536), (V m c main_arg3 : S128x65536.Idx → Elt Ideal .f32) (ix2 e j) = ((Q e j : ℝ) : EReal))
    (hqc : ∀ j : Fin 65536, (V m c main_v42 : S65536x1.Idx → Elt Ideal .i32) (ix2 j (0 : Fin 1)) = qi j)
    (t : Fin cfg0.N) (h0 : ¬t.val % 64 = 0) (n : ℕ) (hn : n < cfg0.N) (en : t.val - 1 = n) (e : Fin 128) (o : Fin 2048) :
    (scAt m c t.val t.isLt).1 (ix2 e o)
      = (scAt m c n hn).1 (ix2 e o) + ∑ j : Fin 512, ((Q e (col t j) : ℝ) : EReal) * (if qi (col t j) = BitVec.ofNat 32 o.val then (1 : EReal) else 0) := by
  subst en
  refine (congrFun (sc_step m c t h0).1 (ix2 e o)).trans ((pay6_apply _ _ _ e o).trans ?_)
  simp only [queue_at m c Q hQ t e, lab_col m c qi hqc t]

/-! ## The 64 tiles of a core -/

/-- Tile q of core k as a grid point: number 64·k + q. -/
def pt (k : Fin 2) (q : ℕ) (hq : q < 64) : Fin cfg0.N :=
  ⟨k.val * 64 + q, by have hN : cfg0.N = 128 := N_0; have := k.isLt; omega⟩

theorem pt_mod (k : Fin 2) (q : ℕ) (hq : q < 64) : (pt k q hq).val % 64 = q := by
  show (k.val * 64 + q) % 64 = q; omega

theorem pt_pred (k : Fin 2) (q : ℕ) (hq : q + 1 < 64) : (pt k (q + 1) hq).val - 1 = (pt k q (by omega)).val := by
  show k.val * 64 + (q + 1) - 1 = k.val * 64 + q; omega

/-- Column i of core k's half of the queue; the place of column j of tile q inside a half. -/
def half (k : Fin 2) (i : Fin 32768) : Fin 65536 :=
  ⟨k.val * 32768 + i.val, by have := k.isLt; have := i.isLt; omega⟩
def inHalf (q : ℕ) (hq : q < 64) (j : Fin 512) : Fin 32768 := ⟨q * 512 + j.val, by have := j.isLt; omega⟩

theorem col_pt (k : Fin 2) (q : ℕ) (hq : q < 64) (j : Fin 512) : col (pt k q hq) j = half k (inHalf q hq j) :=
  Fin.ext (by show (k.val * 64 + q) * 512 + j.val = k.val * 32768 + (q * 512 + j.val); omega)

/-- Row b's scores against core k's half, by column of the half and by tile; the half's labels and entries by tile. -/
def fsc (k : Fin 2) (b : Fin 1024) (i : Fin 32768) : ℝ := Spec.xq X0 Q b (half k i)
def sc (k : Fin 2) (b : Fin 1024) (q : ℕ) (j : Fin 512) : ℝ := if hq : q < 64 then fsc X0 Q k b (inHalf q hq j) else 0
def lab (k : Fin 2) (q : ℕ) (j : Fin 512) : BitVec 32 := if hq : q < 64 then qi (half k (inHalf q hq j)) else 0
def qv (k : Fin 2) (e : Fin 128) (q : ℕ) (j : Fin 512) : ℝ := if hq : q < 64 then Q e (half k (inHalf q hq j)) else 0

theorem xq_pt (k : Fin 2) (b : Fin 1024) (q : ℕ) (hq : q < 64) (j : Fin 512) :
    Spec.xq X0 Q b (col (pt k q hq) j) = sc X0 Q k b q j := by
  rw [col_pt]; unfold sc fsc; rw [dif_pos hq]
theorem qi_pt (k : Fin 2) (q : ℕ) (hq : q < 64) (j : Fin 512) : qi (col (pt k q hq) j) = lab qi k q j := by
  rw [col_pt]; unfold lab; rw [dif_pos hq]
theorem Q_pt (k : Fin 2) (e : Fin 128) (q : ℕ) (hq : q < 64) (j : Fin 512) : Q e (col (pt k q hq) j) = qv Q k e q j := by
  rw [col_pt]; unfold qv; rw [dif_pos hq]

/-- The four accumulators at a fixed index after tile q of core k (anything past the 64 tiles). -/
def Mx (k : Fin 2) (b : Fin 1024) (q : ℕ) : EReal :=
  if hq : q < 64 then (scAt m c (pt k q hq).val (pt k q hq).isLt).2.1 (ix2 b (0 : Fin 1)) else 0
def Lx (k : Fin 2) (b : Fin 1024) (q : ℕ) : EReal :=
  if hq : q < 64 then (scAt m c (pt k q hq).val (pt k q hq).isLt).2.2.1 (ix2 b (0 : Fin 1)) else 0
def Sx (k : Fin 2) (b : Fin 1024) (q : ℕ) : EReal :=
  if hq : q < 64 then (scAt m c (pt k q hq).val (pt k q hq).isLt).2.2.2 (ix2 b (0 : Fin 1)) else 0
def Gx (k : Fin 2) (e : Fin 128) (o : Fin 2048) (q : ℕ) : EReal :=
  if hq : q < 64 then (scAt m c (pt k q hq).val (pt k q hq).isLt).1 (ix2 e o) else 0

theorem Mx_eq (k : Fin 2) (b : Fin 1024) (q : ℕ) (hq : q < 64) :
    Mx m c k b q = (scAt m c (pt k q hq).val (pt k q hq).isLt).2.1 (ix2 b (0 : Fin 1)) := dif_pos hq
theorem Lx_eq (k : Fin 2) (b : Fin 1024) (q : ℕ) (hq : q < 64) :
    Lx m c k b q = (scAt m c (pt k q hq).val (pt k q hq).isLt).2.2.1 (ix2 b (0 : Fin 1)) := dif_pos hq
theorem Sx_eq (k : Fin 2) (b : Fin 1024) (q : ℕ) (hq : q < 64) :
    Sx m c k b q = (scAt m c (pt k q hq).val (pt k q hq).isLt).2.2.2 (ix2 b (0 : Fin 1)) := dif_pos hq
theorem Gx_eq (k : Fin 2) (e : Fin 128) (o : Fin 2048) (q : ℕ) (hq : q < 64) :
    Gx m c k e o q = (scAt m c (pt k q hq).val (pt k q hq).isLt).1 (ix2 e o) := dif_pos hq

/-! ### Their recurrences -/

theorem Mx_zero (hA : ∀ (b : Fin 1024) (e : Fin 128), (V m c main_v40 : S1024x128.Idx → Elt Ideal .bf16) (ix2 b e) = ((Spec.nrmRow X0 b e / temp : ℝ) : EReal))
    (hQ : ∀ (e : Fin 128) (j : Fin 65536), (V m c main_arg3 : S128x65536.Idx → Elt Ideal .f32) (ix2 e j) = ((Q e j : ℝ) : EReal))
    (k : Fin 2) (b : Fin 1024) :
    Mx m c k b 0 = max ((negBig : ℝ) : EReal) ((Finset.univ : Finset (Fin 512)).fold max (⊥ : EReal) fun j => ((sc X0 Q k b 0 j : ℝ) : EReal)) := by
  rw [Mx_eq m c k b 0 (by norm_num)]
  refine (M_first m c X0 Q hA hQ (pt k 0 (by norm_num)) (pt_mod k 0 (by norm_num)) b).trans ?_
  simp only [xq_pt]

theorem Mx_succ (hA : ∀ (b : Fin 1024) (e : Fin 128), (V m c main_v40 : S1024x128.Idx → Elt Ideal .bf16) (ix2 b e) = ((Spec.nrmRow X0 b e / temp : ℝ) : EReal))
    (hQ : ∀ (e : Fin 128) (j : Fin 65536), (V m c main_arg3 : S128x65536.Idx → Elt Ideal .f32) (ix2 e j) = ((Q e j : ℝ) : EReal))
    (k : Fin 2) (b : Fin 1024) (q : ℕ) (hq : q + 1 < 64) :
    Mx m c k b (q + 1) = max (Mx m c k b q) ((Finset.univ : Finset (Fin 512)).fold max (⊥ : EReal) fun j => ((sc X0 Q k b (q + 1) j : ℝ) : EReal)) := by
  rw [Mx_eq m c k b (q + 1) hq, Mx_eq m c k b q (by omega)]
  refine (M_step m c X0 Q hA hQ (pt k (q + 1) hq) (by rw [pt_mod]; omega) _ (pt k q (by omega)).isLt (pt_pred k q hq) b).trans ?_
  simp only [xq_pt]

theorem Lx_zero (hA : ∀ (b : Fin 1024) (e : Fin 128), (V m c main_v40 : S1024x128.Idx → Elt Ideal .bf16) (ix2 b e) = ((Spec.nrmRow X0 b e / temp : ℝ) : EReal))
    (hQ : ∀ (e : Fin 128) (j : Fin 65536), (V m c main_arg3 : S128x65536.Idx → Elt Ideal .f32) (ix2 e j) = ((Q e j : ℝ) : EReal))
    (k : Fin 2) (b : Fin 1024) :
    Lx m c k b 0 = (k0_pay3 (F := Ideal)) (ix2 b (0 : Fin 1)) * Ideal.exp (((negBig : ℝ) : EReal) - Mx m c k b 0)
      + ∑ j : Fin 512, Ideal.exp (((sc X0 Q k b 0 j : ℝ) : EReal) - Mx m c k b 0) := by
  rw [Lx_eq m c k b 0 (by norm_num), Mx_eq m c k b 0 (by norm_num)]
  refine (L_first m c X0 Q hA hQ (pt k 0 (by norm_num)) (pt_mod k 0 (by norm_num)) b).trans ?_
  simp only [xq_pt]

theorem Lx_succ (hA : ∀ (b : Fin 1024) (e : Fin 128), (V m c main_v40 : S1024x128.Idx → Elt Ideal .bf16) (ix2 b e) = ((Spec.nrmRow X0 b e / temp : ℝ) : EReal))
    (hQ : ∀ (e : Fin 128) (j : Fin 65536), (V m c main_arg3 : S128x65536.Idx → Elt Ideal .f32) (ix2 e j) = ((Q e j : ℝ) : EReal))
    (k : Fin 2) (b : Fin 1024) (q : ℕ) (hq : q + 1 < 64) :
    Lx m c k b (q + 1) = Lx m c k b q * Ideal.exp (Mx m c k b q - Mx m c k b (q + 1))
      + ∑ j : Fin 512, Ideal.exp (((sc X0 Q k b (q + 1) j : ℝ) : EReal) - Mx m c k b (q + 1)) := by
  rw [Lx_eq m c k b (q + 1) hq, Lx_eq m c k b q (by omega), Mx_eq m c k b (q + 1) hq, Mx_eq m c k b q (by omega)]
  refine (L_step m c X0 Q hA hQ (pt k (q + 1) hq) (by rw [pt_mod]; omega) _ (pt k q (by omega)).isLt (pt_pred k q hq) b).trans ?_
  simp only [xq_pt]

theorem Sx_zero (hA : ∀ (b : Fin 1024) (e : Fin 128), (V m c main_v40 : S1024x128.Idx → Elt Ideal .bf16) (ix2 b e) = ((Spec.nrmRow X0 b e / temp : ℝ) : EReal))
    (hQ : ∀ (e : Fin 128) (j : Fin 65536), (V m c main_arg3 : S128x65536.Idx → Elt Ideal .f32) (ix2 e j) = ((Q e j : ℝ) : EReal))
    (hbi : ∀ b : Fin 1024, (V m c main_v41 : S1024x1.Idx → Elt Ideal .i32) (ix2 b (0 : Fin 1)) = bi b)
    (hqr : ∀ j : Fin 65536, (V m c main_v43 : S1x65536.Idx → Elt Ideal .i32) (ix2 (0 : Fin 1) j) = qi j)
    (k : Fin 2) (b : Fin 1024) :
    Sx m c k b 0 = (k0_pay4 (F := Ideal)) (ix2 b (0 : Fin 1))
      + ∑ j : Fin 512, (if bi b = lab qi k 0 j then (1 : EReal) else 0) * ((sc X0 Q k b 0 j : ℝ) : EReal) := by
  rw [Sx_eq m c k b 0 (by norm_num)]
  refine (S_first m c X0 Q bi qi hA hQ hbi hqr (pt k 0 (by norm_num)) (pt_mod k 0 (by norm_num)) b).trans ?_
  simp only [xq_pt, qi_pt]

theorem Sx_succ (hA : ∀ (b : Fin 1024) (e : Fin 128), (V m c main_v40 : S1024x128.Idx → Elt Ideal .bf16) (ix2 b e) = ((Spec.nrmRow X0 b e / temp : ℝ) : EReal))
    (hQ : ∀ (e : Fin 128) (j : Fin 65536), (V m c main_arg3 : S128x65536.Idx → Elt Ideal .f32) (ix2 e j) = ((Q e j : ℝ) : EReal))
    (hbi : ∀ b : Fin 1024, (V m c main_v41 : S1024x1.Idx → Elt Ideal .i32) (ix2 b (0 : Fin 1)) = bi b)
    (hqr : ∀ j : Fin 65536, (V m c main_v43 : S1x65536.Idx → Elt Ideal .i32) (ix2 (0 : Fin 1) j) = qi j)
    (k : Fin 2) (b : Fin 1024) (q : ℕ) (hq : q + 1 < 64) :
    Sx m c k b (q + 1) = Sx m c k b q
      + ∑ j : Fin 512, (if bi b = lab qi k (q + 1) j then (1 : EReal) else 0) * ((sc X0 Q k b (q + 1) j : ℝ) : EReal) := by
  rw [Sx_eq m c k b (q + 1) hq, Sx_eq m c k b q (by omega)]
  refine (S_step m c X0 Q bi qi hA hQ hbi hqr (pt k (q + 1) hq) (by rw [pt_mod]; omega) _ (pt k q (by omega)).isLt (pt_pred k q hq) b).trans ?_
  simp only [xq_pt, qi_pt]

theorem Gx_zero (hQ : ∀ (e : Fin 128) (j : Fin 65536), (V m c main_arg3 : S128x65536.Idx → Elt Ideal .f32) (ix2 e j) = ((Q e j : ℝ) : EReal))
    (hqc : ∀ j : Fin 65536, (V m c main_v42 : S65536x1.Idx → Elt Ideal .i32) (ix2 j (0 : Fin 1)) = qi j)
    (k : Fin 2) (e : Fin 128) (o : Fin 2048) :
    Gx m c k e o 0 = (k0_pay1 (F := Ideal)) (ix2 e o)
      + ∑ j : Fin 512, ((qv Q k e 0 j : ℝ) : EReal) * (if lab qi k 0 j = BitVec.ofNat 32 o.val then (1 : EReal) else 0) := by
  rw [Gx_eq m c k e o 0 (by norm_num)]
  refine (G_first m c Q qi hQ hqc (pt k 0 (by norm_num)) (pt_mod k 0 (by norm_num)) e o).trans ?_
  simp only [Q_pt, qi_pt]

theorem Gx_succ (hQ : ∀ (e : Fin 128) (j : Fin 65536), (V m c main_arg3 : S128x65536.Idx → Elt Ideal .f32) (ix2 e j) = ((Q e j : ℝ) : EReal))
    (hqc : ∀ j : Fin 65536, (V m c main_v42 : S65536x1.Idx → Elt Ideal .i32) (ix2 j (0 : Fin 1)) = qi j)
    (k : Fin 2) (e : Fin 128) (o : Fin 2048) (q : ℕ) (hq : q + 1 < 64) :
    Gx m c k e o (q + 1) = Gx m c k e o q
      + ∑ j : Fin 512, ((qv Q k e (q + 1) j : ℝ) : EReal) * (if lab qi k (q + 1) j = BitVec.ofNat 32 o.val then (1 : EReal) else 0) := by
  rw [Gx_eq m c k e o (q + 1) hq, Gx_eq m c k e o q (by omega)]
  refine (G_step m c Q qi hQ hqc (pt k (q + 1) hq) (by rw [pt_mod]; omega) _ (pt k q (by omega)).isLt (pt_pred k q hq) e o).trans ?_
  simp only [Q_pt, qi_pt]

/-! ## (3) After a core's last tile -/

/-- The three row statistics after core k's 64 tiles: a real maximum, the sum over the half's 32768 columns of the
    exponentials of the scores at that maximum, and the sum of the scores of the columns whose label is the row's. -/
theorem row_last (hA : ∀ (b : Fin 1024) (e : Fin 128), (V m c main_v40 : S1024x128.Idx → Elt Ideal .bf16) (ix2 b e) = ((Spec.nrmRow X0 b e / temp : ℝ) : EReal))
    (hQ : ∀ (e : Fin 128) (j : Fin 65536), (V m c main_arg3 : S128x65536.Idx → Elt Ideal .f32) (ix2 e j) = ((Q e j : ℝ) : EReal))
    (hbi : ∀ b : Fin 1024, (V m c main_v41 : S1024x1.Idx → Elt Ideal .i32) (ix2 b (0 : Fin 1)) = bi b)
    (hqr : ∀ j : Fin 65536, (V m c main_v43 : S1x65536.Idx → Elt Ideal .i32) (ix2 (0 : Fin 1) j) = qi j)
    (k : Fin 2) (b : Fin 1024) :
    ∃ mr : ℝ, Mx m c k b 63 = ((mr : ℝ) : EReal)
      ∧ Lx m c k b 63 = ((∑ i : Fin 32768, Real.exp (Spec.xq X0 Q b (half k i) - mr) : ℝ) : EReal)
      ∧ Sx m c k b 63 = ((∑ i : Fin 32768, Spec.wq bi qi b (half k i) * Spec.xq X0 Q b (half k i) : ℝ) : EReal) :=
  Cert.LibAccum.accum_last_ite (sc X0 Q k b) (fun q j => bi b = lab qi k q j) (fsc X0 Q k b)
    (fun i => bi b = qi (half k i))
    (fun q hq j => by unfold sc; rw [dif_pos hq]; rfl)
    (fun q hq j => by unfold lab; rw [dif_pos hq]; exact Iff.rfl)
    negBig (Mx m c k b) (Lx m c k b) (Sx m c k b) ((k0_pay3 (F := Ideal)) (ix2 b (0 : Fin 1))) ((k0_pay4 (F := Ideal)) (ix2 b (0 : Fin 1))) (pay3_apply _) (pay4_apply _)
    (Mx_zero m c X0 Q hA hQ k b) (Mx_succ m c X0 Q hA hQ k b)
    (Lx_zero m c X0 Q hA hQ k b) (Lx_succ m c X0 Q hA hQ k b)
    (Sx_zero m c X0 Q bi qi hA hQ hbi hqr k b) (Sx_succ m c X0 Q bi qi hA hQ hbi hqr k b)

/-- The per-organisation sums after core k's 64 tiles. -/
theorem gsum_last (hQ : ∀ (e : Fin 128) (j : Fin 65536), (V m c main_arg3 : S128x65536.Idx → Elt Ideal .f32) (ix2 e j) = ((Q e j : ℝ) : EReal))
    (hqc : ∀ j : Fin 65536, (V m c main_v42 : S65536x1.Idx → Elt Ideal .i32) (ix2 j (0 : Fin 1)) = qi j)
    (k : Fin 2) (e : Fin 128) (o : Fin 2048) :
    Gx m c k e o 63
      = ((∑ i : Fin 32768, Q e (half k i) * (if qi (half k i) = BitVec.ofNat 32 o.val then (1 : ℝ) else 0) : ℝ) : EReal) :=
  Cert.LibAccum.accum_G_last (qv Q k e) (fun q j => lab qi k q j = BitVec.ofNat 32 o.val) (fun i => Q e (half k i))
    (fun i => qi (half k i) = BitVec.ofNat 32 o.val)
    (fun q hq j => by unfold qv; rw [dif_pos hq]; rfl)
    (fun q hq j => by unfold lab; rw [dif_pos hq]; exact Iff.rfl)
    (Gx m c k e o) ((k0_pay1 (F := Ideal)) (ix2 e o)) (pay1_apply _)
    (Gx_zero m c Q qi hQ hqc k e o) (Gx_succ m c Q qi hQ hqc k e o)

/-- Core k's last tile is its tile 63. -/
theorem lastTile_eq (k : Fin 2) : lastTile k = pt k 63 (by norm_num) := Fin.ext rfl

/-- The three row statistics in the output buffers after core k's last tile. -/
theorem out_row (hA : ∀ (b : Fin 1024) (e : Fin 128), (V m c main_v40 : S1024x128.Idx → Elt Ideal .bf16) (ix2 b e) = ((Spec.nrmRow X0 b e / temp : ℝ) : EReal))
    (hQ : ∀ (e : Fin 128) (j : Fin 65536), (V m c main_arg3 : S128x65536.Idx → Elt Ideal .f32) (ix2 e j) = ((Q e j : ℝ) : EReal))
    (hbi : ∀ b : Fin 1024, (V m c main_v41 : S1024x1.Idx → Elt Ideal .i32) (ix2 b (0 : Fin 1)) = bi b)
    (hqr : ∀ j : Fin 65536, (V m c main_v43 : S1x65536.Idx → Elt Ideal .i32) (ix2 (0 : Fin 1) j) = qi j)
    (k : Fin 2) (b : Fin 1024) :
    ∃ mr : ℝ, (outAt m c (lastTile k)).2.1 (ix3 (0 : Fin 1) b (0 : Fin 1)) = ((mr : ℝ) : EReal)
      ∧ (outAt m c (lastTile k)).2.2.1 (ix3 (0 : Fin 1) b (0 : Fin 1))
          = ((∑ i : Fin 32768, Real.exp (Spec.xq X0 Q b (half k i) - mr) : ℝ) : EReal)
      ∧ (outAt m c (lastTile k)).2.2.2 (ix3 (0 : Fin 1) b (0 : Fin 1))
          = ((∑ i : Fin 32768, Spec.wq bi qi b (half k i) * Spec.xq X0 Q b (half k i) : ℝ) : EReal) := by
  obtain ⟨mr, h1, h2, h3⟩ := row_last m c X0 Q bi qi hA hQ hbi hqr k b
  rw [Mx_eq m c k b 63 (by norm_num)] at h1
  rw [Lx_eq m c k b 63 (by norm_num)] at h2
  rw [Sx_eq m c k b 63 (by norm_num)] at h3
  obtain ⟨-, o1, o2, o3⟩ := out_last m c (pt k 63 (by norm_num)) (pt_mod k 63 (by norm_num))
  rw [lastTile_eq k, o1, o2, o3]
  exact ⟨mr, (pay14_apply _ 0 b 0).trans h1, (pay15_apply _ 0 b 0).trans h2, (pay16_apply _ 0 b 0).trans h3⟩

/-- The per-organisation sums in the output buffer after core k's last tile. -/
theorem out_gsum (hQ : ∀ (e : Fin 128) (j : Fin 65536), (V m c main_arg3 : S128x65536.Idx → Elt Ideal .f32) (ix2 e j) = ((Q e j : ℝ) : EReal))
    (hqc : ∀ j : Fin 65536, (V m c main_v42 : S65536x1.Idx → Elt Ideal .i32) (ix2 j (0 : Fin 1)) = qi j)
    (k : Fin 2) (e : Fin 128) (o : Fin 2048) :
    (outAt m c (lastTile k)).1 (ix3 (0 : Fin 1) e o)
      = ((∑ i : Fin 32768, Q e (half k i) * (if qi (half k i) = BitVec.ofNat 32 o.val then (1 : ℝ) else 0) : ℝ) : EReal) := by
  have h := gsum_last m c Q qi hQ hqc k e o
  rw [Gx_eq m c k e o 63 (by norm_num)] at h
  obtain ⟨o0, -, -, -⟩ := out_last m c (pt k 63 (by norm_num)) (pt_mod k 63 (by norm_num))
  rw [lastTile_eq k, o0]
  exact (pay13_apply _ 0 e o).trans h

/-! ## The output arrays -/

/-- THE ROW STATISTICS in the output arrays, slab k (core k's half of the queue), row b: a real maximum, the sum of the
    exponentials of the row's scores against the half at that maximum, and the row's matched-score sum over the half. -/
theorem region_out (hA : ∀ (b : Fin 1024) (e : Fin 128), (V m c main_v40 : S1024x128.Idx → Elt Ideal .bf16) (ix2 b e) = ((Spec.nrmRow X0 b e / temp : ℝ) : EReal))
    (hQ : ∀ (e : Fin 128) (j : Fin 65536), (V m c main_arg3 : S128x65536.Idx → Elt Ideal .f32) (ix2 e j) = ((Q e j : ℝ) : EReal))
    (hbi : ∀ b : Fin 1024, (V m c main_v41 : S1024x1.Idx → Elt Ideal .i32) (ix2 b (0 : Fin 1)) = bi b)
    (hqr : ∀ j : Fin 65536, (V m c main_v43 : S1x65536.Idx → Elt Ideal .i32) (ix2 (0 : Fin 1) j) = qi j)
    (k : Fin 2) (b : Fin 1024) :
    ∃ mr : ℝ, ((dats m 0 c).arrAt 6 cfg0.N : S2x1024x1.Idx → Elt Ideal .f32) (ix3 k b (0 : Fin 1)) = ((mr : ℝ) : EReal)
      ∧ ((dats m 0 c).arrAt 7 cfg0.N : S2x1024x1.Idx → Elt Ideal .f32) (ix3 k b (0 : Fin 1))
          = ((∑ i : Fin 32768, Real.exp (Spec.xq X0 Q b (half k i) - mr) : ℝ) : EReal)
      ∧ ((dats m 0 c).arrAt 8 cfg0.N : S2x1024x1.Idx → Elt Ideal .f32) (ix3 k b (0 : Fin 1))
          = ((∑ i : Fin 32768, Spec.wq bi qi b (half k i) * Spec.xq X0 Q b (half k i) : ℝ) : EReal) := by
  obtain ⟨mr, h1, h2, h3⟩ := out_row m c X0 Q bi qi hA hQ hbi hqr k b
  exact ⟨mr, (arrOut6 m c k b).trans h1, (arrOut7 m c k b).trans h2, (arrOut8 m c k b).trans h3⟩

/-- THE PER-ORGANISATION SUMS in the output array, slab k: feature e, organisation o. -/
theorem region_gsum (hQ : ∀ (e : Fin 128) (j : Fin 65536), (V m c main_arg3 : S128x65536.Idx → Elt Ideal .f32) (ix2 e j) = ((Q e j : ℝ) : EReal))
    (hqc : ∀ j : Fin 65536, (V m c main_v42 : S65536x1.Idx → Elt Ideal .i32) (ix2 j (0 : Fin 1)) = qi j)
    (k : Fin 2) (e : Fin 128) (o : Fin 2048) :
    ((dats m 0 c).arrAt 5 cfg0.N : S2x128x2048.Idx → Elt Ideal .f32) (ix3 k e o)
      = ((∑ i : Fin 32768, Q e (half k i) * (if qi (half k i) = BitVec.ofNat 32 o.val then (1 : ℝ) else 0) : ℝ) : EReal) :=
  (arrOut5 m c k e o).trans (out_gsum m c Q qi hQ hqc k e o)

end Cert.KernelIdeal.RegionVal

end
-- ==== Proof.KI.FromPre.lean ====
/-
  FROM THE PRECONDITION TO THE REGION'S HYPOTHESES. The precondition says that every entry of the four float arguments
  is finite and that the anchors' labels lie in [0, 2048); so the float arguments are arrays of real numbers. The host
  operations before the region then leave, in the buffers the region reads, the row-normalised anchors over the
  temperature, the queue as launched, and the labels recast as columns and as a row; these are the region's
  hypotheses, and its results follow for the launched data.
-/
import proofs.«405218_j60748017434937_2_alg».proof.Proof.PreDecode
import proofs.«405218_j60748017434937_2_alg».proof.Proof.KI.HeadVal
import proofs.«405218_j60748017434937_2_alg».proof.Proof.KI.Tail
import proofs.«405218_j60748017434937_2_alg».proof.Proof.KI.RegionVal

set_option maxRecDepth 16384

noncomputable section

namespace Cert.KernelIdeal.FromPre

open Cert.KernelIdeal Cert.KernelIdeal.Gen Cert.KernelIdeal.Hand Cert.KernelIdeal.RegionVal
open Idealize.ShloMosaic Idealize.ShloMosaic.TcCoe ValueIdx Cert.LibWords
open Idealize.SL.Sem
open Idealize.ShloMosaic.Pipeline (Dat)

variable (m : (ℓ : Loc nD τ sig) → Buf (Elt Ideal) ℓ) (c : Dev nD)

/-- The precondition's body at device c: the printed predicate of the six argument arrays is all ones. -/
abbrev PreAt [Cert.Pre_finite_inputs.Facts] : Prop :=
  Cert.Pre_finite_inputs.fn (F := Ideal) (m ((c.tc : Thread nD τ).loc main_arg0)) (m ((c.tc : Thread nD τ).loc main_arg1)) (m ((c.tc : Thread nD τ).loc main_arg2)) (m ((c.tc : Thread nD τ).loc main_arg3)) (m ((c.tc : Thread nD τ).loc main_arg4)) (m ((c.tc : Thread nD τ).loc main_arg5)) = fun _ => 1#1

/-- The anchors' and the queue's labels, by position. -/
abbrev bi : Fin 1024 → BitVec 32 := fun b => HeadVal.X4 m c (ix1 b)
abbrev qi : Fin 65536 → BitVec 32 := fun j => HeadVal.X5 m c (ix1 j)

/-- (1) Under the precondition the four float arguments are arrays of reals, and the anchors' labels lie in
    [0, 2048) read signed. -/
theorem data_of_pre [Cert.Pre_finite_inputs.Facts] (hpre : PreAt m c) :
    ∃ (X0 X1 X2 : Fin 1024 → Fin 128 → ℝ) (Q : Fin 128 → Fin 65536 → ℝ),
      (∀ (b : Fin 1024) (e : Fin 128), HeadVal.X0 m c (ix2 b e) = ((X0 b e : ℝ) : EReal))
      ∧ (∀ (b : Fin 1024) (e : Fin 128), (m ((c : Thread nD τ).loc main_arg1) : FVec Ideal S1024x128 .f32) (ix2 b e) = ((X1 b e : ℝ) : EReal))
      ∧ (∀ (b : Fin 1024) (e : Fin 128), HeadVal.X2 m c (ix2 b e) = ((X2 b e : ℝ) : EReal))
      ∧ (∀ (e : Fin 128) (j : Fin 65536), (m ((c : Thread nD τ).loc main_arg3) : FVec Ideal S128x65536 .f32) (ix2 e j) = ((Q e j : ℝ) : EReal))
      ∧ (∀ b : Fin 1024, 0 ≤ (HeadVal.X4 m c (ix1 b)).toInt ∧ (HeadVal.X4 m c (ix1 b)).toInt < 2048) := by
  obtain ⟨h0, h1, h2, h3, h4⟩ := Cert.PreDecode.finite_of_pre _ _ _ _ _ _ hpre
  choose X0 hX0 using h0
  choose X1 hX1 using h1
  choose X2 hX2 using h2
  choose Q hQ using h3
  exact ⟨fun b e => X0 (ix2 b e), fun b e => X1 (ix2 b e), fun b e => X2 (ix2 b e), fun e j => Q (ix2 e j),
    fun b e => hX0 (ix2 b e), fun b e => hX1 (ix2 b e), fun b e => hX2 (ix2 b e), fun e j => hQ (ix2 e j),
    fun b => h4 (ix1 b)⟩

/-- The labels read unsigned are below 2048 too. -/
theorem label_lt_of_pre [Cert.Pre_finite_inputs.Facts] (hpre : PreAt m c) (b : Fin 1024) : (bi m c b).toNat < 2048 :=
  Cert.PreDecode.index_lt_of_pre _ _ _ _ _ _ hpre (ix1 b)

/-! ## (2) The region's hypotheses for the launched data -/

section Hyps
variable (X0 : Fin 1024 → Fin 128 → ℝ) (Q : Fin 128 → Fin 65536 → ℝ)
variable (h0 : ∀ (b : Fin 1024) (e : Fin 128), HeadVal.X0 m c (ix2 b e) = ((X0 b e : ℝ) : EReal))
variable (h3 : ∀ (e : Fin 128) (j : Fin 65536), (m ((c : Thread nD τ).loc main_arg3) : FVec Ideal S128x65536 .f32) (ix2 e j) = ((Q e j : ℝ) : EReal))

include h0 in
/-- The batch block the region reads: the normalised anchors over the temperature. -/
theorem hA_of (b : Fin 1024) (e : Fin 128) :
    (V m c main_v40 : S1024x128.Idx → Elt Ideal .bf16) (ix2 b e) = ((Spec.nrmRow X0 b e / temp : ℝ) : EReal) :=
  HeadVal.V_v40_coe m c h0 b e

include h3 in
/-- The queue the region reads is the queue as launched. -/
theorem hQ_of (e : Fin 128) (j : Fin 65536) :
    (V m c main_arg3 : S128x65536.Idx → Elt Ideal .f32) (ix2 e j) = ((Q e j : ℝ) : EReal) :=
  (congrFun (V_main_arg3 m c) (ix2 e j)).trans (h3 e j)

/-- The labels the region reads, as columns and as a row, are the launched labels by position. -/
theorem hbi_of (b : Fin 1024) : (V m c main_v41 : S1024x1.Idx → Elt Ideal .i32) (ix2 b (0 : Fin 1)) = bi m c b :=
  HeadVal.V_v41_apply m c b
theorem hqc_of (j : Fin 65536) : (V m c main_v42 : S65536x1.Idx → Elt Ideal .i32) (ix2 j (0 : Fin 1)) = qi m c j :=
  HeadVal.V_v42_apply m c j
theorem hqr_of (j : Fin 65536) : (V m c main_v43 : S1x65536.Idx → Elt Ideal .i32) (ix2 (0 : Fin 1) j) = qi m c j :=
  HeadVal.V_v43_apply m c j

include h0 h3 in
/-- The row statistics in the output buffers after core k's last tile, for the launched data. -/
theorem out_row' (k : Fin 2) (b : Fin 1024) :
    ∃ mr : ℝ, (outAt m c (lastTile k)).2.1 (ix3 (0 : Fin 1) b (0 : Fin 1)) = ((mr : ℝ) : EReal)
      ∧ (outAt m c (lastTile k)).2.2.1 (ix3 (0 : Fin 1) b (0 : Fin 1))
          = ((∑ i : Fin 32768, Real.exp (Spec.xq X0 Q b (half k i) - mr) : ℝ) : EReal)
      ∧ (outAt m c (lastTile k)).2.2.2 (ix3 (0 : Fin 1) b (0 : Fin 1))
          = ((∑ i : Fin 32768, Spec.wq (bi m c) (qi m c) b (half k i) * Spec.xq X0 Q b (half k i) : ℝ) : EReal) :=
  out_row m c X0 Q (bi m c) (qi m c) (hA_of m c X0 h0) (hQ_of m c Q h3) (hbi_of m c) (hqr_of m c) k b

include h3 in
/-- The per-organisation sums in the output buffer after core k's last tile, for the launched data. -/
theorem out_gsum' (k : Fin 2) (e : Fin 128) (o : Fin 2048) :
    (outAt m c (lastTile k)).1 (ix3 (0 : Fin 1) e o)
      = ((∑ i : Fin 32768, Q e (half k i) * (if qi m c (half k i) = BitVec.ofNat 32 o.val then (1 : ℝ) else 0) : ℝ) : EReal) :=
  out_gsum m c Q (qi m c) (hQ_of m c Q h3) (hqc_of m c) k e o

include h0 h3 in
/-- THE ROW STATISTICS in the output arrays, for the launched data. -/
theorem region_out' (k : Fin 2) (b : Fin 1024) :
    ∃ mr : ℝ, ((dats m 0 c).arrAt 6 cfg0.N : S2x1024x1.Idx → Elt Ideal .f32) (ix3 k b (0 : Fin 1)) = ((mr : ℝ) : EReal)
      ∧ ((dats m 0 c).arrAt 7 cfg0.N : S2x1024x1.Idx → Elt Ideal .f32) (ix3 k b (0 : Fin 1))
          = ((∑ i : Fin 32768, Real.exp (Spec.xq X0 Q b (half k i) - mr) : ℝ) : EReal)
      ∧ ((dats m 0 c).arrAt 8 cfg0.N : S2x1024x1.Idx → Elt Ideal .f32) (ix3 k b (0 : Fin 1))
          = ((∑ i : Fin 32768, Spec.wq (bi m c) (qi m c) b (half k i) * Spec.xq X0 Q b (half k i) : ℝ) : EReal) :=
  region_out m c X0 Q (bi m c) (qi m c) (hA_of m c X0 h0) (hQ_of m c Q h3) (hbi_of m c) (hqr_of m c) k b

include h3 in
/-- THE PER-ORGANISATION SUMS in the output array, for the launched data. -/
theorem region_gsum' (k : Fin 2) (e : Fin 128) (o : Fin 2048) :
    ((dats m 0 c).arrAt 5 cfg0.N : S2x128x2048.Idx → Elt Ideal .f32) (ix3 k e o)
      = ((∑ i : Fin 32768, Q e (half k i) * (if qi m c (half k i) = BitVec.ofNat 32 o.val then (1 : ℝ) else 0) : ℝ) : EReal) :=
  region_gsum m c Q (qi m c) (hQ_of m c Q h3) (hqc_of m c) k e o

end Hyps

end Cert.KernelIdeal.FromPre

end
-- ==== Proof.RefArgs.lean ====
/-
  The reference program's run with no stage function in it. Each of its operations writes one buffer of its own,
  never a launch argument, and none allocates; so a launch argument is after the whole program what it was before
  it, and every weakly fair execution from a memory with zero counters ends with each buffer at the fold of the
  operations over the launch contents.
-/
import proofs.«405218_j60748017434937_2_alg».proof.Proof.RefOps
import Mathlib.Data.List.Basic
import Mathlib.Data.Finset.Insert

noncomputable section

namespace Cert.ReferenceIdeal.Value

open Cert.ReferenceIdeal Cert.ReferenceIdeal.Gen Idealize.ShloMosaic Idealize.ShloMosaic.TcCoe Idealize.SL.Sem Idealize.ShloMosaic.StableHlo

variable {F : FTy → Type} [FloatOps F]

/-! ## One written buffer per operation, never a launch argument -/

/-- The launch arguments. -/
abbrev args : List (Ref sig .tc) := [main_arg0, main_arg1, main_arg2, main_arg3, main_arg4, main_arg5]

/-- `op` writes one buffer, a TensorCore reference that is no launch argument. -/
def OffArgs (op : HloOp τ sig (Elt F)) : Prop :=
  ∃ y : Ref sig .tc, op.writes = {Proc.devRef .tc y} ∧ y ∉ args

theorem OffArgs.keeps {op : HloOp τ sig (Elt F)} (h : OffArgs op) {b : Ref sig .tc} (hb : b ∈ args) :
    Proc.devRef .tc b ∉ op.writes := by
  obtain ⟨y, hw, hy⟩ := h
  rw [hw, Finset.mem_singleton]
  exact StableHlo.devRef_ne_of_ne fun e => hy (e ▸ hb)

/-- Walk a literal list, closing the fact at each element by `t`: linear in the list's length. -/
local macro "walk " t:term : tactic =>
  `(tactic| ((repeat (refine (List.forall_cons _ _ _).mpr ⟨$t, ?_⟩)); exact trivial))

set_option maxRecDepth 16384 in
set_option maxHeartbeats 40000000 in
/-- No operation of the program allocates. -/
theorem ops_fresh : (ops : List (HloOp τ sig (Elt F))).Forall fun op => op.fresh = ∅ := by walk rfl

set_option maxRecDepth 16384 in
set_option maxHeartbeats 40000000 in
/-- No operation of the program writes a launch argument. -/
theorem ops_off : (ops : List (HloOp τ sig (Elt F))).Forall OffArgs := by walk ⟨_, rfl, by decide⟩

/-- A launch argument is, after the whole program, what it was before it. -/
theorem args_kept (V : Valuation τ sig (Elt F)) (b : Ref sig .tc) (hb : b ∈ args) :
    StableHlo.after ops V (Proc.devRef .tc b) = V (Proc.devRef .tc b) :=
  StableHlo.after_of_forall_not_mem (b := Proc.devRef .tc b) _ _ fun op hop =>
    (List.forall_iff_forall_mem.mp ops_off op hop).keeps hb

theorem arg0_kept (V : Valuation τ sig (Elt F)) :
    StableHlo.after ops V (Proc.devRef .tc main_arg0) = V (Proc.devRef .tc main_arg0) := args_kept V _ (by decide)
theorem arg1_kept (V : Valuation τ sig (Elt F)) :
    StableHlo.after ops V (Proc.devRef .tc main_arg1) = V (Proc.devRef .tc main_arg1) := args_kept V _ (by decide)
theorem arg2_kept (V : Valuation τ sig (Elt F)) :
    StableHlo.after ops V (Proc.devRef .tc main_arg2) = V (Proc.devRef .tc main_arg2) := args_kept V _ (by decide)
theorem arg3_kept (V : Valuation τ sig (Elt F)) :
    StableHlo.after ops V (Proc.devRef .tc main_arg3) = V (Proc.devRef .tc main_arg3) := args_kept V _ (by decide)
theorem arg4_kept (V : Valuation τ sig (Elt F)) :
    StableHlo.after ops V (Proc.devRef .tc main_arg4) = V (Proc.devRef .tc main_arg4) := args_kept V _ (by decide)
theorem arg5_kept (V : Valuation τ sig (Elt F)) :
    StableHlo.after ops V (Proc.devRef .tc main_arg5) = V (Proc.devRef .tc main_arg5) := args_kept V _ (by decide)

/-! ## The run, every buffer still the fold of the operations over the launch contents -/

/-- On every device, for any float values, from any memory with zero counters: every weakly fair execution of the
    program terminates with each buffer at the operations' fold over its launch contents. -/
theorem run_fold (m : (ℓ : Loc nD τ sig) → Buf (Elt F) ℓ) (ρ : Dev nD → PrngReg) :
    θ_run defs (onTc (τ := τ) (main (F := F))) ⟨m, fun _ => 0, ρ⟩ fun r => ∀ (c : Dev nD) (b : Ref sig .tc),
      r.2.mem ((c.tc : Thread nD τ).loc b) = StableHlo.after ops (fun b => m (c, b)) (Proc.devRef .tc b) :=
  run_seq scopedRefs_eq scopedSems_eq defs main (fun _ => ops) main_eq (fun _ => ops_sub) m ρ
    (fun _ op hop => List.forall_iff_forall_mem.mp ops_fresh op hop)

end Cert.ReferenceIdeal.Value

end
-- ==== Proof.LibNary3.lean ====
/-
  General lemmas for reading a straight line of host operations at a buffer in one rewriting pass, when the line
  holds concatenations. (1) The result of an operation over a literal family of THREE references, with each operand's
  contents at its own reference, so that the pass goes on into the operands (the shape of the library's lemma for four
  references). (2) A concatenation of two or three pieces with the pieces as ARGUMENTS: a concatenation carries a proof
  about its list of pieces, so a rewriting pass does not enter the list; stated over the pieces it does, and the two
  forms are equal by definition. (3) The pass itself: the library's one-pass fold with these added and the typed
  references' transports cleared.
-/
import Idealize.ShloMosaic.Lib.StableHlo.Run

noncomputable section

namespace Cert.LibNary3

open Idealize.ShloMosaic Idealize.ShloMosaic.StableHlo

/-! ## Concatenations over their pieces -/

section Pieces
variable {α : Type}

/-- A two-piece concatenation with its pieces as arguments. -/
def cat2 (t : Shape) (a : Fin t.rank) (s₁ s₂ : Shape) (h : Shape.Concatenates [s₁, s₂] t a)
    (x : s₁.Idx → α) (y : s₂.Idx → α) : t.Idx → α :=
  concatenate t a [⟨s₁, x⟩, ⟨s₂, y⟩] h

/-- A three-piece concatenation with its pieces as arguments. -/
def cat3 (t : Shape) (a : Fin t.rank) (s₁ s₂ s₃ : Shape) (h : Shape.Concatenates [s₁, s₂, s₃] t a)
    (x : s₁.Idx → α) (y : s₂.Idx → α) (z : s₃.Idx → α) : t.Idx → α :=
  concatenate t a [⟨s₁, x⟩, ⟨s₂, y⟩, ⟨s₃, z⟩] h

theorem concatenate_pair_eq (t : Shape) (a : Fin t.rank) (s₁ s₂ : Shape) (x : s₁.Idx → α) (y : s₂.Idx → α)
    (h : Shape.Concatenates [s₁, s₂] t a) :
    concatenate t a [⟨s₁, x⟩, ⟨s₂, y⟩] h = cat2 t a s₁ s₂ h x y := rfl

theorem concatenate_triple_eq (t : Shape) (a : Fin t.rank) (s₁ s₂ s₃ : Shape) (x : s₁.Idx → α) (y : s₂.Idx → α)
    (z : s₃.Idx → α) (h : Shape.Concatenates [s₁, s₂, s₃] t a) :
    concatenate t a [⟨s₁, x⟩, ⟨s₂, y⟩, ⟨s₃, z⟩] h = cat3 t a s₁ s₂ s₃ h x y z := rfl

end Pieces

/-! ## An operation over three references -/

section Nary3
variable {τ : Topo} {sig : RefSig} {Val : EltTy → Type}
variable {x a b y : Ref sig .tc}

/-- The result of an operation over the literal family `![x, a, b]`, each operand's contents at its own reference. -/
theorem nary3_result
    (f : ((k : Fin 3) → ((![x, a, b] : Fin 3 → Ref sig .tc) k).ty.Contents Val) → y.ty.Contents Val) (hxs hy)
    (G : Valuation τ sig Val) :
    (nary (τ := τ) ![x, a, b] y f hxs hy).result G (Proc.devRef .tc y)
      = f (Fin.cons (G (Proc.devRef .tc x)) (Fin.cons (G (Proc.devRef .tc a)) (Fin.cons (G (Proc.devRef .tc b)) (fun i => i.elim0)))) := by
  rw [nary_result]; congr 1; funext k; fin_cases k <;> rfl

/-- The same with the result reference un-indexed, for a rewriting pass. -/
theorem nary3_result'
    (f : ((k : Fin 3) → ((![x, a, b] : Fin 3 → Ref sig .tc) k).ty.Contents Val) → y.ty.Contents Val) (hxs hy)
    (G : Valuation τ sig Val) :
    (nary (τ := τ) ![x, a, b] y f hxs hy).result G (no_index (Proc.devRef .tc y))
      = f (Fin.cons (G (Proc.devRef .tc x)) (Fin.cons (G (Proc.devRef .tc a)) (Fin.cons (G (Proc.devRef .tc b)) (fun i => i.elim0)))) :=
  nary3_result f hxs hy G

end Nary3

/-- The one-pass fold of a literal line of host operations read at a reference, entering concatenations' pieces
    (left as `cat2` / `cat3`, equal to the list form by definition) and three-reference operations. -/
macro "after_results_pieces" : tactic =>
  `(tactic| (simp (disch := decide) only [after_cons, after_nil, ↓concatenate_pair_eq, ↓concatenate_triple_eq,
      TRef.ofBuf, TRef.toBuf, cast_eq,
      nullary_result', unary_result', binary_result', ternary_result', quaternary_result', reshape_result', nary3_result',
      nary4_result', unaryIndexed_result', binaryIndexed_result',
      nullary_result_ne', unary_result_ne', binary_result_ne', ternary_result_ne', quaternary_result_ne', reshape_result_ne',
      nary_result_ne', unaryIndexed_result_ne', binaryIndexed_result_ne']))

end Cert.LibNary3

end
-- ==== Proof.RefRun.lean ====
/-
  The reference program: its operations as a list, its stage functions read at an index, and its run (every weakly
  fair execution ends with the three results at the last stages of the arguments and the arguments unchanged).
-/
import proofs.«405218_j60748017434937_2_alg».proof.Proof.RefOps
import proofs.«405218_j60748017434937_2_alg».proof.Proof.RefStages
import proofs.«405218_j60748017434937_2_alg».proof.Proof.RefRunH
-- ==== Proof.RefRow.lean ====
/-
  The reference's first loss in ROW FORM, at the ideal values.

  With a the normalised anchors, P1 = a·anᵀ [1024, 1024] and P2 = a·qh [1024, 65536] (kept as the stages that compute
  them), the reference joins the two similarity matrices side by side, divides by the temperature, takes the
  log-softmax of every row, multiplies by the normalised positives' indicator, sums every row, and returns minus the
  mean of the row sums. This module reads that result at its one index as

      −( Σ_b Σ_k ((z b k − M b) − log Σ_k' exp (z b k' − M b)) · (pos b k / Σ_k' pos b k') ) / 1024

  over b : Fin 1024 and k, k' : Fin 66560, where z b k is the joined similarity over the temperature, pos b k the 0/1
  indicator that column k carries row b's organisation index, and M b what the log-softmax subtracts from row b: the
  maximum of the reduction's initial value (−∞) with the row's fold of max from that value — the row's maximum
  (M_eq_fold, z_le_M, exists_M). The joins are read at an index by the piece that holds the column; the max-reduction as
  the fold over the row's columns; the sums' initial zero words are removed.
-/
import proofs.«405218_j60748017434937_2_alg».proof.Proof.RefStages
import Idealize.ShloMosaic.Lib.ValueIdx
import Idealize.ShloMosaic.Lib.Pipeline.Value
import Idealize.ShloMosaic.PureOps.Ideal.Laws
import Idealize.ShloMosaic.PureOps.Reduce

noncomputable section

namespace Cert.RefRow

open Cert.ReferenceIdeal Cert.ReferenceIdeal.Gen Idealize.ShloMosaic Idealize.ShloMosaic.ValueIdx
open scoped BigOperators

/-- A rank-1 index set is its coordinate's range … -/
def idxEquiv1 {n : Nat} : (⟨1, ![n]⟩ : Shape).Idx ≃ Fin n where
  toFun i := i 0
  invFun a := ix1 a
  left_inv i := (eq_ix1 i).symm
  right_inv _ := rfl

/-- … so a sum over it is the sum over the coordinate. -/
theorem sum_idx1 {M : Type*} [AddCommMonoid M] {n : Nat} (f : (⟨1, ![n]⟩ : Shape).Idx → M) :
    ∑ i, f i = ∑ a : Fin n, f (ix1 a) := by
  rw [← Equiv.sum_comp (idxEquiv1 (n := n)).symm f]
  rfl

/-- An equality test of two words, converted to a float, is the 0/1 indicator of the equality. -/
theorem uitofp_cmpi_eq (a c : BitVec 32) :
    FloatOps.uitofp (F := Ideal) .f32 (IntOp.cmpi .eq a c) = if a = c then (1 : EReal) else 0 := by
  by_cases h : a = c
  · subst h
    rw [if_pos rfl]
    have h1 : IntOp.cmpi .eq a a = 1#1 := by simp [IntOp.cmpi]
    rw [h1]
    show (((1#1 : BitVec 1).toNat : ℝ) : EReal) = 1
    simp
  · rw [if_neg h]
    have h0 : IntOp.cmpi .eq a c = 0#1 := by
      simp only [IntOp.cmpi]
      rw [beq_eq_false_iff_ne.2 h]
      rfl
    rw [h0]
    show (((0#1 : BitVec 1).toNat : ℝ) : EReal) = 0
    simp

/-- The row reduction's shape fact in the form that names the inserted index. -/
theorem red : S1024x66560.Reduces [1] S1024 := by decide

section
variable (x0 x2 : FVec Ideal S1024x128 .f32) (x3 : FVec Ideal S128x65536 .f32) (x4 : IVec S1024 32) (x5 : IVec S65536 32)

/-- The temperature, the max-reduction's initial value and the batch size, as the printed words. -/
abbrev Tw : EReal := Ideal.ofBits .f32 0x3D8F5C29#32
abbrev negInfW : EReal := Ideal.ofBits .f32 0xFF800000#32
abbrev Nw : EReal := Ideal.ofBits .f32 0x44800000#32

/-- Row b of the two similarity matrices side by side: the 1024 in-batch columns, then the 65536 queue columns. -/
def cat (b : Fin 1024) (k : Fin 66560) : EReal :=
  if h : k.val < 1024 then Read.val_main_v17 (F := Ideal) x0 x2 (ix2 b ⟨k.val, h⟩)
  else Read.val_main_v26 (F := Ideal) x0 x3 (ix2 b ⟨k.val - 1024, by have := k.isLt; omega⟩)

/-- The logits: the similarities over the temperature. -/
def z (b : Fin 1024) (k : Fin 66560) : EReal := Ideal.div (cat x0 x2 x3 b k) Tw

/-- The organisation index of column k: the batch's, then the queue's. -/
def idx (k : Fin 66560) : BitVec 32 :=
  if h : k.val < 1024 then x4 (ix1 ⟨k.val, h⟩) else x5 (ix1 ⟨k.val - 1024, by have := k.isLt; omega⟩)

/-- The 0/1 indicator that column k is of row b's organisation. -/
def pos (b : Fin 1024) (k : Fin 66560) : EReal := if x4 (ix1 b) = idx x4 x5 k then 1 else 0

/-- What the log-softmax subtracts from row b: the maximum of the initial value with the row's fold of max from
    the same initial value. -/
def M (b : Fin 1024) : EReal :=
  max negInfW ((Finset.univ : Finset (Fin 66560)).fold max negInfW (fun k => z x0 x2 x3 b k))

/-! ### The subtracted maximum, as the row's maximum -/

/-- The max-reduction's initial word is the bottom of the extended reals. -/
theorem negInfW_eq_bot : negInfW = ⊥ := by simp [Ideal.ofBits, Ideal.ieee]

/-- The subtracted value is the fold of max over the row's logits from the bottom. -/
theorem M_eq_fold (b : Fin 1024) :
    M x0 x2 x3 b = (Finset.univ : Finset (Fin 66560)).fold max ⊥ (fun k => z x0 x2 x3 b k) := by
  unfold M
  rw [negInfW_eq_bot]
  exact max_eq_right bot_le

/-- Every logit of the row is at most the subtracted value. -/
theorem z_le_M (b : Fin 1024) (k : Fin 66560) : z x0 x2 x3 b k ≤ M x0 x2 x3 b := by
  rw [M_eq_fold]
  exact (Finset.le_fold_max _).2 (Or.inr ⟨k, Finset.mem_univ _, le_rfl⟩)

/-- The subtracted value is attained: it is one of the row's logits (so it is finite when they are). -/
theorem exists_M (b : Fin 1024) : ∃ k : Fin 66560, M x0 x2 x3 b = z x0 x2 x3 b k := by
  obtain ⟨k, -, hk⟩ := Finset.exists_max_image (Finset.univ : Finset (Fin 66560)) (fun k => z x0 x2 x3 b k)
    ⟨⟨0, by decide⟩, Finset.mem_univ _⟩
  refine ⟨k, le_antisymm ?_ (z_le_M x0 x2 x3 b k)⟩
  rw [M_eq_fold]
  exact (Finset.fold_max_le _).2 ⟨bot_le, fun k' _ => hk k' (Finset.mem_univ _)⟩

/-! ### The stages, each read at row b (and column k) -/

/-- The joined similarities at (b, k): the piece that holds column k. -/
theorem v28_at (b : Fin 1024) (k : Fin 66560) :
    Read.val_main_v28 (F := Ideal) x0 x2 x3 (ix2 b k) = cat x0 x2 x3 b k := by
  unfold Read.val_main_v28 cat
  by_cases h : k.val < 1024
  · rw [dif_pos h]
    exact concatenate_pair_apply_left _ _ _ concatenates_S1024x1024_S1024x65536_S1024x66560_d1 (ix2 b k) rfl
      (ix2 b ⟨k.val, h⟩) (fun a => match a with | ⟨0, _⟩ => rfl | ⟨1, _⟩ => rfl)
  · rw [dif_neg h]
    exact concatenate_pair_apply_right _ _ _ concatenates_S1024x1024_S1024x65536_S1024x66560_d1 (ix2 b k) rfl rfl
      (ix2 b ⟨k.val - 1024, by have := k.isLt; omega⟩)
      (fun a ha => match a, ha with | ⟨0, _⟩, _ => rfl | ⟨1, _⟩, ha => absurd rfl ha)
      (by show (k.val - 1024) + 1024 = k.val; omega)

/-- The joined organisation indices at k. -/
theorem v27_at (k : Fin 66560) : Read.val_main_v27 (F := Ideal) x4 x5 (ix1 k) = idx x4 x5 k := by
  unfold Read.val_main_v27 idx
  by_cases h : k.val < 1024
  · rw [dif_pos h]
    exact concatenate_pair_apply_left _ _ _ concatenates_S1024_S65536_S66560_d0 (ix1 k) rfl
      (ix1 ⟨k.val, h⟩) (fun a => match a with | ⟨0, _⟩ => rfl)
  · rw [dif_neg h]
    exact concatenate_pair_apply_right _ _ _ concatenates_S1024_S65536_S66560_d0 (ix1 k) rfl rfl
      (ix1 ⟨k.val - 1024, by have := k.isLt; omega⟩)
      (fun a ha => match a, ha with | ⟨0, _⟩, ha => absurd rfl ha)
      (by show (k.val - 1024) + 1024 = k.val; omega)

/-- The logits at (b, k). -/
theorem v40_at (b : Fin 1024) (k : Fin 66560) :
    Read.val_main_v40 (F := Ideal) x0 x2 x3 (ix2 b k) = z x0 x2 x3 b k := by
  rw [Read.val_main_v40_apply, Read.val_main_v39_apply, Read.val_main_cst_6_apply, v28_at]
  unfold z
  simp only [Ideal.hostDivf_def, Ideal.ofBits_def]

/-- The row maximum: the fold of max over the row's logits from the initial value. -/
theorem call0_v0_at (b : Fin 1024) :
    Read.val_main_call0_v0 (F := Ideal) x0 x2 x3 (ix1 b)
      = (Finset.univ : Finset (Fin 66560)).fold max negInfW (fun k => z x0 x2 x3 b k) := by
  unfold Read.val_main_call0_v0
  rw [Host.reduce_eq_fold_single FloatOps.maximumf _ _ reducesTo_S1024x66560_S1024_d1 red h_S_ (ix1 b)]
  have hf : (Read.val_main_v40 (F := Ideal) x0 x2 x3 ∘ red.lift (ix1 b)) = fun k : Fin 66560 => z x0 x2 x3 b k := by
    funext k
    show Read.val_main_v40 (F := Ideal) x0 x2 x3 (red.lift (ix1 b) k) = _
    rw [show red.lift (ix1 b) k = ix2 b k from
      funext fun a => Fin.ext (by match a with | ⟨0, _⟩ => rfl | ⟨1, _⟩ => rfl)]
    exact v40_at x0 x2 x3 b k
  rw [hf]
  rfl

/-- What the log-softmax subtracts from row b. -/
theorem call0_v2_at (b : Fin 1024) :
    Read.val_main_call0_v2 (F := Ideal) x0 x2 x3 (ix1 b) = M x0 x2 x3 b := by
  rw [Read.val_main_call0_v2_apply, Read.val_main_call0_v1_apply, Read.val_main_call0_cst_0_apply, call0_v0_at]
  unfold M
  simp only [Ideal.maximumf_def, Ideal.ofBits_def]

/-- The shifted logits at (b, k). -/
theorem call0_v5_at (b : Fin 1024) (k : Fin 66560) :
    Read.val_main_call0_v5 (F := Ideal) x0 x2 x3 (ix2 b k) = z x0 x2 x3 b k - M x0 x2 x3 b := by
  rw [Read.val_main_call0_v5_apply, Read.val_main_call0_v4_apply, Read.val_main_call0_v3_apply, v40_at,
    show Read.idx_main_call0_v3 (Read.idx_main_call0_v4 (ix2 b k)) = ix1 b from
      funext fun a => Fin.ext (by match a with | ⟨0, _⟩ => rfl),
    call0_v2_at]
  simp only [Ideal.subf_def]

/-- The row's sum of exponentials of the shifted logits. -/
theorem call0_v7_at (b : Fin 1024) :
    Read.val_main_call0_v7 (F := Ideal) x0 x2 x3 (ix1 b)
      = ∑ k' : Fin 66560, Ideal.exp (z x0 x2 x3 b k' - M x0 x2 x3 b) := by
  rw [Read.val_main_call0_v7_apply, Read.val_main_call0_cst_1_apply]
  simp only [Ideal.ofBits_def, Ideal.ofBits_zero_f32, zero_add]
  refine Finset.sum_congr rfl fun k _ => ?_
  rw [show Read.idx_main_call0_v7 (ix1 b) k = ix2 b k from
      funext fun a => Fin.ext (by match a with | ⟨0, _⟩ => rfl | ⟨1, _⟩ => rfl),
    Read.val_main_call0_v6_apply, call0_v5_at]
  simp only [Ideal.hostUnary_exp_def]

/-- The log-softmax at (b, k). -/
theorem v41_at (b : Fin 1024) (k : Fin 66560) :
    Read.val_main_v41 (F := Ideal) x0 x2 x3 (ix2 b k)
      = (z x0 x2 x3 b k - M x0 x2 x3 b) - Ideal.log (∑ k' : Fin 66560, Ideal.exp (z x0 x2 x3 b k' - M x0 x2 x3 b)) := by
  rw [Read.val_main_v41_apply, call0_v5_at, Read.val_main_call0_v10_apply, Read.val_main_call0_v9_apply,
    Read.val_main_call0_v8_apply,
    show Read.idx_main_call0_v8 (Read.idx_main_call0_v10 (ix2 b k)) = ix1 b from
      funext fun a => Fin.ext (by match a with | ⟨0, _⟩ => rfl),
    call0_v7_at]
  simp only [Ideal.subf_def, Ideal.hostUnary_log_def]

/-- The positives' indicator at (b, k). -/
theorem v34_at (b : Fin 1024) (k : Fin 66560) :
    Read.val_main_v34 (F := Ideal) x4 x5 (ix2 b k) = pos x4 x5 b k := by
  rw [Read.val_main_v34_apply, Read.val_main_v33_apply, Read.val_main_v31_apply, Read.val_main_v29_apply,
    Read.val_main_v32_apply, Read.val_main_v30_apply,
    show Read.idx_main_v29 (Read.idx_main_v31 (ix2 b k)) = ix1 b from
      funext fun a => Fin.ext (by match a with | ⟨0, _⟩ => rfl),
    show Read.idx_main_v30 (Read.idx_main_v32 (ix2 b k)) = ix1 k from
      funext fun a => Fin.ext (by match a with | ⟨0, _⟩ => rfl),
    v27_at]
  exact uitofp_cmpi_eq _ _

/-- The row's count of positives. -/
theorem v35_at (b : Fin 1024) :
    Read.val_main_v35 (F := Ideal) x4 x5 (ix1 b) = ∑ k' : Fin 66560, pos x4 x5 b k' := by
  rw [Read.val_main_v35_apply, Read.val_main_cst_5_apply]
  simp only [Ideal.ofBits_def, Ideal.ofBits_zero_f32, zero_add]
  refine Finset.sum_congr rfl fun k _ => ?_
  rw [show Read.idx_main_v35 (ix1 b) k = ix2 b k from
      funext fun a => Fin.ext (by match a with | ⟨0, _⟩ => rfl | ⟨1, _⟩ => rfl),
    v34_at]

/-- The normalised targets at (b, k). -/
theorem v38_at (b : Fin 1024) (k : Fin 66560) :
    Read.val_main_v38 (F := Ideal) x4 x5 (ix2 b k)
      = Ideal.div (pos x4 x5 b k) (∑ k' : Fin 66560, pos x4 x5 b k') := by
  rw [Read.val_main_v38_apply, v34_at, Read.val_main_v37_apply, Read.val_main_v36_apply,
    show Read.idx_main_v36 (Read.idx_main_v37 (ix2 b k)) = ix1 b from
      funext fun a => Fin.ext (by match a with | ⟨0, _⟩ => rfl),
    v35_at]
  simp only [Ideal.hostDivf_def]

/-- Row b's sum of log-softmax times target. -/
theorem v43_at (b : Fin 1024) :
    Read.val_main_v43 (F := Ideal) x0 x2 x3 x4 x5 (ix1 b)
      = ∑ k : Fin 66560,
          ((z x0 x2 x3 b k - M x0 x2 x3 b) - Ideal.log (∑ k' : Fin 66560, Ideal.exp (z x0 x2 x3 b k' - M x0 x2 x3 b)))
            * Ideal.div (pos x4 x5 b k) (∑ k' : Fin 66560, pos x4 x5 b k') := by
  rw [Read.val_main_v43_apply, Read.val_main_cst_7_apply]
  simp only [Ideal.ofBits_def, Ideal.ofBits_zero_f32, zero_add]
  refine Finset.sum_congr rfl fun k _ => ?_
  rw [show Read.idx_main_v43 (ix1 b) k = ix2 b k from
      funext fun a => Fin.ext (by match a with | ⟨0, _⟩ => rfl | ⟨1, _⟩ => rfl),
    Read.val_main_v42_apply, v41_at, v38_at]
  simp only [Ideal.mulf_def]

/-- THE REFERENCE'S FIRST RESULT IN ROW FORM: minus the mean over the rows of the row's sum of log-softmax times
    normalised target. -/
theorem ref_row :
    Read.val_main_v46 (F := Ideal) x0 x2 x3 x4 x5 ix0
      = -(Ideal.div (∑ b : Fin 1024, ∑ k : Fin 66560,
            ((z x0 x2 x3 b k - M x0 x2 x3 b) - Ideal.log (∑ k' : Fin 66560, Ideal.exp (z x0 x2 x3 b k' - M x0 x2 x3 b)))
              * Ideal.div (pos x4 x5 b k) (∑ k' : Fin 66560, pos x4 x5 b k')) Nw) := by
  rw [Read.val_main_v46_apply, Read.val_main_v45_apply, Read.val_main_v44_apply, Read.val_main_cst_8_apply,
    Read.val_main_cst_9_apply, sum_idx1]
  simp only [Ideal.ofBits_def, Ideal.ofBits_zero_f32, zero_add, v43_at, Ideal.hostNegf_def, Ideal.negf_def,
    Ideal.hostDivf_def]

end

end Cert.RefRow

end
-- ==== Proof.RefReal.lean ====
/-
  The reference's first loss under FINITE inputs, in real data.

  When the anchors, the in-batch assets and the queue hold finite numbers (coercions of real arrays X0, X2, Q), every
  stage of the reference's first loss is the coercion of a real: the L2-normalised rows and columns (the norm floored at
  eps > 0, so the divisor is positive), the two similarity matrices as real dot products, the logits as those over the
  temperature, the positives' indicator as the real 0/1 match weight, and what the log-softmax subtracts from a row as
  the real maximum of that row's scores. The result is then minus the mean over the rows of the weighted log-softmax
  sums with every entry a coerced real: the form the row identity takes as its left-hand side.
-/
import proofs.«405218_j60748017434937_2_alg».proof.Proof.RefRow
import proofs.«405218_j60748017434937_2_alg».proof.Proof.Spec
import Mathlib.Data.Finset.Lattice.Fold

noncomputable section

namespace Cert.RefReal

open Cert.ReferenceIdeal Cert.ReferenceIdeal.Gen Idealize.ShloMosaic Idealize.ShloMosaic.ValueIdx
open Cert.LibWords Cert.LibOnlineLse Cert.RefRow
open scoped BigOperators

section
variable (x0 x2 : FVec Ideal S1024x128 .f32) (x3 : FVec Ideal S128x65536 .f32) (x4 : IVec S1024 32) (x5 : IVec S65536 32)
variable (X0 X2 : Fin 1024 → Fin 128 → ℝ) (Q : Fin 128 → Fin 65536 → ℝ)

/-! ### R1. The normalised rows and columns -/

/-- The reference's normalised anchors are the real normalised rows. -/
theorem a_real (h0 : ∀ b e, x0 (ix2 b e) = ((X0 b e : ℝ) : EReal)) (b : Fin 1024) (e : Fin 128) :
    Read.val_main_v7 (F := Ideal) x0 (ix2 b e) = ((Spec.nrmRow X0 b e : ℝ) : EReal) := by
  rw [Read.val_main_v7_apply, Read.val_main_v6_apply, Read.val_main_v5_apply, Read.val_main_v3_apply,
    Read.val_main_v2_apply, Read.val_main_v4_apply, Read.val_main_cst_0_apply,
    show Read.idx_main_v2 (Read.idx_main_v6 (ix2 b e)) = ix1 b from
      funext fun a => Fin.ext (by match a with | ⟨0, _⟩ => rfl),
    Read.val_main_v1_apply, Read.val_main_cst_apply]
  have hs : ∑ k : Fin 128, Read.val_main_v0 (F := Ideal) x0 (Read.idx_main_v1 (ix1 b) k)
      = ∑ k : Fin 128, ((X0 b k : ℝ) : EReal) * ((X0 b k : ℝ) : EReal) :=
    Finset.sum_congr rfl fun k _ => by
      rw [show Read.idx_main_v1 (ix1 b) k = ix2 b k from
          funext fun a => Fin.ext (by match a with | ⟨0, _⟩ => rfl | ⟨1, _⟩ => rfl),
        Read.val_main_v0_apply, h0]
      simp only [Ideal.mulf_def]
  rw [hs, h0]
  simp only [Ideal.hostDivf_def, Ideal.maximumf_def, Ideal.hostUnary_sqrt_def, Ideal.ofBits_def]
  rw [ofBits_zero, ofBits_eps]
  unfold Spec.nrmRow
  exact l2norm_univ_zero_add_coe (fun k => X0 b k) eps_pos (X0 b e)

/-- The reference's normalised in-batch assets are the real normalised rows. -/
theorem an_real (h2 : ∀ b e, x2 (ix2 b e) = ((X2 b e : ℝ) : EReal)) (b : Fin 1024) (e : Fin 128) :
    Read.val_main_v15 (F := Ideal) x2 (ix2 b e) = ((Spec.nrmRow X2 b e : ℝ) : EReal) := by
  rw [Read.val_main_v15_apply, Read.val_main_v14_apply, Read.val_main_v13_apply, Read.val_main_v11_apply,
    Read.val_main_v10_apply, Read.val_main_v12_apply, Read.val_main_cst_2_apply,
    show Read.idx_main_v10 (Read.idx_main_v14 (ix2 b e)) = ix1 b from
      funext fun a => Fin.ext (by match a with | ⟨0, _⟩ => rfl),
    Read.val_main_v9_apply, Read.val_main_cst_1_apply]
  have hs : ∑ k : Fin 128, Read.val_main_v8 (F := Ideal) x2 (Read.idx_main_v9 (ix1 b) k)
      = ∑ k : Fin 128, ((X2 b k : ℝ) : EReal) * ((X2 b k : ℝ) : EReal) :=
    Finset.sum_congr rfl fun k _ => by
      rw [show Read.idx_main_v9 (ix1 b) k = ix2 b k from
          funext fun a => Fin.ext (by match a with | ⟨0, _⟩ => rfl | ⟨1, _⟩ => rfl),
        Read.val_main_v8_apply, h2]
      simp only [Ideal.mulf_def]
  rw [hs, h2]
  simp only [Ideal.hostDivf_def, Ideal.maximumf_def, Ideal.hostUnary_sqrt_def, Ideal.ofBits_def]
  rw [ofBits_zero, ofBits_eps]
  unfold Spec.nrmRow
  exact l2norm_univ_zero_add_coe (fun k => X2 b k) eps_pos (X2 b e)

/-- The reference's normalised queue columns are the real normalised columns. -/
theorem qh_real (h3 : ∀ e j, x3 (ix2 e j) = ((Q e j : ℝ) : EReal)) (e : Fin 128) (j : Fin 65536) :
    Read.val_main_v25 (F := Ideal) x3 (ix2 e j) = ((Spec.nrmCol Q e j : ℝ) : EReal) := by
  rw [Read.val_main_v25_apply, Read.val_main_v24_apply, Read.val_main_v23_apply, Read.val_main_v21_apply,
    Read.val_main_v20_apply, Read.val_main_v22_apply, Read.val_main_cst_4_apply,
    show Read.idx_main_v20 (Read.idx_main_v24 (ix2 e j)) = ix1 j from
      funext fun a => Fin.ext (by match a with | ⟨0, _⟩ => rfl),
    Read.val_main_v19_apply, Read.val_main_cst_3_apply]
  have hs : ∑ k : Fin 128, Read.val_main_v18 (F := Ideal) x3 (Read.idx_main_v19 (ix1 j) k)
      = ∑ k : Fin 128, ((Q k j : ℝ) : EReal) * ((Q k j : ℝ) : EReal) :=
    Finset.sum_congr rfl fun k _ => by
      rw [show Read.idx_main_v19 (ix1 j) k = ix2 k j from
          funext fun a => Fin.ext (by match a with | ⟨0, _⟩ => rfl | ⟨1, _⟩ => rfl),
        Read.val_main_v18_apply, h3]
      simp only [Ideal.mulf_def]
  rw [hs, h3]
  simp only [Ideal.hostDivf_def, Ideal.maximumf_def, Ideal.hostUnary_sqrt_def, Ideal.ofBits_def]
  rw [ofBits_zero, ofBits_eps]
  unfold Spec.nrmCol
  exact l2norm_univ_zero_add_coe (fun k => Q k j) eps_pos (Q e j)

/-! ### R2. The two similarity matrices -/

/-- Anchor b against in-batch asset j. -/
theorem P1_real (h0 : ∀ b e, x0 (ix2 b e) = ((X0 b e : ℝ) : EReal))
    (h2 : ∀ b e, x2 (ix2 b e) = ((X2 b e : ℝ) : EReal)) (b j : Fin 1024) :
    Read.val_main_v17 (F := Ideal) x0 x2 (ix2 b j) = ((Spec.P1 X0 X2 b j : ℝ) : EReal) := by
  rw [Read.val_main_v17_apply]
  unfold Spec.P1
  refine (Finset.sum_congr rfl fun k _ => ?_).trans
    (dot_coe Finset.univ (fun e => Spec.nrmRow X0 b e) (fun e => Spec.nrmRow X2 j e))
  rw [show Read.lidx_main_v17 (ix2 b j) k = ix2 b k from
      funext fun a => Fin.ext (by match a with | ⟨0, _⟩ => rfl | ⟨1, _⟩ => rfl),
    Read.val_main_v16_apply,
    show Read.idx_main_v16 (Read.ridx_main_v17 (ix2 b j) k) = ix2 j k from
      funext fun a => Fin.ext (by match a with | ⟨0, _⟩ => rfl | ⟨1, _⟩ => rfl),
    a_real x0 X0 h0, an_real x2 X2 h2]

/-- Anchor b against queue column j. -/
theorem P2_real (h0 : ∀ b e, x0 (ix2 b e) = ((X0 b e : ℝ) : EReal))
    (h3 : ∀ e j, x3 (ix2 e j) = ((Q e j : ℝ) : EReal)) (b : Fin 1024) (j : Fin 65536) :
    Read.val_main_v26 (F := Ideal) x0 x3 (ix2 b j) = ((Spec.P2 X0 Q b j : ℝ) : EReal) := by
  rw [Read.val_main_v26_apply]
  unfold Spec.P2
  refine (Finset.sum_congr rfl fun k _ => ?_).trans
    (dot_coe Finset.univ (fun e => Spec.nrmRow X0 b e) (fun e => Spec.nrmCol Q e j))
  rw [show Read.lidx_main_v26 (ix2 b j) k = ix2 b k from
      funext fun a => Fin.ext (by match a with | ⟨0, _⟩ => rfl | ⟨1, _⟩ => rfl),
    show Read.ridx_main_v26 (ix2 b j) k = ix2 k j from
      funext fun a => Fin.ext (by match a with | ⟨0, _⟩ => rfl | ⟨1, _⟩ => rfl),
    a_real x0 X0 h0, qh_real x3 Q h3]

/-! ### R3. The logits, the match weights and the subtracted maximum -/

/-- The logits are the real scores. -/
theorem z_real (h0 : ∀ b e, x0 (ix2 b e) = ((X0 b e : ℝ) : EReal))
    (h2 : ∀ b e, x2 (ix2 b e) = ((X2 b e : ℝ) : EReal))
    (h3 : ∀ e j, x3 (ix2 e j) = ((Q e j : ℝ) : EReal)) (b : Fin 1024) (k : Fin 66560) :
    z x0 x2 x3 b k = ((Spec.xrow X0 X2 Q b k : ℝ) : EReal) := by
  unfold z cat Spec.xrow
  by_cases h : k.val < 1024
  · rw [dif_pos h, dif_pos h, P1_real x0 x2 X0 X2 h0 h2]
    unfold Spec.x1
    exact (congrArg (Ideal.div _) ofBits_temp).trans (coe_div _ temp_ne_zero)
  · rw [dif_neg h, dif_neg h, P2_real x0 x3 X0 Q h0 h3]
    unfold Spec.xq
    exact (congrArg (Ideal.div _) ofBits_temp).trans (coe_div _ temp_ne_zero)

/-- The positives' indicator is the real match weight. -/
theorem pos_real (b : Fin 1024) (k : Fin 66560) :
    pos x4 x5 b k = ((Spec.wrow (fun b => x4 (ix1 b)) (fun j => x5 (ix1 j)) b k : ℝ) : EReal) := by
  unfold pos idx Spec.wrow Spec.w1 Spec.wq
  by_cases h : k.val < 1024
  · rw [dif_pos h, dif_pos h]
    exact ite_coe _
  · rw [dif_neg h, dif_neg h]
    exact ite_coe _

/-- The real row maximum of the scores. -/
def Mr (b : Fin 1024) : ℝ :=
  (Finset.univ : Finset (Fin 66560)).sup' ⟨⟨0, by decide⟩, Finset.mem_univ _⟩ (fun k => Spec.xrow X0 X2 Q b k)

/-- What the log-softmax subtracts is the real row maximum. -/
theorem M_real (h0 : ∀ b e, x0 (ix2 b e) = ((X0 b e : ℝ) : EReal))
    (h2 : ∀ b e, x2 (ix2 b e) = ((X2 b e : ℝ) : EReal))
    (h3 : ∀ e j, x3 (ix2 e j) = ((Q e j : ℝ) : EReal)) (b : Fin 1024) :
    M x0 x2 x3 b = ((Mr X0 X2 Q b : ℝ) : EReal) := by
  obtain ⟨k, hk⟩ := exists_M x0 x2 x3 b
  apply le_antisymm
  · rw [hk, z_real x0 x2 x3 X0 X2 Q h0 h2 h3]
    exact EReal.coe_le_coe_iff.2
      (Finset.le_sup' (fun k => Spec.xrow X0 X2 Q b k) (Finset.mem_univ k))
  · obtain ⟨k', -, hk'⟩ := Finset.exists_mem_eq_sup'
      (⟨⟨0, by decide⟩, Finset.mem_univ _⟩ : (Finset.univ : Finset (Fin 66560)).Nonempty)
      (fun k => Spec.xrow X0 X2 Q b k)
    unfold Mr
    rw [hk', ← z_real x0 x2 x3 X0 X2 Q h0 h2 h3]
    exact z_le_M x0 x2 x3 b k'

/-! ### R4. The result -/

/-- THE REFERENCE'S FIRST RESULT UNDER FINITE INPUTS, in real data: minus the mean over the rows of the weighted
    log-softmax sums, every entry the coercion of a real. -/
theorem ref_real (h0 : ∀ b e, x0 (ix2 b e) = ((X0 b e : ℝ) : EReal))
    (h2 : ∀ b e, x2 (ix2 b e) = ((X2 b e : ℝ) : EReal))
    (h3 : ∀ e j, x3 (ix2 e j) = ((Q e j : ℝ) : EReal)) :
    Read.val_main_v46 (F := Ideal) x0 x2 x3 x4 x5 ix0
      = -(Ideal.div (∑ b : Fin 1024, ∑ k : Fin 66560,
            ((((Spec.xrow X0 X2 Q b k : ℝ) : EReal) - ((Mr X0 X2 Q b : ℝ) : EReal))
                - Ideal.log (∑ k' : Fin 66560,
                    Ideal.exp (((Spec.xrow X0 X2 Q b k' : ℝ) : EReal) - ((Mr X0 X2 Q b : ℝ) : EReal))))
              * Ideal.div ((Spec.wrow (fun b => x4 (ix1 b)) (fun j => x5 (ix1 j)) b k : ℝ) : EReal)
                  (∑ k' : Fin 66560, ((Spec.wrow (fun b => x4 (ix1 b)) (fun j => x5 (ix1 j)) b k' : ℝ) : EReal))) Nw) := by
  rw [ref_row]
  simp only [z_real x0 x2 x3 X0 X2 Q h0 h2 h3, pos_real x4 x5, M_real x0 x2 x3 X0 X2 Q h0 h2 h3]

/-- The same with the subtracted real left existential. -/
theorem ref_real_exists (h0 : ∀ b e, x0 (ix2 b e) = ((X0 b e : ℝ) : EReal))
    (h2 : ∀ b e, x2 (ix2 b e) = ((X2 b e : ℝ) : EReal))
    (h3 : ∀ e j, x3 (ix2 e j) = ((Q e j : ℝ) : EReal)) :
    ∃ Mr : Fin 1024 → ℝ, Read.val_main_v46 (F := Ideal) x0 x2 x3 x4 x5 ix0
      = -(Ideal.div (∑ b : Fin 1024, ∑ k : Fin 66560,
            ((((Spec.xrow X0 X2 Q b k : ℝ) : EReal) - ((Mr b : ℝ) : EReal))
                - Ideal.log (∑ k' : Fin 66560,
                    Ideal.exp (((Spec.xrow X0 X2 Q b k' : ℝ) : EReal) - ((Mr b : ℝ) : EReal))))
              * Ideal.div ((Spec.wrow (fun b => x4 (ix1 b)) (fun j => x5 (ix1 j)) b k : ℝ) : EReal)
                  (∑ k' : Fin 66560, ((Spec.wrow (fun b => x4 (ix1 b)) (fun j => x5 (ix1 j)) b k' : ℝ) : EReal))) Nw) :=
  ⟨Mr X0 X2 Q, ref_real x0 x2 x3 x4 x5 X0 X2 Q h0 h2 h3⟩

end

end Cert.RefReal

end
-- ==== Proof.Bridge1Core.lean ====
/-
  The first loss of the two programs, as mathematics over the extended reals on finite data.

  One row: the reference's weighted log-softmax sum over the 66560 scores of a row (the 1024 in-batch scores, then the
  65536 queue scores), the weights normalised by their total, equals the closed form the streaming program assembles:
  (s0 + s_0 + s_1)/(cb + cq) − (fm + log fl), where the batch part contributes its maximum m0, its sum l0 of
  exponentials shifted by m0, its weighted score sum s0 and weight total cb; each half of the queue its running
  maximum, its sum of exponentials shifted by that maximum and its weighted score sum; and the merges are
  mc = max m_0 m_1, lc = l_0·exp(m_0 − mc) + l_1·exp(m_1 − mc), fm = max m0 mc, fl = l0·exp(m0 − fm) + lc·exp(mc − fm).
  Every input is the coercion of a real, so the merges are coercions of the real merges and the real row identity
  applies. The weights of a row do not sum to zero: a row matches itself. The loss: equal rows give equal negated means.
-/
import proofs.«405218_j60748017434937_2_alg».proof.Proof.Spec
import proofs.«405218_j60748017434937_2_alg».proof.Proof.LibRowGlue

noncomputable section

namespace Cert.Bridge1

open Idealize.ShloMosaic
open Cert.LibWords Cert.LibOnlineLse Cert.LibRowGlue
open scoped BigOperators

/-! ### One row -/

/-- ONE ROW OF THE FIRST LOSS. The reference's weighted log-softmax sum over the whole row of 66560 scores (at any real
    shift M) equals the streamed closed form the kernel's tail computes from: the batch part's maximum m0, sum of
    shifted exponentials l0, weighted score sum s0 and weight total cb; each queue half's running maximum, sum of
    exponentials shifted by it and weighted score sum; the queue's weight total cq; and the merges
    mc = max m_0 m_1, lc, fm = max m0 mc, fl over the extended reals. Every input is the coercion of a real. -/
theorem row_bridge (x1 w1 : Fin 1024 → ℝ) (xq wq : Fin 65536 → ℝ)
    (e0 e1 : Fin 32768 → Fin 65536) (he0 : ∀ i, (e0 i).val = i.val) (he1 : ∀ i, (e1 i).val = 32768 + i.val)
    (hne : (∑ j : Fin 1024, w1 j) + (∑ j : Fin 65536, wq j) ≠ 0) (M : ℝ)
    {m0 l0 s0 cb m_0 m_1 l_0 l_1 s_0 s_1 cq mc lc fm fl : EReal} {m0r mr0 mr1 : ℝ}
    (hm0 : m0 = (m0r : EReal))
    (hl0 : l0 = ((∑ j : Fin 1024, Real.exp (x1 j - m0r) : ℝ) : EReal))
    (hs0 : s0 = ((∑ j : Fin 1024, w1 j * x1 j : ℝ) : EReal))
    (hcb : cb = ((∑ j : Fin 1024, w1 j : ℝ) : EReal))
    (hm_0 : m_0 = (mr0 : EReal))
    (hl_0 : l_0 = ((∑ i : Fin 32768, Real.exp (xq (e0 i) - mr0) : ℝ) : EReal))
    (hs_0 : s_0 = ((∑ i : Fin 32768, wq (e0 i) * xq (e0 i) : ℝ) : EReal))
    (hm_1 : m_1 = (mr1 : EReal))
    (hl_1 : l_1 = ((∑ i : Fin 32768, Real.exp (xq (e1 i) - mr1) : ℝ) : EReal))
    (hs_1 : s_1 = ((∑ i : Fin 32768, wq (e1 i) * xq (e1 i) : ℝ) : EReal))
    (hcq : cq = ((∑ j : Fin 65536, wq j : ℝ) : EReal))
    (hmc : mc = max m_0 m_1)
    (hlc : lc = l_0 * Ideal.exp (m_0 - mc) + l_1 * Ideal.exp (m_1 - mc))
    (hfm : fm = max m0 mc)
    (hfl : fl = l0 * Ideal.exp (m0 - fm) + lc * Ideal.exp (mc - fm)) :
    ∑ k : Fin 66560, ((((cat x1 xq k : ℝ) : EReal) - (M : EReal))
          - Ideal.log (∑ k' : Fin 66560, Ideal.exp (((cat x1 xq k' : ℝ) : EReal) - (M : EReal))))
        * Ideal.div ((cat w1 wq k : ℝ) : EReal) (∑ k' : Fin 66560, ((cat w1 wq k' : ℝ) : EReal))
      = Ideal.div (s0 + s_0 + s_1) (cb + cq) - (fm + Ideal.log fl) := by
  have hmc' : mc = ((max mr0 mr1 : ℝ) : EReal) := by rw [hmc, hm_0, hm_1]; exact coe_max _ _
  have hlc' : lc = (((∑ i : Fin 32768, Real.exp (xq (e0 i) - mr0)) * Real.exp (mr0 - max mr0 mr1)
      + (∑ i : Fin 32768, Real.exp (xq (e1 i) - mr1)) * Real.exp (mr1 - max mr0 mr1) : ℝ) : EReal) := by
    rw [hlc, hl_0, hl_1, hm_0, hm_1, hmc']; exact merge_coe _ _ _ _ _
  have hfm' : fm = ((max m0r (max mr0 mr1) : ℝ) : EReal) := by rw [hfm, hm0, hmc']; exact coe_max _ _
  have hfl' : fl = (((∑ j : Fin 1024, Real.exp (x1 j - m0r)) * Real.exp (m0r - max m0r (max mr0 mr1))
      + ((∑ i : Fin 32768, Real.exp (xq (e0 i) - mr0)) * Real.exp (mr0 - max mr0 mr1)
          + (∑ i : Fin 32768, Real.exp (xq (e1 i) - mr1)) * Real.exp (mr1 - max mr0 mr1))
        * Real.exp (max mr0 mr1 - max m0r (max mr0 mr1)) : ℝ) : EReal) := by
    rw [hfl, hl0, hlc', hm0, hmc', hfm']; exact merge_coe _ _ _ _ _
  rw [hs0, hs_0, hs_1, hcb, hcq, hfm', hfl']
  exact row_glue x1 w1 xq wq e0 e1 he0 he1 (m0 := m0r) (m_0 := mr0) (m_1 := mr1) (mc := max mr0 mr1)
    (fm := max m0r (max mr0 mr1)) rfl rfl rfl rfl rfl rfl rfl rfl rfl rfl hne M

/-! ### The weights of a row do not sum to zero -/

/-- A row matches itself, so the match weights of a row (batch columns and queue columns) do not sum to zero. -/
theorem weights_ne_zero (bi : Fin 1024 → BitVec 32) (qi : Fin 65536 → BitVec 32) (b : Fin 1024) :
    (∑ j : Fin 1024, Spec.w1 bi b j) + (∑ j : Fin 65536, Spec.wq bi qi b j) ≠ 0 := by
  have h1 : 0 < ∑ j : Fin 1024, Spec.w1 bi b j :=
    sum_pos_of_mem (fun j _ => by unfold Spec.w1; exact ite_nonneg _) (Finset.mem_univ b)
      (by rw [Spec.w1_self]; exact one_pos)
  have h2 : 0 ≤ ∑ j : Fin 65536, Spec.wq bi qi b j :=
    Finset.sum_nonneg fun j _ => by unfold Spec.wq; exact ite_nonneg _
  exact (add_pos_of_pos_of_nonneg h1 h2).ne'

/-! ### The loss -/

/-- THE FIRST LOSS, both forms. On the left the reference's: minus the mean over the rows of the weighted log-softmax
    sums of the real scores (at any real shifts Mr b). On the right the kernel's: minus the mean over the rows of the
    streamed closed form K b, given row by row as in row_bridge from values that are coercions of the real batch-part
    and queue-half quantities. -/
theorem loss_bridge (X0 X2 : Fin 1024 → Fin 128 → ℝ) (Q : Fin 128 → Fin 65536 → ℝ)
    (bi : Fin 1024 → BitVec 32) (qi : Fin 65536 → BitVec 32) (Mr : Fin 1024 → ℝ) (N : EReal)
    (e0 e1 : Fin 32768 → Fin 65536) (he0 : ∀ i, (e0 i).val = i.val) (he1 : ∀ i, (e1 i).val = 32768 + i.val)
    (K m0 l0 s0 cb m_0 m_1 l_0 l_1 s_0 s_1 cq mc lc fm fl : Fin 1024 → EReal) (m0r mr0 mr1 : Fin 1024 → ℝ)
    (hK : ∀ b, K b = Ideal.div (s0 b + s_0 b + s_1 b) (cb b + cq b) - (fm b + Ideal.log (fl b)))
    (hm0 : ∀ b, m0 b = (m0r b : EReal))
    (hl0 : ∀ b, l0 b = ((∑ j : Fin 1024, Real.exp (Spec.x1 X0 X2 b j - m0r b) : ℝ) : EReal))
    (hs0 : ∀ b, s0 b = ((∑ j : Fin 1024, Spec.w1 bi b j * Spec.x1 X0 X2 b j : ℝ) : EReal))
    (hcb : ∀ b, cb b = ((∑ j : Fin 1024, Spec.w1 bi b j : ℝ) : EReal))
    (hm_0 : ∀ b, m_0 b = (mr0 b : EReal))
    (hl_0 : ∀ b, l_0 b = ((∑ i : Fin 32768, Real.exp (Spec.xq X0 Q b (e0 i) - mr0 b) : ℝ) : EReal))
    (hs_0 : ∀ b, s_0 b = ((∑ i : Fin 32768, Spec.wq bi qi b (e0 i) * Spec.xq X0 Q b (e0 i) : ℝ) : EReal))
    (hm_1 : ∀ b, m_1 b = (mr1 b : EReal))
    (hl_1 : ∀ b, l_1 b = ((∑ i : Fin 32768, Real.exp (Spec.xq X0 Q b (e1 i) - mr1 b) : ℝ) : EReal))
    (hs_1 : ∀ b, s_1 b = ((∑ i : Fin 32768, Spec.wq bi qi b (e1 i) * Spec.xq X0 Q b (e1 i) : ℝ) : EReal))
    (hcq : ∀ b, cq b = ((∑ j : Fin 65536, Spec.wq bi qi b j : ℝ) : EReal))
    (hmc : ∀ b, mc b = max (m_0 b) (m_1 b))
    (hlc : ∀ b, lc b = l_0 b * Ideal.exp (m_0 b - mc b) + l_1 b * Ideal.exp (m_1 b - mc b))
    (hfm : ∀ b, fm b = max (m0 b) (mc b))
    (hfl : ∀ b, fl b = l0 b * Ideal.exp (m0 b - fm b) + lc b * Ideal.exp (mc b - fm b)) :
    -(Ideal.div (∑ b : Fin 1024, ∑ k : Fin 66560,
          ((((Spec.xrow X0 X2 Q b k : ℝ) : EReal) - ((Mr b : ℝ) : EReal))
              - Ideal.log (∑ k' : Fin 66560, Ideal.exp (((Spec.xrow X0 X2 Q b k' : ℝ) : EReal) - ((Mr b : ℝ) : EReal))))
            * Ideal.div ((Spec.wrow bi qi b k : ℝ) : EReal) (∑ k' : Fin 66560, ((Spec.wrow bi qi b k' : ℝ) : EReal))) N)
      = -(Ideal.div (∑ b : Fin 1024, K b) N) := by
  refine neg_mean_congr _ _ N fun b => ?_
  rw [hK b]
  exact row_bridge (Spec.x1 X0 X2 b) (Spec.w1 bi b) (Spec.xq X0 Q b) (Spec.wq bi qi b) e0 e1 he0 he1
    (weights_ne_zero bi qi b) (Mr b) (hm0 b) (hl0 b) (hs0 b) (hcb b) (hm_0 b) (hl_0 b) (hs_0 b) (hm_1 b) (hl_1 b)
    (hs_1 b) (hcq b) (hmc b) (hlc b) (hfm b) (hfl b)

end Cert.Bridge1

end
-- ==== Proof.Bridge1Ref.lean ====
/-
  The first loss of the two programs agrees.

  The reference's first result, under finite inputs, is minus the mean over the rows of the weighted log-softmax sums of
  the real scores (the reference read in row form, every stage the coercion of a real). Row by row that sum is the
  streamed closed form (s0 + s_0 + s_1)/(cb + cq) − (fm + log fl) assembled from the batch part's and the two queue
  halves' maxima, sums of shifted exponentials and weighted score sums; so the reference's first result is minus the
  mean of those closed forms, which is what the streaming program's tail computes.
-/
import proofs.«405218_j60748017434937_2_alg».proof.Proof.RefReal
import proofs.«405218_j60748017434937_2_alg».proof.Proof.Bridge1Core

noncomputable section

namespace Cert.Bridge1

open Cert.ReferenceIdeal Cert.ReferenceIdeal.Gen Idealize.ShloMosaic Idealize.ShloMosaic.ValueIdx
open Cert.LibWords Cert.LibOnlineLse
open scoped BigOperators

/-- THE REFERENCE'S FIRST RESULT IS THE STREAMED FORM. Under finite inputs the reference's first result equals minus
    the mean over the rows of K b, whenever K b is the streamed closed form of row b assembled (as in row_bridge) from
    coercions of the real batch-part and queue-half quantities of that row. -/
theorem first_loss_core
    (x0 x2 : FVec Ideal S1024x128 .f32) (x3 : FVec Ideal S128x65536 .f32) (x4 : IVec S1024 32) (x5 : IVec S65536 32)
    (X0 X2 : Fin 1024 → Fin 128 → ℝ) (Q : Fin 128 → Fin 65536 → ℝ)
    (h0 : ∀ b e, x0 (ix2 b e) = ((X0 b e : ℝ) : EReal))
    (h2 : ∀ b e, x2 (ix2 b e) = ((X2 b e : ℝ) : EReal))
    (h3 : ∀ e j, x3 (ix2 e j) = ((Q e j : ℝ) : EReal))
    (e0 e1 : Fin 32768 → Fin 65536) (he0 : ∀ i, (e0 i).val = i.val) (he1 : ∀ i, (e1 i).val = 32768 + i.val)
    (K m0 l0 s0 cb m_0 m_1 l_0 l_1 s_0 s_1 cq mc lc fm fl : Fin 1024 → EReal) (m0r mr0 mr1 : Fin 1024 → ℝ)
    (hK : ∀ b, K b = Ideal.div (s0 b + s_0 b + s_1 b) (cb b + cq b) - (fm b + Ideal.log (fl b)))
    (hm0 : ∀ b, m0 b = (m0r b : EReal))
    (hl0 : ∀ b, l0 b = ((∑ j : Fin 1024, Real.exp (Spec.x1 X0 X2 b j - m0r b) : ℝ) : EReal))
    (hs0 : ∀ b, s0 b = ((∑ j : Fin 1024, Spec.w1 (fun b => x4 (ix1 b)) b j * Spec.x1 X0 X2 b j : ℝ) : EReal))
    (hcb : ∀ b, cb b = ((∑ j : Fin 1024, Spec.w1 (fun b => x4 (ix1 b)) b j : ℝ) : EReal))
    (hm_0 : ∀ b, m_0 b = (mr0 b : EReal))
    (hl_0 : ∀ b, l_0 b = ((∑ i : Fin 32768, Real.exp (Spec.xq X0 Q b (e0 i) - mr0 b) : ℝ) : EReal))
    (hs_0 : ∀ b, s_0 b = ((∑ i : Fin 32768,
        Spec.wq (fun b => x4 (ix1 b)) (fun j => x5 (ix1 j)) b (e0 i) * Spec.xq X0 Q b (e0 i) : ℝ) : EReal))
    (hm_1 : ∀ b, m_1 b = (mr1 b : EReal))
    (hl_1 : ∀ b, l_1 b = ((∑ i : Fin 32768, Real.exp (Spec.xq X0 Q b (e1 i) - mr1 b) : ℝ) : EReal))
    (hs_1 : ∀ b, s_1 b = ((∑ i : Fin 32768,
        Spec.wq (fun b => x4 (ix1 b)) (fun j => x5 (ix1 j)) b (e1 i) * Spec.xq X0 Q b (e1 i) : ℝ) : EReal))
    (hcq : ∀ b, cq b = ((∑ j : Fin 65536, Spec.wq (fun b => x4 (ix1 b)) (fun j => x5 (ix1 j)) b j : ℝ) : EReal))
    (hmc : ∀ b, mc b = max (m_0 b) (m_1 b))
    (hlc : ∀ b, lc b = l_0 b * Ideal.exp (m_0 b - mc b) + l_1 b * Ideal.exp (m_1 b - mc b))
    (hfm : ∀ b, fm b = max (m0 b) (mc b))
    (hfl : ∀ b, fl b = l0 b * Ideal.exp (m0 b - fm b) + lc b * Ideal.exp (mc b - fm b)) :
    Read.val_main_v46 (F := Ideal) x0 x2 x3 x4 x5 ix0
      = -(Ideal.div (∑ b : Fin 1024, K b) (Ideal.ofBits .f32 0x44800000#32)) := by
  rw [RefReal.ref_real x0 x2 x3 x4 x5 X0 X2 Q h0 h2 h3]
  exact loss_bridge X0 X2 Q (fun b => x4 (ix1 b)) (fun j => x5 (ix1 j)) (RefReal.Mr X0 X2 Q) _ e0 e1 he0 he1
    K m0 l0 s0 cb m_0 m_1 l_0 l_1 s_0 s_1 cq mc lc fm fl m0r mr0 mr1 hK hm0 hl0 hs0 hcb hm_0 hl_0 hs_0 hm_1 hl_1 hs_1
    hcq hmc hlc hfm hfl

end Cert.Bridge1

end
-- ==== Proof.KI.TailVal.lean ====
/-
  The host operations after the streaming region, as values. From ANY buffer contents `W` at the moment the tail
  starts, each of the three scalar results is a composed term of the arrays the tail reads: the region's four
  results (per-organisation column sums `G2`, running maxima `M2`, sums of exponentials `L2` and matched sums
  `S2`, one slab per core), the prefix's row statistics over the in-batch columns (`m0`, `l0`, `s0`, `cb`),
  the normalised anchors `a`, and the arguments `x1`, `x2`, `bi`, `qi`. Every operation of the tail is named
  as a function `n_v…` of the reads it depends on, for any float values; the per-organisation sums transposed
  (`g`, the operation `n_v96`) and the per-organisation counts (`cnt`, the operation `n_v80`) are cut out as
  arguments, so that the second and third results are ONE function of `(a, x1, x2, bi, g, cnt)`.

  At the ideal values the first result is read row by row: minus the mean over the rows `b` of
  `S_b / C_b − (fm_b + log fl_b)`, where `S_b` adds the matched sums of the in-batch columns and of the two
  queue halves, `C_b` adds the in-batch count and the count `cq b` of queue columns of row `b`'s organisation,
  `fm_b` is the maximum over in-batch and queue maxima and `fl_b` the sums of exponentials rescaled to it. The
  counts at an organisation `o` are the number of queue columns whose word, read signed, is `o`; the count of a
  row whose index lies in `[0, 2048)` is the counts at that index, the number of queue columns carrying the
  row's word.
-/
import proofs.«405218_j60748017434937_2_alg».proof.Proof.KI.Base
import Idealize.ShloMosaic.Lib.StableHlo.Run
import Idealize.ShloMosaic.Lib.ValueIdx
import Idealize.ShloMosaic.Lib.ValueLayout
import Idealize.ShloMosaic.Lib.Pipeline.Value
import Idealize.ShloMosaic.PureOps.Ideal.Laws
import proofs.«405218_j60748017434937_2_alg».proof.Proof.LibWords

set_option maxRecDepth 16384

noncomputable section

namespace Cert.KernelIdeal.TailVal

open Cert.KernelIdeal Cert.KernelIdeal.Gen Cert.KernelIdeal.Hand
open Idealize.ShloMosaic Idealize.ShloMosaic.TcCoe Idealize.SL.Sem Idealize.ShloMosaic.StableHlo
open Idealize.ShloMosaic.ValueIdx
open scoped BigOperators

variable {F : FTy → Type} [FloatOps F]

/-! ## The tail's operations as functions of the arrays they read -/

def n_v79 (qi : Vec F S65536 .i32) : Vec F S65536x1 .i32 :=
  (broadcastInDim S65536x1 ![0] bcast_S65536_S65536x1_0 : Vec F S65536 .i32 → Vec F S65536x1 .i32) qi
def n_v80 (qi : Vec F S65536 .i32) : Vec F S2048 .f32 :=
  ((fun x i u => Host.scatterAdd scatter_S2048_S65536x1_S65536_n_0_0_1 x i u) : Vec F S2048 .f32 → Vec F S65536x1 .i32 → Vec F S65536 .f32 → Vec F S2048 .f32) ((broadcastInDim S2048 ![] bcast_S_S2048 : Vec F S_ .f32 → Vec F S2048 .f32) (constant S_ .f32 0x00000000#32)) (n_v79 qi) ((broadcastInDim S65536 ![] bcast_S_S65536 : Vec F S_ .f32 → Vec F S65536 .f32) (constant S_ .f32 0x3F800000#32))
def n_v69 (S2 : Vec F S2x1024x1 .f32) : Vec F S1x1024x1 .f32 :=
  ((extractStridedSlice S1x1024x1 ![0, 0, 0] · slices_S2x1024x1_S1x1024x1_0_0_0) : Vec F S2x1024x1 .f32 → Vec F S1x1024x1 .f32) S2
def n_v70 (S2 : Vec F S2x1024x1 .f32) : Vec F S1024x1 .f32 :=
  shapeCast S1024x1 (n_v69 S2) shapeCasts_S1x1024x1_S1024x1
def n_v71 (S2 : Vec F S2x1024x1 .f32) (s0 : Vec F S1024x1 .f32) : Vec F S1024x1 .f32 :=
  (addf : Vec F S1024x1 .f32 → Vec F S1024x1 .f32 → Vec F S1024x1 .f32) s0 (n_v70 S2)
def n_v72 (S2 : Vec F S2x1024x1 .f32) : Vec F S1x1024x1 .f32 :=
  ((extractStridedSlice S1x1024x1 ![1, 0, 0] · slices_S2x1024x1_S1x1024x1_1_0_0) : Vec F S2x1024x1 .f32 → Vec F S1x1024x1 .f32) S2
def n_v73 (S2 : Vec F S2x1024x1 .f32) : Vec F S1024x1 .f32 :=
  shapeCast S1024x1 (n_v72 S2) shapeCasts_S1x1024x1_S1024x1
def n_v74 (S2 : Vec F S2x1024x1 .f32) (s0 : Vec F S1024x1 .f32) : Vec F S1024x1 .f32 :=
  (addf : Vec F S1024x1 .f32 → Vec F S1024x1 .f32 → Vec F S1024x1 .f32) (n_v71 S2 s0) (n_v73 S2)
def n_v82 (bi : Vec F S1024 .i32) : Vec F S1024 .i1 :=
  (cmpi .slt : Vec F S1024 .i32 → Vec F S1024 .i32 → Vec F S1024 .i1) bi ((broadcastInDim S1024 ![] bcast_S_S1024 : Vec F S_ .i32 → Vec F S1024 .i32) (constantI S_ 32 0#32))
def n_v84 (bi : Vec F S1024 .i32) : Vec F S1024 .i32 :=
  (addi : Vec F S1024 .i32 → Vec F S1024 .i32 → Vec F S1024 .i32) bi ((broadcastInDim S1024 ![] bcast_S_S1024 : Vec F S_ .i32 → Vec F S1024 .i32) (constantI S_ 32 2048#32))
def n_v85 (bi : Vec F S1024 .i32) : Vec F S1024 .i32 :=
  (select : Vec F S1024 .i1 → Vec F S1024 .i32 → Vec F S1024 .i32 → Vec F S1024 .i32) (n_v82 bi) (n_v84 bi) bi
def n_v86 (bi : Vec F S1024 .i32) : Vec F S1024x1 .i32 :=
  (broadcastInDim S1024x1 ![0] bcast_S1024_S1024x1_0 : Vec F S1024 .i32 → Vec F S1024x1 .i32) (n_v85 bi)
def n_v87 (bi : Vec F S1024 .i32) (cnt : Vec F S2048 .f32) : Vec F S1024 .f32 :=
  ((fun x i => Host.gather gather_S2048_S1024x1_S1024_n_0_n_n_0_1_1 x i) : Vec F S2048 .f32 → Vec F S1024x1 .i32 → Vec F S1024 .f32) cnt (n_v86 bi)
def n_v88 (bi : Vec F S1024 .i32) (cnt : Vec F S2048 .f32) : Vec F S1024x1 .f32 :=
  (broadcastInDim S1024x1 ![0] bcast_S1024_S1024x1_0 : Vec F S1024 .f32 → Vec F S1024x1 .f32) (n_v87 bi cnt)
def n_v89 (cb : Vec F S1024x1 .f32) (bi : Vec F S1024 .i32) (cnt : Vec F S2048 .f32) : Vec F S1024x1 .f32 :=
  (addf : Vec F S1024x1 .f32 → Vec F S1024x1 .f32 → Vec F S1024x1 .f32) cb (n_v88 bi cnt)
def n_v90 (S2 : Vec F S2x1024x1 .f32) (s0 : Vec F S1024x1 .f32) (cb : Vec F S1024x1 .f32) (bi : Vec F S1024 .i32) (cnt : Vec F S2048 .f32) : Vec F S1024x1 .f32 :=
  (Host.divf : Vec F S1024x1 .f32 → Vec F S1024x1 .f32 → Vec F S1024x1 .f32) (n_v74 S2 s0) (n_v89 cb bi cnt)
def n_v45 (M2 : Vec F S2x1024x1 .f32) : Vec F S1x1024x1 .f32 :=
  ((extractStridedSlice S1x1024x1 ![0, 0, 0] · slices_S2x1024x1_S1x1024x1_0_0_0) : Vec F S2x1024x1 .f32 → Vec F S1x1024x1 .f32) M2
def n_v46 (M2 : Vec F S2x1024x1 .f32) : Vec F S1024x1 .f32 :=
  shapeCast S1024x1 (n_v45 M2) shapeCasts_S1x1024x1_S1024x1
def n_v49 (M2 : Vec F S2x1024x1 .f32) : Vec F S1x1024x1 .f32 :=
  ((extractStridedSlice S1x1024x1 ![1, 0, 0] · slices_S2x1024x1_S1x1024x1_1_0_0) : Vec F S2x1024x1 .f32 → Vec F S1x1024x1 .f32) M2
def n_v50 (M2 : Vec F S2x1024x1 .f32) : Vec F S1024x1 .f32 :=
  shapeCast S1024x1 (n_v49 M2) shapeCasts_S1x1024x1_S1024x1
def n_v53 (M2 : Vec F S2x1024x1 .f32) : Vec F S1024x1 .f32 :=
  (maximumf : Vec F S1024x1 .f32 → Vec F S1024x1 .f32 → Vec F S1024x1 .f32) (n_v46 M2) (n_v50 M2)
def n_v61 (M2 : Vec F S2x1024x1 .f32) (m0 : Vec F S1024x1 .f32) : Vec F S1024x1 .f32 :=
  (maximumf : Vec F S1024x1 .f32 → Vec F S1024x1 .f32 → Vec F S1024x1 .f32) m0 (n_v53 M2)
def n_v62 (M2 : Vec F S2x1024x1 .f32) (m0 : Vec F S1024x1 .f32) : Vec F S1024x1 .f32 :=
  (subf : Vec F S1024x1 .f32 → Vec F S1024x1 .f32 → Vec F S1024x1 .f32) m0 (n_v61 M2 m0)
def n_v63 (M2 : Vec F S2x1024x1 .f32) (m0 : Vec F S1024x1 .f32) : Vec F S1024x1 .f32 :=
  (Host.exp : Vec F S1024x1 .f32 → Vec F S1024x1 .f32) (n_v62 M2 m0)
def n_v64 (M2 : Vec F S2x1024x1 .f32) (m0 : Vec F S1024x1 .f32) (l0 : Vec F S1024x1 .f32) : Vec F S1024x1 .f32 :=
  (mulf : Vec F S1024x1 .f32 → Vec F S1024x1 .f32 → Vec F S1024x1 .f32) l0 (n_v63 M2 m0)
def n_v47 (L2 : Vec F S2x1024x1 .f32) : Vec F S1x1024x1 .f32 :=
  ((extractStridedSlice S1x1024x1 ![0, 0, 0] · slices_S2x1024x1_S1x1024x1_0_0_0) : Vec F S2x1024x1 .f32 → Vec F S1x1024x1 .f32) L2
def n_v48 (L2 : Vec F S2x1024x1 .f32) : Vec F S1024x1 .f32 :=
  shapeCast S1024x1 (n_v47 L2) shapeCasts_S1x1024x1_S1024x1
def n_v54 (M2 : Vec F S2x1024x1 .f32) : Vec F S1024x1 .f32 :=
  (subf : Vec F S1024x1 .f32 → Vec F S1024x1 .f32 → Vec F S1024x1 .f32) (n_v46 M2) (n_v53 M2)
def n_v55 (M2 : Vec F S2x1024x1 .f32) : Vec F S1024x1 .f32 :=
  (Host.exp : Vec F S1024x1 .f32 → Vec F S1024x1 .f32) (n_v54 M2)
def n_v56 (M2 : Vec F S2x1024x1 .f32) (L2 : Vec F S2x1024x1 .f32) : Vec F S1024x1 .f32 :=
  (mulf : Vec F S1024x1 .f32 → Vec F S1024x1 .f32 → Vec F S1024x1 .f32) (n_v48 L2) (n_v55 M2)
def n_v51 (L2 : Vec F S2x1024x1 .f32) : Vec F S1x1024x1 .f32 :=
  ((extractStridedSlice S1x1024x1 ![1, 0, 0] · slices_S2x1024x1_S1x1024x1_1_0_0) : Vec F S2x1024x1 .f32 → Vec F S1x1024x1 .f32) L2
def n_v52 (L2 : Vec F S2x1024x1 .f32) : Vec F S1024x1 .f32 :=
  shapeCast S1024x1 (n_v51 L2) shapeCasts_S1x1024x1_S1024x1
def n_v57 (M2 : Vec F S2x1024x1 .f32) : Vec F S1024x1 .f32 :=
  (subf : Vec F S1024x1 .f32 → Vec F S1024x1 .f32 → Vec F S1024x1 .f32) (n_v50 M2) (n_v53 M2)
def n_v58 (M2 : Vec F S2x1024x1 .f32) : Vec F S1024x1 .f32 :=
  (Host.exp : Vec F S1024x1 .f32 → Vec F S1024x1 .f32) (n_v57 M2)
def n_v59 (M2 : Vec F S2x1024x1 .f32) (L2 : Vec F S2x1024x1 .f32) : Vec F S1024x1 .f32 :=
  (mulf : Vec F S1024x1 .f32 → Vec F S1024x1 .f32 → Vec F S1024x1 .f32) (n_v52 L2) (n_v58 M2)
def n_v60 (M2 : Vec F S2x1024x1 .f32) (L2 : Vec F S2x1024x1 .f32) : Vec F S1024x1 .f32 :=
  (addf : Vec F S1024x1 .f32 → Vec F S1024x1 .f32 → Vec F S1024x1 .f32) (n_v56 M2 L2) (n_v59 M2 L2)
def n_v65 (M2 : Vec F S2x1024x1 .f32) (m0 : Vec F S1024x1 .f32) : Vec F S1024x1 .f32 :=
  (subf : Vec F S1024x1 .f32 → Vec F S1024x1 .f32 → Vec F S1024x1 .f32) (n_v53 M2) (n_v61 M2 m0)
def n_v66 (M2 : Vec F S2x1024x1 .f32) (m0 : Vec F S1024x1 .f32) : Vec F S1024x1 .f32 :=
  (Host.exp : Vec F S1024x1 .f32 → Vec F S1024x1 .f32) (n_v65 M2 m0)
def n_v67 (M2 : Vec F S2x1024x1 .f32) (L2 : Vec F S2x1024x1 .f32) (m0 : Vec F S1024x1 .f32) : Vec F S1024x1 .f32 :=
  (mulf : Vec F S1024x1 .f32 → Vec F S1024x1 .f32 → Vec F S1024x1 .f32) (n_v60 M2 L2) (n_v66 M2 m0)
def n_v68 (M2 : Vec F S2x1024x1 .f32) (L2 : Vec F S2x1024x1 .f32) (m0 : Vec F S1024x1 .f32) (l0 : Vec F S1024x1 .f32) : Vec F S1024x1 .f32 :=
  (addf : Vec F S1024x1 .f32 → Vec F S1024x1 .f32 → Vec F S1024x1 .f32) (n_v64 M2 m0 l0) (n_v67 M2 L2 m0)
def n_v75 (M2 : Vec F S2x1024x1 .f32) (L2 : Vec F S2x1024x1 .f32) (m0 : Vec F S1024x1 .f32) (l0 : Vec F S1024x1 .f32) : Vec F S1024x1 .f32 :=
  (Host.log : Vec F S1024x1 .f32 → Vec F S1024x1 .f32) (n_v68 M2 L2 m0 l0)
def n_v76 (M2 : Vec F S2x1024x1 .f32) (L2 : Vec F S2x1024x1 .f32) (m0 : Vec F S1024x1 .f32) (l0 : Vec F S1024x1 .f32) : Vec F S1024x1 .f32 :=
  (addf : Vec F S1024x1 .f32 → Vec F S1024x1 .f32 → Vec F S1024x1 .f32) (n_v61 M2 m0) (n_v75 M2 L2 m0 l0)
def n_v91 (M2 : Vec F S2x1024x1 .f32) (L2 : Vec F S2x1024x1 .f32) (S2 : Vec F S2x1024x1 .f32) (m0 : Vec F S1024x1 .f32) (l0 : Vec F S1024x1 .f32) (s0 : Vec F S1024x1 .f32) (cb : Vec F S1024x1 .f32) (bi : Vec F S1024 .i32) (cnt : Vec F S2048 .f32) : Vec F S1024x1 .f32 :=
  (subf : Vec F S1024x1 .f32 → Vec F S1024x1 .f32 → Vec F S1024x1 .f32) (n_v90 S2 s0 cb bi cnt) (n_v76 M2 L2 m0 l0)
def n_v92 (M2 : Vec F S2x1024x1 .f32) (L2 : Vec F S2x1024x1 .f32) (S2 : Vec F S2x1024x1 .f32) (m0 : Vec F S1024x1 .f32) (l0 : Vec F S1024x1 .f32) (s0 : Vec F S1024x1 .f32) (cb : Vec F S1024x1 .f32) (bi : Vec F S1024 .i32) (cnt : Vec F S2048 .f32) : Vec F S_ .f32 :=
  ((fun x v => Host.reduceAdd x v reducesTo_S1024x1_S_d0_1 h_S_) : Vec F S1024x1 .f32 → Vec F S_ .f32 → Vec F S_ .f32) (n_v91 M2 L2 S2 m0 l0 s0 cb bi cnt) (constant S_ .f32 0x00000000#32)
def n_v93 (M2 : Vec F S2x1024x1 .f32) (L2 : Vec F S2x1024x1 .f32) (S2 : Vec F S2x1024x1 .f32) (m0 : Vec F S1024x1 .f32) (l0 : Vec F S1024x1 .f32) (s0 : Vec F S1024x1 .f32) (cb : Vec F S1024x1 .f32) (bi : Vec F S1024 .i32) (cnt : Vec F S2048 .f32) : Vec F S_ .f32 :=
  (Host.divf : Vec F S_ .f32 → Vec F S_ .f32 → Vec F S_ .f32) (n_v92 M2 L2 S2 m0 l0 s0 cb bi cnt) (constant S_ .f32 0x44800000#32)
def n_v94 (M2 : Vec F S2x1024x1 .f32) (L2 : Vec F S2x1024x1 .f32) (S2 : Vec F S2x1024x1 .f32) (m0 : Vec F S1024x1 .f32) (l0 : Vec F S1024x1 .f32) (s0 : Vec F S1024x1 .f32) (cb : Vec F S1024x1 .f32) (bi : Vec F S1024 .i32) (cnt : Vec F S2048 .f32) : Vec F S_ .f32 :=
  (Host.negf : Vec F S_ .f32 → Vec F S_ .f32) (n_v93 M2 L2 S2 m0 l0 s0 cb bi cnt)

/-! ## The first result after the tail -/

/-- The first result after the tail: the row merge of the region's and the prefix's statistics. -/
def res_v94 (W : Valuation τ sig (Elt F)) : Vec F S_ .f32 :=
  n_v94 (W (Proc.devRef .tc main_v44_1)) (W (Proc.devRef .tc main_v44_2)) (W (Proc.devRef .tc main_v44_3)) (W (Proc.devRef .tc main_v21)) (W (Proc.devRef .tc main_v26)) (W (Proc.devRef .tc main_v35)) (W (Proc.devRef .tc main_v37)) (W (Proc.devRef .tc main_arg4)) (n_v80 (W (Proc.devRef .tc main_arg5)))

set_option maxHeartbeats 4000000 in
theorem tail_v94 (W : Valuation τ sig (Elt F)) :
    StableHlo.after (List.flatten (tailOps (F := F))) W (Proc.devRef .tc main_v94) = res_v94 W := by
  simp only [tailOps, hostOps1, hostOps1_1, hostOps1_2, hostOps1_3, hostOps1_4, List.flatten_cons, List.flatten_nil, List.append_nil, List.cons_append, List.nil_append]
  after_results_simp
  rfl

/-! ## Reading the layout operations at an index -/

section Reads
variable {α : Type}

/-- Core 0 of a per-core column: slice, then drop the unit axis. -/
theorem core0_apply (X : S2x1024x1.Idx → α) (b : Fin 1024) :
    shapeCast S1024x1 (extractStridedSlice S1x1024x1 ![0, 0, 0] X slices_S2x1024x1_S1x1024x1_0_0_0) shapeCasts_S1x1024x1_S1024x1
        (ix2 b (0 : Fin 1)) = X (ix3 (0 : Fin 2) b (0 : Fin 1)) := by
  refine (shapeCast_1ab_ab_apply _ _ b (0 : Fin 1)).trans ?_
  exact extractStridedSlice_apply _ _ _ _ _ (fun ax => by
    match ax with
    | ⟨0, _⟩ => rfl
    | ⟨1, _⟩ => exact (Nat.zero_add _).symm
    | ⟨2, _⟩ => rfl)

/-- Core 1 of a per-core column. -/
theorem core1_apply (X : S2x1024x1.Idx → α) (b : Fin 1024) :
    shapeCast S1024x1 (extractStridedSlice S1x1024x1 ![1, 0, 0] X slices_S2x1024x1_S1x1024x1_1_0_0) shapeCasts_S1x1024x1_S1024x1
        (ix2 b (0 : Fin 1)) = X (ix3 (1 : Fin 2) b (0 : Fin 1)) := by
  refine (shapeCast_1ab_ab_apply _ _ b (0 : Fin 1)).trans ?_
  exact extractStridedSlice_apply _ _ _ _ _ (fun ax => by
    match ax with
    | ⟨0, _⟩ => rfl
    | ⟨1, _⟩ => exact (Nat.zero_add _).symm
    | ⟨2, _⟩ => rfl)

/-- A vector as a column: the entry of its row. -/
theorem col_apply {F : FTy → Type} {e : EltTy} (x : Vec F S1024 e) (b : Fin 1024) :
    (broadcastInDim S1024x1 ![0] bcast_S1024_S1024x1_0 : Vec F S1024 e → Vec F S1024x1 e) x (ix2 b (0 : Fin 1)) = x (ix1 b) :=
  broadcastInDim_apply _ _ _ _ _ (fun a => by
    match a with
    | ⟨0, _⟩ => rfl)

end Reads

/-! ## The first loss in row form -/

section Row

/-- The host's sum of a column into a scalar, from the zero word: the sum over the rows. -/
theorem sum_col (x : Vec Ideal S1024x1 .f32) :
    Host.reduceAdd (F := Ideal) x (constant S_ .f32 0x00000000#32) reducesTo_S1024x1_S_d0_1 h_S_ ix0
      = ∑ b : Fin 1024, x (ix2 b (0 : Fin 1)) := by
  unfold Host.reduceAdd
  show Ideal.hostReduceAdd _ _ _ _ = _
  rw [Ideal.hostReduceAdd_total _ (fun b => b.elim0), constant_apply, Ideal.ofBits_zero_f32, zero_add, sum_idx2]
  exact Finset.sum_congr rfl fun b _ => Fin.sum_univ_one _

variable (M2 L2 S2 : Vec Ideal S2x1024x1 .f32) (m0 l0 s0 cb : Vec Ideal S1024x1 .f32)
  (bi : Vec Ideal S1024 .i32) (cnt : Vec Ideal S2048 .f32)

/-- Row `b`'s maximum over the queue: the two halves' maxima merged. -/
def mc (b : Fin 1024) : EReal := max (M2 (ix3 (0 : Fin 2) b (0 : Fin 1))) (M2 (ix3 (1 : Fin 2) b (0 : Fin 1)))
/-- Row `b`'s sum of exponentials over the queue, rescaled to the merged maximum. -/
def lc (b : Fin 1024) : EReal :=
  L2 (ix3 (0 : Fin 2) b (0 : Fin 1)) * Ideal.exp (M2 (ix3 (0 : Fin 2) b (0 : Fin 1)) - mc M2 b)
    + L2 (ix3 (1 : Fin 2) b (0 : Fin 1)) * Ideal.exp (M2 (ix3 (1 : Fin 2) b (0 : Fin 1)) - mc M2 b)
/-- Row `b`'s maximum over anchors and queue. -/
def fm (b : Fin 1024) : EReal := max (m0 (ix2 b (0 : Fin 1))) (mc M2 b)
/-- Row `b`'s sum of exponentials over anchors and queue, rescaled to the overall maximum. -/
def fl (b : Fin 1024) : EReal :=
  l0 (ix2 b (0 : Fin 1)) * Ideal.exp (m0 (ix2 b (0 : Fin 1)) - fm M2 m0 b) + lc M2 L2 b * Ideal.exp (mc M2 b - fm M2 m0 b)
/-- Row `b`'s count of queue columns of its organisation: the counts gathered at the row's index. -/
def cq (b : Fin 1024) : EReal := n_v87 bi cnt (ix1 b)

theorem v91_apply (b : Fin 1024) :
    n_v91 M2 L2 S2 m0 l0 s0 cb bi cnt (ix2 b (0 : Fin 1))
      = Ideal.div (s0 (ix2 b (0 : Fin 1)) + S2 (ix3 (0 : Fin 2) b (0 : Fin 1)) + S2 (ix3 (1 : Fin 2) b (0 : Fin 1)))
            (cb (ix2 b (0 : Fin 1)) + cq bi cnt b)
          - (fm M2 m0 b + Ideal.log (fl M2 L2 m0 l0 b)) := by
  simp only [n_v91, n_v90, n_v89, n_v88, n_v76, n_v75, n_v74, n_v73, n_v72, n_v71, n_v70, n_v69, n_v68, n_v67, n_v66, n_v65,
    n_v64, n_v63, n_v62, n_v61, n_v60, n_v59, n_v58, n_v57, n_v56, n_v55, n_v54, n_v53, n_v52, n_v51, n_v50, n_v49, n_v48, n_v47,
    n_v46, n_v45, subf_apply, addf_apply, mulf_apply, maximumf_apply, Host.divf, Host.exp, Host.log,
    Ideal.hostDivf_def, Ideal.hostUnary_exp_def, Ideal.hostUnary_log_def, core0_apply, core1_apply, col_apply, mc, lc, fm, fl, cq]
  rw [col_apply]

/-- THE FIRST RESULT IN ROW FORM: minus the mean over the rows of the positives' mean logit minus the row's
    log-sum-exp. -/
theorem v94_row :
    n_v94 M2 L2 S2 m0 l0 s0 cb bi cnt ix0
      = -(Ideal.div (∑ b : Fin 1024,
            (Ideal.div (s0 (ix2 b (0 : Fin 1)) + S2 (ix3 (0 : Fin 2) b (0 : Fin 1)) + S2 (ix3 (1 : Fin 2) b (0 : Fin 1)))
                (cb (ix2 b (0 : Fin 1)) + cq bi cnt b)
              - (fm M2 m0 b + Ideal.log (fl M2 L2 m0 l0 b))))
          (Ideal.ofBits .f32 0x44800000#32)) := by
  unfold n_v94 n_v93 n_v92
  show -(Ideal.div (Host.reduceAdd (F := Ideal) _ _ _ _ ix0) _) = _
  rw [sum_col]
  simp only [v91_apply]
  rfl

end Row

/-! ## The counts: the scatter of ones read at an organisation, the gather read at a row -/

section Counts

/-- A rank-1 index set is its coordinate's range … -/
def idxEquiv1 {n : Nat} : (⟨1, ![n]⟩ : Shape).Idx ≃ Fin n where
  toFun i := i 0
  invFun a := ix1 a
  left_inv i := (eq_ix1 i).symm
  right_inv _ := rfl
/-- … so a sum over it is the sum over the coordinate. -/
theorem sum_idx1 {M : Type*} [AddCommMonoid M] {n : Nat} (f : (⟨1, ![n]⟩ : Shape).Idx → M) :
    ∑ i, f i = ∑ a : Fin n, f (ix1 a) := by
  rw [← Equiv.sum_comp (idxEquiv1 (n := n)).symm f]
  rfl

/-- A nonnegative signed reading of a 32-bit word is its unsigned reading. -/
theorem toNat_cast_of_nonneg (x : BitVec 32) (h0 : 0 ≤ x.toInt) : ((x.toNat : ℕ) : Int) = x.toInt := by
  have hx := x.isLt
  rw [BitVec.toInt_eq_toNat_cond] at h0 ⊢
  split at h0 <;> split <;> omega

/-- The count scatter's dimension numbers. -/
abbrev dC : ScatterDims S2048 S65536x1 S65536 := scatter_S2048_S65536x1_S65536_n_0_0_1

/-- Update `j` of the counts starts at the word of column `j`, read signed. -/
theorem dC_start (j : Fin 65536) (idx : IVec S65536x1 32) :
    dC.start (ix1 j) idx (0 : Fin 1) = (idx (ix2 j (0 : Fin 1))).toInt := by
  unfold ScatterDims.start
  rw [dif_pos (show (0 : Fin S2048.rank) ∈ dC.scatterDimsToOperandDims from List.mem_singleton.2 rfl)]
  refine congrArg (fun i => (idx i).toInt) (funext fun b => Fin.ext ?_)
  match b with
  | ⟨0, _⟩ => rfl
  | ⟨1, _⟩ => rfl

/-- The counts have no window axis. -/
theorem dC_window (j : Fin 65536) : dC.window (ix1 j) (0 : Fin 1) = 0 := by
  unfold ScatterDims.window
  rw [dif_neg (show ¬ (0 : Fin S2048.rank) ∈ dC.sKept by decide)]

/-- Update `j` lands on organisation `o` exactly when column `j`'s word, read signed, is `o`. -/
theorem dC_resultIdx_iff (j : Fin 65536) (idx : IVec S65536x1 32) (o : Fin 2048) :
    dC.resultIdx? (ix1 j) idx = some (ix1 o) ↔ (idx (ix2 j (0 : Fin 1))).toInt = (o.val : Int) := by
  have h0 := dC_start j idx
  have w0 := dC_window j
  have ho := o.isLt
  unfold ScatterDims.resultIdx?
  split
  · next h =>
    rw [Option.some_inj]
    constructor
    · intro hf
      have f0 := congrArg (fun f : S2048.Idx => (f 0).val) hf
      simp only [h0, w0] at f0
      have g0 := (h 0).1
      rw [h0, w0] at g0
      have : ((ix1 o : S2048.Idx) 0).val = o.val := rfl
      omega
    · intro hi
      funext a
      apply Fin.ext
      match a with
      | ⟨0, _⟩ =>
        show (dC.start (ix1 j) idx 0 + (dC.window (ix1 j) 0 : Int)).toNat = o.val
        rw [h0, w0, hi]; simp
  · next h =>
    constructor
    · intro hn; exact absurd hn (by simp)
    · intro hi
      exfalso
      apply h
      intro a
      match a with
      | ⟨0, _⟩ =>
        show 0 ≤ dC.start (ix1 j) idx 0 + (dC.window (ix1 j) 0 : Int)
          ∧ dC.start (ix1 j) idx 0 + (dC.window (ix1 j) 0 : Int) < (2048 : Nat)
        rw [h0, w0, hi]; omega

/-- (K3) THE COUNTS AT AN ORGANISATION: the number of queue columns whose word, read signed, is it. -/
theorem gcnt_apply (qi : Vec Ideal S65536 .i32) (o : Fin 2048) :
    n_v80 (F := Ideal) qi (ix1 o)
      = ∑ j : Fin 65536, if (qi (ix1 j)).toInt = (o.val : Int) then (1 : EReal) else 0 := by
  unfold n_v80 n_v79
  show Ideal.hostScatterAdd dC _ _ _ (ix1 o) = _
  unfold Ideal.hostScatterAdd
  rw [Finset.sum_filter, sum_idx1]
  show Ideal.ofBits .f32 0x00000000#32 + _ = _
  rw [Ideal.ofBits_zero_f32, zero_add]
  refine Finset.sum_congr rfl fun j _ => ?_
  rw [if_congr (dC_resultIdx_iff j _ o) rfl rfl]
  refine if_congr ?_ ?_ rfl
  · exact Eq.congr (congrArg BitVec.toInt (broadcastInDim_apply _ _ _ _ (ix1 j) (fun a => by
      match a with
      | ⟨0, _⟩ => rfl))) rfl
  · show Ideal.ofBits .f32 0x3F800000#32 = 1
    exact Cert.LibWords.ofBits_one

/-- The count gather's dimension numbers. -/
abbrev dT : GatherDims S2048 S1024x1 S1024 := gather_S2048_S1024x1_S1024_n_0_n_n_0_1_1

/-- THE GATHER READ AT ROW `b`: the operand at the row's start index, read signed and clamped into `[0, 2047]`. -/
theorem gather_row {α : Type} (x : S2048.Idx → α) (idx : IVec S1024x1 32) (b : Fin 1024) :
    Host.gather dT x idx (ix1 b) = x (ix1 ⟨min (idx (ix2 b (0 : Fin 1))).toInt.toNat 2047, by omega⟩) := by
  unfold Host.gather
  congr 1
  funext a
  obtain rfl : a = 0 := Subsingleton.elim _ _
  refine Fin.ext ?_
  show dT.start (ix1 b) idx 0 + dT.batchCoord (ix1 b) 0 + dT.offCoord (ix1 b) 0 = _
  rw [GatherDims.batchCoord_eq_zero _ _ _ List.not_mem_nil,
    GatherDims.offCoord_eq_zero _ _ _ (fun h => ((GatherDims.mem_sKept _ _).mp h).1 (List.mem_singleton.mpr rfl))]
  simp only [Nat.add_zero]
  unfold GatherDims.start
  rw [dif_pos (show (0 : Fin 1) ∈ dT.startIndexMap from List.mem_singleton.mpr rfl)]
  have hsi : dT.siIdx (ix1 b) ⟨List.idxOf (0 : Fin 1) dT.startIndexMap,
      List.idxOf_lt_length_iff.2 (List.mem_singleton.mpr rfl)⟩ = ix2 b (0 : Fin 1) := by
    funext c; refine Fin.ext ?_
    match c with
    | ⟨0, _⟩ => rfl
    | ⟨1, _⟩ => rfl
  rw [hsi]
  rfl

/-- The wrapped index of a row whose word is not negative is the word. -/
theorem v85_apply (bi : Vec Ideal S1024 .i32) (b : Fin 1024) (h0 : 0 ≤ (bi (ix1 b)).toInt) :
    n_v85 (F := Ideal) bi (ix1 b) = bi (ix1 b) := by
  unfold n_v85 n_v82 n_v84
  show Scalar.select (IntOp.cmpi .slt (bi (ix1 b)) 0#32) _ (bi (ix1 b)) = _
  have hc : IntOp.cmpi .slt (bi (ix1 b)) 0#32 = 0#1 := by
    unfold IntOp.cmpi
    show BitVec.ofBool (decide ((bi (ix1 b)).toInt < (0#32).toInt)) = 0#1
    rw [BitVec.toInt_zero, decide_eq_false (not_lt.mpr h0)]
    rfl
  rw [hc, select_zero]

/-- THE COUNT OF A ROW whose organisation index is in range: the counts at that index. -/
theorem cq_eq (bi : Vec Ideal S1024 .i32) (cnt : Vec Ideal S2048 .f32) (b : Fin 1024)
    (h0 : 0 ≤ (bi (ix1 b)).toInt) (h1 : (bi (ix1 b)).toInt < 2048) :
    cq bi cnt b = cnt (ix1 ⟨(bi (ix1 b)).toNat, by have := toNat_cast_of_nonneg _ h0; omega⟩) := by
  have hn := toNat_cast_of_nonneg _ h0
  unfold cq n_v87 n_v86
  show Host.gather dT cnt _ (ix1 b) = _
  rw [gather_row]
  refine congrArg cnt (congrArg ix1 (Fin.ext ?_))
  show min (((broadcastInDim S1024x1 ![0] bcast_S1024_S1024x1_0 : Vec Ideal S1024 .i32 → Vec Ideal S1024x1 .i32) (n_v85 bi)) (ix2 b (0 : Fin 1))).toInt.toNat 2047 = (bi (ix1 b)).toNat
  rw [col_apply, v85_apply bi b h0]
  omega

/-- The same in real form: the number of queue columns carrying the row's organisation index. -/
theorem cq_real (bi : Vec Ideal S1024 .i32) (qi : Vec Ideal S65536 .i32) (b : Fin 1024)
    (h0 : 0 ≤ (bi (ix1 b)).toInt) (h1 : (bi (ix1 b)).toInt < 2048) :
    cq bi (n_v80 (F := Ideal) qi) b
      = ((∑ j : Fin 65536, (if bi (ix1 b) = qi (ix1 j) then (1 : ℝ) else 0) : ℝ) : EReal) := by
  have hn := toNat_cast_of_nonneg _ h0
  rw [cq_eq bi _ b h0 h1, gcnt_apply, ← Cert.LibOnlineLse.coe_sum]
  refine Finset.sum_congr rfl fun j _ => ?_
  rw [← Cert.LibWords.ite_coe]
  refine if_congr ?_ rfl rfl
  show (qi (ix1 j)).toInt = (((bi (ix1 b)).toNat : ℕ) : Int) ↔ _
  rw [hn]
  constructor
  · intro h; exact (BitVec.eq_of_toInt_eq h).symm
  · intro h; rw [h]

end Counts

end Cert.KernelIdeal.TailVal

end
-- ==== Proof.Bridge1.lean ====
/-
  The first loss of the two programs agrees: the last step.

  The reference's first result is, under finite inputs, minus the mean over the rows of the streamed closed forms
  (the reference half). The streaming program's first result is the tail's merge of the region's row statistics with the
  batch part's, read at the region's exit: the batch part's maximum, sum of exponentials, weighted score sum and weight
  total as the head left them, each queue half's running maximum, sum of exponentials and weighted score sum as the last
  tile wrote them, and the queue's weight total gathered from the per-organisation counts at the row's label (in range
  by the precondition). These are the coercions of the real quantities the closed form is stated over, so the two
  results are equal.
-/
import proofs.«405218_j60748017434937_2_alg».proof.Proof.Bridge1Ref
import proofs.«405218_j60748017434937_2_alg».proof.Proof.KI.ValueRun
import proofs.«405218_j60748017434937_2_alg».proof.Proof.KI.TailVal
import proofs.«405218_j60748017434937_2_alg».proof.Proof.KI.FromPre

set_option maxRecDepth 16384

noncomputable section

namespace Cert.Bridge1

open Idealize.ShloMosaic Idealize.ShloMosaic.TcCoe Idealize.ShloMosaic.ValueIdx Idealize.SL.Sem
open Cert.KernelIdeal Cert.KernelIdeal.Gen Cert.KernelIdeal.Hand
open Cert.LibWords
open scoped BigOperators

section Final
variable (m : (ℓ : Loc nD τ sig) → Buf (Elt Ideal) ℓ) (c : Dev nD)

/-- At the region's exit the buffers the tail's first result reads: the batch part's four statistics and the two label
    arrays as the region found them, the three row-statistics arrays as the write-backs leave them. -/
theorem exit_v21 : exitVal m c (Proc.devRef .tc main_v21) = V m c main_v21 := exitVal_rest m c main_v21 (by decide)
theorem exit_v26 : exitVal m c (Proc.devRef .tc main_v26) = V m c main_v26 := exitVal_rest m c main_v26 (by decide)
theorem exit_v35 : exitVal m c (Proc.devRef .tc main_v35) = V m c main_v35 := exitVal_rest m c main_v35 (by decide)
theorem exit_v37 : exitVal m c (Proc.devRef .tc main_v37) = V m c main_v37 := exitVal_rest m c main_v37 (by decide)
theorem exit_arg4 : exitVal m c (Proc.devRef .tc main_arg4) = m ((c.tc : Thread nD τ).loc main_arg4) :=
  (exitVal_rest m c main_arg4 (by decide)).trans (V_main_arg4 m c)
theorem exit_arg5 : exitVal m c (Proc.devRef .tc main_arg5) = m ((c.tc : Thread nD τ).loc main_arg5) :=
  (exitVal_rest m c main_arg5 (by decide)).trans (V_main_arg5 m c)
theorem exit_M2 : exitVal m c (Proc.devRef .tc main_v44_1) = (dats m 0 c).arrAt 6 cfg0.N := exitVal_arr m c 6
theorem exit_L2 : exitVal m c (Proc.devRef .tc main_v44_2) = (dats m 0 c).arrAt 7 cfg0.N := exitVal_arr m c 7
theorem exit_S2 : exitVal m c (Proc.devRef .tc main_v44_3) = (dats m 0 c).arrAt 8 cfg0.N := exitVal_arr m c 8

/-- THE FIRST LOSS OF THE TWO PROGRAMS AGREES: from memories agreeing on the six arguments, under the precondition, the
    reference's first result is the streaming program's first result. -/
theorem first_loss
    (m' : (ℓ : Loc Cert.ReferenceIdeal.nD Cert.ReferenceIdeal.τ Cert.ReferenceIdeal.sig) → Buf (Elt Ideal) ℓ)
    (hpre : FromPre.PreAt m c)
    (hagree :
      m' ((c.tc : Thread Cert.ReferenceIdeal.nD Cert.ReferenceIdeal.τ).loc Cert.ReferenceIdeal.main_arg0) = m ((c.tc : Thread nD τ).loc main_arg0)
      ∧ m' ((c.tc : Thread Cert.ReferenceIdeal.nD Cert.ReferenceIdeal.τ).loc Cert.ReferenceIdeal.main_arg1) = m ((c.tc : Thread nD τ).loc main_arg1)
      ∧ m' ((c.tc : Thread Cert.ReferenceIdeal.nD Cert.ReferenceIdeal.τ).loc Cert.ReferenceIdeal.main_arg2) = m ((c.tc : Thread nD τ).loc main_arg2)
      ∧ m' ((c.tc : Thread Cert.ReferenceIdeal.nD Cert.ReferenceIdeal.τ).loc Cert.ReferenceIdeal.main_arg3) = m ((c.tc : Thread nD τ).loc main_arg3)
      ∧ m' ((c.tc : Thread Cert.ReferenceIdeal.nD Cert.ReferenceIdeal.τ).loc Cert.ReferenceIdeal.main_arg4) = m ((c.tc : Thread nD τ).loc main_arg4)
      ∧ m' ((c.tc : Thread Cert.ReferenceIdeal.nD Cert.ReferenceIdeal.τ).loc Cert.ReferenceIdeal.main_arg5) = m ((c.tc : Thread nD τ).loc main_arg5)) :
    Cert.ReferenceIdeal.Read.val_main_v46 (F := Ideal) (m' ((c.tc : Thread Cert.ReferenceIdeal.nD Cert.ReferenceIdeal.τ).loc Cert.ReferenceIdeal.main_arg0)) (m' ((c.tc : Thread Cert.ReferenceIdeal.nD Cert.ReferenceIdeal.τ).loc Cert.ReferenceIdeal.main_arg2)) (m' ((c.tc : Thread Cert.ReferenceIdeal.nD Cert.ReferenceIdeal.τ).loc Cert.ReferenceIdeal.main_arg3)) (m' ((c.tc : Thread Cert.ReferenceIdeal.nD Cert.ReferenceIdeal.τ).loc Cert.ReferenceIdeal.main_arg4)) (m' ((c.tc : Thread Cert.ReferenceIdeal.nD Cert.ReferenceIdeal.τ).loc Cert.ReferenceIdeal.main_arg5)) = resK m c main_v94 := by
  obtain ⟨X0, X1, X2, Q, h0, h1, h2, h3, hr⟩ := FromPre.data_of_pre m c hpre
  obtain ⟨a0, a1, a2, a3, a4, a5⟩ := hagree
  choose mr hM hL hS using fun (k : Fin 2) (b : Fin 1024) => FromPre.region_out' m c X0 Q h0 h3 k b
  have hker : resK m c main_v94 = TailVal.res_v94 (exitVal m c) :=
    (resK_eq m c main_v94).trans (TailVal.tail_v94 (exitVal m c))
  rw [a0, a2, a3, a4, a5, hker]
  funext i
  obtain rfl : i = ix0 := eq_ix0 i
  unfold TailVal.res_v94
  rw [TailVal.v94_row]
  refine first_loss_core _ _ _ _ _ X0 X2 Q h0 h2 h3 (RegionVal.half 0) (RegionVal.half 1)
    (fun i => by show 0 * 32768 + i.val = i.val; omega)
    (fun i => by show 1 * 32768 + i.val = 32768 + i.val; omega)
    _
    (fun b => exitVal m c (Proc.devRef .tc main_v21) (ix2 b (0 : Fin 1)))
    (fun b => exitVal m c (Proc.devRef .tc main_v26) (ix2 b (0 : Fin 1)))
    (fun b => exitVal m c (Proc.devRef .tc main_v35) (ix2 b (0 : Fin 1)))
    (fun b => exitVal m c (Proc.devRef .tc main_v37) (ix2 b (0 : Fin 1)))
    (fun b => exitVal m c (Proc.devRef .tc main_v44_1) (ix3 (0 : Fin 2) b (0 : Fin 1)))
    (fun b => exitVal m c (Proc.devRef .tc main_v44_1) (ix3 (1 : Fin 2) b (0 : Fin 1)))
    (fun b => exitVal m c (Proc.devRef .tc main_v44_2) (ix3 (0 : Fin 2) b (0 : Fin 1)))
    (fun b => exitVal m c (Proc.devRef .tc main_v44_2) (ix3 (1 : Fin 2) b (0 : Fin 1)))
    (fun b => exitVal m c (Proc.devRef .tc main_v44_3) (ix3 (0 : Fin 2) b (0 : Fin 1)))
    (fun b => exitVal m c (Proc.devRef .tc main_v44_3) (ix3 (1 : Fin 2) b (0 : Fin 1)))
    (fun b => TailVal.cq (exitVal m c (Proc.devRef .tc main_arg4))
      (TailVal.n_v80 (exitVal m c (Proc.devRef .tc main_arg5))) b)
    (fun b => TailVal.mc (exitVal m c (Proc.devRef .tc main_v44_1)) b)
    (fun b => TailVal.lc (exitVal m c (Proc.devRef .tc main_v44_1)) (exitVal m c (Proc.devRef .tc main_v44_2)) b)
    (fun b => TailVal.fm (exitVal m c (Proc.devRef .tc main_v44_1)) (exitVal m c (Proc.devRef .tc main_v21)) b)
    (fun b => TailVal.fl (exitVal m c (Proc.devRef .tc main_v44_1)) (exitVal m c (Proc.devRef .tc main_v44_2))
      (exitVal m c (Proc.devRef .tc main_v21)) (exitVal m c (Proc.devRef .tc main_v26)) b)
    (fun b => HeadVal.m0r (Spec.P1 X0 X2) temp b) (mr 0) (mr 1)
    (fun b => rfl) ?hm0 ?hl0 ?hs0 ?hcb ?hm_0 ?hl_0 ?hs_0 ?hm_1 ?hl_1 ?hs_1 ?hcq
    (fun b => rfl) (fun b => rfl) (fun b => rfl) (fun b => rfl)
  case hm0 => intro b; show exitVal m c (Proc.devRef .tc main_v21) (ix2 b (0 : Fin 1)) = _; rw [exit_v21]; exact HeadVal.V_v21_coe m c h0 h2 b
  case hl0 => intro b; show exitVal m c (Proc.devRef .tc main_v26) (ix2 b (0 : Fin 1)) = _; rw [exit_v26]; exact HeadVal.V_v26_coe m c h0 h2 b
  case hs0 => intro b; show exitVal m c (Proc.devRef .tc main_v35) (ix2 b (0 : Fin 1)) = _; rw [exit_v35]; exact HeadVal.V_v35_coe m c h0 h2 b
  case hcb => intro b; show exitVal m c (Proc.devRef .tc main_v37) (ix2 b (0 : Fin 1)) = _; rw [exit_v37]; exact HeadVal.V_v37_coe m c b
  case hm_0 => intro b; show exitVal m c (Proc.devRef .tc main_v44_1) (ix3 (0 : Fin 2) b (0 : Fin 1)) = _; rw [exit_M2]; exact hM 0 b
  case hl_0 => intro b; show exitVal m c (Proc.devRef .tc main_v44_2) (ix3 (0 : Fin 2) b (0 : Fin 1)) = _; rw [exit_L2]; exact hL 0 b
  case hs_0 => intro b; show exitVal m c (Proc.devRef .tc main_v44_3) (ix3 (0 : Fin 2) b (0 : Fin 1)) = _; rw [exit_S2]; exact hS 0 b
  case hm_1 => intro b; show exitVal m c (Proc.devRef .tc main_v44_1) (ix3 (1 : Fin 2) b (0 : Fin 1)) = _; rw [exit_M2]; exact hM 1 b
  case hl_1 => intro b; show exitVal m c (Proc.devRef .tc main_v44_2) (ix3 (1 : Fin 2) b (0 : Fin 1)) = _; rw [exit_L2]; exact hL 1 b
  case hs_1 => intro b; show exitVal m c (Proc.devRef .tc main_v44_3) (ix3 (1 : Fin 2) b (0 : Fin 1)) = _; rw [exit_S2]; exact hS 1 b
  case hcq =>
    intro b
    show TailVal.cq (exitVal m c (Proc.devRef .tc main_arg4)) (TailVal.n_v80 (exitVal m c (Proc.devRef .tc main_arg5))) b = _
    rw [exit_arg4, exit_arg5]
    exact TailVal.cq_real _ _ b (hr b).1 (hr b).2

end Final

end Cert.Bridge1

end
-- ==== Proof.GsumBridge.lean ====
/-
  The two programs' per-organisation sums of the queue's columns agree. The kernel's tail adds the
  two per-core arrays of the region's first output and transposes the sum; the reference scatters
  the transposed queue's rows into the organisations' rows. Read at (organisation o, coordinate e)
  both are the sum over the 65536 queue columns j of Q e j where column j's organisation word is
  o's: the kernel's as the sum of its two halves of 32768 columns.
-/
import proofs.«405218_j60748017434937_2_alg».proof.Proof.Gen.KernelIdeal
import proofs.«405218_j60748017434937_2_alg».proof.Proof.Gen.ReferenceIdeal
import Idealize.ShloMosaic.Lib.Pipeline.Value
import Idealize.ShloMosaic.Lib.ValueIdx
import Idealize.ShloMosaic.Lib.IdealHost
import Idealize.ShloMosaic.PureOps.Ideal.Laws
import proofs.«405218_j60748017434937_2_alg».proof.Proof.LibOnlineLse
import proofs.«405218_j60748017434937_2_alg».proof.Proof.LibWords
import proofs.«405218_j60748017434937_2_alg».proof.Proof.LibRowGlue

noncomputable section

namespace Cert.GsumBridge

open Cert.KernelIdeal Cert.KernelIdeal.Gen
open Idealize.ShloMosaic Idealize.ShloMosaic.ValueIdx
open Cert.LibOnlineLse Cert.LibWords Cert.LibRowGlue
open scoped BigOperators

/-! ### B1. The kernel's array read at an index -/

/-- The kernel's array at (o, e): the initial value plus the two per-core entries at (e, o). The
    transpose swaps the coordinates and the sum over the leading axis of size two has two terms. -/
theorem gsumK_apply (G2 : FVec Ideal S2x128x2048 .f32) (z : FVec Ideal S_ .f32)
    (hr : S2x128x2048.ReducesTo [0] S128x2048) (hu : 0 < S_.numel)
    (ht : S128x2048.Transposes [1, 0] S2048x128) (o : Fin 2048) (e : Fin 128) :
    transpose S2048x128 [1, 0] (Host.reduceAdd G2 z hr hu) ht (ix2 o e)
      = z (Shape.Idx.first hu) + (G2 (ix3 (0 : Fin 2) e o) + G2 (ix3 (1 : Fin 2) e o)) := by
  rw [transpose_apply [1, 0] (Host.reduceAdd G2 z hr hu) ht (ix2 o e) (ix2 e o)
    (fun b => match b with | ⟨0, _⟩ => rfl | ⟨1, _⟩ => rfl)]
  rw [hostReduceAdd_apply, Ideal.hostReduceAdd_single hr (by decide)]
  refine congrArg (_ + ·) ?_
  refine (Fin.sum_univ_two _).trans ?_
  refine congrArg₂ (· + ·) ?_ ?_
  · exact congrArg G2 (funext fun a => Fin.ext (by
      match a with | ⟨0, _⟩ => rfl | ⟨1, _⟩ => rfl | ⟨2, _⟩ => rfl))
  · exact congrArg G2 (funext fun a => Fin.ext (by
      match a with | ⟨0, _⟩ => rfl | ⟨1, _⟩ => rfl | ⟨2, _⟩ => rfl))

/-- The zero word's constant scalar reads zero. -/
theorem const_zero_first (hu : 0 < S_.numel) :
    (constant S_ .f32 0x00000000#32 : FVec Ideal S_ .f32) (Shape.Idx.first hu) = 0 :=
  floatOps_ofBits_zero

/-- The kernel's array at (o, e) with the zero word as the initial value: the sum of the two
    per-core entries. -/
theorem gsumK_apply_zero (G2 : FVec Ideal S2x128x2048 .f32)
    (hr : S2x128x2048.ReducesTo [0] S128x2048) (hu : 0 < S_.numel)
    (ht : S128x2048.Transposes [1, 0] S2048x128) (o : Fin 2048) (e : Fin 128) :
    transpose S2048x128 [1, 0]
        (Host.reduceAdd G2 (constant S_ .f32 0x00000000#32 : FVec Ideal S_ .f32) hr hu) ht (ix2 o e)
      = G2 (ix3 (0 : Fin 2) e o) + G2 (ix3 (1 : Fin 2) e o) := by
  rw [gsumK_apply, const_zero_first, zero_add]

/-! ### B2. The two halves of the queue -/

/-- A sum over the 65536 queue columns is the sum over its first 32768 plus the sum over its last
    32768. -/
theorem sum_halves {M : Type*} [AddCommMonoid M] (F : Fin 65536 → M) :
    (∑ i : Fin 32768, F ⟨i.val, by have := i.isLt; omega⟩)
        + ∑ i : Fin 32768, F ⟨32768 + i.val, by have := i.isLt; omega⟩
      = ∑ j : Fin 65536, F j :=
  (sum_split 32768 32768 rfl F).symm

/-- The same with the halves addressed as core k's columns k · 32768 + i, k = 0, 1. -/
theorem sum_halves_core {M : Type*} [AddCommMonoid M] (F : Fin 65536 → M) :
    (∑ i : Fin 32768, F ⟨(0 : Fin 2).val * 32768 + i.val, by have := i.isLt; simp; omega⟩)
        + ∑ i : Fin 32768, F ⟨(1 : Fin 2).val * 32768 + i.val, by have := i.isLt; simp; omega⟩
      = ∑ j : Fin 65536, F j := by
  rw [← sum_halves F]
  refine congrArg₂ (· + ·) (Finset.sum_congr rfl fun i _ => congrArg F (Fin.ext ?_))
    (Finset.sum_congr rfl fun i _ => congrArg F (Fin.ext ?_))
  · simp
  · simp

/-! ### B3. The two arrays are equal -/

/-- The kernel's array of per-organisation sums equals any array that reads, at (o, e), the sum
    over all queue columns of organisation o of Q e: given that core k's output reads the sum
    over its half of the columns. -/
theorem gsum_agree (G2 : FVec Ideal S2x128x2048 .f32) (z : FVec Ideal S_ .f32)
    (hr : S2x128x2048.ReducesTo [0] S128x2048) (hu : 0 < S_.numel)
    (ht : S128x2048.Transposes [1, 0] S2048x128) (hz : z (Shape.Idx.first hu) = 0)
    (R : FVec Ideal S2048x128 .f32) (Q : Fin 128 → Fin 65536 → ℝ) (qi : Fin 65536 → BitVec 32)
    (hG2 : ∀ (k : Fin 2) (e : Fin 128) (o : Fin 2048), G2 (ix3 k e o)
      = ((∑ i : Fin 32768,
            Q e ⟨k.val * 32768 + i.val, by have := k.isLt; have := i.isLt; omega⟩
              * (if qi ⟨k.val * 32768 + i.val, by have := k.isLt; have := i.isLt; omega⟩
                    = BitVec.ofNat 32 o.val then (1 : ℝ) else 0) : ℝ) : EReal))
    (hR : ∀ (o : Fin 2048) (e : Fin 128), R (ix2 o e)
      = ((∑ j : Fin 65536, Q e j * (if qi j = BitVec.ofNat 32 o.val then (1 : ℝ) else 0) : ℝ)
          : EReal)) :
    transpose S2048x128 [1, 0] (Host.reduceAdd G2 z hr hu) ht = R := by
  funext i
  obtain ⟨o, e, rfl⟩ : ∃ (o : Fin 2048) (e : Fin 128), i = ix2 o e := ⟨i 0, i 1, eq_ix2 i⟩
  rw [gsumK_apply G2 z hr hu ht o e, hz, zero_add, hG2, hG2, hR, coe_add]
  exact congrArg _ (sum_halves_core
    (fun j => Q e j * (if qi j = BitVec.ofNat 32 o.val then (1 : ℝ) else 0)))

/-- The same with the zero word's constant as the initial value of the kernel's sum. -/
theorem gsum_agree_zero (G2 : FVec Ideal S2x128x2048 .f32)
    (hr : S2x128x2048.ReducesTo [0] S128x2048) (hu : 0 < S_.numel)
    (ht : S128x2048.Transposes [1, 0] S2048x128)
    (R : FVec Ideal S2048x128 .f32) (Q : Fin 128 → Fin 65536 → ℝ) (qi : Fin 65536 → BitVec 32)
    (hG2 : ∀ (k : Fin 2) (e : Fin 128) (o : Fin 2048), G2 (ix3 k e o)
      = ((∑ i : Fin 32768,
            Q e ⟨k.val * 32768 + i.val, by have := k.isLt; have := i.isLt; omega⟩
              * (if qi ⟨k.val * 32768 + i.val, by have := k.isLt; have := i.isLt; omega⟩
                    = BitVec.ofNat 32 o.val then (1 : ℝ) else 0) : ℝ) : EReal))
    (hR : ∀ (o : Fin 2048) (e : Fin 128), R (ix2 o e)
      = ((∑ j : Fin 65536, Q e j * (if qi j = BitVec.ofNat 32 o.val then (1 : ℝ) else 0) : ℝ)
          : EReal)) :
    transpose S2048x128 [1, 0]
        (Host.reduceAdd G2 (constant S_ .f32 0x00000000#32 : FVec Ideal S_ .f32) hr hu) ht = R :=
  gsum_agree G2 _ hr hu ht (const_zero_first hu) R Q qi hG2 hR

/-- The same with the reference's array spelled as its scatter of the rows U at the words I into
    the array A: the kernel's transposed sum equals the reference's scatter. -/
theorem gsum_agree_scatter (G2 : FVec Ideal S2x128x2048 .f32)
    (hr : S2x128x2048.ReducesTo [0] S128x2048) (hu : 0 < S_.numel)
    (ht : S128x2048.Transposes [1, 0] S2048x128)
    (A : FVec Ideal Cert.ReferenceIdeal.S2048x128 .f32)
    (I : IVec Cert.ReferenceIdeal.S65536x1 32)
    (U : FVec Ideal Cert.ReferenceIdeal.S65536x128 .f32)
    (Q : Fin 128 → Fin 65536 → ℝ) (qi : Fin 65536 → BitVec 32)
    (hG2 : ∀ (k : Fin 2) (e : Fin 128) (o : Fin 2048), G2 (ix3 k e o)
      = ((∑ i : Fin 32768,
            Q e ⟨k.val * 32768 + i.val, by have := k.isLt; have := i.isLt; omega⟩
              * (if qi ⟨k.val * 32768 + i.val, by have := k.isLt; have := i.isLt; omega⟩
                    = BitVec.ofNat 32 o.val then (1 : ℝ) else 0) : ℝ) : EReal))
    (hR : ∀ (o : Fin 2048) (e : Fin 128),
      Host.scatterAdd Cert.ReferenceIdeal.scatter_S2048x128_S65536x1_S65536x128_1_0_0_1 A I U
          (ix2 o e)
        = ((∑ j : Fin 65536, Q e j * (if qi j = BitVec.ofNat 32 o.val then (1 : ℝ) else 0) : ℝ)
            : EReal)) :
    transpose S2048x128 [1, 0]
        (Host.reduceAdd G2 (constant S_ .f32 0x00000000#32 : FVec Ideal S_ .f32) hr hu) ht
      = Host.scatterAdd Cert.ReferenceIdeal.scatter_S2048x128_S65536x1_S65536x128_1_0_0_1 A I U :=
  gsum_agree_zero G2 hr hu ht _ Q qi hG2 hR

end Cert.GsumBridge

end
-- ==== Proof.RefGsum.lean ====
/-
  The reference's per-organisation sums and counts, read at an index.

  The reference forms gsum = segment_sum(Qᵀ, qi, 2048) and gcnt = segment_sum(ones, qi, 2048) as scatter-adds into
  zeros: update (j, e') of the transposed queue lands on row "the word qi j read signed" and column e' of the
  [2048, 128] operand, and is dropped when that row is outside [0, 2048). For o below 2048 the signed reading of a
  word is o exactly when the word is o's, so at (o, e) the scatter-add is the sum over the queue columns j of
  Q e j times the 0/1 indicator that qi j is o's word, and the count at o is the sum of the indicators. The queue is
  finite (the coercion of a real array), so both are coercions of real sums.
-/
import proofs.«405218_j60748017434937_2_alg».proof.Proof.RefStages
import proofs.«405218_j60748017434937_2_alg».proof.Proof.LibWords
import Idealize.ShloMosaic.Lib.ValueIdx
import Idealize.ShloMosaic.Lib.Pipeline.Value
import Idealize.ShloMosaic.PureOps.Ideal.Laws

noncomputable section

namespace Cert.RefGsum

open Cert.ReferenceIdeal Cert.ReferenceIdeal.Gen Idealize.ShloMosaic Idealize.ShloMosaic.ValueIdx
open Cert.LibWords Cert.LibOnlineLse
open scoped BigOperators

/-- A rank-1 index set is its coordinate's range … -/
def idxEquiv1 {n : Nat} : (⟨1, ![n]⟩ : Shape).Idx ≃ Fin n where
  toFun i := i 0
  invFun a := ix1 a
  left_inv i := (eq_ix1 i).symm
  right_inv _ := rfl

/-- … so a sum over it is the sum over the coordinate. -/
theorem sum_idx1 {M : Type*} [AddCommMonoid M] {n : Nat} (f : (⟨1, ![n]⟩ : Shape).Idx → M) :
    ∑ i, f i = ∑ a : Fin n, f (ix1 a) := by
  rw [← Equiv.sum_comp (idxEquiv1 (n := n)).symm f]
  rfl

/-! ### Where an update lands -/

/-- A 32-bit word read signed is a number below 2048 exactly when it is that number's word. -/
theorem toInt_eq_iff (x : BitVec 32) (o : Fin 2048) :
    x.toInt = (o.val : Int) ↔ x = BitVec.ofNat 32 o.val := by
  have ho := o.isLt
  have hx := x.isLt
  rw [BitVec.toInt_eq_toNat_cond]
  constructor
  · intro h
    apply BitVec.eq_of_toNat_eq
    rw [BitVec.toNat_ofNat]
    split at h <;> omega
  · rintro rfl
    rw [BitVec.toNat_ofNat]
    split <;> omega

abbrev dG : ScatterDims S2048x128 S65536x1 S65536x128 := scatter_S2048x128_S65536x1_S65536x128_1_0_0_1

/-- Where update (j, e') of the per-organisation sums lands: row = the word of column j read signed, column e'. -/
theorem dG_start0 (j : Fin 65536) (e' : Fin 128) (idx : IVec S65536x1 32) :
    dG.start (ix2 j e') idx (0 : Fin 2) = (idx (ix2 j (0 : Fin 1))).toInt := by
  unfold ScatterDims.start
  rw [dif_pos (show (0 : Fin S2048x128.rank) ∈ dG.scatterDimsToOperandDims from List.mem_singleton.2 rfl)]
  refine congrArg (fun i => (idx i).toInt) (funext fun b => Fin.ext ?_)
  match b with
  | ⟨0, _⟩ => rfl
  | ⟨1, _⟩ => rfl

theorem dG_start1 (j : Fin 65536) (e' : Fin 128) (idx : IVec S65536x1 32) :
    dG.start (ix2 j e') idx (1 : Fin 2) = 0 := by
  unfold ScatterDims.start
  rw [dif_neg (show ¬ (1 : Fin S2048x128.rank) ∈ dG.scatterDimsToOperandDims by decide)]

theorem dG_window0 (j : Fin 65536) (e' : Fin 128) : dG.window (ix2 j e') (0 : Fin 2) = 0 := by
  unfold ScatterDims.window
  rw [dif_neg (show ¬ (0 : Fin S2048x128.rank) ∈ dG.sKept by decide)]

theorem dG_window1 (j : Fin 65536) (e' : Fin 128) : dG.window (ix2 j e') (1 : Fin 2) = e'.val := by
  unfold ScatterDims.window
  rw [dif_pos (show (1 : Fin S2048x128.rank) ∈ dG.sKept by decide)]
  rfl

theorem dG_resultIdx_iff (j : Fin 65536) (e' : Fin 128) (idx : IVec S65536x1 32) (o : Fin 2048) (e : Fin 128) :
    dG.resultIdx? (ix2 j e') idx = some (ix2 o e)
      ↔ (idx (ix2 j (0 : Fin 1))).toInt = (o.val : Int) ∧ e' = e := by
  have h0 := dG_start0 j e' idx
  have h1 := dG_start1 j e' idx
  have w0 := dG_window0 j e'
  have w1 := dG_window1 j e'
  have ho := o.isLt
  have he := e'.isLt
  unfold ScatterDims.resultIdx?
  split
  · next h =>
    rw [Option.some_inj]
    constructor
    · intro hf
      have f0 := congrArg (fun f : S2048x128.Idx => (f 0).val) hf
      have f1 := congrArg (fun f : S2048x128.Idx => (f 1).val) hf
      simp only [h0, h1, w0, w1] at f0 f1
      have g0 := (h 0).1
      rw [h0, w0] at g0
      refine ⟨?_, Fin.ext ?_⟩
      · show (idx (ix2 j 0)).toInt = (o.val : Int)
        have : ((ix2 o e : S2048x128.Idx) 0).val = o.val := rfl
        omega
      · have : ((ix2 o e : S2048x128.Idx) 1).val = e.val := rfl
        omega
    · rintro ⟨hi, rfl⟩
      funext a
      apply Fin.ext
      match a with
      | ⟨0, _⟩ => show (dG.start (ix2 j e') idx 0 + (dG.window (ix2 j e') 0 : Int)).toNat = o.val; rw [h0, w0, hi]; simp
      | ⟨1, _⟩ => show (dG.start (ix2 j e') idx 1 + (dG.window (ix2 j e') 1 : Int)).toNat = e'.val; rw [h1, w1]; simp
  · next h =>
    constructor
    · intro hn; exact absurd hn (by simp)
    · rintro ⟨hi, rfl⟩
      exfalso
      apply h
      intro a
      match a with
      | ⟨0, _⟩ =>
        show 0 ≤ dG.start (ix2 j e') idx 0 + (dG.window (ix2 j e') 0 : Int) ∧ dG.start (ix2 j e') idx 0 + (dG.window (ix2 j e') 0 : Int) < (2048 : Nat)
        rw [h0, w0, hi]; omega
      | ⟨1, _⟩ =>
        show 0 ≤ dG.start (ix2 j e') idx 1 + (dG.window (ix2 j e') 1 : Int) ∧ dG.start (ix2 j e') idx 1 + (dG.window (ix2 j e') 1 : Int) < (128 : Nat)
        rw [h1, w1]; omega

abbrev dC : ScatterDims S2048 S65536x1 S65536 := scatter_S2048_S65536x1_S65536_n_0_0_1

/-- Where update j of the per-organisation counts lands: the word of column j read signed. -/
theorem dC_start0 (j : Fin 65536) (idx : IVec S65536x1 32) :
    dC.start (ix1 j) idx (0 : Fin 1) = (idx (ix2 j (0 : Fin 1))).toInt := by
  unfold ScatterDims.start
  rw [dif_pos (show (0 : Fin S2048.rank) ∈ dC.scatterDimsToOperandDims from List.mem_singleton.2 rfl)]
  refine congrArg (fun i => (idx i).toInt) (funext fun b => Fin.ext ?_)
  match b with
  | ⟨0, _⟩ => rfl
  | ⟨1, _⟩ => rfl

theorem dC_window0 (j : Fin 65536) : dC.window (ix1 j) (0 : Fin 1) = 0 := by
  unfold ScatterDims.window
  rw [dif_neg (show ¬ (0 : Fin S2048.rank) ∈ dC.sKept by decide)]

theorem dC_resultIdx_iff (j : Fin 65536) (idx : IVec S65536x1 32) (o : Fin 2048) :
    dC.resultIdx? (ix1 j) idx = some (ix1 o) ↔ (idx (ix2 j (0 : Fin 1))).toInt = (o.val : Int) := by
  have h0 := dC_start0 j idx
  have w0 := dC_window0 j
  have ho := o.isLt
  unfold ScatterDims.resultIdx?
  split
  · next h =>
    rw [Option.some_inj]
    constructor
    · intro hf
      have f0 := congrArg (fun f : S2048.Idx => (f 0).val) hf
      simp only [h0, w0] at f0
      have g0 := (h 0).1
      rw [h0, w0] at g0
      have : ((ix1 o : S2048.Idx) 0).val = o.val := rfl
      omega
    · intro hi
      funext a
      apply Fin.ext
      match a with
      | ⟨0, _⟩ => show (dC.start (ix1 j) idx 0 + (dC.window (ix1 j) 0 : Int)).toNat = o.val; rw [h0, w0, hi]; simp
  · next h =>
    constructor
    · intro hn; exact absurd hn (by simp)
    · intro hi
      exfalso
      apply h
      intro a
      match a with
      | ⟨0, _⟩ =>
        show 0 ≤ dC.start (ix1 j) idx 0 + (dC.window (ix1 j) 0 : Int) ∧ dC.start (ix1 j) idx 0 + (dC.window (ix1 j) 0 : Int) < (2048 : Nat)
        rw [h0, w0, hi]; omega

/-! ### The two segment sums at an index -/

section
variable (x3 : FVec Ideal S128x65536 .f32) (x5 : IVec S65536 32) (Q : Fin 128 → Fin 65536 → ℝ)

/-- The scatter indices' word of column j, as the comparison with organisation o. -/
theorem idx_word_iff (j : Fin 65536) (o : Fin 2048) :
    (Read.val_main_v49 (F := Ideal) x5 (ix2 j (0 : Fin 1))).toInt = (o.val : Int)
      ↔ x5 (ix1 j) = BitVec.ofNat 32 o.val := by
  rw [Read.val_main_v49_apply, show Read.idx_main_v49 (ix2 j (0 : Fin 1)) = ix1 j from
    funext fun a => Fin.ext (by match a with | ⟨0, _⟩ => rfl)]
  exact toInt_eq_iff _ o

theorem idx_word_iff' (j : Fin 65536) (o : Fin 2048) :
    (Read.val_main_v53 (F := Ideal) x5 (ix2 j (0 : Fin 1))).toInt = (o.val : Int)
      ↔ x5 (ix1 j) = BitVec.ofNat 32 o.val := by
  rw [Read.val_main_v53_apply, show Read.idx_main_v53 (ix2 j (0 : Fin 1)) = ix1 j from
    funext fun a => Fin.ext (by match a with | ⟨0, _⟩ => rfl)]
  exact toInt_eq_iff _ o

/-- THE PER-ORGANISATION SUMS AT (o, e): the sum over the queue columns of organisation o of row e of the queue. -/
theorem gsum_at (h3 : ∀ e j, x3 (ix2 e j) = ((Q e j : ℝ) : EReal)) (o : Fin 2048) (e : Fin 128) :
    Read.val_main_v50 (F := Ideal) x3 x5 (ix2 o e)
      = ((∑ j : Fin 65536, Q e j * (if x5 (ix1 j) = BitVec.ofNat 32 o.val then (1 : ℝ) else 0) : ℝ) : EReal) := by
  unfold Read.val_main_v50
  simp only [Host.scatterAdd, Ideal.hostScatterAdd_def]
  unfold Ideal.hostScatterAdd
  rw [Read.val_main_v48_apply, Read.val_main_cst_10_apply, Ideal.ofBits_def, ofBits_zero, zero_add,
    Finset.sum_filter, sum_idx2, ← coe_sum]
  refine Finset.sum_congr rfl fun j _ => ?_
  by_cases hj : x5 (ix1 j) = BitVec.ofNat 32 o.val
  · rw [if_pos hj, mul_one]
    refine (Finset.sum_eq_single e ?_ ?_).trans ?_
    · intro e' _ hne
      rw [if_neg (fun h => hne ((dG_resultIdx_iff j e' _ o e).1 h).2)]
    · intro h; exact absurd (Finset.mem_univ e) h
    · rw [if_pos ((dG_resultIdx_iff j e _ o e).2 ⟨(idx_word_iff x5 j o).2 hj, rfl⟩), Read.val_main_v47_apply,
        show Read.idx_main_v47 (ix2 j e) = ix2 e j from
          funext fun a => Fin.ext (by match a with | ⟨0, _⟩ => rfl | ⟨1, _⟩ => rfl),
        h3]
  · rw [if_neg hj, mul_zero]
    refine (Finset.sum_eq_zero fun e' _ => ?_).trans EReal.coe_zero.symm
    rw [if_neg (fun h => hj ((idx_word_iff x5 j o).1 ((dG_resultIdx_iff j e' _ o e).1 h).1))]

/-- THE PER-ORGANISATION COUNTS AT o: the number of queue columns of organisation o. -/
theorem gcnt_at (o : Fin 2048) :
    Read.val_main_v54 (F := Ideal) x5 (ix1 o)
      = ((∑ j : Fin 65536, (if x5 (ix1 j) = BitVec.ofNat 32 o.val then (1 : ℝ) else 0) : ℝ) : EReal) := by
  unfold Read.val_main_v54
  simp only [Host.scatterAdd, Ideal.hostScatterAdd_def]
  unfold Ideal.hostScatterAdd
  rw [Read.val_main_v52_apply, Read.val_main_cst_12_apply, Ideal.ofBits_def, ofBits_zero, zero_add,
    Finset.sum_filter, sum_idx1, ← coe_sum]
  refine Finset.sum_congr rfl fun j _ => ?_
  by_cases hj : x5 (ix1 j) = BitVec.ofNat 32 o.val
  · rw [if_pos hj, if_pos ((dC_resultIdx_iff j _ o).2 ((idx_word_iff' x5 j o).2 hj)), Read.val_main_v51_apply,
      Read.val_main_cst_11_apply, Ideal.ofBits_def, ofBits_one_coe]
  · rw [if_neg hj, if_neg (fun h => hj ((idx_word_iff' x5 j o).1 ((dC_resultIdx_iff j _ o).1 h)))]
    exact EReal.coe_zero.symm

end

end Cert.RefGsum

end
-- ==== Proof.KI.TailVal2.lean ====
/- The host operations after the streaming region that make the second and third results, as values: one function
  per operation, of the arrays it depends on among the normalised anchors `a`, the arguments `x1`, `x2`, `bi`, the
  per-organisation sums `g` (the two cores' partial sums added and transposed, `n_v96`) and the per-organisation counts
  `cnt` (`n_v80`); an operation that depends on none of them is written in place. From ANY buffer contents at the
  moment the tail starts, each of the two results is that function of the six arrays read there. -/
import proofs.«405218_j60748017434937_2_alg».proof.Proof.KI.TailVal
import proofs.«405218_j60748017434937_2_alg».proof.Proof.LibNary3

set_option maxRecDepth 16384

noncomputable section

namespace Cert.KernelIdeal.TailVal

open Cert.KernelIdeal Cert.KernelIdeal.Gen Cert.KernelIdeal.Hand
open Idealize.ShloMosaic Idealize.ShloMosaic.TcCoe Idealize.SL.Sem Idealize.ShloMosaic.StableHlo
open Cert.LibNary3

variable {F : FTy → Type} [FloatOps F]

/-! ## The per-organisation sums: the two cores' partial sums added, then transposed -/

def n_v95 (G2 : Vec F S2x128x2048 .f32) : Vec F S128x2048 .f32 :=
  ((fun x v => Host.reduceAdd x v reducesTo_S2x128x2048_S128x2048_d0 h_S_) : Vec F S2x128x2048 .f32 → Vec F S_ .f32 → Vec F S128x2048 .f32) G2 (constant S_ .f32 0x00000000#32)
def n_v96 (G2 : Vec F S2x128x2048 .f32) : Vec F S2048x128 .f32 :=
  ((transpose S2048x128 [1, 0] · transposes_S128x2048_S2048x128_1_0) : Vec F S128x2048 .f32 → Vec F S2048x128 .f32) (n_v95 G2)

/-! ## The operations of the second and third results -/

def n_v97 (x1 : Vec F S1024x128 .f32) : Vec F S128 .f32 :=
  ((fun x v => Host.reduceAdd x v reducesTo_S1024x128_S128_d0 h_S_) : Vec F S1024x128 .f32 → Vec F S_ .f32 → Vec F S128 .f32) x1 (constant S_ .f32 0x00000000#32)
def n_v98 (x2 : Vec F S1024x128 .f32) : Vec F S128 .f32 :=
  ((fun x v => Host.reduceAdd x v reducesTo_S1024x128_S128_d0 h_S_) : Vec F S1024x128 .f32 → Vec F S_ .f32 → Vec F S128 .f32) x2 (constant S_ .f32 0x00000000#32)
def n_v100 (bi : Vec F S1024 .i32) : Vec F S1024 .i1 :=
  (cmpi .slt : Vec F S1024 .i32 → Vec F S1024 .i32 → Vec F S1024 .i1) bi ((broadcastInDim S1024 ![] bcast_S_S1024 : Vec F S_ .i32 → Vec F S1024 .i32) (constantI S_ 32 0#32))
def n_v102 (bi : Vec F S1024 .i32) : Vec F S1024 .i32 :=
  (addi : Vec F S1024 .i32 → Vec F S1024 .i32 → Vec F S1024 .i32) bi ((broadcastInDim S1024 ![] bcast_S_S1024 : Vec F S_ .i32 → Vec F S1024 .i32) (constantI S_ 32 2048#32))
def n_v103 (bi : Vec F S1024 .i32) : Vec F S1024 .i32 :=
  (select : Vec F S1024 .i1 → Vec F S1024 .i32 → Vec F S1024 .i32 → Vec F S1024 .i32) (n_v100 bi) (n_v102 bi) bi
def n_v104 (bi : Vec F S1024 .i32) : Vec F S1024x1 .i32 :=
  (broadcastInDim S1024x1 ![0] bcast_S1024_S1024x1_0 : Vec F S1024 .i32 → Vec F S1024x1 .i32) (n_v103 bi)
def n_v105 (bi : Vec F S1024 .i32) (cnt : Vec F S2048 .f32) : Vec F S1024 .f32 :=
  ((fun x i => Host.gather gather_S2048_S1024x1_S1024_n_0_n_n_0_1_1 x i) : Vec F S2048 .f32 → Vec F S1024x1 .i32 → Vec F S1024 .f32) cnt (n_v104 bi)
def n_v107 (bi : Vec F S1024 .i32) (cnt : Vec F S2048 .f32) : Vec F S1024 .f32 :=
  (addf : Vec F S1024 .f32 → Vec F S1024 .f32 → Vec F S1024 .f32) ((broadcastInDim S1024 ![] bcast_S_S1024 : Vec F S_ .f32 → Vec F S1024 .f32) (constant S_ .f32 0x44800000#32)) (n_v105 bi cnt)
def n_v108 (bi : Vec F S1024 .i32) (cnt : Vec F S2048 .f32) : Vec F S1024x1 .f32 :=
  (broadcastInDim S1024x1 ![0] bcast_S1024_S1024x1_0 : Vec F S1024 .f32 → Vec F S1024x1 .f32) (n_v107 bi cnt)
def n_v109 (x1 : Vec F S1024x128 .f32) : Vec F S1x128 .f32 :=
  (broadcastInDim S1x128 ![1] bcast_S128_S1x128_1 : Vec F S128 .f32 → Vec F S1x128 .f32) (n_v97 x1)
def n_v111 (bi : Vec F S1024 .i32) : Vec F S1024 .i1 :=
  (cmpi .slt : Vec F S1024 .i32 → Vec F S1024 .i32 → Vec F S1024 .i1) bi ((broadcastInDim S1024 ![] bcast_S_S1024 : Vec F S_ .i32 → Vec F S1024 .i32) (constantI S_ 32 0#32))
def n_v113 (bi : Vec F S1024 .i32) : Vec F S1024 .i32 :=
  (addi : Vec F S1024 .i32 → Vec F S1024 .i32 → Vec F S1024 .i32) bi ((broadcastInDim S1024 ![] bcast_S_S1024 : Vec F S_ .i32 → Vec F S1024 .i32) (constantI S_ 32 2048#32))
def n_v114 (bi : Vec F S1024 .i32) : Vec F S1024 .i32 :=
  (select : Vec F S1024 .i1 → Vec F S1024 .i32 → Vec F S1024 .i32 → Vec F S1024 .i32) (n_v111 bi) (n_v113 bi) bi
def n_v115 (bi : Vec F S1024 .i32) : Vec F S1024x1 .i32 :=
  (broadcastInDim S1024x1 ![0] bcast_S1024_S1024x1_0 : Vec F S1024 .i32 → Vec F S1024x1 .i32) (n_v114 bi)
def n_v116 (bi : Vec F S1024 .i32) (g : Vec F S2048x128 .f32) : Vec F S1024x128 .f32 :=
  ((fun x i => Host.gather gather_S2048x128_S1024x1_S1024x128_1_0_n_n_0_1_1128 x i) : Vec F S2048x128 .f32 → Vec F S1024x1 .i32 → Vec F S1024x128 .f32) g (n_v115 bi)
def n_v117 (x1 : Vec F S1024x128 .f32) : Vec F S1024x128 .f32 :=
  (broadcastInDim S1024x128 ![0, 1] bcast_S1x128_S1024x128_0_1 : Vec F S1x128 .f32 → Vec F S1024x128 .f32) (n_v109 x1)
def n_v118 (x1 : Vec F S1024x128 .f32) (bi : Vec F S1024 .i32) (g : Vec F S2048x128 .f32) : Vec F S1024x128 .f32 :=
  (addf : Vec F S1024x128 .f32 → Vec F S1024x128 .f32 → Vec F S1024x128 .f32) (n_v117 x1) (n_v116 bi g)
def n_v119 (bi : Vec F S1024 .i32) (cnt : Vec F S2048 .f32) : Vec F S1024x128 .f32 :=
  (broadcastInDim S1024x128 ![0, 1] bcast_S1024x1_S1024x128_0_1 : Vec F S1024x1 .f32 → Vec F S1024x128 .f32) (n_v108 bi cnt)
def n_v120 (x1 : Vec F S1024x128 .f32) (bi : Vec F S1024 .i32) (g : Vec F S2048x128 .f32) (cnt : Vec F S2048 .f32) : Vec F S1024x128 .f32 :=
  (Host.divf : Vec F S1024x128 .f32 → Vec F S1024x128 .f32 → Vec F S1024x128 .f32) (n_v118 x1 bi g) (n_v119 bi cnt)
def n_v121 (x1 : Vec F S1024x128 .f32) (bi : Vec F S1024 .i32) (g : Vec F S2048x128 .f32) (cnt : Vec F S2048 .f32) : Vec F S1024x128 .f32 :=
  (mulf : Vec F S1024x128 .f32 → Vec F S1024x128 .f32 → Vec F S1024x128 .f32) (n_v120 x1 bi g cnt) (n_v120 x1 bi g cnt)
def n_v122 (x1 : Vec F S1024x128 .f32) (bi : Vec F S1024 .i32) (g : Vec F S2048x128 .f32) (cnt : Vec F S2048 .f32) : Vec F S1024 .f32 :=
  ((fun x v => Host.reduceAdd x v reducesTo_S1024x128_S1024_d1 h_S_) : Vec F S1024x128 .f32 → Vec F S_ .f32 → Vec F S1024 .f32) (n_v121 x1 bi g cnt) (constant S_ .f32 0x00000000#32)
def n_v123 (x1 : Vec F S1024x128 .f32) (bi : Vec F S1024 .i32) (g : Vec F S2048x128 .f32) (cnt : Vec F S2048 .f32) : Vec F S1024x1 .f32 :=
  (broadcastInDim S1024x1 ![0] bcast_S1024_S1024x1_0 : Vec F S1024 .f32 → Vec F S1024x1 .f32) (n_v122 x1 bi g cnt)
def n_v124 (x1 : Vec F S1024x128 .f32) (bi : Vec F S1024 .i32) (g : Vec F S2048x128 .f32) (cnt : Vec F S2048 .f32) : Vec F S1024x1 .f32 :=
  (Host.sqrt : Vec F S1024x1 .f32 → Vec F S1024x1 .f32) (n_v123 x1 bi g cnt)
def n_v126 (x1 : Vec F S1024x128 .f32) (bi : Vec F S1024 .i32) (g : Vec F S2048x128 .f32) (cnt : Vec F S2048 .f32) : Vec F S1024x1 .f32 :=
  (maximumf : Vec F S1024x1 .f32 → Vec F S1024x1 .f32 → Vec F S1024x1 .f32) (n_v124 x1 bi g cnt) ((broadcastInDim S1024x1 ![] bcast_S_S1024x1 : Vec F S_ .f32 → Vec F S1024x1 .f32) (constant S_ .f32 0x2B8CBCCC#32))
def n_v127 (x1 : Vec F S1024x128 .f32) (bi : Vec F S1024 .i32) (g : Vec F S2048x128 .f32) (cnt : Vec F S2048 .f32) : Vec F S1024x128 .f32 :=
  (broadcastInDim S1024x128 ![0, 1] bcast_S1024x1_S1024x128_0_1 : Vec F S1024x1 .f32 → Vec F S1024x128 .f32) (n_v126 x1 bi g cnt)
def n_v128 (x1 : Vec F S1024x128 .f32) (bi : Vec F S1024 .i32) (g : Vec F S2048x128 .f32) (cnt : Vec F S2048 .f32) : Vec F S1024x128 .f32 :=
  (Host.divf : Vec F S1024x128 .f32 → Vec F S1024x128 .f32 → Vec F S1024x128 .f32) (n_v120 x1 bi g cnt) (n_v127 x1 bi g cnt)
def n_v129 (x2 : Vec F S1024x128 .f32) : Vec F S1x128 .f32 :=
  (broadcastInDim S1x128 ![1] bcast_S128_S1x128_1 : Vec F S128 .f32 → Vec F S1x128 .f32) (n_v98 x2)
def n_v131 (bi : Vec F S1024 .i32) : Vec F S1024 .i1 :=
  (cmpi .slt : Vec F S1024 .i32 → Vec F S1024 .i32 → Vec F S1024 .i1) bi ((broadcastInDim S1024 ![] bcast_S_S1024 : Vec F S_ .i32 → Vec F S1024 .i32) (constantI S_ 32 0#32))
def n_v133 (bi : Vec F S1024 .i32) : Vec F S1024 .i32 :=
  (addi : Vec F S1024 .i32 → Vec F S1024 .i32 → Vec F S1024 .i32) bi ((broadcastInDim S1024 ![] bcast_S_S1024 : Vec F S_ .i32 → Vec F S1024 .i32) (constantI S_ 32 2048#32))
def n_v134 (bi : Vec F S1024 .i32) : Vec F S1024 .i32 :=
  (select : Vec F S1024 .i1 → Vec F S1024 .i32 → Vec F S1024 .i32 → Vec F S1024 .i32) (n_v131 bi) (n_v133 bi) bi
def n_v135 (bi : Vec F S1024 .i32) : Vec F S1024x1 .i32 :=
  (broadcastInDim S1024x1 ![0] bcast_S1024_S1024x1_0 : Vec F S1024 .i32 → Vec F S1024x1 .i32) (n_v134 bi)
def n_v136 (bi : Vec F S1024 .i32) (g : Vec F S2048x128 .f32) : Vec F S1024x128 .f32 :=
  ((fun x i => Host.gather gather_S2048x128_S1024x1_S1024x128_1_0_n_n_0_1_1128 x i) : Vec F S2048x128 .f32 → Vec F S1024x1 .i32 → Vec F S1024x128 .f32) g (n_v135 bi)
def n_v137 (x2 : Vec F S1024x128 .f32) : Vec F S1024x128 .f32 :=
  (broadcastInDim S1024x128 ![0, 1] bcast_S1x128_S1024x128_0_1 : Vec F S1x128 .f32 → Vec F S1024x128 .f32) (n_v129 x2)
def n_v138 (x2 : Vec F S1024x128 .f32) (bi : Vec F S1024 .i32) (g : Vec F S2048x128 .f32) : Vec F S1024x128 .f32 :=
  (addf : Vec F S1024x128 .f32 → Vec F S1024x128 .f32 → Vec F S1024x128 .f32) (n_v137 x2) (n_v136 bi g)
def n_v139 (bi : Vec F S1024 .i32) (cnt : Vec F S2048 .f32) : Vec F S1024x128 .f32 :=
  (broadcastInDim S1024x128 ![0, 1] bcast_S1024x1_S1024x128_0_1 : Vec F S1024x1 .f32 → Vec F S1024x128 .f32) (n_v108 bi cnt)
def n_v140 (x2 : Vec F S1024x128 .f32) (bi : Vec F S1024 .i32) (g : Vec F S2048x128 .f32) (cnt : Vec F S2048 .f32) : Vec F S1024x128 .f32 :=
  (Host.divf : Vec F S1024x128 .f32 → Vec F S1024x128 .f32 → Vec F S1024x128 .f32) (n_v138 x2 bi g) (n_v139 bi cnt)
def n_v141 (x2 : Vec F S1024x128 .f32) (bi : Vec F S1024 .i32) (g : Vec F S2048x128 .f32) (cnt : Vec F S2048 .f32) : Vec F S1024x128 .f32 :=
  (mulf : Vec F S1024x128 .f32 → Vec F S1024x128 .f32 → Vec F S1024x128 .f32) (n_v140 x2 bi g cnt) (n_v140 x2 bi g cnt)
def n_v142 (x2 : Vec F S1024x128 .f32) (bi : Vec F S1024 .i32) (g : Vec F S2048x128 .f32) (cnt : Vec F S2048 .f32) : Vec F S1024 .f32 :=
  ((fun x v => Host.reduceAdd x v reducesTo_S1024x128_S1024_d1 h_S_) : Vec F S1024x128 .f32 → Vec F S_ .f32 → Vec F S1024 .f32) (n_v141 x2 bi g cnt) (constant S_ .f32 0x00000000#32)
def n_v143 (x2 : Vec F S1024x128 .f32) (bi : Vec F S1024 .i32) (g : Vec F S2048x128 .f32) (cnt : Vec F S2048 .f32) : Vec F S1024x1 .f32 :=
  (broadcastInDim S1024x1 ![0] bcast_S1024_S1024x1_0 : Vec F S1024 .f32 → Vec F S1024x1 .f32) (n_v142 x2 bi g cnt)
def n_v144 (x2 : Vec F S1024x128 .f32) (bi : Vec F S1024 .i32) (g : Vec F S2048x128 .f32) (cnt : Vec F S2048 .f32) : Vec F S1024x1 .f32 :=
  (Host.sqrt : Vec F S1024x1 .f32 → Vec F S1024x1 .f32) (n_v143 x2 bi g cnt)
def n_v146 (x2 : Vec F S1024x128 .f32) (bi : Vec F S1024 .i32) (g : Vec F S2048x128 .f32) (cnt : Vec F S2048 .f32) : Vec F S1024x1 .f32 :=
  (maximumf : Vec F S1024x1 .f32 → Vec F S1024x1 .f32 → Vec F S1024x1 .f32) (n_v144 x2 bi g cnt) ((broadcastInDim S1024x1 ![] bcast_S_S1024x1 : Vec F S_ .f32 → Vec F S1024x1 .f32) (constant S_ .f32 0x2B8CBCCC#32))
def n_v147 (x2 : Vec F S1024x128 .f32) (bi : Vec F S1024 .i32) (g : Vec F S2048x128 .f32) (cnt : Vec F S2048 .f32) : Vec F S1024x128 .f32 :=
  (broadcastInDim S1024x128 ![0, 1] bcast_S1024x1_S1024x128_0_1 : Vec F S1024x1 .f32 → Vec F S1024x128 .f32) (n_v146 x2 bi g cnt)
def n_v148 (x2 : Vec F S1024x128 .f32) (bi : Vec F S1024 .i32) (g : Vec F S2048x128 .f32) (cnt : Vec F S2048 .f32) : Vec F S1024x128 .f32 :=
  (Host.divf : Vec F S1024x128 .f32 → Vec F S1024x128 .f32 → Vec F S1024x128 .f32) (n_v140 x2 bi g cnt) (n_v147 x2 bi g cnt)
def n_v149 (cnt : Vec F S2048 .f32) : Vec F S2048x1 .f32 :=
  (broadcastInDim S2048x1 ![0] bcast_S2048_S2048x1_0 : Vec F S2048 .f32 → Vec F S2048x1 .f32) cnt
def n_v150 (cnt : Vec F S2048 .f32) : Vec F S2048x128 .f32 :=
  (broadcastInDim S2048x128 ![0, 1] bcast_S2048x1_S2048x128_0_1 : Vec F S2048x1 .f32 → Vec F S2048x128 .f32) (n_v149 cnt)
def n_v151 (g : Vec F S2048x128 .f32) (cnt : Vec F S2048 .f32) : Vec F S2048x128 .f32 :=
  (Host.divf : Vec F S2048x128 .f32 → Vec F S2048x128 .f32 → Vec F S2048x128 .f32) g (n_v150 cnt)
def n_v152 (g : Vec F S2048x128 .f32) (cnt : Vec F S2048 .f32) : Vec F S2048x128 .f32 :=
  (mulf : Vec F S2048x128 .f32 → Vec F S2048x128 .f32 → Vec F S2048x128 .f32) (n_v151 g cnt) (n_v151 g cnt)
def n_v153 (g : Vec F S2048x128 .f32) (cnt : Vec F S2048 .f32) : Vec F S2048 .f32 :=
  ((fun x v => Host.reduceAdd x v reducesTo_S2048x128_S2048_d1 h_S_) : Vec F S2048x128 .f32 → Vec F S_ .f32 → Vec F S2048 .f32) (n_v152 g cnt) (constant S_ .f32 0x00000000#32)
def n_v154 (g : Vec F S2048x128 .f32) (cnt : Vec F S2048 .f32) : Vec F S2048x1 .f32 :=
  (broadcastInDim S2048x1 ![0] bcast_S2048_S2048x1_0 : Vec F S2048 .f32 → Vec F S2048x1 .f32) (n_v153 g cnt)
def n_v155 (g : Vec F S2048x128 .f32) (cnt : Vec F S2048 .f32) : Vec F S2048x1 .f32 :=
  (Host.sqrt : Vec F S2048x1 .f32 → Vec F S2048x1 .f32) (n_v154 g cnt)
def n_v157 (g : Vec F S2048x128 .f32) (cnt : Vec F S2048 .f32) : Vec F S2048x1 .f32 :=
  (maximumf : Vec F S2048x1 .f32 → Vec F S2048x1 .f32 → Vec F S2048x1 .f32) (n_v155 g cnt) ((broadcastInDim S2048x1 ![] bcast_S_S2048x1 : Vec F S_ .f32 → Vec F S2048x1 .f32) (constant S_ .f32 0x2B8CBCCC#32))
def n_v158 (g : Vec F S2048x128 .f32) (cnt : Vec F S2048 .f32) : Vec F S2048x128 .f32 :=
  (broadcastInDim S2048x128 ![0, 1] bcast_S2048x1_S2048x128_0_1 : Vec F S2048x1 .f32 → Vec F S2048x128 .f32) (n_v157 g cnt)
def n_v159 (g : Vec F S2048x128 .f32) (cnt : Vec F S2048 .f32) : Vec F S2048x128 .f32 :=
  (Host.divf : Vec F S2048x128 .f32 → Vec F S2048x128 .f32 → Vec F S2048x128 .f32) (n_v151 g cnt) (n_v158 g cnt)
def n_v161 (x1 : Vec F S1024x128 .f32) (x2 : Vec F S1024x128 .f32) (bi : Vec F S1024 .i32) (g : Vec F S2048x128 .f32) (cnt : Vec F S2048 .f32) : Vec F S2048x128 .f32 :=
  ((fun a b => concatenate S2048x128 0 [⟨S1024x128, a⟩, ⟨S1024x128, b⟩] concatenates_S1024x128_S1024x128_S2048x128_d0) : Vec F S1024x128 .f32 → Vec F S1024x128 .f32 → Vec F S2048x128 .f32) (n_v128 x1 bi g cnt) (n_v148 x2 bi g cnt)
def n_v162 (x1 : Vec F S1024x128 .f32) (x2 : Vec F S1024x128 .f32) (bi : Vec F S1024 .i32) (g : Vec F S2048x128 .f32) (cnt : Vec F S2048 .f32) : Vec F S128x2048 .f32 :=
  ((transpose S128x2048 [1, 0] · transposes_S2048x128_S128x2048_1_0) : Vec F S2048x128 .f32 → Vec F S128x2048 .f32) (n_v161 x1 x2 bi g cnt)
def n_v163 (a : Vec F S1024x128 .f32) (x1 : Vec F S1024x128 .f32) (x2 : Vec F S1024x128 .f32) (bi : Vec F S1024 .i32) (g : Vec F S2048x128 .f32) (cnt : Vec F S2048 .f32) : Vec F S1024x2048 .f32 :=
  ((fun l r => Host.dotGeneral dot_S1024x128_S128x2048_S1024x2048_1_0_0_1_n_n none l r) : Vec F S1024x128 .f32 → Vec F S128x2048 .f32 → Vec F S1024x2048 .f32) a (n_v162 x1 x2 bi g cnt)
def n_v164 (g : Vec F S2048x128 .f32) (cnt : Vec F S2048 .f32) : Vec F S128x2048 .f32 :=
  ((transpose S128x2048 [1, 0] · transposes_S2048x128_S128x2048_1_0) : Vec F S2048x128 .f32 → Vec F S128x2048 .f32) (n_v159 g cnt)
def n_v165 (a : Vec F S1024x128 .f32) (g : Vec F S2048x128 .f32) (cnt : Vec F S2048 .f32) : Vec F S1024x2048 .f32 :=
  ((fun l r => Host.dotGeneral dot_S1024x128_S128x2048_S1024x2048_1_0_0_1_n_n none l r) : Vec F S1024x128 .f32 → Vec F S128x2048 .f32 → Vec F S1024x2048 .f32) a (n_v164 g cnt)
def n_v166 (bi : Vec F S1024 .i32) : Vec F S4096 .i32 :=
  concatenate S4096 0 [⟨S1024, bi⟩, ⟨S1024, bi⟩, ⟨S2048, (iotaInDim S2048 32 0)⟩] concatenates_S1024_S1024_S2048_S4096_d0
def n_v167 (a : Vec F S1024x128 .f32) (x1 : Vec F S1024x128 .f32) (x2 : Vec F S1024x128 .f32) (bi : Vec F S1024 .i32) (g : Vec F S2048x128 .f32) (cnt : Vec F S2048 .f32) : Vec F S1024x4096 .f32 :=
  ((fun a b => concatenate S1024x4096 1 [⟨S1024x2048, a⟩, ⟨S1024x2048, b⟩] concatenates_S1024x2048_S1024x2048_S1024x4096_d1) : Vec F S1024x2048 .f32 → Vec F S1024x2048 .f32 → Vec F S1024x4096 .f32) (n_v163 a x1 x2 bi g cnt) (n_v165 a g cnt)
def n_v168 (bi : Vec F S1024 .i32) : Vec F S1024x1 .i32 :=
  (broadcastInDim S1024x1 ![0] bcast_S1024_S1024x1_0 : Vec F S1024 .i32 → Vec F S1024x1 .i32) bi
def n_v169 (bi : Vec F S1024 .i32) : Vec F S1x4096 .i32 :=
  (broadcastInDim S1x4096 ![1] bcast_S4096_S1x4096_1 : Vec F S4096 .i32 → Vec F S1x4096 .i32) (n_v166 bi)
def n_v170 (bi : Vec F S1024 .i32) : Vec F S1024x4096 .i32 :=
  (broadcastInDim S1024x4096 ![0, 1] bcast_S1024x1_S1024x4096_0_1 : Vec F S1024x1 .i32 → Vec F S1024x4096 .i32) (n_v168 bi)
def n_v171 (bi : Vec F S1024 .i32) : Vec F S1024x4096 .i32 :=
  (broadcastInDim S1024x4096 ![0, 1] bcast_S1x4096_S1024x4096_0_1 : Vec F S1x4096 .i32 → Vec F S1024x4096 .i32) (n_v169 bi)
def n_v172 (bi : Vec F S1024 .i32) : Vec F S1024x4096 .i1 :=
  (cmpi .eq : Vec F S1024x4096 .i32 → Vec F S1024x4096 .i32 → Vec F S1024x4096 .i1) (n_v170 bi) (n_v171 bi)
def n_v173 (bi : Vec F S1024 .i32) : Vec F S1024x4096 .f32 :=
  (uitofp .f32 : Vec F S1024x4096 .i1 → Vec F S1024x4096 .f32) (n_v172 bi)
def n_v174 (bi : Vec F S1024 .i32) : Vec F S1024 .f32 :=
  ((fun x v => Host.reduceAdd x v reducesTo_S1024x4096_S1024_d1 h_S_) : Vec F S1024x4096 .f32 → Vec F S_ .f32 → Vec F S1024 .f32) (n_v173 bi) (constant S_ .f32 0x00000000#32)
def n_v175 (bi : Vec F S1024 .i32) : Vec F S1024x1 .f32 :=
  (broadcastInDim S1024x1 ![0] bcast_S1024_S1024x1_0 : Vec F S1024 .f32 → Vec F S1024x1 .f32) (n_v174 bi)
def n_v176 (bi : Vec F S1024 .i32) : Vec F S1024x4096 .f32 :=
  (broadcastInDim S1024x4096 ![0, 1] bcast_S1024x1_S1024x4096_0_1 : Vec F S1024x1 .f32 → Vec F S1024x4096 .f32) (n_v175 bi)
def n_v177 (bi : Vec F S1024 .i32) : Vec F S1024x4096 .f32 :=
  (Host.divf : Vec F S1024x4096 .f32 → Vec F S1024x4096 .f32 → Vec F S1024x4096 .f32) (n_v173 bi) (n_v176 bi)
def n_v179 (a : Vec F S1024x128 .f32) (x1 : Vec F S1024x128 .f32) (x2 : Vec F S1024x128 .f32) (bi : Vec F S1024 .i32) (g : Vec F S2048x128 .f32) (cnt : Vec F S2048 .f32) : Vec F S1024x4096 .f32 :=
  (Host.divf : Vec F S1024x4096 .f32 → Vec F S1024x4096 .f32 → Vec F S1024x4096 .f32) (n_v167 a x1 x2 bi g cnt) ((broadcastInDim S1024x4096 ![] bcast_S_S1024x4096 : Vec F S_ .f32 → Vec F S1024x4096 .f32) (constant S_ .f32 0x3D8F5C29#32))
def n_call0_v0 (a : Vec F S1024x128 .f32) (x1 : Vec F S1024x128 .f32) (x2 : Vec F S1024x128 .f32) (bi : Vec F S1024 .i32) (g : Vec F S2048x128 .f32) (cnt : Vec F S2048 .f32) : Vec F S1024 .f32 :=
  ((fun x v => Host.reduce FloatOps.maximumf x v reducesTo_S1024x4096_S1024_d1 h_S_) : Vec F S1024x4096 .f32 → Vec F S_ .f32 → Vec F S1024 .f32) (n_v179 a x1 x2 bi g cnt) (constant S_ .f32 0xFF800000#32)
def n_call0_v2 (a : Vec F S1024x128 .f32) (x1 : Vec F S1024x128 .f32) (x2 : Vec F S1024x128 .f32) (bi : Vec F S1024 .i32) (g : Vec F S2048x128 .f32) (cnt : Vec F S2048 .f32) : Vec F S1024 .f32 :=
  (maximumf : Vec F S1024 .f32 → Vec F S1024 .f32 → Vec F S1024 .f32) (((broadcastInDim S1024 ![] bcast_S_S1024) : Vec F S_ .f32 → Vec F S1024 .f32) (constant S_ .f32 0xFF800000#32)) (n_call0_v0 a x1 x2 bi g cnt)
def n_call0_v3 (a : Vec F S1024x128 .f32) (x1 : Vec F S1024x128 .f32) (x2 : Vec F S1024x128 .f32) (bi : Vec F S1024 .i32) (g : Vec F S2048x128 .f32) (cnt : Vec F S2048 .f32) : Vec F S1024x1 .f32 :=
  ((broadcastInDim S1024x1 ![0] bcast_S1024_S1024x1_0) : Vec F S1024 .f32 → Vec F S1024x1 .f32) (n_call0_v2 a x1 x2 bi g cnt)
def n_call0_v4 (a : Vec F S1024x128 .f32) (x1 : Vec F S1024x128 .f32) (x2 : Vec F S1024x128 .f32) (bi : Vec F S1024 .i32) (g : Vec F S2048x128 .f32) (cnt : Vec F S2048 .f32) : Vec F S1024x4096 .f32 :=
  ((broadcastInDim S1024x4096 ![0, 1] bcast_S1024x1_S1024x4096_0_1) : Vec F S1024x1 .f32 → Vec F S1024x4096 .f32) (n_call0_v3 a x1 x2 bi g cnt)
def n_call0_v5 (a : Vec F S1024x128 .f32) (x1 : Vec F S1024x128 .f32) (x2 : Vec F S1024x128 .f32) (bi : Vec F S1024 .i32) (g : Vec F S2048x128 .f32) (cnt : Vec F S2048 .f32) : Vec F S1024x4096 .f32 :=
  (subf : Vec F S1024x4096 .f32 → Vec F S1024x4096 .f32 → Vec F S1024x4096 .f32) (n_v179 a x1 x2 bi g cnt) (n_call0_v4 a x1 x2 bi g cnt)
def n_call0_v6 (a : Vec F S1024x128 .f32) (x1 : Vec F S1024x128 .f32) (x2 : Vec F S1024x128 .f32) (bi : Vec F S1024 .i32) (g : Vec F S2048x128 .f32) (cnt : Vec F S2048 .f32) : Vec F S1024x4096 .f32 :=
  (Host.exp : Vec F S1024x4096 .f32 → Vec F S1024x4096 .f32) (n_call0_v5 a x1 x2 bi g cnt)
def n_call0_v7 (a : Vec F S1024x128 .f32) (x1 : Vec F S1024x128 .f32) (x2 : Vec F S1024x128 .f32) (bi : Vec F S1024 .i32) (g : Vec F S2048x128 .f32) (cnt : Vec F S2048 .f32) : Vec F S1024 .f32 :=
  ((fun x v => Host.reduceAdd x v reducesTo_S1024x4096_S1024_d1 h_S_) : Vec F S1024x4096 .f32 → Vec F S_ .f32 → Vec F S1024 .f32) (n_call0_v6 a x1 x2 bi g cnt) (constant S_ .f32 0x00000000#32)
def n_call0_v8 (a : Vec F S1024x128 .f32) (x1 : Vec F S1024x128 .f32) (x2 : Vec F S1024x128 .f32) (bi : Vec F S1024 .i32) (g : Vec F S2048x128 .f32) (cnt : Vec F S2048 .f32) : Vec F S1024x1 .f32 :=
  ((broadcastInDim S1024x1 ![0] bcast_S1024_S1024x1_0) : Vec F S1024 .f32 → Vec F S1024x1 .f32) (n_call0_v7 a x1 x2 bi g cnt)
def n_call0_v9 (a : Vec F S1024x128 .f32) (x1 : Vec F S1024x128 .f32) (x2 : Vec F S1024x128 .f32) (bi : Vec F S1024 .i32) (g : Vec F S2048x128 .f32) (cnt : Vec F S2048 .f32) : Vec F S1024x1 .f32 :=
  (Host.log : Vec F S1024x1 .f32 → Vec F S1024x1 .f32) (n_call0_v8 a x1 x2 bi g cnt)
def n_call0_v10 (a : Vec F S1024x128 .f32) (x1 : Vec F S1024x128 .f32) (x2 : Vec F S1024x128 .f32) (bi : Vec F S1024 .i32) (g : Vec F S2048x128 .f32) (cnt : Vec F S2048 .f32) : Vec F S1024x4096 .f32 :=
  ((broadcastInDim S1024x4096 ![0, 1] bcast_S1024x1_S1024x4096_0_1) : Vec F S1024x1 .f32 → Vec F S1024x4096 .f32) (n_call0_v9 a x1 x2 bi g cnt)
def n_v180 (a : Vec F S1024x128 .f32) (x1 : Vec F S1024x128 .f32) (x2 : Vec F S1024x128 .f32) (bi : Vec F S1024 .i32) (g : Vec F S2048x128 .f32) (cnt : Vec F S2048 .f32) : Vec F S1024x4096 .f32 :=
  (subf : Vec F S1024x4096 .f32 → Vec F S1024x4096 .f32 → Vec F S1024x4096 .f32) (n_call0_v5 a x1 x2 bi g cnt) (n_call0_v10 a x1 x2 bi g cnt)
def n_v181 (a : Vec F S1024x128 .f32) (x1 : Vec F S1024x128 .f32) (x2 : Vec F S1024x128 .f32) (bi : Vec F S1024 .i32) (g : Vec F S2048x128 .f32) (cnt : Vec F S2048 .f32) : Vec F S1024x4096 .f32 :=
  (mulf : Vec F S1024x4096 .f32 → Vec F S1024x4096 .f32 → Vec F S1024x4096 .f32) (n_v180 a x1 x2 bi g cnt) (n_v177 bi)
def n_v182 (a : Vec F S1024x128 .f32) (x1 : Vec F S1024x128 .f32) (x2 : Vec F S1024x128 .f32) (bi : Vec F S1024 .i32) (g : Vec F S2048x128 .f32) (cnt : Vec F S2048 .f32) : Vec F S1024 .f32 :=
  ((fun x v => Host.reduceAdd x v reducesTo_S1024x4096_S1024_d1 h_S_) : Vec F S1024x4096 .f32 → Vec F S_ .f32 → Vec F S1024 .f32) (n_v181 a x1 x2 bi g cnt) (constant S_ .f32 0x00000000#32)
def n_v183 (a : Vec F S1024x128 .f32) (x1 : Vec F S1024x128 .f32) (x2 : Vec F S1024x128 .f32) (bi : Vec F S1024 .i32) (g : Vec F S2048x128 .f32) (cnt : Vec F S2048 .f32) : Vec F S_ .f32 :=
  ((fun x v => Host.reduceAdd x v reducesTo_S1024_S_d0 h_S_) : Vec F S1024 .f32 → Vec F S_ .f32 → Vec F S_ .f32) (n_v182 a x1 x2 bi g cnt) (constant S_ .f32 0x00000000#32)
def n_v184 (a : Vec F S1024x128 .f32) (x1 : Vec F S1024x128 .f32) (x2 : Vec F S1024x128 .f32) (bi : Vec F S1024 .i32) (g : Vec F S2048x128 .f32) (cnt : Vec F S2048 .f32) : Vec F S_ .f32 :=
  (Host.divf : Vec F S_ .f32 → Vec F S_ .f32 → Vec F S_ .f32) (n_v183 a x1 x2 bi g cnt) (constant S_ .f32 0x44800000#32)
def n_v185 (a : Vec F S1024x128 .f32) (x1 : Vec F S1024x128 .f32) (x2 : Vec F S1024x128 .f32) (bi : Vec F S1024 .i32) (g : Vec F S2048x128 .f32) (cnt : Vec F S2048 .f32) : Vec F S_ .f32 :=
  (Host.negf : Vec F S_ .f32 → Vec F S_ .f32) (n_v184 a x1 x2 bi g cnt)
def n_v186 (x2 : Vec F S1024x128 .f32) (bi : Vec F S1024 .i32) (g : Vec F S2048x128 .f32) (cnt : Vec F S2048 .f32) : Vec F S128x1024 .f32 :=
  ((transpose S128x1024 [1, 0] · transposes_S1024x128_S128x1024_1_0) : Vec F S1024x128 .f32 → Vec F S128x1024 .f32) (n_v148 x2 bi g cnt)
def n_v187 (x1 : Vec F S1024x128 .f32) (x2 : Vec F S1024x128 .f32) (bi : Vec F S1024 .i32) (g : Vec F S2048x128 .f32) (cnt : Vec F S2048 .f32) : Vec F S1024x1024 .f32 :=
  ((fun l r => Host.dotGeneral dot_S1024x128_S128x1024_S1024x1024_1_0_0_1_n_n none l r) : Vec F S1024x128 .f32 → Vec F S128x1024 .f32 → Vec F S1024x1024 .f32) (n_v128 x1 bi g cnt) (n_v186 x2 bi g cnt)
def n_v188 (g : Vec F S2048x128 .f32) (cnt : Vec F S2048 .f32) : Vec F S128x2048 .f32 :=
  ((transpose S128x2048 [1, 0] · transposes_S2048x128_S128x2048_1_0) : Vec F S2048x128 .f32 → Vec F S128x2048 .f32) (n_v159 g cnt)
def n_v189 (x1 : Vec F S1024x128 .f32) (bi : Vec F S1024 .i32) (g : Vec F S2048x128 .f32) (cnt : Vec F S2048 .f32) : Vec F S1024x2048 .f32 :=
  ((fun l r => Host.dotGeneral dot_S1024x128_S128x2048_S1024x2048_1_0_0_1_n_n none l r) : Vec F S1024x128 .f32 → Vec F S128x2048 .f32 → Vec F S1024x2048 .f32) (n_v128 x1 bi g cnt) (n_v188 g cnt)
def n_v190 (bi : Vec F S1024 .i32) : Vec F S3072 .i32 :=
  ((fun a b => concatenate S3072 0 [⟨S1024, a⟩, ⟨S2048, b⟩] concatenates_S1024_S2048_S3072_d0) : Vec F S1024 .i32 → Vec F S2048 .i32 → Vec F S3072 .i32) bi (iotaInDim S2048 32 0)
def n_v191 (x1 : Vec F S1024x128 .f32) (x2 : Vec F S1024x128 .f32) (bi : Vec F S1024 .i32) (g : Vec F S2048x128 .f32) (cnt : Vec F S2048 .f32) : Vec F S1024x3072 .f32 :=
  ((fun a b => concatenate S1024x3072 1 [⟨S1024x1024, a⟩, ⟨S1024x2048, b⟩] concatenates_S1024x1024_S1024x2048_S1024x3072_d1) : Vec F S1024x1024 .f32 → Vec F S1024x2048 .f32 → Vec F S1024x3072 .f32) (n_v187 x1 x2 bi g cnt) (n_v189 x1 bi g cnt)
def n_v192 (bi : Vec F S1024 .i32) : Vec F S1024x1 .i32 :=
  (broadcastInDim S1024x1 ![0] bcast_S1024_S1024x1_0 : Vec F S1024 .i32 → Vec F S1024x1 .i32) bi
def n_v193 (bi : Vec F S1024 .i32) : Vec F S1x3072 .i32 :=
  (broadcastInDim S1x3072 ![1] bcast_S3072_S1x3072_1 : Vec F S3072 .i32 → Vec F S1x3072 .i32) (n_v190 bi)
def n_v194 (bi : Vec F S1024 .i32) : Vec F S1024x3072 .i32 :=
  (broadcastInDim S1024x3072 ![0, 1] bcast_S1024x1_S1024x3072_0_1 : Vec F S1024x1 .i32 → Vec F S1024x3072 .i32) (n_v192 bi)
def n_v195 (bi : Vec F S1024 .i32) : Vec F S1024x3072 .i32 :=
  (broadcastInDim S1024x3072 ![0, 1] bcast_S1x3072_S1024x3072_0_1 : Vec F S1x3072 .i32 → Vec F S1024x3072 .i32) (n_v193 bi)
def n_v196 (bi : Vec F S1024 .i32) : Vec F S1024x3072 .i1 :=
  (cmpi .eq : Vec F S1024x3072 .i32 → Vec F S1024x3072 .i32 → Vec F S1024x3072 .i1) (n_v194 bi) (n_v195 bi)
def n_v197 (bi : Vec F S1024 .i32) : Vec F S1024x3072 .f32 :=
  (uitofp .f32 : Vec F S1024x3072 .i1 → Vec F S1024x3072 .f32) (n_v196 bi)
def n_v198 (bi : Vec F S1024 .i32) : Vec F S1024 .f32 :=
  ((fun x v => Host.reduceAdd x v reducesTo_S1024x3072_S1024_d1 h_S_) : Vec F S1024x3072 .f32 → Vec F S_ .f32 → Vec F S1024 .f32) (n_v197 bi) (constant S_ .f32 0x00000000#32)
def n_v199 (bi : Vec F S1024 .i32) : Vec F S1024x1 .f32 :=
  (broadcastInDim S1024x1 ![0] bcast_S1024_S1024x1_0 : Vec F S1024 .f32 → Vec F S1024x1 .f32) (n_v198 bi)
def n_v200 (bi : Vec F S1024 .i32) : Vec F S1024x3072 .f32 :=
  (broadcastInDim S1024x3072 ![0, 1] bcast_S1024x1_S1024x3072_0_1 : Vec F S1024x1 .f32 → Vec F S1024x3072 .f32) (n_v199 bi)
def n_v201 (bi : Vec F S1024 .i32) : Vec F S1024x3072 .f32 :=
  (Host.divf : Vec F S1024x3072 .f32 → Vec F S1024x3072 .f32 → Vec F S1024x3072 .f32) (n_v197 bi) (n_v200 bi)
def n_v203 (x1 : Vec F S1024x128 .f32) (x2 : Vec F S1024x128 .f32) (bi : Vec F S1024 .i32) (g : Vec F S2048x128 .f32) (cnt : Vec F S2048 .f32) : Vec F S1024x3072 .f32 :=
  (Host.divf : Vec F S1024x3072 .f32 → Vec F S1024x3072 .f32 → Vec F S1024x3072 .f32) (n_v191 x1 x2 bi g cnt) ((broadcastInDim S1024x3072 ![] bcast_S_S1024x3072 : Vec F S_ .f32 → Vec F S1024x3072 .f32) (constant S_ .f32 0x3D8F5C29#32))
def n_call1_v0 (x1 : Vec F S1024x128 .f32) (x2 : Vec F S1024x128 .f32) (bi : Vec F S1024 .i32) (g : Vec F S2048x128 .f32) (cnt : Vec F S2048 .f32) : Vec F S1024 .f32 :=
  ((fun x v => Host.reduce FloatOps.maximumf x v reducesTo_S1024x3072_S1024_d1 h_S_) : Vec F S1024x3072 .f32 → Vec F S_ .f32 → Vec F S1024 .f32) (n_v203 x1 x2 bi g cnt) (constant S_ .f32 0xFF800000#32)
def n_call1_v2 (x1 : Vec F S1024x128 .f32) (x2 : Vec F S1024x128 .f32) (bi : Vec F S1024 .i32) (g : Vec F S2048x128 .f32) (cnt : Vec F S2048 .f32) : Vec F S1024 .f32 :=
  (maximumf : Vec F S1024 .f32 → Vec F S1024 .f32 → Vec F S1024 .f32) (((broadcastInDim S1024 ![] bcast_S_S1024) : Vec F S_ .f32 → Vec F S1024 .f32) (constant S_ .f32 0xFF800000#32)) (n_call1_v0 x1 x2 bi g cnt)
def n_call1_v3 (x1 : Vec F S1024x128 .f32) (x2 : Vec F S1024x128 .f32) (bi : Vec F S1024 .i32) (g : Vec F S2048x128 .f32) (cnt : Vec F S2048 .f32) : Vec F S1024x1 .f32 :=
  ((broadcastInDim S1024x1 ![0] bcast_S1024_S1024x1_0) : Vec F S1024 .f32 → Vec F S1024x1 .f32) (n_call1_v2 x1 x2 bi g cnt)
def n_call1_v4 (x1 : Vec F S1024x128 .f32) (x2 : Vec F S1024x128 .f32) (bi : Vec F S1024 .i32) (g : Vec F S2048x128 .f32) (cnt : Vec F S2048 .f32) : Vec F S1024x3072 .f32 :=
  ((broadcastInDim S1024x3072 ![0, 1] bcast_S1024x1_S1024x3072_0_1) : Vec F S1024x1 .f32 → Vec F S1024x3072 .f32) (n_call1_v3 x1 x2 bi g cnt)
def n_call1_v5 (x1 : Vec F S1024x128 .f32) (x2 : Vec F S1024x128 .f32) (bi : Vec F S1024 .i32) (g : Vec F S2048x128 .f32) (cnt : Vec F S2048 .f32) : Vec F S1024x3072 .f32 :=
  (subf : Vec F S1024x3072 .f32 → Vec F S1024x3072 .f32 → Vec F S1024x3072 .f32) (n_v203 x1 x2 bi g cnt) (n_call1_v4 x1 x2 bi g cnt)
def n_call1_v6 (x1 : Vec F S1024x128 .f32) (x2 : Vec F S1024x128 .f32) (bi : Vec F S1024 .i32) (g : Vec F S2048x128 .f32) (cnt : Vec F S2048 .f32) : Vec F S1024x3072 .f32 :=
  (Host.exp : Vec F S1024x3072 .f32 → Vec F S1024x3072 .f32) (n_call1_v5 x1 x2 bi g cnt)
def n_call1_v7 (x1 : Vec F S1024x128 .f32) (x2 : Vec F S1024x128 .f32) (bi : Vec F S1024 .i32) (g : Vec F S2048x128 .f32) (cnt : Vec F S2048 .f32) : Vec F S1024 .f32 :=
  ((fun x v => Host.reduceAdd x v reducesTo_S1024x3072_S1024_d1 h_S_) : Vec F S1024x3072 .f32 → Vec F S_ .f32 → Vec F S1024 .f32) (n_call1_v6 x1 x2 bi g cnt) (constant S_ .f32 0x00000000#32)
def n_call1_v8 (x1 : Vec F S1024x128 .f32) (x2 : Vec F S1024x128 .f32) (bi : Vec F S1024 .i32) (g : Vec F S2048x128 .f32) (cnt : Vec F S2048 .f32) : Vec F S1024x1 .f32 :=
  ((broadcastInDim S1024x1 ![0] bcast_S1024_S1024x1_0) : Vec F S1024 .f32 → Vec F S1024x1 .f32) (n_call1_v7 x1 x2 bi g cnt)
def n_call1_v9 (x1 : Vec F S1024x128 .f32) (x2 : Vec F S1024x128 .f32) (bi : Vec F S1024 .i32) (g : Vec F S2048x128 .f32) (cnt : Vec F S2048 .f32) : Vec F S1024x1 .f32 :=
  (Host.log : Vec F S1024x1 .f32 → Vec F S1024x1 .f32) (n_call1_v8 x1 x2 bi g cnt)
def n_call1_v10 (x1 : Vec F S1024x128 .f32) (x2 : Vec F S1024x128 .f32) (bi : Vec F S1024 .i32) (g : Vec F S2048x128 .f32) (cnt : Vec F S2048 .f32) : Vec F S1024x3072 .f32 :=
  ((broadcastInDim S1024x3072 ![0, 1] bcast_S1024x1_S1024x3072_0_1) : Vec F S1024x1 .f32 → Vec F S1024x3072 .f32) (n_call1_v9 x1 x2 bi g cnt)
def n_v204 (x1 : Vec F S1024x128 .f32) (x2 : Vec F S1024x128 .f32) (bi : Vec F S1024 .i32) (g : Vec F S2048x128 .f32) (cnt : Vec F S2048 .f32) : Vec F S1024x3072 .f32 :=
  (subf : Vec F S1024x3072 .f32 → Vec F S1024x3072 .f32 → Vec F S1024x3072 .f32) (n_call1_v5 x1 x2 bi g cnt) (n_call1_v10 x1 x2 bi g cnt)
def n_v205 (x1 : Vec F S1024x128 .f32) (x2 : Vec F S1024x128 .f32) (bi : Vec F S1024 .i32) (g : Vec F S2048x128 .f32) (cnt : Vec F S2048 .f32) : Vec F S1024x3072 .f32 :=
  (mulf : Vec F S1024x3072 .f32 → Vec F S1024x3072 .f32 → Vec F S1024x3072 .f32) (n_v204 x1 x2 bi g cnt) (n_v201 bi)
def n_v206 (x1 : Vec F S1024x128 .f32) (x2 : Vec F S1024x128 .f32) (bi : Vec F S1024 .i32) (g : Vec F S2048x128 .f32) (cnt : Vec F S2048 .f32) : Vec F S1024 .f32 :=
  ((fun x v => Host.reduceAdd x v reducesTo_S1024x3072_S1024_d1 h_S_) : Vec F S1024x3072 .f32 → Vec F S_ .f32 → Vec F S1024 .f32) (n_v205 x1 x2 bi g cnt) (constant S_ .f32 0x00000000#32)
def n_v207 (x1 : Vec F S1024x128 .f32) (x2 : Vec F S1024x128 .f32) (bi : Vec F S1024 .i32) (g : Vec F S2048x128 .f32) (cnt : Vec F S2048 .f32) : Vec F S_ .f32 :=
  ((fun x v => Host.reduceAdd x v reducesTo_S1024_S_d0 h_S_) : Vec F S1024 .f32 → Vec F S_ .f32 → Vec F S_ .f32) (n_v206 x1 x2 bi g cnt) (constant S_ .f32 0x00000000#32)
def n_v208 (x1 : Vec F S1024x128 .f32) (x2 : Vec F S1024x128 .f32) (bi : Vec F S1024 .i32) (g : Vec F S2048x128 .f32) (cnt : Vec F S2048 .f32) : Vec F S_ .f32 :=
  (Host.divf : Vec F S_ .f32 → Vec F S_ .f32 → Vec F S_ .f32) (n_v207 x1 x2 bi g cnt) (constant S_ .f32 0x44800000#32)
def n_v209 (x1 : Vec F S1024x128 .f32) (x2 : Vec F S1024x128 .f32) (bi : Vec F S1024 .i32) (g : Vec F S2048x128 .f32) (cnt : Vec F S2048 .f32) : Vec F S_ .f32 :=
  (Host.negf : Vec F S_ .f32 → Vec F S_ .f32) (n_v208 x1 x2 bi g cnt)

/-! ## The two results after the tail -/

set_option maxHeartbeats 16000000 in
theorem tail_v185 (W : Valuation τ sig (Elt F)) :
    StableHlo.after (List.flatten (tailOps (F := F))) W (Proc.devRef .tc main_v185)
      = n_v185 (W (Proc.devRef .tc main_v7)) (W (Proc.devRef .tc main_arg1)) (W (Proc.devRef .tc main_arg2)) (W (Proc.devRef .tc main_arg4)) (n_v96 (W (Proc.devRef .tc main_v44_0))) (n_v80 (W (Proc.devRef .tc main_arg5))) := by
  simp only [tailOps, List.flatten_cons, List.flatten_nil, List.append_nil, List.cons_append, List.nil_append]
  after_results_pieces
  rfl

set_option maxHeartbeats 16000000 in
theorem tail_v209 (W : Valuation τ sig (Elt F)) :
    StableHlo.after (List.flatten (tailOps (F := F))) W (Proc.devRef .tc main_v209)
      = n_v209 (W (Proc.devRef .tc main_arg1)) (W (Proc.devRef .tc main_arg2)) (W (Proc.devRef .tc main_arg4)) (n_v96 (W (Proc.devRef .tc main_v44_0))) (n_v80 (W (Proc.devRef .tc main_arg5))) := by
  simp only [tailOps, List.flatten_cons, List.flatten_nil, List.append_nil, List.cons_append, List.nil_append]
  after_results_pieces
  rfl

end Cert.KernelIdeal.TailVal

end
-- ==== Proof.ChainPairs.lean ====
/- The reference's stage functions from its first column sum of the second anchor array on are, operation by operation and in
  program order, the kernel program's tail operations at the reference's own normalised anchors, per-organisation sums and
  per-organisation counts: the two lines apply the same operation to operands already paired, and the two programs' shape and
  dimension-number records are different constants with equal bodies. -/
import proofs.«405218_j60748017434937_2_alg».proof.Proof.KI.TailVal2
import proofs.«405218_j60748017434937_2_alg».proof.Proof.RefStages

set_option maxRecDepth 16384

noncomputable section

namespace Cert.Chain

open Idealize.ShloMosaic Idealize.ShloMosaic.TcCoe Idealize.SL.Sem Idealize.ShloMosaic.StableHlo

variable {F : FTy → Type} [FloatOps F]
theorem pair_v97 (x1 : (⟨Cert.ReferenceIdeal.S1024x128, .f32⟩ : BufTy).Contents (Elt F)) :
    Cert.ReferenceIdeal.Read.val_main_v55 (F := F) x1 = Cert.KernelIdeal.TailVal.n_v97 x1 := by
  unfold Cert.ReferenceIdeal.Read.val_main_v55 Cert.KernelIdeal.TailVal.n_v97
  rfl
theorem pair_v98 (x2 : (⟨Cert.ReferenceIdeal.S1024x128, .f32⟩ : BufTy).Contents (Elt F)) :
    Cert.ReferenceIdeal.Read.val_main_v56 (F := F) x2 = Cert.KernelIdeal.TailVal.n_v98 x2 := by
  unfold Cert.ReferenceIdeal.Read.val_main_v56 Cert.KernelIdeal.TailVal.n_v98
  rfl
theorem pair_v100 (x4 : (⟨Cert.ReferenceIdeal.S1024, .i32⟩ : BufTy).Contents (Elt F)) :
    Cert.ReferenceIdeal.Read.val_main_v58 (F := F) x4 = Cert.KernelIdeal.TailVal.n_v100 x4 := by
  unfold Cert.ReferenceIdeal.Read.val_main_v58 Cert.KernelIdeal.TailVal.n_v100
  rfl
theorem pair_v102 (x4 : (⟨Cert.ReferenceIdeal.S1024, .i32⟩ : BufTy).Contents (Elt F)) :
    Cert.ReferenceIdeal.Read.val_main_v60 (F := F) x4 = Cert.KernelIdeal.TailVal.n_v102 x4 := by
  unfold Cert.ReferenceIdeal.Read.val_main_v60 Cert.KernelIdeal.TailVal.n_v102
  rfl
theorem pair_v103 (x4 : (⟨Cert.ReferenceIdeal.S1024, .i32⟩ : BufTy).Contents (Elt F)) :
    Cert.ReferenceIdeal.Read.val_main_v61 (F := F) x4 = Cert.KernelIdeal.TailVal.n_v103 x4 := by
  unfold Cert.ReferenceIdeal.Read.val_main_v61 Cert.KernelIdeal.TailVal.n_v103
  rewrite [pair_v100, pair_v102]
  rfl
theorem pair_v104 (x4 : (⟨Cert.ReferenceIdeal.S1024, .i32⟩ : BufTy).Contents (Elt F)) :
    Cert.ReferenceIdeal.Read.val_main_v62 (F := F) x4 = Cert.KernelIdeal.TailVal.n_v104 x4 := by
  unfold Cert.ReferenceIdeal.Read.val_main_v62 Cert.KernelIdeal.TailVal.n_v104
  rewrite [pair_v103]
  rfl
theorem pair_v105 (x4 : (⟨Cert.ReferenceIdeal.S1024, .i32⟩ : BufTy).Contents (Elt F)) (x5 : (⟨Cert.ReferenceIdeal.S65536, .i32⟩ : BufTy).Contents (Elt F)) :
    Cert.ReferenceIdeal.Read.val_main_v63 (F := F) x4 x5 = Cert.KernelIdeal.TailVal.n_v105 x4 (Cert.ReferenceIdeal.Read.val_main_v54 x5) := by
  unfold Cert.ReferenceIdeal.Read.val_main_v63 Cert.KernelIdeal.TailVal.n_v105
  rewrite [pair_v104]
  rfl
theorem pair_v107 (x4 : (⟨Cert.ReferenceIdeal.S1024, .i32⟩ : BufTy).Contents (Elt F)) (x5 : (⟨Cert.ReferenceIdeal.S65536, .i32⟩ : BufTy).Contents (Elt F)) :
    Cert.ReferenceIdeal.Read.val_main_v65 (F := F) x4 x5 = Cert.KernelIdeal.TailVal.n_v107 x4 (Cert.ReferenceIdeal.Read.val_main_v54 x5) := by
  unfold Cert.ReferenceIdeal.Read.val_main_v65 Cert.KernelIdeal.TailVal.n_v107
  rewrite [pair_v105]
  rfl
theorem pair_v108 (x4 : (⟨Cert.ReferenceIdeal.S1024, .i32⟩ : BufTy).Contents (Elt F)) (x5 : (⟨Cert.ReferenceIdeal.S65536, .i32⟩ : BufTy).Contents (Elt F)) :
    Cert.ReferenceIdeal.Read.val_main_v66 (F := F) x4 x5 = Cert.KernelIdeal.TailVal.n_v108 x4 (Cert.ReferenceIdeal.Read.val_main_v54 x5) := by
  unfold Cert.ReferenceIdeal.Read.val_main_v66 Cert.KernelIdeal.TailVal.n_v108
  rewrite [pair_v107]
  rfl
theorem pair_v109 (x1 : (⟨Cert.ReferenceIdeal.S1024x128, .f32⟩ : BufTy).Contents (Elt F)) :
    Cert.ReferenceIdeal.Read.val_main_v67 (F := F) x1 = Cert.KernelIdeal.TailVal.n_v109 x1 := by
  unfold Cert.ReferenceIdeal.Read.val_main_v67 Cert.KernelIdeal.TailVal.n_v109
  rewrite [pair_v97]
  rfl
theorem pair_v111 (x4 : (⟨Cert.ReferenceIdeal.S1024, .i32⟩ : BufTy).Contents (Elt F)) :
    Cert.ReferenceIdeal.Read.val_main_v69 (F := F) x4 = Cert.KernelIdeal.TailVal.n_v111 x4 := by
  unfold Cert.ReferenceIdeal.Read.val_main_v69 Cert.KernelIdeal.TailVal.n_v111
  rfl
theorem pair_v113 (x4 : (⟨Cert.ReferenceIdeal.S1024, .i32⟩ : BufTy).Contents (Elt F)) :
    Cert.ReferenceIdeal.Read.val_main_v71 (F := F) x4 = Cert.KernelIdeal.TailVal.n_v113 x4 := by
  unfold Cert.ReferenceIdeal.Read.val_main_v71 Cert.KernelIdeal.TailVal.n_v113
  rfl
theorem pair_v114 (x4 : (⟨Cert.ReferenceIdeal.S1024, .i32⟩ : BufTy).Contents (Elt F)) :
    Cert.ReferenceIdeal.Read.val_main_v72 (F := F) x4 = Cert.KernelIdeal.TailVal.n_v114 x4 := by
  unfold Cert.ReferenceIdeal.Read.val_main_v72 Cert.KernelIdeal.TailVal.n_v114
  rewrite [pair_v111, pair_v113]
  rfl
theorem pair_v115 (x4 : (⟨Cert.ReferenceIdeal.S1024, .i32⟩ : BufTy).Contents (Elt F)) :
    Cert.ReferenceIdeal.Read.val_main_v73 (F := F) x4 = Cert.KernelIdeal.TailVal.n_v115 x4 := by
  unfold Cert.ReferenceIdeal.Read.val_main_v73 Cert.KernelIdeal.TailVal.n_v115
  rewrite [pair_v114]
  rfl
theorem pair_v116 (x3 : (⟨Cert.ReferenceIdeal.S128x65536, .f32⟩ : BufTy).Contents (Elt F)) (x4 : (⟨Cert.ReferenceIdeal.S1024, .i32⟩ : BufTy).Contents (Elt F)) (x5 : (⟨Cert.ReferenceIdeal.S65536, .i32⟩ : BufTy).Contents (Elt F)) :
    Cert.ReferenceIdeal.Read.val_main_v74 (F := F) x3 x4 x5 = Cert.KernelIdeal.TailVal.n_v116 x4 (Cert.ReferenceIdeal.Read.val_main_v50 x3 x5) := by
  unfold Cert.ReferenceIdeal.Read.val_main_v74 Cert.KernelIdeal.TailVal.n_v116
  rewrite [pair_v115]
  rfl
theorem pair_v117 (x1 : (⟨Cert.ReferenceIdeal.S1024x128, .f32⟩ : BufTy).Contents (Elt F)) :
    Cert.ReferenceIdeal.Read.val_main_v75 (F := F) x1 = Cert.KernelIdeal.TailVal.n_v117 x1 := by
  unfold Cert.ReferenceIdeal.Read.val_main_v75 Cert.KernelIdeal.TailVal.n_v117
  rewrite [pair_v109]
  rfl
theorem pair_v118 (x1 : (⟨Cert.ReferenceIdeal.S1024x128, .f32⟩ : BufTy).Contents (Elt F)) (x3 : (⟨Cert.ReferenceIdeal.S128x65536, .f32⟩ : BufTy).Contents (Elt F)) (x4 : (⟨Cert.ReferenceIdeal.S1024, .i32⟩ : BufTy).Contents (Elt F)) (x5 : (⟨Cert.ReferenceIdeal.S65536, .i32⟩ : BufTy).Contents (Elt F)) :
    Cert.ReferenceIdeal.Read.val_main_v76 (F := F) x1 x3 x4 x5 = Cert.KernelIdeal.TailVal.n_v118 x1 x4 (Cert.ReferenceIdeal.Read.val_main_v50 x3 x5) := by
  unfold Cert.ReferenceIdeal.Read.val_main_v76 Cert.KernelIdeal.TailVal.n_v118
  rewrite [pair_v117, pair_v116]
  rfl
theorem pair_v119 (x4 : (⟨Cert.ReferenceIdeal.S1024, .i32⟩ : BufTy).Contents (Elt F)) (x5 : (⟨Cert.ReferenceIdeal.S65536, .i32⟩ : BufTy).Contents (Elt F)) :
    Cert.ReferenceIdeal.Read.val_main_v77 (F := F) x4 x5 = Cert.KernelIdeal.TailVal.n_v119 x4 (Cert.ReferenceIdeal.Read.val_main_v54 x5) := by
  unfold Cert.ReferenceIdeal.Read.val_main_v77 Cert.KernelIdeal.TailVal.n_v119
  rewrite [pair_v108]
  rfl
theorem pair_v120 (x1 : (⟨Cert.ReferenceIdeal.S1024x128, .f32⟩ : BufTy).Contents (Elt F)) (x3 : (⟨Cert.ReferenceIdeal.S128x65536, .f32⟩ : BufTy).Contents (Elt F)) (x4 : (⟨Cert.ReferenceIdeal.S1024, .i32⟩ : BufTy).Contents (Elt F)) (x5 : (⟨Cert.ReferenceIdeal.S65536, .i32⟩ : BufTy).Contents (Elt F)) :
    Cert.ReferenceIdeal.Read.val_main_v78 (F := F) x1 x3 x4 x5 = Cert.KernelIdeal.TailVal.n_v120 x1 x4 (Cert.ReferenceIdeal.Read.val_main_v50 x3 x5) (Cert.ReferenceIdeal.Read.val_main_v54 x5) := by
  unfold Cert.ReferenceIdeal.Read.val_main_v78 Cert.KernelIdeal.TailVal.n_v120
  rewrite [pair_v118, pair_v119]
  rfl
theorem pair_v121 (x1 : (⟨Cert.ReferenceIdeal.S1024x128, .f32⟩ : BufTy).Contents (Elt F)) (x3 : (⟨Cert.ReferenceIdeal.S128x65536, .f32⟩ : BufTy).Contents (Elt F)) (x4 : (⟨Cert.ReferenceIdeal.S1024, .i32⟩ : BufTy).Contents (Elt F)) (x5 : (⟨Cert.ReferenceIdeal.S65536, .i32⟩ : BufTy).Contents (Elt F)) :
    Cert.ReferenceIdeal.Read.val_main_v79 (F := F) x1 x3 x4 x5 = Cert.KernelIdeal.TailVal.n_v121 x1 x4 (Cert.ReferenceIdeal.Read.val_main_v50 x3 x5) (Cert.ReferenceIdeal.Read.val_main_v54 x5) := by
  unfold Cert.ReferenceIdeal.Read.val_main_v79 Cert.KernelIdeal.TailVal.n_v121
  rewrite [pair_v120]
  rfl
theorem pair_v122 (x1 : (⟨Cert.ReferenceIdeal.S1024x128, .f32⟩ : BufTy).Contents (Elt F)) (x3 : (⟨Cert.ReferenceIdeal.S128x65536, .f32⟩ : BufTy).Contents (Elt F)) (x4 : (⟨Cert.ReferenceIdeal.S1024, .i32⟩ : BufTy).Contents (Elt F)) (x5 : (⟨Cert.ReferenceIdeal.S65536, .i32⟩ : BufTy).Contents (Elt F)) :
    Cert.ReferenceIdeal.Read.val_main_v80 (F := F) x1 x3 x4 x5 = Cert.KernelIdeal.TailVal.n_v122 x1 x4 (Cert.ReferenceIdeal.Read.val_main_v50 x3 x5) (Cert.ReferenceIdeal.Read.val_main_v54 x5) := by
  unfold Cert.ReferenceIdeal.Read.val_main_v80 Cert.KernelIdeal.TailVal.n_v122
  rewrite [pair_v121]
  rfl
theorem pair_v123 (x1 : (⟨Cert.ReferenceIdeal.S1024x128, .f32⟩ : BufTy).Contents (Elt F)) (x3 : (⟨Cert.ReferenceIdeal.S128x65536, .f32⟩ : BufTy).Contents (Elt F)) (x4 : (⟨Cert.ReferenceIdeal.S1024, .i32⟩ : BufTy).Contents (Elt F)) (x5 : (⟨Cert.ReferenceIdeal.S65536, .i32⟩ : BufTy).Contents (Elt F)) :
    Cert.ReferenceIdeal.Read.val_main_v81 (F := F) x1 x3 x4 x5 = Cert.KernelIdeal.TailVal.n_v123 x1 x4 (Cert.ReferenceIdeal.Read.val_main_v50 x3 x5) (Cert.ReferenceIdeal.Read.val_main_v54 x5) := by
  unfold Cert.ReferenceIdeal.Read.val_main_v81 Cert.KernelIdeal.TailVal.n_v123
  rewrite [pair_v122]
  rfl
theorem pair_v124 (x1 : (⟨Cert.ReferenceIdeal.S1024x128, .f32⟩ : BufTy).Contents (Elt F)) (x3 : (⟨Cert.ReferenceIdeal.S128x65536, .f32⟩ : BufTy).Contents (Elt F)) (x4 : (⟨Cert.ReferenceIdeal.S1024, .i32⟩ : BufTy).Contents (Elt F)) (x5 : (⟨Cert.ReferenceIdeal.S65536, .i32⟩ : BufTy).Contents (Elt F)) :
    Cert.ReferenceIdeal.Read.val_main_v82 (F := F) x1 x3 x4 x5 = Cert.KernelIdeal.TailVal.n_v124 x1 x4 (Cert.ReferenceIdeal.Read.val_main_v50 x3 x5) (Cert.ReferenceIdeal.Read.val_main_v54 x5) := by
  unfold Cert.ReferenceIdeal.Read.val_main_v82 Cert.KernelIdeal.TailVal.n_v124
  rewrite [pair_v123]
  rfl
theorem pair_v126 (x1 : (⟨Cert.ReferenceIdeal.S1024x128, .f32⟩ : BufTy).Contents (Elt F)) (x3 : (⟨Cert.ReferenceIdeal.S128x65536, .f32⟩ : BufTy).Contents (Elt F)) (x4 : (⟨Cert.ReferenceIdeal.S1024, .i32⟩ : BufTy).Contents (Elt F)) (x5 : (⟨Cert.ReferenceIdeal.S65536, .i32⟩ : BufTy).Contents (Elt F)) :
    Cert.ReferenceIdeal.Read.val_main_v84 (F := F) x1 x3 x4 x5 = Cert.KernelIdeal.TailVal.n_v126 x1 x4 (Cert.ReferenceIdeal.Read.val_main_v50 x3 x5) (Cert.ReferenceIdeal.Read.val_main_v54 x5) := by
  unfold Cert.ReferenceIdeal.Read.val_main_v84 Cert.KernelIdeal.TailVal.n_v126
  rewrite [pair_v124]
  rfl
theorem pair_v127 (x1 : (⟨Cert.ReferenceIdeal.S1024x128, .f32⟩ : BufTy).Contents (Elt F)) (x3 : (⟨Cert.ReferenceIdeal.S128x65536, .f32⟩ : BufTy).Contents (Elt F)) (x4 : (⟨Cert.ReferenceIdeal.S1024, .i32⟩ : BufTy).Contents (Elt F)) (x5 : (⟨Cert.ReferenceIdeal.S65536, .i32⟩ : BufTy).Contents (Elt F)) :
    Cert.ReferenceIdeal.Read.val_main_v85 (F := F) x1 x3 x4 x5 = Cert.KernelIdeal.TailVal.n_v127 x1 x4 (Cert.ReferenceIdeal.Read.val_main_v50 x3 x5) (Cert.ReferenceIdeal.Read.val_main_v54 x5) := by
  unfold Cert.ReferenceIdeal.Read.val_main_v85 Cert.KernelIdeal.TailVal.n_v127
  rewrite [pair_v126]
  rfl
theorem pair_v128 (x1 : (⟨Cert.ReferenceIdeal.S1024x128, .f32⟩ : BufTy).Contents (Elt F)) (x3 : (⟨Cert.ReferenceIdeal.S128x65536, .f32⟩ : BufTy).Contents (Elt F)) (x4 : (⟨Cert.ReferenceIdeal.S1024, .i32⟩ : BufTy).Contents (Elt F)) (x5 : (⟨Cert.ReferenceIdeal.S65536, .i32⟩ : BufTy).Contents (Elt F)) :
    Cert.ReferenceIdeal.Read.val_main_v86 (F := F) x1 x3 x4 x5 = Cert.KernelIdeal.TailVal.n_v128 x1 x4 (Cert.ReferenceIdeal.Read.val_main_v50 x3 x5) (Cert.ReferenceIdeal.Read.val_main_v54 x5) := by
  unfold Cert.ReferenceIdeal.Read.val_main_v86 Cert.KernelIdeal.TailVal.n_v128
  rewrite [pair_v120, pair_v127]
  rfl
theorem pair_v129 (x2 : (⟨Cert.ReferenceIdeal.S1024x128, .f32⟩ : BufTy).Contents (Elt F)) :
    Cert.ReferenceIdeal.Read.val_main_v87 (F := F) x2 = Cert.KernelIdeal.TailVal.n_v129 x2 := by
  unfold Cert.ReferenceIdeal.Read.val_main_v87 Cert.KernelIdeal.TailVal.n_v129
  rewrite [pair_v98]
  rfl
theorem pair_v131 (x4 : (⟨Cert.ReferenceIdeal.S1024, .i32⟩ : BufTy).Contents (Elt F)) :
    Cert.ReferenceIdeal.Read.val_main_v89 (F := F) x4 = Cert.KernelIdeal.TailVal.n_v131 x4 := by
  unfold Cert.ReferenceIdeal.Read.val_main_v89 Cert.KernelIdeal.TailVal.n_v131
  rfl
theorem pair_v133 (x4 : (⟨Cert.ReferenceIdeal.S1024, .i32⟩ : BufTy).Contents (Elt F)) :
    Cert.ReferenceIdeal.Read.val_main_v91 (F := F) x4 = Cert.KernelIdeal.TailVal.n_v133 x4 := by
  unfold Cert.ReferenceIdeal.Read.val_main_v91 Cert.KernelIdeal.TailVal.n_v133
  rfl
theorem pair_v134 (x4 : (⟨Cert.ReferenceIdeal.S1024, .i32⟩ : BufTy).Contents (Elt F)) :
    Cert.ReferenceIdeal.Read.val_main_v92 (F := F) x4 = Cert.KernelIdeal.TailVal.n_v134 x4 := by
  unfold Cert.ReferenceIdeal.Read.val_main_v92 Cert.KernelIdeal.TailVal.n_v134
  rewrite [pair_v131, pair_v133]
  rfl
theorem pair_v135 (x4 : (⟨Cert.ReferenceIdeal.S1024, .i32⟩ : BufTy).Contents (Elt F)) :
    Cert.ReferenceIdeal.Read.val_main_v93 (F := F) x4 = Cert.KernelIdeal.TailVal.n_v135 x4 := by
  unfold Cert.ReferenceIdeal.Read.val_main_v93 Cert.KernelIdeal.TailVal.n_v135
  rewrite [pair_v134]
  rfl
theorem pair_v136 (x3 : (⟨Cert.ReferenceIdeal.S128x65536, .f32⟩ : BufTy).Contents (Elt F)) (x4 : (⟨Cert.ReferenceIdeal.S1024, .i32⟩ : BufTy).Contents (Elt F)) (x5 : (⟨Cert.ReferenceIdeal.S65536, .i32⟩ : BufTy).Contents (Elt F)) :
    Cert.ReferenceIdeal.Read.val_main_v94 (F := F) x3 x4 x5 = Cert.KernelIdeal.TailVal.n_v136 x4 (Cert.ReferenceIdeal.Read.val_main_v50 x3 x5) := by
  unfold Cert.ReferenceIdeal.Read.val_main_v94 Cert.KernelIdeal.TailVal.n_v136
  rewrite [pair_v135]
  rfl
theorem pair_v137 (x2 : (⟨Cert.ReferenceIdeal.S1024x128, .f32⟩ : BufTy).Contents (Elt F)) :
    Cert.ReferenceIdeal.Read.val_main_v95 (F := F) x2 = Cert.KernelIdeal.TailVal.n_v137 x2 := by
  unfold Cert.ReferenceIdeal.Read.val_main_v95 Cert.KernelIdeal.TailVal.n_v137
  rewrite [pair_v129]
  rfl
theorem pair_v138 (x2 : (⟨Cert.ReferenceIdeal.S1024x128, .f32⟩ : BufTy).Contents (Elt F)) (x3 : (⟨Cert.ReferenceIdeal.S128x65536, .f32⟩ : BufTy).Contents (Elt F)) (x4 : (⟨Cert.ReferenceIdeal.S1024, .i32⟩ : BufTy).Contents (Elt F)) (x5 : (⟨Cert.ReferenceIdeal.S65536, .i32⟩ : BufTy).Contents (Elt F)) :
    Cert.ReferenceIdeal.Read.val_main_v96 (F := F) x2 x3 x4 x5 = Cert.KernelIdeal.TailVal.n_v138 x2 x4 (Cert.ReferenceIdeal.Read.val_main_v50 x3 x5) := by
  unfold Cert.ReferenceIdeal.Read.val_main_v96 Cert.KernelIdeal.TailVal.n_v138
  rewrite [pair_v137, pair_v136]
  rfl
theorem pair_v139 (x4 : (⟨Cert.ReferenceIdeal.S1024, .i32⟩ : BufTy).Contents (Elt F)) (x5 : (⟨Cert.ReferenceIdeal.S65536, .i32⟩ : BufTy).Contents (Elt F)) :
    Cert.ReferenceIdeal.Read.val_main_v97 (F := F) x4 x5 = Cert.KernelIdeal.TailVal.n_v139 x4 (Cert.ReferenceIdeal.Read.val_main_v54 x5) := by
  unfold Cert.ReferenceIdeal.Read.val_main_v97 Cert.KernelIdeal.TailVal.n_v139
  rewrite [pair_v108]
  rfl
theorem pair_v140 (x2 : (⟨Cert.ReferenceIdeal.S1024x128, .f32⟩ : BufTy).Contents (Elt F)) (x3 : (⟨Cert.ReferenceIdeal.S128x65536, .f32⟩ : BufTy).Contents (Elt F)) (x4 : (⟨Cert.ReferenceIdeal.S1024, .i32⟩ : BufTy).Contents (Elt F)) (x5 : (⟨Cert.ReferenceIdeal.S65536, .i32⟩ : BufTy).Contents (Elt F)) :
    Cert.ReferenceIdeal.Read.val_main_v98 (F := F) x2 x3 x4 x5 = Cert.KernelIdeal.TailVal.n_v140 x2 x4 (Cert.ReferenceIdeal.Read.val_main_v50 x3 x5) (Cert.ReferenceIdeal.Read.val_main_v54 x5) := by
  unfold Cert.ReferenceIdeal.Read.val_main_v98 Cert.KernelIdeal.TailVal.n_v140
  rewrite [pair_v138, pair_v139]
  rfl
theorem pair_v141 (x2 : (⟨Cert.ReferenceIdeal.S1024x128, .f32⟩ : BufTy).Contents (Elt F)) (x3 : (⟨Cert.ReferenceIdeal.S128x65536, .f32⟩ : BufTy).Contents (Elt F)) (x4 : (⟨Cert.ReferenceIdeal.S1024, .i32⟩ : BufTy).Contents (Elt F)) (x5 : (⟨Cert.ReferenceIdeal.S65536, .i32⟩ : BufTy).Contents (Elt F)) :
    Cert.ReferenceIdeal.Read.val_main_v99 (F := F) x2 x3 x4 x5 = Cert.KernelIdeal.TailVal.n_v141 x2 x4 (Cert.ReferenceIdeal.Read.val_main_v50 x3 x5) (Cert.ReferenceIdeal.Read.val_main_v54 x5) := by
  unfold Cert.ReferenceIdeal.Read.val_main_v99 Cert.KernelIdeal.TailVal.n_v141
  rewrite [pair_v140]
  rfl
theorem pair_v142 (x2 : (⟨Cert.ReferenceIdeal.S1024x128, .f32⟩ : BufTy).Contents (Elt F)) (x3 : (⟨Cert.ReferenceIdeal.S128x65536, .f32⟩ : BufTy).Contents (Elt F)) (x4 : (⟨Cert.ReferenceIdeal.S1024, .i32⟩ : BufTy).Contents (Elt F)) (x5 : (⟨Cert.ReferenceIdeal.S65536, .i32⟩ : BufTy).Contents (Elt F)) :
    Cert.ReferenceIdeal.Read.val_main_v100 (F := F) x2 x3 x4 x5 = Cert.KernelIdeal.TailVal.n_v142 x2 x4 (Cert.ReferenceIdeal.Read.val_main_v50 x3 x5) (Cert.ReferenceIdeal.Read.val_main_v54 x5) := by
  unfold Cert.ReferenceIdeal.Read.val_main_v100 Cert.KernelIdeal.TailVal.n_v142
  rewrite [pair_v141]
  rfl
theorem pair_v143 (x2 : (⟨Cert.ReferenceIdeal.S1024x128, .f32⟩ : BufTy).Contents (Elt F)) (x3 : (⟨Cert.ReferenceIdeal.S128x65536, .f32⟩ : BufTy).Contents (Elt F)) (x4 : (⟨Cert.ReferenceIdeal.S1024, .i32⟩ : BufTy).Contents (Elt F)) (x5 : (⟨Cert.ReferenceIdeal.S65536, .i32⟩ : BufTy).Contents (Elt F)) :
    Cert.ReferenceIdeal.Read.val_main_v101 (F := F) x2 x3 x4 x5 = Cert.KernelIdeal.TailVal.n_v143 x2 x4 (Cert.ReferenceIdeal.Read.val_main_v50 x3 x5) (Cert.ReferenceIdeal.Read.val_main_v54 x5) := by
  unfold Cert.ReferenceIdeal.Read.val_main_v101 Cert.KernelIdeal.TailVal.n_v143
  rewrite [pair_v142]
  rfl
theorem pair_v144 (x2 : (⟨Cert.ReferenceIdeal.S1024x128, .f32⟩ : BufTy).Contents (Elt F)) (x3 : (⟨Cert.ReferenceIdeal.S128x65536, .f32⟩ : BufTy).Contents (Elt F)) (x4 : (⟨Cert.ReferenceIdeal.S1024, .i32⟩ : BufTy).Contents (Elt F)) (x5 : (⟨Cert.ReferenceIdeal.S65536, .i32⟩ : BufTy).Contents (Elt F)) :
    Cert.ReferenceIdeal.Read.val_main_v102 (F := F) x2 x3 x4 x5 = Cert.KernelIdeal.TailVal.n_v144 x2 x4 (Cert.ReferenceIdeal.Read.val_main_v50 x3 x5) (Cert.ReferenceIdeal.Read.val_main_v54 x5) := by
  unfold Cert.ReferenceIdeal.Read.val_main_v102 Cert.KernelIdeal.TailVal.n_v144
  rewrite [pair_v143]
  rfl
theorem pair_v146 (x2 : (⟨Cert.ReferenceIdeal.S1024x128, .f32⟩ : BufTy).Contents (Elt F)) (x3 : (⟨Cert.ReferenceIdeal.S128x65536, .f32⟩ : BufTy).Contents (Elt F)) (x4 : (⟨Cert.ReferenceIdeal.S1024, .i32⟩ : BufTy).Contents (Elt F)) (x5 : (⟨Cert.ReferenceIdeal.S65536, .i32⟩ : BufTy).Contents (Elt F)) :
    Cert.ReferenceIdeal.Read.val_main_v104 (F := F) x2 x3 x4 x5 = Cert.KernelIdeal.TailVal.n_v146 x2 x4 (Cert.ReferenceIdeal.Read.val_main_v50 x3 x5) (Cert.ReferenceIdeal.Read.val_main_v54 x5) := by
  unfold Cert.ReferenceIdeal.Read.val_main_v104 Cert.KernelIdeal.TailVal.n_v146
  rewrite [pair_v144]
  rfl
theorem pair_v147 (x2 : (⟨Cert.ReferenceIdeal.S1024x128, .f32⟩ : BufTy).Contents (Elt F)) (x3 : (⟨Cert.ReferenceIdeal.S128x65536, .f32⟩ : BufTy).Contents (Elt F)) (x4 : (⟨Cert.ReferenceIdeal.S1024, .i32⟩ : BufTy).Contents (Elt F)) (x5 : (⟨Cert.ReferenceIdeal.S65536, .i32⟩ : BufTy).Contents (Elt F)) :
    Cert.ReferenceIdeal.Read.val_main_v105 (F := F) x2 x3 x4 x5 = Cert.KernelIdeal.TailVal.n_v147 x2 x4 (Cert.ReferenceIdeal.Read.val_main_v50 x3 x5) (Cert.ReferenceIdeal.Read.val_main_v54 x5) := by
  unfold Cert.ReferenceIdeal.Read.val_main_v105 Cert.KernelIdeal.TailVal.n_v147
  rewrite [pair_v146]
  rfl
theorem pair_v148 (x2 : (⟨Cert.ReferenceIdeal.S1024x128, .f32⟩ : BufTy).Contents (Elt F)) (x3 : (⟨Cert.ReferenceIdeal.S128x65536, .f32⟩ : BufTy).Contents (Elt F)) (x4 : (⟨Cert.ReferenceIdeal.S1024, .i32⟩ : BufTy).Contents (Elt F)) (x5 : (⟨Cert.ReferenceIdeal.S65536, .i32⟩ : BufTy).Contents (Elt F)) :
    Cert.ReferenceIdeal.Read.val_main_v106 (F := F) x2 x3 x4 x5 = Cert.KernelIdeal.TailVal.n_v148 x2 x4 (Cert.ReferenceIdeal.Read.val_main_v50 x3 x5) (Cert.ReferenceIdeal.Read.val_main_v54 x5) := by
  unfold Cert.ReferenceIdeal.Read.val_main_v106 Cert.KernelIdeal.TailVal.n_v148
  rewrite [pair_v140, pair_v147]
  rfl
theorem pair_v149 (x5 : (⟨Cert.ReferenceIdeal.S65536, .i32⟩ : BufTy).Contents (Elt F)) :
    Cert.ReferenceIdeal.Read.val_main_v107 (F := F) x5 = Cert.KernelIdeal.TailVal.n_v149 (Cert.ReferenceIdeal.Read.val_main_v54 x5) := by
  unfold Cert.ReferenceIdeal.Read.val_main_v107 Cert.KernelIdeal.TailVal.n_v149
  rfl
theorem pair_v150 (x5 : (⟨Cert.ReferenceIdeal.S65536, .i32⟩ : BufTy).Contents (Elt F)) :
    Cert.ReferenceIdeal.Read.val_main_v108 (F := F) x5 = Cert.KernelIdeal.TailVal.n_v150 (Cert.ReferenceIdeal.Read.val_main_v54 x5) := by
  unfold Cert.ReferenceIdeal.Read.val_main_v108 Cert.KernelIdeal.TailVal.n_v150
  rewrite [pair_v149]
  rfl
theorem pair_v151 (x3 : (⟨Cert.ReferenceIdeal.S128x65536, .f32⟩ : BufTy).Contents (Elt F)) (x5 : (⟨Cert.ReferenceIdeal.S65536, .i32⟩ : BufTy).Contents (Elt F)) :
    Cert.ReferenceIdeal.Read.val_main_v109 (F := F) x3 x5 = Cert.KernelIdeal.TailVal.n_v151 (Cert.ReferenceIdeal.Read.val_main_v50 x3 x5) (Cert.ReferenceIdeal.Read.val_main_v54 x5) := by
  unfold Cert.ReferenceIdeal.Read.val_main_v109 Cert.KernelIdeal.TailVal.n_v151
  rewrite [pair_v150]
  rfl
theorem pair_v152 (x3 : (⟨Cert.ReferenceIdeal.S128x65536, .f32⟩ : BufTy).Contents (Elt F)) (x5 : (⟨Cert.ReferenceIdeal.S65536, .i32⟩ : BufTy).Contents (Elt F)) :
    Cert.ReferenceIdeal.Read.val_main_v110 (F := F) x3 x5 = Cert.KernelIdeal.TailVal.n_v152 (Cert.ReferenceIdeal.Read.val_main_v50 x3 x5) (Cert.ReferenceIdeal.Read.val_main_v54 x5) := by
  unfold Cert.ReferenceIdeal.Read.val_main_v110 Cert.KernelIdeal.TailVal.n_v152
  rewrite [pair_v151]
  rfl
theorem pair_v153 (x3 : (⟨Cert.ReferenceIdeal.S128x65536, .f32⟩ : BufTy).Contents (Elt F)) (x5 : (⟨Cert.ReferenceIdeal.S65536, .i32⟩ : BufTy).Contents (Elt F)) :
    Cert.ReferenceIdeal.Read.val_main_v111 (F := F) x3 x5 = Cert.KernelIdeal.TailVal.n_v153 (Cert.ReferenceIdeal.Read.val_main_v50 x3 x5) (Cert.ReferenceIdeal.Read.val_main_v54 x5) := by
  unfold Cert.ReferenceIdeal.Read.val_main_v111 Cert.KernelIdeal.TailVal.n_v153
  rewrite [pair_v152]
  rfl
theorem pair_v154 (x3 : (⟨Cert.ReferenceIdeal.S128x65536, .f32⟩ : BufTy).Contents (Elt F)) (x5 : (⟨Cert.ReferenceIdeal.S65536, .i32⟩ : BufTy).Contents (Elt F)) :
    Cert.ReferenceIdeal.Read.val_main_v112 (F := F) x3 x5 = Cert.KernelIdeal.TailVal.n_v154 (Cert.ReferenceIdeal.Read.val_main_v50 x3 x5) (Cert.ReferenceIdeal.Read.val_main_v54 x5) := by
  unfold Cert.ReferenceIdeal.Read.val_main_v112 Cert.KernelIdeal.TailVal.n_v154
  rewrite [pair_v153]
  rfl
theorem pair_v155 (x3 : (⟨Cert.ReferenceIdeal.S128x65536, .f32⟩ : BufTy).Contents (Elt F)) (x5 : (⟨Cert.ReferenceIdeal.S65536, .i32⟩ : BufTy).Contents (Elt F)) :
    Cert.ReferenceIdeal.Read.val_main_v113 (F := F) x3 x5 = Cert.KernelIdeal.TailVal.n_v155 (Cert.ReferenceIdeal.Read.val_main_v50 x3 x5) (Cert.ReferenceIdeal.Read.val_main_v54 x5) := by
  unfold Cert.ReferenceIdeal.Read.val_main_v113 Cert.KernelIdeal.TailVal.n_v155
  rewrite [pair_v154]
  rfl
theorem pair_v157 (x3 : (⟨Cert.ReferenceIdeal.S128x65536, .f32⟩ : BufTy).Contents (Elt F)) (x5 : (⟨Cert.ReferenceIdeal.S65536, .i32⟩ : BufTy).Contents (Elt F)) :
    Cert.ReferenceIdeal.Read.val_main_v115 (F := F) x3 x5 = Cert.KernelIdeal.TailVal.n_v157 (Cert.ReferenceIdeal.Read.val_main_v50 x3 x5) (Cert.ReferenceIdeal.Read.val_main_v54 x5) := by
  unfold Cert.ReferenceIdeal.Read.val_main_v115 Cert.KernelIdeal.TailVal.n_v157
  rewrite [pair_v155]
  rfl
theorem pair_v158 (x3 : (⟨Cert.ReferenceIdeal.S128x65536, .f32⟩ : BufTy).Contents (Elt F)) (x5 : (⟨Cert.ReferenceIdeal.S65536, .i32⟩ : BufTy).Contents (Elt F)) :
    Cert.ReferenceIdeal.Read.val_main_v116 (F := F) x3 x5 = Cert.KernelIdeal.TailVal.n_v158 (Cert.ReferenceIdeal.Read.val_main_v50 x3 x5) (Cert.ReferenceIdeal.Read.val_main_v54 x5) := by
  unfold Cert.ReferenceIdeal.Read.val_main_v116 Cert.KernelIdeal.TailVal.n_v158
  rewrite [pair_v157]
  rfl
theorem pair_v159 (x3 : (⟨Cert.ReferenceIdeal.S128x65536, .f32⟩ : BufTy).Contents (Elt F)) (x5 : (⟨Cert.ReferenceIdeal.S65536, .i32⟩ : BufTy).Contents (Elt F)) :
    Cert.ReferenceIdeal.Read.val_main_v117 (F := F) x3 x5 = Cert.KernelIdeal.TailVal.n_v159 (Cert.ReferenceIdeal.Read.val_main_v50 x3 x5) (Cert.ReferenceIdeal.Read.val_main_v54 x5) := by
  unfold Cert.ReferenceIdeal.Read.val_main_v117 Cert.KernelIdeal.TailVal.n_v159
  rewrite [pair_v151, pair_v158]
  rfl
theorem pair_v161 (x1 : (⟨Cert.ReferenceIdeal.S1024x128, .f32⟩ : BufTy).Contents (Elt F)) (x2 : (⟨Cert.ReferenceIdeal.S1024x128, .f32⟩ : BufTy).Contents (Elt F)) (x3 : (⟨Cert.ReferenceIdeal.S128x65536, .f32⟩ : BufTy).Contents (Elt F)) (x4 : (⟨Cert.ReferenceIdeal.S1024, .i32⟩ : BufTy).Contents (Elt F)) (x5 : (⟨Cert.ReferenceIdeal.S65536, .i32⟩ : BufTy).Contents (Elt F)) :
    Cert.ReferenceIdeal.Read.val_main_v119 (F := F) x1 x2 x3 x4 x5 = Cert.KernelIdeal.TailVal.n_v161 x1 x2 x4 (Cert.ReferenceIdeal.Read.val_main_v50 x3 x5) (Cert.ReferenceIdeal.Read.val_main_v54 x5) := by
  unfold Cert.ReferenceIdeal.Read.val_main_v119 Cert.KernelIdeal.TailVal.n_v161
  rewrite [pair_v128, pair_v148]
  rfl
theorem pair_v162 (x1 : (⟨Cert.ReferenceIdeal.S1024x128, .f32⟩ : BufTy).Contents (Elt F)) (x2 : (⟨Cert.ReferenceIdeal.S1024x128, .f32⟩ : BufTy).Contents (Elt F)) (x3 : (⟨Cert.ReferenceIdeal.S128x65536, .f32⟩ : BufTy).Contents (Elt F)) (x4 : (⟨Cert.ReferenceIdeal.S1024, .i32⟩ : BufTy).Contents (Elt F)) (x5 : (⟨Cert.ReferenceIdeal.S65536, .i32⟩ : BufTy).Contents (Elt F)) :
    Cert.ReferenceIdeal.Read.val_main_v120 (F := F) x1 x2 x3 x4 x5 = Cert.KernelIdeal.TailVal.n_v162 x1 x2 x4 (Cert.ReferenceIdeal.Read.val_main_v50 x3 x5) (Cert.ReferenceIdeal.Read.val_main_v54 x5) := by
  unfold Cert.ReferenceIdeal.Read.val_main_v120 Cert.KernelIdeal.TailVal.n_v162
  rewrite [pair_v161]
  rfl
theorem pair_v163 (x0 : (⟨Cert.ReferenceIdeal.S1024x128, .f32⟩ : BufTy).Contents (Elt F)) (x1 : (⟨Cert.ReferenceIdeal.S1024x128, .f32⟩ : BufTy).Contents (Elt F)) (x2 : (⟨Cert.ReferenceIdeal.S1024x128, .f32⟩ : BufTy).Contents (Elt F)) (x3 : (⟨Cert.ReferenceIdeal.S128x65536, .f32⟩ : BufTy).Contents (Elt F)) (x4 : (⟨Cert.ReferenceIdeal.S1024, .i32⟩ : BufTy).Contents (Elt F)) (x5 : (⟨Cert.ReferenceIdeal.S65536, .i32⟩ : BufTy).Contents (Elt F)) :
    Cert.ReferenceIdeal.Read.val_main_v121 (F := F) x0 x1 x2 x3 x4 x5 = Cert.KernelIdeal.TailVal.n_v163 (Cert.ReferenceIdeal.Read.val_main_v7 x0) x1 x2 x4 (Cert.ReferenceIdeal.Read.val_main_v50 x3 x5) (Cert.ReferenceIdeal.Read.val_main_v54 x5) := by
  unfold Cert.ReferenceIdeal.Read.val_main_v121 Cert.KernelIdeal.TailVal.n_v163
  rewrite [pair_v162]
  rfl
theorem pair_v164 (x3 : (⟨Cert.ReferenceIdeal.S128x65536, .f32⟩ : BufTy).Contents (Elt F)) (x5 : (⟨Cert.ReferenceIdeal.S65536, .i32⟩ : BufTy).Contents (Elt F)) :
    Cert.ReferenceIdeal.Read.val_main_v122 (F := F) x3 x5 = Cert.KernelIdeal.TailVal.n_v164 (Cert.ReferenceIdeal.Read.val_main_v50 x3 x5) (Cert.ReferenceIdeal.Read.val_main_v54 x5) := by
  unfold Cert.ReferenceIdeal.Read.val_main_v122 Cert.KernelIdeal.TailVal.n_v164
  rewrite [pair_v159]
  rfl
theorem pair_v165 (x0 : (⟨Cert.ReferenceIdeal.S1024x128, .f32⟩ : BufTy).Contents (Elt F)) (x3 : (⟨Cert.ReferenceIdeal.S128x65536, .f32⟩ : BufTy).Contents (Elt F)) (x5 : (⟨Cert.ReferenceIdeal.S65536, .i32⟩ : BufTy).Contents (Elt F)) :
    Cert.ReferenceIdeal.Read.val_main_v123 (F := F) x0 x3 x5 = Cert.KernelIdeal.TailVal.n_v165 (Cert.ReferenceIdeal.Read.val_main_v7 x0) (Cert.ReferenceIdeal.Read.val_main_v50 x3 x5) (Cert.ReferenceIdeal.Read.val_main_v54 x5) := by
  unfold Cert.ReferenceIdeal.Read.val_main_v123 Cert.KernelIdeal.TailVal.n_v165
  rewrite [pair_v164]
  rfl
theorem pair_v166 (x4 : (⟨Cert.ReferenceIdeal.S1024, .i32⟩ : BufTy).Contents (Elt F)) :
    Cert.ReferenceIdeal.Read.val_main_v124 (F := F) x4 = Cert.KernelIdeal.TailVal.n_v166 x4 := by
  unfold Cert.ReferenceIdeal.Read.val_main_v124 Cert.KernelIdeal.TailVal.n_v166
  rfl
theorem pair_v167 (x0 : (⟨Cert.ReferenceIdeal.S1024x128, .f32⟩ : BufTy).Contents (Elt F)) (x1 : (⟨Cert.ReferenceIdeal.S1024x128, .f32⟩ : BufTy).Contents (Elt F)) (x2 : (⟨Cert.ReferenceIdeal.S1024x128, .f32⟩ : BufTy).Contents (Elt F)) (x3 : (⟨Cert.ReferenceIdeal.S128x65536, .f32⟩ : BufTy).Contents (Elt F)) (x4 : (⟨Cert.ReferenceIdeal.S1024, .i32⟩ : BufTy).Contents (Elt F)) (x5 : (⟨Cert.ReferenceIdeal.S65536, .i32⟩ : BufTy).Contents (Elt F)) :
    Cert.ReferenceIdeal.Read.val_main_v125 (F := F) x0 x1 x2 x3 x4 x5 = Cert.KernelIdeal.TailVal.n_v167 (Cert.ReferenceIdeal.Read.val_main_v7 x0) x1 x2 x4 (Cert.ReferenceIdeal.Read.val_main_v50 x3 x5) (Cert.ReferenceIdeal.Read.val_main_v54 x5) := by
  unfold Cert.ReferenceIdeal.Read.val_main_v125 Cert.KernelIdeal.TailVal.n_v167
  rewrite [pair_v163, pair_v165]
  rfl
theorem pair_v168 (x4 : (⟨Cert.ReferenceIdeal.S1024, .i32⟩ : BufTy).Contents (Elt F)) :
    Cert.ReferenceIdeal.Read.val_main_v126 (F := F) x4 = Cert.KernelIdeal.TailVal.n_v168 x4 := by
  unfold Cert.ReferenceIdeal.Read.val_main_v126 Cert.KernelIdeal.TailVal.n_v168
  rfl
theorem pair_v169 (x4 : (⟨Cert.ReferenceIdeal.S1024, .i32⟩ : BufTy).Contents (Elt F)) :
    Cert.ReferenceIdeal.Read.val_main_v127 (F := F) x4 = Cert.KernelIdeal.TailVal.n_v169 x4 := by
  unfold Cert.ReferenceIdeal.Read.val_main_v127 Cert.KernelIdeal.TailVal.n_v169
  rewrite [pair_v166]
  rfl
theorem pair_v170 (x4 : (⟨Cert.ReferenceIdeal.S1024, .i32⟩ : BufTy).Contents (Elt F)) :
    Cert.ReferenceIdeal.Read.val_main_v128 (F := F) x4 = Cert.KernelIdeal.TailVal.n_v170 x4 := by
  unfold Cert.ReferenceIdeal.Read.val_main_v128 Cert.KernelIdeal.TailVal.n_v170
  rewrite [pair_v168]
  rfl
theorem pair_v171 (x4 : (⟨Cert.ReferenceIdeal.S1024, .i32⟩ : BufTy).Contents (Elt F)) :
    Cert.ReferenceIdeal.Read.val_main_v129 (F := F) x4 = Cert.KernelIdeal.TailVal.n_v171 x4 := by
  unfold Cert.ReferenceIdeal.Read.val_main_v129 Cert.KernelIdeal.TailVal.n_v171
  rewrite [pair_v169]
  rfl
theorem pair_v172 (x4 : (⟨Cert.ReferenceIdeal.S1024, .i32⟩ : BufTy).Contents (Elt F)) :
    Cert.ReferenceIdeal.Read.val_main_v130 (F := F) x4 = Cert.KernelIdeal.TailVal.n_v172 x4 := by
  unfold Cert.ReferenceIdeal.Read.val_main_v130 Cert.KernelIdeal.TailVal.n_v172
  rewrite [pair_v170, pair_v171]
  rfl
theorem pair_v173 (x4 : (⟨Cert.ReferenceIdeal.S1024, .i32⟩ : BufTy).Contents (Elt F)) :
    Cert.ReferenceIdeal.Read.val_main_v131 (F := F) x4 = Cert.KernelIdeal.TailVal.n_v173 x4 := by
  unfold Cert.ReferenceIdeal.Read.val_main_v131 Cert.KernelIdeal.TailVal.n_v173
  rewrite [pair_v172]
  rfl
theorem pair_v174 (x4 : (⟨Cert.ReferenceIdeal.S1024, .i32⟩ : BufTy).Contents (Elt F)) :
    Cert.ReferenceIdeal.Read.val_main_v132 (F := F) x4 = Cert.KernelIdeal.TailVal.n_v174 x4 := by
  unfold Cert.ReferenceIdeal.Read.val_main_v132 Cert.KernelIdeal.TailVal.n_v174
  rewrite [pair_v173]
  rfl
theorem pair_v175 (x4 : (⟨Cert.ReferenceIdeal.S1024, .i32⟩ : BufTy).Contents (Elt F)) :
    Cert.ReferenceIdeal.Read.val_main_v133 (F := F) x4 = Cert.KernelIdeal.TailVal.n_v175 x4 := by
  unfold Cert.ReferenceIdeal.Read.val_main_v133 Cert.KernelIdeal.TailVal.n_v175
  rewrite [pair_v174]
  rfl
theorem pair_v176 (x4 : (⟨Cert.ReferenceIdeal.S1024, .i32⟩ : BufTy).Contents (Elt F)) :
    Cert.ReferenceIdeal.Read.val_main_v134 (F := F) x4 = Cert.KernelIdeal.TailVal.n_v176 x4 := by
  unfold Cert.ReferenceIdeal.Read.val_main_v134 Cert.KernelIdeal.TailVal.n_v176
  rewrite [pair_v175]
  rfl
theorem pair_v177 (x4 : (⟨Cert.ReferenceIdeal.S1024, .i32⟩ : BufTy).Contents (Elt F)) :
    Cert.ReferenceIdeal.Read.val_main_v135 (F := F) x4 = Cert.KernelIdeal.TailVal.n_v177 x4 := by
  unfold Cert.ReferenceIdeal.Read.val_main_v135 Cert.KernelIdeal.TailVal.n_v177
  rewrite [pair_v173, pair_v176]
  rfl
theorem pair_v179 (x0 : (⟨Cert.ReferenceIdeal.S1024x128, .f32⟩ : BufTy).Contents (Elt F)) (x1 : (⟨Cert.ReferenceIdeal.S1024x128, .f32⟩ : BufTy).Contents (Elt F)) (x2 : (⟨Cert.ReferenceIdeal.S1024x128, .f32⟩ : BufTy).Contents (Elt F)) (x3 : (⟨Cert.ReferenceIdeal.S128x65536, .f32⟩ : BufTy).Contents (Elt F)) (x4 : (⟨Cert.ReferenceIdeal.S1024, .i32⟩ : BufTy).Contents (Elt F)) (x5 : (⟨Cert.ReferenceIdeal.S65536, .i32⟩ : BufTy).Contents (Elt F)) :
    Cert.ReferenceIdeal.Read.val_main_v137 (F := F) x0 x1 x2 x3 x4 x5 = Cert.KernelIdeal.TailVal.n_v179 (Cert.ReferenceIdeal.Read.val_main_v7 x0) x1 x2 x4 (Cert.ReferenceIdeal.Read.val_main_v50 x3 x5) (Cert.ReferenceIdeal.Read.val_main_v54 x5) := by
  unfold Cert.ReferenceIdeal.Read.val_main_v137 Cert.KernelIdeal.TailVal.n_v179
  rewrite [pair_v167]
  rfl
theorem pair_call0_v0 (x0 : (⟨Cert.ReferenceIdeal.S1024x128, .f32⟩ : BufTy).Contents (Elt F)) (x1 : (⟨Cert.ReferenceIdeal.S1024x128, .f32⟩ : BufTy).Contents (Elt F)) (x2 : (⟨Cert.ReferenceIdeal.S1024x128, .f32⟩ : BufTy).Contents (Elt F)) (x3 : (⟨Cert.ReferenceIdeal.S128x65536, .f32⟩ : BufTy).Contents (Elt F)) (x4 : (⟨Cert.ReferenceIdeal.S1024, .i32⟩ : BufTy).Contents (Elt F)) (x5 : (⟨Cert.ReferenceIdeal.S65536, .i32⟩ : BufTy).Contents (Elt F)) :
    Cert.ReferenceIdeal.Read.val_main_call1_v0 (F := F) x0 x1 x2 x3 x4 x5 = Cert.KernelIdeal.TailVal.n_call0_v0 (Cert.ReferenceIdeal.Read.val_main_v7 x0) x1 x2 x4 (Cert.ReferenceIdeal.Read.val_main_v50 x3 x5) (Cert.ReferenceIdeal.Read.val_main_v54 x5) := by
  unfold Cert.ReferenceIdeal.Read.val_main_call1_v0 Cert.KernelIdeal.TailVal.n_call0_v0
  rewrite [pair_v179]
  rfl
theorem pair_call0_v2 (x0 : (⟨Cert.ReferenceIdeal.S1024x128, .f32⟩ : BufTy).Contents (Elt F)) (x1 : (⟨Cert.ReferenceIdeal.S1024x128, .f32⟩ : BufTy).Contents (Elt F)) (x2 : (⟨Cert.ReferenceIdeal.S1024x128, .f32⟩ : BufTy).Contents (Elt F)) (x3 : (⟨Cert.ReferenceIdeal.S128x65536, .f32⟩ : BufTy).Contents (Elt F)) (x4 : (⟨Cert.ReferenceIdeal.S1024, .i32⟩ : BufTy).Contents (Elt F)) (x5 : (⟨Cert.ReferenceIdeal.S65536, .i32⟩ : BufTy).Contents (Elt F)) :
    Cert.ReferenceIdeal.Read.val_main_call1_v2 (F := F) x0 x1 x2 x3 x4 x5 = Cert.KernelIdeal.TailVal.n_call0_v2 (Cert.ReferenceIdeal.Read.val_main_v7 x0) x1 x2 x4 (Cert.ReferenceIdeal.Read.val_main_v50 x3 x5) (Cert.ReferenceIdeal.Read.val_main_v54 x5) := by
  unfold Cert.ReferenceIdeal.Read.val_main_call1_v2 Cert.KernelIdeal.TailVal.n_call0_v2
  rewrite [pair_call0_v0]
  rfl
theorem pair_call0_v3 (x0 : (⟨Cert.ReferenceIdeal.S1024x128, .f32⟩ : BufTy).Contents (Elt F)) (x1 : (⟨Cert.ReferenceIdeal.S1024x128, .f32⟩ : BufTy).Contents (Elt F)) (x2 : (⟨Cert.ReferenceIdeal.S1024x128, .f32⟩ : BufTy).Contents (Elt F)) (x3 : (⟨Cert.ReferenceIdeal.S128x65536, .f32⟩ : BufTy).Contents (Elt F)) (x4 : (⟨Cert.ReferenceIdeal.S1024, .i32⟩ : BufTy).Contents (Elt F)) (x5 : (⟨Cert.ReferenceIdeal.S65536, .i32⟩ : BufTy).Contents (Elt F)) :
    Cert.ReferenceIdeal.Read.val_main_call1_v3 (F := F) x0 x1 x2 x3 x4 x5 = Cert.KernelIdeal.TailVal.n_call0_v3 (Cert.ReferenceIdeal.Read.val_main_v7 x0) x1 x2 x4 (Cert.ReferenceIdeal.Read.val_main_v50 x3 x5) (Cert.ReferenceIdeal.Read.val_main_v54 x5) := by
  unfold Cert.ReferenceIdeal.Read.val_main_call1_v3 Cert.KernelIdeal.TailVal.n_call0_v3
  rewrite [pair_call0_v2]
  rfl
theorem pair_call0_v4 (x0 : (⟨Cert.ReferenceIdeal.S1024x128, .f32⟩ : BufTy).Contents (Elt F)) (x1 : (⟨Cert.ReferenceIdeal.S1024x128, .f32⟩ : BufTy).Contents (Elt F)) (x2 : (⟨Cert.ReferenceIdeal.S1024x128, .f32⟩ : BufTy).Contents (Elt F)) (x3 : (⟨Cert.ReferenceIdeal.S128x65536, .f32⟩ : BufTy).Contents (Elt F)) (x4 : (⟨Cert.ReferenceIdeal.S1024, .i32⟩ : BufTy).Contents (Elt F)) (x5 : (⟨Cert.ReferenceIdeal.S65536, .i32⟩ : BufTy).Contents (Elt F)) :
    Cert.ReferenceIdeal.Read.val_main_call1_v4 (F := F) x0 x1 x2 x3 x4 x5 = Cert.KernelIdeal.TailVal.n_call0_v4 (Cert.ReferenceIdeal.Read.val_main_v7 x0) x1 x2 x4 (Cert.ReferenceIdeal.Read.val_main_v50 x3 x5) (Cert.ReferenceIdeal.Read.val_main_v54 x5) := by
  unfold Cert.ReferenceIdeal.Read.val_main_call1_v4 Cert.KernelIdeal.TailVal.n_call0_v4
  rewrite [pair_call0_v3]
  rfl
theorem pair_call0_v5 (x0 : (⟨Cert.ReferenceIdeal.S1024x128, .f32⟩ : BufTy).Contents (Elt F)) (x1 : (⟨Cert.ReferenceIdeal.S1024x128, .f32⟩ : BufTy).Contents (Elt F)) (x2 : (⟨Cert.ReferenceIdeal.S1024x128, .f32⟩ : BufTy).Contents (Elt F)) (x3 : (⟨Cert.ReferenceIdeal.S128x65536, .f32⟩ : BufTy).Contents (Elt F)) (x4 : (⟨Cert.ReferenceIdeal.S1024, .i32⟩ : BufTy).Contents (Elt F)) (x5 : (⟨Cert.ReferenceIdeal.S65536, .i32⟩ : BufTy).Contents (Elt F)) :
    Cert.ReferenceIdeal.Read.val_main_call1_v5 (F := F) x0 x1 x2 x3 x4 x5 = Cert.KernelIdeal.TailVal.n_call0_v5 (Cert.ReferenceIdeal.Read.val_main_v7 x0) x1 x2 x4 (Cert.ReferenceIdeal.Read.val_main_v50 x3 x5) (Cert.ReferenceIdeal.Read.val_main_v54 x5) := by
  unfold Cert.ReferenceIdeal.Read.val_main_call1_v5 Cert.KernelIdeal.TailVal.n_call0_v5
  rewrite [pair_v179, pair_call0_v4]
  rfl
theorem pair_call0_v6 (x0 : (⟨Cert.ReferenceIdeal.S1024x128, .f32⟩ : BufTy).Contents (Elt F)) (x1 : (⟨Cert.ReferenceIdeal.S1024x128, .f32⟩ : BufTy).Contents (Elt F)) (x2 : (⟨Cert.ReferenceIdeal.S1024x128, .f32⟩ : BufTy).Contents (Elt F)) (x3 : (⟨Cert.ReferenceIdeal.S128x65536, .f32⟩ : BufTy).Contents (Elt F)) (x4 : (⟨Cert.ReferenceIdeal.S1024, .i32⟩ : BufTy).Contents (Elt F)) (x5 : (⟨Cert.ReferenceIdeal.S65536, .i32⟩ : BufTy).Contents (Elt F)) :
    Cert.ReferenceIdeal.Read.val_main_call1_v6 (F := F) x0 x1 x2 x3 x4 x5 = Cert.KernelIdeal.TailVal.n_call0_v6 (Cert.ReferenceIdeal.Read.val_main_v7 x0) x1 x2 x4 (Cert.ReferenceIdeal.Read.val_main_v50 x3 x5) (Cert.ReferenceIdeal.Read.val_main_v54 x5) := by
  unfold Cert.ReferenceIdeal.Read.val_main_call1_v6 Cert.KernelIdeal.TailVal.n_call0_v6
  rewrite [pair_call0_v5]
  rfl
theorem pair_call0_v7 (x0 : (⟨Cert.ReferenceIdeal.S1024x128, .f32⟩ : BufTy).Contents (Elt F)) (x1 : (⟨Cert.ReferenceIdeal.S1024x128, .f32⟩ : BufTy).Contents (Elt F)) (x2 : (⟨Cert.ReferenceIdeal.S1024x128, .f32⟩ : BufTy).Contents (Elt F)) (x3 : (⟨Cert.ReferenceIdeal.S128x65536, .f32⟩ : BufTy).Contents (Elt F)) (x4 : (⟨Cert.ReferenceIdeal.S1024, .i32⟩ : BufTy).Contents (Elt F)) (x5 : (⟨Cert.ReferenceIdeal.S65536, .i32⟩ : BufTy).Contents (Elt F)) :
    Cert.ReferenceIdeal.Read.val_main_call1_v7 (F := F) x0 x1 x2 x3 x4 x5 = Cert.KernelIdeal.TailVal.n_call0_v7 (Cert.ReferenceIdeal.Read.val_main_v7 x0) x1 x2 x4 (Cert.ReferenceIdeal.Read.val_main_v50 x3 x5) (Cert.ReferenceIdeal.Read.val_main_v54 x5) := by
  unfold Cert.ReferenceIdeal.Read.val_main_call1_v7 Cert.KernelIdeal.TailVal.n_call0_v7
  rewrite [pair_call0_v6]
  rfl
theorem pair_call0_v8 (x0 : (⟨Cert.ReferenceIdeal.S1024x128, .f32⟩ : BufTy).Contents (Elt F)) (x1 : (⟨Cert.ReferenceIdeal.S1024x128, .f32⟩ : BufTy).Contents (Elt F)) (x2 : (⟨Cert.ReferenceIdeal.S1024x128, .f32⟩ : BufTy).Contents (Elt F)) (x3 : (⟨Cert.ReferenceIdeal.S128x65536, .f32⟩ : BufTy).Contents (Elt F)) (x4 : (⟨Cert.ReferenceIdeal.S1024, .i32⟩ : BufTy).Contents (Elt F)) (x5 : (⟨Cert.ReferenceIdeal.S65536, .i32⟩ : BufTy).Contents (Elt F)) :
    Cert.ReferenceIdeal.Read.val_main_call1_v8 (F := F) x0 x1 x2 x3 x4 x5 = Cert.KernelIdeal.TailVal.n_call0_v8 (Cert.ReferenceIdeal.Read.val_main_v7 x0) x1 x2 x4 (Cert.ReferenceIdeal.Read.val_main_v50 x3 x5) (Cert.ReferenceIdeal.Read.val_main_v54 x5) := by
  unfold Cert.ReferenceIdeal.Read.val_main_call1_v8 Cert.KernelIdeal.TailVal.n_call0_v8
  rewrite [pair_call0_v7]
  rfl
theorem pair_call0_v9 (x0 : (⟨Cert.ReferenceIdeal.S1024x128, .f32⟩ : BufTy).Contents (Elt F)) (x1 : (⟨Cert.ReferenceIdeal.S1024x128, .f32⟩ : BufTy).Contents (Elt F)) (x2 : (⟨Cert.ReferenceIdeal.S1024x128, .f32⟩ : BufTy).Contents (Elt F)) (x3 : (⟨Cert.ReferenceIdeal.S128x65536, .f32⟩ : BufTy).Contents (Elt F)) (x4 : (⟨Cert.ReferenceIdeal.S1024, .i32⟩ : BufTy).Contents (Elt F)) (x5 : (⟨Cert.ReferenceIdeal.S65536, .i32⟩ : BufTy).Contents (Elt F)) :
    Cert.ReferenceIdeal.Read.val_main_call1_v9 (F := F) x0 x1 x2 x3 x4 x5 = Cert.KernelIdeal.TailVal.n_call0_v9 (Cert.ReferenceIdeal.Read.val_main_v7 x0) x1 x2 x4 (Cert.ReferenceIdeal.Read.val_main_v50 x3 x5) (Cert.ReferenceIdeal.Read.val_main_v54 x5) := by
  unfold Cert.ReferenceIdeal.Read.val_main_call1_v9 Cert.KernelIdeal.TailVal.n_call0_v9
  rewrite [pair_call0_v8]
  rfl
theorem pair_call0_v10 (x0 : (⟨Cert.ReferenceIdeal.S1024x128, .f32⟩ : BufTy).Contents (Elt F)) (x1 : (⟨Cert.ReferenceIdeal.S1024x128, .f32⟩ : BufTy).Contents (Elt F)) (x2 : (⟨Cert.ReferenceIdeal.S1024x128, .f32⟩ : BufTy).Contents (Elt F)) (x3 : (⟨Cert.ReferenceIdeal.S128x65536, .f32⟩ : BufTy).Contents (Elt F)) (x4 : (⟨Cert.ReferenceIdeal.S1024, .i32⟩ : BufTy).Contents (Elt F)) (x5 : (⟨Cert.ReferenceIdeal.S65536, .i32⟩ : BufTy).Contents (Elt F)) :
    Cert.ReferenceIdeal.Read.val_main_call1_v10 (F := F) x0 x1 x2 x3 x4 x5 = Cert.KernelIdeal.TailVal.n_call0_v10 (Cert.ReferenceIdeal.Read.val_main_v7 x0) x1 x2 x4 (Cert.ReferenceIdeal.Read.val_main_v50 x3 x5) (Cert.ReferenceIdeal.Read.val_main_v54 x5) := by
  unfold Cert.ReferenceIdeal.Read.val_main_call1_v10 Cert.KernelIdeal.TailVal.n_call0_v10
  rewrite [pair_call0_v9]
  rfl
theorem pair_v180 (x0 : (⟨Cert.ReferenceIdeal.S1024x128, .f32⟩ : BufTy).Contents (Elt F)) (x1 : (⟨Cert.ReferenceIdeal.S1024x128, .f32⟩ : BufTy).Contents (Elt F)) (x2 : (⟨Cert.ReferenceIdeal.S1024x128, .f32⟩ : BufTy).Contents (Elt F)) (x3 : (⟨Cert.ReferenceIdeal.S128x65536, .f32⟩ : BufTy).Contents (Elt F)) (x4 : (⟨Cert.ReferenceIdeal.S1024, .i32⟩ : BufTy).Contents (Elt F)) (x5 : (⟨Cert.ReferenceIdeal.S65536, .i32⟩ : BufTy).Contents (Elt F)) :
    Cert.ReferenceIdeal.Read.val_main_v138 (F := F) x0 x1 x2 x3 x4 x5 = Cert.KernelIdeal.TailVal.n_v180 (Cert.ReferenceIdeal.Read.val_main_v7 x0) x1 x2 x4 (Cert.ReferenceIdeal.Read.val_main_v50 x3 x5) (Cert.ReferenceIdeal.Read.val_main_v54 x5) := by
  unfold Cert.ReferenceIdeal.Read.val_main_v138 Cert.KernelIdeal.TailVal.n_v180
  rewrite [pair_call0_v5, pair_call0_v10]
  rfl
theorem pair_v181 (x0 : (⟨Cert.ReferenceIdeal.S1024x128, .f32⟩ : BufTy).Contents (Elt F)) (x1 : (⟨Cert.ReferenceIdeal.S1024x128, .f32⟩ : BufTy).Contents (Elt F)) (x2 : (⟨Cert.ReferenceIdeal.S1024x128, .f32⟩ : BufTy).Contents (Elt F)) (x3 : (⟨Cert.ReferenceIdeal.S128x65536, .f32⟩ : BufTy).Contents (Elt F)) (x4 : (⟨Cert.ReferenceIdeal.S1024, .i32⟩ : BufTy).Contents (Elt F)) (x5 : (⟨Cert.ReferenceIdeal.S65536, .i32⟩ : BufTy).Contents (Elt F)) :
    Cert.ReferenceIdeal.Read.val_main_v139 (F := F) x0 x1 x2 x3 x4 x5 = Cert.KernelIdeal.TailVal.n_v181 (Cert.ReferenceIdeal.Read.val_main_v7 x0) x1 x2 x4 (Cert.ReferenceIdeal.Read.val_main_v50 x3 x5) (Cert.ReferenceIdeal.Read.val_main_v54 x5) := by
  unfold Cert.ReferenceIdeal.Read.val_main_v139 Cert.KernelIdeal.TailVal.n_v181
  rewrite [pair_v180, pair_v177]
  rfl
theorem pair_v182 (x0 : (⟨Cert.ReferenceIdeal.S1024x128, .f32⟩ : BufTy).Contents (Elt F)) (x1 : (⟨Cert.ReferenceIdeal.S1024x128, .f32⟩ : BufTy).Contents (Elt F)) (x2 : (⟨Cert.ReferenceIdeal.S1024x128, .f32⟩ : BufTy).Contents (Elt F)) (x3 : (⟨Cert.ReferenceIdeal.S128x65536, .f32⟩ : BufTy).Contents (Elt F)) (x4 : (⟨Cert.ReferenceIdeal.S1024, .i32⟩ : BufTy).Contents (Elt F)) (x5 : (⟨Cert.ReferenceIdeal.S65536, .i32⟩ : BufTy).Contents (Elt F)) :
    Cert.ReferenceIdeal.Read.val_main_v140 (F := F) x0 x1 x2 x3 x4 x5 = Cert.KernelIdeal.TailVal.n_v182 (Cert.ReferenceIdeal.Read.val_main_v7 x0) x1 x2 x4 (Cert.ReferenceIdeal.Read.val_main_v50 x3 x5) (Cert.ReferenceIdeal.Read.val_main_v54 x5) := by
  unfold Cert.ReferenceIdeal.Read.val_main_v140 Cert.KernelIdeal.TailVal.n_v182
  rewrite [pair_v181]
  rfl
theorem pair_v183 (x0 : (⟨Cert.ReferenceIdeal.S1024x128, .f32⟩ : BufTy).Contents (Elt F)) (x1 : (⟨Cert.ReferenceIdeal.S1024x128, .f32⟩ : BufTy).Contents (Elt F)) (x2 : (⟨Cert.ReferenceIdeal.S1024x128, .f32⟩ : BufTy).Contents (Elt F)) (x3 : (⟨Cert.ReferenceIdeal.S128x65536, .f32⟩ : BufTy).Contents (Elt F)) (x4 : (⟨Cert.ReferenceIdeal.S1024, .i32⟩ : BufTy).Contents (Elt F)) (x5 : (⟨Cert.ReferenceIdeal.S65536, .i32⟩ : BufTy).Contents (Elt F)) :
    Cert.ReferenceIdeal.Read.val_main_v141 (F := F) x0 x1 x2 x3 x4 x5 = Cert.KernelIdeal.TailVal.n_v183 (Cert.ReferenceIdeal.Read.val_main_v7 x0) x1 x2 x4 (Cert.ReferenceIdeal.Read.val_main_v50 x3 x5) (Cert.ReferenceIdeal.Read.val_main_v54 x5) := by
  unfold Cert.ReferenceIdeal.Read.val_main_v141 Cert.KernelIdeal.TailVal.n_v183
  rewrite [pair_v182]
  rfl
theorem pair_v184 (x0 : (⟨Cert.ReferenceIdeal.S1024x128, .f32⟩ : BufTy).Contents (Elt F)) (x1 : (⟨Cert.ReferenceIdeal.S1024x128, .f32⟩ : BufTy).Contents (Elt F)) (x2 : (⟨Cert.ReferenceIdeal.S1024x128, .f32⟩ : BufTy).Contents (Elt F)) (x3 : (⟨Cert.ReferenceIdeal.S128x65536, .f32⟩ : BufTy).Contents (Elt F)) (x4 : (⟨Cert.ReferenceIdeal.S1024, .i32⟩ : BufTy).Contents (Elt F)) (x5 : (⟨Cert.ReferenceIdeal.S65536, .i32⟩ : BufTy).Contents (Elt F)) :
    Cert.ReferenceIdeal.Read.val_main_v142 (F := F) x0 x1 x2 x3 x4 x5 = Cert.KernelIdeal.TailVal.n_v184 (Cert.ReferenceIdeal.Read.val_main_v7 x0) x1 x2 x4 (Cert.ReferenceIdeal.Read.val_main_v50 x3 x5) (Cert.ReferenceIdeal.Read.val_main_v54 x5) := by
  unfold Cert.ReferenceIdeal.Read.val_main_v142 Cert.KernelIdeal.TailVal.n_v184
  rewrite [pair_v183]
  rfl
theorem pair_v185 (x0 : (⟨Cert.ReferenceIdeal.S1024x128, .f32⟩ : BufTy).Contents (Elt F)) (x1 : (⟨Cert.ReferenceIdeal.S1024x128, .f32⟩ : BufTy).Contents (Elt F)) (x2 : (⟨Cert.ReferenceIdeal.S1024x128, .f32⟩ : BufTy).Contents (Elt F)) (x3 : (⟨Cert.ReferenceIdeal.S128x65536, .f32⟩ : BufTy).Contents (Elt F)) (x4 : (⟨Cert.ReferenceIdeal.S1024, .i32⟩ : BufTy).Contents (Elt F)) (x5 : (⟨Cert.ReferenceIdeal.S65536, .i32⟩ : BufTy).Contents (Elt F)) :
    Cert.ReferenceIdeal.Read.val_main_v143 (F := F) x0 x1 x2 x3 x4 x5 = Cert.KernelIdeal.TailVal.n_v185 (Cert.ReferenceIdeal.Read.val_main_v7 x0) x1 x2 x4 (Cert.ReferenceIdeal.Read.val_main_v50 x3 x5) (Cert.ReferenceIdeal.Read.val_main_v54 x5) := by
  unfold Cert.ReferenceIdeal.Read.val_main_v143 Cert.KernelIdeal.TailVal.n_v185
  rewrite [pair_v184]
  rfl
theorem pair_v186 (x2 : (⟨Cert.ReferenceIdeal.S1024x128, .f32⟩ : BufTy).Contents (Elt F)) (x3 : (⟨Cert.ReferenceIdeal.S128x65536, .f32⟩ : BufTy).Contents (Elt F)) (x4 : (⟨Cert.ReferenceIdeal.S1024, .i32⟩ : BufTy).Contents (Elt F)) (x5 : (⟨Cert.ReferenceIdeal.S65536, .i32⟩ : BufTy).Contents (Elt F)) :
    Cert.ReferenceIdeal.Read.val_main_v144 (F := F) x2 x3 x4 x5 = Cert.KernelIdeal.TailVal.n_v186 x2 x4 (Cert.ReferenceIdeal.Read.val_main_v50 x3 x5) (Cert.ReferenceIdeal.Read.val_main_v54 x5) := by
  unfold Cert.ReferenceIdeal.Read.val_main_v144 Cert.KernelIdeal.TailVal.n_v186
  rewrite [pair_v148]
  rfl
theorem pair_v187 (x1 : (⟨Cert.ReferenceIdeal.S1024x128, .f32⟩ : BufTy).Contents (Elt F)) (x2 : (⟨Cert.ReferenceIdeal.S1024x128, .f32⟩ : BufTy).Contents (Elt F)) (x3 : (⟨Cert.ReferenceIdeal.S128x65536, .f32⟩ : BufTy).Contents (Elt F)) (x4 : (⟨Cert.ReferenceIdeal.S1024, .i32⟩ : BufTy).Contents (Elt F)) (x5 : (⟨Cert.ReferenceIdeal.S65536, .i32⟩ : BufTy).Contents (Elt F)) :
    Cert.ReferenceIdeal.Read.val_main_v145 (F := F) x1 x2 x3 x4 x5 = Cert.KernelIdeal.TailVal.n_v187 x1 x2 x4 (Cert.ReferenceIdeal.Read.val_main_v50 x3 x5) (Cert.ReferenceIdeal.Read.val_main_v54 x5) := by
  unfold Cert.ReferenceIdeal.Read.val_main_v145 Cert.KernelIdeal.TailVal.n_v187
  rewrite [pair_v128, pair_v186]
  rfl
theorem pair_v188 (x3 : (⟨Cert.ReferenceIdeal.S128x65536, .f32⟩ : BufTy).Contents (Elt F)) (x5 : (⟨Cert.ReferenceIdeal.S65536, .i32⟩ : BufTy).Contents (Elt F)) :
    Cert.ReferenceIdeal.Read.val_main_v146 (F := F) x3 x5 = Cert.KernelIdeal.TailVal.n_v188 (Cert.ReferenceIdeal.Read.val_main_v50 x3 x5) (Cert.ReferenceIdeal.Read.val_main_v54 x5) := by
  unfold Cert.ReferenceIdeal.Read.val_main_v146 Cert.KernelIdeal.TailVal.n_v188
  rewrite [pair_v159]
  rfl
theorem pair_v189 (x1 : (⟨Cert.ReferenceIdeal.S1024x128, .f32⟩ : BufTy).Contents (Elt F)) (x3 : (⟨Cert.ReferenceIdeal.S128x65536, .f32⟩ : BufTy).Contents (Elt F)) (x4 : (⟨Cert.ReferenceIdeal.S1024, .i32⟩ : BufTy).Contents (Elt F)) (x5 : (⟨Cert.ReferenceIdeal.S65536, .i32⟩ : BufTy).Contents (Elt F)) :
    Cert.ReferenceIdeal.Read.val_main_v147 (F := F) x1 x3 x4 x5 = Cert.KernelIdeal.TailVal.n_v189 x1 x4 (Cert.ReferenceIdeal.Read.val_main_v50 x3 x5) (Cert.ReferenceIdeal.Read.val_main_v54 x5) := by
  unfold Cert.ReferenceIdeal.Read.val_main_v147 Cert.KernelIdeal.TailVal.n_v189
  rewrite [pair_v128, pair_v188]
  rfl
theorem pair_v190 (x4 : (⟨Cert.ReferenceIdeal.S1024, .i32⟩ : BufTy).Contents (Elt F)) :
    Cert.ReferenceIdeal.Read.val_main_v148 (F := F) x4 = Cert.KernelIdeal.TailVal.n_v190 x4 := by
  unfold Cert.ReferenceIdeal.Read.val_main_v148 Cert.KernelIdeal.TailVal.n_v190
  rfl
theorem pair_v191 (x1 : (⟨Cert.ReferenceIdeal.S1024x128, .f32⟩ : BufTy).Contents (Elt F)) (x2 : (⟨Cert.ReferenceIdeal.S1024x128, .f32⟩ : BufTy).Contents (Elt F)) (x3 : (⟨Cert.ReferenceIdeal.S128x65536, .f32⟩ : BufTy).Contents (Elt F)) (x4 : (⟨Cert.ReferenceIdeal.S1024, .i32⟩ : BufTy).Contents (Elt F)) (x5 : (⟨Cert.ReferenceIdeal.S65536, .i32⟩ : BufTy).Contents (Elt F)) :
    Cert.ReferenceIdeal.Read.val_main_v149 (F := F) x1 x2 x3 x4 x5 = Cert.KernelIdeal.TailVal.n_v191 x1 x2 x4 (Cert.ReferenceIdeal.Read.val_main_v50 x3 x5) (Cert.ReferenceIdeal.Read.val_main_v54 x5) := by
  unfold Cert.ReferenceIdeal.Read.val_main_v149 Cert.KernelIdeal.TailVal.n_v191
  rewrite [pair_v187, pair_v189]
  rfl
theorem pair_v192 (x4 : (⟨Cert.ReferenceIdeal.S1024, .i32⟩ : BufTy).Contents (Elt F)) :
    Cert.ReferenceIdeal.Read.val_main_v150 (F := F) x4 = Cert.KernelIdeal.TailVal.n_v192 x4 := by
  unfold Cert.ReferenceIdeal.Read.val_main_v150 Cert.KernelIdeal.TailVal.n_v192
  rfl
theorem pair_v193 (x4 : (⟨Cert.ReferenceIdeal.S1024, .i32⟩ : BufTy).Contents (Elt F)) :
    Cert.ReferenceIdeal.Read.val_main_v151 (F := F) x4 = Cert.KernelIdeal.TailVal.n_v193 x4 := by
  unfold Cert.ReferenceIdeal.Read.val_main_v151 Cert.KernelIdeal.TailVal.n_v193
  rewrite [pair_v190]
  rfl
theorem pair_v194 (x4 : (⟨Cert.ReferenceIdeal.S1024, .i32⟩ : BufTy).Contents (Elt F)) :
    Cert.ReferenceIdeal.Read.val_main_v152 (F := F) x4 = Cert.KernelIdeal.TailVal.n_v194 x4 := by
  unfold Cert.ReferenceIdeal.Read.val_main_v152 Cert.KernelIdeal.TailVal.n_v194
  rewrite [pair_v192]
  rfl
theorem pair_v195 (x4 : (⟨Cert.ReferenceIdeal.S1024, .i32⟩ : BufTy).Contents (Elt F)) :
    Cert.ReferenceIdeal.Read.val_main_v153 (F := F) x4 = Cert.KernelIdeal.TailVal.n_v195 x4 := by
  unfold Cert.ReferenceIdeal.Read.val_main_v153 Cert.KernelIdeal.TailVal.n_v195
  rewrite [pair_v193]
  rfl
theorem pair_v196 (x4 : (⟨Cert.ReferenceIdeal.S1024, .i32⟩ : BufTy).Contents (Elt F)) :
    Cert.ReferenceIdeal.Read.val_main_v154 (F := F) x4 = Cert.KernelIdeal.TailVal.n_v196 x4 := by
  unfold Cert.ReferenceIdeal.Read.val_main_v154 Cert.KernelIdeal.TailVal.n_v196
  rewrite [pair_v194, pair_v195]
  rfl
theorem pair_v197 (x4 : (⟨Cert.ReferenceIdeal.S1024, .i32⟩ : BufTy).Contents (Elt F)) :
    Cert.ReferenceIdeal.Read.val_main_v155 (F := F) x4 = Cert.KernelIdeal.TailVal.n_v197 x4 := by
  unfold Cert.ReferenceIdeal.Read.val_main_v155 Cert.KernelIdeal.TailVal.n_v197
  rewrite [pair_v196]
  rfl
theorem pair_v198 (x4 : (⟨Cert.ReferenceIdeal.S1024, .i32⟩ : BufTy).Contents (Elt F)) :
    Cert.ReferenceIdeal.Read.val_main_v156 (F := F) x4 = Cert.KernelIdeal.TailVal.n_v198 x4 := by
  unfold Cert.ReferenceIdeal.Read.val_main_v156 Cert.KernelIdeal.TailVal.n_v198
  rewrite [pair_v197]
  rfl
theorem pair_v199 (x4 : (⟨Cert.ReferenceIdeal.S1024, .i32⟩ : BufTy).Contents (Elt F)) :
    Cert.ReferenceIdeal.Read.val_main_v157 (F := F) x4 = Cert.KernelIdeal.TailVal.n_v199 x4 := by
  unfold Cert.ReferenceIdeal.Read.val_main_v157 Cert.KernelIdeal.TailVal.n_v199
  rewrite [pair_v198]
  rfl
theorem pair_v200 (x4 : (⟨Cert.ReferenceIdeal.S1024, .i32⟩ : BufTy).Contents (Elt F)) :
    Cert.ReferenceIdeal.Read.val_main_v158 (F := F) x4 = Cert.KernelIdeal.TailVal.n_v200 x4 := by
  unfold Cert.ReferenceIdeal.Read.val_main_v158 Cert.KernelIdeal.TailVal.n_v200
  rewrite [pair_v199]
  rfl
theorem pair_v201 (x4 : (⟨Cert.ReferenceIdeal.S1024, .i32⟩ : BufTy).Contents (Elt F)) :
    Cert.ReferenceIdeal.Read.val_main_v159 (F := F) x4 = Cert.KernelIdeal.TailVal.n_v201 x4 := by
  unfold Cert.ReferenceIdeal.Read.val_main_v159 Cert.KernelIdeal.TailVal.n_v201
  rewrite [pair_v197, pair_v200]
  rfl
theorem pair_v203 (x1 : (⟨Cert.ReferenceIdeal.S1024x128, .f32⟩ : BufTy).Contents (Elt F)) (x2 : (⟨Cert.ReferenceIdeal.S1024x128, .f32⟩ : BufTy).Contents (Elt F)) (x3 : (⟨Cert.ReferenceIdeal.S128x65536, .f32⟩ : BufTy).Contents (Elt F)) (x4 : (⟨Cert.ReferenceIdeal.S1024, .i32⟩ : BufTy).Contents (Elt F)) (x5 : (⟨Cert.ReferenceIdeal.S65536, .i32⟩ : BufTy).Contents (Elt F)) :
    Cert.ReferenceIdeal.Read.val_main_v161 (F := F) x1 x2 x3 x4 x5 = Cert.KernelIdeal.TailVal.n_v203 x1 x2 x4 (Cert.ReferenceIdeal.Read.val_main_v50 x3 x5) (Cert.ReferenceIdeal.Read.val_main_v54 x5) := by
  unfold Cert.ReferenceIdeal.Read.val_main_v161 Cert.KernelIdeal.TailVal.n_v203
  rewrite [pair_v191]
  rfl
theorem pair_call1_v0 (x1 : (⟨Cert.ReferenceIdeal.S1024x128, .f32⟩ : BufTy).Contents (Elt F)) (x2 : (⟨Cert.ReferenceIdeal.S1024x128, .f32⟩ : BufTy).Contents (Elt F)) (x3 : (⟨Cert.ReferenceIdeal.S128x65536, .f32⟩ : BufTy).Contents (Elt F)) (x4 : (⟨Cert.ReferenceIdeal.S1024, .i32⟩ : BufTy).Contents (Elt F)) (x5 : (⟨Cert.ReferenceIdeal.S65536, .i32⟩ : BufTy).Contents (Elt F)) :
    Cert.ReferenceIdeal.Read.val_main_call2_v0 (F := F) x1 x2 x3 x4 x5 = Cert.KernelIdeal.TailVal.n_call1_v0 x1 x2 x4 (Cert.ReferenceIdeal.Read.val_main_v50 x3 x5) (Cert.ReferenceIdeal.Read.val_main_v54 x5) := by
  unfold Cert.ReferenceIdeal.Read.val_main_call2_v0 Cert.KernelIdeal.TailVal.n_call1_v0
  rewrite [pair_v203]
  rfl
theorem pair_call1_v2 (x1 : (⟨Cert.ReferenceIdeal.S1024x128, .f32⟩ : BufTy).Contents (Elt F)) (x2 : (⟨Cert.ReferenceIdeal.S1024x128, .f32⟩ : BufTy).Contents (Elt F)) (x3 : (⟨Cert.ReferenceIdeal.S128x65536, .f32⟩ : BufTy).Contents (Elt F)) (x4 : (⟨Cert.ReferenceIdeal.S1024, .i32⟩ : BufTy).Contents (Elt F)) (x5 : (⟨Cert.ReferenceIdeal.S65536, .i32⟩ : BufTy).Contents (Elt F)) :
    Cert.ReferenceIdeal.Read.val_main_call2_v2 (F := F) x1 x2 x3 x4 x5 = Cert.KernelIdeal.TailVal.n_call1_v2 x1 x2 x4 (Cert.ReferenceIdeal.Read.val_main_v50 x3 x5) (Cert.ReferenceIdeal.Read.val_main_v54 x5) := by
  unfold Cert.ReferenceIdeal.Read.val_main_call2_v2 Cert.KernelIdeal.TailVal.n_call1_v2
  rewrite [pair_call1_v0]
  rfl
theorem pair_call1_v3 (x1 : (⟨Cert.ReferenceIdeal.S1024x128, .f32⟩ : BufTy).Contents (Elt F)) (x2 : (⟨Cert.ReferenceIdeal.S1024x128, .f32⟩ : BufTy).Contents (Elt F)) (x3 : (⟨Cert.ReferenceIdeal.S128x65536, .f32⟩ : BufTy).Contents (Elt F)) (x4 : (⟨Cert.ReferenceIdeal.S1024, .i32⟩ : BufTy).Contents (Elt F)) (x5 : (⟨Cert.ReferenceIdeal.S65536, .i32⟩ : BufTy).Contents (Elt F)) :
    Cert.ReferenceIdeal.Read.val_main_call2_v3 (F := F) x1 x2 x3 x4 x5 = Cert.KernelIdeal.TailVal.n_call1_v3 x1 x2 x4 (Cert.ReferenceIdeal.Read.val_main_v50 x3 x5) (Cert.ReferenceIdeal.Read.val_main_v54 x5) := by
  unfold Cert.ReferenceIdeal.Read.val_main_call2_v3 Cert.KernelIdeal.TailVal.n_call1_v3
  rewrite [pair_call1_v2]
  rfl
theorem pair_call1_v4 (x1 : (⟨Cert.ReferenceIdeal.S1024x128, .f32⟩ : BufTy).Contents (Elt F)) (x2 : (⟨Cert.ReferenceIdeal.S1024x128, .f32⟩ : BufTy).Contents (Elt F)) (x3 : (⟨Cert.ReferenceIdeal.S128x65536, .f32⟩ : BufTy).Contents (Elt F)) (x4 : (⟨Cert.ReferenceIdeal.S1024, .i32⟩ : BufTy).Contents (Elt F)) (x5 : (⟨Cert.ReferenceIdeal.S65536, .i32⟩ : BufTy).Contents (Elt F)) :
    Cert.ReferenceIdeal.Read.val_main_call2_v4 (F := F) x1 x2 x3 x4 x5 = Cert.KernelIdeal.TailVal.n_call1_v4 x1 x2 x4 (Cert.ReferenceIdeal.Read.val_main_v50 x3 x5) (Cert.ReferenceIdeal.Read.val_main_v54 x5) := by
  unfold Cert.ReferenceIdeal.Read.val_main_call2_v4 Cert.KernelIdeal.TailVal.n_call1_v4
  rewrite [pair_call1_v3]
  rfl
theorem pair_call1_v5 (x1 : (⟨Cert.ReferenceIdeal.S1024x128, .f32⟩ : BufTy).Contents (Elt F)) (x2 : (⟨Cert.ReferenceIdeal.S1024x128, .f32⟩ : BufTy).Contents (Elt F)) (x3 : (⟨Cert.ReferenceIdeal.S128x65536, .f32⟩ : BufTy).Contents (Elt F)) (x4 : (⟨Cert.ReferenceIdeal.S1024, .i32⟩ : BufTy).Contents (Elt F)) (x5 : (⟨Cert.ReferenceIdeal.S65536, .i32⟩ : BufTy).Contents (Elt F)) :
    Cert.ReferenceIdeal.Read.val_main_call2_v5 (F := F) x1 x2 x3 x4 x5 = Cert.KernelIdeal.TailVal.n_call1_v5 x1 x2 x4 (Cert.ReferenceIdeal.Read.val_main_v50 x3 x5) (Cert.ReferenceIdeal.Read.val_main_v54 x5) := by
  unfold Cert.ReferenceIdeal.Read.val_main_call2_v5 Cert.KernelIdeal.TailVal.n_call1_v5
  rewrite [pair_v203, pair_call1_v4]
  rfl
theorem pair_call1_v6 (x1 : (⟨Cert.ReferenceIdeal.S1024x128, .f32⟩ : BufTy).Contents (Elt F)) (x2 : (⟨Cert.ReferenceIdeal.S1024x128, .f32⟩ : BufTy).Contents (Elt F)) (x3 : (⟨Cert.ReferenceIdeal.S128x65536, .f32⟩ : BufTy).Contents (Elt F)) (x4 : (⟨Cert.ReferenceIdeal.S1024, .i32⟩ : BufTy).Contents (Elt F)) (x5 : (⟨Cert.ReferenceIdeal.S65536, .i32⟩ : BufTy).Contents (Elt F)) :
    Cert.ReferenceIdeal.Read.val_main_call2_v6 (F := F) x1 x2 x3 x4 x5 = Cert.KernelIdeal.TailVal.n_call1_v6 x1 x2 x4 (Cert.ReferenceIdeal.Read.val_main_v50 x3 x5) (Cert.ReferenceIdeal.Read.val_main_v54 x5) := by
  unfold Cert.ReferenceIdeal.Read.val_main_call2_v6 Cert.KernelIdeal.TailVal.n_call1_v6
  rewrite [pair_call1_v5]
  rfl
theorem pair_call1_v7 (x1 : (⟨Cert.ReferenceIdeal.S1024x128, .f32⟩ : BufTy).Contents (Elt F)) (x2 : (⟨Cert.ReferenceIdeal.S1024x128, .f32⟩ : BufTy).Contents (Elt F)) (x3 : (⟨Cert.ReferenceIdeal.S128x65536, .f32⟩ : BufTy).Contents (Elt F)) (x4 : (⟨Cert.ReferenceIdeal.S1024, .i32⟩ : BufTy).Contents (Elt F)) (x5 : (⟨Cert.ReferenceIdeal.S65536, .i32⟩ : BufTy).Contents (Elt F)) :
    Cert.ReferenceIdeal.Read.val_main_call2_v7 (F := F) x1 x2 x3 x4 x5 = Cert.KernelIdeal.TailVal.n_call1_v7 x1 x2 x4 (Cert.ReferenceIdeal.Read.val_main_v50 x3 x5) (Cert.ReferenceIdeal.Read.val_main_v54 x5) := by
  unfold Cert.ReferenceIdeal.Read.val_main_call2_v7 Cert.KernelIdeal.TailVal.n_call1_v7
  rewrite [pair_call1_v6]
  rfl
theorem pair_call1_v8 (x1 : (⟨Cert.ReferenceIdeal.S1024x128, .f32⟩ : BufTy).Contents (Elt F)) (x2 : (⟨Cert.ReferenceIdeal.S1024x128, .f32⟩ : BufTy).Contents (Elt F)) (x3 : (⟨Cert.ReferenceIdeal.S128x65536, .f32⟩ : BufTy).Contents (Elt F)) (x4 : (⟨Cert.ReferenceIdeal.S1024, .i32⟩ : BufTy).Contents (Elt F)) (x5 : (⟨Cert.ReferenceIdeal.S65536, .i32⟩ : BufTy).Contents (Elt F)) :
    Cert.ReferenceIdeal.Read.val_main_call2_v8 (F := F) x1 x2 x3 x4 x5 = Cert.KernelIdeal.TailVal.n_call1_v8 x1 x2 x4 (Cert.ReferenceIdeal.Read.val_main_v50 x3 x5) (Cert.ReferenceIdeal.Read.val_main_v54 x5) := by
  unfold Cert.ReferenceIdeal.Read.val_main_call2_v8 Cert.KernelIdeal.TailVal.n_call1_v8
  rewrite [pair_call1_v7]
  rfl
theorem pair_call1_v9 (x1 : (⟨Cert.ReferenceIdeal.S1024x128, .f32⟩ : BufTy).Contents (Elt F)) (x2 : (⟨Cert.ReferenceIdeal.S1024x128, .f32⟩ : BufTy).Contents (Elt F)) (x3 : (⟨Cert.ReferenceIdeal.S128x65536, .f32⟩ : BufTy).Contents (Elt F)) (x4 : (⟨Cert.ReferenceIdeal.S1024, .i32⟩ : BufTy).Contents (Elt F)) (x5 : (⟨Cert.ReferenceIdeal.S65536, .i32⟩ : BufTy).Contents (Elt F)) :
    Cert.ReferenceIdeal.Read.val_main_call2_v9 (F := F) x1 x2 x3 x4 x5 = Cert.KernelIdeal.TailVal.n_call1_v9 x1 x2 x4 (Cert.ReferenceIdeal.Read.val_main_v50 x3 x5) (Cert.ReferenceIdeal.Read.val_main_v54 x5) := by
  unfold Cert.ReferenceIdeal.Read.val_main_call2_v9 Cert.KernelIdeal.TailVal.n_call1_v9
  rewrite [pair_call1_v8]
  rfl
theorem pair_call1_v10 (x1 : (⟨Cert.ReferenceIdeal.S1024x128, .f32⟩ : BufTy).Contents (Elt F)) (x2 : (⟨Cert.ReferenceIdeal.S1024x128, .f32⟩ : BufTy).Contents (Elt F)) (x3 : (⟨Cert.ReferenceIdeal.S128x65536, .f32⟩ : BufTy).Contents (Elt F)) (x4 : (⟨Cert.ReferenceIdeal.S1024, .i32⟩ : BufTy).Contents (Elt F)) (x5 : (⟨Cert.ReferenceIdeal.S65536, .i32⟩ : BufTy).Contents (Elt F)) :
    Cert.ReferenceIdeal.Read.val_main_call2_v10 (F := F) x1 x2 x3 x4 x5 = Cert.KernelIdeal.TailVal.n_call1_v10 x1 x2 x4 (Cert.ReferenceIdeal.Read.val_main_v50 x3 x5) (Cert.ReferenceIdeal.Read.val_main_v54 x5) := by
  unfold Cert.ReferenceIdeal.Read.val_main_call2_v10 Cert.KernelIdeal.TailVal.n_call1_v10
  rewrite [pair_call1_v9]
  rfl
theorem pair_v204 (x1 : (⟨Cert.ReferenceIdeal.S1024x128, .f32⟩ : BufTy).Contents (Elt F)) (x2 : (⟨Cert.ReferenceIdeal.S1024x128, .f32⟩ : BufTy).Contents (Elt F)) (x3 : (⟨Cert.ReferenceIdeal.S128x65536, .f32⟩ : BufTy).Contents (Elt F)) (x4 : (⟨Cert.ReferenceIdeal.S1024, .i32⟩ : BufTy).Contents (Elt F)) (x5 : (⟨Cert.ReferenceIdeal.S65536, .i32⟩ : BufTy).Contents (Elt F)) :
    Cert.ReferenceIdeal.Read.val_main_v162 (F := F) x1 x2 x3 x4 x5 = Cert.KernelIdeal.TailVal.n_v204 x1 x2 x4 (Cert.ReferenceIdeal.Read.val_main_v50 x3 x5) (Cert.ReferenceIdeal.Read.val_main_v54 x5) := by
  unfold Cert.ReferenceIdeal.Read.val_main_v162 Cert.KernelIdeal.TailVal.n_v204
  rewrite [pair_call1_v5, pair_call1_v10]
  rfl
theorem pair_v205 (x1 : (⟨Cert.ReferenceIdeal.S1024x128, .f32⟩ : BufTy).Contents (Elt F)) (x2 : (⟨Cert.ReferenceIdeal.S1024x128, .f32⟩ : BufTy).Contents (Elt F)) (x3 : (⟨Cert.ReferenceIdeal.S128x65536, .f32⟩ : BufTy).Contents (Elt F)) (x4 : (⟨Cert.ReferenceIdeal.S1024, .i32⟩ : BufTy).Contents (Elt F)) (x5 : (⟨Cert.ReferenceIdeal.S65536, .i32⟩ : BufTy).Contents (Elt F)) :
    Cert.ReferenceIdeal.Read.val_main_v163 (F := F) x1 x2 x3 x4 x5 = Cert.KernelIdeal.TailVal.n_v205 x1 x2 x4 (Cert.ReferenceIdeal.Read.val_main_v50 x3 x5) (Cert.ReferenceIdeal.Read.val_main_v54 x5) := by
  unfold Cert.ReferenceIdeal.Read.val_main_v163 Cert.KernelIdeal.TailVal.n_v205
  rewrite [pair_v204, pair_v201]
  rfl
theorem pair_v206 (x1 : (⟨Cert.ReferenceIdeal.S1024x128, .f32⟩ : BufTy).Contents (Elt F)) (x2 : (⟨Cert.ReferenceIdeal.S1024x128, .f32⟩ : BufTy).Contents (Elt F)) (x3 : (⟨Cert.ReferenceIdeal.S128x65536, .f32⟩ : BufTy).Contents (Elt F)) (x4 : (⟨Cert.ReferenceIdeal.S1024, .i32⟩ : BufTy).Contents (Elt F)) (x5 : (⟨Cert.ReferenceIdeal.S65536, .i32⟩ : BufTy).Contents (Elt F)) :
    Cert.ReferenceIdeal.Read.val_main_v164 (F := F) x1 x2 x3 x4 x5 = Cert.KernelIdeal.TailVal.n_v206 x1 x2 x4 (Cert.ReferenceIdeal.Read.val_main_v50 x3 x5) (Cert.ReferenceIdeal.Read.val_main_v54 x5) := by
  unfold Cert.ReferenceIdeal.Read.val_main_v164 Cert.KernelIdeal.TailVal.n_v206
  rewrite [pair_v205]
  rfl
theorem pair_v207 (x1 : (⟨Cert.ReferenceIdeal.S1024x128, .f32⟩ : BufTy).Contents (Elt F)) (x2 : (⟨Cert.ReferenceIdeal.S1024x128, .f32⟩ : BufTy).Contents (Elt F)) (x3 : (⟨Cert.ReferenceIdeal.S128x65536, .f32⟩ : BufTy).Contents (Elt F)) (x4 : (⟨Cert.ReferenceIdeal.S1024, .i32⟩ : BufTy).Contents (Elt F)) (x5 : (⟨Cert.ReferenceIdeal.S65536, .i32⟩ : BufTy).Contents (Elt F)) :
    Cert.ReferenceIdeal.Read.val_main_v165 (F := F) x1 x2 x3 x4 x5 = Cert.KernelIdeal.TailVal.n_v207 x1 x2 x4 (Cert.ReferenceIdeal.Read.val_main_v50 x3 x5) (Cert.ReferenceIdeal.Read.val_main_v54 x5) := by
  unfold Cert.ReferenceIdeal.Read.val_main_v165 Cert.KernelIdeal.TailVal.n_v207
  rewrite [pair_v206]
  rfl
theorem pair_v208 (x1 : (⟨Cert.ReferenceIdeal.S1024x128, .f32⟩ : BufTy).Contents (Elt F)) (x2 : (⟨Cert.ReferenceIdeal.S1024x128, .f32⟩ : BufTy).Contents (Elt F)) (x3 : (⟨Cert.ReferenceIdeal.S128x65536, .f32⟩ : BufTy).Contents (Elt F)) (x4 : (⟨Cert.ReferenceIdeal.S1024, .i32⟩ : BufTy).Contents (Elt F)) (x5 : (⟨Cert.ReferenceIdeal.S65536, .i32⟩ : BufTy).Contents (Elt F)) :
    Cert.ReferenceIdeal.Read.val_main_v166 (F := F) x1 x2 x3 x4 x5 = Cert.KernelIdeal.TailVal.n_v208 x1 x2 x4 (Cert.ReferenceIdeal.Read.val_main_v50 x3 x5) (Cert.ReferenceIdeal.Read.val_main_v54 x5) := by
  unfold Cert.ReferenceIdeal.Read.val_main_v166 Cert.KernelIdeal.TailVal.n_v208
  rewrite [pair_v207]
  rfl
theorem pair_v209 (x1 : (⟨Cert.ReferenceIdeal.S1024x128, .f32⟩ : BufTy).Contents (Elt F)) (x2 : (⟨Cert.ReferenceIdeal.S1024x128, .f32⟩ : BufTy).Contents (Elt F)) (x3 : (⟨Cert.ReferenceIdeal.S128x65536, .f32⟩ : BufTy).Contents (Elt F)) (x4 : (⟨Cert.ReferenceIdeal.S1024, .i32⟩ : BufTy).Contents (Elt F)) (x5 : (⟨Cert.ReferenceIdeal.S65536, .i32⟩ : BufTy).Contents (Elt F)) :
    Cert.ReferenceIdeal.Read.val_main_v167 (F := F) x1 x2 x3 x4 x5 = Cert.KernelIdeal.TailVal.n_v209 x1 x2 x4 (Cert.ReferenceIdeal.Read.val_main_v50 x3 x5) (Cert.ReferenceIdeal.Read.val_main_v54 x5) := by
  unfold Cert.ReferenceIdeal.Read.val_main_v167 Cert.KernelIdeal.TailVal.n_v209
  rewrite [pair_v208]
  rfl

end Cert.Chain

end
-- ==== Proof.Chain.lean ====
/-
  The second and third results of the two programs. Both programs apply the same host operations to the normalised
  anchors, the first and third anchor arrays' companions, the batch organisation indices, the per-organisation column
  sums of the queue and the per-organisation counts; only the per-organisation sums are made differently (the
  reference scatters the queue's columns by organisation, the kernel program adds its two cores' partial sums and
  transposes). Stage by stage the reference's stage functions are the kernel program's tail operations at the
  reference's own anchors, sums and counts; so once the per-organisation sums agree, the two results agree.
-/
import proofs.«405218_j60748017434937_2_alg».proof.Proof.KI.ValueRun
import proofs.«405218_j60748017434937_2_alg».proof.Proof.KI.HeadVal
import proofs.«405218_j60748017434937_2_alg».proof.Proof.ChainPairs

set_option maxRecDepth 16384

noncomputable section

namespace Cert.Chain

open Idealize.ShloMosaic Idealize.ShloMosaic.TcCoe Idealize.SL.Sem Idealize.ShloMosaic.StableHlo
open Cert.KernelIdeal.Hand

variable {F : FTy → Type} [FloatOps F]

/-! ## The reference's results as the kernel program's tail functions -/

section Ref
variable (x0 x1 x2 : (⟨Cert.ReferenceIdeal.S1024x128, .f32⟩ : BufTy).Contents (Elt F))
  (x3 : (⟨Cert.ReferenceIdeal.S128x65536, .f32⟩ : BufTy).Contents (Elt F))
  (x4 : (⟨Cert.ReferenceIdeal.S1024, .i32⟩ : BufTy).Contents (Elt F)) (x5 : (⟨Cert.ReferenceIdeal.S65536, .i32⟩ : BufTy).Contents (Elt F))

/-- The reference's second result is the tail's second-result function of the reference's normalised anchors,
    per-organisation sums and counts. -/
theorem second_ref :
    Cert.ReferenceIdeal.Read.val_main_v143 (F := F) x0 x1 x2 x3 x4 x5
      = Cert.KernelIdeal.TailVal.n_v185 (Cert.ReferenceIdeal.Read.val_main_v7 x0) x1 x2 x4
          (Cert.ReferenceIdeal.Read.val_main_v50 x3 x5) (Cert.ReferenceIdeal.Read.val_main_v54 x5) :=
  pair_v185 x0 x1 x2 x3 x4 x5

/-- The reference's third result likewise (it does not read the anchors). -/
theorem third_ref :
    Cert.ReferenceIdeal.Read.val_main_v167 (F := F) x1 x2 x3 x4 x5
      = Cert.KernelIdeal.TailVal.n_v209 x1 x2 x4
          (Cert.ReferenceIdeal.Read.val_main_v50 x3 x5) (Cert.ReferenceIdeal.Read.val_main_v54 x5) :=
  pair_v209 x1 x2 x3 x4 x5

/-- The reference's normalised anchors are the kernel program's: each row over its Euclidean norm, floored. -/
theorem ref_v7 : Cert.ReferenceIdeal.Read.val_main_v7 (F := F) x0 = Cert.KernelIdeal.HeadVal.nrm x0 := rfl

/-- The reference's per-organisation counts are the kernel program's: ones scattered by organisation. -/
theorem ref_v54 : Cert.ReferenceIdeal.Read.val_main_v54 (F := F) x5 = Cert.KernelIdeal.TailVal.n_v80 x5 := rfl

end Ref

/-! ## The two programs' second and third results -/

section Programs
open Cert.KernelIdeal

variable (m : (ℓ : Loc Cert.KernelIdeal.nD Cert.KernelIdeal.τ Cert.KernelIdeal.sig) → Buf (Elt F) ℓ)
  (m' : (ℓ : Loc Cert.ReferenceIdeal.nD Cert.ReferenceIdeal.τ Cert.ReferenceIdeal.sig) → Buf (Elt F) ℓ)
  (c : Dev Cert.KernelIdeal.nD)

/-- The six argument arrays of the two launch memories agree. -/
abbrev Agree : Prop :=
  m' ((c.tc : Thread Cert.ReferenceIdeal.nD Cert.ReferenceIdeal.τ).loc Cert.ReferenceIdeal.main_arg0) = m ((c.tc : Thread Cert.KernelIdeal.nD Cert.KernelIdeal.τ).loc Cert.KernelIdeal.main_arg0)
  ∧ m' ((c.tc : Thread Cert.ReferenceIdeal.nD Cert.ReferenceIdeal.τ).loc Cert.ReferenceIdeal.main_arg1) = m ((c.tc : Thread Cert.KernelIdeal.nD Cert.KernelIdeal.τ).loc Cert.KernelIdeal.main_arg1)
  ∧ m' ((c.tc : Thread Cert.ReferenceIdeal.nD Cert.ReferenceIdeal.τ).loc Cert.ReferenceIdeal.main_arg2) = m ((c.tc : Thread Cert.KernelIdeal.nD Cert.KernelIdeal.τ).loc Cert.KernelIdeal.main_arg2)
  ∧ m' ((c.tc : Thread Cert.ReferenceIdeal.nD Cert.ReferenceIdeal.τ).loc Cert.ReferenceIdeal.main_arg3) = m ((c.tc : Thread Cert.KernelIdeal.nD Cert.KernelIdeal.τ).loc Cert.KernelIdeal.main_arg3)
  ∧ m' ((c.tc : Thread Cert.ReferenceIdeal.nD Cert.ReferenceIdeal.τ).loc Cert.ReferenceIdeal.main_arg4) = m ((c.tc : Thread Cert.KernelIdeal.nD Cert.KernelIdeal.τ).loc Cert.KernelIdeal.main_arg4)
  ∧ m' ((c.tc : Thread Cert.ReferenceIdeal.nD Cert.ReferenceIdeal.τ).loc Cert.ReferenceIdeal.main_arg5) = m ((c.tc : Thread Cert.KernelIdeal.nD Cert.KernelIdeal.τ).loc Cert.KernelIdeal.main_arg5)

/-- The per-organisation sums agree: the two cores' partial sums the region leaves, added and transposed, are the
    reference's scatter of the queue's columns by organisation. -/
abbrev GsumAgree : Prop :=
  Cert.KernelIdeal.TailVal.n_v96 (exitVal m c (Proc.devRef .tc main_v44_0))
    = Cert.ReferenceIdeal.Read.val_main_v50 (F := F)
        (m' ((c.tc : Thread Cert.ReferenceIdeal.nD Cert.ReferenceIdeal.τ).loc Cert.ReferenceIdeal.main_arg3))
        (m' ((c.tc : Thread Cert.ReferenceIdeal.nD Cert.ReferenceIdeal.τ).loc Cert.ReferenceIdeal.main_arg5))

/-- The same from the array the region's run leaves in its first output window. -/
theorem gsumAgree_of_arr
    (h : Cert.KernelIdeal.TailVal.n_v96 ((dats m 0 c).arrAt 5 cfg0.N)
      = Cert.ReferenceIdeal.Read.val_main_v50 (F := F)
          (m' ((c.tc : Thread Cert.ReferenceIdeal.nD Cert.ReferenceIdeal.τ).loc Cert.ReferenceIdeal.main_arg3))
          (m' ((c.tc : Thread Cert.ReferenceIdeal.nD Cert.ReferenceIdeal.τ).loc Cert.ReferenceIdeal.main_arg5))) :
    GsumAgree m m' c :=
  (congrArg Cert.KernelIdeal.TailVal.n_v96 (exitVal_arr m c 5)).trans h

/-- THE SECOND RESULT of the kernel program is the reference's, once the per-organisation sums agree. -/
theorem second_eq (hagree : Agree m m' c) (hgsum : GsumAgree m m' c) :
    resK m c main_v185
      = Cert.ReferenceIdeal.Read.val_main_v143 (F := F)
          (m' ((c.tc : Thread Cert.ReferenceIdeal.nD Cert.ReferenceIdeal.τ).loc Cert.ReferenceIdeal.main_arg0))
          (m' ((c.tc : Thread Cert.ReferenceIdeal.nD Cert.ReferenceIdeal.τ).loc Cert.ReferenceIdeal.main_arg1))
          (m' ((c.tc : Thread Cert.ReferenceIdeal.nD Cert.ReferenceIdeal.τ).loc Cert.ReferenceIdeal.main_arg2))
          (m' ((c.tc : Thread Cert.ReferenceIdeal.nD Cert.ReferenceIdeal.τ).loc Cert.ReferenceIdeal.main_arg3))
          (m' ((c.tc : Thread Cert.ReferenceIdeal.nD Cert.ReferenceIdeal.τ).loc Cert.ReferenceIdeal.main_arg4))
          (m' ((c.tc : Thread Cert.ReferenceIdeal.nD Cert.ReferenceIdeal.τ).loc Cert.ReferenceIdeal.main_arg5)) := by
  obtain ⟨h0, h1, h2, h3, h4, h5⟩ := hagree
  rw [resK_eq, Cert.KernelIdeal.TailVal.tail_v185, second_ref, hgsum,
    exitVal_rest m c main_v7 (by decide), exitVal_rest m c main_arg1 (by decide), exitVal_rest m c main_arg2 (by decide),
    exitVal_rest m c main_arg4 (by decide), exitVal_rest m c main_arg5 (by decide),
    V_main_arg1, V_main_arg2, V_main_arg4, V_main_arg5, Cert.KernelIdeal.HeadVal.V_v7, ref_v7, ref_v54, h0, h1, h2, h4, h5]

/-- THE THIRD RESULT likewise. -/
theorem third_eq (hagree : Agree m m' c) (hgsum : GsumAgree m m' c) :
    resK m c main_v209
      = Cert.ReferenceIdeal.Read.val_main_v167 (F := F)
          (m' ((c.tc : Thread Cert.ReferenceIdeal.nD Cert.ReferenceIdeal.τ).loc Cert.ReferenceIdeal.main_arg1))
          (m' ((c.tc : Thread Cert.ReferenceIdeal.nD Cert.ReferenceIdeal.τ).loc Cert.ReferenceIdeal.main_arg2))
          (m' ((c.tc : Thread Cert.ReferenceIdeal.nD Cert.ReferenceIdeal.τ).loc Cert.ReferenceIdeal.main_arg3))
          (m' ((c.tc : Thread Cert.ReferenceIdeal.nD Cert.ReferenceIdeal.τ).loc Cert.ReferenceIdeal.main_arg4))
          (m' ((c.tc : Thread Cert.ReferenceIdeal.nD Cert.ReferenceIdeal.τ).loc Cert.ReferenceIdeal.main_arg5)) := by
  obtain ⟨h0, h1, h2, h3, h4, h5⟩ := hagree
  rw [resK_eq, Cert.KernelIdeal.TailVal.tail_v209, third_ref, hgsum,
    exitVal_rest m c main_arg1 (by decide), exitVal_rest m c main_arg2 (by decide),
    exitVal_rest m c main_arg4 (by decide), exitVal_rest m c main_arg5 (by decide),
    V_main_arg1, V_main_arg2, V_main_arg4, V_main_arg5, ref_v54, h1, h2, h4, h5]

end Programs

end Cert.Chain

end
-- ==== Proof.Bridge23.lean ====
/-
  The second and third results of the two programs agree. Both programs apply the same host operations to the same
  arguments and to the per-organisation column sums of the queue; the sums are made differently (the reference scatters
  the queue's columns by organisation, the streaming program adds its two cores' partial sums and transposes), and
  under finite inputs both are, at (organisation o, feature e), the sum over the 65536 queue columns of organisation o
  of row e of the queue: the streaming program's as the sum of the region's results for its two halves of 32768
  columns. So the results agree.
-/
import proofs.«405218_j60748017434937_2_alg».proof.Proof.KI.FromPre
import proofs.«405218_j60748017434937_2_alg».proof.Proof.KI.ValueRun
import proofs.«405218_j60748017434937_2_alg».proof.Proof.GsumBridge
import proofs.«405218_j60748017434937_2_alg».proof.Proof.RefGsum
import proofs.«405218_j60748017434937_2_alg».proof.Proof.Chain

set_option maxRecDepth 16384

noncomputable section

namespace Cert.Bridge23

open Cert.KernelIdeal Cert.KernelIdeal.Gen Cert.KernelIdeal.Hand
open Idealize.ShloMosaic Idealize.ShloMosaic.TcCoe ValueIdx
open Idealize.SL.Sem
open Idealize.ShloMosaic.Pipeline (Dat)

variable (m : (ℓ : Loc Cert.KernelIdeal.nD Cert.KernelIdeal.τ Cert.KernelIdeal.sig) → Buf (Elt Ideal) ℓ)
  (c : Dev Cert.KernelIdeal.nD)
  (m' : (ℓ : Loc Cert.ReferenceIdeal.nD Cert.ReferenceIdeal.τ Cert.ReferenceIdeal.sig) → Buf (Elt Ideal) ℓ)

/-- THE PER-ORGANISATION SUMS AGREE. The two cores' partial sums the region leaves, added and transposed, are the
    reference's scatter of the queue's columns by organisation: at (o, e) both are the sum over the 65536 queue columns
    of organisation o of row e of the queue, the kernel's as the sum of its two halves. -/
theorem gsum_arr [Cert.Pre_finite_inputs.Facts] (hpre : Cert.KernelIdeal.FromPre.PreAt m c)
    (hagree : Cert.Chain.Agree m m' c) :
    transpose S2048x128 [1, 0]
        (Host.reduceAdd ((dats m 0 c).arrAt 5 cfg0.N : FVec Ideal S2x128x2048 .f32)
          (constant S_ .f32 0x00000000#32 : FVec Ideal S_ .f32) reducesTo_S2x128x2048_S128x2048_d0 h_S_)
        transposes_S128x2048_S2048x128_1_0
      = Cert.ReferenceIdeal.Read.val_main_v50 (F := Ideal) (m' ((c.tc : Thread Cert.ReferenceIdeal.nD Cert.ReferenceIdeal.τ).loc Cert.ReferenceIdeal.main_arg3)) (m' ((c.tc : Thread Cert.ReferenceIdeal.nD Cert.ReferenceIdeal.τ).loc Cert.ReferenceIdeal.main_arg5)) := by
  obtain ⟨X0, X1, X2, Q, h0, h1, h2, h3, h4⟩ := Cert.KernelIdeal.FromPre.data_of_pre m c hpre
  obtain ⟨a0, a1, a2, a3, a4, a5⟩ := hagree
  rw [a3, a5]
  exact Cert.GsumBridge.gsum_agree_scatter ((dats m 0 c).arrAt 5 cfg0.N) reducesTo_S2x128x2048_S128x2048_d0 h_S_
    transposes_S128x2048_S2048x128_1_0 _ _ _ Q (Cert.KernelIdeal.FromPre.qi m c)
    (fun k e o => Cert.KernelIdeal.FromPre.region_gsum' m c Q h3 k e o)
    (fun o e => Cert.RefGsum.gsum_at (m ((c.tc : Thread Cert.KernelIdeal.nD Cert.KernelIdeal.τ).loc Cert.KernelIdeal.main_arg3)) (m ((c.tc : Thread Cert.KernelIdeal.nD Cert.KernelIdeal.τ).loc Cert.KernelIdeal.main_arg5)) Q h3 o e)

/-- The same in the form the chain of host operations takes it. -/
theorem gsum_agree [Cert.Pre_finite_inputs.Facts] (hpre : Cert.KernelIdeal.FromPre.PreAt m c)
    (hagree : Cert.Chain.Agree m m' c) : Cert.Chain.GsumAgree m m' c :=
  Cert.Chain.gsumAgree_of_arr m m' c (gsum_arr m c m' hpre hagree)

/-- THE SECOND RESULT of the reference is the streaming program's. -/
theorem second_loss [Cert.Pre_finite_inputs.Facts] (hpre : Cert.KernelIdeal.FromPre.PreAt m c)
    (hagree : Cert.Chain.Agree m m' c) :
    Cert.ReferenceIdeal.Read.val_main_v143 (F := Ideal) (m' ((c.tc : Thread Cert.ReferenceIdeal.nD Cert.ReferenceIdeal.τ).loc Cert.ReferenceIdeal.main_arg0)) (m' ((c.tc : Thread Cert.ReferenceIdeal.nD Cert.ReferenceIdeal.τ).loc Cert.ReferenceIdeal.main_arg1)) (m' ((c.tc : Thread Cert.ReferenceIdeal.nD Cert.ReferenceIdeal.τ).loc Cert.ReferenceIdeal.main_arg2)) (m' ((c.tc : Thread Cert.ReferenceIdeal.nD Cert.ReferenceIdeal.τ).loc Cert.ReferenceIdeal.main_arg3)) (m' ((c.tc : Thread Cert.ReferenceIdeal.nD Cert.ReferenceIdeal.τ).loc Cert.ReferenceIdeal.main_arg4)) (m' ((c.tc : Thread Cert.ReferenceIdeal.nD Cert.ReferenceIdeal.τ).loc Cert.ReferenceIdeal.main_arg5))
      = resK m c main_v185 :=
  (Cert.Chain.second_eq m m' c hagree (gsum_agree m c m' hpre hagree)).symm

/-- THE THIRD RESULT of the reference is the streaming program's. -/
theorem third_loss [Cert.Pre_finite_inputs.Facts] (hpre : Cert.KernelIdeal.FromPre.PreAt m c)
    (hagree : Cert.Chain.Agree m m' c) :
    Cert.ReferenceIdeal.Read.val_main_v167 (F := Ideal) (m' ((c.tc : Thread Cert.ReferenceIdeal.nD Cert.ReferenceIdeal.τ).loc Cert.ReferenceIdeal.main_arg1)) (m' ((c.tc : Thread Cert.ReferenceIdeal.nD Cert.ReferenceIdeal.τ).loc Cert.ReferenceIdeal.main_arg2)) (m' ((c.tc : Thread Cert.ReferenceIdeal.nD Cert.ReferenceIdeal.τ).loc Cert.ReferenceIdeal.main_arg3)) (m' ((c.tc : Thread Cert.ReferenceIdeal.nD Cert.ReferenceIdeal.τ).loc Cert.ReferenceIdeal.main_arg4)) (m' ((c.tc : Thread Cert.ReferenceIdeal.nD Cert.ReferenceIdeal.τ).loc Cert.ReferenceIdeal.main_arg5))
      = resK m c main_v209 :=
  (Cert.Chain.third_eq m m' c hagree (gsum_agree m c m' hpre hagree)).symm

end Cert.Bridge23

end
-- ==== Proof.lean ====
/-
  The certificate. The word-level kernel and its idealization both run, the frame of the streaming region and of the
  host operations around it proved once for any float instance; the reference's frame is its run with the results
  dropped; the idealization rewrote nothing. At the ideal instance, from memories agreeing on the six arguments, with
  every float input finite and the batch's organisation indices in range, the two programs' three losses agree: the
  first because the streamed log-sum-exp and the closed form of the weighted log-softmax row give the reference's row
  sum; the second and third because both programs apply the same host operations to the normalised anchors, the
  per-organisation sums and the counts, and the streamed per-organisation sums are the reference's segment sums.
-/
import proofs.«405218_j60748017434937_2_alg».proof.Defs
import proofs.«405218_j60748017434937_2_alg».proof.Proof.Gen.Pre_finite_inputs
import proofs.«405218_j60748017434937_2_alg».proof.Proof.K.Frame
import proofs.«405218_j60748017434937_2_alg».proof.Proof.KI.ValueRun
import proofs.«405218_j60748017434937_2_alg».proof.Proof.KI.FromPre
import proofs.«405218_j60748017434937_2_alg».proof.Proof.RefRun
import proofs.«405218_j60748017434937_2_alg».proof.Proof.Bridge1
import proofs.«405218_j60748017434937_2_alg».proof.Proof.Bridge23

noncomputable section

namespace Cert.Proof

open Idealize.ShloMosaic Idealize.SL.Sem

/-- The word-level kernel runs and leaves its six arguments as launched. -/
theorem frame_p : Cert.frame_Kernel (hKernel := Cert.Kernel.Gen.facts) (hPre_finite_inputs := Cert.Pre_finite_inputs.Gen.facts) :=
  fun m ρ _ => Cert.Kernel.Hand.frame m ρ
/-- So does its idealization. -/
theorem frame_pi : Cert.frame_KernelIdeal (hKernelIdeal := Cert.KernelIdeal.Gen.facts) (hPre_finite_inputs := Cert.Pre_finite_inputs.Gen.facts) :=
  fun m ρ _ => Cert.KernelIdeal.Hand.frame m ρ
/-- The reference's frame: its run, the results dropped. -/
theorem frame_ri : Cert.frame_ReferenceIdeal (hReferenceIdeal := Cert.ReferenceIdeal.Gen.facts) (hPre_finite_inputs := Cert.Pre_finite_inputs.Gen.facts) :=
  fun m ρ _ => (θ_run Cert.ReferenceIdeal.defs _ _).mono (fun _ h c => (h c).2.2.2) (Cert.ReferenceIdeal.ValueH.run (F := Ideal) m ρ)

/-- The two idealized programs end with equal losses. -/
theorem algebraic : Cert.algebraic_KernelIdeal_ReferenceIdeal (hKernelIdeal := Cert.KernelIdeal.Gen.facts) (hReferenceIdeal := Cert.ReferenceIdeal.Gen.facts) (hPre_finite_inputs := Cert.Pre_finite_inputs.Gen.facts) := by
  intro m ρ m' ρ' hpre hagree
  refine ⟨fun c => Cert.KernelIdeal.Hand.resK m c Cert.KernelIdeal.main_v94, fun c => Cert.KernelIdeal.Hand.resK m c Cert.KernelIdeal.main_v185,
    fun c => Cert.KernelIdeal.Hand.resK m c Cert.KernelIdeal.main_v209, Cert.KernelIdeal.Hand.run_values m ρ, ?_⟩
  refine (θ_run Cert.ReferenceIdeal.defs _ _).mono (fun _ h c => ⟨(h c).1.trans ?_, (h c).2.1.trans ?_, (h c).2.2.1.trans ?_, (h c).2.2.2⟩)
    (Cert.ReferenceIdeal.ValueH.run (F := Ideal) m' ρ')
  · exact Cert.Bridge1.first_loss m c m' (hpre c) (hagree c)
  · exact Cert.Bridge23.second_loss m c m' (hpre c) (hagree c)
  · exact Cert.Bridge23.third_loss m c m' (hpre c) (hagree c)

theorem claim : Cert.Claim :=
  ⟨Cert.Kernel.Gen.facts, Cert.KernelIdeal.Gen.facts, Cert.ReferenceIdeal.Gen.facts, Cert.Pre_finite_inputs.Gen.facts,
    frame_p, frame_pi, frame_ri, trivial, algebraic⟩

end Cert.Proof

end
